-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v423) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S4x2x500000 : Shape := ⟨3, ![4, 2, 500000]⟩
abbrev S4x64x64 : Shape := ⟨3, ![4, 64, 64]⟩
abbrev S4x64 : Shape := ⟨2, ![4, 64]⟩
abbrev S4x64x192 : Shape := ⟨3, ![4, 64, 192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x192 : S_.BroadcastsInDim S4x64x192 (![] : Fin 0 → Fin S4x64x192.rank)
  reducesTo_S4x64x192_S_d0_1_2 : S4x64x192.ReducesTo [0, 1, 2] S_
  bcast_S_S4x2x500000 : S_.BroadcastsInDim S4x2x500000 (![] : Fin 0 → Fin S4x2x500000.rank)
  reducesTo_S4x2x500000_S_d0_1_2 : S4x2x500000.ReducesTo [0, 1, 2] S_

variable [Facts]

def fn_part3 {F : FTy → Type} [FloatOps F] (main_arg1 : IVec S4x2x500000 32) (main_arg12 : FVec F S4x64 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64 .f32 := Host.absf main_arg12
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_c_22 : IVec S_ 32 := constantI S_ 32 0#32
  let main_v59 : IVec S4x2x500000 32 := broadcastInDim S4x2x500000 ![] bcast_S_S4x2x500000 main_c_22
  let main_v60 : IVec S4x2x500000 1 := cmpi .sge main_arg1 main_v59
  let main_c_23 : IVec S_ 32 := constantI S_ 32 100000#32
  let main_v61 : IVec S4x2x500000 32 := broadcastInDim S4x2x500000 ![] bcast_S_S4x2x500000 main_c_23
  let main_v62 : IVec S4x2x500000 1 := cmpi .slt main_arg1 main_v61
  let main_v63 : IVec S4x2x500000 1 := andi main_v60 main_v62
  let main_c_24 : IVec S_ 1 := constantI S_ 1 1#1
  let main_v64 : IVec S_ 1 := (fun x v => Host.reduce IntOp.andi x v reducesTo_S4x2x500000_S_d0_1_2 h_S_) main_v63 main_c_24
  let main_v65 : IVec S_ 1 := andi main_v58 main_v64
  main_v65

def fn_part2 {F : FTy → Type} [FloatOps F] (main_arg1 : IVec S4x2x500000 32) (main_arg8 : FVec F S4x64x64 .f32) (main_arg9 : FVec F S4x64 .f32) (main_arg10 : FVec F S4x64x192 .f32) (main_arg11 : FVec F S4x64 .f32) (main_arg12 : FVec F S4x64 .f32) (main_v33 : IVec S_ 1) : IVec S_ 1 :=
  let main_v34 : FVec F S4x64x64 .f32 := Host.absf main_arg8
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64 .f32 := Host.absf main_arg9
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x64x192 .f32 := Host.absf main_arg10
  let main_cst_16 : FVec F S_ .f32 := constant S_ .f32 0x7F800000#32
  let main_v45 : FVec F S4x64x192 .f32 := broadcastInDim S4x64x192 ![] bcast_S_S4x64x192 main_cst_16
  let main_v46 : IVec S4x64x192 1 := cmpf .olt main_v44 main_v45
  let main_c_17 : IVec S_ 1 := constantI S_ 1 1#1
  let main_v47 : IVec S_ 1 := (fun x v => Host.reduce IntOp.andi x v reducesTo_S4x64x192_S_d0_1_2 h_S_) main_v46 main_c_17
  let main_v48 : IVec S_ 1 := andi main_v43 main_v47
  let main_v49 : FVec F S4x64 .f32 := Host.absf main_arg11
  let main_cst_18 : FVec F S_ .f32 := constant S_ .f32 0x7F800000#32
  let main_v50 : FVec F S4x64 .f32 := broadcastInDim S4x64 ![] bcast_S_S4x64 main_cst_18
  fn_part3 (F := F) main_arg1 main_arg12 main_v48 main_v49 main_v50

def fn_part1 {F : FTy → Type} [FloatOps F] (main_arg1 : IVec S4x2x500000 32) (main_arg5 : FVec F S4x64 .f32) (main_arg6 : FVec F S4x64 .f32) (main_arg7 : FVec F S4x64 .f32) (main_arg8 : FVec F S4x64x64 .f32) (main_arg9 : FVec F S4x64 .f32) (main_arg10 : FVec F S4x64x192 .f32) (main_arg11 : FVec F S4x64 .f32) (main_arg12 : FVec F S4x64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg6
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64 .f32 := Host.absf main_arg7
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x64 .f32) (main_arg1 : IVec S4x2x500000 32) (main_arg2 : FVec F S4x64x64 .f32) (main_arg3 : FVec F S4x64 .f32) (main_arg4 : FVec F S4x64x64 .f32) (main_arg5 : FVec F S4x64 .f32) (main_arg6 : FVec F S4x64 .f32) (main_arg7 : FVec F S4x64 .f32) (main_arg8 : FVec F S4x64x64 .f32) (main_arg9 : FVec F S4x64 .f32) (main_arg10 : FVec F S4x64x192 .f32) (main_arg11 : FVec F S4x64 .f32) (main_arg12 : FVec F S4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg1 main_arg5 main_arg6 main_arg7 main_arg8 main_arg9 main_arg10 main_arg11 main_arg12 main_v13 main_v16
-- ==== Kernel.lean ====
abbrev S100000x64 : Shape := ⟨2, ![100000, 64]⟩
abbrev S4x2x500000 : Shape := ⟨3, ![4, 2, 500000]⟩
abbrev S4x64x64 : Shape := ⟨3, ![4, 64, 64]⟩
abbrev S4x64 : Shape := ⟨2, ![4, 64]⟩
abbrev S4x64x192 : Shape := ⟨3, ![4, 64, 192]⟩
abbrev S_ : Shape := ⟨0, ![]⟩
abbrev S1x2x500000 : Shape := ⟨3, ![1, 2, 500000]⟩
abbrev S2x500000 : Shape := ⟨2, ![2, 500000]⟩
abbrev S1x500000 : Shape := ⟨2, ![1, 500000]⟩
abbrev S500000 : Shape := ⟨1, ![500000]⟩
abbrev S500000x1 : Shape := ⟨2, ![500000, 1]⟩
abbrev S1 : Shape := ⟨1, ![1]⟩
abbrev S1x1 : Shape := ⟨2, ![1, 1]⟩
abbrev S500000x64 : Shape := ⟨2, ![500000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S10000 : Shape := ⟨1, ![10000]⟩
abbrev S10000x1 : Shape := ⟨2, ![10000, 1]⟩
abbrev S500000x128 : Shape := ⟨2, ![500000, 128]⟩
abbrev S100000x128 : Shape := ⟨2, ![100000, 128]⟩
abbrev S1x64x192 : Shape := ⟨3, ![1, 64, 192]⟩
abbrev S64x192 : Shape := ⟨2, ![64, 192]⟩
abbrev S192x64 : Shape := ⟨2, ![192, 64]⟩
abbrev S128x64 : Shape := ⟨2, ![128, 64]⟩
abbrev S10000x128 : Shape := ⟨2, ![10000, 128]⟩

abbrev nBuf : Space → Nat
  | .hbm => 490
  | .vmem => 104
  | .smem => 0
  | _ => 0

abbrev hbmTy0_0 (i : Nat) : BufTy := match i % 128 with
  | 0 => ⟨S100000x64, .f32⟩
  | 1 => ⟨S4x2x500000, .i32⟩
  | 2 => ⟨S4x64x64, .f32⟩
  | 3 => ⟨S4x64, .f32⟩
  | 4 => ⟨S4x64x64, .f32⟩
  | 5 => ⟨S4x64, .f32⟩
  | 6 => ⟨S4x64, .f32⟩
  | 7 => ⟨S4x64, .f32⟩
  | 8 => ⟨S4x64x64, .f32⟩
  | 9 => ⟨S4x64, .f32⟩
  | 10 => ⟨S4x64x192, .f32⟩
  | 11 => ⟨S4x64, .f32⟩
  | 12 => ⟨S4x64, .f32⟩
  | 13 => ⟨S_, .f32⟩
  | 14 => ⟨S100000x64, .f32⟩
  | 15 => ⟨S1x2x500000, .i32⟩
  | 16 => ⟨S2x500000, .i32⟩
  | 17 => ⟨S1x500000, .i32⟩
  | 18 => ⟨S500000, .i32⟩
  | 19 => ⟨S1x500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S1, .i32⟩
  | 30 => ⟨S_, .i32⟩
  | 31 => ⟨S500000x1, .i32⟩
  | 32 => ⟨S500000x1, .i1⟩
  | 33 => ⟨S1x1, .i32⟩
  | 34 => ⟨S500000x1, .i32⟩
  | 35 => ⟨S500000x1, .i1⟩
  | 36 => ⟨S500000x1, .i1⟩
  | 37 => ⟨S_, .i1⟩
  | 38 => ⟨S500000, .i1⟩
  | 39 => ⟨S500000x64, .f32⟩
  | 40 => ⟨S500000x64, .i1⟩
  | 41 => ⟨S_, .f32⟩
  | 42 => ⟨S500000x64, .f32⟩
  | 43 => ⟨S500000x64, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S1, .i32⟩
  | 53 => ⟨S_, .i32⟩
  | 54 => ⟨S500000x1, .i32⟩
  | 55 => ⟨S500000x1, .i1⟩
  | 56 => ⟨S1x1, .i32⟩
  | 57 => ⟨S500000x1, .i32⟩
  | 58 => ⟨S500000x1, .i1⟩
  | 59 => ⟨S500000x1, .i1⟩
  | 60 => ⟨S_, .i1⟩
  | 61 => ⟨S500000, .i1⟩
  | 62 => ⟨S500000x64, .f32⟩
  | 63 => ⟨S500000x64, .i1⟩
  | 64 => ⟨S_, .f32⟩
  | 65 => ⟨S500000x64, .f32⟩
  | 66 => ⟨S500000x64, .f32⟩
  | 67 => ⟨S500000x64, .f32⟩
  | 68 => ⟨S500000x64, .f32⟩
  | 69 => ⟨S1x64x64, .f32⟩
  | 70 => ⟨S64x64, .f32⟩
  | 71 => ⟨S64x64, .f32⟩
  | 72 => ⟨S64x64, .bf16⟩
  | 73 => ⟨S1x64x64, .f32⟩
  | 74 => ⟨S64x64, .f32⟩
  | 75 => ⟨S64x64, .f32⟩
  | 76 => ⟨S64x64, .bf16⟩
  | 77 => ⟨S1x64, .f32⟩
  | 78 => ⟨S64, .f32⟩
  | 79 => ⟨S1x64, .f32⟩
  | 80 => ⟨S64, .f32⟩
  | 81 => ⟨S1x64, .f32⟩
  | 82 => ⟨S64, .f32⟩
  | 83 => ⟨S1x64, .f32⟩
  | 84 => ⟨S64, .f32⟩
  | 85 => ⟨S500000x64, .f32⟩
  | 86 => ⟨S1x64x64, .f32⟩
  | 87 => ⟨S64x64, .f32⟩
  | 88 => ⟨S64x64, .f32⟩
  | 89 => ⟨S64x64, .bf16⟩
  | 90 => ⟨S1x64, .f32⟩
  | 91 => ⟨S64, .f32⟩
  | 92 => ⟨S100000x64, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S1, .i32⟩
  | 102 => ⟨S_, .i32⟩
  | 103 => ⟨S500000x1, .i32⟩
  | 104 => ⟨S500000x1, .i1⟩
  | 105 => ⟨S1x1, .i32⟩
  | 106 => ⟨S500000x1, .i32⟩
  | 107 => ⟨S500000x1, .i1⟩
  | 108 => ⟨S500000x1, .i1⟩
  | 109 => ⟨S_, .i1⟩
  | 110 => ⟨S500000, .i1⟩
  | 111 => ⟨S500000x64, .f32⟩
  | 112 => ⟨S500000x64, .i1⟩
  | 113 => ⟨S_, .f32⟩
  | 114 => ⟨S500000x64, .f32⟩
  | 115 => ⟨S500000x64, .f32⟩
  | 116 => ⟨S500000x128, .f32⟩
  | 117 => ⟨S_, .f32⟩
  | 118 => ⟨S100000x128, .f32⟩
  | 119 => ⟨S500000x1, .i32⟩
  | 120 => ⟨S100000x128, .f32⟩
  | 121 => ⟨S1x64x192, .f32⟩
  | 122 => ⟨S64x192, .f32⟩
  | 123 => ⟨S192x64, .f32⟩
  | 124 => ⟨S192x64, .bf16⟩
  | 125 => ⟨S64x64, .bf16⟩
  | 126 => ⟨S128x64, .bf16⟩
  | 127 => ⟨S1x64, .f32⟩
  | _ => ⟨S100000x64, .f32⟩

abbrev hbmTy0_1 (i : Nat) : BufTy := match i % 128 with
  | 0 => ⟨S64, .f32⟩
  | 1 => ⟨S1x64, .f32⟩
  | 2 => ⟨S64, .f32⟩
  | 3 => ⟨S100000x64, .f32⟩
  | 4 => ⟨S100000x64, .f32⟩
  | 5 => ⟨S1x2x500000, .i32⟩
  | 6 => ⟨S2x500000, .i32⟩
  | 7 => ⟨S1x500000, .i32⟩
  | 8 => ⟨S500000, .i32⟩
  | 9 => ⟨S1x500000, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S1, .i32⟩
  | 20 => ⟨S_, .i32⟩
  | 21 => ⟨S500000x1, .i32⟩
  | 22 => ⟨S500000x1, .i1⟩
  | 23 => ⟨S1x1, .i32⟩
  | 24 => ⟨S500000x1, .i32⟩
  | 25 => ⟨S500000x1, .i1⟩
  | 26 => ⟨S500000x1, .i1⟩
  | 27 => ⟨S_, .i1⟩
  | 28 => ⟨S500000, .i1⟩
  | 29 => ⟨S500000x64, .f32⟩
  | 30 => ⟨S500000x64, .i1⟩
  | 31 => ⟨S_, .f32⟩
  | 32 => ⟨S500000x64, .f32⟩
  | 33 => ⟨S500000x64, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S1, .i32⟩
  | 43 => ⟨S_, .i32⟩
  | 44 => ⟨S500000x1, .i32⟩
  | 45 => ⟨S500000x1, .i1⟩
  | 46 => ⟨S1x1, .i32⟩
  | 47 => ⟨S500000x1, .i32⟩
  | 48 => ⟨S500000x1, .i1⟩
  | 49 => ⟨S500000x1, .i1⟩
  | 50 => ⟨S_, .i1⟩
  | 51 => ⟨S500000, .i1⟩
  | 52 => ⟨S500000x64, .f32⟩
  | 53 => ⟨S500000x64, .i1⟩
  | 54 => ⟨S_, .f32⟩
  | 55 => ⟨S500000x64, .f32⟩
  | 56 => ⟨S500000x64, .f32⟩
  | 57 => ⟨S500000x64, .f32⟩
  | 58 => ⟨S500000x64, .f32⟩
  | 59 => ⟨S1x64x64, .f32⟩
  | 60 => ⟨S64x64, .f32⟩
  | 61 => ⟨S64x64, .f32⟩
  | 62 => ⟨S64x64, .bf16⟩
  | 63 => ⟨S1x64x64, .f32⟩
  | 64 => ⟨S64x64, .f32⟩
  | 65 => ⟨S64x64, .f32⟩
  | 66 => ⟨S64x64, .bf16⟩
  | 67 => ⟨S1x64, .f32⟩
  | 68 => ⟨S64, .f32⟩
  | 69 => ⟨S1x64, .f32⟩
  | 70 => ⟨S64, .f32⟩
  | 71 => ⟨S1x64, .f32⟩
  | 72 => ⟨S64, .f32⟩
  | 73 => ⟨S1x64, .f32⟩
  | 74 => ⟨S64, .f32⟩
  | 75 => ⟨S500000x64, .f32⟩
  | 76 => ⟨S1x64x64, .f32⟩
  | 77 => ⟨S64x64, .f32⟩
  | 78 => ⟨S64x64, .f32⟩
  | 79 => ⟨S64x64, .bf16⟩
  | 80 => ⟨S1x64, .f32⟩
  | 81 => ⟨S64, .f32⟩
  | 82 => ⟨S100000x64, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S1, .i32⟩
  | 92 => ⟨S_, .i32⟩
  | 93 => ⟨S500000x1, .i32⟩
  | 94 => ⟨S500000x1, .i1⟩
  | 95 => ⟨S1x1, .i32⟩
  | 96 => ⟨S500000x1, .i32⟩
  | 97 => ⟨S500000x1, .i1⟩
  | 98 => ⟨S500000x1, .i1⟩
  | 99 => ⟨S_, .i1⟩
  | 100 => ⟨S500000, .i1⟩
  | 101 => ⟨S500000x64, .f32⟩
  | 102 => ⟨S500000x64, .i1⟩
  | 103 => ⟨S_, .f32⟩
  | 104 => ⟨S500000x64, .f32⟩
  | 105 => ⟨S500000x64, .f32⟩
  | 106 => ⟨S500000x128, .f32⟩
  | 107 => ⟨S_, .f32⟩
  | 108 => ⟨S100000x128, .f32⟩
  | 109 => ⟨S500000x1, .i32⟩
  | 110 => ⟨S100000x128, .f32⟩
  | 111 => ⟨S1x64x192, .f32⟩
  | 112 => ⟨S64x192, .f32⟩
  | 113 => ⟨S192x64, .f32⟩
  | 114 => ⟨S192x64, .bf16⟩
  | 115 => ⟨S64x64, .bf16⟩
  | 116 => ⟨S128x64, .bf16⟩
  | 117 => ⟨S1x64, .f32⟩
  | 118 => ⟨S64, .f32⟩
  | 119 => ⟨S1x64, .f32⟩
  | 120 => ⟨S64, .f32⟩
  | 121 => ⟨S100000x64, .f32⟩
  | 122 => ⟨S100000x64, .f32⟩
  | 123 => ⟨S1x2x500000, .i32⟩
  | 124 => ⟨S2x500000, .i32⟩
  | 125 => ⟨S1x500000, .i32⟩
  | 126 => ⟨S500000, .i32⟩
  | 127 => ⟨S1x500000, .i32⟩
  | _ => ⟨S100000x64, .f32⟩

abbrev hbmTy0_2 (i : Nat) : BufTy := match i % 128 with
  | 0 => ⟨S500000, .i32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S1, .i32⟩
  | 10 => ⟨S_, .i32⟩
  | 11 => ⟨S500000x1, .i32⟩
  | 12 => ⟨S500000x1, .i1⟩
  | 13 => ⟨S1x1, .i32⟩
  | 14 => ⟨S500000x1, .i32⟩
  | 15 => ⟨S500000x1, .i1⟩
  | 16 => ⟨S500000x1, .i1⟩
  | 17 => ⟨S_, .i1⟩
  | 18 => ⟨S500000, .i1⟩
  | 19 => ⟨S500000x64, .f32⟩
  | 20 => ⟨S500000x64, .i1⟩
  | 21 => ⟨S_, .f32⟩
  | 22 => ⟨S500000x64, .f32⟩
  | 23 => ⟨S500000x64, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S1, .i32⟩
  | 33 => ⟨S_, .i32⟩
  | 34 => ⟨S500000x1, .i32⟩
  | 35 => ⟨S500000x1, .i1⟩
  | 36 => ⟨S1x1, .i32⟩
  | 37 => ⟨S500000x1, .i32⟩
  | 38 => ⟨S500000x1, .i1⟩
  | 39 => ⟨S500000x1, .i1⟩
  | 40 => ⟨S_, .i1⟩
  | 41 => ⟨S500000, .i1⟩
  | 42 => ⟨S500000x64, .f32⟩
  | 43 => ⟨S500000x64, .i1⟩
  | 44 => ⟨S_, .f32⟩
  | 45 => ⟨S500000x64, .f32⟩
  | 46 => ⟨S500000x64, .f32⟩
  | 47 => ⟨S500000x64, .f32⟩
  | 48 => ⟨S500000x64, .f32⟩
  | 49 => ⟨S1x64x64, .f32⟩
  | 50 => ⟨S64x64, .f32⟩
  | 51 => ⟨S64x64, .f32⟩
  | 52 => ⟨S64x64, .bf16⟩
  | 53 => ⟨S1x64x64, .f32⟩
  | 54 => ⟨S64x64, .f32⟩
  | 55 => ⟨S64x64, .f32⟩
  | 56 => ⟨S64x64, .bf16⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S64, .f32⟩
  | 65 => ⟨S500000x64, .f32⟩
  | 66 => ⟨S1x64x64, .f32⟩
  | 67 => ⟨S64x64, .f32⟩
  | 68 => ⟨S64x64, .f32⟩
  | 69 => ⟨S64x64, .bf16⟩
  | 70 => ⟨S1x64, .f32⟩
  | 71 => ⟨S64, .f32⟩
  | 72 => ⟨S100000x64, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S1, .i32⟩
  | 82 => ⟨S_, .i32⟩
  | 83 => ⟨S500000x1, .i32⟩
  | 84 => ⟨S500000x1, .i1⟩
  | 85 => ⟨S1x1, .i32⟩
  | 86 => ⟨S500000x1, .i32⟩
  | 87 => ⟨S500000x1, .i1⟩
  | 88 => ⟨S500000x1, .i1⟩
  | 89 => ⟨S_, .i1⟩
  | 90 => ⟨S500000, .i1⟩
  | 91 => ⟨S500000x64, .f32⟩
  | 92 => ⟨S500000x64, .i1⟩
  | 93 => ⟨S_, .f32⟩
  | 94 => ⟨S500000x64, .f32⟩
  | 95 => ⟨S500000x64, .f32⟩
  | 96 => ⟨S500000x128, .f32⟩
  | 97 => ⟨S_, .f32⟩
  | 98 => ⟨S100000x128, .f32⟩
  | 99 => ⟨S500000x1, .i32⟩
  | 100 => ⟨S100000x128, .f32⟩
  | 101 => ⟨S1x64x192, .f32⟩
  | 102 => ⟨S64x192, .f32⟩
  | 103 => ⟨S192x64, .f32⟩
  | 104 => ⟨S192x64, .bf16⟩
  | 105 => ⟨S64x64, .bf16⟩
  | 106 => ⟨S128x64, .bf16⟩
  | 107 => ⟨S1x64, .f32⟩
  | 108 => ⟨S64, .f32⟩
  | 109 => ⟨S1x64, .f32⟩
  | 110 => ⟨S64, .f32⟩
  | 111 => ⟨S100000x64, .f32⟩
  | 112 => ⟨S100000x64, .f32⟩
  | 113 => ⟨S1x2x500000, .i32⟩
  | 114 => ⟨S2x500000, .i32⟩
  | 115 => ⟨S1x500000, .i32⟩
  | 116 => ⟨S500000, .i32⟩
  | 117 => ⟨S1x500000, .i32⟩
  | 118 => ⟨S500000, .i32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S1, .i32⟩
  | _ => ⟨S100000x64, .f32⟩

abbrev hbmTy0_3 (i : Nat) : BufTy := match i % 128 with
  | 0 => ⟨S_, .i32⟩
  | 1 => ⟨S500000x1, .i32⟩
  | 2 => ⟨S500000x1, .i1⟩
  | 3 => ⟨S1x1, .i32⟩
  | 4 => ⟨S500000x1, .i32⟩
  | 5 => ⟨S500000x1, .i1⟩
  | 6 => ⟨S500000x1, .i1⟩
  | 7 => ⟨S_, .i1⟩
  | 8 => ⟨S500000, .i1⟩
  | 9 => ⟨S500000x64, .f32⟩
  | 10 => ⟨S500000x64, .i1⟩
  | 11 => ⟨S_, .f32⟩
  | 12 => ⟨S500000x64, .f32⟩
  | 13 => ⟨S500000x64, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S1, .i32⟩
  | 23 => ⟨S_, .i32⟩
  | 24 => ⟨S500000x1, .i32⟩
  | 25 => ⟨S500000x1, .i1⟩
  | 26 => ⟨S1x1, .i32⟩
  | 27 => ⟨S500000x1, .i32⟩
  | 28 => ⟨S500000x1, .i1⟩
  | 29 => ⟨S500000x1, .i1⟩
  | 30 => ⟨S_, .i1⟩
  | 31 => ⟨S500000, .i1⟩
  | 32 => ⟨S500000x64, .f32⟩
  | 33 => ⟨S500000x64, .i1⟩
  | 34 => ⟨S_, .f32⟩
  | 35 => ⟨S500000x64, .f32⟩
  | 36 => ⟨S500000x64, .f32⟩
  | 37 => ⟨S500000x64, .f32⟩
  | 38 => ⟨S500000x64, .f32⟩
  | 39 => ⟨S1x64x64, .f32⟩
  | 40 => ⟨S64x64, .f32⟩
  | 41 => ⟨S64x64, .f32⟩
  | 42 => ⟨S64x64, .bf16⟩
  | 43 => ⟨S1x64x64, .f32⟩
  | 44 => ⟨S64x64, .f32⟩
  | 45 => ⟨S64x64, .f32⟩
  | 46 => ⟨S64x64, .bf16⟩
  | 47 => ⟨S1x64, .f32⟩
  | 48 => ⟨S64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S64, .f32⟩
  | 55 => ⟨S500000x64, .f32⟩
  | 56 => ⟨S1x64x64, .f32⟩
  | 57 => ⟨S64x64, .f32⟩
  | 58 => ⟨S64x64, .f32⟩
  | 59 => ⟨S64x64, .bf16⟩
  | 60 => ⟨S1x64, .f32⟩
  | 61 => ⟨S64, .f32⟩
  | 62 => ⟨S100000x64, .f32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S1, .i32⟩
  | 72 => ⟨S_, .i32⟩
  | 73 => ⟨S500000x1, .i32⟩
  | 74 => ⟨S500000x1, .i1⟩
  | 75 => ⟨S1x1, .i32⟩
  | 76 => ⟨S500000x1, .i32⟩
  | 77 => ⟨S500000x1, .i1⟩
  | 78 => ⟨S500000x1, .i1⟩
  | 79 => ⟨S_, .i1⟩
  | 80 => ⟨S500000, .i1⟩
  | 81 => ⟨S500000x64, .f32⟩
  | 82 => ⟨S500000x64, .i1⟩
  | 83 => ⟨S_, .f32⟩
  | 84 => ⟨S500000x64, .f32⟩
  | 85 => ⟨S500000x64, .f32⟩
  | 86 => ⟨S500000x128, .f32⟩
  | 87 => ⟨S_, .f32⟩
  | 88 => ⟨S100000x128, .f32⟩
  | 89 => ⟨S500000x1, .i32⟩
  | 90 => ⟨S100000x128, .f32⟩
  | 91 => ⟨S1x64x192, .f32⟩
  | 92 => ⟨S64x192, .f32⟩
  | 93 => ⟨S192x64, .f32⟩
  | 94 => ⟨S192x64, .bf16⟩
  | 95 => ⟨S64x64, .bf16⟩
  | 96 => ⟨S128x64, .bf16⟩
  | 97 => ⟨S1x64, .f32⟩
  | 98 => ⟨S64, .f32⟩
  | 99 => ⟨S1x64, .f32⟩
  | 100 => ⟨S64, .f32⟩
  | 101 => ⟨S100000x64, .f32⟩
  | 102 => ⟨S100000x64, .f32⟩
  | 103 => ⟨S_, .f32⟩
  | 104 => ⟨S100000x64, .f32⟩
  | 105 => ⟨S100000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .bf16⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64x64, .bf16⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .bf16⟩
  | .local _ .vmem, ⟨13, _⟩ => ⟨S64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x128, .f32⟩
  | .local _ .vmem, ⟨19, _⟩ => ⟨S10000x128, .f32⟩
  | .local _ .vmem, ⟨20, _⟩ => ⟨S64x64, .bf16⟩
  | .local _ .vmem, ⟨21, _⟩ => ⟨S128x64, .bf16⟩
  | .local _ .vmem, ⟨22, _⟩ => ⟨S64, .f32⟩
  | .local _ .vmem, ⟨23, _⟩ => ⟨S64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .bf16⟩
  | .local _ .vmem, ⟨29, _⟩ => ⟨S64, .f32⟩
  | .local _ .vmem, ⟨30, _⟩ => ⟨S64, .f32⟩
  | .local _ .vmem, ⟨31, _⟩ => ⟨S64, .f32⟩
  | .local _ .vmem, ⟨32, _⟩ => ⟨S64x64, .bf16⟩
  | .local _ .vmem, ⟨33, _⟩ => ⟨S64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .bf16⟩
  | .local _ .vmem, ⟨39, _⟩ => ⟨S64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x128, .f32⟩
  | .local _ .vmem, ⟨45, _⟩ => ⟨S10000x128, .f32⟩
  | .local _ .vmem, ⟨46, _⟩ => ⟨S64x64, .bf16⟩
  | .local _ .vmem, ⟨47, _⟩ => ⟨S128x64, .bf16⟩
  | .local _ .vmem, ⟨48, _⟩ => ⟨S64, .f32⟩
  | .local _ .vmem, ⟨49, _⟩ => ⟨S64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S64x64, .bf16⟩
  | .local _ .vmem, ⟨55, _⟩ => ⟨S64, .f32⟩
  | .local _ .vmem, ⟨56, _⟩ => ⟨S64, .f32⟩
  | .local _ .vmem, ⟨57, _⟩ => ⟨S64, .f32⟩
  | .local _ .vmem, ⟨58, _⟩ => ⟨S64x64, .bf16⟩
  | .local _ .vmem, ⟨59, _⟩ => ⟨S64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S64x64, .bf16⟩
  | .local _ .vmem, ⟨65, _⟩ => ⟨S64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x128, .f32⟩
  | .local _ .vmem, ⟨71, _⟩ => ⟨S10000x128, .f32⟩
  | .local _ .vmem, ⟨72, _⟩ => ⟨S64x64, .bf16⟩
  | .local _ .vmem, ⟨73, _⟩ => ⟨S128x64, .bf16⟩
  | .local _ .vmem, ⟨74, _⟩ => ⟨S64, .f32⟩
  | .local _ .vmem, ⟨75, _⟩ => ⟨S64, .f32⟩
  | .local _ .vmem, ⟨76, _⟩ => ⟨S10000x64, .f32⟩
  | .local _ .vmem, ⟨77, _⟩ => ⟨S10000x64, .f32⟩
  | .local _ .vmem, ⟨78, _⟩ => ⟨S10000x64, .f32⟩
  | .local _ .vmem, ⟨79, _⟩ => ⟨S10000x64, .f32⟩
  | .local _ .vmem, ⟨80, _⟩ => ⟨S64x64, .bf16⟩
  | .local _ .vmem, ⟨81, _⟩ => ⟨S64, .f32⟩
  | .local _ .vmem, ⟨82, _⟩ => ⟨S64, .f32⟩
  | .local _ .vmem, ⟨83, _⟩ => ⟨S64, .f32⟩
  | .local _ .vmem, ⟨84, _⟩ => ⟨S64x64, .bf16⟩
  | .local _ .vmem, ⟨85, _⟩ => ⟨S64, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S64x64, .bf16⟩
  | .local _ .vmem, ⟨91, _⟩ => ⟨S64, .f32⟩
  | .local _ .vmem, ⟨92, _⟩ => ⟨S10000x64, .f32⟩
  | .local _ .vmem, ⟨93, _⟩ => ⟨S10000x64, .f32⟩
  | .local _ .vmem, ⟨94, _⟩ => ⟨S10000x64, .f32⟩
  | .local _ .vmem, ⟨95, _⟩ => ⟨S10000x64, .f32⟩
  | .local _ .vmem, ⟨96, _⟩ => ⟨S10000x128, .f32⟩
  | .local _ .vmem, ⟨97, _⟩ => ⟨S10000x128, .f32⟩
  | .local _ .vmem, ⟨98, _⟩ => ⟨S64x64, .bf16⟩
  | .local _ .vmem, ⟨99, _⟩ => ⟨S128x64, .bf16⟩
  | .local _ .vmem, ⟨100, _⟩ => ⟨S64, .f32⟩
  | .local _ .vmem, ⟨101, _⟩ => ⟨S64, .f32⟩
  | .local _ .vmem, ⟨102, _⟩ => ⟨S10000x64, .f32⟩
  | .local _ .vmem, ⟨103, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v7 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v35 : Ref sig .tc := ⟨.hbm, 115, rfl⟩
abbrev main_v36 : Ref sig .tc := ⟨.hbm, 116, rfl⟩
abbrev main_cst_0 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_call3_c : Ref sig .tc := ⟨.hbm, 139, rfl⟩
abbrev main_call3_v0 : Ref sig .tc := ⟨.hbm, 140, rfl⟩
abbrev main_call3_v1 : Ref sig .tc := ⟨.hbm, 141, rfl⟩
abbrev main_call3_c_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_c_1 : Ref sig .tc := ⟨.hbm, 147, rfl⟩
abbrev main_call3_c_2 : Ref sig .tc := ⟨.hbm, 148, rfl⟩
abbrev main_call3_v6 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_c_3 : Ref sig .tc := ⟨.hbm, 155, rfl⟩
abbrev main_call3_v12 : Ref sig .tc := ⟨.hbm, 156, rfl⟩
abbrev main_call3_v13 : Ref sig .tc := ⟨.hbm, 157, rfl⟩
abbrev main_call3_v14 : Ref sig .tc := ⟨.hbm, 158, rfl⟩
abbrev main_call3_cst : Ref sig .tc := ⟨.hbm, 159, rfl⟩
abbrev main_call3_v15 : Ref sig .tc := ⟨.hbm, 160, rfl⟩
abbrev main_v58 : Ref sig .tc := ⟨.hbm, 161, rfl⟩
abbrev main_call4_c : Ref sig .tc := ⟨.hbm, 162, rfl⟩
abbrev main_call4_v0 : Ref sig .tc := ⟨.hbm, 163, rfl⟩
abbrev main_call4_v1 : Ref sig .tc := ⟨.hbm, 164, rfl⟩
abbrev main_call4_c_0 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_c_1 : Ref sig .tc := ⟨.hbm, 170, rfl⟩
abbrev main_call4_c_2 : Ref sig .tc := ⟨.hbm, 171, rfl⟩
abbrev main_call4_v6 : Ref sig .tc := ⟨.hbm, 172, rfl⟩
abbrev main_call4_v7 : Ref sig .tc := ⟨.hbm, 173, rfl⟩
abbrev main_call4_v8 : Ref sig .tc := ⟨.hbm, 174, rfl⟩
abbrev main_call4_v9 : Ref sig .tc := ⟨.hbm, 175, rfl⟩
abbrev main_call4_v10 : Ref sig .tc := ⟨.hbm, 176, rfl⟩
abbrev main_call4_v11 : Ref sig .tc := ⟨.hbm, 177, rfl⟩
abbrev main_call4_c_3 : Ref sig .tc := ⟨.hbm, 178, rfl⟩
abbrev main_call4_v12 : Ref sig .tc := ⟨.hbm, 179, rfl⟩
abbrev main_call4_v13 : Ref sig .tc := ⟨.hbm, 180, rfl⟩
abbrev main_call4_v14 : Ref sig .tc := ⟨.hbm, 181, rfl⟩
abbrev main_call4_cst : Ref sig .tc := ⟨.hbm, 182, rfl⟩
abbrev main_call4_v15 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩
abbrev main_v79 : Ref sig .tc := ⟨.hbm, 204, rfl⟩
abbrev main_v80 : Ref sig .tc := ⟨.hbm, 205, rfl⟩
abbrev main_v81 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_call5_c : Ref sig .tc := ⟨.hbm, 211, rfl⟩
abbrev main_call5_v0 : Ref sig .tc := ⟨.hbm, 212, rfl⟩
abbrev main_call5_v1 : Ref sig .tc := ⟨.hbm, 213, rfl⟩
abbrev main_call5_c_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_c_1 : Ref sig .tc := ⟨.hbm, 219, rfl⟩
abbrev main_call5_c_2 : Ref sig .tc := ⟨.hbm, 220, rfl⟩
abbrev main_call5_v6 : Ref sig .tc := ⟨.hbm, 221, rfl⟩
abbrev main_call5_v7 : Ref sig .tc := ⟨.hbm, 222, rfl⟩
abbrev main_call5_v8 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_c_3 : Ref sig .tc := ⟨.hbm, 227, rfl⟩
abbrev main_call5_v12 : Ref sig .tc := ⟨.hbm, 228, rfl⟩
abbrev main_call5_v13 : Ref sig .tc := ⟨.hbm, 229, rfl⟩
abbrev main_call5_v14 : Ref sig .tc := ⟨.hbm, 230, rfl⟩
abbrev main_call5_cst : Ref sig .tc := ⟨.hbm, 231, rfl⟩
abbrev main_call5_v15 : Ref sig .tc := ⟨.hbm, 232, rfl⟩
abbrev main_v86 : Ref sig .tc := ⟨.hbm, 233, rfl⟩
abbrev main_v87 : Ref sig .tc := ⟨.hbm, 234, rfl⟩
abbrev main_cst_1 : Ref sig .tc := ⟨.hbm, 235, rfl⟩
abbrev main_v88 : Ref sig .tc := ⟨.hbm, 236, rfl⟩
abbrev main_v89 : Ref sig .tc := ⟨.hbm, 237, rfl⟩
abbrev main_v90 : Ref sig .tc := ⟨.hbm, 238, rfl⟩
abbrev main_v91 : Ref sig .tc := ⟨.hbm, 239, rfl⟩
abbrev main_v92 : Ref sig .tc := ⟨.hbm, 240, rfl⟩
abbrev main_v93 : Ref sig .tc := ⟨.hbm, 241, rfl⟩
abbrev main_v94 : Ref sig .tc := ⟨.hbm, 242, rfl⟩
abbrev main_v95 : Ref sig .tc := ⟨.hbm, 243, rfl⟩
abbrev main_v96 : Ref sig .tc := ⟨.hbm, 244, rfl⟩
abbrev main_v97 : Ref sig .tc := ⟨.hbm, 245, rfl⟩
abbrev main_v98 : Ref sig .tc := ⟨.hbm, 246, rfl⟩
abbrev main_v99 : Ref sig .tc := ⟨.hbm, 247, rfl⟩
abbrev main_v100 : Ref sig .tc := ⟨.hbm, 248, rfl⟩
abbrev main_v101 : Ref sig .tc := ⟨.hbm, 249, rfl⟩
abbrev main_v102 : Ref sig .tc := ⟨.hbm, 250, rfl⟩
abbrev main_v103 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_v107 : Ref sig .tc := ⟨.hbm, 255, rfl⟩
abbrev main_v108 : Ref sig .tc := ⟨.hbm, 256, rfl⟩
abbrev main_call6_c : Ref sig .tc := ⟨.hbm, 257, rfl⟩
abbrev main_call6_v0 : Ref sig .tc := ⟨.hbm, 258, rfl⟩
abbrev main_call6_v1 : Ref sig .tc := ⟨.hbm, 259, rfl⟩
abbrev main_call6_c_0 : Ref sig .tc := ⟨.hbm, 260, rfl⟩
abbrev main_call6_v2 : Ref sig .tc := ⟨.hbm, 261, rfl⟩
abbrev main_call6_v3 : Ref sig .tc := ⟨.hbm, 262, rfl⟩
abbrev main_call6_v4 : Ref sig .tc := ⟨.hbm, 263, rfl⟩
abbrev main_call6_v5 : Ref sig .tc := ⟨.hbm, 264, rfl⟩
abbrev main_call6_c_1 : Ref sig .tc := ⟨.hbm, 265, rfl⟩
abbrev main_call6_c_2 : Ref sig .tc := ⟨.hbm, 266, rfl⟩
abbrev main_call6_v6 : Ref sig .tc := ⟨.hbm, 267, rfl⟩
abbrev main_call6_v7 : Ref sig .tc := ⟨.hbm, 268, rfl⟩
abbrev main_call6_v8 : Ref sig .tc := ⟨.hbm, 269, rfl⟩
abbrev main_call6_v9 : Ref sig .tc := ⟨.hbm, 270, rfl⟩
abbrev main_call6_v10 : Ref sig .tc := ⟨.hbm, 271, rfl⟩
abbrev main_call6_v11 : Ref sig .tc := ⟨.hbm, 272, rfl⟩
abbrev main_call6_c_3 : Ref sig .tc := ⟨.hbm, 273, rfl⟩
abbrev main_call6_v12 : Ref sig .tc := ⟨.hbm, 274, rfl⟩
abbrev main_call6_v13 : Ref sig .tc := ⟨.hbm, 275, rfl⟩
abbrev main_call6_v14 : Ref sig .tc := ⟨.hbm, 276, rfl⟩
abbrev main_call6_cst : Ref sig .tc := ⟨.hbm, 277, rfl⟩
abbrev main_call6_v15 : Ref sig .tc := ⟨.hbm, 278, rfl⟩
abbrev main_v109 : Ref sig .tc := ⟨.hbm, 279, rfl⟩
abbrev main_call7_c : Ref sig .tc := ⟨.hbm, 280, rfl⟩
abbrev main_call7_v0 : Ref sig .tc := ⟨.hbm, 281, rfl⟩
abbrev main_call7_v1 : Ref sig .tc := ⟨.hbm, 282, rfl⟩
abbrev main_call7_c_0 : Ref sig .tc := ⟨.hbm, 283, rfl⟩
abbrev main_call7_v2 : Ref sig .tc := ⟨.hbm, 284, rfl⟩
abbrev main_call7_v3 : Ref sig .tc := ⟨.hbm, 285, rfl⟩
abbrev main_call7_v4 : Ref sig .tc := ⟨.hbm, 286, rfl⟩
abbrev main_call7_v5 : Ref sig .tc := ⟨.hbm, 287, rfl⟩
abbrev main_call7_c_1 : Ref sig .tc := ⟨.hbm, 288, rfl⟩
abbrev main_call7_c_2 : Ref sig .tc := ⟨.hbm, 289, rfl⟩
abbrev main_call7_v6 : Ref sig .tc := ⟨.hbm, 290, rfl⟩
abbrev main_call7_v7 : Ref sig .tc := ⟨.hbm, 291, rfl⟩
abbrev main_call7_v8 : Ref sig .tc := ⟨.hbm, 292, rfl⟩
abbrev main_call7_v9 : Ref sig .tc := ⟨.hbm, 293, rfl⟩
abbrev main_call7_v10 : Ref sig .tc := ⟨.hbm, 294, rfl⟩
abbrev main_call7_v11 : Ref sig .tc := ⟨.hbm, 295, rfl⟩
abbrev main_call7_c_3 : Ref sig .tc := ⟨.hbm, 296, rfl⟩
abbrev main_call7_v12 : Ref sig .tc := ⟨.hbm, 297, rfl⟩
abbrev main_call7_v13 : Ref sig .tc := ⟨.hbm, 298, rfl⟩
abbrev main_call7_v14 : Ref sig .tc := ⟨.hbm, 299, rfl⟩
abbrev main_call7_cst : Ref sig .tc := ⟨.hbm, 300, rfl⟩
abbrev main_call7_v15 : Ref sig .tc := ⟨.hbm, 301, rfl⟩
abbrev main_v110 : Ref sig .tc := ⟨.hbm, 302, rfl⟩
abbrev main_v111 : Ref sig .tc := ⟨.hbm, 303, rfl⟩
abbrev main_v112 : Ref sig .tc := ⟨.hbm, 304, rfl⟩
abbrev main_v113 : Ref sig .tc := ⟨.hbm, 305, rfl⟩
abbrev main_v114 : Ref sig .tc := ⟨.hbm, 306, rfl⟩
abbrev main_v115 : Ref sig .tc := ⟨.hbm, 307, rfl⟩
abbrev main_v116 : Ref sig .tc := ⟨.hbm, 308, rfl⟩
abbrev main_v117 : Ref sig .tc := ⟨.hbm, 309, rfl⟩
abbrev main_v118 : Ref sig .tc := ⟨.hbm, 310, rfl⟩
abbrev main_v119 : Ref sig .tc := ⟨.hbm, 311, rfl⟩
abbrev main_v120 : Ref sig .tc := ⟨.hbm, 312, rfl⟩
abbrev main_v121 : Ref sig .tc := ⟨.hbm, 313, rfl⟩
abbrev main_v122 : Ref sig .tc := ⟨.hbm, 314, rfl⟩
abbrev main_v123 : Ref sig .tc := ⟨.hbm, 315, rfl⟩
abbrev main_v124 : Ref sig .tc := ⟨.hbm, 316, rfl⟩
abbrev main_v125 : Ref sig .tc := ⟨.hbm, 317, rfl⟩
abbrev main_v126 : Ref sig .tc := ⟨.hbm, 318, rfl⟩
abbrev main_v127 : Ref sig .tc := ⟨.hbm, 319, rfl⟩
abbrev main_v128 : Ref sig .tc := ⟨.hbm, 320, rfl⟩
abbrev main_v129 : Ref sig .tc := ⟨.hbm, 321, rfl⟩
abbrev main_v130 : Ref sig .tc := ⟨.hbm, 322, rfl⟩
abbrev main_v131 : Ref sig .tc := ⟨.hbm, 323, rfl⟩
abbrev main_v132 : Ref sig .tc := ⟨.hbm, 324, rfl⟩
abbrev main_v133 : Ref sig .tc := ⟨.hbm, 325, rfl⟩
abbrev main_v134 : Ref sig .tc := ⟨.hbm, 326, rfl⟩
abbrev main_v135 : Ref sig .tc := ⟨.hbm, 327, rfl⟩
abbrev main_v136 : Ref sig .tc := ⟨.hbm, 328, rfl⟩
abbrev main_call8_c : Ref sig .tc := ⟨.hbm, 329, rfl⟩
abbrev main_call8_v0 : Ref sig .tc := ⟨.hbm, 330, rfl⟩
abbrev main_call8_v1 : Ref sig .tc := ⟨.hbm, 331, rfl⟩
abbrev main_call8_c_0 : Ref sig .tc := ⟨.hbm, 332, rfl⟩
abbrev main_call8_v2 : Ref sig .tc := ⟨.hbm, 333, rfl⟩
abbrev main_call8_v3 : Ref sig .tc := ⟨.hbm, 334, rfl⟩
abbrev main_call8_v4 : Ref sig .tc := ⟨.hbm, 335, rfl⟩
abbrev main_call8_v5 : Ref sig .tc := ⟨.hbm, 336, rfl⟩
abbrev main_call8_c_1 : Ref sig .tc := ⟨.hbm, 337, rfl⟩
abbrev main_call8_c_2 : Ref sig .tc := ⟨.hbm, 338, rfl⟩
abbrev main_call8_v6 : Ref sig .tc := ⟨.hbm, 339, rfl⟩
abbrev main_call8_v7 : Ref sig .tc := ⟨.hbm, 340, rfl⟩
abbrev main_call8_v8 : Ref sig .tc := ⟨.hbm, 341, rfl⟩
abbrev main_call8_v9 : Ref sig .tc := ⟨.hbm, 342, rfl⟩
abbrev main_call8_v10 : Ref sig .tc := ⟨.hbm, 343, rfl⟩
abbrev main_call8_v11 : Ref sig .tc := ⟨.hbm, 344, rfl⟩
abbrev main_call8_c_3 : Ref sig .tc := ⟨.hbm, 345, rfl⟩
abbrev main_call8_v12 : Ref sig .tc := ⟨.hbm, 346, rfl⟩
abbrev main_call8_v13 : Ref sig .tc := ⟨.hbm, 347, rfl⟩
abbrev main_call8_v14 : Ref sig .tc := ⟨.hbm, 348, rfl⟩
abbrev main_call8_cst : Ref sig .tc := ⟨.hbm, 349, rfl⟩
abbrev main_call8_v15 : Ref sig .tc := ⟨.hbm, 350, rfl⟩
abbrev main_v137 : Ref sig .tc := ⟨.hbm, 351, rfl⟩
abbrev main_v138 : Ref sig .tc := ⟨.hbm, 352, rfl⟩
abbrev main_cst_2 : Ref sig .tc := ⟨.hbm, 353, rfl⟩
abbrev main_v139 : Ref sig .tc := ⟨.hbm, 354, rfl⟩
abbrev main_v140 : Ref sig .tc := ⟨.hbm, 355, rfl⟩
abbrev main_v141 : Ref sig .tc := ⟨.hbm, 356, rfl⟩
abbrev main_v142 : Ref sig .tc := ⟨.hbm, 357, rfl⟩
abbrev main_v143 : Ref sig .tc := ⟨.hbm, 358, rfl⟩
abbrev main_v144 : Ref sig .tc := ⟨.hbm, 359, rfl⟩
abbrev main_v145 : Ref sig .tc := ⟨.hbm, 360, rfl⟩
abbrev main_v146 : Ref sig .tc := ⟨.hbm, 361, rfl⟩
abbrev main_v147 : Ref sig .tc := ⟨.hbm, 362, rfl⟩
abbrev main_v148 : Ref sig .tc := ⟨.hbm, 363, rfl⟩
abbrev main_v149 : Ref sig .tc := ⟨.hbm, 364, rfl⟩
abbrev main_v150 : Ref sig .tc := ⟨.hbm, 365, rfl⟩
abbrev main_v151 : Ref sig .tc := ⟨.hbm, 366, rfl⟩
abbrev main_v152 : Ref sig .tc := ⟨.hbm, 367, rfl⟩
abbrev main_v153 : Ref sig .tc := ⟨.hbm, 368, rfl⟩
abbrev main_v154 : Ref sig .tc := ⟨.hbm, 369, rfl⟩
abbrev main_v155 : Ref sig .tc := ⟨.hbm, 370, rfl⟩
abbrev main_v156 : Ref sig .tc := ⟨.hbm, 371, rfl⟩
abbrev main_v157 : Ref sig .tc := ⟨.hbm, 372, rfl⟩
abbrev main_v158 : Ref sig .tc := ⟨.hbm, 373, rfl⟩
abbrev main_v159 : Ref sig .tc := ⟨.hbm, 374, rfl⟩
abbrev main_call9_c : Ref sig .tc := ⟨.hbm, 375, rfl⟩
abbrev main_call9_v0 : Ref sig .tc := ⟨.hbm, 376, rfl⟩
abbrev main_call9_v1 : Ref sig .tc := ⟨.hbm, 377, rfl⟩
abbrev main_call9_c_0 : Ref sig .tc := ⟨.hbm, 378, rfl⟩
abbrev main_call9_v2 : Ref sig .tc := ⟨.hbm, 379, rfl⟩
abbrev main_call9_v3 : Ref sig .tc := ⟨.hbm, 380, rfl⟩
abbrev main_call9_v4 : Ref sig .tc := ⟨.hbm, 381, rfl⟩
abbrev main_call9_v5 : Ref sig .tc := ⟨.hbm, 382, rfl⟩
abbrev main_call9_c_1 : Ref sig .tc := ⟨.hbm, 383, rfl⟩
abbrev main_call9_c_2 : Ref sig .tc := ⟨.hbm, 384, rfl⟩
abbrev main_call9_v6 : Ref sig .tc := ⟨.hbm, 385, rfl⟩
abbrev main_call9_v7 : Ref sig .tc := ⟨.hbm, 386, rfl⟩
abbrev main_call9_v8 : Ref sig .tc := ⟨.hbm, 387, rfl⟩
abbrev main_call9_v9 : Ref sig .tc := ⟨.hbm, 388, rfl⟩
abbrev main_call9_v10 : Ref sig .tc := ⟨.hbm, 389, rfl⟩
abbrev main_call9_v11 : Ref sig .tc := ⟨.hbm, 390, rfl⟩
abbrev main_call9_c_3 : Ref sig .tc := ⟨.hbm, 391, rfl⟩
abbrev main_call9_v12 : Ref sig .tc := ⟨.hbm, 392, rfl⟩
abbrev main_call9_v13 : Ref sig .tc := ⟨.hbm, 393, rfl⟩
abbrev main_call9_v14 : Ref sig .tc := ⟨.hbm, 394, rfl⟩
abbrev main_call9_cst : Ref sig .tc := ⟨.hbm, 395, rfl⟩
abbrev main_call9_v15 : Ref sig .tc := ⟨.hbm, 396, rfl⟩
abbrev main_v160 : Ref sig .tc := ⟨.hbm, 397, rfl⟩
abbrev main_call10_c : Ref sig .tc := ⟨.hbm, 398, rfl⟩
abbrev main_call10_v0 : Ref sig .tc := ⟨.hbm, 399, rfl⟩
abbrev main_call10_v1 : Ref sig .tc := ⟨.hbm, 400, rfl⟩
abbrev main_call10_c_0 : Ref sig .tc := ⟨.hbm, 401, rfl⟩
abbrev main_call10_v2 : Ref sig .tc := ⟨.hbm, 402, rfl⟩
abbrev main_call10_v3 : Ref sig .tc := ⟨.hbm, 403, rfl⟩
abbrev main_call10_v4 : Ref sig .tc := ⟨.hbm, 404, rfl⟩
abbrev main_call10_v5 : Ref sig .tc := ⟨.hbm, 405, rfl⟩
abbrev main_call10_c_1 : Ref sig .tc := ⟨.hbm, 406, rfl⟩
abbrev main_call10_c_2 : Ref sig .tc := ⟨.hbm, 407, rfl⟩
abbrev main_call10_v6 : Ref sig .tc := ⟨.hbm, 408, rfl⟩
abbrev main_call10_v7 : Ref sig .tc := ⟨.hbm, 409, rfl⟩
abbrev main_call10_v8 : Ref sig .tc := ⟨.hbm, 410, rfl⟩
abbrev main_call10_v9 : Ref sig .tc := ⟨.hbm, 411, rfl⟩
abbrev main_call10_v10 : Ref sig .tc := ⟨.hbm, 412, rfl⟩
abbrev main_call10_v11 : Ref sig .tc := ⟨.hbm, 413, rfl⟩
abbrev main_call10_c_3 : Ref sig .tc := ⟨.hbm, 414, rfl⟩
abbrev main_call10_v12 : Ref sig .tc := ⟨.hbm, 415, rfl⟩
abbrev main_call10_v13 : Ref sig .tc := ⟨.hbm, 416, rfl⟩
abbrev main_call10_v14 : Ref sig .tc := ⟨.hbm, 417, rfl⟩
abbrev main_call10_cst : Ref sig .tc := ⟨.hbm, 418, rfl⟩
abbrev main_call10_v15 : Ref sig .tc := ⟨.hbm, 419, rfl⟩
abbrev main_v161 : Ref sig .tc := ⟨.hbm, 420, rfl⟩
abbrev main_v162 : Ref sig .tc := ⟨.hbm, 421, rfl⟩
abbrev main_v163 : Ref sig .tc := ⟨.hbm, 422, rfl⟩
abbrev main_v164 : Ref sig .tc := ⟨.hbm, 423, rfl⟩
abbrev main_v165 : Ref sig .tc := ⟨.hbm, 424, rfl⟩
abbrev main_v166 : Ref sig .tc := ⟨.hbm, 425, rfl⟩
abbrev main_v167 : Ref sig .tc := ⟨.hbm, 426, rfl⟩
abbrev main_v168 : Ref sig .tc := ⟨.hbm, 427, rfl⟩
abbrev main_v169 : Ref sig .tc := ⟨.hbm, 428, rfl⟩
abbrev main_v170 : Ref sig .tc := ⟨.hbm, 429, rfl⟩
abbrev main_v171 : Ref sig .tc := ⟨.hbm, 430, rfl⟩
abbrev main_v172 : Ref sig .tc := ⟨.hbm, 431, rfl⟩
abbrev main_v173 : Ref sig .tc := ⟨.hbm, 432, rfl⟩
abbrev main_v174 : Ref sig .tc := ⟨.hbm, 433, rfl⟩
abbrev main_v175 : Ref sig .tc := ⟨.hbm, 434, rfl⟩
abbrev main_v176 : Ref sig .tc := ⟨.hbm, 435, rfl⟩
abbrev main_v177 : Ref sig .tc := ⟨.hbm, 436, rfl⟩
abbrev main_v178 : Ref sig .tc := ⟨.hbm, 437, rfl⟩
abbrev main_v179 : Ref sig .tc := ⟨.hbm, 438, rfl⟩
abbrev main_v180 : Ref sig .tc := ⟨.hbm, 439, rfl⟩
abbrev main_v181 : Ref sig .tc := ⟨.hbm, 440, rfl⟩
abbrev main_v182 : Ref sig .tc := ⟨.hbm, 441, rfl⟩
abbrev main_v183 : Ref sig .tc := ⟨.hbm, 442, rfl⟩
abbrev main_v184 : Ref sig .tc := ⟨.hbm, 443, rfl⟩
abbrev main_v185 : Ref sig .tc := ⟨.hbm, 444, rfl⟩
abbrev main_v186 : Ref sig .tc := ⟨.hbm, 445, rfl⟩
abbrev main_v187 : Ref sig .tc := ⟨.hbm, 446, rfl⟩
abbrev main_call11_c : Ref sig .tc := ⟨.hbm, 447, rfl⟩
abbrev main_call11_v0 : Ref sig .tc := ⟨.hbm, 448, rfl⟩
abbrev main_call11_v1 : Ref sig .tc := ⟨.hbm, 449, rfl⟩
abbrev main_call11_c_0 : Ref sig .tc := ⟨.hbm, 450, rfl⟩
abbrev main_call11_v2 : Ref sig .tc := ⟨.hbm, 451, rfl⟩
abbrev main_call11_v3 : Ref sig .tc := ⟨.hbm, 452, rfl⟩
abbrev main_call11_v4 : Ref sig .tc := ⟨.hbm, 453, rfl⟩
abbrev main_call11_v5 : Ref sig .tc := ⟨.hbm, 454, rfl⟩
abbrev main_call11_c_1 : Ref sig .tc := ⟨.hbm, 455, rfl⟩
abbrev main_call11_c_2 : Ref sig .tc := ⟨.hbm, 456, rfl⟩
abbrev main_call11_v6 : Ref sig .tc := ⟨.hbm, 457, rfl⟩
abbrev main_call11_v7 : Ref sig .tc := ⟨.hbm, 458, rfl⟩
abbrev main_call11_v8 : Ref sig .tc := ⟨.hbm, 459, rfl⟩
abbrev main_call11_v9 : Ref sig .tc := ⟨.hbm, 460, rfl⟩
abbrev main_call11_v10 : Ref sig .tc := ⟨.hbm, 461, rfl⟩
abbrev main_call11_v11 : Ref sig .tc := ⟨.hbm, 462, rfl⟩
abbrev main_call11_c_3 : Ref sig .tc := ⟨.hbm, 463, rfl⟩
abbrev main_call11_v12 : Ref sig .tc := ⟨.hbm, 464, rfl⟩
abbrev main_call11_v13 : Ref sig .tc := ⟨.hbm, 465, rfl⟩
abbrev main_call11_v14 : Ref sig .tc := ⟨.hbm, 466, rfl⟩
abbrev main_call11_cst : Ref sig .tc := ⟨.hbm, 467, rfl⟩
abbrev main_call11_v15 : Ref sig .tc := ⟨.hbm, 468, rfl⟩
abbrev main_v188 : Ref sig .tc := ⟨.hbm, 469, rfl⟩
abbrev main_v189 : Ref sig .tc := ⟨.hbm, 470, rfl⟩
abbrev main_cst_3 : Ref sig .tc := ⟨.hbm, 471, rfl⟩
abbrev main_v190 : Ref sig .tc := ⟨.hbm, 472, rfl⟩
abbrev main_v191 : Ref sig .tc := ⟨.hbm, 473, rfl⟩
abbrev main_v192 : Ref sig .tc := ⟨.hbm, 474, rfl⟩
abbrev main_v193 : Ref sig .tc := ⟨.hbm, 475, rfl⟩
abbrev main_v194 : Ref sig .tc := ⟨.hbm, 476, rfl⟩
abbrev main_v195 : Ref sig .tc := ⟨.hbm, 477, rfl⟩
abbrev main_v196 : Ref sig .tc := ⟨.hbm, 478, rfl⟩
abbrev main_v197 : Ref sig .tc := ⟨.hbm, 479, rfl⟩
abbrev main_v198 : Ref sig .tc := ⟨.hbm, 480, rfl⟩
abbrev main_v199 : Ref sig .tc := ⟨.hbm, 481, rfl⟩
abbrev main_v200 : Ref sig .tc := ⟨.hbm, 482, rfl⟩
abbrev main_v201 : Ref sig .tc := ⟨.hbm, 483, rfl⟩
abbrev main_v202 : Ref sig .tc := ⟨.hbm, 484, rfl⟩
abbrev main_v203 : Ref sig .tc := ⟨.hbm, 485, rfl⟩
abbrev main_v204 : Ref sig .tc := ⟨.hbm, 486, rfl⟩
abbrev main_cst_4 : Ref sig .tc := ⟨.hbm, 487, rfl⟩
abbrev main_v205 : Ref sig .tc := ⟨.hbm, 488, rfl⟩
abbrev main_v206 : Ref sig .tc := ⟨.hbm, 489, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg6_0 : Ref sig .tc := ⟨.vmem, 59, rfl⟩
abbrev cc6_stg7_0 : Ref sig .tc := ⟨.vmem, 60, rfl⟩
abbrev cc6_stg7_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg5_0 : Ref sig .tc := ⟨.vmem, 75, rfl⟩
abbrev cc8_stg6_0 : Ref sig .tc := ⟨.vmem, 76, rfl⟩
abbrev cc8_stg6_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc9_stg4_0 : Ref sig .tc := ⟨.vmem, 83, rfl⟩
abbrev cc9_stg5_0 : Ref sig .tc := ⟨.vmem, 84, rfl⟩
abbrev cc9_stg6_0 : Ref sig .tc := ⟨.vmem, 85, rfl⟩
abbrev cc9_stg7_0 : Ref sig .tc := ⟨.vmem, 86, rfl⟩
abbrev cc9_stg7_1 : Ref sig .tc := ⟨.vmem, 87, rfl⟩
abbrev cc10_stg0_0 : Ref sig .tc := ⟨.vmem, 88, rfl⟩
abbrev cc10_stg0_1 : Ref sig .tc := ⟨.vmem, 89, rfl⟩
abbrev cc10_stg1_0 : Ref sig .tc := ⟨.vmem, 90, rfl⟩
abbrev cc10_stg2_0 : Ref sig .tc := ⟨.vmem, 91, rfl⟩
abbrev cc10_stg3_0 : Ref sig .tc := ⟨.vmem, 92, rfl⟩
abbrev cc10_stg3_1 : Ref sig .tc := ⟨.vmem, 93, rfl⟩
abbrev cc11_stg0_0 : Ref sig .tc := ⟨.vmem, 94, rfl⟩
abbrev cc11_stg0_1 : Ref sig .tc := ⟨.vmem, 95, rfl⟩
abbrev cc11_stg1_0 : Ref sig .tc := ⟨.vmem, 96, rfl⟩
abbrev cc11_stg1_1 : Ref sig .tc := ⟨.vmem, 97, rfl⟩
abbrev cc11_stg2_0 : Ref sig .tc := ⟨.vmem, 98, rfl⟩
abbrev cc11_stg3_0 : Ref sig .tc := ⟨.vmem, 99, rfl⟩
abbrev cc11_stg4_0 : Ref sig .tc := ⟨.vmem, 100, rfl⟩
abbrev cc11_stg5_0 : Ref sig .tc := ⟨.vmem, 101, rfl⟩
abbrev cc11_stg6_0 : Ref sig .tc := ⟨.vmem, 102, rfl⟩
abbrev cc11_stg6_1 : Ref sig .tc := ⟨.vmem, 103, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem6_0 : DmaSem sig := 59
abbrev cc6_sem7_0 : DmaSem sig := 60
abbrev cc6_sem7_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem5_0 : DmaSem sig := 75
abbrev cc8_sem6_0 : DmaSem sig := 76
abbrev cc8_sem6_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem4_0 : DmaSem sig := 83
abbrev cc9_sem5_0 : DmaSem sig := 84
abbrev cc9_sem6_0 : DmaSem sig := 85
abbrev cc9_sem7_0 : DmaSem sig := 86
abbrev cc9_sem7_1 : DmaSem sig := 87
abbrev cc10_sem0_0 : DmaSem sig := 88
abbrev cc10_sem0_1 : DmaSem sig := 89
abbrev cc10_sem1_0 : DmaSem sig := 90
abbrev cc10_sem2_0 : DmaSem sig := 91
abbrev cc10_sem3_0 : DmaSem sig := 92
abbrev cc10_sem3_1 : DmaSem sig := 93
abbrev cc11_sem0_0 : DmaSem sig := 94
abbrev cc11_sem0_1 : DmaSem sig := 95
abbrev cc11_sem1_0 : DmaSem sig := 96
abbrev cc11_sem1_1 : DmaSem sig := 97
abbrev cc11_sem2_0 : DmaSem sig := 98
abbrev cc11_sem3_0 : DmaSem sig := 99
abbrev cc11_sem4_0 : DmaSem sig := 100
abbrev cc11_sem5_0 : DmaSem sig := 101
abbrev cc11_sem6_0 : DmaSem sig := 102
abbrev cc11_sem6_1 : DmaSem sig := 103

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x64 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S10000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S10000x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x64 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S10000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

class Facts₀ : Prop where
  bcast_S_S100000x64 : S_.BroadcastsInDim S100000x64 (![] : Fin 0 → Fin S100000x64.rank)
  slices_S4x2x500000_S1x2x500000_0_0_0 : S4x2x500000.Slices ![0, 0, 0] S1x2x500000
  shapeCasts_S1x2x500000_S2x500000 : S1x2x500000.ShapeCasts S2x500000
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x64_0 : S500000.BroadcastsInDim S500000x64 (![0] : Fin 1 → Fin S500000x64.rank)
  bcast_S_S500000x64 : S_.BroadcastsInDim S500000x64 (![] : Fin 0 → Fin S500000x64.rank)
  slices_S4x64x64_S1x64x64_0_0_0 : S4x64x64.Slices ![0, 0, 0] S1x64x64
  shapeCasts_S1x64x64_S64x64 : S1x64x64.ShapeCasts S64x64
  transposes_S64x64_S64x64_1_0 : S64x64.Transposes [1, 0] S64x64
  bitsLt_bf16_f32 : FTy.bits .bf16 < FTy.bits .f32
  slices_S4x64_S1x64_0_0 : S4x64.Slices ![0, 0] S1x64
  shapeCasts_S1x64_S64 : S1x64.ShapeCasts S64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  concatenates_S500000x64_S500000x64_S500000x128_d1 : Shape.Concatenates [S500000x64, S500000x64] S500000x128 1
  bcast_S_S100000x128 : S_.BroadcastsInDim S100000x128 (![] : Fin 0 → Fin S100000x128.rank)
  slices_S4x64x192_S1x64x192_0_0_0 : S4x64x192.Slices ![0, 0, 0] S1x64x192
  shapeCasts_S1x64x192_S64x192 : S1x64x192.ShapeCasts S64x192
  transposes_S64x192_S192x64_1_0 : S64x192.Transposes [1, 0] S192x64
  slices_S192x64_S64x64_0_0 : S192x64.Slices ![0, 0] S64x64
  slices_S192x64_S128x64_64_0 : S192x64.Slices ![64, 0] S128x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  slices_S4x2x500000_S1x2x500000_1_0_0 : S4x2x500000.Slices ![1, 0, 0] S1x2x500000
  slices_S4x64x64_S1x64x64_1_0_0 : S4x64x64.Slices ![1, 0, 0] S1x64x64
  slices_S4x64_S1x64_1_0 : S4x64.Slices ![1, 0] S1x64
  slices_S4x64x192_S1x64x192_1_0_0 : S4x64x192.Slices ![1, 0, 0] S1x64x192
  slices_S4x2x500000_S1x2x500000_2_0_0 : S4x2x500000.Slices ![2, 0, 0] S1x2x500000
  slices_S4x64x64_S1x64x64_2_0_0 : S4x64x64.Slices ![2, 0, 0] S1x64x64
  slices_S4x64_S1x64_2_0 : S4x64.Slices ![2, 0] S1x64
  slices_S4x64x192_S1x64x192_2_0_0 : S4x64x192.Slices ![2, 0, 0] S1x64x192
  slices_S4x2x500000_S1x2x500000_3_0_0 : S4x2x500000.Slices ![3, 0, 0] S1x2x500000
  slices_S4x64x64_S1x64x64_3_0_0 : S4x64x64.Slices ![3, 0, 0] S1x64x64
  slices_S4x64_S1x64_3_0 : S4x64.Slices ![3, 0] S1x64
  slices_S4x64x192_S1x64x192_3_0_0 : S4x64x192.Slices ![3, 0, 0] S1x64x192
  gather_S100000x64_S500000x1_S500000x64_1_0_n_n_0_1_164_wf : GatherDims.WF S100000x64 S500000x1 S500000x64 [1] [0] [] [0] [] 1 ![1, 64]
  dot_S10000x64_S64x64_S10000x64_1_0_0_1_n_n_wf : DotDims.WF S10000x64 S64x64 S10000x64 [1] [0] [0] [1] [] []
  scatter_S100000x128_S500000x1_S500000x128_1_0_0_1_wf : ScatterDims.WF S100000x128 S500000x1 S500000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S500000x64.size a
  hwx0_7 : ∀ i : grid0.Coords, EltTy.bits .f32 = 32 ∨ (Rect.block (s := S500000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S500000x64.size a
  hwx3_0 : ∀ i : grid3.Coords, EltTy.bits .f32 = 32 ∨ (Rect.block (s := S500000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .bf16 = 32 ∨ (Rect.block (s := S64x64) S64x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S500000x64.size a
  hwx3_7 : ∀ i : grid3.Coords, EltTy.bits .f32 = 32 ∨ (Rect.block (s := S500000x64) S10000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .bf16 = 32 ∨ (Rect.block (s := S64x64) S64x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S100000x128.size a
  hwx5_1 : ∀ i : grid5.Coords, EltTy.bits .f32 = 32 ∨ (Rect.block (s := S100000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .bf16 = 32 ∨ (Rect.block (s := S64x64) S64x64.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .bf16 = 32 ∨ (Rect.block (s := S128x64) S128x64.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S500000x64.size a
  hwx6_0 : ∀ i : grid6.Coords, EltTy.bits .f32 = 32 ∨ (Rect.block (s := S500000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .bf16 = 32 ∨ (Rect.block (s := S64x64) S64x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64.size a ≤ S64.size a
  hwx6_3 : ∀ i : grid6.Coords, EltTy.bits .f32 = 32 ∨ (Rect.block (s := S64) S64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .bf16 = 32 ∨ (Rect.block (s := S64x64) S64x64.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64.size a ≤ S64.size a
  hwx6_6 : ∀ i : grid6.Coords, EltTy.bits .f32 = 32 ∨ (Rect.block (s := S64) S64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x64.size a ≤ S500000x64.size a
  hwx6_7 : ∀ i : grid6.Coords, EltTy.bits .f32 = 32 ∨ (Rect.block (s := S500000x64) S10000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .bf16 = 32 ∨ (Rect.block (s := S64x64) S64x64.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S100000x128.size a
  hwx8_1 : ∀ i : grid8.Coords, EltTy.bits .f32 = 32 ∨ (Rect.block (s := S100000x128) S10000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .bf16 = 32 ∨ (Rect.block (s := S64x64) S64x64.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .bf16 = 32 ∨ (Rect.block (s := S128x64) S128x64.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64.size a ≤ S64.size a
  hwx8_4 : ∀ i : grid8.Coords, EltTy.bits .f32 = 32 ∨ (Rect.block (s := S64) S64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64.size a ≤ S64.size a
  hwx8_5 : ∀ i : grid8.Coords, EltTy.bits .f32 = 32 ∨ (Rect.block (s := S64) S64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S500000x64.size a
  hwx9_0 : ∀ i : grid9.Coords, EltTy.bits .f32 = 32 ∨ (Rect.block (s := S500000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .bf16 = 32 ∨ (Rect.block (s := S64x64) S64x64.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64.size a ≤ S64.size a
  hwx9_2 : ∀ i : grid9.Coords, EltTy.bits .f32 = 32 ∨ (Rect.block (s := S64) S64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64.size a ≤ S64.size a
  hwx9_3 : ∀ i : grid9.Coords, EltTy.bits .f32 = 32 ∨ (Rect.block (s := S64) S64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64.size a ≤ S64.size a
  hwx9_4 : ∀ i : grid9.Coords, EltTy.bits .f32 = 32 ∨ (Rect.block (s := S64) S64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .bf16 = 32 ∨ (Rect.block (s := S64x64) S64x64.size (cc9_transform_5 i) (hinb9_5 i)).WholeWords (EltTy.packing .bf16)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S64.size a ≤ S64.size a
  hwx9_6 : ∀ i : grid9.Coords, EltTy.bits .f32 = 32 ∨ (Rect.block (s := S64) S64.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S10000x64.size a ≤ S500000x64.size a
  hwx9_7 : ∀ i : grid9.Coords, EltTy.bits .f32 = 32 ∨ (Rect.block (s := S500000x64) S10000x64.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .bf16 = 32 ∨ (Rect.block (s := S64x64) S64x64.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64.size a ≤ S64.size a
  hwx10_2 : ∀ i : grid10.Coords, EltTy.bits .f32 = 32 ∨ (Rect.block (s := S64) S64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x64.size a ≤ S100000x64.size a
  hwx10_3 : ∀ i : grid10.Coords, EltTy.bits .f32 = 32 ∨ (Rect.block (s := S100000x64) S10000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x128.size a ≤ S100000x128.size a
  hwx11_1 : ∀ i : grid11.Coords, EltTy.bits .f32 = 32 ∨ (Rect.block (s := S100000x128) S10000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .bf16 = 32 ∨ (Rect.block (s := S64x64) S64x64.size (cc11_transform_2 i) (hinb11_2 i)).WholeWords (EltTy.packing .bf16)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x64.size a ≤ S128x64.size a
  hwx11_3 : ∀ i : grid11.Coords, EltTy.bits .bf16 = 32 ∨ (Rect.block (s := S128x64) S128x64.size (cc11_transform_3 i) (hinb11_3 i)).WholeWords (EltTy.packing .bf16)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64.size a ≤ S64.size a
  hwx11_4 : ∀ i : grid11.Coords, EltTy.bits .f32 = 32 ∨ (Rect.block (s := S64) S64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64.size a ≤ S64.size a
  hwx11_5 : ∀ i : grid11.Coords, EltTy.bits .f32 = 32 ∨ (Rect.block (s := S64) S64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S10000x64.size a ≤ S100000x64.size a
  hwx11_6 : ∀ i : grid11.Coords, EltTy.bits .f32 = 32 ∨ (Rect.block (s := S100000x64) S10000x64.size (cc11_transform_6 i) (hinb11_6 i)).WholeWords (EltTy.packing .f32)

variable [Facts₀]

def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_arg0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v85) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v95) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v101) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v112) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v116) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v122) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v126) S64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v128) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v120) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v124) S64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v129) S10000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_arg0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v133) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v135) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v136) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v141) S10000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v146) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v147) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v149) S64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v151) S64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v152) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v163) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v167) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v173) S64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v177) S64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v179) S64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v171) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v175) S64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v180) S10000x64.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_arg0) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v184) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v186) S64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v187) S10000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v187) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v192) S10000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v197) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v198) S128x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v200) S64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v202) S64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v203) S10000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

class Facts : Prop extends Facts₀ where

variable [Facts]
-- ==== ReferenceIdeal.lean ====
abbrev S100000x64 : Shape := ⟨2, ![100000, 64]⟩
abbrev S4x2x500000 : Shape := ⟨3, ![4, 2, 500000]⟩
abbrev S4x64x64 : Shape := ⟨3, ![4, 64, 64]⟩
abbrev S4x64 : Shape := ⟨2, ![4, 64]⟩
abbrev S4x64x192 : Shape := ⟨3, ![4, 64, 192]⟩
abbrev S1x2x500000 : Shape := ⟨3, ![1, 2, 500000]⟩
abbrev S2x500000 : Shape := ⟨2, ![2, 500000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x64x192 : Shape := ⟨3, ![1, 64, 192]⟩
abbrev S64x192 : Shape := ⟨2, ![64, 192]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x64 : Shape := ⟨2, ![500000, 64]⟩
abbrev S500000x128 : Shape := ⟨2, ![500000, 128]⟩
abbrev S100000x128 : Shape := ⟨2, ![100000, 128]⟩
abbrev S100000x192 : Shape := ⟨2, ![100000, 192]⟩
abbrev S192x64 : Shape := ⟨2, ![192, 64]⟩
abbrev S1x100000x64 : Shape := ⟨3, ![1, 100000, 64]⟩
abbrev S4x100000x64 : Shape := ⟨3, ![4, 100000, 64]⟩

abbrev nBuf : Space → Nat
  | .hbm => 495
  | .vmem => 0
  | .smem => 0
  | _ => 0

abbrev hbmTy0_0 (i : Nat) : BufTy := match i % 128 with
  | 0 => ⟨S100000x64, .f32⟩
  | 1 => ⟨S4x2x500000, .i32⟩
  | 2 => ⟨S4x64x64, .f32⟩
  | 3 => ⟨S4x64, .f32⟩
  | 4 => ⟨S4x64x64, .f32⟩
  | 5 => ⟨S4x64, .f32⟩
  | 6 => ⟨S4x64, .f32⟩
  | 7 => ⟨S4x64, .f32⟩
  | 8 => ⟨S4x64x64, .f32⟩
  | 9 => ⟨S4x64, .f32⟩
  | 10 => ⟨S4x64x192, .f32⟩
  | 11 => ⟨S4x64, .f32⟩
  | 12 => ⟨S4x64, .f32⟩
  | 13 => ⟨S1x2x500000, .i32⟩
  | 14 => ⟨S2x500000, .i32⟩
  | 15 => ⟨S1x64x64, .f32⟩
  | 16 => ⟨S64x64, .f32⟩
  | 17 => ⟨S1x64, .f32⟩
  | 18 => ⟨S64, .f32⟩
  | 19 => ⟨S1x64x64, .f32⟩
  | 20 => ⟨S64x64, .f32⟩
  | 21 => ⟨S1x64, .f32⟩
  | 22 => ⟨S64, .f32⟩
  | 23 => ⟨S1x64, .f32⟩
  | 24 => ⟨S64, .f32⟩
  | 25 => ⟨S1x64, .f32⟩
  | 26 => ⟨S64, .f32⟩
  | 27 => ⟨S1x64x64, .f32⟩
  | 28 => ⟨S64x64, .f32⟩
  | 29 => ⟨S1x64, .f32⟩
  | 30 => ⟨S64, .f32⟩
  | 31 => ⟨S1x64x192, .f32⟩
  | 32 => ⟨S64x192, .f32⟩
  | 33 => ⟨S1x64, .f32⟩
  | 34 => ⟨S64, .f32⟩
  | 35 => ⟨S1x64, .f32⟩
  | 36 => ⟨S64, .f32⟩
  | 37 => ⟨S1x500000, .i32⟩
  | 38 => ⟨S500000, .i32⟩
  | 39 => ⟨S1x500000, .i32⟩
  | 40 => ⟨S500000, .i32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x64, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x64, .f32⟩
  | 59 => ⟨S500000x64, .f32⟩
  | 60 => ⟨S500000x64, .f32⟩
  | 61 => ⟨S64x64, .f32⟩
  | 62 => ⟨S100000x64, .f32⟩
  | 63 => ⟨S1x64, .f32⟩
  | 64 => ⟨S100000x64, .f32⟩
  | 65 => ⟨S100000x64, .f32⟩
  | 66 => ⟨S64x64, .f32⟩
  | 67 => ⟨S500000x64, .f32⟩
  | 68 => ⟨S1x64, .f32⟩
  | 69 => ⟨S500000x64, .f32⟩
  | 70 => ⟨S500000x64, .f32⟩
  | 71 => ⟨S_, .f32⟩
  | 72 => ⟨S500000x64, .f32⟩
  | 73 => ⟨S500000x64, .f32⟩
  | 74 => ⟨S_, .f32⟩
  | 75 => ⟨S500000, .f32⟩
  | 76 => ⟨S500000x1, .f32⟩
  | 77 => ⟨S_, .f32⟩
  | 78 => ⟨S500000x1, .f32⟩
  | 79 => ⟨S500000x1, .f32⟩
  | 80 => ⟨S500000x64, .f32⟩
  | 81 => ⟨S500000x64, .f32⟩
  | 82 => ⟨S500000x64, .f32⟩
  | 83 => ⟨S_, .f32⟩
  | 84 => ⟨S500000, .f32⟩
  | 85 => ⟨S500000x1, .f32⟩
  | 86 => ⟨S_, .f32⟩
  | 87 => ⟨S500000x1, .f32⟩
  | 88 => ⟨S500000x1, .f32⟩
  | 89 => ⟨S500000x64, .f32⟩
  | 90 => ⟨S500000x64, .f32⟩
  | 91 => ⟨S_, .f32⟩
  | 92 => ⟨S500000x1, .f32⟩
  | 93 => ⟨S500000x1, .f32⟩
  | 94 => ⟨S500000x1, .f32⟩
  | 95 => ⟨S500000x64, .f32⟩
  | 96 => ⟨S500000x64, .f32⟩
  | 97 => ⟨S1x64, .f32⟩
  | 98 => ⟨S500000x64, .f32⟩
  | 99 => ⟨S500000x64, .f32⟩
  | 100 => ⟨S1x64, .f32⟩
  | 101 => ⟨S500000x64, .f32⟩
  | 102 => ⟨S500000x64, .f32⟩
  | 103 => ⟨S64x64, .f32⟩
  | 104 => ⟨S500000x64, .f32⟩
  | 105 => ⟨S1x64, .f32⟩
  | 106 => ⟨S500000x64, .f32⟩
  | 107 => ⟨S500000x64, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x64, .f32⟩
  | 117 => ⟨S500000x128, .f32⟩
  | 118 => ⟨S_, .f32⟩
  | 119 => ⟨S100000x128, .f32⟩
  | 120 => ⟨S500000x1, .i32⟩
  | 121 => ⟨S100000x128, .f32⟩
  | 122 => ⟨S100000x192, .f32⟩
  | 123 => ⟨S192x64, .f32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S1x2x500000, .i32⟩
  | 4 => ⟨S2x500000, .i32⟩
  | 5 => ⟨S1x64x64, .f32⟩
  | 6 => ⟨S64x64, .f32⟩
  | 7 => ⟨S1x64, .f32⟩
  | 8 => ⟨S64, .f32⟩
  | 9 => ⟨S1x64x64, .f32⟩
  | 10 => ⟨S64x64, .f32⟩
  | 11 => ⟨S1x64, .f32⟩
  | 12 => ⟨S64, .f32⟩
  | 13 => ⟨S1x64, .f32⟩
  | 14 => ⟨S64, .f32⟩
  | 15 => ⟨S1x64, .f32⟩
  | 16 => ⟨S64, .f32⟩
  | 17 => ⟨S1x64x64, .f32⟩
  | 18 => ⟨S64x64, .f32⟩
  | 19 => ⟨S1x64, .f32⟩
  | 20 => ⟨S64, .f32⟩
  | 21 => ⟨S1x64x192, .f32⟩
  | 22 => ⟨S64x192, .f32⟩
  | 23 => ⟨S1x64, .f32⟩
  | 24 => ⟨S64, .f32⟩
  | 25 => ⟨S1x64, .f32⟩
  | 26 => ⟨S64, .f32⟩
  | 27 => ⟨S1x500000, .i32⟩
  | 28 => ⟨S500000, .i32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x64, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x64, .f32⟩
  | 49 => ⟨S500000x64, .f32⟩
  | 50 => ⟨S500000x64, .f32⟩
  | 51 => ⟨S64x64, .f32⟩
  | 52 => ⟨S100000x64, .f32⟩
  | 53 => ⟨S1x64, .f32⟩
  | 54 => ⟨S100000x64, .f32⟩
  | 55 => ⟨S100000x64, .f32⟩
  | 56 => ⟨S64x64, .f32⟩
  | 57 => ⟨S500000x64, .f32⟩
  | 58 => ⟨S1x64, .f32⟩
  | 59 => ⟨S500000x64, .f32⟩
  | 60 => ⟨S500000x64, .f32⟩
  | 61 => ⟨S_, .f32⟩
  | 62 => ⟨S500000x64, .f32⟩
  | 63 => ⟨S500000x64, .f32⟩
  | 64 => ⟨S_, .f32⟩
  | 65 => ⟨S500000, .f32⟩
  | 66 => ⟨S500000x1, .f32⟩
  | 67 => ⟨S_, .f32⟩
  | 68 => ⟨S500000x1, .f32⟩
  | 69 => ⟨S500000x1, .f32⟩
  | 70 => ⟨S500000x64, .f32⟩
  | 71 => ⟨S500000x64, .f32⟩
  | 72 => ⟨S500000x64, .f32⟩
  | 73 => ⟨S_, .f32⟩
  | 74 => ⟨S500000, .f32⟩
  | 75 => ⟨S500000x1, .f32⟩
  | 76 => ⟨S_, .f32⟩
  | 77 => ⟨S500000x1, .f32⟩
  | 78 => ⟨S500000x1, .f32⟩
  | 79 => ⟨S500000x64, .f32⟩
  | 80 => ⟨S500000x64, .f32⟩
  | 81 => ⟨S_, .f32⟩
  | 82 => ⟨S500000x1, .f32⟩
  | 83 => ⟨S500000x1, .f32⟩
  | 84 => ⟨S500000x1, .f32⟩
  | 85 => ⟨S500000x64, .f32⟩
  | 86 => ⟨S500000x64, .f32⟩
  | 87 => ⟨S1x64, .f32⟩
  | 88 => ⟨S500000x64, .f32⟩
  | 89 => ⟨S500000x64, .f32⟩
  | 90 => ⟨S1x64, .f32⟩
  | 91 => ⟨S500000x64, .f32⟩
  | 92 => ⟨S500000x64, .f32⟩
  | 93 => ⟨S64x64, .f32⟩
  | 94 => ⟨S500000x64, .f32⟩
  | 95 => ⟨S1x64, .f32⟩
  | 96 => ⟨S500000x64, .f32⟩
  | 97 => ⟨S500000x64, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x64, .f32⟩
  | 107 => ⟨S500000x128, .f32⟩
  | 108 => ⟨S_, .f32⟩
  | 109 => ⟨S100000x128, .f32⟩
  | 110 => ⟨S500000x1, .i32⟩
  | 111 => ⟨S100000x128, .f32⟩
  | 112 => ⟨S100000x192, .f32⟩
  | 113 => ⟨S192x64, .f32⟩
  | 114 => ⟨S100000x64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S1x2x500000, .i32⟩
  | 122 => ⟨S2x500000, .i32⟩
  | 123 => ⟨S1x64x64, .f32⟩
  | 124 => ⟨S64x64, .f32⟩
  | 125 => ⟨S1x64, .f32⟩
  | 126 => ⟨S64, .f32⟩
  | 127 => ⟨S1x64x64, .f32⟩
  | _ => ⟨S100000x64, .f32⟩

abbrev hbmTy0_2 (i : Nat) : BufTy := match i % 128 with
  | 0 => ⟨S64x64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64x64, .f32⟩
  | 8 => ⟨S64x64, .f32⟩
  | 9 => ⟨S1x64, .f32⟩
  | 10 => ⟨S64, .f32⟩
  | 11 => ⟨S1x64x192, .f32⟩
  | 12 => ⟨S64x192, .f32⟩
  | 13 => ⟨S1x64, .f32⟩
  | 14 => ⟨S64, .f32⟩
  | 15 => ⟨S1x64, .f32⟩
  | 16 => ⟨S64, .f32⟩
  | 17 => ⟨S1x500000, .i32⟩
  | 18 => ⟨S500000, .i32⟩
  | 19 => ⟨S1x500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x64, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x64, .f32⟩
  | 39 => ⟨S500000x64, .f32⟩
  | 40 => ⟨S500000x64, .f32⟩
  | 41 => ⟨S64x64, .f32⟩
  | 42 => ⟨S100000x64, .f32⟩
  | 43 => ⟨S1x64, .f32⟩
  | 44 => ⟨S100000x64, .f32⟩
  | 45 => ⟨S100000x64, .f32⟩
  | 46 => ⟨S64x64, .f32⟩
  | 47 => ⟨S500000x64, .f32⟩
  | 48 => ⟨S1x64, .f32⟩
  | 49 => ⟨S500000x64, .f32⟩
  | 50 => ⟨S500000x64, .f32⟩
  | 51 => ⟨S_, .f32⟩
  | 52 => ⟨S500000x64, .f32⟩
  | 53 => ⟨S500000x64, .f32⟩
  | 54 => ⟨S_, .f32⟩
  | 55 => ⟨S500000, .f32⟩
  | 56 => ⟨S500000x1, .f32⟩
  | 57 => ⟨S_, .f32⟩
  | 58 => ⟨S500000x1, .f32⟩
  | 59 => ⟨S500000x1, .f32⟩
  | 60 => ⟨S500000x64, .f32⟩
  | 61 => ⟨S500000x64, .f32⟩
  | 62 => ⟨S500000x64, .f32⟩
  | 63 => ⟨S_, .f32⟩
  | 64 => ⟨S500000, .f32⟩
  | 65 => ⟨S500000x1, .f32⟩
  | 66 => ⟨S_, .f32⟩
  | 67 => ⟨S500000x1, .f32⟩
  | 68 => ⟨S500000x1, .f32⟩
  | 69 => ⟨S500000x64, .f32⟩
  | 70 => ⟨S500000x64, .f32⟩
  | 71 => ⟨S_, .f32⟩
  | 72 => ⟨S500000x1, .f32⟩
  | 73 => ⟨S500000x1, .f32⟩
  | 74 => ⟨S500000x1, .f32⟩
  | 75 => ⟨S500000x64, .f32⟩
  | 76 => ⟨S500000x64, .f32⟩
  | 77 => ⟨S1x64, .f32⟩
  | 78 => ⟨S500000x64, .f32⟩
  | 79 => ⟨S500000x64, .f32⟩
  | 80 => ⟨S1x64, .f32⟩
  | 81 => ⟨S500000x64, .f32⟩
  | 82 => ⟨S500000x64, .f32⟩
  | 83 => ⟨S64x64, .f32⟩
  | 84 => ⟨S500000x64, .f32⟩
  | 85 => ⟨S1x64, .f32⟩
  | 86 => ⟨S500000x64, .f32⟩
  | 87 => ⟨S500000x64, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x64, .f32⟩
  | 97 => ⟨S500000x128, .f32⟩
  | 98 => ⟨S_, .f32⟩
  | 99 => ⟨S100000x128, .f32⟩
  | 100 => ⟨S500000x1, .i32⟩
  | 101 => ⟨S100000x128, .f32⟩
  | 102 => ⟨S100000x192, .f32⟩
  | 103 => ⟨S192x64, .f32⟩
  | 104 => ⟨S100000x64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S1x2x500000, .i32⟩
  | 112 => ⟨S2x500000, .i32⟩
  | 113 => ⟨S1x64x64, .f32⟩
  | 114 => ⟨S64x64, .f32⟩
  | 115 => ⟨S1x64, .f32⟩
  | 116 => ⟨S64, .f32⟩
  | 117 => ⟨S1x64x64, .f32⟩
  | 118 => ⟨S64x64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S64, .f32⟩
  | 125 => ⟨S1x64x64, .f32⟩
  | 126 => ⟨S64x64, .f32⟩
  | 127 => ⟨S1x64, .f32⟩
  | _ => ⟨S100000x64, .f32⟩

abbrev hbmTy0_3 (i : Nat) : BufTy := match i % 128 with
  | 0 => ⟨S64, .f32⟩
  | 1 => ⟨S1x64x192, .f32⟩
  | 2 => ⟨S64x192, .f32⟩
  | 3 => ⟨S1x64, .f32⟩
  | 4 => ⟨S64, .f32⟩
  | 5 => ⟨S1x64, .f32⟩
  | 6 => ⟨S64, .f32⟩
  | 7 => ⟨S1x500000, .i32⟩
  | 8 => ⟨S500000, .i32⟩
  | 9 => ⟨S1x500000, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x64, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x64, .f32⟩
  | 29 => ⟨S500000x64, .f32⟩
  | 30 => ⟨S500000x64, .f32⟩
  | 31 => ⟨S64x64, .f32⟩
  | 32 => ⟨S100000x64, .f32⟩
  | 33 => ⟨S1x64, .f32⟩
  | 34 => ⟨S100000x64, .f32⟩
  | 35 => ⟨S100000x64, .f32⟩
  | 36 => ⟨S64x64, .f32⟩
  | 37 => ⟨S500000x64, .f32⟩
  | 38 => ⟨S1x64, .f32⟩
  | 39 => ⟨S500000x64, .f32⟩
  | 40 => ⟨S500000x64, .f32⟩
  | 41 => ⟨S_, .f32⟩
  | 42 => ⟨S500000x64, .f32⟩
  | 43 => ⟨S500000x64, .f32⟩
  | 44 => ⟨S_, .f32⟩
  | 45 => ⟨S500000, .f32⟩
  | 46 => ⟨S500000x1, .f32⟩
  | 47 => ⟨S_, .f32⟩
  | 48 => ⟨S500000x1, .f32⟩
  | 49 => ⟨S500000x1, .f32⟩
  | 50 => ⟨S500000x64, .f32⟩
  | 51 => ⟨S500000x64, .f32⟩
  | 52 => ⟨S500000x64, .f32⟩
  | 53 => ⟨S_, .f32⟩
  | 54 => ⟨S500000, .f32⟩
  | 55 => ⟨S500000x1, .f32⟩
  | 56 => ⟨S_, .f32⟩
  | 57 => ⟨S500000x1, .f32⟩
  | 58 => ⟨S500000x1, .f32⟩
  | 59 => ⟨S500000x64, .f32⟩
  | 60 => ⟨S500000x64, .f32⟩
  | 61 => ⟨S_, .f32⟩
  | 62 => ⟨S500000x1, .f32⟩
  | 63 => ⟨S500000x1, .f32⟩
  | 64 => ⟨S500000x1, .f32⟩
  | 65 => ⟨S500000x64, .f32⟩
  | 66 => ⟨S500000x64, .f32⟩
  | 67 => ⟨S1x64, .f32⟩
  | 68 => ⟨S500000x64, .f32⟩
  | 69 => ⟨S500000x64, .f32⟩
  | 70 => ⟨S1x64, .f32⟩
  | 71 => ⟨S500000x64, .f32⟩
  | 72 => ⟨S500000x64, .f32⟩
  | 73 => ⟨S64x64, .f32⟩
  | 74 => ⟨S500000x64, .f32⟩
  | 75 => ⟨S1x64, .f32⟩
  | 76 => ⟨S500000x64, .f32⟩
  | 77 => ⟨S500000x64, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x64, .f32⟩
  | 87 => ⟨S500000x128, .f32⟩
  | 88 => ⟨S_, .f32⟩
  | 89 => ⟨S100000x128, .f32⟩
  | 90 => ⟨S500000x1, .i32⟩
  | 91 => ⟨S100000x128, .f32⟩
  | 92 => ⟨S100000x192, .f32⟩
  | 93 => ⟨S192x64, .f32⟩
  | 94 => ⟨S100000x64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x100000x64, .f32⟩
  | 102 => ⟨S1x100000x64, .f32⟩
  | 103 => ⟨S1x100000x64, .f32⟩
  | 104 => ⟨S1x100000x64, .f32⟩
  | 105 => ⟨S4x100000x64, .f32⟩
  | 106 => ⟨S_, .f32⟩
  | 107 => ⟨S100000x64, .f32⟩
  | 108 => ⟨S_, .f32⟩
  | 109 => ⟨S100000x64, .f32⟩
  | 110 => ⟨S100000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_c_0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_1 : Ref sig .tc := ⟨.hbm, 50, rfl⟩
abbrev main_v35 : Ref sig .tc := ⟨.hbm, 51, rfl⟩
abbrev main_v36 : Ref sig .tc := ⟨.hbm, 52, rfl⟩
abbrev main_c_2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call0_cst : Ref sig .tc := ⟨.hbm, 71, rfl⟩
abbrev main_call0_v0 : Ref sig .tc := ⟨.hbm, 72, rfl⟩
abbrev main_v54 : Ref sig .tc := ⟨.hbm, 73, rfl⟩
abbrev main_cst : Ref sig .tc := ⟨.hbm, 74, rfl⟩
abbrev main_v55 : Ref sig .tc := ⟨.hbm, 75, rfl⟩
abbrev main_v56 : Ref sig .tc := ⟨.hbm, 76, rfl⟩
abbrev main_cst_3 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_4 : Ref sig .tc := ⟨.hbm, 83, rfl⟩
abbrev main_v62 : Ref sig .tc := ⟨.hbm, 84, rfl⟩
abbrev main_v63 : Ref sig .tc := ⟨.hbm, 85, rfl⟩
abbrev main_cst_5 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_6 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_7 : Ref sig .tc := ⟨.hbm, 108, rfl⟩
abbrev main_v84 : Ref sig .tc := ⟨.hbm, 109, rfl⟩
abbrev main_v85 : Ref sig .tc := ⟨.hbm, 110, rfl⟩
abbrev main_c_8 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_9 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_c_10 : Ref sig .tc := ⟨.hbm, 159, rfl⟩
abbrev main_v132 : Ref sig .tc := ⟨.hbm, 160, rfl⟩
abbrev main_v133 : Ref sig .tc := ⟨.hbm, 161, rfl⟩
abbrev main_c_11 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_c_12 : Ref sig .tc := ⟨.hbm, 168, rfl⟩
abbrev main_v139 : Ref sig .tc := ⟨.hbm, 169, rfl⟩
abbrev main_v140 : Ref sig .tc := ⟨.hbm, 170, rfl⟩
abbrev main_c_13 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_call1_cst : Ref sig .tc := ⟨.hbm, 189, rfl⟩
abbrev main_call1_v0 : Ref sig .tc := ⟨.hbm, 190, rfl⟩
abbrev main_v158 : Ref sig .tc := ⟨.hbm, 191, rfl⟩
abbrev main_cst_14 : Ref sig .tc := ⟨.hbm, 192, rfl⟩
abbrev main_v159 : Ref sig .tc := ⟨.hbm, 193, rfl⟩
abbrev main_v160 : Ref sig .tc := ⟨.hbm, 194, rfl⟩
abbrev main_cst_15 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_16 : Ref sig .tc := ⟨.hbm, 201, rfl⟩
abbrev main_v166 : Ref sig .tc := ⟨.hbm, 202, rfl⟩
abbrev main_v167 : Ref sig .tc := ⟨.hbm, 203, rfl⟩
abbrev main_cst_17 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_cst_18 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_c_19 : Ref sig .tc := ⟨.hbm, 226, rfl⟩
abbrev main_v188 : Ref sig .tc := ⟨.hbm, 227, rfl⟩
abbrev main_v189 : Ref sig .tc := ⟨.hbm, 228, rfl⟩
abbrev main_c_20 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_cst_21 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_c_22 : Ref sig .tc := ⟨.hbm, 277, rfl⟩
abbrev main_v236 : Ref sig .tc := ⟨.hbm, 278, rfl⟩
abbrev main_v237 : Ref sig .tc := ⟨.hbm, 279, rfl⟩
abbrev main_c_23 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_c_24 : Ref sig .tc := ⟨.hbm, 286, rfl⟩
abbrev main_v243 : Ref sig .tc := ⟨.hbm, 287, rfl⟩
abbrev main_v244 : Ref sig .tc := ⟨.hbm, 288, rfl⟩
abbrev main_c_25 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_call2_cst : Ref sig .tc := ⟨.hbm, 307, rfl⟩
abbrev main_call2_v0 : Ref sig .tc := ⟨.hbm, 308, rfl⟩
abbrev main_v262 : Ref sig .tc := ⟨.hbm, 309, rfl⟩
abbrev main_cst_26 : Ref sig .tc := ⟨.hbm, 310, rfl⟩
abbrev main_v263 : Ref sig .tc := ⟨.hbm, 311, rfl⟩
abbrev main_v264 : Ref sig .tc := ⟨.hbm, 312, rfl⟩
abbrev main_cst_27 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_cst_28 : Ref sig .tc := ⟨.hbm, 319, rfl⟩
abbrev main_v270 : Ref sig .tc := ⟨.hbm, 320, rfl⟩
abbrev main_v271 : Ref sig .tc := ⟨.hbm, 321, rfl⟩
abbrev main_cst_29 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_cst_30 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_c_31 : Ref sig .tc := ⟨.hbm, 344, rfl⟩
abbrev main_v292 : Ref sig .tc := ⟨.hbm, 345, rfl⟩
abbrev main_v293 : Ref sig .tc := ⟨.hbm, 346, rfl⟩
abbrev main_c_32 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_cst_33 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_c_34 : Ref sig .tc := ⟨.hbm, 395, rfl⟩
abbrev main_v340 : Ref sig .tc := ⟨.hbm, 396, rfl⟩
abbrev main_v341 : Ref sig .tc := ⟨.hbm, 397, rfl⟩
abbrev main_c_35 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_c_36 : Ref sig .tc := ⟨.hbm, 404, rfl⟩
abbrev main_v347 : Ref sig .tc := ⟨.hbm, 405, rfl⟩
abbrev main_v348 : Ref sig .tc := ⟨.hbm, 406, rfl⟩
abbrev main_c_37 : Ref sig .tc := ⟨.hbm, 407, rfl⟩
abbrev main_v349 : Ref sig .tc := ⟨.hbm, 408, rfl⟩
abbrev main_v350 : Ref sig .tc := ⟨.hbm, 409, rfl⟩
abbrev main_v351 : Ref sig .tc := ⟨.hbm, 410, rfl⟩
abbrev main_v352 : Ref sig .tc := ⟨.hbm, 411, rfl⟩
abbrev main_v353 : Ref sig .tc := ⟨.hbm, 412, rfl⟩
abbrev main_v354 : Ref sig .tc := ⟨.hbm, 413, rfl⟩
abbrev main_v355 : Ref sig .tc := ⟨.hbm, 414, rfl⟩
abbrev main_v356 : Ref sig .tc := ⟨.hbm, 415, rfl⟩
abbrev main_v357 : Ref sig .tc := ⟨.hbm, 416, rfl⟩
abbrev main_v358 : Ref sig .tc := ⟨.hbm, 417, rfl⟩
abbrev main_v359 : Ref sig .tc := ⟨.hbm, 418, rfl⟩
abbrev main_v360 : Ref sig .tc := ⟨.hbm, 419, rfl⟩
abbrev main_v361 : Ref sig .tc := ⟨.hbm, 420, rfl⟩
abbrev main_v362 : Ref sig .tc := ⟨.hbm, 421, rfl⟩
abbrev main_v363 : Ref sig .tc := ⟨.hbm, 422, rfl⟩
abbrev main_v364 : Ref sig .tc := ⟨.hbm, 423, rfl⟩
abbrev main_v365 : Ref sig .tc := ⟨.hbm, 424, rfl⟩
abbrev main_call3_cst : Ref sig .tc := ⟨.hbm, 425, rfl⟩
abbrev main_call3_v0 : Ref sig .tc := ⟨.hbm, 426, rfl⟩
abbrev main_v366 : Ref sig .tc := ⟨.hbm, 427, rfl⟩
abbrev main_cst_38 : Ref sig .tc := ⟨.hbm, 428, rfl⟩
abbrev main_v367 : Ref sig .tc := ⟨.hbm, 429, rfl⟩
abbrev main_v368 : Ref sig .tc := ⟨.hbm, 430, rfl⟩
abbrev main_cst_39 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩
abbrev main_v372 : Ref sig .tc := ⟨.hbm, 435, rfl⟩
abbrev main_v373 : Ref sig .tc := ⟨.hbm, 436, rfl⟩
abbrev main_cst_40 : Ref sig .tc := ⟨.hbm, 437, rfl⟩
abbrev main_v374 : Ref sig .tc := ⟨.hbm, 438, rfl⟩
abbrev main_v375 : Ref sig .tc := ⟨.hbm, 439, rfl⟩
abbrev main_cst_41 : Ref sig .tc := ⟨.hbm, 440, rfl⟩
abbrev main_v376 : Ref sig .tc := ⟨.hbm, 441, rfl⟩
abbrev main_v377 : Ref sig .tc := ⟨.hbm, 442, rfl⟩
abbrev main_v378 : Ref sig .tc := ⟨.hbm, 443, rfl⟩
abbrev main_v379 : Ref sig .tc := ⟨.hbm, 444, rfl⟩
abbrev main_cst_42 : Ref sig .tc := ⟨.hbm, 445, rfl⟩
abbrev main_v380 : Ref sig .tc := ⟨.hbm, 446, rfl⟩
abbrev main_v381 : Ref sig .tc := ⟨.hbm, 447, rfl⟩
abbrev main_v382 : Ref sig .tc := ⟨.hbm, 448, rfl⟩
abbrev main_v383 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_v387 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_v392 : Ref sig .tc := ⟨.hbm, 458, rfl⟩
abbrev main_v393 : Ref sig .tc := ⟨.hbm, 459, rfl⟩
abbrev main_v394 : Ref sig .tc := ⟨.hbm, 460, rfl⟩
abbrev main_v395 : Ref sig .tc := ⟨.hbm, 461, rfl⟩
abbrev main_c_43 : Ref sig .tc := ⟨.hbm, 462, rfl⟩
abbrev main_v396 : Ref sig .tc := ⟨.hbm, 463, rfl⟩
abbrev main_v397 : Ref sig .tc := ⟨.hbm, 464, rfl⟩
abbrev main_c_44 : Ref sig .tc := ⟨.hbm, 465, rfl⟩
abbrev main_v398 : Ref sig .tc := ⟨.hbm, 466, rfl⟩
abbrev main_v399 : Ref sig .tc := ⟨.hbm, 467, rfl⟩
abbrev main_v400 : Ref sig .tc := ⟨.hbm, 468, rfl⟩
abbrev main_v401 : Ref sig .tc := ⟨.hbm, 469, rfl⟩
abbrev main_v402 : Ref sig .tc := ⟨.hbm, 470, rfl⟩
abbrev main_v403 : Ref sig .tc := ⟨.hbm, 471, rfl⟩
abbrev main_cst_45 : Ref sig .tc := ⟨.hbm, 472, rfl⟩
abbrev main_v404 : Ref sig .tc := ⟨.hbm, 473, rfl⟩
abbrev main_v405 : Ref sig .tc := ⟨.hbm, 474, rfl⟩
abbrev main_v406 : Ref sig .tc := ⟨.hbm, 475, rfl⟩
abbrev main_v407 : Ref sig .tc := ⟨.hbm, 476, rfl⟩
abbrev main_v408 : Ref sig .tc := ⟨.hbm, 477, rfl⟩
abbrev main_v409 : Ref sig .tc := ⟨.hbm, 478, rfl⟩
abbrev main_v410 : Ref sig .tc := ⟨.hbm, 479, rfl⟩
abbrev main_v411 : Ref sig .tc := ⟨.hbm, 480, rfl⟩
abbrev main_v412 : Ref sig .tc := ⟨.hbm, 481, rfl⟩
abbrev main_v413 : Ref sig .tc := ⟨.hbm, 482, rfl⟩
abbrev main_v414 : Ref sig .tc := ⟨.hbm, 483, rfl⟩
abbrev main_v415 : Ref sig .tc := ⟨.hbm, 484, rfl⟩
abbrev main_v416 : Ref sig .tc := ⟨.hbm, 485, rfl⟩
abbrev main_v417 : Ref sig .tc := ⟨.hbm, 486, rfl⟩
abbrev main_v418 : Ref sig .tc := ⟨.hbm, 487, rfl⟩
abbrev main_v419 : Ref sig .tc := ⟨.hbm, 488, rfl⟩
abbrev main_v420 : Ref sig .tc := ⟨.hbm, 489, rfl⟩
abbrev main_cst_46 : Ref sig .tc := ⟨.hbm, 490, rfl⟩
abbrev main_v421 : Ref sig .tc := ⟨.hbm, 491, rfl⟩
abbrev main_cst_47 : Ref sig .tc := ⟨.hbm, 492, rfl⟩
abbrev main_v422 : Ref sig .tc := ⟨.hbm, 493, rfl⟩
abbrev main_v423 : Ref sig .tc := ⟨.hbm, 494, rfl⟩

abbrev nD : Nat := 1
abbrev τ : Topo := Topo.v7x

variable {F : FTy → Type} [FloatOps F]

class Facts₀ : Prop where
  slices_S4x2x500000_S1x2x500000_0_0_0 : S4x2x500000.Slices ![0, 0, 0] S1x2x500000
  shapeCasts_S1x2x500000_S2x500000 : S1x2x500000.ShapeCasts S2x500000
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x192_S1x64x192_0_0_0 : S4x64x192.Slices ![0, 0, 0] S1x64x192
  shapeCasts_S1x64x192_S64x192 : S1x64x192.ShapeCasts S64x192
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  reducesTo_S500000x64_S500000_d1 : S500000x64.ReducesTo [1] S500000
  h_S_ : 0 < S_.numel
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  concatenates_S500000x64_S500000x64_S500000x128_d1 : Shape.Concatenates [S500000x64, S500000x64] S500000x128 1
  bcast_S_S100000x128 : S_.BroadcastsInDim S100000x128 (![] : Fin 0 → Fin S100000x128.rank)
  concatenates_S100000x64_S100000x128_S100000x192_d1 : Shape.Concatenates [S100000x64, S100000x128] S100000x192 1
  transposes_S64x192_S192x64_1_0 : S64x192.Transposes [1, 0] S192x64
  slices_S4x2x500000_S1x2x500000_1_0_0 : S4x2x500000.Slices ![1, 0, 0] S1x2x500000
  slices_S4x64x64_S1x64x64_1_0_0 : S4x64x64.Slices ![1, 0, 0] S1x64x64
  slices_S4x64_S1x64_1_0 : S4x64.Slices ![1, 0] S1x64
  slices_S4x64x192_S1x64x192_1_0_0 : S4x64x192.Slices ![1, 0, 0] S1x64x192
  slices_S4x2x500000_S1x2x500000_2_0_0 : S4x2x500000.Slices ![2, 0, 0] S1x2x500000
  slices_S4x64x64_S1x64x64_2_0_0 : S4x64x64.Slices ![2, 0, 0] S1x64x64
  slices_S4x64_S1x64_2_0 : S4x64.Slices ![2, 0] S1x64
  slices_S4x64x192_S1x64x192_2_0_0 : S4x64x192.Slices ![2, 0, 0] S1x64x192
  slices_S4x2x500000_S1x2x500000_3_0_0 : S4x2x500000.Slices ![3, 0, 0] S1x2x500000
  slices_S4x64x64_S1x64x64_3_0_0 : S4x64x64.Slices ![3, 0, 0] S1x64x64
  slices_S4x64_S1x64_3_0 : S4x64.Slices ![3, 0] S1x64
  slices_S4x64x192_S1x64x192_3_0_0 : S4x64x192.Slices ![3, 0, 0] S1x64x192
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  reducesTo_S4x100000x64_S100000x64_d0 : S4x100000x64.ReducesTo [0] S100000x64
  bcast_S_S100000x64 : S_.BroadcastsInDim S100000x64 (![] : Fin 0 → Fin S100000x64.rank)
  gather_S100000x64_S500000x1_S500000x64_1_0_n_n_0_1_164_wf : GatherDims.WF S100000x64 S500000x1 S500000x64 [1] [0] [] [0] [] 1 ![1, 64]
  dot_S100000x64_S64x64_S100000x64_1_0_0_1_n_n_wf : DotDims.WF S100000x64 S64x64 S100000x64 [1] [0] [0] [1] [] []
  dot_S500000x64_S64x64_S500000x64_1_0_0_1_n_n_wf : DotDims.WF S500000x64 S64x64 S500000x64 [1] [0] [0] [1] [] []
  scatter_S100000x128_S500000x1_S500000x128_1_0_0_1_wf : ScatterDims.WF S100000x128 S500000x1 S500000x128 [1] [0] [0] 1
  dot_S100000x192_S192x64_S100000x64_1_0_0_1_n_n_wf : DotDims.WF S100000x192 S192x64 S100000x64 [1] [0] [0] [1] [] []

variable [Facts₀]

def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.Spec.lean ====
/-
  One layer of the heterogeneous message-passing network, row by row, on the extended reals.

  Every dense stage of the layer acts on ONE row of its operand at a time, so each is described here as a
  function of a row (a function on `Fin 64`, `Fin 128` or `Fin 192`) and of the small weight arrays:
  * `linRow`    : a node's features times the transposed node weight, plus the bias;
  * `edgeRow`   : an edge's attribute row through the two-layer edge network: an affine map, the positive
                  part, LayerNorm over the 64 hidden entries (mean and variance as sums divided by 64, the
                  inverse square root of the variance plus epsilon, gain and shift), a second affine map;
  * `projRowK` / `projRowR` : the output projection, once as two products (node part, aggregated part) and
                  once as one product over the 192 concatenated entries; `projRow_split` says they agree.
  `mean4` is the last step: the four layer outputs summed from zero and scaled by a quarter is their sum
  from zero divided by four.
-/
import Idealize.ShloMosaic.PureOps.Ideal
import Idealize.ShloMosaic.PureOps.Ideal.Laws
import Mathlib.Algebra.BigOperators.Fin
import Idealize.ShloMosaic.Lib.ValueIdx

noncomputable section

namespace Cert.Rows

open Idealize.ShloMosaic Idealize.ShloMosaic.ValueIdx

/-- The float words the two programs share: zero, sixty-four, and the LayerNorm epsilon. -/
abbrev zeroW : EReal := Ideal.ofBits .f32 0x00000000#32
abbrev w64 : EReal := Ideal.ofBits .f32 0x42800000#32
abbrev epsW : EReal := Ideal.ofBits .f32 0x3727C5AC#32
abbrev quarterW : EReal := Ideal.ofBits .f32 0x3E800000#32
abbrev fourW : EReal := Ideal.ofBits .f32 0x40800000#32

/-- A node row times the transposed weight, plus the bias. -/
def linRow (x : Fin 64 → EReal) (wt : Fin 64 → Fin 64 → EReal) (b : Fin 64 → EReal) (j : Fin 64) : EReal :=
  (∑ k : Fin 64, x k * wt k j) + b j

/-- The hidden row of the edge network: affine map, then the positive part. -/
def hidden (ea : Fin 64 → EReal) (w0t : Fin 64 → Fin 64 → EReal) (b0 : Fin 64 → EReal) (k : Fin 64) : EReal :=
  max ((∑ c : Fin 64, ea c * w0t c k) + b0 k) zeroW

/-- The mean of a row of 64 entries: their sum divided by the word 64. -/
def mean64 (h : Fin 64 → EReal) : EReal := Ideal.div (∑ k : Fin 64, h k) w64

/-- LayerNorm of a row: centre, scale by the inverse root of the variance plus epsilon, gain, shift. -/
def normed (h g be : Fin 64 → EReal) (k : Fin 64) : EReal :=
  ((h k - mean64 h) * Ideal.rsqrt (Ideal.div (∑ c : Fin 64, (h c - mean64 h) * (h c - mean64 h)) w64 + epsW)) * g k + be k

/-- An edge's attribute row through the whole edge network. -/
def edgeRow (ea : Fin 64 → EReal) (w0t : Fin 64 → Fin 64 → EReal) (b0 g be : Fin 64 → EReal)
    (w1t : Fin 64 → Fin 64 → EReal) (b1 : Fin 64 → EReal) (j : Fin 64) : EReal :=
  (∑ k : Fin 64, normed (hidden ea w0t b0) g be k * w1t k j) + b1 j

/-- The projection as two products: the node part and the aggregated part. -/
def projRowK (xl : Fin 64 → EReal) (h : Fin 128 → EReal) (wxl : Fin 64 → Fin 64 → EReal) (wh : Fin 128 → Fin 64 → EReal)
    (pb bb : Fin 64 → EReal) (j : Fin 64) : EReal :=
  (((∑ k : Fin 64, xl k * wxl k j) + (∑ k : Fin 128, h k * wh k j)) + pb j) + bb j

/-- The projection as one product over the concatenated row. -/
def projRowR (cat : Fin 192 → EReal) (pwt : Fin 192 → Fin 64 → EReal) (pb bb : Fin 64 → EReal) (j : Fin 64) : EReal :=
  ((∑ k : Fin 192, cat k * pwt k j) + pb j) + bb j

/-- Any sum over 192 entries, cut after the first 64: the index of the second block is shifted by 64. -/
private theorem sum192_split (f : Fin 192 → EReal) :
    (∑ k : Fin 192, f k) = (∑ k : Fin 64, f ⟨k.val, by omega⟩) + (∑ k : Fin 128, f ⟨k.val + 64, by omega⟩) := by
  refine (Fin.sum_univ_add (a := 64) (b := 128) f).trans ?_
  have hL : ∀ k : Fin 64, f (Fin.castAdd 128 k) = f ⟨k.val, by omega⟩ := fun _ => rfl
  have hR : ∀ k : Fin 128, f (Fin.natAdd 64 k) = f ⟨k.val + 64, by omega⟩ :=
    fun k => congrArg f (Fin.ext (Nat.add_comm 64 k.val))
  rw [Finset.sum_congr rfl (fun k _ => hL k), Finset.sum_congr rfl (fun k _ => hR k)]

/-- A sum over 192 = 64 + 128 entries is the sum over the first 64 plus the sum over the last 128. -/
theorem projRow_split (xl : Fin 64 → EReal) (h : Fin 128 → EReal) (pwt : Fin 192 → Fin 64 → EReal) (pb bb : Fin 64 → EReal) (j : Fin 64) :
    projRowR (fun k : Fin 192 => if hk : k.val < 64 then xl ⟨k.val, hk⟩ else h ⟨k.val - 64, by omega⟩) pwt pb bb j
      = projRowK xl h (fun k => pwt ⟨k.val, by omega⟩) (fun k => pwt ⟨k.val + 64, by omega⟩) pb bb j := by
  unfold projRowR projRowK
  rw [sum192_split]
  have hL : ∀ k : Fin 64,
      (if hk : (⟨k.val, by omega⟩ : Fin 192).val < 64 then xl ⟨(⟨k.val, by omega⟩ : Fin 192).val, hk⟩
        else h ⟨(⟨k.val, by omega⟩ : Fin 192).val - 64, by omega⟩) = xl k := fun k => dif_pos k.isLt
  have hR : ∀ k : Fin 128,
      (if hk : (⟨k.val + 64, by omega⟩ : Fin 192).val < 64 then xl ⟨(⟨k.val + 64, by omega⟩ : Fin 192).val, hk⟩
        else h ⟨(⟨k.val + 64, by omega⟩ : Fin 192).val - 64, by omega⟩) = h k := fun k => by
    rw [dif_neg (by simp)]
    exact congrArg h (Fin.ext (Nat.add_sub_cancel k.val 64))
  simp only [hL, hR]

/-- The word for four denotes the real 4, and the word for a quarter the real 1/4. -/
private theorem fourW_eq : fourW = ((4 : ℝ) : EReal) := by
  show Ideal.ofBits .f32 0x40800000#32 = _
  simp [Ideal.ofBits, Ideal.ieee, -EReal.coe_mul]; norm_num
private theorem quarterW_eq : quarterW = ((1 / 4 : ℝ) : EReal) := by
  show Ideal.ofBits .f32 0x3E800000#32 = _
  simp [Ideal.ofBits, Ideal.ieee, -EReal.coe_mul]; norm_num

/-- Summing four values from zero and scaling by a quarter is dividing their sum from zero by four. -/
theorem mean4 (a b c d : EReal) :
    ((((zeroW + a) + b) + c) + d) * quarterW = Ideal.div (zeroW + (a + (b + (c + d)))) fourW := by
  rw [fourW_eq, quarterW_eq, Ideal.div_coe (by norm_num : (4 : ℝ) ≠ 0)]
  simp only [add_assoc]

/-! ## The same stages on whole arrays

An array of `n` rows is mapped row by row; the small weight arrays are read entry by entry. -/

abbrev Arr2 (n m : Nat) : Type := (⟨2, ![n, m]⟩ : Shape).Idx → EReal
abbrev Arr1 (n : Nat) : Type := (⟨1, ![n]⟩ : Shape).Idx → EReal

/-- Every row of `X` through `linRow`. -/
def linArr {n : Nat} (X : Arr2 n 64) (WT : Arr2 64 64) (B : Arr1 64) : Arr2 n 64 :=
  fun i => linRow (fun k => X (ix2 (i 0) k)) (fun a b => WT (ix2 a b)) (fun k => B (ix1 k)) (i 1)

/-- Every row of `EA` through `edgeRow`. -/
def edgeArr {n : Nat} (EA : Arr2 n 64) (W0T : Arr2 64 64) (B0 G BE : Arr1 64) (W1T : Arr2 64 64) (B1 : Arr1 64) : Arr2 n 64 :=
  fun i => edgeRow (fun c => EA (ix2 (i 0) c)) (fun a b => W0T (ix2 a b)) (fun k => B0 (ix1 k)) (fun k => G (ix1 k))
    (fun k => BE (ix1 k)) (fun a b => W1T (ix2 a b)) (fun k => B1 (ix1 k)) (i 1)

/-- Every row of `XL` beside the same row of `H` through `projRowK`. -/
def projArrK {n : Nat} (XL : Arr2 n 64) (H : Arr2 n 128) (WXL : Arr2 64 64) (WH : Arr2 128 64) (PB BB : Arr1 64) : Arr2 n 64 :=
  fun i => projRowK (fun k => XL (ix2 (i 0) k)) (fun k => H (ix2 (i 0) k)) (fun a b => WXL (ix2 a b)) (fun a b => WH (ix2 a b))
    (fun k => PB (ix1 k)) (fun k => BB (ix1 k)) (i 1)

/-- The first 64 rows of the transposed projection weight. -/
def topRows (PWT : Arr2 192 64) : Arr2 64 64 := fun i => PWT (ix2 ⟨(i 0).val, by have := idx2_lt0 i; omega⟩ (i 1))
/-- Its last 128 rows. -/
def botRows (PWT : Arr2 192 64) : Arr2 128 64 := fun i => PWT (ix2 ⟨(i 0).val + 64, by have := idx2_lt0 i; omega⟩ (i 1))

/-- The projection with the whole transposed weight: its two row blocks meet the node part and the aggregated part. -/
def projArrR {n : Nat} (XL : Arr2 n 64) (H : Arr2 n 128) (PWT : Arr2 192 64) (PB BB : Arr1 64) : Arr2 n 64 :=
  projArrK XL H (topRows PWT) (botRows PWT) PB BB

end Cert.Rows

end
-- ==== Proof.TakeMask.lean ====
/-
  Taking rows of a table at in-range positions is a plain gather.

  The row-taking function first normalises each position word v e (a negative word has the table's height 100000
  added, any other is kept), lays the normalised words out as a column, and tests each one against 0 ≤ · ≤ 99999 as
  signed words; the test of a row is the conjunction over its single column entry. The rows named by the column are
  then gathered from the table, and a row whose test fails is overwritten by the quiet not-a-number word.

  When every position word read signed lies in [0, 100000), normalisation keeps it, both comparisons hold, the
  conjunction over the one-entry column is true, and so every row is the gathered one: the overwrite never happens.
-/
import proofs.«410647_j53395033423884_2_alg».proof.KernelIdeal
import proofs.«410647_j53395033423884_2_alg».proof.Proof.Gen.KernelIdeal
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Take

open Cert.KernelIdeal Cert.KernelIdeal.Gen
open Idealize.ShloMosaic

variable {F : FTy → Type} [FloatOps F]

/-- The position words normalised (a negative word moved up by the table's height) and laid out as a column. -/
def normIdx (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- The rows of `x` at the normalised positions, a row whose position fails 0 ≤ · ≤ 99999 replaced by the
    not-a-number word. -/
def takeFill (x : FVec F S100000x64 .f32) (v : IVec S500000 32) : FVec F S500000x64 .f32 :=
  select
    (broadcastInDim S500000x64 ![0] bcast_S500000_S500000x64_0
      (Host.reduce IntOp.andi
        (andi (cmpi .sge (normIdx v) (broadcastInDim S500000x1 ![] bcast_S_S500000x1 (constantI S_ 32 0#32)))
          (cmpi .sle (normIdx v)
            (broadcastInDim S500000x1 ![0, 1] bcast_S1x1_S500000x1_0_1
              (broadcastInDim S1x1 ![1] bcast_S1_S1x1_1 (constantI S1 32 99999#32)))))
        (constantI S_ 1 1#1) reducesTo_S500000x1_S500000_d1 h_S_))
    (Host.gather gather_S100000x64_S500000x1_S500000x64_1_0_n_n_0_1_164 x (normIdx v))
    (broadcastInDim S500000x64 ![] bcast_S_S500000x64 (constant S_ .f32 0x7FC00000#32))

/-- A left fold by `and` over one-bit words from 1 that meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl =>
    foldl_andi_one f l _ (IntOp.andi_eq_one.2 ⟨h, hl a List.mem_cons_self⟩)
      (fun n hn => hl n (List.mem_cons_of_mem _ hn))

/-- In-range position words are kept by the normalisation. -/
theorem norm_keep (v : IVec S500000 32) (hv : ∀ e, 0 ≤ (v e).toInt ∧ (v e).toInt < 100000) :
    select (cmpi .slt v (broadcastInDim S500000 ![] bcast_S_S500000 (constantI S_ 32 0#32)))
      (addi v (broadcastInDim S500000 ![] bcast_S_S500000 (constantI S_ 32 100000#32))) v = v := by
  funext e
  rw [ValueIdx.select_apply]
  have h0 : cmpi .slt v (broadcastInDim S500000 ![] bcast_S_S500000 (constantI S_ 32 0#32)) e = 0#1 := by
    apply ValueIdx.eq_zero_of_ne_one
    intro h1
    have h3 : (v e).toInt < (0#32 : BitVec 32).toInt := IntOp.cmpi_slt.1 h1
    have h2 : (0#32 : BitVec 32).toInt = 0 := by decide
    have := (hv e).1
    omega
  rw [h0, ValueIdx.select_zero]

/-- So the column at any entry is a word of `v`. -/
theorem normIdx_apply (v : IVec S500000 32) (hv : ∀ e, 0 ≤ (v e).toInt ∧ (v e).toInt < 100000)
    (i : S500000x1.Idx) : ∃ e, normIdx v i = v e := by
  unfold normIdx
  rw [norm_keep v hv]
  exact ⟨_, rfl⟩

/-- Every in-range row passes the range test. -/
theorem mask_eq_one (v : IVec S500000 32) (hv : ∀ e, 0 ≤ (v e).toInt ∧ (v e).toInt < 100000) (j : S500000.Idx) :
    Host.reduce IntOp.andi
        (andi (cmpi .sge (normIdx v) (broadcastInDim S500000x1 ![] bcast_S_S500000x1 (constantI S_ 32 0#32)))
          (cmpi .sle (normIdx v)
            (broadcastInDim S500000x1 ![0, 1] bcast_S1x1_S500000x1_0_1
              (broadcastInDim S1x1 ![1] bcast_S1_S1x1_1 (constantI S1 32 99999#32)))))
        (constantI S_ 1 1#1) reducesTo_S500000x1_S500000_d1 h_S_ j = 1#1 := by
  rw [Host.reduce_eq_foldl]
  refine foldl_andi_one _ _ _ rfl fun i _ => ?_
  obtain ⟨e, he⟩ := normIdx_apply v hv i
  refine IntOp.andi_eq_one.2 ⟨?_, ?_⟩
  · show IntOp.cmpi .sge (normIdx v i) 0#32 = 1#1
    rw [he, IntOp.cmpi_sge]
    exact (hv e).1
  · show IntOp.cmpi .sle (normIdx v i) 99999#32 = 1#1
    rw [he, IntOp.cmpi_sle]
    have h2 : (99999#32 : BitVec 32).toInt = 99999 := by decide
    have := (hv e).2
    omega

/-- With every position in range the fill never happens: the result is the gather at the normalised positions. -/
theorem takeFill_eq (x : FVec Ideal S100000x64 .f32) (v : IVec S500000 32)
    (hv : ∀ e, 0 ≤ (v e).toInt ∧ (v e).toInt < 100000) :
    takeFill (F := Ideal) x v
      = Host.gather gather_S100000x64_S500000x1_S500000x64_1_0_n_n_0_1_164 x (normIdx v) := by
  funext i
  unfold takeFill
  rw [ValueIdx.select_apply]
  have hm : broadcastInDim S500000x64 ![0] bcast_S500000_S500000x64_0
      (Host.reduce IntOp.andi
        (andi (cmpi .sge (normIdx v) (broadcastInDim S500000x1 ![] bcast_S_S500000x1 (constantI S_ 32 0#32)))
          (cmpi .sle (normIdx v)
            (broadcastInDim S500000x1 ![0, 1] bcast_S1x1_S500000x1_0_1
              (broadcastInDim S1x1 ![1] bcast_S1_S1x1_1 (constantI S1 32 99999#32)))))
        (constantI S_ 1 1#1) reducesTo_S500000x1_S500000_d1 h_S_) i = 1#1 := by
    simp only [broadcastInDim]
    exact mask_eq_one v hv _
  rw [hm, ValueIdx.select_one]

end Cert.KernelIdeal.Take
-- ==== Proof.KVal.lean ====
/-
  What the idealized kernel's program computes for ONE edge type, as a function of the arrays it cuts out of its
  arguments: the node features `x`, the source and destination index vectors, and the type's weights.

  * `kEa`  : the edge attributes |x[src] − x[dst]|, the two row reads through the index-tested read `takeFill`;
  * `kWT`  : a weight transposed (and narrowed in format, which changes nothing on the extended reals);
  * `kE`   : every edge row through the edge network (`edgeArr`);
  * `kXl`  : every node row through the node-linear map (`linArr`);
  * `kH`   : the rows [xl[src] | e] added into the row of their destination node, from zero;
  * `kOut` : every node's [xl | h] through the projection, the weight's first 64 and last 128 rows apart.
-/
import proofs.«410647_j53395033423884_2_alg».proof.KernelIdeal
import proofs.«410647_j53395033423884_2_alg».proof.Proof.Gen.KernelIdeal
import proofs.«410647_j53395033423884_2_alg».proof.Proof.Spec
import proofs.«410647_j53395033423884_2_alg».proof.Proof.TakeMask

noncomputable section

namespace Cert.KernelIdeal.KVal

open Idealize.ShloMosaic Cert.KernelIdeal Cert.KernelIdeal.Gen Cert.KernelIdeal.Take Cert.Rows

/-- A 64×64 weight, transposed. -/
def kWT (w : FVec Ideal S64x64 .f32) : FVec Ideal S64x64 .bf16 :=
  truncf .bf16 (transpose S64x64 [1, 0] w transposes_S64x64_S64x64_1_0) bitsLt_bf16_f32

/-- The 64×192 projection weight, transposed. -/
def kPWT (pw : FVec Ideal S64x192 .f32) : FVec Ideal S192x64 .bf16 :=
  truncf .bf16 (transpose S192x64 [1, 0] pw transposes_S64x192_S192x64_1_0) bitsLt_bf16_f32

/-- The edge attributes: the absolute difference of the source row and the destination row of `x`. -/
def kEa (x : FVec Ideal S100000x64 .f32) (src dst : IVec S500000 32) : FVec Ideal S500000x64 .f32 :=
  Host.absf (subf (takeFill x src) (takeFill x dst))

/-- The edge network on every edge. -/
def kE (x : FVec Ideal S100000x64 .f32) (src dst : IVec S500000 32) (w0 : FVec Ideal S64x64 .f32) (b0 g be : FVec Ideal S64 .f32)
    (w1 : FVec Ideal S64x64 .f32) (b1 : FVec Ideal S64 .f32) : FVec Ideal S500000x64 .f32 :=
  edgeArr (n := 500000) (kEa x src dst) (kWT w0) b0 g be (kWT w1) b1

/-- The node-linear map on every node. -/
def kXl (x : FVec Ideal S100000x64 .f32) (lw : FVec Ideal S64x64 .f32) (lb : FVec Ideal S64 .f32) : FVec Ideal S100000x64 .f32 :=
  linArr (n := 100000) x (kWT lw) lb

/-- The messages [xl[src] | e] summed into their destination rows, from zero. -/
def kH (xl : FVec Ideal S100000x64 .f32) (e : FVec Ideal S500000x64 .f32) (src dst : IVec S500000 32) : FVec Ideal S100000x128 .f32 :=
  Host.scatterAdd scatter_S100000x128_S500000x1_S500000x128_1_0_0_1
    (broadcastInDim S100000x128 ![] bcast_S_S100000x128 (constant S_ .f32 0x00000000#32))
    (broadcastInDim S500000x1 ![0] bcast_S500000_S500000x1_0 dst)
    (concatenate S500000x128 1 [⟨S500000x64, takeFill xl src⟩, ⟨S500000x64, e⟩] concatenates_S500000x64_S500000x64_S500000x128_d1)

/-- One edge type's output. -/
def kOut (x : FVec Ideal S100000x64 .f32) (src dst : IVec S500000 32) (lw : FVec Ideal S64x64 .f32) (lb : FVec Ideal S64 .f32)
    (w0 : FVec Ideal S64x64 .f32) (b0 g be : FVec Ideal S64 .f32) (w1 : FVec Ideal S64x64 .f32) (b1 : FVec Ideal S64 .f32)
    (pw : FVec Ideal S64x192 .f32) (pb bb : FVec Ideal S64 .f32) : FVec Ideal S100000x64 .f32 :=
  projArrK (n := 100000) (kXl x lw lb) (kH (kXl x lw lb) (kE x src dst w0 b0 g be w1 b1) src dst)
    (extractStridedSlice S64x64 ![0, 0] (kPWT pw) slices_S192x64_S64x64_0_0)
    (extractStridedSlice S128x64 ![64, 0] (kPWT pw) slices_S192x64_S128x64_64_0) pb bb

end Cert.KernelIdeal.KVal

end
-- ==== Proof.KCut.lean ====
/-
  The per-type pieces the programs cut out of their stacked weight arguments: entry `t` of a stack of four, as
  a strided slice of extent one along the first axis followed by dropping that axis.
-/
import proofs.«410647_j53395033423884_2_alg».proof.KernelIdeal
import proofs.«410647_j53395033423884_2_alg».proof.Proof.Gen.KernelIdeal

noncomputable section

namespace Cert.KernelIdeal.KCut

open Idealize.ShloMosaic Cert.KernelIdeal Cert.KernelIdeal.Gen

variable {F : FTy → Type} [FloatOps F]

/-- One 64×64 matrix of a stack of four. -/
def cut3 (o : Fin 3 → Nat) (h : S4x64x64.Slices o S1x64x64) (a : FVec F S4x64x64 .f32) : FVec F S64x64 .f32 :=
  shapeCast S64x64 (extractStridedSlice S1x64x64 o a h) shapeCasts_S1x64x64_S64x64

/-- One 64-vector of a stack of four. -/
def cut2 (o : Fin 2 → Nat) (h : S4x64.Slices o S1x64) (a : FVec F S4x64 .f32) : FVec F S64 .f32 :=
  shapeCast S64 (extractStridedSlice S1x64 o a h) shapeCasts_S1x64_S64

/-- One 64×192 matrix of a stack of four. -/
def cutP (o : Fin 3 → Nat) (h : S4x64x192.Slices o S1x64x192) (a : FVec F S4x64x192 .f32) : FVec F S64x192 .f32 :=
  shapeCast S64x192 (extractStridedSlice S1x64x192 o a h) shapeCasts_S1x64x192_S64x192

end Cert.KernelIdeal.KCut

end
-- ==== Proof.PreIdx.lean ====
import proofs.«410647_j53395033423884_2_alg».proof.Defs
import proofs.«410647_j53395033423884_2_alg».proof.Proof.Gen.Pre_finite_inputs
import proofs.«410647_j53395033423884_2_alg».proof.Proof.Gen.KernelIdeal
import Idealize.ShloMosaic.Lib.ReduceAll
import Idealize.ShloMosaic.Lib.StableHlo.Predicate
import Idealize.ShloMosaic.Lib.ValueIdx
import Idealize.ShloMosaic.Lib.Pipeline.Value

/-!
# The edge-index precondition, decoded

The precondition is a conjunction of scalar tests; its last conjunct says that every entry `b` of the
edge-index array satisfies `0 ≤ b < 100000` as a signed 32-bit word. This module extracts that fact,
and transports it to the eight index vectors (sources and destinations of the four edge types) that
are cut out of the array by a slice along the type axis, a slice along the source/destination axis
and two row-major reshapes: each entry of such a vector is some entry of the array.
-/

noncomputable section

namespace Cert.PreIdx

open Idealize.ShloMosaic Idealize.SL.Sem

/-- A signed 32-bit word that names a node: `0 ≤ b < 100000`. -/
def InRange (b : BitVec 32) : Prop := 0 ≤ b.toInt ∧ b.toInt < 100000

/-- The rank-0 shape has exactly one index. -/
instance subsingleton_scalar_idx : Subsingleton Cert.Pre_finite_inputs.S_.Idx :=
  ⟨fun a b => funext fun d => d.elim0⟩

/-- One entry: the two signed comparisons against `0` and `100000`, both true, say the word is in range. -/
theorem inRange_of_cmp (b : BitVec 32)
    (e : IntOp.andi (IntOp.cmpi .sge b 0#32) (IntOp.cmpi .slt b 100000#32) = 1#1) : InRange b := by
  obtain ⟨h0, h1⟩ := IntOp.andi_eq_one.1 e
  rw [IntOp.cmpi_sge, show (0#32 : BitVec 32).toInt = 0 from by decide] at h0
  rw [IntOp.cmpi_slt, show (100000#32 : BitVec 32).toInt = 100000 from by decide] at h1
  exact ⟨h0, h1⟩

section Decode
open Cert.Pre_finite_inputs

/-- The last conjunct of the last part of the precondition: if the part evaluates to true, every entry of
    the edge-index array is in range. -/
theorem part3_range {F : FTy → Type} [FloatOps F] [Cert.Pre_finite_inputs.Facts]
    (a1 : IVec Cert.Pre_finite_inputs.S4x2x500000 32) (a12 : FVec F Cert.Pre_finite_inputs.S4x64 .f32)
    (v48 : IVec Cert.Pre_finite_inputs.S_ 1) (v49 v50 : FVec F Cert.Pre_finite_inputs.S4x64 .f32)
    (i : Cert.Pre_finite_inputs.S_.Idx)
    (e : Cert.Pre_finite_inputs.fn_part3 (F := F) a1 a12 v48 v49 v50 i = 1#1) :
    ∀ j : Cert.Pre_finite_inputs.S4x2x500000.Idx, InRange (a1 j) := by
  intro j
  unfold Cert.Pre_finite_inputs.fn_part3 at e
  have e2 := (IntOp.andi_eq_one.1 e).2
  have e3 := Host.reduce_andi_all _ _ _ _ i e2 j
  exact inRange_of_cmp (a1 j) e3

/-- The whole precondition: it unfolds, part by part, to its last part. -/
theorem fn_range {F : FTy → Type} [FloatOps F] [Cert.Pre_finite_inputs.Facts]
    (a0 : FVec F Cert.Pre_finite_inputs.S100000x64 .f32) (a1 : IVec Cert.Pre_finite_inputs.S4x2x500000 32)
    (a2 : FVec F Cert.Pre_finite_inputs.S4x64x64 .f32) (a3 : FVec F Cert.Pre_finite_inputs.S4x64 .f32)
    (a4 : FVec F Cert.Pre_finite_inputs.S4x64x64 .f32) (a5 a6 a7 : FVec F Cert.Pre_finite_inputs.S4x64 .f32)
    (a8 : FVec F Cert.Pre_finite_inputs.S4x64x64 .f32) (a9 : FVec F Cert.Pre_finite_inputs.S4x64 .f32)
    (a10 : FVec F Cert.Pre_finite_inputs.S4x64x192 .f32) (a11 a12 : FVec F Cert.Pre_finite_inputs.S4x64 .f32)
    (i : Cert.Pre_finite_inputs.S_.Idx)
    (e : Cert.Pre_finite_inputs.fn (F := F) a0 a1 a2 a3 a4 a5 a6 a7 a8 a9 a10 a11 a12 i = 1#1) :
    ∀ j : Cert.Pre_finite_inputs.S4x2x500000.Idx, InRange (a1 j) := by
  unfold Cert.Pre_finite_inputs.fn Cert.Pre_finite_inputs.fn_part1 Cert.Pre_finite_inputs.fn_part2 at e
  exact part3_range a1 a12 _ _ _ i e

end Decode

/-- THE PRECONDITION DECODED: on every device, every entry of the edge-index argument is in range. -/
theorem arg1_range [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S4x2x500000.Idx,
      InRange ((m ((c.tc : Thread Cert.KernelIdeal.nD Cert.KernelIdeal.τ).loc Cert.KernelIdeal.main_arg1) :
        IVec Cert.KernelIdeal.S4x2x500000 32) i) :=
  fn_range (F := Ideal) _ _ _ _ _ _ _ _ _ _ _ _ _ ValueIdx.ix0 (congrFun (h c) ValueIdx.ix0)

/-! ## The eight index vectors

For edge type `t` and row `r` (0: sources, 1: destinations) the index vector is the array's block
`[t, :, :]` flattened to `[2, 500000]`, its row `r`, flattened to `[500000]`. -/

section Cuts
open Cert.KernelIdeal Cert.KernelIdeal.Gen

/-- The slice at offsets `o1` along the type axis, then at `o2` along the row axis, each followed by the
    row-major reshape that drops the unit axis. -/
def cut (o1 : Fin 3 → Nat) (h1 : S4x2x500000.Slices o1 S1x2x500000) (o2 : Fin 2 → Nat) (h2 : S2x500000.Slices o2 S1x500000)
    (a1 : IVec S4x2x500000 32) : IVec S500000 32 :=
  shapeCast S500000
    (extractStridedSlice S1x500000 o2
      (shapeCast S2x500000 (extractStridedSlice S1x2x500000 o1 a1 h1) shapeCasts_S1x2x500000_S2x500000) h2)
    shapeCasts_S1x500000_S500000

/-- Every entry of a cut is an entry of the array. -/
theorem cut_range (o1 : Fin 3 → Nat) (h1 : S4x2x500000.Slices o1 S1x2x500000) (o2 : Fin 2 → Nat)
    (h2 : S2x500000.Slices o2 S1x500000) (a1 : IVec S4x2x500000 32) (h : ∀ i, InRange (a1 i)) :
    ∀ e, InRange (cut o1 h1 o2 h2 a1 e) := by
  intro e
  unfold cut shapeCast extractStridedSlice
  exact h _

def idxVec_0_0 (a1 : IVec S4x2x500000 32) : IVec S500000 32 :=
  cut ![0, 0, 0] slices_S4x2x500000_S1x2x500000_0_0_0 ![0, 0] slices_S2x500000_S1x500000_0_0 a1
def idxVec_0_1 (a1 : IVec S4x2x500000 32) : IVec S500000 32 :=
  cut ![0, 0, 0] slices_S4x2x500000_S1x2x500000_0_0_0 ![1, 0] slices_S2x500000_S1x500000_1_0 a1
def idxVec_1_0 (a1 : IVec S4x2x500000 32) : IVec S500000 32 :=
  cut ![1, 0, 0] slices_S4x2x500000_S1x2x500000_1_0_0 ![0, 0] slices_S2x500000_S1x500000_0_0 a1
def idxVec_1_1 (a1 : IVec S4x2x500000 32) : IVec S500000 32 :=
  cut ![1, 0, 0] slices_S4x2x500000_S1x2x500000_1_0_0 ![1, 0] slices_S2x500000_S1x500000_1_0 a1
def idxVec_2_0 (a1 : IVec S4x2x500000 32) : IVec S500000 32 :=
  cut ![2, 0, 0] slices_S4x2x500000_S1x2x500000_2_0_0 ![0, 0] slices_S2x500000_S1x500000_0_0 a1
def idxVec_2_1 (a1 : IVec S4x2x500000 32) : IVec S500000 32 :=
  cut ![2, 0, 0] slices_S4x2x500000_S1x2x500000_2_0_0 ![1, 0] slices_S2x500000_S1x500000_1_0 a1
def idxVec_3_0 (a1 : IVec S4x2x500000 32) : IVec S500000 32 :=
  cut ![3, 0, 0] slices_S4x2x500000_S1x2x500000_3_0_0 ![0, 0] slices_S2x500000_S1x500000_0_0 a1
def idxVec_3_1 (a1 : IVec S4x2x500000 32) : IVec S500000 32 :=
  cut ![3, 0, 0] slices_S4x2x500000_S1x2x500000_3_0_0 ![1, 0] slices_S2x500000_S1x500000_1_0 a1

variable (a1 : IVec S4x2x500000 32) (h : ∀ i, InRange (a1 i))
include h

theorem idxVec_0_0_range : ∀ e, InRange (idxVec_0_0 a1 e) := cut_range _ _ _ _ a1 h
theorem idxVec_0_1_range : ∀ e, InRange (idxVec_0_1 a1 e) := cut_range _ _ _ _ a1 h
theorem idxVec_1_0_range : ∀ e, InRange (idxVec_1_0 a1 e) := cut_range _ _ _ _ a1 h
theorem idxVec_1_1_range : ∀ e, InRange (idxVec_1_1 a1 e) := cut_range _ _ _ _ a1 h
theorem idxVec_2_0_range : ∀ e, InRange (idxVec_2_0 a1 e) := cut_range _ _ _ _ a1 h
theorem idxVec_2_1_range : ∀ e, InRange (idxVec_2_1 a1 e) := cut_range _ _ _ _ a1 h
theorem idxVec_3_0_range : ∀ e, InRange (idxVec_3_0 a1 e) := cut_range _ _ _ _ a1 h
theorem idxVec_3_1_range : ∀ e, InRange (idxVec_3_1 a1 e) := cut_range _ _ _ _ a1 h

end Cuts

end Cert.PreIdx

end
-- ==== Proof.KTake0.lean ====
/-
  The three row-takings of the first edge type, each read as `takeFill`: the node features' rows at the type's
  source positions and at its destination positions, and the rows of the node-linear image at the source positions.
  Each is the fold of its 23 host operations from any contents `V`, read at the result buffer: a function of the
  table's and the position vector's contents in `V` alone.
-/
import proofs.«410647_j53395033423884_2_alg».proof.Proof.Gen.KernelIdeal.Launch
import proofs.«410647_j53395033423884_2_alg».proof.Proof.TakeMask
import Idealize.ShloMosaic.Lib.StableHlo.Run

set_option maxRecDepth 16384
set_option Elab.async false

noncomputable section

namespace Cert.KernelIdeal.KTake

open Cert.KernelIdeal Cert.KernelIdeal.Gen Cert.KernelIdeal.Take
open Idealize.ShloMosaic

variable {F : FTy → Type} [FloatOps F]

set_option maxHeartbeats 4000000 in
/-- The node features' rows at the source positions. -/
theorem take0_src (V : Valuation τ sig (Elt F)) :
    StableHlo.after (hostOps0_1 (F := F)) V (Proc.devRef .tc main_v7)
      = takeFill (V (Proc.devRef .tc main_arg0)) (V (Proc.devRef .tc main_v4)) := by
  simp only [hostOps0_1]; after_results_simp
  simp only [StableHlo.TRef.ofBuf, StableHlo.TRef.toBuf, cast_eq]
  rfl

set_option maxHeartbeats 4000000 in
/-- The node features' rows at the destination positions. -/
theorem take0_dst (V : Valuation τ sig (Elt F)) :
    StableHlo.after (hostOps0_2 (F := F)) V (Proc.devRef .tc main_v8)
      = takeFill (V (Proc.devRef .tc main_arg0)) (V (Proc.devRef .tc main_v6)) := by
  simp only [hostOps0_2]; after_results_simp
  simp only [StableHlo.TRef.ofBuf, StableHlo.TRef.toBuf, cast_eq]
  rfl

set_option maxHeartbeats 4000000 in
/-- The node-linear image's rows at the source positions. -/
theorem take0_xl (V : Valuation τ sig (Elt F)) :
    StableHlo.after (hostOps2 (F := F)) V (Proc.devRef .tc main_v35)
      = takeFill (V (Proc.devRef .tc main_v34)) (V (Proc.devRef .tc main_v4)) := by
  simp only [hostOps2]; after_results_simp
  simp only [StableHlo.TRef.ofBuf, StableHlo.TRef.toBuf, cast_eq]
  rfl

end Cert.KernelIdeal.KTake
-- ==== Proof.KS.lean ====
import proofs.«410647_j53395033423884_2_alg».proof.Proof.Gen.KernelIdeal.Launch
import proofs.«410647_j53395033423884_2_alg».proof.Proof.KVal
import proofs.«410647_j53395033423884_2_alg».proof.Proof.KCut
import proofs.«410647_j53395033423884_2_alg».proof.Proof.PreIdx
import proofs.«410647_j53395033423884_2_alg».proof.Proof.KTake0
import Idealize.ShloMosaic.Lib.StableHlo.Run

/-!
# The host stretches of one edge type, read as functions

Between two kernel launches the program runs a straight line of array operations. For one edge type the lines
are read here as functions of the arrays they start from:

* `A`: the index vectors cut out of the edge-index array, the two row reads of the node features and
  their absolute difference (the edge attributes), and the type's edge-network weights cut out of the
  stacked weights (matrices transposed);
* `B`: the node-linear weight and bias;
* `C`: the source rows of the node-linear output read, laid beside the edge-network output and added
  into the destination rows from zero, and the projection weight transposed and cut in its first 64 and last
  128 rows, with the two biases.

Each fact says what one array holds after the line, in terms of what the arrays held before it.
-/

set_option Elab.async false

noncomputable section

namespace Cert.KernelIdeal.KS

open Idealize.ShloMosaic Idealize.SL.Sem Idealize.ShloMosaic.TcCoe
open Cert.KernelIdeal Cert.KernelIdeal.Gen Cert.KernelIdeal.Take Cert.KernelIdeal.KCut Cert.KernelIdeal.KVal Cert.KernelIdeal.KTake Cert.PreIdx

/-! ## Type 0 -/

/-- The line before the edge network's launch. -/
abbrev A0 (V : Valuation τ sig (Elt Ideal)) : Valuation τ sig (Elt Ideal) :=
  StableHlo.after hostOps0_3 (StableHlo.after hostOps0_2 (StableHlo.after hostOps0_1 (StableHlo.after hostOps0 V)))

/-- The line before the node-linear launch. -/
abbrev B0 (V : Valuation τ sig (Elt Ideal)) : Valuation τ sig (Elt Ideal) :=
  StableHlo.after hostOps1 V

/-- The line before the projection's launch. -/
abbrev C0 (V : Valuation τ sig (Elt Ideal)) : Valuation τ sig (Elt Ideal) :=
  StableHlo.after hostOps2_1 (StableHlo.after hostOps2 V)

/-! The edge attributes, stretch by stretch: the index vectors, the two row reads, the absolute difference. -/

theorem A0z_keep_arg0 (W : Valuation τ sig (Elt Ideal)) :
    StableHlo.after hostOps0 W (Proc.devRef .tc main_arg0) = W (Proc.devRef .tc main_arg0) := by
  simp only [hostOps0]
  after_results_simp

theorem A0z_v4 (W : Valuation τ sig (Elt Ideal)) :
    StableHlo.after hostOps0 W (Proc.devRef .tc main_v4) = idxVec_0_0 (W (Proc.devRef .tc main_arg1)) := by
  simp only [hostOps0]
  after_results_simp
  rfl

theorem A0z_v6 (W : Valuation τ sig (Elt Ideal)) :
    StableHlo.after hostOps0 W (Proc.devRef .tc main_v6) = idxVec_0_1 (W (Proc.devRef .tc main_arg1)) := by
  simp only [hostOps0]
  after_results_simp
  rfl

set_option maxHeartbeats 4000000 in
theorem A0a_keep_arg0 (W : Valuation τ sig (Elt Ideal)) :
    StableHlo.after hostOps0_1 W (Proc.devRef .tc main_arg0) = W (Proc.devRef .tc main_arg0) := by
  simp only [hostOps0_1]
  after_results_simp

set_option maxHeartbeats 4000000 in
theorem A0a_keep_v6 (W : Valuation τ sig (Elt Ideal)) :
    StableHlo.after hostOps0_1 W (Proc.devRef .tc main_v6) = W (Proc.devRef .tc main_v6) := by
  simp only [hostOps0_1]
  after_results_simp

set_option maxHeartbeats 4000000 in
theorem A0b_keep_v7 (W : Valuation τ sig (Elt Ideal)) :
    StableHlo.after hostOps0_2 W (Proc.devRef .tc main_v7) = W (Proc.devRef .tc main_v7) := by
  simp only [hostOps0_2]
  after_results_simp

theorem A0c_v10 (W : Valuation τ sig (Elt Ideal)) :
    StableHlo.after hostOps0_3 W (Proc.devRef .tc main_v10)
      = Host.absf (subf (F := Ideal) (s := S500000x64) (φ := .f32) (W (Proc.devRef .tc main_v7)) (W (Proc.devRef .tc main_v8))) := by
  simp only [hostOps0_3]
  after_results_simp

theorem A0_v10 (V : Valuation τ sig (Elt Ideal)) :
    A0 V (Proc.devRef .tc main_v10)
      = kEa (V (Proc.devRef .tc main_arg0)) (idxVec_0_0 (V (Proc.devRef .tc main_arg1))) (idxVec_0_1 (V (Proc.devRef .tc main_arg1))) := by
  show StableHlo.after hostOps0_3 (StableHlo.after hostOps0_2 (StableHlo.after hostOps0_1 (StableHlo.after hostOps0 V)))
    (Proc.devRef .tc main_v10) = _
  rw [A0c_v10, A0b_keep_v7, take0_src, take0_dst, A0a_keep_arg0, A0a_keep_v6, A0z_keep_arg0, A0z_v4, A0z_v6]
  rfl

set_option maxHeartbeats 4000000 in
theorem A0_v14 (V : Valuation τ sig (Elt Ideal)) :
    A0 V (Proc.devRef .tc main_v14) = kWT (cut3 (F := Ideal) ![0, 0, 0] slices_S4x64x64_S1x64x64_0_0_0 (V (Proc.devRef .tc main_arg4))) := by
  simp only [A0, hostOps0, hostOps0_1, hostOps0_2, hostOps0_3]
  after_results_simp
  rfl

set_option maxHeartbeats 4000000 in
theorem A0_v18 (V : Valuation τ sig (Elt Ideal)) :
    A0 V (Proc.devRef .tc main_v18) = kWT (cut3 (F := Ideal) ![0, 0, 0] slices_S4x64x64_S1x64x64_0_0_0 (V (Proc.devRef .tc main_arg8))) := by
  simp only [A0, hostOps0, hostOps0_1, hostOps0_2, hostOps0_3]
  after_results_simp
  rfl

set_option maxHeartbeats 4000000 in
theorem A0_v20 (V : Valuation τ sig (Elt Ideal)) :
    A0 V (Proc.devRef .tc main_v20) = cut2 (F := Ideal) ![0, 0] slices_S4x64_S1x64_0_0 (V (Proc.devRef .tc main_arg5)) := by
  simp only [A0, hostOps0, hostOps0_1, hostOps0_2, hostOps0_3]
  after_results_simp
  rfl

set_option maxHeartbeats 4000000 in
theorem A0_v22 (V : Valuation τ sig (Elt Ideal)) :
    A0 V (Proc.devRef .tc main_v22) = cut2 (F := Ideal) ![0, 0] slices_S4x64_S1x64_0_0 (V (Proc.devRef .tc main_arg9)) := by
  simp only [A0, hostOps0, hostOps0_1, hostOps0_2, hostOps0_3]
  after_results_simp
  rfl

set_option maxHeartbeats 4000000 in
theorem A0_v24 (V : Valuation τ sig (Elt Ideal)) :
    A0 V (Proc.devRef .tc main_v24) = cut2 (F := Ideal) ![0, 0] slices_S4x64_S1x64_0_0 (V (Proc.devRef .tc main_arg6)) := by
  simp only [A0, hostOps0, hostOps0_1, hostOps0_2, hostOps0_3]
  after_results_simp
  rfl

set_option maxHeartbeats 4000000 in
theorem A0_v26 (V : Valuation τ sig (Elt Ideal)) :
    A0 V (Proc.devRef .tc main_v26) = cut2 (F := Ideal) ![0, 0] slices_S4x64_S1x64_0_0 (V (Proc.devRef .tc main_arg7)) := by
  simp only [A0, hostOps0, hostOps0_1, hostOps0_2, hostOps0_3]
  after_results_simp
  rfl

set_option maxHeartbeats 4000000 in
theorem A0_v4 (V : Valuation τ sig (Elt Ideal)) :
    A0 V (Proc.devRef .tc main_v4) = idxVec_0_0 (V (Proc.devRef .tc main_arg1)) := by
  simp only [A0, hostOps0, hostOps0_1, hostOps0_2, hostOps0_3]
  after_results_simp
  rfl

set_option maxHeartbeats 4000000 in
theorem A0_v6 (V : Valuation τ sig (Elt Ideal)) :
    A0 V (Proc.devRef .tc main_v6) = idxVec_0_1 (V (Proc.devRef .tc main_arg1)) := by
  simp only [A0, hostOps0, hostOps0_1, hostOps0_2, hostOps0_3]
  after_results_simp
  rfl

set_option maxHeartbeats 4000000 in
theorem A0_v0 (V : Valuation τ sig (Elt Ideal)) :
    A0 V (Proc.devRef .tc main_v0)
      = broadcastInDim S100000x64 ![] bcast_S_S100000x64 (constant (F := Ideal) S_ .f32 0x00000000#32) := by
  simp only [A0, hostOps0, hostOps0_1, hostOps0_2, hostOps0_3]
  after_results_simp

set_option maxHeartbeats 4000000 in
theorem B0_v31 (V : Valuation τ sig (Elt Ideal)) :
    B0 V (Proc.devRef .tc main_v31) = kWT (cut3 (F := Ideal) ![0, 0, 0] slices_S4x64x64_S1x64x64_0_0_0 (V (Proc.devRef .tc main_arg2))) := by
  simp only [B0, hostOps1]
  after_results_simp
  rfl

set_option maxHeartbeats 4000000 in
theorem B0_v33 (V : Valuation τ sig (Elt Ideal)) :
    B0 V (Proc.devRef .tc main_v33) = cut2 (F := Ideal) ![0, 0] slices_S4x64_S1x64_0_0 (V (Proc.devRef .tc main_arg3)) := by
  simp only [B0, hostOps1]
  after_results_simp
  rfl

theorem B0_keep_arg0 (V : Valuation τ sig (Elt Ideal)) :
    B0 V (Proc.devRef .tc main_arg0) = V (Proc.devRef .tc main_arg0) := by
  simp only [B0, hostOps1]
  after_results_simp

theorem B0_keep_v4 (V : Valuation τ sig (Elt Ideal)) :
    B0 V (Proc.devRef .tc main_v4) = V (Proc.devRef .tc main_v4) := by
  simp only [B0, hostOps1]
  after_results_simp

theorem B0_keep_v6 (V : Valuation τ sig (Elt Ideal)) :
    B0 V (Proc.devRef .tc main_v6) = V (Proc.devRef .tc main_v6) := by
  simp only [B0, hostOps1]
  after_results_simp

theorem B0_keep_v27 (V : Valuation τ sig (Elt Ideal)) :
    B0 V (Proc.devRef .tc main_v27) = V (Proc.devRef .tc main_v27) := by
  simp only [B0, hostOps1]
  after_results_simp

theorem B0_keep_v0 (V : Valuation τ sig (Elt Ideal)) :
    B0 V (Proc.devRef .tc main_v0) = V (Proc.devRef .tc main_v0) := by
  simp only [B0, hostOps1]
  after_results_simp

/-! The aggregated rows, stretch by stretch: the source rows read, then laid beside the edge-network output
and added into the destination rows from zero. -/

set_option maxHeartbeats 4000000 in
theorem C0a_keep_v27 (W : Valuation τ sig (Elt Ideal)) :
    StableHlo.after hostOps2 W (Proc.devRef .tc main_v27) = W (Proc.devRef .tc main_v27) := by
  simp only [hostOps2]
  after_results_simp

set_option maxHeartbeats 4000000 in
theorem C0a_keep_v6 (W : Valuation τ sig (Elt Ideal)) :
    StableHlo.after hostOps2 W (Proc.devRef .tc main_v6) = W (Proc.devRef .tc main_v6) := by
  simp only [hostOps2]
  after_results_simp

theorem C0b_v39 (W : Valuation τ sig (Elt Ideal)) :
    StableHlo.after hostOps2_1 W (Proc.devRef .tc main_v39)
      = Host.scatterAdd (F := Ideal) scatter_S100000x128_S500000x1_S500000x128_1_0_0_1
          (broadcastInDim S100000x128 ![] bcast_S_S100000x128 (constant (F := Ideal) S_ .f32 0x00000000#32))
          (broadcastInDim S500000x1 ![0] bcast_S500000_S500000x1_0 (W (Proc.devRef .tc main_v6)))
          (concatenate S500000x128 1 [⟨S500000x64, W (Proc.devRef .tc main_v35)⟩, ⟨S500000x64, W (Proc.devRef .tc main_v27)⟩]
            concatenates_S500000x64_S500000x64_S500000x128_d1) := by
  simp only [hostOps2_1]
  after_results_simp

theorem C0_v39 (V : Valuation τ sig (Elt Ideal)) :
    C0 V (Proc.devRef .tc main_v39)
      = kH (V (Proc.devRef .tc main_v34)) (V (Proc.devRef .tc main_v27)) (V (Proc.devRef .tc main_v4)) (V (Proc.devRef .tc main_v6)) := by
  show StableHlo.after hostOps2_1 (StableHlo.after hostOps2 V) (Proc.devRef .tc main_v39) = _
  rw [C0b_v39, C0a_keep_v27, C0a_keep_v6, take0_xl]
  rfl

set_option maxHeartbeats 4000000 in
theorem C0_v44 (V : Valuation τ sig (Elt Ideal)) :
    C0 V (Proc.devRef .tc main_v44)
      = extractStridedSlice S64x64 ![0, 0]
          (kPWT (cutP (F := Ideal) ![0, 0, 0] slices_S4x64x192_S1x64x192_0_0_0 (V (Proc.devRef .tc main_arg10)))) slices_S192x64_S64x64_0_0 := by
  simp only [C0, hostOps2, hostOps2_1]
  after_results_simp
  rfl

set_option maxHeartbeats 4000000 in
theorem C0_v45 (V : Valuation τ sig (Elt Ideal)) :
    C0 V (Proc.devRef .tc main_v45)
      = extractStridedSlice S128x64 ![64, 0]
          (kPWT (cutP (F := Ideal) ![0, 0, 0] slices_S4x64x192_S1x64x192_0_0_0 (V (Proc.devRef .tc main_arg10)))) slices_S192x64_S128x64_64_0 := by
  simp only [C0, hostOps2, hostOps2_1]
  after_results_simp
  rfl

set_option maxHeartbeats 4000000 in
theorem C0_v47 (V : Valuation τ sig (Elt Ideal)) :
    C0 V (Proc.devRef .tc main_v47) = cut2 (F := Ideal) ![0, 0] slices_S4x64_S1x64_0_0 (V (Proc.devRef .tc main_arg11)) := by
  simp only [C0, hostOps2, hostOps2_1]
  after_results_simp
  rfl

set_option maxHeartbeats 4000000 in
theorem C0_v49 (V : Valuation τ sig (Elt Ideal)) :
    C0 V (Proc.devRef .tc main_v49) = cut2 (F := Ideal) ![0, 0] slices_S4x64_S1x64_0_0 (V (Proc.devRef .tc main_arg12)) := by
  simp only [C0, hostOps2, hostOps2_1]
  after_results_simp
  rfl

set_option maxHeartbeats 4000000 in
theorem C0_keep_v34 (V : Valuation τ sig (Elt Ideal)) :
    C0 V (Proc.devRef .tc main_v34) = V (Proc.devRef .tc main_v34) := by
  simp only [C0, hostOps2, hostOps2_1]
  after_results_simp

set_option maxHeartbeats 4000000 in
theorem C0_keep_v0 (V : Valuation τ sig (Elt Ideal)) :
    C0 V (Proc.devRef .tc main_v0) = V (Proc.devRef .tc main_v0) := by
  simp only [C0, hostOps2, hostOps2_1]
  after_results_simp

/-! ## The last line -/

/-- After the last line the result is the running sum plus the last type's output, scaled by a quarter. -/
theorem E_v206 (V : Valuation τ sig (Elt Ideal)) :
    StableHlo.after hostOps12 V (Proc.devRef .tc main_v206)
      = mulf (addf (F := Ideal) (s := S100000x64) (φ := .f32) (V (Proc.devRef .tc main_v153)) (V (Proc.devRef .tc main_v203)))
          (broadcastInDim S100000x64 ![] bcast_S_S100000x64 (constant (F := Ideal) S_ .f32 0x3E800000#32)) := by
  simp only [hostOps12]
  after_results_simp

end Cert.KernelIdeal.KS

end
-- ==== Proof.KArgs.lean ====
/- THE ARGUMENTS ARE UNCHANGED AT EVERY REGION EXIT.  The boundary contents `W0 … W41` of @main's 41 segments are a fold
   from the launch memory; no host stretch and no region writes an argument array (a region reads it through an input
   window, or does not touch it), so the fold read at an argument's buffer walks back to the launch memory.  The
   frame proves this at the last boundary only; here the same walk is cut at the region exits
   W5, W7, W10, W15, W17, W20, W25, W27, W30, W35, W37, W40: `W<k>_arg<j>`, each from the previous exit's lemma by the steps between
   the two boundaries, which are the corresponding steps of the frame's own walk of argument `j`. -/
import proofs.«410647_j53395033423884_2_alg».proof.Proof.Gen.KernelIdeal.Frame

set_option maxRecDepth 16384

noncomputable section

namespace Cert.KernelIdeal.KArgs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation of a host stretch writes the buffer: the stretch's operations listed one by one, each one's written
    buffer read off, and its reference told apart from the buffer's. -/
local macro "unwritten " ops:ident : tactic => `(tactic| (
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Region exit `W5`: back to the launch memory -/

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by unwritten hostOps0_3))
    _ = W2 m ρ c (Proc.devRef .tc main_arg0) := StableHlo.after_of_forall_not_mem (b := Proc.devRef .tc main_arg0) _ _ (List.forall_iff_forall_mem.mp (by unwritten hostOps0_2))
    _ = W1 m ρ c (Proc.devRef .tc main_arg0) := StableHlo.after_of_forall_not_mem (b := Proc.devRef .tc main_arg0) _ _ (List.forall_iff_forall_mem.mp (by unwritten hostOps0_1))
    _ = W0 m ρ c (Proc.devRef .tc main_arg0) := StableHlo.after_of_forall_not_mem (b := Proc.devRef .tc main_arg0) _ _ (List.forall_iff_forall_mem.mp (by unwritten hostOps0))
    _ = m ((c : Thread nD τ).loc main_arg0) := rfl
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by unwritten hostOps0_3))
    _ = W2 m ρ c (Proc.devRef .tc main_arg1) := StableHlo.after_of_forall_not_mem (b := Proc.devRef .tc main_arg1) _ _ (List.forall_iff_forall_mem.mp (by unwritten hostOps0_2))
    _ = W1 m ρ c (Proc.devRef .tc main_arg1) := StableHlo.after_of_forall_not_mem (b := Proc.devRef .tc main_arg1) _ _ (List.forall_iff_forall_mem.mp (by unwritten hostOps0_1))
    _ = W0 m ρ c (Proc.devRef .tc main_arg1) := StableHlo.after_of_forall_not_mem (b := Proc.devRef .tc main_arg1) _ _ (List.forall_iff_forall_mem.mp (by unwritten hostOps0))
    _ = m ((c : Thread nD τ).loc main_arg1) := rfl
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by unwritten hostOps0_3))
    _ = W2 m ρ c (Proc.devRef .tc main_arg2) := StableHlo.after_of_forall_not_mem (b := Proc.devRef .tc main_arg2) _ _ (List.forall_iff_forall_mem.mp (by unwritten hostOps0_2))
    _ = W1 m ρ c (Proc.devRef .tc main_arg2) := StableHlo.after_of_forall_not_mem (b := Proc.devRef .tc main_arg2) _ _ (List.forall_iff_forall_mem.mp (by unwritten hostOps0_1))
    _ = W0 m ρ c (Proc.devRef .tc main_arg2) := StableHlo.after_of_forall_not_mem (b := Proc.devRef .tc main_arg2) _ _ (List.forall_iff_forall_mem.mp (by unwritten hostOps0))
    _ = m ((c : Thread nD τ).loc main_arg2) := rfl
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by unwritten hostOps0_3))
    _ = W2 m ρ c (Proc.devRef .tc main_arg3) := StableHlo.after_of_forall_not_mem (b := Proc.devRef .tc main_arg3) _ _ (List.forall_iff_forall_mem.mp (by unwritten hostOps0_2))
    _ = W1 m ρ c (Proc.devRef .tc main_arg3) := StableHlo.after_of_forall_not_mem (b := Proc.devRef .tc main_arg3) _ _ (List.forall_iff_forall_mem.mp (by unwritten hostOps0_1))
    _ = W0 m ρ c (Proc.devRef .tc main_arg3) := StableHlo.after_of_forall_not_mem (b := Proc.devRef .tc main_arg3) _ _ (List.forall_iff_forall_mem.mp (by unwritten hostOps0))
    _ = m ((c : Thread nD τ).loc main_arg3) := rfl
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by unwritten hostOps0_3))
    _ = W2 m ρ c (Proc.devRef .tc main_arg4) := StableHlo.after_of_forall_not_mem (b := Proc.devRef .tc main_arg4) _ _ (List.forall_iff_forall_mem.mp (by unwritten hostOps0_2))
    _ = W1 m ρ c (Proc.devRef .tc main_arg4) := StableHlo.after_of_forall_not_mem (b := Proc.devRef .tc main_arg4) _ _ (List.forall_iff_forall_mem.mp (by unwritten hostOps0_1))
    _ = W0 m ρ c (Proc.devRef .tc main_arg4) := StableHlo.after_of_forall_not_mem (b := Proc.devRef .tc main_arg4) _ _ (List.forall_iff_forall_mem.mp (by unwritten hostOps0))
    _ = m ((c : Thread nD τ).loc main_arg4) := rfl
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by unwritten hostOps0_3))
    _ = W2 m ρ c (Proc.devRef .tc main_arg5) := StableHlo.after_of_forall_not_mem (b := Proc.devRef .tc main_arg5) _ _ (List.forall_iff_forall_mem.mp (by unwritten hostOps0_2))
    _ = W1 m ρ c (Proc.devRef .tc main_arg5) := StableHlo.after_of_forall_not_mem (b := Proc.devRef .tc main_arg5) _ _ (List.forall_iff_forall_mem.mp (by unwritten hostOps0_1))
    _ = W0 m ρ c (Proc.devRef .tc main_arg5) := StableHlo.after_of_forall_not_mem (b := Proc.devRef .tc main_arg5) _ _ (List.forall_iff_forall_mem.mp (by unwritten hostOps0))
    _ = m ((c : Thread nD τ).loc main_arg5) := rfl
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by unwritten hostOps0_3))
    _ = W2 m ρ c (Proc.devRef .tc main_arg6) := StableHlo.after_of_forall_not_mem (b := Proc.devRef .tc main_arg6) _ _ (List.forall_iff_forall_mem.mp (by unwritten hostOps0_2))
    _ = W1 m ρ c (Proc.devRef .tc main_arg6) := StableHlo.after_of_forall_not_mem (b := Proc.devRef .tc main_arg6) _ _ (List.forall_iff_forall_mem.mp (by unwritten hostOps0_1))
    _ = W0 m ρ c (Proc.devRef .tc main_arg6) := StableHlo.after_of_forall_not_mem (b := Proc.devRef .tc main_arg6) _ _ (List.forall_iff_forall_mem.mp (by unwritten hostOps0))
    _ = m ((c : Thread nD τ).loc main_arg6) := rfl
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by unwritten hostOps0_3))
    _ = W2 m ρ c (Proc.devRef .tc main_arg7) := StableHlo.after_of_forall_not_mem (b := Proc.devRef .tc main_arg7) _ _ (List.forall_iff_forall_mem.mp (by unwritten hostOps0_2))
    _ = W1 m ρ c (Proc.devRef .tc main_arg7) := StableHlo.after_of_forall_not_mem (b := Proc.devRef .tc main_arg7) _ _ (List.forall_iff_forall_mem.mp (by unwritten hostOps0_1))
    _ = W0 m ρ c (Proc.devRef .tc main_arg7) := StableHlo.after_of_forall_not_mem (b := Proc.devRef .tc main_arg7) _ _ (List.forall_iff_forall_mem.mp (by unwritten hostOps0))
    _ = m ((c : Thread nD τ).loc main_arg7) := rfl
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by unwritten hostOps0_3))
    _ = W2 m ρ c (Proc.devRef .tc main_arg8) := StableHlo.after_of_forall_not_mem (b := Proc.devRef .tc main_arg8) _ _ (List.forall_iff_forall_mem.mp (by unwritten hostOps0_2))
    _ = W1 m ρ c (Proc.devRef .tc main_arg8) := StableHlo.after_of_forall_not_mem (b := Proc.devRef .tc main_arg8) _ _ (List.forall_iff_forall_mem.mp (by unwritten hostOps0_1))
    _ = W0 m ρ c (Proc.devRef .tc main_arg8) := StableHlo.after_of_forall_not_mem (b := Proc.devRef .tc main_arg8) _ _ (List.forall_iff_forall_mem.mp (by unwritten hostOps0))
    _ = m ((c : Thread nD τ).loc main_arg8) := rfl
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by unwritten hostOps0_3))
    _ = W2 m ρ c (Proc.devRef .tc main_arg9) := StableHlo.after_of_forall_not_mem (b := Proc.devRef .tc main_arg9) _ _ (List.forall_iff_forall_mem.mp (by unwritten hostOps0_2))
    _ = W1 m ρ c (Proc.devRef .tc main_arg9) := StableHlo.after_of_forall_not_mem (b := Proc.devRef .tc main_arg9) _ _ (List.forall_iff_forall_mem.mp (by unwritten hostOps0_1))
    _ = W0 m ρ c (Proc.devRef .tc main_arg9) := StableHlo.after_of_forall_not_mem (b := Proc.devRef .tc main_arg9) _ _ (List.forall_iff_forall_mem.mp (by unwritten hostOps0))
    _ = m ((c : Thread nD τ).loc main_arg9) := rfl
theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by unwritten hostOps0_3))
    _ = W2 m ρ c (Proc.devRef .tc main_arg10) := StableHlo.after_of_forall_not_mem (b := Proc.devRef .tc main_arg10) _ _ (List.forall_iff_forall_mem.mp (by unwritten hostOps0_2))
    _ = W1 m ρ c (Proc.devRef .tc main_arg10) := StableHlo.after_of_forall_not_mem (b := Proc.devRef .tc main_arg10) _ _ (List.forall_iff_forall_mem.mp (by unwritten hostOps0_1))
    _ = W0 m ρ c (Proc.devRef .tc main_arg10) := StableHlo.after_of_forall_not_mem (b := Proc.devRef .tc main_arg10) _ _ (List.forall_iff_forall_mem.mp (by unwritten hostOps0))
    _ = m ((c : Thread nD τ).loc main_arg10) := rfl
theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by unwritten hostOps0_3))
    _ = W2 m ρ c (Proc.devRef .tc main_arg11) := StableHlo.after_of_forall_not_mem (b := Proc.devRef .tc main_arg11) _ _ (List.forall_iff_forall_mem.mp (by unwritten hostOps0_2))
    _ = W1 m ρ c (Proc.devRef .tc main_arg11) := StableHlo.after_of_forall_not_mem (b := Proc.devRef .tc main_arg11) _ _ (List.forall_iff_forall_mem.mp (by unwritten hostOps0_1))
    _ = W0 m ρ c (Proc.devRef .tc main_arg11) := StableHlo.after_of_forall_not_mem (b := Proc.devRef .tc main_arg11) _ _ (List.forall_iff_forall_mem.mp (by unwritten hostOps0))
    _ = m ((c : Thread nD τ).loc main_arg11) := rfl
theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by unwritten hostOps0_3))
    _ = W2 m ρ c (Proc.devRef .tc main_arg12) := StableHlo.after_of_forall_not_mem (b := Proc.devRef .tc main_arg12) _ _ (List.forall_iff_forall_mem.mp (by unwritten hostOps0_2))
    _ = W1 m ρ c (Proc.devRef .tc main_arg12) := StableHlo.after_of_forall_not_mem (b := Proc.devRef .tc main_arg12) _ _ (List.forall_iff_forall_mem.mp (by unwritten hostOps0_1))
    _ = W0 m ρ c (Proc.devRef .tc main_arg12) := StableHlo.after_of_forall_not_mem (b := Proc.devRef .tc main_arg12) _ _ (List.forall_iff_forall_mem.mp (by unwritten hostOps0))
    _ = m ((c : Thread nD τ).loc main_arg12) := rfl

/-! ## Region exit `W7`: back to `W5_arg<j>` -/

theorem W7_arg0 (c : Dev nD) : W7 m ρ c (Proc.devRef .tc main_arg0) = m ((c : Thread nD τ).loc main_arg0) :=
  calc W7 m ρ c (Proc.devRef .tc main_arg0)
    _ = W6 m ρ c (Proc.devRef .tc main_arg0) := (W7_arr m ρ c 0).trans (((dat1 (V6 m ρ) c).arrAt_in 0 rfl _).trans (A_eq1 (V6 m ρ) c 0))
    _ = W5 m ρ c (Proc.devRef .tc main_arg0) := StableHlo.after_of_forall_not_mem (b := Proc.devRef .tc main_arg0) _ _ (List.forall_iff_forall_mem.mp (by unwritten hostOps1))
    _ = m ((c : Thread nD τ).loc main_arg0) := W5_arg0 m ρ c
theorem W7_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by unwritten hostOps1))
    _ = m ((c : Thread nD τ).loc main_arg1) := W5_arg1 m ρ c
theorem W7_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by unwritten hostOps1))
    _ = m ((c : Thread nD τ).loc main_arg2) := W5_arg2 m ρ c
theorem W7_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (List.forall_iff_forall_mem.mp (by unwritten hostOps1))
    _ = m ((c : Thread nD τ).loc main_arg3) := W5_arg3 m ρ c
theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by unwritten hostOps1))
    _ = m ((c : Thread nD τ).loc main_arg4) := W5_arg4 m ρ c
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by unwritten hostOps1))
    _ = m ((c : Thread nD τ).loc main_arg5) := W5_arg5 m ρ c
theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by unwritten hostOps1))
    _ = m ((c : Thread nD τ).loc main_arg6) := W5_arg6 m ρ c
theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by unwritten hostOps1))
    _ = m ((c : Thread nD τ).loc main_arg7) := W5_arg7 m ρ c
theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by unwritten hostOps1))
    _ = m ((c : Thread nD τ).loc main_arg8) := W5_arg8 m ρ c
theorem W7_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by unwritten hostOps1))
    _ = m ((c : Thread nD τ).loc main_arg9) := W5_arg9 m ρ c
theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by unwritten hostOps1))
    _ = m ((c : Thread nD τ).loc main_arg10) := W5_arg10 m ρ c
theorem W7_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (List.forall_iff_forall_mem.mp (by unwritten hostOps1))
    _ = m ((c : Thread nD τ).loc main_arg11) := W5_arg11 m ρ c
theorem W7_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by unwritten hostOps1))
    _ = m ((c : Thread nD τ).loc main_arg12) := W5_arg12 m ρ c

/-! ## Region exit `W10`: back to `W7_arg<j>` -/

theorem W10_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by unwritten hostOps2_1))
    _ = W7 m ρ c (Proc.devRef .tc main_arg0) := StableHlo.after_of_forall_not_mem (b := Proc.devRef .tc main_arg0) _ _ (List.forall_iff_forall_mem.mp (by unwritten hostOps2))
    _ = m ((c : Thread nD τ).loc main_arg0) := W7_arg0 m ρ c
theorem W10_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by unwritten hostOps2_1))
    _ = W7 m ρ c (Proc.devRef .tc main_arg1) := StableHlo.after_of_forall_not_mem (b := Proc.devRef .tc main_arg1) _ _ (List.forall_iff_forall_mem.mp (by unwritten hostOps2))
    _ = m ((c : Thread nD τ).loc main_arg1) := W7_arg1 m ρ c
theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by unwritten hostOps2_1))
    _ = W7 m ρ c (Proc.devRef .tc main_arg2) := StableHlo.after_of_forall_not_mem (b := Proc.devRef .tc main_arg2) _ _ (List.forall_iff_forall_mem.mp (by unwritten hostOps2))
    _ = m ((c : Thread nD τ).loc main_arg2) := W7_arg2 m ρ c
theorem W10_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by unwritten hostOps2_1))
    _ = W7 m ρ c (Proc.devRef .tc main_arg3) := StableHlo.after_of_forall_not_mem (b := Proc.devRef .tc main_arg3) _ _ (List.forall_iff_forall_mem.mp (by unwritten hostOps2))
    _ = m ((c : Thread nD τ).loc main_arg3) := W7_arg3 m ρ c
theorem W10_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by unwritten hostOps2_1))
    _ = W7 m ρ c (Proc.devRef .tc main_arg4) := StableHlo.after_of_forall_not_mem (b := Proc.devRef .tc main_arg4) _ _ (List.forall_iff_forall_mem.mp (by unwritten hostOps2))
    _ = m ((c : Thread nD τ).loc main_arg4) := W7_arg4 m ρ c
theorem W10_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by unwritten hostOps2_1))
    _ = W7 m ρ c (Proc.devRef .tc main_arg5) := StableHlo.after_of_forall_not_mem (b := Proc.devRef .tc main_arg5) _ _ (List.forall_iff_forall_mem.mp (by unwritten hostOps2))
    _ = m ((c : Thread nD τ).loc main_arg5) := W7_arg5 m ρ c
theorem W10_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by unwritten hostOps2_1))
    _ = W7 m ρ c (Proc.devRef .tc main_arg6) := StableHlo.after_of_forall_not_mem (b := Proc.devRef .tc main_arg6) _ _ (List.forall_iff_forall_mem.mp (by unwritten hostOps2))
    _ = m ((c : Thread nD τ).loc main_arg6) := W7_arg6 m ρ c
theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by unwritten hostOps2_1))
    _ = W7 m ρ c (Proc.devRef .tc main_arg7) := StableHlo.after_of_forall_not_mem (b := Proc.devRef .tc main_arg7) _ _ (List.forall_iff_forall_mem.mp (by unwritten hostOps2))
    _ = m ((c : Thread nD τ).loc main_arg7) := W7_arg7 m ρ c
theorem W10_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by unwritten hostOps2_1))
    _ = W7 m ρ c (Proc.devRef .tc main_arg8) := StableHlo.after_of_forall_not_mem (b := Proc.devRef .tc main_arg8) _ _ (List.forall_iff_forall_mem.mp (by unwritten hostOps2))
    _ = m ((c : Thread nD τ).loc main_arg8) := W7_arg8 m ρ c
theorem W10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by unwritten hostOps2_1))
    _ = W7 m ρ c (Proc.devRef .tc main_arg9) := StableHlo.after_of_forall_not_mem (b := Proc.devRef .tc main_arg9) _ _ (List.forall_iff_forall_mem.mp (by unwritten hostOps2))
    _ = m ((c : Thread nD τ).loc main_arg9) := W7_arg9 m ρ c
theorem W10_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by unwritten hostOps2_1))
    _ = W7 m ρ c (Proc.devRef .tc main_arg10) := StableHlo.after_of_forall_not_mem (b := Proc.devRef .tc main_arg10) _ _ (List.forall_iff_forall_mem.mp (by unwritten hostOps2))
    _ = m ((c : Thread nD τ).loc main_arg10) := W7_arg10 m ρ c
theorem W10_arg11 (c : Dev nD) : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by unwritten hostOps2_1))
    _ = W7 m ρ c (Proc.devRef .tc main_arg11) := StableHlo.after_of_forall_not_mem (b := Proc.devRef .tc main_arg11) _ _ (List.forall_iff_forall_mem.mp (by unwritten hostOps2))
    _ = m ((c : Thread nD τ).loc main_arg11) := W7_arg11 m ρ c
theorem W10_arg12 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by unwritten hostOps2_1))
    _ = W7 m ρ c (Proc.devRef .tc main_arg12) := StableHlo.after_of_forall_not_mem (b := Proc.devRef .tc main_arg12) _ _ (List.forall_iff_forall_mem.mp (by unwritten hostOps2))
    _ = m ((c : Thread nD τ).loc main_arg12) := W7_arg12 m ρ c

/-! ## Region exit `W15`: back to `W10_arg<j>` -/

theorem W15_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of_ne m ρ c main_arg0 (by decide)
    _ = W13 m ρ c (Proc.devRef .tc main_arg0) := StableHlo.after_of_forall_not_mem (b := Proc.devRef .tc main_arg0) _ _ (List.forall_iff_forall_mem.mp (by unwritten hostOps3_3))
    _ = W12 m ρ c (Proc.devRef .tc main_arg0) := StableHlo.after_of_forall_not_mem (b := Proc.devRef .tc main_arg0) _ _ (List.forall_iff_forall_mem.mp (by unwritten hostOps3_2))
    _ = W11 m ρ c (Proc.devRef .tc main_arg0) := StableHlo.after_of_forall_not_mem (b := Proc.devRef .tc main_arg0) _ _ (List.forall_iff_forall_mem.mp (by unwritten hostOps3_1))
    _ = W10 m ρ c (Proc.devRef .tc main_arg0) := StableHlo.after_of_forall_not_mem (b := Proc.devRef .tc main_arg0) _ _ (List.forall_iff_forall_mem.mp (by unwritten hostOps3))
    _ = m ((c : Thread nD τ).loc main_arg0) := W10_arg0 m ρ c
theorem W15_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of_ne m ρ c main_arg1 (by decide)
    _ = W13 m ρ c (Proc.devRef .tc main_arg1) := StableHlo.after_of_forall_not_mem (b := Proc.devRef .tc main_arg1) _ _ (List.forall_iff_forall_mem.mp (by unwritten hostOps3_3))
    _ = W12 m ρ c (Proc.devRef .tc main_arg1) := StableHlo.after_of_forall_not_mem (b := Proc.devRef .tc main_arg1) _ _ (List.forall_iff_forall_mem.mp (by unwritten hostOps3_2))
    _ = W11 m ρ c (Proc.devRef .tc main_arg1) := StableHlo.after_of_forall_not_mem (b := Proc.devRef .tc main_arg1) _ _ (List.forall_iff_forall_mem.mp (by unwritten hostOps3_1))
    _ = W10 m ρ c (Proc.devRef .tc main_arg1) := StableHlo.after_of_forall_not_mem (b := Proc.devRef .tc main_arg1) _ _ (List.forall_iff_forall_mem.mp (by unwritten hostOps3))
    _ = m ((c : Thread nD τ).loc main_arg1) := W10_arg1 m ρ c
theorem W15_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of_ne m ρ c main_arg2 (by decide)
    _ = W13 m ρ c (Proc.devRef .tc main_arg2) := StableHlo.after_of_forall_not_mem (b := Proc.devRef .tc main_arg2) _ _ (List.forall_iff_forall_mem.mp (by unwritten hostOps3_3))
    _ = W12 m ρ c (Proc.devRef .tc main_arg2) := StableHlo.after_of_forall_not_mem (b := Proc.devRef .tc main_arg2) _ _ (List.forall_iff_forall_mem.mp (by unwritten hostOps3_2))
    _ = W11 m ρ c (Proc.devRef .tc main_arg2) := StableHlo.after_of_forall_not_mem (b := Proc.devRef .tc main_arg2) _ _ (List.forall_iff_forall_mem.mp (by unwritten hostOps3_1))
    _ = W10 m ρ c (Proc.devRef .tc main_arg2) := StableHlo.after_of_forall_not_mem (b := Proc.devRef .tc main_arg2) _ _ (List.forall_iff_forall_mem.mp (by unwritten hostOps3))
    _ = m ((c : Thread nD τ).loc main_arg2) := W10_arg2 m ρ c
theorem W15_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of_ne m ρ c main_arg3 (by decide)
    _ = W13 m ρ c (Proc.devRef .tc main_arg3) := StableHlo.after_of_forall_not_mem (b := Proc.devRef .tc main_arg3) _ _ (List.forall_iff_forall_mem.mp (by unwritten hostOps3_3))
    _ = W12 m ρ c (Proc.devRef .tc main_arg3) := StableHlo.after_of_forall_not_mem (b := Proc.devRef .tc main_arg3) _ _ (List.forall_iff_forall_mem.mp (by unwritten hostOps3_2))
    _ = W11 m ρ c (Proc.devRef .tc main_arg3) := StableHlo.after_of_forall_not_mem (b := Proc.devRef .tc main_arg3) _ _ (List.forall_iff_forall_mem.mp (by unwritten hostOps3_1))
    _ = W10 m ρ c (Proc.devRef .tc main_arg3) := StableHlo.after_of_forall_not_mem (b := Proc.devRef .tc main_arg3) _ _ (List.forall_iff_forall_mem.mp (by unwritten hostOps3))
    _ = m ((c : Thread nD τ).loc main_arg3) := W10_arg3 m ρ c
theorem W15_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of_ne m ρ c main_arg4 (by decide)
    _ = W13 m ρ c (Proc.devRef .tc main_arg4) := StableHlo.after_of_forall_not_mem (b := Proc.devRef .tc main_arg4) _ _ (List.forall_iff_forall_mem.mp (by unwritten hostOps3_3))
    _ = W12 m ρ c (Proc.devRef .tc main_arg4) := StableHlo.after_of_forall_not_mem (b := Proc.devRef .tc main_arg4) _ _ (List.forall_iff_forall_mem.mp (by unwritten hostOps3_2))
    _ = W11 m ρ c (Proc.devRef .tc main_arg4) := StableHlo.after_of_forall_not_mem (b := Proc.devRef .tc main_arg4) _ _ (List.forall_iff_forall_mem.mp (by unwritten hostOps3_1))
    _ = W10 m ρ c (Proc.devRef .tc main_arg4) := StableHlo.after_of_forall_not_mem (b := Proc.devRef .tc main_arg4) _ _ (List.forall_iff_forall_mem.mp (by unwritten hostOps3))
    _ = m ((c : Thread nD τ).loc main_arg4) := W10_arg4 m ρ c
theorem W15_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of_ne m ρ c main_arg5 (by decide)
    _ = W13 m ρ c (Proc.devRef .tc main_arg5) := StableHlo.after_of_forall_not_mem (b := Proc.devRef .tc main_arg5) _ _ (List.forall_iff_forall_mem.mp (by unwritten hostOps3_3))
    _ = W12 m ρ c (Proc.devRef .tc main_arg5) := StableHlo.after_of_forall_not_mem (b := Proc.devRef .tc main_arg5) _ _ (List.forall_iff_forall_mem.mp (by unwritten hostOps3_2))
    _ = W11 m ρ c (Proc.devRef .tc main_arg5) := StableHlo.after_of_forall_not_mem (b := Proc.devRef .tc main_arg5) _ _ (List.forall_iff_forall_mem.mp (by unwritten hostOps3_1))
    _ = W10 m ρ c (Proc.devRef .tc main_arg5) := StableHlo.after_of_forall_not_mem (b := Proc.devRef .tc main_arg5) _ _ (List.forall_iff_forall_mem.mp (by unwritten hostOps3))
    _ = m ((c : Thread nD τ).loc main_arg5) := W10_arg5 m ρ c
theorem W15_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of_ne m ρ c main_arg6 (by decide)
    _ = W13 m ρ c (Proc.devRef .tc main_arg6) := StableHlo.after_of_forall_not_mem (b := Proc.devRef .tc main_arg6) _ _ (List.forall_iff_forall_mem.mp (by unwritten hostOps3_3))
    _ = W12 m ρ c (Proc.devRef .tc main_arg6) := StableHlo.after_of_forall_not_mem (b := Proc.devRef .tc main_arg6) _ _ (List.forall_iff_forall_mem.mp (by unwritten hostOps3_2))
    _ = W11 m ρ c (Proc.devRef .tc main_arg6) := StableHlo.after_of_forall_not_mem (b := Proc.devRef .tc main_arg6) _ _ (List.forall_iff_forall_mem.mp (by unwritten hostOps3_1))
    _ = W10 m ρ c (Proc.devRef .tc main_arg6) := StableHlo.after_of_forall_not_mem (b := Proc.devRef .tc main_arg6) _ _ (List.forall_iff_forall_mem.mp (by unwritten hostOps3))
    _ = m ((c : Thread nD τ).loc main_arg6) := W10_arg6 m ρ c
theorem W15_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := StableHlo.after_of_forall_not_mem (b := Proc.devRef .tc main_arg7) _ _ (List.forall_iff_forall_mem.mp (by unwritten hostOps3_3))
    _ = W12 m ρ c (Proc.devRef .tc main_arg7) := StableHlo.after_of_forall_not_mem (b := Proc.devRef .tc main_arg7) _ _ (List.forall_iff_forall_mem.mp (by unwritten hostOps3_2))
    _ = W11 m ρ c (Proc.devRef .tc main_arg7) := StableHlo.after_of_forall_not_mem (b := Proc.devRef .tc main_arg7) _ _ (List.forall_iff_forall_mem.mp (by unwritten hostOps3_1))
    _ = W10 m ρ c (Proc.devRef .tc main_arg7) := StableHlo.after_of_forall_not_mem (b := Proc.devRef .tc main_arg7) _ _ (List.forall_iff_forall_mem.mp (by unwritten hostOps3))
    _ = m ((c : Thread nD τ).loc main_arg7) := W10_arg7 m ρ c
theorem W15_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of_ne m ρ c main_arg8 (by decide)
    _ = W13 m ρ c (Proc.devRef .tc main_arg8) := StableHlo.after_of_forall_not_mem (b := Proc.devRef .tc main_arg8) _ _ (List.forall_iff_forall_mem.mp (by unwritten hostOps3_3))
    _ = W12 m ρ c (Proc.devRef .tc main_arg8) := StableHlo.after_of_forall_not_mem (b := Proc.devRef .tc main_arg8) _ _ (List.forall_iff_forall_mem.mp (by unwritten hostOps3_2))
    _ = W11 m ρ c (Proc.devRef .tc main_arg8) := StableHlo.after_of_forall_not_mem (b := Proc.devRef .tc main_arg8) _ _ (List.forall_iff_forall_mem.mp (by unwritten hostOps3_1))
    _ = W10 m ρ c (Proc.devRef .tc main_arg8) := StableHlo.after_of_forall_not_mem (b := Proc.devRef .tc main_arg8) _ _ (List.forall_iff_forall_mem.mp (by unwritten hostOps3))
    _ = m ((c : Thread nD τ).loc main_arg8) := W10_arg8 m ρ c
theorem W15_arg9 (c : Dev nD) : W15 m ρ c (Proc.devRef .tc main_arg9) = m ((c : Thread nD τ).loc main_arg9) :=
  calc W15 m ρ c (Proc.devRef .tc main_arg9)
    _ = W14 m ρ c (Proc.devRef .tc main_arg9) := W15_of_ne m ρ c main_arg9 (by decide)
    _ = W13 m ρ c (Proc.devRef .tc main_arg9) := StableHlo.after_of_forall_not_mem (b := Proc.devRef .tc main_arg9) _ _ (List.forall_iff_forall_mem.mp (by unwritten hostOps3_3))
    _ = W12 m ρ c (Proc.devRef .tc main_arg9) := StableHlo.after_of_forall_not_mem (b := Proc.devRef .tc main_arg9) _ _ (List.forall_iff_forall_mem.mp (by unwritten hostOps3_2))
    _ = W11 m ρ c (Proc.devRef .tc main_arg9) := StableHlo.after_of_forall_not_mem (b := Proc.devRef .tc main_arg9) _ _ (List.forall_iff_forall_mem.mp (by unwritten hostOps3_1))
    _ = W10 m ρ c (Proc.devRef .tc main_arg9) := StableHlo.after_of_forall_not_mem (b := Proc.devRef .tc main_arg9) _ _ (List.forall_iff_forall_mem.mp (by unwritten hostOps3))
    _ = m ((c : Thread nD τ).loc main_arg9) := W10_arg9 m ρ c
theorem W15_arg10 (c : Dev nD) : W15 m ρ c (Proc.devRef .tc main_arg10) = m ((c : Thread nD τ).loc main_arg10) :=
  calc W15 m ρ c (Proc.devRef .tc main_arg10)
    _ = W14 m ρ c (Proc.devRef .tc main_arg10) := W15_of_ne m ρ c main_arg10 (by decide)
    _ = W13 m ρ c (Proc.devRef .tc main_arg10) := StableHlo.after_of_forall_not_mem (b := Proc.devRef .tc main_arg10) _ _ (List.forall_iff_forall_mem.mp (by unwritten hostOps3_3))
    _ = W12 m ρ c (Proc.devRef .tc main_arg10) := StableHlo.after_of_forall_not_mem (b := Proc.devRef .tc main_arg10) _ _ (List.forall_iff_forall_mem.mp (by unwritten hostOps3_2))
    _ = W11 m ρ c (Proc.devRef .tc main_arg10) := StableHlo.after_of_forall_not_mem (b := Proc.devRef .tc main_arg10) _ _ (List.forall_iff_forall_mem.mp (by unwritten hostOps3_1))
    _ = W10 m ρ c (Proc.devRef .tc main_arg10) := StableHlo.after_of_forall_not_mem (b := Proc.devRef .tc main_arg10) _ _ (List.forall_iff_forall_mem.mp (by unwritten hostOps3))
    _ = m ((c : Thread nD τ).loc main_arg10) := W10_arg10 m ρ c
theorem W15_arg11 (c : Dev nD) : W15 m ρ c (Proc.devRef .tc main_arg11) = m ((c : Thread nD τ).loc main_arg11) :=
  calc W15 m ρ c (Proc.devRef .tc main_arg11)
    _ = W14 m ρ c (Proc.devRef .tc main_arg11) := W15_of_ne m ρ c main_arg11 (by decide)
    _ = W13 m ρ c (Proc.devRef .tc main_arg11) := StableHlo.after_of_forall_not_mem (b := Proc.devRef .tc main_arg11) _ _ (List.forall_iff_forall_mem.mp (by unwritten hostOps3_3))
    _ = W12 m ρ c (Proc.devRef .tc main_arg11) := StableHlo.after_of_forall_not_mem (b := Proc.devRef .tc main_arg11) _ _ (List.forall_iff_forall_mem.mp (by unwritten hostOps3_2))
    _ = W11 m ρ c (Proc.devRef .tc main_arg11) := StableHlo.after_of_forall_not_mem (b := Proc.devRef .tc main_arg11) _ _ (List.forall_iff_forall_mem.mp (by unwritten hostOps3_1))
    _ = W10 m ρ c (Proc.devRef .tc main_arg11) := StableHlo.after_of_forall_not_mem (b := Proc.devRef .tc main_arg11) _ _ (List.forall_iff_forall_mem.mp (by unwritten hostOps3))
    _ = m ((c : Thread nD τ).loc main_arg11) := W10_arg11 m ρ c
theorem W15_arg12 (c : Dev nD) : W15 m ρ c (Proc.devRef .tc main_arg12) = m ((c : Thread nD τ).loc main_arg12) :=
  calc W15 m ρ c (Proc.devRef .tc main_arg12)
    _ = W14 m ρ c (Proc.devRef .tc main_arg12) := W15_of_ne m ρ c main_arg12 (by decide)
    _ = W13 m ρ c (Proc.devRef .tc main_arg12) := StableHlo.after_of_forall_not_mem (b := Proc.devRef .tc main_arg12) _ _ (List.forall_iff_forall_mem.mp (by unwritten hostOps3_3))
    _ = W12 m ρ c (Proc.devRef .tc main_arg12) := StableHlo.after_of_forall_not_mem (b := Proc.devRef .tc main_arg12) _ _ (List.forall_iff_forall_mem.mp (by unwritten hostOps3_2))
    _ = W11 m ρ c (Proc.devRef .tc main_arg12) := StableHlo.after_of_forall_not_mem (b := Proc.devRef .tc main_arg12) _ _ (List.forall_iff_forall_mem.mp (by unwritten hostOps3_1))
    _ = W10 m ρ c (Proc.devRef .tc main_arg12) := StableHlo.after_of_forall_not_mem (b := Proc.devRef .tc main_arg12) _ _ (List.forall_iff_forall_mem.mp (by unwritten hostOps3))
    _ = m ((c : Thread nD τ).loc main_arg12) := W10_arg12 m ρ c

/-! ## Region exit `W17`: back to `W15_arg<j>` -/

theorem W17_arg0 (c : Dev nD) : W17 m ρ c (Proc.devRef .tc main_arg0) = m ((c : Thread nD τ).loc main_arg0) :=
  calc W17 m ρ c (Proc.devRef .tc main_arg0)
    _ = W16 m ρ c (Proc.devRef .tc main_arg0) := (W17_arr m ρ c 0).trans (((dat4 (V16 m ρ) c).arrAt_in 0 rfl _).trans (A_eq4 (V16 m ρ) c 0))
    _ = W15 m ρ c (Proc.devRef .tc main_arg0) := StableHlo.after_of_forall_not_mem (b := Proc.devRef .tc main_arg0) _ _ (List.forall_iff_forall_mem.mp (by unwritten hostOps4))
    _ = m ((c : Thread nD τ).loc main_arg0) := W15_arg0 m ρ c
theorem W17_arg1 (c : Dev nD) : W17 m ρ c (Proc.devRef .tc main_arg1) = m ((c : Thread nD τ).loc main_arg1) :=
  calc W17 m ρ c (Proc.devRef .tc main_arg1)
    _ = W16 m ρ c (Proc.devRef .tc main_arg1) := W17_of_ne m ρ c main_arg1 (by decide)
    _ = W15 m ρ c (Proc.devRef .tc main_arg1) := StableHlo.after_of_forall_not_mem (b := Proc.devRef .tc main_arg1) _ _ (List.forall_iff_forall_mem.mp (by unwritten hostOps4))
    _ = m ((c : Thread nD τ).loc main_arg1) := W15_arg1 m ρ c
theorem W17_arg2 (c : Dev nD) : W17 m ρ c (Proc.devRef .tc main_arg2) = m ((c : Thread nD τ).loc main_arg2) :=
  calc W17 m ρ c (Proc.devRef .tc main_arg2)
    _ = W16 m ρ c (Proc.devRef .tc main_arg2) := W17_of_ne m ρ c main_arg2 (by decide)
    _ = W15 m ρ c (Proc.devRef .tc main_arg2) := StableHlo.after_of_forall_not_mem (b := Proc.devRef .tc main_arg2) _ _ (List.forall_iff_forall_mem.mp (by unwritten hostOps4))
    _ = m ((c : Thread nD τ).loc main_arg2) := W15_arg2 m ρ c
theorem W17_arg3 (c : Dev nD) : W17 m ρ c (Proc.devRef .tc main_arg3) = m ((c : Thread nD τ).loc main_arg3) :=
  calc W17 m ρ c (Proc.devRef .tc main_arg3)
    _ = W16 m ρ c (Proc.devRef .tc main_arg3) := W17_of_ne m ρ c main_arg3 (by decide)
    _ = W15 m ρ c (Proc.devRef .tc main_arg3) := StableHlo.after_of_forall_not_mem (b := Proc.devRef .tc main_arg3) _ _ (List.forall_iff_forall_mem.mp (by unwritten hostOps4))
    _ = m ((c : Thread nD τ).loc main_arg3) := W15_arg3 m ρ c
theorem W17_arg4 (c : Dev nD) : W17 m ρ c (Proc.devRef .tc main_arg4) = m ((c : Thread nD τ).loc main_arg4) :=
  calc W17 m ρ c (Proc.devRef .tc main_arg4)
    _ = W16 m ρ c (Proc.devRef .tc main_arg4) := W17_of_ne m ρ c main_arg4 (by decide)
    _ = W15 m ρ c (Proc.devRef .tc main_arg4) := StableHlo.after_of_forall_not_mem (b := Proc.devRef .tc main_arg4) _ _ (List.forall_iff_forall_mem.mp (by unwritten hostOps4))
    _ = m ((c : Thread nD τ).loc main_arg4) := W15_arg4 m ρ c
theorem W17_arg5 (c : Dev nD) : W17 m ρ c (Proc.devRef .tc main_arg5) = m ((c : Thread nD τ).loc main_arg5) :=
  calc W17 m ρ c (Proc.devRef .tc main_arg5)
    _ = W16 m ρ c (Proc.devRef .tc main_arg5) := W17_of_ne m ρ c main_arg5 (by decide)
    _ = W15 m ρ c (Proc.devRef .tc main_arg5) := StableHlo.after_of_forall_not_mem (b := Proc.devRef .tc main_arg5) _ _ (List.forall_iff_forall_mem.mp (by unwritten hostOps4))
    _ = m ((c : Thread nD τ).loc main_arg5) := W15_arg5 m ρ c
theorem W17_arg6 (c : Dev nD) : W17 m ρ c (Proc.devRef .tc main_arg6) = m ((c : Thread nD τ).loc main_arg6) :=
  calc W17 m ρ c (Proc.devRef .tc main_arg6)
    _ = W16 m ρ c (Proc.devRef .tc main_arg6) := W17_of_ne m ρ c main_arg6 (by decide)
    _ = W15 m ρ c (Proc.devRef .tc main_arg6) := StableHlo.after_of_forall_not_mem (b := Proc.devRef .tc main_arg6) _ _ (List.forall_iff_forall_mem.mp (by unwritten hostOps4))
    _ = m ((c : Thread nD τ).loc main_arg6) := W15_arg6 m ρ c
theorem W17_arg7 (c : Dev nD) : W17 m ρ c (Proc.devRef .tc main_arg7) = m ((c : Thread nD τ).loc main_arg7) :=
  calc W17 m ρ c (Proc.devRef .tc main_arg7)
    _ = W16 m ρ c (Proc.devRef .tc main_arg7) := W17_of_ne m ρ c main_arg7 (by decide)
    _ = W15 m ρ c (Proc.devRef .tc main_arg7) := StableHlo.after_of_forall_not_mem (b := Proc.devRef .tc main_arg7) _ _ (List.forall_iff_forall_mem.mp (by unwritten hostOps4))
    _ = m ((c : Thread nD τ).loc main_arg7) := W15_arg7 m ρ c
theorem W17_arg8 (c : Dev nD) : W17 m ρ c (Proc.devRef .tc main_arg8) = m ((c : Thread nD τ).loc main_arg8) :=
  calc W17 m ρ c (Proc.devRef .tc main_arg8)
    _ = W16 m ρ c (Proc.devRef .tc main_arg8) := W17_of_ne m ρ c main_arg8 (by decide)
    _ = W15 m ρ c (Proc.devRef .tc main_arg8) := StableHlo.after_of_forall_not_mem (b := Proc.devRef .tc main_arg8) _ _ (List.forall_iff_forall_mem.mp (by unwritten hostOps4))
    _ = m ((c : Thread nD τ).loc main_arg8) := W15_arg8 m ρ c
theorem W17_arg9 (c : Dev nD) : W17 m ρ c (Proc.devRef .tc main_arg9) = m ((c : Thread nD τ).loc main_arg9) :=
  calc W17 m ρ c (Proc.devRef .tc main_arg9)
    _ = W16 m ρ c (Proc.devRef .tc main_arg9) := W17_of_ne m ρ c main_arg9 (by decide)
    _ = W15 m ρ c (Proc.devRef .tc main_arg9) := StableHlo.after_of_forall_not_mem (b := Proc.devRef .tc main_arg9) _ _ (List.forall_iff_forall_mem.mp (by unwritten hostOps4))
    _ = m ((c : Thread nD τ).loc main_arg9) := W15_arg9 m ρ c
theorem W17_arg10 (c : Dev nD) : W17 m ρ c (Proc.devRef .tc main_arg10) = m ((c : Thread nD τ).loc main_arg10) :=
  calc W17 m ρ c (Proc.devRef .tc main_arg10)
    _ = W16 m ρ c (Proc.devRef .tc main_arg10) := W17_of_ne m ρ c main_arg10 (by decide)
    _ = W15 m ρ c (Proc.devRef .tc main_arg10) := StableHlo.after_of_forall_not_mem (b := Proc.devRef .tc main_arg10) _ _ (List.forall_iff_forall_mem.mp (by unwritten hostOps4))
    _ = m ((c : Thread nD τ).loc main_arg10) := W15_arg10 m ρ c
theorem W17_arg11 (c : Dev nD) : W17 m ρ c (Proc.devRef .tc main_arg11) = m ((c : Thread nD τ).loc main_arg11) :=
  calc W17 m ρ c (Proc.devRef .tc main_arg11)
    _ = W16 m ρ c (Proc.devRef .tc main_arg11) := W17_of_ne m ρ c main_arg11 (by decide)
    _ = W15 m ρ c (Proc.devRef .tc main_arg11) := StableHlo.after_of_forall_not_mem (b := Proc.devRef .tc main_arg11) _ _ (List.forall_iff_forall_mem.mp (by unwritten hostOps4))
    _ = m ((c : Thread nD τ).loc main_arg11) := W15_arg11 m ρ c
theorem W17_arg12 (c : Dev nD) : W17 m ρ c (Proc.devRef .tc main_arg12) = m ((c : Thread nD τ).loc main_arg12) :=
  calc W17 m ρ c (Proc.devRef .tc main_arg12)
    _ = W16 m ρ c (Proc.devRef .tc main_arg12) := W17_of_ne m ρ c main_arg12 (by decide)
    _ = W15 m ρ c (Proc.devRef .tc main_arg12) := StableHlo.after_of_forall_not_mem (b := Proc.devRef .tc main_arg12) _ _ (List.forall_iff_forall_mem.mp (by unwritten hostOps4))
    _ = m ((c : Thread nD τ).loc main_arg12) := W15_arg12 m ρ c

/-! ## Region exit `W20`: back to `W17_arg<j>` -/

theorem W20_arg0 (c : Dev nD) : W20 m ρ c (Proc.devRef .tc main_arg0) = m ((c : Thread nD τ).loc main_arg0) :=
  calc W20 m ρ c (Proc.devRef .tc main_arg0)
    _ = W19 m ρ c (Proc.devRef .tc main_arg0) := W20_of_ne m ρ c main_arg0 (by decide)
    _ = W18 m ρ c (Proc.devRef .tc main_arg0) := StableHlo.after_of_forall_not_mem (b := Proc.devRef .tc main_arg0) _ _ (List.forall_iff_forall_mem.mp (by unwritten hostOps5_1))
    _ = W17 m ρ c (Proc.devRef .tc main_arg0) := StableHlo.after_of_forall_not_mem (b := Proc.devRef .tc main_arg0) _ _ (List.forall_iff_forall_mem.mp (by unwritten hostOps5))
    _ = m ((c : Thread nD τ).loc main_arg0) := W17_arg0 m ρ c
theorem W20_arg1 (c : Dev nD) : W20 m ρ c (Proc.devRef .tc main_arg1) = m ((c : Thread nD τ).loc main_arg1) :=
  calc W20 m ρ c (Proc.devRef .tc main_arg1)
    _ = W19 m ρ c (Proc.devRef .tc main_arg1) := W20_of_ne m ρ c main_arg1 (by decide)
    _ = W18 m ρ c (Proc.devRef .tc main_arg1) := StableHlo.after_of_forall_not_mem (b := Proc.devRef .tc main_arg1) _ _ (List.forall_iff_forall_mem.mp (by unwritten hostOps5_1))
    _ = W17 m ρ c (Proc.devRef .tc main_arg1) := StableHlo.after_of_forall_not_mem (b := Proc.devRef .tc main_arg1) _ _ (List.forall_iff_forall_mem.mp (by unwritten hostOps5))
    _ = m ((c : Thread nD τ).loc main_arg1) := W17_arg1 m ρ c
theorem W20_arg2 (c : Dev nD) : W20 m ρ c (Proc.devRef .tc main_arg2) = m ((c : Thread nD τ).loc main_arg2) :=
  calc W20 m ρ c (Proc.devRef .tc main_arg2)
    _ = W19 m ρ c (Proc.devRef .tc main_arg2) := W20_of_ne m ρ c main_arg2 (by decide)
    _ = W18 m ρ c (Proc.devRef .tc main_arg2) := StableHlo.after_of_forall_not_mem (b := Proc.devRef .tc main_arg2) _ _ (List.forall_iff_forall_mem.mp (by unwritten hostOps5_1))
    _ = W17 m ρ c (Proc.devRef .tc main_arg2) := StableHlo.after_of_forall_not_mem (b := Proc.devRef .tc main_arg2) _ _ (List.forall_iff_forall_mem.mp (by unwritten hostOps5))
    _ = m ((c : Thread nD τ).loc main_arg2) := W17_arg2 m ρ c
theorem W20_arg3 (c : Dev nD) : W20 m ρ c (Proc.devRef .tc main_arg3) = m ((c : Thread nD τ).loc main_arg3) :=
  calc W20 m ρ c (Proc.devRef .tc main_arg3)
    _ = W19 m ρ c (Proc.devRef .tc main_arg3) := W20_of_ne m ρ c main_arg3 (by decide)
    _ = W18 m ρ c (Proc.devRef .tc main_arg3) := StableHlo.after_of_forall_not_mem (b := Proc.devRef .tc main_arg3) _ _ (List.forall_iff_forall_mem.mp (by unwritten hostOps5_1))
    _ = W17 m ρ c (Proc.devRef .tc main_arg3) := StableHlo.after_of_forall_not_mem (b := Proc.devRef .tc main_arg3) _ _ (List.forall_iff_forall_mem.mp (by unwritten hostOps5))
    _ = m ((c : Thread nD τ).loc main_arg3) := W17_arg3 m ρ c
theorem W20_arg4 (c : Dev nD) : W20 m ρ c (Proc.devRef .tc main_arg4) = m ((c : Thread nD τ).loc main_arg4) :=
  calc W20 m ρ c (Proc.devRef .tc main_arg4)
    _ = W19 m ρ c (Proc.devRef .tc main_arg4) := W20_of_ne m ρ c main_arg4 (by decide)
    _ = W18 m ρ c (Proc.devRef .tc main_arg4) := StableHlo.after_of_forall_not_mem (b := Proc.devRef .tc main_arg4) _ _ (List.forall_iff_forall_mem.mp (by unwritten hostOps5_1))
    _ = W17 m ρ c (Proc.devRef .tc main_arg4) := StableHlo.after_of_forall_not_mem (b := Proc.devRef .tc main_arg4) _ _ (List.forall_iff_forall_mem.mp (by unwritten hostOps5))
    _ = m ((c : Thread nD τ).loc main_arg4) := W17_arg4 m ρ c
theorem W20_arg5 (c : Dev nD) : W20 m ρ c (Proc.devRef .tc main_arg5) = m ((c : Thread nD τ).loc main_arg5) :=
  calc W20 m ρ c (Proc.devRef .tc main_arg5)
    _ = W19 m ρ c (Proc.devRef .tc main_arg5) := W20_of_ne m ρ c main_arg5 (by decide)
    _ = W18 m ρ c (Proc.devRef .tc main_arg5) := StableHlo.after_of_forall_not_mem (b := Proc.devRef .tc main_arg5) _ _ (List.forall_iff_forall_mem.mp (by unwritten hostOps5_1))
    _ = W17 m ρ c (Proc.devRef .tc main_arg5) := StableHlo.after_of_forall_not_mem (b := Proc.devRef .tc main_arg5) _ _ (List.forall_iff_forall_mem.mp (by unwritten hostOps5))
    _ = m ((c : Thread nD τ).loc main_arg5) := W17_arg5 m ρ c
theorem W20_arg6 (c : Dev nD) : W20 m ρ c (Proc.devRef .tc main_arg6) = m ((c : Thread nD τ).loc main_arg6) :=
  calc W20 m ρ c (Proc.devRef .tc main_arg6)
    _ = W19 m ρ c (Proc.devRef .tc main_arg6) := W20_of_ne m ρ c main_arg6 (by decide)
    _ = W18 m ρ c (Proc.devRef .tc main_arg6) := StableHlo.after_of_forall_not_mem (b := Proc.devRef .tc main_arg6) _ _ (List.forall_iff_forall_mem.mp (by unwritten hostOps5_1))
    _ = W17 m ρ c (Proc.devRef .tc main_arg6) := StableHlo.after_of_forall_not_mem (b := Proc.devRef .tc main_arg6) _ _ (List.forall_iff_forall_mem.mp (by unwritten hostOps5))
    _ = m ((c : Thread nD τ).loc main_arg6) := W17_arg6 m ρ c
theorem W20_arg7 (c : Dev nD) : W20 m ρ c (Proc.devRef .tc main_arg7) = m ((c : Thread nD τ).loc main_arg7) :=
  calc W20 m ρ c (Proc.devRef .tc main_arg7)
    _ = W19 m ρ c (Proc.devRef .tc main_arg7) := W20_of_ne m ρ c main_arg7 (by decide)
    _ = W18 m ρ c (Proc.devRef .tc main_arg7) := StableHlo.after_of_forall_not_mem (b := Proc.devRef .tc main_arg7) _ _ (List.forall_iff_forall_mem.mp (by unwritten hostOps5_1))
    _ = W17 m ρ c (Proc.devRef .tc main_arg7) := StableHlo.after_of_forall_not_mem (b := Proc.devRef .tc main_arg7) _ _ (List.forall_iff_forall_mem.mp (by unwritten hostOps5))
    _ = m ((c : Thread nD τ).loc main_arg7) := W17_arg7 m ρ c
theorem W20_arg8 (c : Dev nD) : W20 m ρ c (Proc.devRef .tc main_arg8) = m ((c : Thread nD τ).loc main_arg8) :=
  calc W20 m ρ c (Proc.devRef .tc main_arg8)
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by unwritten hostOps5_1))
    _ = W17 m ρ c (Proc.devRef .tc main_arg8) := StableHlo.after_of_forall_not_mem (b := Proc.devRef .tc main_arg8) _ _ (List.forall_iff_forall_mem.mp (by unwritten hostOps5))
    _ = m ((c : Thread nD τ).loc main_arg8) := W17_arg8 m ρ c
theorem W20_arg9 (c : Dev nD) : W20 m ρ c (Proc.devRef .tc main_arg9) = m ((c : Thread nD τ).loc main_arg9) :=
  calc W20 m ρ c (Proc.devRef .tc main_arg9)
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (List.forall_iff_forall_mem.mp (by unwritten hostOps5_1))
    _ = W17 m ρ c (Proc.devRef .tc main_arg9) := StableHlo.after_of_forall_not_mem (b := Proc.devRef .tc main_arg9) _ _ (List.forall_iff_forall_mem.mp (by unwritten hostOps5))
    _ = m ((c : Thread nD τ).loc main_arg9) := W17_arg9 m ρ c
theorem W20_arg10 (c : Dev nD) : W20 m ρ c (Proc.devRef .tc main_arg10) = m ((c : Thread nD τ).loc main_arg10) :=
  calc W20 m ρ c (Proc.devRef .tc main_arg10)
    _ = W19 m ρ c (Proc.devRef .tc main_arg10) := W20_of_ne m ρ c main_arg10 (by decide)
    _ = W18 m ρ c (Proc.devRef .tc main_arg10) := StableHlo.after_of_forall_not_mem (b := Proc.devRef .tc main_arg10) _ _ (List.forall_iff_forall_mem.mp (by unwritten hostOps5_1))
    _ = W17 m ρ c (Proc.devRef .tc main_arg10) := StableHlo.after_of_forall_not_mem (b := Proc.devRef .tc main_arg10) _ _ (List.forall_iff_forall_mem.mp (by unwritten hostOps5))
    _ = m ((c : Thread nD τ).loc main_arg10) := W17_arg10 m ρ c
theorem W20_arg11 (c : Dev nD) : W20 m ρ c (Proc.devRef .tc main_arg11) = m ((c : Thread nD τ).loc main_arg11) :=
  calc W20 m ρ c (Proc.devRef .tc main_arg11)
    _ = W19 m ρ c (Proc.devRef .tc main_arg11) := W20_of_ne m ρ c main_arg11 (by decide)
    _ = W18 m ρ c (Proc.devRef .tc main_arg11) := StableHlo.after_of_forall_not_mem (b := Proc.devRef .tc main_arg11) _ _ (List.forall_iff_forall_mem.mp (by unwritten hostOps5_1))
    _ = W17 m ρ c (Proc.devRef .tc main_arg11) := StableHlo.after_of_forall_not_mem (b := Proc.devRef .tc main_arg11) _ _ (List.forall_iff_forall_mem.mp (by unwritten hostOps5))
    _ = m ((c : Thread nD τ).loc main_arg11) := W17_arg11 m ρ c
theorem W20_arg12 (c : Dev nD) : W20 m ρ c (Proc.devRef .tc main_arg12) = m ((c : Thread nD τ).loc main_arg12) :=
  calc W20 m ρ c (Proc.devRef .tc main_arg12)
    _ = W19 m ρ c (Proc.devRef .tc main_arg12) := W20_of_ne m ρ c main_arg12 (by decide)
    _ = W18 m ρ c (Proc.devRef .tc main_arg12) := StableHlo.after_of_forall_not_mem (b := Proc.devRef .tc main_arg12) _ _ (List.forall_iff_forall_mem.mp (by unwritten hostOps5_1))
    _ = W17 m ρ c (Proc.devRef .tc main_arg12) := StableHlo.after_of_forall_not_mem (b := Proc.devRef .tc main_arg12) _ _ (List.forall_iff_forall_mem.mp (by unwritten hostOps5))
    _ = m ((c : Thread nD τ).loc main_arg12) := W17_arg12 m ρ c

/-! ## Region exit `W25`: back to `W20_arg<j>` -/

theorem W25_arg0 (c : Dev nD) : W25 m ρ c (Proc.devRef .tc main_arg0) = m ((c : Thread nD τ).loc main_arg0) :=
  calc W25 m ρ c (Proc.devRef .tc main_arg0)
    _ = W24 m ρ c (Proc.devRef .tc main_arg0) := W25_of_ne m ρ c main_arg0 (by decide)
    _ = W23 m ρ c (Proc.devRef .tc main_arg0) := StableHlo.after_of_forall_not_mem (b := Proc.devRef .tc main_arg0) _ _ (List.forall_iff_forall_mem.mp (by unwritten hostOps6_3))
    _ = W22 m ρ c (Proc.devRef .tc main_arg0) := StableHlo.after_of_forall_not_mem (b := Proc.devRef .tc main_arg0) _ _ (List.forall_iff_forall_mem.mp (by unwritten hostOps6_2))
    _ = W21 m ρ c (Proc.devRef .tc main_arg0) := StableHlo.after_of_forall_not_mem (b := Proc.devRef .tc main_arg0) _ _ (List.forall_iff_forall_mem.mp (by unwritten hostOps6_1))
    _ = W20 m ρ c (Proc.devRef .tc main_arg0) := StableHlo.after_of_forall_not_mem (b := Proc.devRef .tc main_arg0) _ _ (List.forall_iff_forall_mem.mp (by unwritten hostOps6))
    _ = m ((c : Thread nD τ).loc main_arg0) := W20_arg0 m ρ c
theorem W25_arg1 (c : Dev nD) : W25 m ρ c (Proc.devRef .tc main_arg1) = m ((c : Thread nD τ).loc main_arg1) :=
  calc W25 m ρ c (Proc.devRef .tc main_arg1)
    _ = W24 m ρ c (Proc.devRef .tc main_arg1) := W25_of_ne m ρ c main_arg1 (by decide)
    _ = W23 m ρ c (Proc.devRef .tc main_arg1) := StableHlo.after_of_forall_not_mem (b := Proc.devRef .tc main_arg1) _ _ (List.forall_iff_forall_mem.mp (by unwritten hostOps6_3))
    _ = W22 m ρ c (Proc.devRef .tc main_arg1) := StableHlo.after_of_forall_not_mem (b := Proc.devRef .tc main_arg1) _ _ (List.forall_iff_forall_mem.mp (by unwritten hostOps6_2))
    _ = W21 m ρ c (Proc.devRef .tc main_arg1) := StableHlo.after_of_forall_not_mem (b := Proc.devRef .tc main_arg1) _ _ (List.forall_iff_forall_mem.mp (by unwritten hostOps6_1))
    _ = W20 m ρ c (Proc.devRef .tc main_arg1) := StableHlo.after_of_forall_not_mem (b := Proc.devRef .tc main_arg1) _ _ (List.forall_iff_forall_mem.mp (by unwritten hostOps6))
    _ = m ((c : Thread nD τ).loc main_arg1) := W20_arg1 m ρ c
theorem W25_arg2 (c : Dev nD) : W25 m ρ c (Proc.devRef .tc main_arg2) = m ((c : Thread nD τ).loc main_arg2) :=
  calc W25 m ρ c (Proc.devRef .tc main_arg2)
    _ = W24 m ρ c (Proc.devRef .tc main_arg2) := W25_of_ne m ρ c main_arg2 (by decide)
    _ = W23 m ρ c (Proc.devRef .tc main_arg2) := StableHlo.after_of_forall_not_mem (b := Proc.devRef .tc main_arg2) _ _ (List.forall_iff_forall_mem.mp (by unwritten hostOps6_3))
    _ = W22 m ρ c (Proc.devRef .tc main_arg2) := StableHlo.after_of_forall_not_mem (b := Proc.devRef .tc main_arg2) _ _ (List.forall_iff_forall_mem.mp (by unwritten hostOps6_2))
    _ = W21 m ρ c (Proc.devRef .tc main_arg2) := StableHlo.after_of_forall_not_mem (b := Proc.devRef .tc main_arg2) _ _ (List.forall_iff_forall_mem.mp (by unwritten hostOps6_1))
    _ = W20 m ρ c (Proc.devRef .tc main_arg2) := StableHlo.after_of_forall_not_mem (b := Proc.devRef .tc main_arg2) _ _ (List.forall_iff_forall_mem.mp (by unwritten hostOps6))
    _ = m ((c : Thread nD τ).loc main_arg2) := W20_arg2 m ρ c
theorem W25_arg3 (c : Dev nD) : W25 m ρ c (Proc.devRef .tc main_arg3) = m ((c : Thread nD τ).loc main_arg3) :=
  calc W25 m ρ c (Proc.devRef .tc main_arg3)
    _ = W24 m ρ c (Proc.devRef .tc main_arg3) := W25_of_ne m ρ c main_arg3 (by decide)
    _ = W23 m ρ c (Proc.devRef .tc main_arg3) := StableHlo.after_of_forall_not_mem (b := Proc.devRef .tc main_arg3) _ _ (List.forall_iff_forall_mem.mp (by unwritten hostOps6_3))
    _ = W22 m ρ c (Proc.devRef .tc main_arg3) := StableHlo.after_of_forall_not_mem (b := Proc.devRef .tc main_arg3) _ _ (List.forall_iff_forall_mem.mp (by unwritten hostOps6_2))
    _ = W21 m ρ c (Proc.devRef .tc main_arg3) := StableHlo.after_of_forall_not_mem (b := Proc.devRef .tc main_arg3) _ _ (List.forall_iff_forall_mem.mp (by unwritten hostOps6_1))
    _ = W20 m ρ c (Proc.devRef .tc main_arg3) := StableHlo.after_of_forall_not_mem (b := Proc.devRef .tc main_arg3) _ _ (List.forall_iff_forall_mem.mp (by unwritten hostOps6))
    _ = m ((c : Thread nD τ).loc main_arg3) := W20_arg3 m ρ c
theorem W25_arg4 (c : Dev nD) : W25 m ρ c (Proc.devRef .tc main_arg4) = m ((c : Thread nD τ).loc main_arg4) :=
  calc W25 m ρ c (Proc.devRef .tc main_arg4)
    _ = W24 m ρ c (Proc.devRef .tc main_arg4) := W25_of_ne m ρ c main_arg4 (by decide)
    _ = W23 m ρ c (Proc.devRef .tc main_arg4) := StableHlo.after_of_forall_not_mem (b := Proc.devRef .tc main_arg4) _ _ (List.forall_iff_forall_mem.mp (by unwritten hostOps6_3))
    _ = W22 m ρ c (Proc.devRef .tc main_arg4) := StableHlo.after_of_forall_not_mem (b := Proc.devRef .tc main_arg4) _ _ (List.forall_iff_forall_mem.mp (by unwritten hostOps6_2))
    _ = W21 m ρ c (Proc.devRef .tc main_arg4) := StableHlo.after_of_forall_not_mem (b := Proc.devRef .tc main_arg4) _ _ (List.forall_iff_forall_mem.mp (by unwritten hostOps6_1))
    _ = W20 m ρ c (Proc.devRef .tc main_arg4) := StableHlo.after_of_forall_not_mem (b := Proc.devRef .tc main_arg4) _ _ (List.forall_iff_forall_mem.mp (by unwritten hostOps6))
    _ = m ((c : Thread nD τ).loc main_arg4) := W20_arg4 m ρ c
theorem W25_arg5 (c : Dev nD) : W25 m ρ c (Proc.devRef .tc main_arg5) = m ((c : Thread nD τ).loc main_arg5) :=
  calc W25 m ρ c (Proc.devRef .tc main_arg5)
    _ = W24 m ρ c (Proc.devRef .tc main_arg5) := W25_of_ne m ρ c main_arg5 (by decide)
    _ = W23 m ρ c (Proc.devRef .tc main_arg5) := StableHlo.after_of_forall_not_mem (b := Proc.devRef .tc main_arg5) _ _ (List.forall_iff_forall_mem.mp (by unwritten hostOps6_3))
    _ = W22 m ρ c (Proc.devRef .tc main_arg5) := StableHlo.after_of_forall_not_mem (b := Proc.devRef .tc main_arg5) _ _ (List.forall_iff_forall_mem.mp (by unwritten hostOps6_2))
    _ = W21 m ρ c (Proc.devRef .tc main_arg5) := StableHlo.after_of_forall_not_mem (b := Proc.devRef .tc main_arg5) _ _ (List.forall_iff_forall_mem.mp (by unwritten hostOps6_1))
    _ = W20 m ρ c (Proc.devRef .tc main_arg5) := StableHlo.after_of_forall_not_mem (b := Proc.devRef .tc main_arg5) _ _ (List.forall_iff_forall_mem.mp (by unwritten hostOps6))
    _ = m ((c : Thread nD τ).loc main_arg5) := W20_arg5 m ρ c
theorem W25_arg6 (c : Dev nD) : W25 m ρ c (Proc.devRef .tc main_arg6) = m ((c : Thread nD τ).loc main_arg6) :=
  calc W25 m ρ c (Proc.devRef .tc main_arg6)
    _ = W24 m ρ c (Proc.devRef .tc main_arg6) := W25_of_ne m ρ c main_arg6 (by decide)
    _ = W23 m ρ c (Proc.devRef .tc main_arg6) := StableHlo.after_of_forall_not_mem (b := Proc.devRef .tc main_arg6) _ _ (List.forall_iff_forall_mem.mp (by unwritten hostOps6_3))
    _ = W22 m ρ c (Proc.devRef .tc main_arg6) := StableHlo.after_of_forall_not_mem (b := Proc.devRef .tc main_arg6) _ _ (List.forall_iff_forall_mem.mp (by unwritten hostOps6_2))
    _ = W21 m ρ c (Proc.devRef .tc main_arg6) := StableHlo.after_of_forall_not_mem (b := Proc.devRef .tc main_arg6) _ _ (List.forall_iff_forall_mem.mp (by unwritten hostOps6_1))
    _ = W20 m ρ c (Proc.devRef .tc main_arg6) := StableHlo.after_of_forall_not_mem (b := Proc.devRef .tc main_arg6) _ _ (List.forall_iff_forall_mem.mp (by unwritten hostOps6))
    _ = m ((c : Thread nD τ).loc main_arg6) := W20_arg6 m ρ c
theorem W25_arg7 (c : Dev nD) : W25 m ρ c (Proc.devRef .tc main_arg7) = m ((c : Thread nD τ).loc main_arg7) :=
  calc W25 m ρ c (Proc.devRef .tc main_arg7)
    _ = W24 m ρ c (Proc.devRef .tc main_arg7) := W25_of_ne m ρ c main_arg7 (by decide)
    _ = W23 m ρ c (Proc.devRef .tc main_arg7) := StableHlo.after_of_forall_not_mem (b := Proc.devRef .tc main_arg7) _ _ (List.forall_iff_forall_mem.mp (by unwritten hostOps6_3))
    _ = W22 m ρ c (Proc.devRef .tc main_arg7) := StableHlo.after_of_forall_not_mem (b := Proc.devRef .tc main_arg7) _ _ (List.forall_iff_forall_mem.mp (by unwritten hostOps6_2))
    _ = W21 m ρ c (Proc.devRef .tc main_arg7) := StableHlo.after_of_forall_not_mem (b := Proc.devRef .tc main_arg7) _ _ (List.forall_iff_forall_mem.mp (by unwritten hostOps6_1))
    _ = W20 m ρ c (Proc.devRef .tc main_arg7) := StableHlo.after_of_forall_not_mem (b := Proc.devRef .tc main_arg7) _ _ (List.forall_iff_forall_mem.mp (by unwritten hostOps6))
    _ = m ((c : Thread nD τ).loc main_arg7) := W20_arg7 m ρ c
theorem W25_arg8 (c : Dev nD) : W25 m ρ c (Proc.devRef .tc main_arg8) = m ((c : Thread nD τ).loc main_arg8) :=
  calc W25 m ρ c (Proc.devRef .tc main_arg8)
    _ = W24 m ρ c (Proc.devRef .tc main_arg8) := W25_of_ne m ρ c main_arg8 (by decide)
    _ = W23 m ρ c (Proc.devRef .tc main_arg8) := StableHlo.after_of_forall_not_mem (b := Proc.devRef .tc main_arg8) _ _ (List.forall_iff_forall_mem.mp (by unwritten hostOps6_3))
    _ = W22 m ρ c (Proc.devRef .tc main_arg8) := StableHlo.after_of_forall_not_mem (b := Proc.devRef .tc main_arg8) _ _ (List.forall_iff_forall_mem.mp (by unwritten hostOps6_2))
    _ = W21 m ρ c (Proc.devRef .tc main_arg8) := StableHlo.after_of_forall_not_mem (b := Proc.devRef .tc main_arg8) _ _ (List.forall_iff_forall_mem.mp (by unwritten hostOps6_1))
    _ = W20 m ρ c (Proc.devRef .tc main_arg8) := StableHlo.after_of_forall_not_mem (b := Proc.devRef .tc main_arg8) _ _ (List.forall_iff_forall_mem.mp (by unwritten hostOps6))
    _ = m ((c : Thread nD τ).loc main_arg8) := W20_arg8 m ρ c
theorem W25_arg9 (c : Dev nD) : W25 m ρ c (Proc.devRef .tc main_arg9) = m ((c : Thread nD τ).loc main_arg9) :=
  calc W25 m ρ c (Proc.devRef .tc main_arg9)
    _ = W24 m ρ c (Proc.devRef .tc main_arg9) := W25_of_ne m ρ c main_arg9 (by decide)
    _ = W23 m ρ c (Proc.devRef .tc main_arg9) := StableHlo.after_of_forall_not_mem (b := Proc.devRef .tc main_arg9) _ _ (List.forall_iff_forall_mem.mp (by unwritten hostOps6_3))
    _ = W22 m ρ c (Proc.devRef .tc main_arg9) := StableHlo.after_of_forall_not_mem (b := Proc.devRef .tc main_arg9) _ _ (List.forall_iff_forall_mem.mp (by unwritten hostOps6_2))
    _ = W21 m ρ c (Proc.devRef .tc main_arg9) := StableHlo.after_of_forall_not_mem (b := Proc.devRef .tc main_arg9) _ _ (List.forall_iff_forall_mem.mp (by unwritten hostOps6_1))
    _ = W20 m ρ c (Proc.devRef .tc main_arg9) := StableHlo.after_of_forall_not_mem (b := Proc.devRef .tc main_arg9) _ _ (List.forall_iff_forall_mem.mp (by unwritten hostOps6))
    _ = m ((c : Thread nD τ).loc main_arg9) := W20_arg9 m ρ c
theorem W25_arg10 (c : Dev nD) : W25 m ρ c (Proc.devRef .tc main_arg10) = m ((c : Thread nD τ).loc main_arg10) :=
  calc W25 m ρ c (Proc.devRef .tc main_arg10)
    _ = W24 m ρ c (Proc.devRef .tc main_arg10) := W25_of_ne m ρ c main_arg10 (by decide)
    _ = W23 m ρ c (Proc.devRef .tc main_arg10) := StableHlo.after_of_forall_not_mem (b := Proc.devRef .tc main_arg10) _ _ (List.forall_iff_forall_mem.mp (by unwritten hostOps6_3))
    _ = W22 m ρ c (Proc.devRef .tc main_arg10) := StableHlo.after_of_forall_not_mem (b := Proc.devRef .tc main_arg10) _ _ (List.forall_iff_forall_mem.mp (by unwritten hostOps6_2))
    _ = W21 m ρ c (Proc.devRef .tc main_arg10) := StableHlo.after_of_forall_not_mem (b := Proc.devRef .tc main_arg10) _ _ (List.forall_iff_forall_mem.mp (by unwritten hostOps6_1))
    _ = W20 m ρ c (Proc.devRef .tc main_arg10) := StableHlo.after_of_forall_not_mem (b := Proc.devRef .tc main_arg10) _ _ (List.forall_iff_forall_mem.mp (by unwritten hostOps6))
    _ = m ((c : Thread nD τ).loc main_arg10) := W20_arg10 m ρ c
theorem W25_arg11 (c : Dev nD) : W25 m ρ c (Proc.devRef .tc main_arg11) = m ((c : Thread nD τ).loc main_arg11) :=
  calc W25 m ρ c (Proc.devRef .tc main_arg11)
    _ = W24 m ρ c (Proc.devRef .tc main_arg11) := W25_of_ne m ρ c main_arg11 (by decide)
    _ = W23 m ρ c (Proc.devRef .tc main_arg11) := StableHlo.after_of_forall_not_mem (b := Proc.devRef .tc main_arg11) _ _ (List.forall_iff_forall_mem.mp (by unwritten hostOps6_3))
    _ = W22 m ρ c (Proc.devRef .tc main_arg11) := StableHlo.after_of_forall_not_mem (b := Proc.devRef .tc main_arg11) _ _ (List.forall_iff_forall_mem.mp (by unwritten hostOps6_2))
    _ = W21 m ρ c (Proc.devRef .tc main_arg11) := StableHlo.after_of_forall_not_mem (b := Proc.devRef .tc main_arg11) _ _ (List.forall_iff_forall_mem.mp (by unwritten hostOps6_1))
    _ = W20 m ρ c (Proc.devRef .tc main_arg11) := StableHlo.after_of_forall_not_mem (b := Proc.devRef .tc main_arg11) _ _ (List.forall_iff_forall_mem.mp (by unwritten hostOps6))
    _ = m ((c : Thread nD τ).loc main_arg11) := W20_arg11 m ρ c
theorem W25_arg12 (c : Dev nD) : W25 m ρ c (Proc.devRef .tc main_arg12) = m ((c : Thread nD τ).loc main_arg12) :=
  calc W25 m ρ c (Proc.devRef .tc main_arg12)
    _ = W24 m ρ c (Proc.devRef .tc main_arg12) := W25_of_ne m ρ c main_arg12 (by decide)
    _ = W23 m ρ c (Proc.devRef .tc main_arg12) := StableHlo.after_of_forall_not_mem (b := Proc.devRef .tc main_arg12) _ _ (List.forall_iff_forall_mem.mp (by unwritten hostOps6_3))
    _ = W22 m ρ c (Proc.devRef .tc main_arg12) := StableHlo.after_of_forall_not_mem (b := Proc.devRef .tc main_arg12) _ _ (List.forall_iff_forall_mem.mp (by unwritten hostOps6_2))
    _ = W21 m ρ c (Proc.devRef .tc main_arg12) := StableHlo.after_of_forall_not_mem (b := Proc.devRef .tc main_arg12) _ _ (List.forall_iff_forall_mem.mp (by unwritten hostOps6_1))
    _ = W20 m ρ c (Proc.devRef .tc main_arg12) := StableHlo.after_of_forall_not_mem (b := Proc.devRef .tc main_arg12) _ _ (List.forall_iff_forall_mem.mp (by unwritten hostOps6))
    _ = m ((c : Thread nD τ).loc main_arg12) := W20_arg12 m ρ c

/-! ## Region exit `W27`: back to `W25_arg<j>` -/

theorem W27_arg0 (c : Dev nD) : W27 m ρ c (Proc.devRef .tc main_arg0) = m ((c : Thread nD τ).loc main_arg0) :=
  calc W27 m ρ c (Proc.devRef .tc main_arg0)
    _ = W26 m ρ c (Proc.devRef .tc main_arg0) := (W27_arr m ρ c 0).trans (((dat7 (V26 m ρ) c).arrAt_in 0 rfl _).trans (A_eq7 (V26 m ρ) c 0))
    _ = W25 m ρ c (Proc.devRef .tc main_arg0) := StableHlo.after_of_forall_not_mem (b := Proc.devRef .tc main_arg0) _ _ (List.forall_iff_forall_mem.mp (by unwritten hostOps7))
    _ = m ((c : Thread nD τ).loc main_arg0) := W25_arg0 m ρ c
theorem W27_arg1 (c : Dev nD) : W27 m ρ c (Proc.devRef .tc main_arg1) = m ((c : Thread nD τ).loc main_arg1) :=
  calc W27 m ρ c (Proc.devRef .tc main_arg1)
    _ = W26 m ρ c (Proc.devRef .tc main_arg1) := W27_of_ne m ρ c main_arg1 (by decide)
    _ = W25 m ρ c (Proc.devRef .tc main_arg1) := StableHlo.after_of_forall_not_mem (b := Proc.devRef .tc main_arg1) _ _ (List.forall_iff_forall_mem.mp (by unwritten hostOps7))
    _ = m ((c : Thread nD τ).loc main_arg1) := W25_arg1 m ρ c
theorem W27_arg2 (c : Dev nD) : W27 m ρ c (Proc.devRef .tc main_arg2) = m ((c : Thread nD τ).loc main_arg2) :=
  calc W27 m ρ c (Proc.devRef .tc main_arg2)
    _ = W26 m ρ c (Proc.devRef .tc main_arg2) := W27_of_ne m ρ c main_arg2 (by decide)
    _ = W25 m ρ c (Proc.devRef .tc main_arg2) := StableHlo.after_of_forall_not_mem (b := Proc.devRef .tc main_arg2) _ _ (List.forall_iff_forall_mem.mp (by unwritten hostOps7))
    _ = m ((c : Thread nD τ).loc main_arg2) := W25_arg2 m ρ c
theorem W27_arg3 (c : Dev nD) : W27 m ρ c (Proc.devRef .tc main_arg3) = m ((c : Thread nD τ).loc main_arg3) :=
  calc W27 m ρ c (Proc.devRef .tc main_arg3)
    _ = W26 m ρ c (Proc.devRef .tc main_arg3) := W27_of_ne m ρ c main_arg3 (by decide)
    _ = W25 m ρ c (Proc.devRef .tc main_arg3) := StableHlo.after_of_forall_not_mem (b := Proc.devRef .tc main_arg3) _ _ (List.forall_iff_forall_mem.mp (by unwritten hostOps7))
    _ = m ((c : Thread nD τ).loc main_arg3) := W25_arg3 m ρ c
theorem W27_arg4 (c : Dev nD) : W27 m ρ c (Proc.devRef .tc main_arg4) = m ((c : Thread nD τ).loc main_arg4) :=
  calc W27 m ρ c (Proc.devRef .tc main_arg4)
    _ = W26 m ρ c (Proc.devRef .tc main_arg4) := W27_of_ne m ρ c main_arg4 (by decide)
    _ = W25 m ρ c (Proc.devRef .tc main_arg4) := StableHlo.after_of_forall_not_mem (b := Proc.devRef .tc main_arg4) _ _ (List.forall_iff_forall_mem.mp (by unwritten hostOps7))
    _ = m ((c : Thread nD τ).loc main_arg4) := W25_arg4 m ρ c
theorem W27_arg5 (c : Dev nD) : W27 m ρ c (Proc.devRef .tc main_arg5) = m ((c : Thread nD τ).loc main_arg5) :=
  calc W27 m ρ c (Proc.devRef .tc main_arg5)
    _ = W26 m ρ c (Proc.devRef .tc main_arg5) := W27_of_ne m ρ c main_arg5 (by decide)
    _ = W25 m ρ c (Proc.devRef .tc main_arg5) := StableHlo.after_of_forall_not_mem (b := Proc.devRef .tc main_arg5) _ _ (List.forall_iff_forall_mem.mp (by unwritten hostOps7))
    _ = m ((c : Thread nD τ).loc main_arg5) := W25_arg5 m ρ c
theorem W27_arg6 (c : Dev nD) : W27 m ρ c (Proc.devRef .tc main_arg6) = m ((c : Thread nD τ).loc main_arg6) :=
  calc W27 m ρ c (Proc.devRef .tc main_arg6)
    _ = W26 m ρ c (Proc.devRef .tc main_arg6) := W27_of_ne m ρ c main_arg6 (by decide)
    _ = W25 m ρ c (Proc.devRef .tc main_arg6) := StableHlo.after_of_forall_not_mem (b := Proc.devRef .tc main_arg6) _ _ (List.forall_iff_forall_mem.mp (by unwritten hostOps7))
    _ = m ((c : Thread nD τ).loc main_arg6) := W25_arg6 m ρ c
theorem W27_arg7 (c : Dev nD) : W27 m ρ c (Proc.devRef .tc main_arg7) = m ((c : Thread nD τ).loc main_arg7) :=
  calc W27 m ρ c (Proc.devRef .tc main_arg7)
    _ = W26 m ρ c (Proc.devRef .tc main_arg7) := W27_of_ne m ρ c main_arg7 (by decide)
    _ = W25 m ρ c (Proc.devRef .tc main_arg7) := StableHlo.after_of_forall_not_mem (b := Proc.devRef .tc main_arg7) _ _ (List.forall_iff_forall_mem.mp (by unwritten hostOps7))
    _ = m ((c : Thread nD τ).loc main_arg7) := W25_arg7 m ρ c
theorem W27_arg8 (c : Dev nD) : W27 m ρ c (Proc.devRef .tc main_arg8) = m ((c : Thread nD τ).loc main_arg8) :=
  calc W27 m ρ c (Proc.devRef .tc main_arg8)
    _ = W26 m ρ c (Proc.devRef .tc main_arg8) := W27_of_ne m ρ c main_arg8 (by decide)
    _ = W25 m ρ c (Proc.devRef .tc main_arg8) := StableHlo.after_of_forall_not_mem (b := Proc.devRef .tc main_arg8) _ _ (List.forall_iff_forall_mem.mp (by unwritten hostOps7))
    _ = m ((c : Thread nD τ).loc main_arg8) := W25_arg8 m ρ c
theorem W27_arg9 (c : Dev nD) : W27 m ρ c (Proc.devRef .tc main_arg9) = m ((c : Thread nD τ).loc main_arg9) :=
  calc W27 m ρ c (Proc.devRef .tc main_arg9)
    _ = W26 m ρ c (Proc.devRef .tc main_arg9) := W27_of_ne m ρ c main_arg9 (by decide)
    _ = W25 m ρ c (Proc.devRef .tc main_arg9) := StableHlo.after_of_forall_not_mem (b := Proc.devRef .tc main_arg9) _ _ (List.forall_iff_forall_mem.mp (by unwritten hostOps7))
    _ = m ((c : Thread nD τ).loc main_arg9) := W25_arg9 m ρ c
theorem W27_arg10 (c : Dev nD) : W27 m ρ c (Proc.devRef .tc main_arg10) = m ((c : Thread nD τ).loc main_arg10) :=
  calc W27 m ρ c (Proc.devRef .tc main_arg10)
    _ = W26 m ρ c (Proc.devRef .tc main_arg10) := W27_of_ne m ρ c main_arg10 (by decide)
    _ = W25 m ρ c (Proc.devRef .tc main_arg10) := StableHlo.after_of_forall_not_mem (b := Proc.devRef .tc main_arg10) _ _ (List.forall_iff_forall_mem.mp (by unwritten hostOps7))
    _ = m ((c : Thread nD τ).loc main_arg10) := W25_arg10 m ρ c
theorem W27_arg11 (c : Dev nD) : W27 m ρ c (Proc.devRef .tc main_arg11) = m ((c : Thread nD τ).loc main_arg11) :=
  calc W27 m ρ c (Proc.devRef .tc main_arg11)
    _ = W26 m ρ c (Proc.devRef .tc main_arg11) := W27_of_ne m ρ c main_arg11 (by decide)
    _ = W25 m ρ c (Proc.devRef .tc main_arg11) := StableHlo.after_of_forall_not_mem (b := Proc.devRef .tc main_arg11) _ _ (List.forall_iff_forall_mem.mp (by unwritten hostOps7))
    _ = m ((c : Thread nD τ).loc main_arg11) := W25_arg11 m ρ c
theorem W27_arg12 (c : Dev nD) : W27 m ρ c (Proc.devRef .tc main_arg12) = m ((c : Thread nD τ).loc main_arg12) :=
  calc W27 m ρ c (Proc.devRef .tc main_arg12)
    _ = W26 m ρ c (Proc.devRef .tc main_arg12) := W27_of_ne m ρ c main_arg12 (by decide)
    _ = W25 m ρ c (Proc.devRef .tc main_arg12) := StableHlo.after_of_forall_not_mem (b := Proc.devRef .tc main_arg12) _ _ (List.forall_iff_forall_mem.mp (by unwritten hostOps7))
    _ = m ((c : Thread nD τ).loc main_arg12) := W25_arg12 m ρ c

/-! ## Region exit `W30`: back to `W27_arg<j>` -/

theorem W30_arg0 (c : Dev nD) : W30 m ρ c (Proc.devRef .tc main_arg0) = m ((c : Thread nD τ).loc main_arg0) :=
  calc W30 m ρ c (Proc.devRef .tc main_arg0)
    _ = W29 m ρ c (Proc.devRef .tc main_arg0) := W30_of_ne m ρ c main_arg0 (by decide)
    _ = W28 m ρ c (Proc.devRef .tc main_arg0) := StableHlo.after_of_forall_not_mem (b := Proc.devRef .tc main_arg0) _ _ (List.forall_iff_forall_mem.mp (by unwritten hostOps8_1))
    _ = W27 m ρ c (Proc.devRef .tc main_arg0) := StableHlo.after_of_forall_not_mem (b := Proc.devRef .tc main_arg0) _ _ (List.forall_iff_forall_mem.mp (by unwritten hostOps8))
    _ = m ((c : Thread nD τ).loc main_arg0) := W27_arg0 m ρ c
theorem W30_arg1 (c : Dev nD) : W30 m ρ c (Proc.devRef .tc main_arg1) = m ((c : Thread nD τ).loc main_arg1) :=
  calc W30 m ρ c (Proc.devRef .tc main_arg1)
    _ = W29 m ρ c (Proc.devRef .tc main_arg1) := W30_of_ne m ρ c main_arg1 (by decide)
    _ = W28 m ρ c (Proc.devRef .tc main_arg1) := StableHlo.after_of_forall_not_mem (b := Proc.devRef .tc main_arg1) _ _ (List.forall_iff_forall_mem.mp (by unwritten hostOps8_1))
    _ = W27 m ρ c (Proc.devRef .tc main_arg1) := StableHlo.after_of_forall_not_mem (b := Proc.devRef .tc main_arg1) _ _ (List.forall_iff_forall_mem.mp (by unwritten hostOps8))
    _ = m ((c : Thread nD τ).loc main_arg1) := W27_arg1 m ρ c
theorem W30_arg2 (c : Dev nD) : W30 m ρ c (Proc.devRef .tc main_arg2) = m ((c : Thread nD τ).loc main_arg2) :=
  calc W30 m ρ c (Proc.devRef .tc main_arg2)
    _ = W29 m ρ c (Proc.devRef .tc main_arg2) := W30_of_ne m ρ c main_arg2 (by decide)
    _ = W28 m ρ c (Proc.devRef .tc main_arg2) := StableHlo.after_of_forall_not_mem (b := Proc.devRef .tc main_arg2) _ _ (List.forall_iff_forall_mem.mp (by unwritten hostOps8_1))
    _ = W27 m ρ c (Proc.devRef .tc main_arg2) := StableHlo.after_of_forall_not_mem (b := Proc.devRef .tc main_arg2) _ _ (List.forall_iff_forall_mem.mp (by unwritten hostOps8))
    _ = m ((c : Thread nD τ).loc main_arg2) := W27_arg2 m ρ c
theorem W30_arg3 (c : Dev nD) : W30 m ρ c (Proc.devRef .tc main_arg3) = m ((c : Thread nD τ).loc main_arg3) :=
  calc W30 m ρ c (Proc.devRef .tc main_arg3)
    _ = W29 m ρ c (Proc.devRef .tc main_arg3) := W30_of_ne m ρ c main_arg3 (by decide)
    _ = W28 m ρ c (Proc.devRef .tc main_arg3) := StableHlo.after_of_forall_not_mem (b := Proc.devRef .tc main_arg3) _ _ (List.forall_iff_forall_mem.mp (by unwritten hostOps8_1))
    _ = W27 m ρ c (Proc.devRef .tc main_arg3) := StableHlo.after_of_forall_not_mem (b := Proc.devRef .tc main_arg3) _ _ (List.forall_iff_forall_mem.mp (by unwritten hostOps8))
    _ = m ((c : Thread nD τ).loc main_arg3) := W27_arg3 m ρ c
theorem W30_arg4 (c : Dev nD) : W30 m ρ c (Proc.devRef .tc main_arg4) = m ((c : Thread nD τ).loc main_arg4) :=
  calc W30 m ρ c (Proc.devRef .tc main_arg4)
    _ = W29 m ρ c (Proc.devRef .tc main_arg4) := W30_of_ne m ρ c main_arg4 (by decide)
    _ = W28 m ρ c (Proc.devRef .tc main_arg4) := StableHlo.after_of_forall_not_mem (b := Proc.devRef .tc main_arg4) _ _ (List.forall_iff_forall_mem.mp (by unwritten hostOps8_1))
    _ = W27 m ρ c (Proc.devRef .tc main_arg4) := StableHlo.after_of_forall_not_mem (b := Proc.devRef .tc main_arg4) _ _ (List.forall_iff_forall_mem.mp (by unwritten hostOps8))
    _ = m ((c : Thread nD τ).loc main_arg4) := W27_arg4 m ρ c
theorem W30_arg5 (c : Dev nD) : W30 m ρ c (Proc.devRef .tc main_arg5) = m ((c : Thread nD τ).loc main_arg5) :=
  calc W30 m ρ c (Proc.devRef .tc main_arg5)
    _ = W29 m ρ c (Proc.devRef .tc main_arg5) := W30_of_ne m ρ c main_arg5 (by decide)
    _ = W28 m ρ c (Proc.devRef .tc main_arg5) := StableHlo.after_of_forall_not_mem (b := Proc.devRef .tc main_arg5) _ _ (List.forall_iff_forall_mem.mp (by unwritten hostOps8_1))
    _ = W27 m ρ c (Proc.devRef .tc main_arg5) := StableHlo.after_of_forall_not_mem (b := Proc.devRef .tc main_arg5) _ _ (List.forall_iff_forall_mem.mp (by unwritten hostOps8))
    _ = m ((c : Thread nD τ).loc main_arg5) := W27_arg5 m ρ c
theorem W30_arg6 (c : Dev nD) : W30 m ρ c (Proc.devRef .tc main_arg6) = m ((c : Thread nD τ).loc main_arg6) :=
  calc W30 m ρ c (Proc.devRef .tc main_arg6)
    _ = W29 m ρ c (Proc.devRef .tc main_arg6) := W30_of_ne m ρ c main_arg6 (by decide)
    _ = W28 m ρ c (Proc.devRef .tc main_arg6) := StableHlo.after_of_forall_not_mem (b := Proc.devRef .tc main_arg6) _ _ (List.forall_iff_forall_mem.mp (by unwritten hostOps8_1))
    _ = W27 m ρ c (Proc.devRef .tc main_arg6) := StableHlo.after_of_forall_not_mem (b := Proc.devRef .tc main_arg6) _ _ (List.forall_iff_forall_mem.mp (by unwritten hostOps8))
    _ = m ((c : Thread nD τ).loc main_arg6) := W27_arg6 m ρ c
theorem W30_arg7 (c : Dev nD) : W30 m ρ c (Proc.devRef .tc main_arg7) = m ((c : Thread nD τ).loc main_arg7) :=
  calc W30 m ρ c (Proc.devRef .tc main_arg7)
    _ = W29 m ρ c (Proc.devRef .tc main_arg7) := W30_of_ne m ρ c main_arg7 (by decide)
    _ = W28 m ρ c (Proc.devRef .tc main_arg7) := StableHlo.after_of_forall_not_mem (b := Proc.devRef .tc main_arg7) _ _ (List.forall_iff_forall_mem.mp (by unwritten hostOps8_1))
    _ = W27 m ρ c (Proc.devRef .tc main_arg7) := StableHlo.after_of_forall_not_mem (b := Proc.devRef .tc main_arg7) _ _ (List.forall_iff_forall_mem.mp (by unwritten hostOps8))
    _ = m ((c : Thread nD τ).loc main_arg7) := W27_arg7 m ρ c
theorem W30_arg8 (c : Dev nD) : W30 m ρ c (Proc.devRef .tc main_arg8) = m ((c : Thread nD τ).loc main_arg8) :=
  calc W30 m ρ c (Proc.devRef .tc main_arg8)
    _ = W29 m ρ c (Proc.devRef .tc main_arg8) := W30_of_ne m ρ c main_arg8 (by decide)
    _ = W28 m ρ c (Proc.devRef .tc main_arg8) := StableHlo.after_of_forall_not_mem (b := Proc.devRef .tc main_arg8) _ _ (List.forall_iff_forall_mem.mp (by unwritten hostOps8_1))
    _ = W27 m ρ c (Proc.devRef .tc main_arg8) := StableHlo.after_of_forall_not_mem (b := Proc.devRef .tc main_arg8) _ _ (List.forall_iff_forall_mem.mp (by unwritten hostOps8))
    _ = m ((c : Thread nD τ).loc main_arg8) := W27_arg8 m ρ c
theorem W30_arg9 (c : Dev nD) : W30 m ρ c (Proc.devRef .tc main_arg9) = m ((c : Thread nD τ).loc main_arg9) :=
  calc W30 m ρ c (Proc.devRef .tc main_arg9)
    _ = W29 m ρ c (Proc.devRef .tc main_arg9) := W30_of_ne m ρ c main_arg9 (by decide)
    _ = W28 m ρ c (Proc.devRef .tc main_arg9) := StableHlo.after_of_forall_not_mem (b := Proc.devRef .tc main_arg9) _ _ (List.forall_iff_forall_mem.mp (by unwritten hostOps8_1))
    _ = W27 m ρ c (Proc.devRef .tc main_arg9) := StableHlo.after_of_forall_not_mem (b := Proc.devRef .tc main_arg9) _ _ (List.forall_iff_forall_mem.mp (by unwritten hostOps8))
    _ = m ((c : Thread nD τ).loc main_arg9) := W27_arg9 m ρ c
theorem W30_arg10 (c : Dev nD) : W30 m ρ c (Proc.devRef .tc main_arg10) = m ((c : Thread nD τ).loc main_arg10) :=
  calc W30 m ρ c (Proc.devRef .tc main_arg10)
    _ = W29 m ρ c (Proc.devRef .tc main_arg10) := W30_of_ne m ρ c main_arg10 (by decide)
    _ = W28 m ρ c (Proc.devRef .tc main_arg10) := StableHlo.after_of_forall_not_mem (b := Proc.devRef .tc main_arg10) _ _ (List.forall_iff_forall_mem.mp (by unwritten hostOps8_1))
    _ = W27 m ρ c (Proc.devRef .tc main_arg10) := StableHlo.after_of_forall_not_mem (b := Proc.devRef .tc main_arg10) _ _ (List.forall_iff_forall_mem.mp (by unwritten hostOps8))
    _ = m ((c : Thread nD τ).loc main_arg10) := W27_arg10 m ρ c
theorem W30_arg11 (c : Dev nD) : W30 m ρ c (Proc.devRef .tc main_arg11) = m ((c : Thread nD τ).loc main_arg11) :=
  calc W30 m ρ c (Proc.devRef .tc main_arg11)
    _ = W29 m ρ c (Proc.devRef .tc main_arg11) := W30_of_ne m ρ c main_arg11 (by decide)
    _ = W28 m ρ c (Proc.devRef .tc main_arg11) := StableHlo.after_of_forall_not_mem (b := Proc.devRef .tc main_arg11) _ _ (List.forall_iff_forall_mem.mp (by unwritten hostOps8_1))
    _ = W27 m ρ c (Proc.devRef .tc main_arg11) := StableHlo.after_of_forall_not_mem (b := Proc.devRef .tc main_arg11) _ _ (List.forall_iff_forall_mem.mp (by unwritten hostOps8))
    _ = m ((c : Thread nD τ).loc main_arg11) := W27_arg11 m ρ c
theorem W30_arg12 (c : Dev nD) : W30 m ρ c (Proc.devRef .tc main_arg12) = m ((c : Thread nD τ).loc main_arg12) :=
  calc W30 m ρ c (Proc.devRef .tc main_arg12)
    _ = W29 m ρ c (Proc.devRef .tc main_arg12) := W30_of_ne m ρ c main_arg12 (by decide)
    _ = W28 m ρ c (Proc.devRef .tc main_arg12) := StableHlo.after_of_forall_not_mem (b := Proc.devRef .tc main_arg12) _ _ (List.forall_iff_forall_mem.mp (by unwritten hostOps8_1))
    _ = W27 m ρ c (Proc.devRef .tc main_arg12) := StableHlo.after_of_forall_not_mem (b := Proc.devRef .tc main_arg12) _ _ (List.forall_iff_forall_mem.mp (by unwritten hostOps8))
    _ = m ((c : Thread nD τ).loc main_arg12) := W27_arg12 m ρ c

/-! ## Region exit `W35`: back to `W30_arg<j>` -/

theorem W35_arg0 (c : Dev nD) : W35 m ρ c (Proc.devRef .tc main_arg0) = m ((c : Thread nD τ).loc main_arg0) :=
  calc W35 m ρ c (Proc.devRef .tc main_arg0)
    _ = W34 m ρ c (Proc.devRef .tc main_arg0) := W35_of_ne m ρ c main_arg0 (by decide)
    _ = W33 m ρ c (Proc.devRef .tc main_arg0) := StableHlo.after_of_forall_not_mem (b := Proc.devRef .tc main_arg0) _ _ (List.forall_iff_forall_mem.mp (by unwritten hostOps9_3))
    _ = W32 m ρ c (Proc.devRef .tc main_arg0) := StableHlo.after_of_forall_not_mem (b := Proc.devRef .tc main_arg0) _ _ (List.forall_iff_forall_mem.mp (by unwritten hostOps9_2))
    _ = W31 m ρ c (Proc.devRef .tc main_arg0) := StableHlo.after_of_forall_not_mem (b := Proc.devRef .tc main_arg0) _ _ (List.forall_iff_forall_mem.mp (by unwritten hostOps9_1))
    _ = W30 m ρ c (Proc.devRef .tc main_arg0) := StableHlo.after_of_forall_not_mem (b := Proc.devRef .tc main_arg0) _ _ (List.forall_iff_forall_mem.mp (by unwritten hostOps9))
    _ = m ((c : Thread nD τ).loc main_arg0) := W30_arg0 m ρ c
theorem W35_arg1 (c : Dev nD) : W35 m ρ c (Proc.devRef .tc main_arg1) = m ((c : Thread nD τ).loc main_arg1) :=
  calc W35 m ρ c (Proc.devRef .tc main_arg1)
    _ = W34 m ρ c (Proc.devRef .tc main_arg1) := W35_of_ne m ρ c main_arg1 (by decide)
    _ = W33 m ρ c (Proc.devRef .tc main_arg1) := StableHlo.after_of_forall_not_mem (b := Proc.devRef .tc main_arg1) _ _ (List.forall_iff_forall_mem.mp (by unwritten hostOps9_3))
    _ = W32 m ρ c (Proc.devRef .tc main_arg1) := StableHlo.after_of_forall_not_mem (b := Proc.devRef .tc main_arg1) _ _ (List.forall_iff_forall_mem.mp (by unwritten hostOps9_2))
    _ = W31 m ρ c (Proc.devRef .tc main_arg1) := StableHlo.after_of_forall_not_mem (b := Proc.devRef .tc main_arg1) _ _ (List.forall_iff_forall_mem.mp (by unwritten hostOps9_1))
    _ = W30 m ρ c (Proc.devRef .tc main_arg1) := StableHlo.after_of_forall_not_mem (b := Proc.devRef .tc main_arg1) _ _ (List.forall_iff_forall_mem.mp (by unwritten hostOps9))
    _ = m ((c : Thread nD τ).loc main_arg1) := W30_arg1 m ρ c
theorem W35_arg2 (c : Dev nD) : W35 m ρ c (Proc.devRef .tc main_arg2) = m ((c : Thread nD τ).loc main_arg2) :=
  calc W35 m ρ c (Proc.devRef .tc main_arg2)
    _ = W34 m ρ c (Proc.devRef .tc main_arg2) := W35_of_ne m ρ c main_arg2 (by decide)
    _ = W33 m ρ c (Proc.devRef .tc main_arg2) := StableHlo.after_of_forall_not_mem (b := Proc.devRef .tc main_arg2) _ _ (List.forall_iff_forall_mem.mp (by unwritten hostOps9_3))
    _ = W32 m ρ c (Proc.devRef .tc main_arg2) := StableHlo.after_of_forall_not_mem (b := Proc.devRef .tc main_arg2) _ _ (List.forall_iff_forall_mem.mp (by unwritten hostOps9_2))
    _ = W31 m ρ c (Proc.devRef .tc main_arg2) := StableHlo.after_of_forall_not_mem (b := Proc.devRef .tc main_arg2) _ _ (List.forall_iff_forall_mem.mp (by unwritten hostOps9_1))
    _ = W30 m ρ c (Proc.devRef .tc main_arg2) := StableHlo.after_of_forall_not_mem (b := Proc.devRef .tc main_arg2) _ _ (List.forall_iff_forall_mem.mp (by unwritten hostOps9))
    _ = m ((c : Thread nD τ).loc main_arg2) := W30_arg2 m ρ c
theorem W35_arg3 (c : Dev nD) : W35 m ρ c (Proc.devRef .tc main_arg3) = m ((c : Thread nD τ).loc main_arg3) :=
  calc W35 m ρ c (Proc.devRef .tc main_arg3)
    _ = W34 m ρ c (Proc.devRef .tc main_arg3) := W35_of_ne m ρ c main_arg3 (by decide)
    _ = W33 m ρ c (Proc.devRef .tc main_arg3) := StableHlo.after_of_forall_not_mem (b := Proc.devRef .tc main_arg3) _ _ (List.forall_iff_forall_mem.mp (by unwritten hostOps9_3))
    _ = W32 m ρ c (Proc.devRef .tc main_arg3) := StableHlo.after_of_forall_not_mem (b := Proc.devRef .tc main_arg3) _ _ (List.forall_iff_forall_mem.mp (by unwritten hostOps9_2))
    _ = W31 m ρ c (Proc.devRef .tc main_arg3) := StableHlo.after_of_forall_not_mem (b := Proc.devRef .tc main_arg3) _ _ (List.forall_iff_forall_mem.mp (by unwritten hostOps9_1))
    _ = W30 m ρ c (Proc.devRef .tc main_arg3) := StableHlo.after_of_forall_not_mem (b := Proc.devRef .tc main_arg3) _ _ (List.forall_iff_forall_mem.mp (by unwritten hostOps9))
    _ = m ((c : Thread nD τ).loc main_arg3) := W30_arg3 m ρ c
theorem W35_arg4 (c : Dev nD) : W35 m ρ c (Proc.devRef .tc main_arg4) = m ((c : Thread nD τ).loc main_arg4) :=
  calc W35 m ρ c (Proc.devRef .tc main_arg4)
    _ = W34 m ρ c (Proc.devRef .tc main_arg4) := W35_of_ne m ρ c main_arg4 (by decide)
    _ = W33 m ρ c (Proc.devRef .tc main_arg4) := StableHlo.after_of_forall_not_mem (b := Proc.devRef .tc main_arg4) _ _ (List.forall_iff_forall_mem.mp (by unwritten hostOps9_3))
    _ = W32 m ρ c (Proc.devRef .tc main_arg4) := StableHlo.after_of_forall_not_mem (b := Proc.devRef .tc main_arg4) _ _ (List.forall_iff_forall_mem.mp (by unwritten hostOps9_2))
    _ = W31 m ρ c (Proc.devRef .tc main_arg4) := StableHlo.after_of_forall_not_mem (b := Proc.devRef .tc main_arg4) _ _ (List.forall_iff_forall_mem.mp (by unwritten hostOps9_1))
    _ = W30 m ρ c (Proc.devRef .tc main_arg4) := StableHlo.after_of_forall_not_mem (b := Proc.devRef .tc main_arg4) _ _ (List.forall_iff_forall_mem.mp (by unwritten hostOps9))
    _ = m ((c : Thread nD τ).loc main_arg4) := W30_arg4 m ρ c
theorem W35_arg5 (c : Dev nD) : W35 m ρ c (Proc.devRef .tc main_arg5) = m ((c : Thread nD τ).loc main_arg5) :=
  calc W35 m ρ c (Proc.devRef .tc main_arg5)
    _ = W34 m ρ c (Proc.devRef .tc main_arg5) := W35_of_ne m ρ c main_arg5 (by decide)
    _ = W33 m ρ c (Proc.devRef .tc main_arg5) := StableHlo.after_of_forall_not_mem (b := Proc.devRef .tc main_arg5) _ _ (List.forall_iff_forall_mem.mp (by unwritten hostOps9_3))
    _ = W32 m ρ c (Proc.devRef .tc main_arg5) := StableHlo.after_of_forall_not_mem (b := Proc.devRef .tc main_arg5) _ _ (List.forall_iff_forall_mem.mp (by unwritten hostOps9_2))
    _ = W31 m ρ c (Proc.devRef .tc main_arg5) := StableHlo.after_of_forall_not_mem (b := Proc.devRef .tc main_arg5) _ _ (List.forall_iff_forall_mem.mp (by unwritten hostOps9_1))
    _ = W30 m ρ c (Proc.devRef .tc main_arg5) := StableHlo.after_of_forall_not_mem (b := Proc.devRef .tc main_arg5) _ _ (List.forall_iff_forall_mem.mp (by unwritten hostOps9))
    _ = m ((c : Thread nD τ).loc main_arg5) := W30_arg5 m ρ c
theorem W35_arg6 (c : Dev nD) : W35 m ρ c (Proc.devRef .tc main_arg6) = m ((c : Thread nD τ).loc main_arg6) :=
  calc W35 m ρ c (Proc.devRef .tc main_arg6)
    _ = W34 m ρ c (Proc.devRef .tc main_arg6) := W35_of_ne m ρ c main_arg6 (by decide)
    _ = W33 m ρ c (Proc.devRef .tc main_arg6) := StableHlo.after_of_forall_not_mem (b := Proc.devRef .tc main_arg6) _ _ (List.forall_iff_forall_mem.mp (by unwritten hostOps9_3))
    _ = W32 m ρ c (Proc.devRef .tc main_arg6) := StableHlo.after_of_forall_not_mem (b := Proc.devRef .tc main_arg6) _ _ (List.forall_iff_forall_mem.mp (by unwritten hostOps9_2))
    _ = W31 m ρ c (Proc.devRef .tc main_arg6) := StableHlo.after_of_forall_not_mem (b := Proc.devRef .tc main_arg6) _ _ (List.forall_iff_forall_mem.mp (by unwritten hostOps9_1))
    _ = W30 m ρ c (Proc.devRef .tc main_arg6) := StableHlo.after_of_forall_not_mem (b := Proc.devRef .tc main_arg6) _ _ (List.forall_iff_forall_mem.mp (by unwritten hostOps9))
    _ = m ((c : Thread nD τ).loc main_arg6) := W30_arg6 m ρ c
theorem W35_arg7 (c : Dev nD) : W35 m ρ c (Proc.devRef .tc main_arg7) = m ((c : Thread nD τ).loc main_arg7) :=
  calc W35 m ρ c (Proc.devRef .tc main_arg7)
    _ = W34 m ρ c (Proc.devRef .tc main_arg7) := W35_of_ne m ρ c main_arg7 (by decide)
    _ = W33 m ρ c (Proc.devRef .tc main_arg7) := StableHlo.after_of_forall_not_mem (b := Proc.devRef .tc main_arg7) _ _ (List.forall_iff_forall_mem.mp (by unwritten hostOps9_3))
    _ = W32 m ρ c (Proc.devRef .tc main_arg7) := StableHlo.after_of_forall_not_mem (b := Proc.devRef .tc main_arg7) _ _ (List.forall_iff_forall_mem.mp (by unwritten hostOps9_2))
    _ = W31 m ρ c (Proc.devRef .tc main_arg7) := StableHlo.after_of_forall_not_mem (b := Proc.devRef .tc main_arg7) _ _ (List.forall_iff_forall_mem.mp (by unwritten hostOps9_1))
    _ = W30 m ρ c (Proc.devRef .tc main_arg7) := StableHlo.after_of_forall_not_mem (b := Proc.devRef .tc main_arg7) _ _ (List.forall_iff_forall_mem.mp (by unwritten hostOps9))
    _ = m ((c : Thread nD τ).loc main_arg7) := W30_arg7 m ρ c
theorem W35_arg8 (c : Dev nD) : W35 m ρ c (Proc.devRef .tc main_arg8) = m ((c : Thread nD τ).loc main_arg8) :=
  calc W35 m ρ c (Proc.devRef .tc main_arg8)
    _ = W34 m ρ c (Proc.devRef .tc main_arg8) := W35_of_ne m ρ c main_arg8 (by decide)
    _ = W33 m ρ c (Proc.devRef .tc main_arg8) := StableHlo.after_of_forall_not_mem (b := Proc.devRef .tc main_arg8) _ _ (List.forall_iff_forall_mem.mp (by unwritten hostOps9_3))
    _ = W32 m ρ c (Proc.devRef .tc main_arg8) := StableHlo.after_of_forall_not_mem (b := Proc.devRef .tc main_arg8) _ _ (List.forall_iff_forall_mem.mp (by unwritten hostOps9_2))
    _ = W31 m ρ c (Proc.devRef .tc main_arg8) := StableHlo.after_of_forall_not_mem (b := Proc.devRef .tc main_arg8) _ _ (List.forall_iff_forall_mem.mp (by unwritten hostOps9_1))
    _ = W30 m ρ c (Proc.devRef .tc main_arg8) := StableHlo.after_of_forall_not_mem (b := Proc.devRef .tc main_arg8) _ _ (List.forall_iff_forall_mem.mp (by unwritten hostOps9))
    _ = m ((c : Thread nD τ).loc main_arg8) := W30_arg8 m ρ c
theorem W35_arg9 (c : Dev nD) : W35 m ρ c (Proc.devRef .tc main_arg9) = m ((c : Thread nD τ).loc main_arg9) :=
  calc W35 m ρ c (Proc.devRef .tc main_arg9)
    _ = W34 m ρ c (Proc.devRef .tc main_arg9) := W35_of_ne m ρ c main_arg9 (by decide)
    _ = W33 m ρ c (Proc.devRef .tc main_arg9) := StableHlo.after_of_forall_not_mem (b := Proc.devRef .tc main_arg9) _ _ (List.forall_iff_forall_mem.mp (by unwritten hostOps9_3))
    _ = W32 m ρ c (Proc.devRef .tc main_arg9) := StableHlo.after_of_forall_not_mem (b := Proc.devRef .tc main_arg9) _ _ (List.forall_iff_forall_mem.mp (by unwritten hostOps9_2))
    _ = W31 m ρ c (Proc.devRef .tc main_arg9) := StableHlo.after_of_forall_not_mem (b := Proc.devRef .tc main_arg9) _ _ (List.forall_iff_forall_mem.mp (by unwritten hostOps9_1))
    _ = W30 m ρ c (Proc.devRef .tc main_arg9) := StableHlo.after_of_forall_not_mem (b := Proc.devRef .tc main_arg9) _ _ (List.forall_iff_forall_mem.mp (by unwritten hostOps9))
    _ = m ((c : Thread nD τ).loc main_arg9) := W30_arg9 m ρ c
theorem W35_arg10 (c : Dev nD) : W35 m ρ c (Proc.devRef .tc main_arg10) = m ((c : Thread nD τ).loc main_arg10) :=
  calc W35 m ρ c (Proc.devRef .tc main_arg10)
    _ = W34 m ρ c (Proc.devRef .tc main_arg10) := W35_of_ne m ρ c main_arg10 (by decide)
    _ = W33 m ρ c (Proc.devRef .tc main_arg10) := StableHlo.after_of_forall_not_mem (b := Proc.devRef .tc main_arg10) _ _ (List.forall_iff_forall_mem.mp (by unwritten hostOps9_3))
    _ = W32 m ρ c (Proc.devRef .tc main_arg10) := StableHlo.after_of_forall_not_mem (b := Proc.devRef .tc main_arg10) _ _ (List.forall_iff_forall_mem.mp (by unwritten hostOps9_2))
    _ = W31 m ρ c (Proc.devRef .tc main_arg10) := StableHlo.after_of_forall_not_mem (b := Proc.devRef .tc main_arg10) _ _ (List.forall_iff_forall_mem.mp (by unwritten hostOps9_1))
    _ = W30 m ρ c (Proc.devRef .tc main_arg10) := StableHlo.after_of_forall_not_mem (b := Proc.devRef .tc main_arg10) _ _ (List.forall_iff_forall_mem.mp (by unwritten hostOps9))
    _ = m ((c : Thread nD τ).loc main_arg10) := W30_arg10 m ρ c
theorem W35_arg11 (c : Dev nD) : W35 m ρ c (Proc.devRef .tc main_arg11) = m ((c : Thread nD τ).loc main_arg11) :=
  calc W35 m ρ c (Proc.devRef .tc main_arg11)
    _ = W34 m ρ c (Proc.devRef .tc main_arg11) := W35_of_ne m ρ c main_arg11 (by decide)
    _ = W33 m ρ c (Proc.devRef .tc main_arg11) := StableHlo.after_of_forall_not_mem (b := Proc.devRef .tc main_arg11) _ _ (List.forall_iff_forall_mem.mp (by unwritten hostOps9_3))
    _ = W32 m ρ c (Proc.devRef .tc main_arg11) := StableHlo.after_of_forall_not_mem (b := Proc.devRef .tc main_arg11) _ _ (List.forall_iff_forall_mem.mp (by unwritten hostOps9_2))
    _ = W31 m ρ c (Proc.devRef .tc main_arg11) := StableHlo.after_of_forall_not_mem (b := Proc.devRef .tc main_arg11) _ _ (List.forall_iff_forall_mem.mp (by unwritten hostOps9_1))
    _ = W30 m ρ c (Proc.devRef .tc main_arg11) := StableHlo.after_of_forall_not_mem (b := Proc.devRef .tc main_arg11) _ _ (List.forall_iff_forall_mem.mp (by unwritten hostOps9))
    _ = m ((c : Thread nD τ).loc main_arg11) := W30_arg11 m ρ c
theorem W35_arg12 (c : Dev nD) : W35 m ρ c (Proc.devRef .tc main_arg12) = m ((c : Thread nD τ).loc main_arg12) :=
  calc W35 m ρ c (Proc.devRef .tc main_arg12)
    _ = W34 m ρ c (Proc.devRef .tc main_arg12) := W35_of_ne m ρ c main_arg12 (by decide)
    _ = W33 m ρ c (Proc.devRef .tc main_arg12) := StableHlo.after_of_forall_not_mem (b := Proc.devRef .tc main_arg12) _ _ (List.forall_iff_forall_mem.mp (by unwritten hostOps9_3))
    _ = W32 m ρ c (Proc.devRef .tc main_arg12) := StableHlo.after_of_forall_not_mem (b := Proc.devRef .tc main_arg12) _ _ (List.forall_iff_forall_mem.mp (by unwritten hostOps9_2))
    _ = W31 m ρ c (Proc.devRef .tc main_arg12) := StableHlo.after_of_forall_not_mem (b := Proc.devRef .tc main_arg12) _ _ (List.forall_iff_forall_mem.mp (by unwritten hostOps9_1))
    _ = W30 m ρ c (Proc.devRef .tc main_arg12) := StableHlo.after_of_forall_not_mem (b := Proc.devRef .tc main_arg12) _ _ (List.forall_iff_forall_mem.mp (by unwritten hostOps9))
    _ = m ((c : Thread nD τ).loc main_arg12) := W30_arg12 m ρ c

/-! ## Region exit `W37`: back to `W35_arg<j>` -/

theorem W37_arg0 (c : Dev nD) : W37 m ρ c (Proc.devRef .tc main_arg0) = m ((c : Thread nD τ).loc main_arg0) :=
  calc W37 m ρ c (Proc.devRef .tc main_arg0)
    _ = W36 m ρ c (Proc.devRef .tc main_arg0) := (W37_arr m ρ c 0).trans (((dat10 (V36 m ρ) c).arrAt_in 0 rfl _).trans (A_eq10 (V36 m ρ) c 0))
    _ = W35 m ρ c (Proc.devRef .tc main_arg0) := StableHlo.after_of_forall_not_mem (b := Proc.devRef .tc main_arg0) _ _ (List.forall_iff_forall_mem.mp (by unwritten hostOps10))
    _ = m ((c : Thread nD τ).loc main_arg0) := W35_arg0 m ρ c
theorem W37_arg1 (c : Dev nD) : W37 m ρ c (Proc.devRef .tc main_arg1) = m ((c : Thread nD τ).loc main_arg1) :=
  calc W37 m ρ c (Proc.devRef .tc main_arg1)
    _ = W36 m ρ c (Proc.devRef .tc main_arg1) := W37_of_ne m ρ c main_arg1 (by decide)
    _ = W35 m ρ c (Proc.devRef .tc main_arg1) := StableHlo.after_of_forall_not_mem (b := Proc.devRef .tc main_arg1) _ _ (List.forall_iff_forall_mem.mp (by unwritten hostOps10))
    _ = m ((c : Thread nD τ).loc main_arg1) := W35_arg1 m ρ c
theorem W37_arg2 (c : Dev nD) : W37 m ρ c (Proc.devRef .tc main_arg2) = m ((c : Thread nD τ).loc main_arg2) :=
  calc W37 m ρ c (Proc.devRef .tc main_arg2)
    _ = W36 m ρ c (Proc.devRef .tc main_arg2) := W37_of_ne m ρ c main_arg2 (by decide)
    _ = W35 m ρ c (Proc.devRef .tc main_arg2) := StableHlo.after_of_forall_not_mem (b := Proc.devRef .tc main_arg2) _ _ (List.forall_iff_forall_mem.mp (by unwritten hostOps10))
    _ = m ((c : Thread nD τ).loc main_arg2) := W35_arg2 m ρ c
theorem W37_arg3 (c : Dev nD) : W37 m ρ c (Proc.devRef .tc main_arg3) = m ((c : Thread nD τ).loc main_arg3) :=
  calc W37 m ρ c (Proc.devRef .tc main_arg3)
    _ = W36 m ρ c (Proc.devRef .tc main_arg3) := W37_of_ne m ρ c main_arg3 (by decide)
    _ = W35 m ρ c (Proc.devRef .tc main_arg3) := StableHlo.after_of_forall_not_mem (b := Proc.devRef .tc main_arg3) _ _ (List.forall_iff_forall_mem.mp (by unwritten hostOps10))
    _ = m ((c : Thread nD τ).loc main_arg3) := W35_arg3 m ρ c
theorem W37_arg4 (c : Dev nD) : W37 m ρ c (Proc.devRef .tc main_arg4) = m ((c : Thread nD τ).loc main_arg4) :=
  calc W37 m ρ c (Proc.devRef .tc main_arg4)
    _ = W36 m ρ c (Proc.devRef .tc main_arg4) := W37_of_ne m ρ c main_arg4 (by decide)
    _ = W35 m ρ c (Proc.devRef .tc main_arg4) := StableHlo.after_of_forall_not_mem (b := Proc.devRef .tc main_arg4) _ _ (List.forall_iff_forall_mem.mp (by unwritten hostOps10))
    _ = m ((c : Thread nD τ).loc main_arg4) := W35_arg4 m ρ c
theorem W37_arg5 (c : Dev nD) : W37 m ρ c (Proc.devRef .tc main_arg5) = m ((c : Thread nD τ).loc main_arg5) :=
  calc W37 m ρ c (Proc.devRef .tc main_arg5)
    _ = W36 m ρ c (Proc.devRef .tc main_arg5) := W37_of_ne m ρ c main_arg5 (by decide)
    _ = W35 m ρ c (Proc.devRef .tc main_arg5) := StableHlo.after_of_forall_not_mem (b := Proc.devRef .tc main_arg5) _ _ (List.forall_iff_forall_mem.mp (by unwritten hostOps10))
    _ = m ((c : Thread nD τ).loc main_arg5) := W35_arg5 m ρ c
theorem W37_arg6 (c : Dev nD) : W37 m ρ c (Proc.devRef .tc main_arg6) = m ((c : Thread nD τ).loc main_arg6) :=
  calc W37 m ρ c (Proc.devRef .tc main_arg6)
    _ = W36 m ρ c (Proc.devRef .tc main_arg6) := W37_of_ne m ρ c main_arg6 (by decide)
    _ = W35 m ρ c (Proc.devRef .tc main_arg6) := StableHlo.after_of_forall_not_mem (b := Proc.devRef .tc main_arg6) _ _ (List.forall_iff_forall_mem.mp (by unwritten hostOps10))
    _ = m ((c : Thread nD τ).loc main_arg6) := W35_arg6 m ρ c
theorem W37_arg7 (c : Dev nD) : W37 m ρ c (Proc.devRef .tc main_arg7) = m ((c : Thread nD τ).loc main_arg7) :=
  calc W37 m ρ c (Proc.devRef .tc main_arg7)
    _ = W36 m ρ c (Proc.devRef .tc main_arg7) := W37_of_ne m ρ c main_arg7 (by decide)
    _ = W35 m ρ c (Proc.devRef .tc main_arg7) := StableHlo.after_of_forall_not_mem (b := Proc.devRef .tc main_arg7) _ _ (List.forall_iff_forall_mem.mp (by unwritten hostOps10))
    _ = m ((c : Thread nD τ).loc main_arg7) := W35_arg7 m ρ c
theorem W37_arg8 (c : Dev nD) : W37 m ρ c (Proc.devRef .tc main_arg8) = m ((c : Thread nD τ).loc main_arg8) :=
  calc W37 m ρ c (Proc.devRef .tc main_arg8)
    _ = W36 m ρ c (Proc.devRef .tc main_arg8) := W37_of_ne m ρ c main_arg8 (by decide)
    _ = W35 m ρ c (Proc.devRef .tc main_arg8) := StableHlo.after_of_forall_not_mem (b := Proc.devRef .tc main_arg8) _ _ (List.forall_iff_forall_mem.mp (by unwritten hostOps10))
    _ = m ((c : Thread nD τ).loc main_arg8) := W35_arg8 m ρ c
theorem W37_arg9 (c : Dev nD) : W37 m ρ c (Proc.devRef .tc main_arg9) = m ((c : Thread nD τ).loc main_arg9) :=
  calc W37 m ρ c (Proc.devRef .tc main_arg9)
    _ = W36 m ρ c (Proc.devRef .tc main_arg9) := W37_of_ne m ρ c main_arg9 (by decide)
    _ = W35 m ρ c (Proc.devRef .tc main_arg9) := StableHlo.after_of_forall_not_mem (b := Proc.devRef .tc main_arg9) _ _ (List.forall_iff_forall_mem.mp (by unwritten hostOps10))
    _ = m ((c : Thread nD τ).loc main_arg9) := W35_arg9 m ρ c
theorem W37_arg10 (c : Dev nD) : W37 m ρ c (Proc.devRef .tc main_arg10) = m ((c : Thread nD τ).loc main_arg10) :=
  calc W37 m ρ c (Proc.devRef .tc main_arg10)
    _ = W36 m ρ c (Proc.devRef .tc main_arg10) := W37_of_ne m ρ c main_arg10 (by decide)
    _ = W35 m ρ c (Proc.devRef .tc main_arg10) := StableHlo.after_of_forall_not_mem (b := Proc.devRef .tc main_arg10) _ _ (List.forall_iff_forall_mem.mp (by unwritten hostOps10))
    _ = m ((c : Thread nD τ).loc main_arg10) := W35_arg10 m ρ c
theorem W37_arg11 (c : Dev nD) : W37 m ρ c (Proc.devRef .tc main_arg11) = m ((c : Thread nD τ).loc main_arg11) :=
  calc W37 m ρ c (Proc.devRef .tc main_arg11)
    _ = W36 m ρ c (Proc.devRef .tc main_arg11) := W37_of_ne m ρ c main_arg11 (by decide)
    _ = W35 m ρ c (Proc.devRef .tc main_arg11) := StableHlo.after_of_forall_not_mem (b := Proc.devRef .tc main_arg11) _ _ (List.forall_iff_forall_mem.mp (by unwritten hostOps10))
    _ = m ((c : Thread nD τ).loc main_arg11) := W35_arg11 m ρ c
theorem W37_arg12 (c : Dev nD) : W37 m ρ c (Proc.devRef .tc main_arg12) = m ((c : Thread nD τ).loc main_arg12) :=
  calc W37 m ρ c (Proc.devRef .tc main_arg12)
    _ = W36 m ρ c (Proc.devRef .tc main_arg12) := W37_of_ne m ρ c main_arg12 (by decide)
    _ = W35 m ρ c (Proc.devRef .tc main_arg12) := StableHlo.after_of_forall_not_mem (b := Proc.devRef .tc main_arg12) _ _ (List.forall_iff_forall_mem.mp (by unwritten hostOps10))
    _ = m ((c : Thread nD τ).loc main_arg12) := W35_arg12 m ρ c

/-! ## Region exit `W40`: back to `W37_arg<j>` -/

theorem W40_arg0 (c : Dev nD) : W40 m ρ c (Proc.devRef .tc main_arg0) = m ((c : Thread nD τ).loc main_arg0) :=
  calc W40 m ρ c (Proc.devRef .tc main_arg0)
    _ = W39 m ρ c (Proc.devRef .tc main_arg0) := W40_of_ne m ρ c main_arg0 (by decide)
    _ = W38 m ρ c (Proc.devRef .tc main_arg0) := StableHlo.after_of_forall_not_mem (b := Proc.devRef .tc main_arg0) _ _ (List.forall_iff_forall_mem.mp (by unwritten hostOps11_1))
    _ = W37 m ρ c (Proc.devRef .tc main_arg0) := StableHlo.after_of_forall_not_mem (b := Proc.devRef .tc main_arg0) _ _ (List.forall_iff_forall_mem.mp (by unwritten hostOps11))
    _ = m ((c : Thread nD τ).loc main_arg0) := W37_arg0 m ρ c
theorem W40_arg1 (c : Dev nD) : W40 m ρ c (Proc.devRef .tc main_arg1) = m ((c : Thread nD τ).loc main_arg1) :=
  calc W40 m ρ c (Proc.devRef .tc main_arg1)
    _ = W39 m ρ c (Proc.devRef .tc main_arg1) := W40_of_ne m ρ c main_arg1 (by decide)
    _ = W38 m ρ c (Proc.devRef .tc main_arg1) := StableHlo.after_of_forall_not_mem (b := Proc.devRef .tc main_arg1) _ _ (List.forall_iff_forall_mem.mp (by unwritten hostOps11_1))
    _ = W37 m ρ c (Proc.devRef .tc main_arg1) := StableHlo.after_of_forall_not_mem (b := Proc.devRef .tc main_arg1) _ _ (List.forall_iff_forall_mem.mp (by unwritten hostOps11))
    _ = m ((c : Thread nD τ).loc main_arg1) := W37_arg1 m ρ c
theorem W40_arg2 (c : Dev nD) : W40 m ρ c (Proc.devRef .tc main_arg2) = m ((c : Thread nD τ).loc main_arg2) :=
  calc W40 m ρ c (Proc.devRef .tc main_arg2)
    _ = W39 m ρ c (Proc.devRef .tc main_arg2) := W40_of_ne m ρ c main_arg2 (by decide)
    _ = W38 m ρ c (Proc.devRef .tc main_arg2) := StableHlo.after_of_forall_not_mem (b := Proc.devRef .tc main_arg2) _ _ (List.forall_iff_forall_mem.mp (by unwritten hostOps11_1))
    _ = W37 m ρ c (Proc.devRef .tc main_arg2) := StableHlo.after_of_forall_not_mem (b := Proc.devRef .tc main_arg2) _ _ (List.forall_iff_forall_mem.mp (by unwritten hostOps11))
    _ = m ((c : Thread nD τ).loc main_arg2) := W37_arg2 m ρ c
theorem W40_arg3 (c : Dev nD) : W40 m ρ c (Proc.devRef .tc main_arg3) = m ((c : Thread nD τ).loc main_arg3) :=
  calc W40 m ρ c (Proc.devRef .tc main_arg3)
    _ = W39 m ρ c (Proc.devRef .tc main_arg3) := W40_of_ne m ρ c main_arg3 (by decide)
    _ = W38 m ρ c (Proc.devRef .tc main_arg3) := StableHlo.after_of_forall_not_mem (b := Proc.devRef .tc main_arg3) _ _ (List.forall_iff_forall_mem.mp (by unwritten hostOps11_1))
    _ = W37 m ρ c (Proc.devRef .tc main_arg3) := StableHlo.after_of_forall_not_mem (b := Proc.devRef .tc main_arg3) _ _ (List.forall_iff_forall_mem.mp (by unwritten hostOps11))
    _ = m ((c : Thread nD τ).loc main_arg3) := W37_arg3 m ρ c
theorem W40_arg4 (c : Dev nD) : W40 m ρ c (Proc.devRef .tc main_arg4) = m ((c : Thread nD τ).loc main_arg4) :=
  calc W40 m ρ c (Proc.devRef .tc main_arg4)
    _ = W39 m ρ c (Proc.devRef .tc main_arg4) := W40_of_ne m ρ c main_arg4 (by decide)
    _ = W38 m ρ c (Proc.devRef .tc main_arg4) := StableHlo.after_of_forall_not_mem (b := Proc.devRef .tc main_arg4) _ _ (List.forall_iff_forall_mem.mp (by unwritten hostOps11_1))
    _ = W37 m ρ c (Proc.devRef .tc main_arg4) := StableHlo.after_of_forall_not_mem (b := Proc.devRef .tc main_arg4) _ _ (List.forall_iff_forall_mem.mp (by unwritten hostOps11))
    _ = m ((c : Thread nD τ).loc main_arg4) := W37_arg4 m ρ c
theorem W40_arg5 (c : Dev nD) : W40 m ρ c (Proc.devRef .tc main_arg5) = m ((c : Thread nD τ).loc main_arg5) :=
  calc W40 m ρ c (Proc.devRef .tc main_arg5)
    _ = W39 m ρ c (Proc.devRef .tc main_arg5) := W40_of_ne m ρ c main_arg5 (by decide)
    _ = W38 m ρ c (Proc.devRef .tc main_arg5) := StableHlo.after_of_forall_not_mem (b := Proc.devRef .tc main_arg5) _ _ (List.forall_iff_forall_mem.mp (by unwritten hostOps11_1))
    _ = W37 m ρ c (Proc.devRef .tc main_arg5) := StableHlo.after_of_forall_not_mem (b := Proc.devRef .tc main_arg5) _ _ (List.forall_iff_forall_mem.mp (by unwritten hostOps11))
    _ = m ((c : Thread nD τ).loc main_arg5) := W37_arg5 m ρ c
theorem W40_arg6 (c : Dev nD) : W40 m ρ c (Proc.devRef .tc main_arg6) = m ((c : Thread nD τ).loc main_arg6) :=
  calc W40 m ρ c (Proc.devRef .tc main_arg6)
    _ = W39 m ρ c (Proc.devRef .tc main_arg6) := W40_of_ne m ρ c main_arg6 (by decide)
    _ = W38 m ρ c (Proc.devRef .tc main_arg6) := StableHlo.after_of_forall_not_mem (b := Proc.devRef .tc main_arg6) _ _ (List.forall_iff_forall_mem.mp (by unwritten hostOps11_1))
    _ = W37 m ρ c (Proc.devRef .tc main_arg6) := StableHlo.after_of_forall_not_mem (b := Proc.devRef .tc main_arg6) _ _ (List.forall_iff_forall_mem.mp (by unwritten hostOps11))
    _ = m ((c : Thread nD τ).loc main_arg6) := W37_arg6 m ρ c
theorem W40_arg7 (c : Dev nD) : W40 m ρ c (Proc.devRef .tc main_arg7) = m ((c : Thread nD τ).loc main_arg7) :=
  calc W40 m ρ c (Proc.devRef .tc main_arg7)
    _ = W39 m ρ c (Proc.devRef .tc main_arg7) := W40_of_ne m ρ c main_arg7 (by decide)
    _ = W38 m ρ c (Proc.devRef .tc main_arg7) := StableHlo.after_of_forall_not_mem (b := Proc.devRef .tc main_arg7) _ _ (List.forall_iff_forall_mem.mp (by unwritten hostOps11_1))
    _ = W37 m ρ c (Proc.devRef .tc main_arg7) := StableHlo.after_of_forall_not_mem (b := Proc.devRef .tc main_arg7) _ _ (List.forall_iff_forall_mem.mp (by unwritten hostOps11))
    _ = m ((c : Thread nD τ).loc main_arg7) := W37_arg7 m ρ c
theorem W40_arg8 (c : Dev nD) : W40 m ρ c (Proc.devRef .tc main_arg8) = m ((c : Thread nD τ).loc main_arg8) :=
  calc W40 m ρ c (Proc.devRef .tc main_arg8)
    _ = W39 m ρ c (Proc.devRef .tc main_arg8) := W40_of_ne m ρ c main_arg8 (by decide)
    _ = W38 m ρ c (Proc.devRef .tc main_arg8) := StableHlo.after_of_forall_not_mem (b := Proc.devRef .tc main_arg8) _ _ (List.forall_iff_forall_mem.mp (by unwritten hostOps11_1))
    _ = W37 m ρ c (Proc.devRef .tc main_arg8) := StableHlo.after_of_forall_not_mem (b := Proc.devRef .tc main_arg8) _ _ (List.forall_iff_forall_mem.mp (by unwritten hostOps11))
    _ = m ((c : Thread nD τ).loc main_arg8) := W37_arg8 m ρ c
theorem W40_arg9 (c : Dev nD) : W40 m ρ c (Proc.devRef .tc main_arg9) = m ((c : Thread nD τ).loc main_arg9) :=
  calc W40 m ρ c (Proc.devRef .tc main_arg9)
    _ = W39 m ρ c (Proc.devRef .tc main_arg9) := W40_of_ne m ρ c main_arg9 (by decide)
    _ = W38 m ρ c (Proc.devRef .tc main_arg9) := StableHlo.after_of_forall_not_mem (b := Proc.devRef .tc main_arg9) _ _ (List.forall_iff_forall_mem.mp (by unwritten hostOps11_1))
    _ = W37 m ρ c (Proc.devRef .tc main_arg9) := StableHlo.after_of_forall_not_mem (b := Proc.devRef .tc main_arg9) _ _ (List.forall_iff_forall_mem.mp (by unwritten hostOps11))
    _ = m ((c : Thread nD τ).loc main_arg9) := W37_arg9 m ρ c
theorem W40_arg10 (c : Dev nD) : W40 m ρ c (Proc.devRef .tc main_arg10) = m ((c : Thread nD τ).loc main_arg10) :=
  calc W40 m ρ c (Proc.devRef .tc main_arg10)
    _ = W39 m ρ c (Proc.devRef .tc main_arg10) := W40_of_ne m ρ c main_arg10 (by decide)
    _ = W38 m ρ c (Proc.devRef .tc main_arg10) := StableHlo.after_of_forall_not_mem (b := Proc.devRef .tc main_arg10) _ _ (List.forall_iff_forall_mem.mp (by unwritten hostOps11_1))
    _ = W37 m ρ c (Proc.devRef .tc main_arg10) := StableHlo.after_of_forall_not_mem (b := Proc.devRef .tc main_arg10) _ _ (List.forall_iff_forall_mem.mp (by unwritten hostOps11))
    _ = m ((c : Thread nD τ).loc main_arg10) := W37_arg10 m ρ c
theorem W40_arg11 (c : Dev nD) : W40 m ρ c (Proc.devRef .tc main_arg11) = m ((c : Thread nD τ).loc main_arg11) :=
  calc W40 m ρ c (Proc.devRef .tc main_arg11)
    _ = W39 m ρ c (Proc.devRef .tc main_arg11) := W40_of_ne m ρ c main_arg11 (by decide)
    _ = W38 m ρ c (Proc.devRef .tc main_arg11) := StableHlo.after_of_forall_not_mem (b := Proc.devRef .tc main_arg11) _ _ (List.forall_iff_forall_mem.mp (by unwritten hostOps11_1))
    _ = W37 m ρ c (Proc.devRef .tc main_arg11) := StableHlo.after_of_forall_not_mem (b := Proc.devRef .tc main_arg11) _ _ (List.forall_iff_forall_mem.mp (by unwritten hostOps11))
    _ = m ((c : Thread nD τ).loc main_arg11) := W37_arg11 m ρ c
theorem W40_arg12 (c : Dev nD) : W40 m ρ c (Proc.devRef .tc main_arg12) = m ((c : Thread nD τ).loc main_arg12) :=
  calc W40 m ρ c (Proc.devRef .tc main_arg12)
    _ = W39 m ρ c (Proc.devRef .tc main_arg12) := W40_of_ne m ρ c main_arg12 (by decide)
    _ = W38 m ρ c (Proc.devRef .tc main_arg12) := StableHlo.after_of_forall_not_mem (b := Proc.devRef .tc main_arg12) _ _ (List.forall_iff_forall_mem.mp (by unwritten hostOps11_1))
    _ = W37 m ρ c (Proc.devRef .tc main_arg12) := StableHlo.after_of_forall_not_mem (b := Proc.devRef .tc main_arg12) _ _ (List.forall_iff_forall_mem.mp (by unwritten hostOps11))
    _ = m ((c : Thread nD τ).loc main_arg12) := W37_arg12 m ρ c

end Cert.KernelIdeal.KArgs

end
-- ==== Proof.KPay.lean ====
/-
  The three kernel bodies of the message-passing layer, read at one entry of what they store, on the extended reals.

  Every float is an extended real, every float operation is the exact one, and a change of float format is the
  identity. Each kernel stores a `[10000, 64]` block; at row `r` and column `j` the stored value is:
  * linear kernel:      `(∑ k, x (r, k) * wt (k, j)) + b j`: row `r` of the input times the transposed weight, plus the bias;
  * projection kernel:  `(∑ k : Fin 64, xl (r, k) * wxl (k, j)) + (∑ k : Fin 128, h (r, k) * wh (k, j)) + pb j + bb j`: the node
                        row and the aggregated row of the same index, each times its block of the weight, plus two biases;
  * edge kernel:        `(∑ k, n (r, k) * w1t (k, j)) + b1 j`, where `n (r, ·)` is the normalised hidden row of attribute row
                        `r`: the hidden row is `max ((∑ c, ea (r, c) * w0t (c, k)) + b0 k) 0`; its mean and the mean of its
                        squared deviations are row sums divided by 64; the normalised row is the deviation times the inverse
                        square root of the variance plus epsilon, times the gain, plus the shift.
  The row functions these are stated against are `Cert.Rows.linRow`, `projRowK` and `edgeRow`.

  The proofs read each non-pointwise operation at an index: a product into the zero array is a sum over the one contraction
  coordinate; a vector viewed as a row (or a column) and repeated over the other axis reads its own entry; a sum over the
  second axis reads the sum of a row. Pointwise operations read entrywise by definition.
-/
import proofs.«410647_j53395033423884_2_alg».proof.Proof.Gen.KernelIdeal.Skeleton
import proofs.«410647_j53395033423884_2_alg».proof.Proof.Spec
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.Pay

open Cert.KernelIdeal Cert.KernelIdeal.Gen Cert.Rows Idealize.ShloMosaic Idealize.ShloMosaic.ValueIdx

/-! ## The two contractions read at an index

A product of a `[10000, D]` array with a `[D, 64]` array into the zero array reads, at `(r, j)`, the sum over
`k : Fin D` of the left operand at `(r, k)` times the right operand at `(k, j)`. The contraction index of the
dimension numbers is re-indexed by its one coordinate; the four axis equations say which coordinate of each
operand index is the output's and which is the contraction's. -/

theorem lhs64_0 (j : S10000x64.Idx) (k : dot_S10000x64_S64x64_S10000x64_1_0_0_1_n_n.contr.Idx) :
    (dot_S10000x64_S64x64_S10000x64_1_0_0_1_n_n.lhsIdx j k 0).val = (j 0).val := rfl
theorem lhs64_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k
theorem rhs64_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k
theorem rhs64_1 (j : S10000x64.Idx) (k : dot_S10000x64_S64x64_S10000x64_1_0_0_1_n_n.contr.Idx) :
    (dot_S10000x64_S64x64_S10000x64_1_0_0_1_n_n.rhsIdx j k 1).val = (j 1).val := rfl

/-- The 64-term product at `(r, j)`: `∑ k, lhs (r, k) * rhs (k, j)`. -/
theorem mm64_apply (lhs : FVec Ideal S10000x64 .bf16) (rhs : FVec Ideal S64x64 .bf16) (r : Fin 10000) (j : Fin 64) :
    matmul dot_S10000x64_S64x64_S10000x64_1_0_0_1_n_n none lhs rhs (constant (F := Ideal) S10000x64 .f32 0x00000000#32) (ix2 r j)
      = ∑ k : Fin 64, lhs (ix2 r k) * rhs (ix2 k j) := by
  refine (Ideal.matmul_constant_zero_apply dot_S10000x64_S64x64_S10000x64_1_0_0_1_n_n none lhs rhs (ix2 r j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  congr 1
  · refine congrArg lhs (funext fun a => Fin.ext ?_)
    match a with
    | ⟨0, _⟩ => exact lhs64_0 _ _
    | ⟨1, _⟩ => exact (lhs64_1 _ _).trans hk
  · refine congrArg rhs (funext fun a => Fin.ext ?_)
    match a with
    | ⟨0, _⟩ => exact (rhs64_0 _ _).trans hk
    | ⟨1, _⟩ => exact rhs64_1 _ _

theorem lhs128_0 (j : S10000x64.Idx) (k : dot_S10000x128_S128x64_S10000x64_1_0_0_1_n_n.contr.Idx) :
    (dot_S10000x128_S128x64_S10000x64_1_0_0_1_n_n.lhsIdx j k 0).val = (j 0).val := rfl
theorem lhs128_1 (j : S10000x64.Idx) (k : dot_S10000x128_S128x64_S10000x64_1_0_0_1_n_n.contr.Idx) :
    (dot_S10000x128_S128x64_S10000x64_1_0_0_1_n_n.lhsIdx j k 1).val = (k ⟨0, by decide⟩).val :=
  dot_S10000x128_S128x64_S10000x64_1_0_0_1_n_n.lhsIdx_val_of_single rfl j k
theorem rhs128_0 (j : S10000x64.Idx) (k : dot_S10000x128_S128x64_S10000x64_1_0_0_1_n_n.contr.Idx) :
    (dot_S10000x128_S128x64_S10000x64_1_0_0_1_n_n.rhsIdx j k 0).val = (k ⟨0, by decide⟩).val :=
  dot_S10000x128_S128x64_S10000x64_1_0_0_1_n_n.rhsIdx_val_of_single rfl j k
theorem rhs128_1 (j : S10000x64.Idx) (k : dot_S10000x128_S128x64_S10000x64_1_0_0_1_n_n.contr.Idx) :
    (dot_S10000x128_S128x64_S10000x64_1_0_0_1_n_n.rhsIdx j k 1).val = (j 1).val := rfl

/-- The 128-term product at `(r, j)`: `∑ k, lhs (r, k) * rhs (k, j)`. -/
theorem mm128_apply (lhs : FVec Ideal S10000x128 .bf16) (rhs : FVec Ideal S128x64 .bf16) (r : Fin 10000) (j : Fin 64) :
    matmul dot_S10000x128_S128x64_S10000x64_1_0_0_1_n_n none lhs rhs (constant (F := Ideal) S10000x64 .f32 0x00000000#32) (ix2 r j)
      = ∑ k : Fin 128, lhs (ix2 r k) * rhs (ix2 k j) := by
  refine (Ideal.matmul_constant_zero_apply dot_S10000x128_S128x64_S10000x64_1_0_0_1_n_n none lhs rhs (ix2 r j)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  congr 1
  · refine congrArg lhs (funext fun a => Fin.ext ?_)
    match a with
    | ⟨0, _⟩ => exact lhs128_0 _ _
    | ⟨1, _⟩ => exact (lhs128_1 _ _).trans hk
  · refine congrArg rhs (funext fun a => Fin.ext ?_)
    match a with
    | ⟨0, _⟩ => exact (rhs128_0 _ _).trans hk
    | ⟨1, _⟩ => exact rhs128_1 _ _

/-! ## Rows, columns and lane sums read at an index -/

/-- A vector of 64 entries viewed as one row and repeated over 10000 rows reads, at `(r, j)`, its entry `j`. -/
theorem bias_row (v : FVec Ideal S64 .f32) (h2 : S64.ShapeCasts S1x64)
    (h3 : S1x64.Broadcasts S10000x64) (r : Fin 10000) (j : Fin 64) :
    broadcastTo S10000x64 (shapeCast S1x64 v h2) h3 (ix2 r j) = v (ix1 j) :=
  (broadcastTo_1b_ab_apply _ h3 r j).trans (shapeCast_a_1a_apply _ h2 0 j)

/-- A vector of `a` entries viewed as one column reads, at `(i, u)`, its entry `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column repeated over `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a `[10000, 64]` array over its second axis reads, at `r`, the sum of row `r`'s 64 entries. -/
theorem rowsum_apply (src : FVec Ideal S10000x64 .f32) (h : S10000x64.Reduces [1] S10000) (r : Fin 10000) :
    Ideal.reduceAdd h src (ix1 r) = ∑ k : Fin 64, src (ix2 r k) := by
  refine (Ideal.reduceAdd_single h src (ix1 r)).trans ?_
  refine Finset.sum_congr rfl fun k _ => congrArg src (funext fun a => Fin.ext ?_)
  match a with
  | ⟨0, _⟩ => rfl
  | ⟨1, _⟩ => rfl

/-- A lane sum started from the zero word is the plain sum over the second axis. -/
theorem rowsum_eq (src : FVec Ideal S10000x64 .f32) (h : S10000x64.Reduces [1] S10000) (hφ : FKind.Formats .f32)
    (hacc : @Eq (BitVec FTy.f32.bits) 0x00000000#32 0x00000000#32) :
    multiReduction (F := Ideal) .add [1] S10000 src 0x00000000#32 h hφ hacc = Ideal.reduceAdd h src := rfl

/-- A row sum kept as a column reads, at `(r, u)`, the sum of row `r`, whatever the unit coordinate. -/
theorem rowsum_col_apply (src : FVec Ideal S10000x64 .f32) (h : S10000x64.Reduces [1] S10000)
    (hc : S10000.ShapeCasts S10000x1) (r : Fin 10000) (u : Fin 1) :
    shapeCast S10000x1 (Ideal.reduceAdd h src) hc (ix2 r u) = ∑ k : Fin 64, src (ix2 r k) :=
  (shapeCast_a_a1_apply _ hc r u).trans (rowsum_apply src h r)

/-! ## The linear payload -/

/-- The node-linear kernel stores, at `(r, j)`, row `r` of its input times the transposed weight's column `j`,
plus the bias entry `j`. -/
theorem lin_pay (v0 : Vec Ideal S10000x64 .f32) (v2 : Vec Ideal S64x64 .bf16) (v5 : Vec Ideal S64 .f32) (r : Fin 10000) (j : Fin 64) :
    k1_pay1 (F := Ideal) v0 v2 v5 (ix2 r j)
      = linRow (fun k => v0 (ix2 r k)) (fun a b => v2 (ix2 a b)) (fun k => v5 (ix1 k)) j := by
  unfold k1_pay1
  simp only [addf_apply, mm64_apply, bias_row, truncf_apply, shapeCast_self]
  rfl

/-! ## The projection payload -/

/-- The projection kernel stores, at `(r, j)`, the node row times the node block of the weight, plus the aggregated
row times the aggregated block, plus the two bias entries. -/
theorem proj_pay (v0 : Vec Ideal S10000x64 .f32) (v3 : Vec Ideal S10000x128 .f32) (v6 : Vec Ideal S64x64 .bf16)
    (v8 : Vec Ideal S128x64 .bf16) (v13 v18 : Vec Ideal S64 .f32) (r : Fin 10000) (j : Fin 64) :
    k2_pay1 (F := Ideal) v0 v3 v6 v8 v13 v18 (ix2 r j)
      = projRowK (fun k => v0 (ix2 r k)) (fun k => v3 (ix2 r k)) (fun a b => v6 (ix2 a b)) (fun a b => v8 (ix2 a b))
          (fun k => v13 (ix1 k)) (fun k => v18 (ix1 k)) j := by
  unfold k2_pay1
  simp only [addf_apply, mm64_apply, mm128_apply, bias_row, truncf_apply, shapeCast_self]
  rfl

/-! ## The edge payload, stage by stage

The hidden row is the positive part of the affine image of the attribute row; its mean and the mean of its squared
deviations are row sums divided by the word 64, kept as columns and repeated over the row; the normalised row is the
deviation times the inverse root of the variance plus epsilon, times the gain, plus the shift; the stored row is the
normalised row times the second transposed weight, plus the second bias. -/

/-- The inverse square root of an array reads, at an index, the inverse square root of its entry. -/
theorem rsqrt_apply {s : Shape} (a : FVec Ideal s .f32) (i : s.Idx) : rsqrt a i = Ideal.rsqrt (a i) := rfl

/-- A float word spread over a shape or read as a scalar is the extended real it denotes. -/
theorem scalar_ofBits (b : BitVec 32) : (Scalar.ofBits (F := Ideal) .f32 b : Ideal .f32) = Ideal.ofBits .f32 b := rfl

/-- The first stage of the edge payload (everything before the second product) reads, at `(r, k)`, entry `k` of
the normalised hidden row of attribute row `r`. -/
theorem edge_pay2 (v0 : Vec Ideal S10000x64 .f32) (v3 : Vec Ideal S64x64 .bf16) (v6 v31 v36 : Vec Ideal S64 .f32)
    (r : Fin 10000) (k : Fin 64) :
    k0_pay2 (F := Ideal) v0 v3 v6 v31 v36 (ix2 r k)
      = normed (hidden (fun c => v0 (ix2 r c)) (fun a b => v3 (ix2 a b)) (fun k => v6 (ix1 k)))
          (fun k => v31 (ix1 k)) (fun k => v36 (ix1 k)) k := by
  unfold k0_pay2
  simp only [↓ rowsum_eq, truncf_apply, addf_apply, mulf_apply, subf_apply, divf_apply, maximumf_apply, broadcast_apply,
    rsqrt_apply, scalar_ofBits, mm64_apply, bias_row, shapeCast_self, broadcastTo_a1_ab_apply, rowsum_col_apply]
  rfl

/-- The edge kernel stores, at `(r, j)`, the normalised hidden row of attribute row `r` times the second transposed
weight's column `j`, plus the second bias entry `j`. -/
theorem edge_pay (v0 : Vec Ideal S10000x64 .f32) (v3 : Vec Ideal S64x64 .bf16) (v6 v31 v36 : Vec Ideal S64 .f32)
    (v42 : Vec Ideal S64x64 .bf16) (v45 : Vec Ideal S64 .f32) (r : Fin 10000) (j : Fin 64) :
    k0_pay1 (F := Ideal) (k0_pay2 v0 v3 v6 v31 v36) v42 v45 (ix2 r j)
      = edgeRow (fun c => v0 (ix2 r c)) (fun a b => v3 (ix2 a b)) (fun k => v6 (ix1 k)) (fun k => v31 (ix1 k))
          (fun k => v36 (ix1 k)) (fun a b => v42 (ix2 a b)) (fun k => v45 (ix1 k)) j := by
  unfold k0_pay1
  simp only [addf_apply, mm64_apply, bias_row, shapeCast_self, edge_pay2]
  rfl

/-! ## The sibling regions

The four edge types run the same three kernel bodies: the payloads of the other nine regions are the same functions. -/

theorem k3_pay1_eq : k3_pay1 (F := Ideal) = k0_pay1 (F := Ideal) := rfl
theorem k3_pay2_eq : k3_pay2 (F := Ideal) = k0_pay2 (F := Ideal) := rfl
theorem k6_pay1_eq : k6_pay1 (F := Ideal) = k0_pay1 (F := Ideal) := rfl
theorem k6_pay2_eq : k6_pay2 (F := Ideal) = k0_pay2 (F := Ideal) := rfl
theorem k9_pay1_eq : k9_pay1 (F := Ideal) = k0_pay1 (F := Ideal) := rfl
theorem k9_pay2_eq : k9_pay2 (F := Ideal) = k0_pay2 (F := Ideal) := rfl
theorem k4_pay1_eq : k4_pay1 (F := Ideal) = k1_pay1 (F := Ideal) := rfl
theorem k7_pay1_eq : k7_pay1 (F := Ideal) = k1_pay1 (F := Ideal) := rfl
theorem k10_pay1_eq : k10_pay1 (F := Ideal) = k1_pay1 (F := Ideal) := rfl
theorem k5_pay1_eq : k5_pay1 (F := Ideal) = k2_pay1 (F := Ideal) := rfl
theorem k8_pay1_eq : k8_pay1 (F := Ideal) = k2_pay1 (F := Ideal) := rfl
theorem k11_pay1_eq : k11_pay1 (F := Ideal) = k2_pay1 (F := Ideal) := rfl

end Cert.KernelIdeal.Pay

end
-- ==== Proof.KReg0.lean ====
/-
  The edge network of one edge type, as a whole array.

  The stage walks the edge-attribute array in fifty blocks of 10000 rows. At a block it sends each row through the
  two-layer edge network (affine map, positive part, LayerNorm over the 64 hidden entries, second affine map) and
  writes the block of results back to the same rows of the output array; the two weights, the two biases, the gain
  and the shift are read whole at every block. Row `R` of the output is therefore written by the block
  `R / 10000`, from row `R` of the attribute array, and after the last block the output array holds `edgeArr` of the
  seven input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg0

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the attribute block and the output block are block `t` of their arrays
    (rows `10000 t …`, all 64 columns); the six small arrays are read whole at every point. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The seven input blocks at a point, each at its literal type. -/
abbrev eablk (c : Dev nD) (t : Fin cfg0.N) : Vec Ideal S10000x64 .f32 := iblk0 V c 0 t
abbrev w0blk (c : Dev nD) (t : Fin cfg0.N) : Vec Ideal S64x64 .bf16 := iblk0 V c 1 t
abbrev b0blk (c : Dev nD) (t : Fin cfg0.N) : Vec Ideal S64 .f32 := iblk0 V c 2 t
abbrev gblk (c : Dev nD) (t : Fin cfg0.N) : Vec Ideal S64 .f32 := iblk0 V c 3 t
abbrev beblk (c : Dev nD) (t : Fin cfg0.N) : Vec Ideal S64 .f32 := iblk0 V c 4 t
abbrev w1blk (c : Dev nD) (t : Fin cfg0.N) : Vec Ideal S64x64 .bf16 := iblk0 V c 5 t
abbrev b1blk (c : Dev nD) (t : Fin cfg0.N) : Vec Ideal S64 .f32 := iblk0 V c 6 t

/-- Row `r` of the attribute block at point `t` is row `10000 t + r` of the attribute array. -/
theorem eablk_apply (c : Dev nD) (EA : FVec Ideal S500000x64 .f32) (h0 : V c (Pipeline.arrRef spec0 0) = EA)
    (t : Fin cfg0.N) (r : Fin 10000) (k : Fin 64) (R : Fin 500000) (hR : R.val = t.val * 10000 + r.val) :
    eablk V c t (ix2 r k) = EA (ix2 R k) := by
  obtain ⟨e0, e1, -⟩ := block_index t
  show V c (Pipeline.arrRef spec0 0) (((cfg0.win 0).blk t).view.emb (ix2 r k)) = EA (ix2 R k)
  rw [h0]
  congr 1
  funext a; apply Fin.ext
  match a with
  | ⟨0, _⟩ => show win0_0.index t (0 : Fin 2) * 10000 + 1 * r.val = R.val; omega
  | ⟨1, _⟩ => show win0_0.index t (1 : Fin 2) * 64 + 1 * k.val = k.val; omega

/-- The first weight's block at any point is the weight array. -/
theorem w0blk_apply (c : Dev nD) (W0T : FVec Ideal S64x64 .bf16) (h1 : V c (Pipeline.arrRef spec0 1) = W0T)
    (t : Fin cfg0.N) (a b : Fin 64) : w0blk V c t (ix2 a b) = W0T (ix2 a b) := by
  obtain ⟨-, -, e2, e3, -⟩ := block_index t
  show V c (Pipeline.arrRef spec0 1) (((cfg0.win 1).blk t).view.emb (ix2 a b)) = W0T (ix2 a b)
  rw [h1]
  congr 1
  funext d; apply Fin.ext
  match d with
  | ⟨0, _⟩ => show win0_1.index t (0 : Fin 2) * 64 + 1 * a.val = a.val; omega
  | ⟨1, _⟩ => show win0_1.index t (1 : Fin 2) * 64 + 1 * b.val = b.val; omega

/-- The first bias's block at any point is the bias array. -/
theorem b0blk_apply (c : Dev nD) (B0 : FVec Ideal S64 .f32) (h2 : V c (Pipeline.arrRef spec0 2) = B0)
    (t : Fin cfg0.N) (k : Fin 64) : b0blk V c t (ix1 k) = B0 (ix1 k) := by
  obtain ⟨-, -, -, -, e4, -⟩ := block_index t
  show V c (Pipeline.arrRef spec0 2) (((cfg0.win 2).blk t).view.emb (ix1 k)) = B0 (ix1 k)
  rw [h2]
  congr 1
  funext d; apply Fin.ext
  match d with
  | ⟨0, _⟩ => show win0_2.index t (0 : Fin 1) * 64 + 1 * k.val = k.val; omega

/-- The gain's block at any point is the gain array. -/
theorem gblk_apply (c : Dev nD) (G : FVec Ideal S64 .f32) (h3 : V c (Pipeline.arrRef spec0 3) = G)
    (t : Fin cfg0.N) (k : Fin 64) : gblk V c t (ix1 k) = G (ix1 k) := by
  obtain ⟨-, -, -, -, -, e5, -⟩ := block_index t
  show V c (Pipeline.arrRef spec0 3) (((cfg0.win 3).blk t).view.emb (ix1 k)) = G (ix1 k)
  rw [h3]
  congr 1
  funext d; apply Fin.ext
  match d with
  | ⟨0, _⟩ => show win0_3.index t (0 : Fin 1) * 64 + 1 * k.val = k.val; omega

/-- The shift's block at any point is the shift array. -/
theorem beblk_apply (c : Dev nD) (BE : FVec Ideal S64 .f32) (h4 : V c (Pipeline.arrRef spec0 4) = BE)
    (t : Fin cfg0.N) (k : Fin 64) : beblk V c t (ix1 k) = BE (ix1 k) := by
  obtain ⟨-, -, -, -, -, -, e6, -⟩ := block_index t
  show V c (Pipeline.arrRef spec0 4) (((cfg0.win 4).blk t).view.emb (ix1 k)) = BE (ix1 k)
  rw [h4]
  congr 1
  funext d; apply Fin.ext
  match d with
  | ⟨0, _⟩ => show win0_4.index t (0 : Fin 1) * 64 + 1 * k.val = k.val; omega

/-- The second weight's block at any point is the weight array. -/
theorem w1blk_apply (c : Dev nD) (W1T : FVec Ideal S64x64 .bf16) (h5 : V c (Pipeline.arrRef spec0 5) = W1T)
    (t : Fin cfg0.N) (a b : Fin 64) : w1blk V c t (ix2 a b) = W1T (ix2 a b) := by
  obtain ⟨-, -, -, -, -, -, -, e7, e8, -⟩ := block_index t
  show V c (Pipeline.arrRef spec0 5) (((cfg0.win 5).blk t).view.emb (ix2 a b)) = W1T (ix2 a b)
  rw [h5]
  congr 1
  funext d; apply Fin.ext
  match d with
  | ⟨0, _⟩ => show win0_5.index t (0 : Fin 2) * 64 + 1 * a.val = a.val; omega
  | ⟨1, _⟩ => show win0_5.index t (1 : Fin 2) * 64 + 1 * b.val = b.val; omega

/-- The second bias's block at any point is the bias array. -/
theorem b1blk_apply (c : Dev nD) (B1 : FVec Ideal S64 .f32) (h6 : V c (Pipeline.arrRef spec0 6) = B1)
    (t : Fin cfg0.N) (k : Fin 64) : b1blk V c t (ix1 k) = B1 (ix1 k) := by
  obtain ⟨-, -, -, -, -, -, -, -, -, e9, -⟩ := block_index t
  show V c (Pipeline.arrRef spec0 6) (((cfg0.win 6).blk t).view.emb (ix1 k)) = B1 (ix1 k)
  rw [h6]
  congr 1
  funext d; apply Fin.ext
  match d with
  | ⟨0, _⟩ => show win0_6.index t (0 : Fin 1) * 64 + 1 * k.val = k.val; omega

/-- The stage's payload at an entry of a block is the edge network of the block's row. -/
theorem pay_apply (v0 : Vec Ideal S10000x64 .f32) (v3 : Vec Ideal S64x64 .bf16) (v6 v31 v36 : Vec Ideal S64 .f32)
    (v42 : Vec Ideal S64x64 .bf16) (v45 : Vec Ideal S64 .f32) (r : Fin 10000) (j : Fin 64) :
    k0_pay1 (F := Ideal) (k0_pay2 v0 v3 v6 v31 v36) v42 v45 (ix2 r j)
      = edgeRow (fun c => v0 (ix2 r c)) (fun a b => v3 (ix2 a b)) (fun k => v6 (ix1 k)) (fun k => v31 (ix1 k))
          (fun k => v36 (ix1 k)) (fun a b => v42 (ix2 a b)) (fun k => v45 (ix1 k)) j :=
  Pay.edge_pay v0 v3 v6 v31 v36 v42 v45 r j

/-- Entry `(r, q)` of the output block at point `t` is entry `(10000 t + r, q)` of the output array. -/
theorem out_emb (t : Fin cfg0.N) (r : Fin 10000) (q : Fin 64) (R : Fin 500000) (hR : R.val = t.val * 10000 + r.val) :
    ((cfg0.win 7).blk t).view.emb (ix2 r q) = (ix2 R q : S500000x64.Idx) := by
  obtain ⟨-, -, -, -, -, -, -, -, -, -, e10, e11⟩ := block_index t
  funext a; apply Fin.ext
  match a with
  | ⟨0, _⟩ => show win0_7.index t (0 : Fin 2) * 10000 + 1 * r.val = R.val; omega
  | ⟨1, _⟩ => show win0_7.index t (1 : Fin 2) * 64 + 1 * q.val = q.val; omega

/-- What point `t` writes back is block `t` of `edgeArr` of the seven arrays as the stage finds them. -/
theorem flushed_eq (c : Dev nD) (EA : FVec Ideal S500000x64 .f32) (W0T : FVec Ideal S64x64 .bf16) (B0 G BE : FVec Ideal S64 .f32)
    (W1T : FVec Ideal S64x64 .bf16) (B1 : FVec Ideal S64 .f32)
    (h0 : V c (Pipeline.arrRef spec0 0) = EA) (h1 : V c (Pipeline.arrRef spec0 1) = W0T) (h2 : V c (Pipeline.arrRef spec0 2) = B0)
    (h3 : V c (Pipeline.arrRef spec0 3) = G) (h4 : V c (Pipeline.arrRef spec0 4) = BE) (h5 : V c (Pipeline.arrRef spec0 5) = W1T)
    (h6 : V c (Pipeline.arrRef spec0 6) = B1) (t : Fin cfg0.N) :
    (dat0 (F := Ideal) V c).flushed 7 t = ((cfg0.win 7).blk t).view.read (Elt Ideal) (edgeArr (n := 500000) EA W0T B0 G BE W1T B1) := by
  show (cfg0.win 7).cut (grid0.coords t) ((dat0 (F := Ideal) V c).after 7 t) = _
  rw [after0_7]
  unfold out0_7
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  have hlt : t.val < 50 := lt_of_lt_of_eq t.isLt N_0
  have hR : (⟨t.val * 10000 + r.val, by omega⟩ : Fin 500000).val = t.val * 10000 + r.val := rfl
  show k0_pay1 (F := Ideal) (k0_pay2 (eablk V c t) (w0blk V c t) (b0blk V c t) (gblk V c t) (beblk V c t)) (w1blk V c t) (b1blk V c t) (ix2 r q)
    = edgeArr (n := 500000) EA W0T B0 G BE W1T B1 (((cfg0.win 7).blk t).view.emb (ix2 r q))
  rw [out_emb t r q _ hR]
  refine (pay_apply (eablk V c t) (w0blk V c t) (b0blk V c t) (gblk V c t) (beblk V c t) (w1blk V c t) (b1blk V c t) r q).trans ?_
  show edgeRow _ _ _ _ _ _ _ q = edgeRow _ _ _ _ _ _ _ q
  congr 1
  · funext k; exact eablk_apply V c EA h0 t r k _ hR
  · funext a b; exact w0blk_apply V c W0T h1 t a b
  · funext k; exact b0blk_apply V c B0 h2 t k
  · funext k; exact gblk_apply V c G h3 t k
  · funext k; exact beblk_apply V c BE h4 t k
  · funext a b; exact w1blk_apply V c W1T h5 t a b
  · funext k; exact b1blk_apply V c B1 h6 t k

/-- An index of the output array is in point `t`'s block iff each coordinate is in the block's range on its axis. -/
theorem mem_blk (t : Fin cfg0.N) (i : S500000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole (Pipeline.arrRef spec0 7)).slice (win0_7.rect t)).set ↔ _
  rw [View.set_slice_whole, Rect.mem_set_unit]
  exact Iff.rfl

/-- Every row of the output array is in some point's block: row `R` in block `R / 10000`. -/
theorem cover (i : S500000x64.Idx) : ∃ t : Fin cfg0.N, (cfg0.win 7).flush t = true ∧ i ∈ ((cfg0.win 7).blk t).view.set := by
  have h0 : (i 0).val < 500000 := idx2_lt0 i
  have h1 : (i 1).val < 64 := idx2_lt1 i
  refine ⟨⟨(i 0).val / 10000, by rw [show cfg0.N = 50 from N_0]; omega⟩, flush0_7 _, ?_⟩
  rw [mem_blk]
  obtain ⟨-, -, -, -, -, -, -, -, -, -, e10, e11⟩ := block_index ⟨(i 0).val / 10000, by rw [show cfg0.N = 50 from N_0]; omega⟩
  intro a
  match a with
  | ⟨0, _⟩ =>
    show win0_7.index _ (0 : Fin 2) * 10000 ≤ (i 0).val ∧ (i 0).val < win0_7.index _ (0 : Fin 2) * 10000 + 10000
    rw [e10]; show (i 0).val / 10000 * 10000 ≤ (i 0).val ∧ (i 0).val < (i 0).val / 10000 * 10000 + 10000; omega
  | ⟨1, _⟩ =>
    show win0_7.index _ (1 : Fin 2) * 64 ≤ (i 1).val ∧ (i 1).val < win0_7.index _ (1 : Fin 2) * 64 + 64
    rw [e11]; omega

/-- THE OUTPUT ARRAY after the stage: every row of the attribute array through the edge network. -/
theorem reg0_value (c : Dev nD) (EA : FVec Ideal S500000x64 .f32) (W0T : FVec Ideal S64x64 .bf16) (B0 G BE : FVec Ideal S64 .f32)
    (W1T : FVec Ideal S64x64 .bf16) (B1 : FVec Ideal S64 .f32)
    (h0 : V c (Pipeline.arrRef spec0 0) = EA) (h1 : V c (Pipeline.arrRef spec0 1) = W0T) (h2 : V c (Pipeline.arrRef spec0 2) = B0)
    (h3 : V c (Pipeline.arrRef spec0 3) = G) (h4 : V c (Pipeline.arrRef spec0 4) = BE) (h5 : V c (Pipeline.arrRef spec0 5) = W1T)
    (h6 : V c (Pipeline.arrRef spec0 6) = B1) :
    (dat0 (F := Ideal) V c).arrAt 7 cfg0.N = edgeArr (n := 500000) EA W0T B0 G BE W1T B1 :=
  (dat0 (F := Ideal) V c).arrAt_eq_of_cover 7 (edgeArr (n := 500000) EA W0T B0 G BE W1T B1)
    (fun t _ => flushed_eq V c EA W0T B0 G BE W1T B1 h0 h1 h2 h3 h4 h5 h6 t) cover

end Cert.KernelIdeal.Reg0

end
-- ==== Proof.KReg1.lean ====
/-
  The linear stage of one edge type, as a whole array.

  The stage walks the node array in ten blocks of 10000 rows. At a block it multiplies the block's rows by the
  transposed weight and adds the bias, row by row, and writes the block of results back to the same rows of the
  output array. Row `R` of the output is therefore written by the block `R / 10000`, from row `R` of the node
  array and the whole weight and bias, and after the last block the output array holds `linArr` of the three
  input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg1

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the node block and the output block are block `t` of their arrays
    (rows `10000 t …`, all 64 columns); the weight and the bias are read whole at every point. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The three input blocks at a point, each at its literal type. -/
abbrev xblk (c : Dev nD) (t : Fin cfg1.N) : Vec Ideal S10000x64 .f32 := iblk1 V c 0 t
abbrev wblk (c : Dev nD) (t : Fin cfg1.N) : Vec Ideal S64x64 .bf16 := iblk1 V c 1 t
abbrev bblk (c : Dev nD) (t : Fin cfg1.N) : Vec Ideal S64 .f32 := iblk1 V c 2 t

/-- Row `r` of the node block at point `t` is row `10000 t + r` of the node array. -/
theorem xblk_apply (c : Dev nD) (X : FVec Ideal S100000x64 .f32) (hX : V c (Pipeline.arrRef spec1 0) = X)
    (t : Fin cfg1.N) (r : Fin 10000) (k : Fin 64) (R : Fin 100000) (hR : R.val = t.val * 10000 + r.val) :
    xblk V c t (ix2 r k) = X (ix2 R k) := by
  obtain ⟨e0, e1, -⟩ := block_index t
  show V c (Pipeline.arrRef spec1 0) (((cfg1.win 0).blk t).view.emb (ix2 r k)) = X (ix2 R k)
  rw [hX]
  congr 1
  funext a; apply Fin.ext
  match a with
  | ⟨0, _⟩ => show win1_0.index t (0 : Fin 2) * 10000 + 1 * r.val = R.val; omega
  | ⟨1, _⟩ => show win1_0.index t (1 : Fin 2) * 64 + 1 * k.val = k.val; omega

/-- The weight block at any point is the weight array. -/
theorem wblk_apply (c : Dev nD) (WT : FVec Ideal S64x64 .bf16) (hW : V c (Pipeline.arrRef spec1 1) = WT)
    (t : Fin cfg1.N) (a b : Fin 64) : wblk V c t (ix2 a b) = WT (ix2 a b) := by
  obtain ⟨-, -, e2, e3, -⟩ := block_index t
  show V c (Pipeline.arrRef spec1 1) (((cfg1.win 1).blk t).view.emb (ix2 a b)) = WT (ix2 a b)
  rw [hW]
  congr 1
  funext d; apply Fin.ext
  match d with
  | ⟨0, _⟩ => show win1_1.index t (0 : Fin 2) * 64 + 1 * a.val = a.val; omega
  | ⟨1, _⟩ => show win1_1.index t (1 : Fin 2) * 64 + 1 * b.val = b.val; omega

/-- The bias block at any point is the bias array. -/
theorem bblk_apply (c : Dev nD) (B : FVec Ideal S64 .f32) (hB : V c (Pipeline.arrRef spec1 2) = B)
    (t : Fin cfg1.N) (k : Fin 64) : bblk V c t (ix1 k) = B (ix1 k) := by
  obtain ⟨-, -, -, -, e4, -⟩ := block_index t
  show V c (Pipeline.arrRef spec1 2) (((cfg1.win 2).blk t).view.emb (ix1 k)) = B (ix1 k)
  rw [hB]
  congr 1
  funext d; apply Fin.ext
  match d with
  | ⟨0, _⟩ => show win1_2.index t (0 : Fin 1) * 64 + 1 * k.val = k.val; omega

/-- The stage's payload at an entry of a block is the linear map of the block's row. -/
theorem pay_apply (v0 : Vec Ideal S10000x64 .f32) (v2 : Vec Ideal S64x64 .bf16) (v5 : Vec Ideal S64 .f32) (r : Fin 10000) (j : Fin 64) :
    k1_pay1 (F := Ideal) v0 v2 v5 (ix2 r j)
      = linRow (fun k => v0 (ix2 r k)) (fun a b => v2 (ix2 a b)) (fun k => v5 (ix1 k)) j :=
  Pay.lin_pay v0 v2 v5 r j

/-- Entry `(r, q)` of the output block at point `t` is entry `(10000 t + r, q)` of the output array. -/
theorem out_emb (t : Fin cfg1.N) (r : Fin 10000) (q : Fin 64) (R : Fin 100000) (hR : R.val = t.val * 10000 + r.val) :
    ((cfg1.win 3).blk t).view.emb (ix2 r q) = (ix2 R q : S100000x64.Idx) := by
  obtain ⟨-, -, -, -, -, e5, e6⟩ := block_index t
  funext a; apply Fin.ext
  match a with
  | ⟨0, _⟩ => show win1_3.index t (0 : Fin 2) * 10000 + 1 * r.val = R.val; omega
  | ⟨1, _⟩ => show win1_3.index t (1 : Fin 2) * 64 + 1 * q.val = q.val; omega

/-- What point `t` writes back is block `t` of `linArr` of the three arrays as the stage finds them. -/
theorem flushed_eq (c : Dev nD) (X : FVec Ideal S100000x64 .f32) (WT : FVec Ideal S64x64 .bf16) (B : FVec Ideal S64 .f32)
    (hX : V c (Pipeline.arrRef spec1 0) = X) (hW : V c (Pipeline.arrRef spec1 1) = WT) (hB : V c (Pipeline.arrRef spec1 2) = B)
    (t : Fin cfg1.N) :
    (dat1 (F := Ideal) V c).flushed 3 t = ((cfg1.win 3).blk t).view.read (Elt Ideal) (linArr (n := 100000) X WT B) := by
  show (cfg1.win 3).cut (grid1.coords t) ((dat1 (F := Ideal) V c).after 3 t) = _
  rw [after1_3]
  unfold out1_3
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  have hlt : t.val < 10 := lt_of_lt_of_eq t.isLt N_1
  have hR : (⟨t.val * 10000 + r.val, by omega⟩ : Fin 100000).val = t.val * 10000 + r.val := rfl
  show k1_pay1 (F := Ideal) (xblk V c t) (wblk V c t) (bblk V c t) (ix2 r q)
    = linArr (n := 100000) X WT B (((cfg1.win 3).blk t).view.emb (ix2 r q))
  rw [out_emb t r q _ hR]
  refine (pay_apply (xblk V c t) (wblk V c t) (bblk V c t) r q).trans ?_
  show linRow _ _ _ q = linRow _ _ _ q
  congr 1
  · funext k; exact xblk_apply V c X hX t r k _ hR
  · funext a b; exact wblk_apply V c WT hW t a b
  · funext k; exact bblk_apply V c B hB t k

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole (Pipeline.arrRef spec1 3)).slice (win1_3.rect t)).set ↔ _
  rw [View.set_slice_whole, Rect.mem_set_unit]
  exact Iff.rfl

/-- Every row of the output array is in some point's block: row `R` in block `R / 10000`. -/
theorem cover (i : S100000x64.Idx) : ∃ t : Fin cfg1.N, (cfg1.win 3).flush t = true ∧ i ∈ ((cfg1.win 3).blk t).view.set := by
  have h0 : (i 0).val < 100000 := idx2_lt0 i
  have h1 : (i 1).val < 64 := idx2_lt1 i
  refine ⟨⟨(i 0).val / 10000, by rw [show cfg1.N = 10 from N_1]; omega⟩, flush1_3 _, ?_⟩
  rw [mem_blk]
  obtain ⟨-, -, -, -, -, e5, e6⟩ := block_index ⟨(i 0).val / 10000, by rw [show cfg1.N = 10 from N_1]; omega⟩
  intro a
  match a with
  | ⟨0, _⟩ =>
    show win1_3.index _ (0 : Fin 2) * 10000 ≤ (i 0).val ∧ (i 0).val < win1_3.index _ (0 : Fin 2) * 10000 + 10000
    rw [e5]; show (i 0).val / 10000 * 10000 ≤ (i 0).val ∧ (i 0).val < (i 0).val / 10000 * 10000 + 10000; omega
  | ⟨1, _⟩ =>
    show win1_3.index _ (1 : Fin 2) * 64 ≤ (i 1).val ∧ (i 1).val < win1_3.index _ (1 : Fin 2) * 64 + 64
    rw [e6]; omega

/-- THE OUTPUT ARRAY after the stage: every row of the node array through the linear map. -/
theorem reg1_value (c : Dev nD) (X : FVec Ideal S100000x64 .f32) (WT : FVec Ideal S64x64 .bf16) (B : FVec Ideal S64 .f32)
    (hX : V c (Pipeline.arrRef spec1 0) = X) (hW : V c (Pipeline.arrRef spec1 1) = WT) (hB : V c (Pipeline.arrRef spec1 2) = B) :
    (dat1 (F := Ideal) V c).arrAt 3 cfg1.N = linArr (n := 100000) X WT B :=
  (dat1 (F := Ideal) V c).arrAt_eq_of_cover 3 (linArr (n := 100000) X WT B)
    (fun t _ => flushed_eq V c X WT B hX hW hB t) cover

end Cert.KernelIdeal.Reg1

end
-- ==== Proof.KReg2.lean ====
/-
  The output projection of one edge type, as a whole array.

  The stage walks the node rows in ten blocks of 10000. At a block it multiplies the block's rows of the linear
  stage's output by the node part of the projection weight, the same rows of the aggregated messages by the
  aggregated part, adds the two products and the two biases, row by row, and writes the block of results back to
  the same rows of the output array; the two weights and the two biases are read whole at every block. Row `R`
  of the output is therefore written by the block `R / 10000`, from row `R` of the two row arrays, and after the
  last block the output array holds `projArrK` of the six input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg2

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the two row blocks and the output block are block `t` of their arrays
    (rows `10000 t …`, every column); the two weights and the two biases are read whole at every point. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- The six input blocks at a point, each at its literal type. -/
abbrev xlblk (c : Dev nD) (t : Fin cfg2.N) : Vec Ideal S10000x64 .f32 := iblk2 V c 0 t
abbrev hblk (c : Dev nD) (t : Fin cfg2.N) : Vec Ideal S10000x128 .f32 := iblk2 V c 1 t
abbrev wxlblk (c : Dev nD) (t : Fin cfg2.N) : Vec Ideal S64x64 .bf16 := iblk2 V c 2 t
abbrev whblk (c : Dev nD) (t : Fin cfg2.N) : Vec Ideal S128x64 .bf16 := iblk2 V c 3 t
abbrev pbblk (c : Dev nD) (t : Fin cfg2.N) : Vec Ideal S64 .f32 := iblk2 V c 4 t
abbrev bbblk (c : Dev nD) (t : Fin cfg2.N) : Vec Ideal S64 .f32 := iblk2 V c 5 t

/-- Row `r` of the node-part block at point `t` is row `10000 t + r` of its array. -/
theorem xlblk_apply (c : Dev nD) (XL : FVec Ideal S100000x64 .f32) (h0 : V c (Pipeline.arrRef spec2 0) = XL)
    (t : Fin cfg2.N) (r : Fin 10000) (k : Fin 64) (R : Fin 100000) (hR : R.val = t.val * 10000 + r.val) :
    xlblk V c t (ix2 r k) = XL (ix2 R k) := by
  obtain ⟨e0, e1, -⟩ := block_index t
  show V c (Pipeline.arrRef spec2 0) (((cfg2.win 0).blk t).view.emb (ix2 r k)) = XL (ix2 R k)
  rw [h0]
  congr 1
  funext a; apply Fin.ext
  match a with
  | ⟨0, _⟩ => show win2_0.index t (0 : Fin 2) * 10000 + 1 * r.val = R.val; omega
  | ⟨1, _⟩ => show win2_0.index t (1 : Fin 2) * 64 + 1 * k.val = k.val; omega

/-- Row `r` of the aggregated block at point `t` is row `10000 t + r` of the aggregated array. -/
theorem hblk_apply (c : Dev nD) (H : FVec Ideal S100000x128 .f32) (h1 : V c (Pipeline.arrRef spec2 1) = H)
    (t : Fin cfg2.N) (r : Fin 10000) (k : Fin 128) (R : Fin 100000) (hR : R.val = t.val * 10000 + r.val) :
    hblk V c t (ix2 r k) = H (ix2 R k) := by
  obtain ⟨-, -, e2, e3, -⟩ := block_index t
  show V c (Pipeline.arrRef spec2 1) (((cfg2.win 1).blk t).view.emb (ix2 r k)) = H (ix2 R k)
  rw [h1]
  congr 1
  funext a; apply Fin.ext
  match a with
  | ⟨0, _⟩ => show win2_1.index t (0 : Fin 2) * 10000 + 1 * r.val = R.val; omega
  | ⟨1, _⟩ => show win2_1.index t (1 : Fin 2) * 128 + 1 * k.val = k.val; omega

/-- The node-part weight's block at any point is the weight array. -/
theorem wxlblk_apply (c : Dev nD) (WXL : FVec Ideal S64x64 .bf16) (h2 : V c (Pipeline.arrRef spec2 2) = WXL)
    (t : Fin cfg2.N) (a b : Fin 64) : wxlblk V c t (ix2 a b) = WXL (ix2 a b) := by
  obtain ⟨-, -, -, -, e4, e5, -⟩ := block_index t
  show V c (Pipeline.arrRef spec2 2) (((cfg2.win 2).blk t).view.emb (ix2 a b)) = WXL (ix2 a b)
  rw [h2]
  congr 1
  funext d; apply Fin.ext
  match d with
  | ⟨0, _⟩ => show win2_2.index t (0 : Fin 2) * 64 + 1 * a.val = a.val; omega
  | ⟨1, _⟩ => show win2_2.index t (1 : Fin 2) * 64 + 1 * b.val = b.val; omega

/-- The aggregated-part weight's block at any point is the weight array. -/
theorem whblk_apply (c : Dev nD) (WH : FVec Ideal S128x64 .bf16) (h3 : V c (Pipeline.arrRef spec2 3) = WH)
    (t : Fin cfg2.N) (a : Fin 128) (b : Fin 64) : whblk V c t (ix2 a b) = WH (ix2 a b) := by
  obtain ⟨-, -, -, -, -, -, e6, e7, -⟩ := block_index t
  show V c (Pipeline.arrRef spec2 3) (((cfg2.win 3).blk t).view.emb (ix2 a b)) = WH (ix2 a b)
  rw [h3]
  congr 1
  funext d; apply Fin.ext
  match d with
  | ⟨0, _⟩ => show win2_3.index t (0 : Fin 2) * 128 + 1 * a.val = a.val; omega
  | ⟨1, _⟩ => show win2_3.index t (1 : Fin 2) * 64 + 1 * b.val = b.val; omega

/-- The projection bias's block at any point is the bias array. -/
theorem pbblk_apply (c : Dev nD) (PB : FVec Ideal S64 .f32) (h4 : V c (Pipeline.arrRef spec2 4) = PB)
    (t : Fin cfg2.N) (k : Fin 64) : pbblk V c t (ix1 k) = PB (ix1 k) := by
  obtain ⟨-, -, -, -, -, -, -, -, e8, -⟩ := block_index t
  show V c (Pipeline.arrRef spec2 4) (((cfg2.win 4).blk t).view.emb (ix1 k)) = PB (ix1 k)
  rw [h4]
  congr 1
  funext d; apply Fin.ext
  match d with
  | ⟨0, _⟩ => show win2_4.index t (0 : Fin 1) * 64 + 1 * k.val = k.val; omega

/-- The layer bias's block at any point is the bias array. -/
theorem bbblk_apply (c : Dev nD) (BB : FVec Ideal S64 .f32) (h5 : V c (Pipeline.arrRef spec2 5) = BB)
    (t : Fin cfg2.N) (k : Fin 64) : bbblk V c t (ix1 k) = BB (ix1 k) := by
  obtain ⟨-, -, -, -, -, -, -, -, -, e9, -⟩ := block_index t
  show V c (Pipeline.arrRef spec2 5) (((cfg2.win 5).blk t).view.emb (ix1 k)) = BB (ix1 k)
  rw [h5]
  congr 1
  funext d; apply Fin.ext
  match d with
  | ⟨0, _⟩ => show win2_5.index t (0 : Fin 1) * 64 + 1 * k.val = k.val; omega

/-- The stage's payload at an entry of a block is the projection of the two blocks' rows. -/
theorem pay_apply (v0 : Vec Ideal S10000x64 .f32) (v3 : Vec Ideal S10000x128 .f32) (v6 : Vec Ideal S64x64 .bf16)
    (v8 : Vec Ideal S128x64 .bf16) (v13 v18 : Vec Ideal S64 .f32) (r : Fin 10000) (j : Fin 64) :
    k2_pay1 (F := Ideal) v0 v3 v6 v8 v13 v18 (ix2 r j)
      = projRowK (fun k => v0 (ix2 r k)) (fun k => v3 (ix2 r k)) (fun a b => v6 (ix2 a b)) (fun a b => v8 (ix2 a b))
          (fun k => v13 (ix1 k)) (fun k => v18 (ix1 k)) j :=
  Pay.proj_pay v0 v3 v6 v8 v13 v18 r j

/-- Entry `(r, q)` of the output block at point `t` is entry `(10000 t + r, q)` of the output array. -/
theorem out_emb (t : Fin cfg2.N) (r : Fin 10000) (q : Fin 64) (R : Fin 100000) (hR : R.val = t.val * 10000 + r.val) :
    ((cfg2.win 6).blk t).view.emb (ix2 r q) = (ix2 R q : S100000x64.Idx) := by
  obtain ⟨-, -, -, -, -, -, -, -, -, -, e10, e11⟩ := block_index t
  funext a; apply Fin.ext
  match a with
  | ⟨0, _⟩ => show win2_6.index t (0 : Fin 2) * 10000 + 1 * r.val = R.val; omega
  | ⟨1, _⟩ => show win2_6.index t (1 : Fin 2) * 64 + 1 * q.val = q.val; omega

/-- What point `t` writes back is block `t` of `projArrK` of the six arrays as the stage finds them. -/
theorem flushed_eq (c : Dev nD) (XL : FVec Ideal S100000x64 .f32) (H : FVec Ideal S100000x128 .f32) (WXL : FVec Ideal S64x64 .bf16)
    (WH : FVec Ideal S128x64 .bf16) (PB BB : FVec Ideal S64 .f32)
    (h0 : V c (Pipeline.arrRef spec2 0) = XL) (h1 : V c (Pipeline.arrRef spec2 1) = H) (h2 : V c (Pipeline.arrRef spec2 2) = WXL)
    (h3 : V c (Pipeline.arrRef spec2 3) = WH) (h4 : V c (Pipeline.arrRef spec2 4) = PB) (h5 : V c (Pipeline.arrRef spec2 5) = BB)
    (t : Fin cfg2.N) :
    (dat2 (F := Ideal) V c).flushed 6 t = ((cfg2.win 6).blk t).view.read (Elt Ideal) (projArrK (n := 100000) XL H WXL WH PB BB) := by
  show (cfg2.win 6).cut (grid2.coords t) ((dat2 (F := Ideal) V c).after 6 t) = _
  rw [after2_6]
  unfold out2_6
  rw [View.canon_unit_zero zero2]
  simp only [View.ld_unit_zero (S := S10000x64) zero2, View.ld_unit_zero (S := S10000x128) zero2, View.ld_unit_zero (S := S64x64) zero2,
    View.ld_unit_zero (S := S128x64) zero2, View.ld_unit_zero (S := S64) zero1]
  funext j
  obtain ⟨r, q, rfl⟩ : ∃ (r : Fin 10000) (q : Fin 64), j = ix2 r q := ⟨j 0, j 1, eq_ix2 j⟩
  have hlt : t.val < 10 := lt_of_lt_of_eq t.isLt N_2
  have hR : (⟨t.val * 10000 + r.val, by omega⟩ : Fin 100000).val = t.val * 10000 + r.val := rfl
  show k2_pay1 (F := Ideal) (xlblk V c t) (hblk V c t) (wxlblk V c t) (whblk V c t) (pbblk V c t) (bbblk V c t) (ix2 r q)
    = projArrK (n := 100000) XL H WXL WH PB BB (((cfg2.win 6).blk t).view.emb (ix2 r q))
  rw [out_emb t r q _ hR]
  refine (pay_apply (xlblk V c t) (hblk V c t) (wxlblk V c t) (whblk V c t) (pbblk V c t) (bbblk V c t) r q).trans ?_
  show projRowK _ _ _ _ _ _ q = projRowK _ _ _ _ _ _ q
  congr 1
  · funext k; exact xlblk_apply V c XL h0 t r k _ hR
  · funext k; exact hblk_apply V c H h1 t r k _ hR
  · funext a b; exact wxlblk_apply V c WXL h2 t a b
  · funext a b; exact whblk_apply V c WH h3 t a b
  · funext k; exact pbblk_apply V c PB h4 t k
  · funext k; exact bbblk_apply V c BB h5 t k

/-- An index of the output array is in point `t`'s block iff each coordinate is in the block's range on its axis. -/
theorem mem_blk (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole (Pipeline.arrRef spec2 6)).slice (win2_6.rect t)).set ↔ _
  rw [View.set_slice_whole, Rect.mem_set_unit]
  exact Iff.rfl

/-- Every row of the output array is in some point's block: row `R` in block `R / 10000`. -/
theorem cover (i : S100000x64.Idx) : ∃ t : Fin cfg2.N, (cfg2.win 6).flush t = true ∧ i ∈ ((cfg2.win 6).blk t).view.set := by
  have h0 : (i 0).val < 100000 := idx2_lt0 i
  have h1 : (i 1).val < 64 := idx2_lt1 i
  refine ⟨⟨(i 0).val / 10000, by rw [show cfg2.N = 10 from N_2]; omega⟩, flush2_6 _, ?_⟩
  rw [mem_blk]
  obtain ⟨-, -, -, -, -, -, -, -, -, -, e10, e11⟩ := block_index ⟨(i 0).val / 10000, by rw [show cfg2.N = 10 from N_2]; omega⟩
  intro a
  match a with
  | ⟨0, _⟩ =>
    show win2_6.index _ (0 : Fin 2) * 10000 ≤ (i 0).val ∧ (i 0).val < win2_6.index _ (0 : Fin 2) * 10000 + 10000
    rw [e10]; show (i 0).val / 10000 * 10000 ≤ (i 0).val ∧ (i 0).val < (i 0).val / 10000 * 10000 + 10000; omega
  | ⟨1, _⟩ =>
    show win2_6.index _ (1 : Fin 2) * 64 ≤ (i 1).val ∧ (i 1).val < win2_6.index _ (1 : Fin 2) * 64 + 64
    rw [e11]; omega

/-- THE OUTPUT ARRAY after the stage: every node row, beside its aggregated row, through the projection. -/
theorem reg2_value (c : Dev nD) (XL : FVec Ideal S100000x64 .f32) (H : FVec Ideal S100000x128 .f32) (WXL : FVec Ideal S64x64 .bf16)
    (WH : FVec Ideal S128x64 .bf16) (PB BB : FVec Ideal S64 .f32)
    (h0 : V c (Pipeline.arrRef spec2 0) = XL) (h1 : V c (Pipeline.arrRef spec2 1) = H) (h2 : V c (Pipeline.arrRef spec2 2) = WXL)
    (h3 : V c (Pipeline.arrRef spec2 3) = WH) (h4 : V c (Pipeline.arrRef spec2 4) = PB) (h5 : V c (Pipeline.arrRef spec2 5) = BB) :
    (dat2 (F := Ideal) V c).arrAt 6 cfg2.N = projArrK (n := 100000) XL H WXL WH PB BB :=
  (dat2 (F := Ideal) V c).arrAt_eq_of_cover 6 (projArrK (n := 100000) XL H WXL WH PB BB)
    (fun t _ => flushed_eq V c XL H WXL WH PB BB h0 h1 h2 h3 h4 h5 t) cover

end Cert.KernelIdeal.Reg2

end
-- ==== Proof.KT0.lean ====
/-
  The first edge type through the idealized kernel's program: what its buffers hold at the boundaries between
  the host stretches and the three kernel regions, read back to the program's arguments.

  The boundary contents are a fold through @main. At each region's entry the region's operand arrays are host
  operations of the arguments (index vectors and weights cut out of the stacked inputs, weights transposed);
  at its exit the output array is the region's row-wise function of them. Chaining the edge network, the
  node-linear map, the aggregation on the host and the projection gives the type's output as `kOut` of the
  arguments' pieces; the zero array the running sum starts from is carried along unchanged.
-/
import proofs.«410647_j53395033423884_2_alg».proof.Proof.Gen.KernelIdeal.Frame
import proofs.«410647_j53395033423884_2_alg».proof.Proof.KS
import proofs.«410647_j53395033423884_2_alg».proof.Proof.KArgs
import proofs.«410647_j53395033423884_2_alg».proof.Proof.KReg0
import proofs.«410647_j53395033423884_2_alg».proof.Proof.KReg1
import proofs.«410647_j53395033423884_2_alg».proof.Proof.KReg2

set_option maxRecDepth 16384

noncomputable section

namespace Cert.KernelIdeal.KT0

open Idealize.ShloMosaic Idealize.ShloMosaic.TcCoe Idealize.SL.Sem
open Cert.KernelIdeal Cert.KernelIdeal.Gen Cert.KernelIdeal.KVal Cert.KernelIdeal.KCut Cert.KernelIdeal.Take Cert.PreIdx Cert.Rows

variable (m : (ℓ : Loc nD τ sig) → Buf (Elt Ideal) ℓ) (ρ : Dev nD → PrngReg) (c : Dev nD)

/-! ## The type's operands, cut from the arguments -/

abbrev x : FVec Ideal S100000x64 .f32 := m ((c : Thread nD τ).loc main_arg0)
abbrev src : IVec S500000 32 := idxVec_0_0 (m ((c : Thread nD τ).loc main_arg1))
abbrev dst : IVec S500000 32 := idxVec_0_1 (m ((c : Thread nD τ).loc main_arg1))
abbrev lw : FVec Ideal S64x64 .f32 := cut3 (F := Ideal) ![0, 0, 0] slices_S4x64x64_S1x64x64_0_0_0 (m ((c : Thread nD τ).loc main_arg2))
abbrev lb : FVec Ideal S64 .f32 := cut2 (F := Ideal) ![0, 0] slices_S4x64_S1x64_0_0 (m ((c : Thread nD τ).loc main_arg3))
abbrev w0 : FVec Ideal S64x64 .f32 := cut3 (F := Ideal) ![0, 0, 0] slices_S4x64x64_S1x64x64_0_0_0 (m ((c : Thread nD τ).loc main_arg4))
abbrev b0 : FVec Ideal S64 .f32 := cut2 (F := Ideal) ![0, 0] slices_S4x64_S1x64_0_0 (m ((c : Thread nD τ).loc main_arg5))
abbrev g : FVec Ideal S64 .f32 := cut2 (F := Ideal) ![0, 0] slices_S4x64_S1x64_0_0 (m ((c : Thread nD τ).loc main_arg6))
abbrev be : FVec Ideal S64 .f32 := cut2 (F := Ideal) ![0, 0] slices_S4x64_S1x64_0_0 (m ((c : Thread nD τ).loc main_arg7))
abbrev w1 : FVec Ideal S64x64 .f32 := cut3 (F := Ideal) ![0, 0, 0] slices_S4x64x64_S1x64x64_0_0_0 (m ((c : Thread nD τ).loc main_arg8))
abbrev b1 : FVec Ideal S64 .f32 := cut2 (F := Ideal) ![0, 0] slices_S4x64_S1x64_0_0 (m ((c : Thread nD τ).loc main_arg9))
abbrev pw : FVec Ideal S64x192 .f32 := cutP (F := Ideal) ![0, 0, 0] slices_S4x64x192_S1x64x192_0_0_0 (m ((c : Thread nD τ).loc main_arg10))
abbrev pb : FVec Ideal S64 .f32 := cut2 (F := Ideal) ![0, 0] slices_S4x64_S1x64_0_0 (m ((c : Thread nD τ).loc main_arg11))
abbrev bb : FVec Ideal S64 .f32 := cut2 (F := Ideal) ![0, 0] slices_S4x64_S1x64_0_0 (m ((c : Thread nD τ).loc main_arg12))

/-- The running sum as this type finds it: zero. -/
abbrev accVal (_m : (ℓ : Loc nD τ sig) → Buf (Elt Ideal) ℓ) (_c : Dev nD) : FVec Ideal S100000x64 .f32 := broadcastInDim S100000x64 ![] bcast_S_S100000x64 (constant (F := Ideal) S_ .f32 0x00000000#32)
/-- This type's output. -/
abbrev outVal : FVec Ideal S100000x64 .f32 :=
  kOut (x m c) (src m c) (dst m c) (lw m c) (lb m c) (w0 m c) (b0 m c) (g m c) (be m c) (w1 m c) (b1 m c) (pw m c) (pb m c) (bb m c)

/-! ## The edge network (region 0) -/

/-- The edge network's output array: every edge's attribute row through the network. -/
theorem e_val : W5 m ρ c (Proc.devRef .tc main_v27)
    = kE (x m c) (src m c) (dst m c) (w0 m c) (b0 m c) (g m c) (be m c) (w1 m c) (b1 m c) := by
  unfold kE
  exact (W5_arr m ρ c 7).trans (Reg0.reg0_value (V4 m ρ) c _ _ _ _ _ _ _
    (KS.A0_v10 (W0 m ρ c)) (KS.A0_v14 (W0 m ρ c)) (KS.A0_v20 (W0 m ρ c)) (KS.A0_v24 (W0 m ρ c))
    (KS.A0_v26 (W0 m ρ c)) (KS.A0_v18 (W0 m ρ c)) (KS.A0_v22 (W0 m ρ c)))

/-- The index vectors and the zero array pass the region untouched. -/
theorem src5 : W5 m ρ c (Proc.devRef .tc main_v4) = src m c :=
  (W5_of_ne m ρ c main_v4 (by decide)).trans (KS.A0_v4 (W0 m ρ c))
theorem dst5 : W5 m ρ c (Proc.devRef .tc main_v6) = dst m c :=
  (W5_of_ne m ρ c main_v6 (by decide)).trans (KS.A0_v6 (W0 m ρ c))
theorem acc5 : W5 m ρ c (Proc.devRef .tc main_v0) = accVal m c :=
  (W5_of_ne m ρ c main_v0 (by decide)).trans (KS.A0_v0 (W0 m ρ c))

/-! ## The node-linear map (region 1) -/

theorem xl_val : W7 m ρ c (Proc.devRef .tc main_v34) = kXl (x m c) (lw m c) (lb m c) := by
  unfold kXl
  refine (W7_arr m ρ c 3).trans (Reg1.reg1_value (V6 m ρ) c _ _ _ ?_ ?_ ?_)
  · exact (KS.B0_keep_arg0 (W5 m ρ c)).trans (KArgs.W5_arg0 m ρ c)
  · exact (KS.B0_v31 (W5 m ρ c)).trans (by rw [KArgs.W5_arg2 m ρ c])
  · exact (KS.B0_v33 (W5 m ρ c)).trans (by rw [KArgs.W5_arg3 m ρ c])

theorem e7 : W7 m ρ c (Proc.devRef .tc main_v27)
    = kE (x m c) (src m c) (dst m c) (w0 m c) (b0 m c) (g m c) (be m c) (w1 m c) (b1 m c) :=
  (W7_of_ne m ρ c main_v27 (by decide)).trans ((KS.B0_keep_v27 (W5 m ρ c)).trans (e_val m ρ c))
theorem src7 : W7 m ρ c (Proc.devRef .tc main_v4) = src m c :=
  (W7_of_ne m ρ c main_v4 (by decide)).trans ((KS.B0_keep_v4 (W5 m ρ c)).trans (src5 m ρ c))
theorem dst7 : W7 m ρ c (Proc.devRef .tc main_v6) = dst m c :=
  (W7_of_ne m ρ c main_v6 (by decide)).trans ((KS.B0_keep_v6 (W5 m ρ c)).trans (dst5 m ρ c))
theorem acc7 : W7 m ρ c (Proc.devRef .tc main_v0) = accVal m c :=
  (W7_of_ne m ρ c main_v0 (by decide)).trans ((KS.B0_keep_v0 (W5 m ρ c)).trans (acc5 m ρ c))

/-! ## The aggregation on the host and the projection (region 2) -/

theorem out_val : W10 m ρ c (Proc.devRef .tc main_v50) = outVal m c := by
  unfold outVal kOut
  refine (W10_arr m ρ c 6).trans (Reg2.reg2_value (V9 m ρ) c _ _ _ _ _ _ ?_ ?_ ?_ ?_ ?_ ?_)
  · exact (KS.C0_keep_v34 (W7 m ρ c)).trans (xl_val m ρ c)
  · exact (KS.C0_v39 (W7 m ρ c)).trans (by rw [xl_val m ρ c, e7 m ρ c, src7 m ρ c, dst7 m ρ c])
  · exact (KS.C0_v44 (W7 m ρ c)).trans (by rw [KArgs.W7_arg10 m ρ c])
  · exact (KS.C0_v45 (W7 m ρ c)).trans (by rw [KArgs.W7_arg10 m ρ c])
  · exact (KS.C0_v47 (W7 m ρ c)).trans (by rw [KArgs.W7_arg11 m ρ c])
  · exact (KS.C0_v49 (W7 m ρ c)).trans (by rw [KArgs.W7_arg12 m ρ c])

/-- The zero array the running sum starts from, at the type's end. -/
theorem acc_end : W10 m ρ c (Proc.devRef .tc main_v0) = accVal m c :=
  (W10_of_ne m ρ c main_v0 (by decide)).trans ((KS.C0_keep_v0 (W7 m ρ c)).trans (acc7 m ρ c))

end Cert.KernelIdeal.KT0

end
-- ==== Proof.KTake1.lean ====
/- The three row-takings of the second edge type, each read as `takeFill`: the node features' rows at the type's
  source positions and at its destination positions, and the rows of the node-linear image at the source positions.
  Each is the fold of its 23 host operations from any contents `V`, read at the result buffer: a function of the
  table's and the position vector's contents in `V` alone.
-/
import proofs.«410647_j53395033423884_2_alg».proof.Proof.Gen.KernelIdeal.Launch
import proofs.«410647_j53395033423884_2_alg».proof.Proof.TakeMask
import Idealize.ShloMosaic.Lib.StableHlo.Run

set_option maxRecDepth 16384
set_option Elab.async false

noncomputable section

namespace Cert.KernelIdeal.KTake

open Cert.KernelIdeal Cert.KernelIdeal.Gen Cert.KernelIdeal.Take
open Idealize.ShloMosaic

variable {F : FTy → Type} [FloatOps F]

set_option maxHeartbeats 4000000 in
/-- The node features' rows at the source positions. -/
theorem take1_src (V : Valuation τ sig (Elt F)) :
    StableHlo.after (hostOps3_1 (F := F)) V (Proc.devRef .tc main_v58)
      = takeFill (V (Proc.devRef .tc main_arg0)) (V (Proc.devRef .tc main_v55)) := by
  simp only [hostOps3_1]; after_results_simp
  simp only [StableHlo.TRef.ofBuf, StableHlo.TRef.toBuf, cast_eq]
  rfl

set_option maxHeartbeats 4000000 in
/-- The node features' rows at the destination positions. -/
theorem take1_dst (V : Valuation τ sig (Elt F)) :
    StableHlo.after (hostOps3_2 (F := F)) V (Proc.devRef .tc main_v59)
      = takeFill (V (Proc.devRef .tc main_arg0)) (V (Proc.devRef .tc main_v57)) := by
  simp only [hostOps3_2]; after_results_simp
  simp only [StableHlo.TRef.ofBuf, StableHlo.TRef.toBuf, cast_eq]
  rfl

set_option maxHeartbeats 4000000 in
/-- The node-linear image's rows at the source positions. -/
theorem take1_xl (V : Valuation τ sig (Elt F)) :
    StableHlo.after (hostOps5 (F := F)) V (Proc.devRef .tc main_v86)
      = takeFill (V (Proc.devRef .tc main_v85)) (V (Proc.devRef .tc main_v55)) := by
  simp only [hostOps5]; after_results_simp
  simp only [StableHlo.TRef.ofBuf, StableHlo.TRef.toBuf, cast_eq]
  rfl

end Cert.KernelIdeal.KTake
-- ==== Proof.KS1.lean ====
import proofs.«410647_j53395033423884_2_alg».proof.Proof.Gen.KernelIdeal.Launch
import proofs.«410647_j53395033423884_2_alg».proof.Proof.KVal
import proofs.«410647_j53395033423884_2_alg».proof.Proof.KCut
import proofs.«410647_j53395033423884_2_alg».proof.Proof.PreIdx
import proofs.«410647_j53395033423884_2_alg».proof.Proof.KTake1
import Idealize.ShloMosaic.Lib.StableHlo.Run

/-!
# The host stretches of one edge type, read as functions

Between two kernel launches the program runs a straight line of array operations. For one edge type the lines
are read here as functions of the arrays they start from:

* `A`: the index vectors cut out of the edge-index array, the two row reads of the node features and
  their absolute difference (the edge attributes), and the type's edge-network weights cut out of the
  stacked weights (matrices transposed);
* `B`: the node-linear weight and bias;
* `C`: the source rows of the node-linear output read, laid beside the edge-network output and added
  into the destination rows from zero, and the projection weight transposed and cut in its first 64 and last
  128 rows, with the two biases.

Each fact says what one array holds after the line, in terms of what the arrays held before it.
-/

set_option Elab.async false

noncomputable section

namespace Cert.KernelIdeal.KS

open Idealize.ShloMosaic Idealize.SL.Sem Idealize.ShloMosaic.TcCoe
open Cert.KernelIdeal Cert.KernelIdeal.Gen Cert.KernelIdeal.Take Cert.KernelIdeal.KCut Cert.KernelIdeal.KVal Cert.KernelIdeal.KTake Cert.PreIdx

/-! ## Type 1 -/

/-- The line before the edge network's launch. -/
abbrev A1 (V : Valuation τ sig (Elt Ideal)) : Valuation τ sig (Elt Ideal) :=
  StableHlo.after hostOps3_3 (StableHlo.after hostOps3_2 (StableHlo.after hostOps3_1 (StableHlo.after hostOps3 V)))

/-- The line before the node-linear launch. -/
abbrev B1 (V : Valuation τ sig (Elt Ideal)) : Valuation τ sig (Elt Ideal) :=
  StableHlo.after hostOps4 V

/-- The line before the projection's launch. -/
abbrev C1 (V : Valuation τ sig (Elt Ideal)) : Valuation τ sig (Elt Ideal) :=
  StableHlo.after hostOps5_1 (StableHlo.after hostOps5 V)

/-! The edge attributes, stretch by stretch: the index vectors, the two row reads, the absolute difference. -/

theorem A1z_keep_arg0 (W : Valuation τ sig (Elt Ideal)) :
    StableHlo.after hostOps3 W (Proc.devRef .tc main_arg0) = W (Proc.devRef .tc main_arg0) := by
  simp only [hostOps3]
  after_results_simp

theorem A1z_v55 (W : Valuation τ sig (Elt Ideal)) :
    StableHlo.after hostOps3 W (Proc.devRef .tc main_v55) = idxVec_1_0 (W (Proc.devRef .tc main_arg1)) := by
  simp only [hostOps3]
  after_results_simp
  rfl

theorem A1z_v57 (W : Valuation τ sig (Elt Ideal)) :
    StableHlo.after hostOps3 W (Proc.devRef .tc main_v57) = idxVec_1_1 (W (Proc.devRef .tc main_arg1)) := by
  simp only [hostOps3]
  after_results_simp
  rfl

set_option maxHeartbeats 4000000 in
theorem A1a_keep_arg0 (W : Valuation τ sig (Elt Ideal)) :
    StableHlo.after hostOps3_1 W (Proc.devRef .tc main_arg0) = W (Proc.devRef .tc main_arg0) := by
  simp only [hostOps3_1]
  after_results_simp

set_option maxHeartbeats 4000000 in
theorem A1a_keep_v57 (W : Valuation τ sig (Elt Ideal)) :
    StableHlo.after hostOps3_1 W (Proc.devRef .tc main_v57) = W (Proc.devRef .tc main_v57) := by
  simp only [hostOps3_1]
  after_results_simp

set_option maxHeartbeats 4000000 in
theorem A1b_keep_v58 (W : Valuation τ sig (Elt Ideal)) :
    StableHlo.after hostOps3_2 W (Proc.devRef .tc main_v58) = W (Proc.devRef .tc main_v58) := by
  simp only [hostOps3_2]
  after_results_simp

theorem A1c_v61 (W : Valuation τ sig (Elt Ideal)) :
    StableHlo.after hostOps3_3 W (Proc.devRef .tc main_v61)
      = Host.absf (subf (F := Ideal) (s := S500000x64) (φ := .f32) (W (Proc.devRef .tc main_v58)) (W (Proc.devRef .tc main_v59))) := by
  simp only [hostOps3_3]
  after_results_simp

theorem A1_v61 (V : Valuation τ sig (Elt Ideal)) :
    A1 V (Proc.devRef .tc main_v61)
      = kEa (V (Proc.devRef .tc main_arg0)) (idxVec_1_0 (V (Proc.devRef .tc main_arg1))) (idxVec_1_1 (V (Proc.devRef .tc main_arg1))) := by
  show StableHlo.after hostOps3_3 (StableHlo.after hostOps3_2 (StableHlo.after hostOps3_1 (StableHlo.after hostOps3 V)))
    (Proc.devRef .tc main_v61) = _
  rw [A1c_v61, A1b_keep_v58, take1_src, take1_dst, A1a_keep_arg0, A1a_keep_v57, A1z_keep_arg0, A1z_v55, A1z_v57]
  rfl

set_option maxHeartbeats 4000000 in
theorem A1_v65 (V : Valuation τ sig (Elt Ideal)) :
    A1 V (Proc.devRef .tc main_v65) = kWT (cut3 (F := Ideal) ![1, 0, 0] slices_S4x64x64_S1x64x64_1_0_0 (V (Proc.devRef .tc main_arg4))) := by
  simp only [A1, hostOps3, hostOps3_1, hostOps3_2, hostOps3_3]
  after_results_simp
  rfl

set_option maxHeartbeats 4000000 in
theorem A1_v69 (V : Valuation τ sig (Elt Ideal)) :
    A1 V (Proc.devRef .tc main_v69) = kWT (cut3 (F := Ideal) ![1, 0, 0] slices_S4x64x64_S1x64x64_1_0_0 (V (Proc.devRef .tc main_arg8))) := by
  simp only [A1, hostOps3, hostOps3_1, hostOps3_2, hostOps3_3]
  after_results_simp
  rfl

set_option maxHeartbeats 4000000 in
theorem A1_v71 (V : Valuation τ sig (Elt Ideal)) :
    A1 V (Proc.devRef .tc main_v71) = cut2 (F := Ideal) ![1, 0] slices_S4x64_S1x64_1_0 (V (Proc.devRef .tc main_arg5)) := by
  simp only [A1, hostOps3, hostOps3_1, hostOps3_2, hostOps3_3]
  after_results_simp
  rfl

set_option maxHeartbeats 4000000 in
theorem A1_v73 (V : Valuation τ sig (Elt Ideal)) :
    A1 V (Proc.devRef .tc main_v73) = cut2 (F := Ideal) ![1, 0] slices_S4x64_S1x64_1_0 (V (Proc.devRef .tc main_arg9)) := by
  simp only [A1, hostOps3, hostOps3_1, hostOps3_2, hostOps3_3]
  after_results_simp
  rfl

set_option maxHeartbeats 4000000 in
theorem A1_v75 (V : Valuation τ sig (Elt Ideal)) :
    A1 V (Proc.devRef .tc main_v75) = cut2 (F := Ideal) ![1, 0] slices_S4x64_S1x64_1_0 (V (Proc.devRef .tc main_arg6)) := by
  simp only [A1, hostOps3, hostOps3_1, hostOps3_2, hostOps3_3]
  after_results_simp
  rfl

set_option maxHeartbeats 4000000 in
theorem A1_v77 (V : Valuation τ sig (Elt Ideal)) :
    A1 V (Proc.devRef .tc main_v77) = cut2 (F := Ideal) ![1, 0] slices_S4x64_S1x64_1_0 (V (Proc.devRef .tc main_arg7)) := by
  simp only [A1, hostOps3, hostOps3_1, hostOps3_2, hostOps3_3]
  after_results_simp
  rfl

set_option maxHeartbeats 4000000 in
theorem A1_v55 (V : Valuation τ sig (Elt Ideal)) :
    A1 V (Proc.devRef .tc main_v55) = idxVec_1_0 (V (Proc.devRef .tc main_arg1)) := by
  simp only [A1, hostOps3, hostOps3_1, hostOps3_2, hostOps3_3]
  after_results_simp
  rfl

set_option maxHeartbeats 4000000 in
theorem A1_v57 (V : Valuation τ sig (Elt Ideal)) :
    A1 V (Proc.devRef .tc main_v57) = idxVec_1_1 (V (Proc.devRef .tc main_arg1)) := by
  simp only [A1, hostOps3, hostOps3_1, hostOps3_2, hostOps3_3]
  after_results_simp
  rfl

set_option maxHeartbeats 4000000 in
theorem A1_v51 (V : Valuation τ sig (Elt Ideal)) :
    A1 V (Proc.devRef .tc main_v51)
      = addf (F := Ideal) (s := S100000x64) (φ := .f32) (V (Proc.devRef .tc main_v0)) (V (Proc.devRef .tc main_v50)) := by
  simp only [A1, hostOps3, hostOps3_1, hostOps3_2, hostOps3_3]
  after_results_simp

set_option maxHeartbeats 4000000 in
theorem B1_v82 (V : Valuation τ sig (Elt Ideal)) :
    B1 V (Proc.devRef .tc main_v82) = kWT (cut3 (F := Ideal) ![1, 0, 0] slices_S4x64x64_S1x64x64_1_0_0 (V (Proc.devRef .tc main_arg2))) := by
  simp only [B1, hostOps4]
  after_results_simp
  rfl

set_option maxHeartbeats 4000000 in
theorem B1_v84 (V : Valuation τ sig (Elt Ideal)) :
    B1 V (Proc.devRef .tc main_v84) = cut2 (F := Ideal) ![1, 0] slices_S4x64_S1x64_1_0 (V (Proc.devRef .tc main_arg3)) := by
  simp only [B1, hostOps4]
  after_results_simp
  rfl

theorem B1_keep_arg0 (V : Valuation τ sig (Elt Ideal)) :
    B1 V (Proc.devRef .tc main_arg0) = V (Proc.devRef .tc main_arg0) := by
  simp only [B1, hostOps4]
  after_results_simp

theorem B1_keep_v55 (V : Valuation τ sig (Elt Ideal)) :
    B1 V (Proc.devRef .tc main_v55) = V (Proc.devRef .tc main_v55) := by
  simp only [B1, hostOps4]
  after_results_simp

theorem B1_keep_v57 (V : Valuation τ sig (Elt Ideal)) :
    B1 V (Proc.devRef .tc main_v57) = V (Proc.devRef .tc main_v57) := by
  simp only [B1, hostOps4]
  after_results_simp

theorem B1_keep_v78 (V : Valuation τ sig (Elt Ideal)) :
    B1 V (Proc.devRef .tc main_v78) = V (Proc.devRef .tc main_v78) := by
  simp only [B1, hostOps4]
  after_results_simp

theorem B1_keep_v51 (V : Valuation τ sig (Elt Ideal)) :
    B1 V (Proc.devRef .tc main_v51) = V (Proc.devRef .tc main_v51) := by
  simp only [B1, hostOps4]
  after_results_simp

/-! The aggregated rows, stretch by stretch: the source rows read, then laid beside the edge-network output
and added into the destination rows from zero. -/

set_option maxHeartbeats 4000000 in
theorem C1a_keep_v78 (W : Valuation τ sig (Elt Ideal)) :
    StableHlo.after hostOps5 W (Proc.devRef .tc main_v78) = W (Proc.devRef .tc main_v78) := by
  simp only [hostOps5]
  after_results_simp

set_option maxHeartbeats 4000000 in
theorem C1a_keep_v57 (W : Valuation τ sig (Elt Ideal)) :
    StableHlo.after hostOps5 W (Proc.devRef .tc main_v57) = W (Proc.devRef .tc main_v57) := by
  simp only [hostOps5]
  after_results_simp

theorem C1b_v90 (W : Valuation τ sig (Elt Ideal)) :
    StableHlo.after hostOps5_1 W (Proc.devRef .tc main_v90)
      = Host.scatterAdd (F := Ideal) scatter_S100000x128_S500000x1_S500000x128_1_0_0_1
          (broadcastInDim S100000x128 ![] bcast_S_S100000x128 (constant (F := Ideal) S_ .f32 0x00000000#32))
          (broadcastInDim S500000x1 ![0] bcast_S500000_S500000x1_0 (W (Proc.devRef .tc main_v57)))
          (concatenate S500000x128 1 [⟨S500000x64, W (Proc.devRef .tc main_v86)⟩, ⟨S500000x64, W (Proc.devRef .tc main_v78)⟩]
            concatenates_S500000x64_S500000x64_S500000x128_d1) := by
  simp only [hostOps5_1]
  after_results_simp

theorem C1_v90 (V : Valuation τ sig (Elt Ideal)) :
    C1 V (Proc.devRef .tc main_v90)
      = kH (V (Proc.devRef .tc main_v85)) (V (Proc.devRef .tc main_v78)) (V (Proc.devRef .tc main_v55)) (V (Proc.devRef .tc main_v57)) := by
  show StableHlo.after hostOps5_1 (StableHlo.after hostOps5 V) (Proc.devRef .tc main_v90) = _
  rw [C1b_v90, C1a_keep_v78, C1a_keep_v57, take1_xl]
  rfl

set_option maxHeartbeats 4000000 in
theorem C1_v95 (V : Valuation τ sig (Elt Ideal)) :
    C1 V (Proc.devRef .tc main_v95)
      = extractStridedSlice S64x64 ![0, 0]
          (kPWT (cutP (F := Ideal) ![1, 0, 0] slices_S4x64x192_S1x64x192_1_0_0 (V (Proc.devRef .tc main_arg10)))) slices_S192x64_S64x64_0_0 := by
  simp only [C1, hostOps5, hostOps5_1]
  after_results_simp
  rfl

set_option maxHeartbeats 4000000 in
theorem C1_v96 (V : Valuation τ sig (Elt Ideal)) :
    C1 V (Proc.devRef .tc main_v96)
      = extractStridedSlice S128x64 ![64, 0]
          (kPWT (cutP (F := Ideal) ![1, 0, 0] slices_S4x64x192_S1x64x192_1_0_0 (V (Proc.devRef .tc main_arg10)))) slices_S192x64_S128x64_64_0 := by
  simp only [C1, hostOps5, hostOps5_1]
  after_results_simp
  rfl

set_option maxHeartbeats 4000000 in
theorem C1_v98 (V : Valuation τ sig (Elt Ideal)) :
    C1 V (Proc.devRef .tc main_v98) = cut2 (F := Ideal) ![1, 0] slices_S4x64_S1x64_1_0 (V (Proc.devRef .tc main_arg11)) := by
  simp only [C1, hostOps5, hostOps5_1]
  after_results_simp
  rfl

set_option maxHeartbeats 4000000 in
theorem C1_v100 (V : Valuation τ sig (Elt Ideal)) :
    C1 V (Proc.devRef .tc main_v100) = cut2 (F := Ideal) ![1, 0] slices_S4x64_S1x64_1_0 (V (Proc.devRef .tc main_arg12)) := by
  simp only [C1, hostOps5, hostOps5_1]
  after_results_simp
  rfl

set_option maxHeartbeats 4000000 in
theorem C1_keep_v85 (V : Valuation τ sig (Elt Ideal)) :
    C1 V (Proc.devRef .tc main_v85) = V (Proc.devRef .tc main_v85) := by
  simp only [C1, hostOps5, hostOps5_1]
  after_results_simp

set_option maxHeartbeats 4000000 in
theorem C1_keep_v51 (V : Valuation τ sig (Elt Ideal)) :
    C1 V (Proc.devRef .tc main_v51) = V (Proc.devRef .tc main_v51) := by
  simp only [C1, hostOps5, hostOps5_1]
  after_results_simp

end Cert.KernelIdeal.KS

end
-- ==== Proof.KReg3.lean ====
/-
  The edge network of one edge type, as a whole array.

  The stage walks the edge-attribute array in fifty blocks of 10000 rows. At a block it sends each row through the
  two-layer edge network (affine map, positive part, LayerNorm over the 64 hidden entries, second affine map) and
  writes the block of results back to the same rows of the output array; the two weights, the two biases, the gain
  and the shift are read whole at every block. Row `R` of the output is therefore written by the block
  `R / 10000`, from row `R` of the attribute array, and after the last block the output array holds `edgeArr` of the
  seven input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg3

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the attribute block and the output block are block `t` of their arrays
    (rows `10000 t …`, all 64 columns); the six small arrays are read whole at every point. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0 ∧ win3_3.index t (0 : Fin 1) = 0 ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

/-- The seven input blocks at a point, each at its literal type. -/
abbrev eablk (c : Dev nD) (t : Fin cfg3.N) : Vec Ideal S10000x64 .f32 := iblk3 V c 0 t
abbrev w0blk (c : Dev nD) (t : Fin cfg3.N) : Vec Ideal S64x64 .bf16 := iblk3 V c 1 t
abbrev b0blk (c : Dev nD) (t : Fin cfg3.N) : Vec Ideal S64 .f32 := iblk3 V c 2 t
abbrev gblk (c : Dev nD) (t : Fin cfg3.N) : Vec Ideal S64 .f32 := iblk3 V c 3 t
abbrev beblk (c : Dev nD) (t : Fin cfg3.N) : Vec Ideal S64 .f32 := iblk3 V c 4 t
abbrev w1blk (c : Dev nD) (t : Fin cfg3.N) : Vec Ideal S64x64 .bf16 := iblk3 V c 5 t
abbrev b1blk (c : Dev nD) (t : Fin cfg3.N) : Vec Ideal S64 .f32 := iblk3 V c 6 t

/-- Row `r` of the attribute block at point `t` is row `10000 t + r` of the attribute array. -/
theorem eablk_apply (c : Dev nD) (EA : FVec Ideal S500000x64 .f32) (h0 : V c (Pipeline.arrRef spec3 0) = EA)
    (t : Fin cfg3.N) (r : Fin 10000) (k : Fin 64) (R : Fin 500000) (hR : R.val = t.val * 10000 + r.val) :
    eablk V c t (ix2 r k) = EA (ix2 R k) := by
  obtain ⟨e0, e1, -⟩ := block_index t
  show V c (Pipeline.arrRef spec3 0) (((cfg3.win 0).blk t).view.emb (ix2 r k)) = EA (ix2 R k)
  rw [h0]
  congr 1
  funext a; apply Fin.ext
  match a with
  | ⟨0, _⟩ => show win3_0.index t (0 : Fin 2) * 10000 + 1 * r.val = R.val; omega
  | ⟨1, _⟩ => show win3_0.index t (1 : Fin 2) * 64 + 1 * k.val = k.val; omega

/-- The first weight's block at any point is the weight array. -/
theorem w0blk_apply (c : Dev nD) (W0T : FVec Ideal S64x64 .bf16) (h1 : V c (Pipeline.arrRef spec3 1) = W0T)
    (t : Fin cfg3.N) (a b : Fin 64) : w0blk V c t (ix2 a b) = W0T (ix2 a b) := by
  obtain ⟨-, -, e2, e3, -⟩ := block_index t
  show V c (Pipeline.arrRef spec3 1) (((cfg3.win 1).blk t).view.emb (ix2 a b)) = W0T (ix2 a b)
  rw [h1]
  congr 1
  funext d; apply Fin.ext
  match d with
  | ⟨0, _⟩ => show win3_1.index t (0 : Fin 2) * 64 + 1 * a.val = a.val; omega
  | ⟨1, _⟩ => show win3_1.index t (1 : Fin 2) * 64 + 1 * b.val = b.val; omega

/-- The first bias's block at any point is the bias array. -/
theorem b0blk_apply (c : Dev nD) (B0 : FVec Ideal S64 .f32) (h2 : V c (Pipeline.arrRef spec3 2) = B0)
    (t : Fin cfg3.N) (k : Fin 64) : b0blk V c t (ix1 k) = B0 (ix1 k) := by
  obtain ⟨-, -, -, -, e4, -⟩ := block_index t
  show V c (Pipeline.arrRef spec3 2) (((cfg3.win 2).blk t).view.emb (ix1 k)) = B0 (ix1 k)
  rw [h2]
  congr 1
  funext d; apply Fin.ext
  match d with
  | ⟨0, _⟩ => show win3_2.index t (0 : Fin 1) * 64 + 1 * k.val = k.val; omega

/-- The gain's block at any point is the gain array. -/
theorem gblk_apply (c : Dev nD) (G : FVec Ideal S64 .f32) (h3 : V c (Pipeline.arrRef spec3 3) = G)
    (t : Fin cfg3.N) (k : Fin 64) : gblk V c t (ix1 k) = G (ix1 k) := by
  obtain ⟨-, -, -, -, -, e5, -⟩ := block_index t
  show V c (Pipeline.arrRef spec3 3) (((cfg3.win 3).blk t).view.emb (ix1 k)) = G (ix1 k)
  rw [h3]
  congr 1
  funext d; apply Fin.ext
  match d with
  | ⟨0, _⟩ => show win3_3.index t (0 : Fin 1) * 64 + 1 * k.val = k.val; omega

/-- The shift's block at any point is the shift array. -/
theorem beblk_apply (c : Dev nD) (BE : FVec Ideal S64 .f32) (h4 : V c (Pipeline.arrRef spec3 4) = BE)
    (t : Fin cfg3.N) (k : Fin 64) : beblk V c t (ix1 k) = BE (ix1 k) := by
  obtain ⟨-, -, -, -, -, -, e6, -⟩ := block_index t
  show V c (Pipeline.arrRef spec3 4) (((cfg3.win 4).blk t).view.emb (ix1 k)) = BE (ix1 k)
  rw [h4]
  congr 1
  funext d; apply Fin.ext
  match d with
  | ⟨0, _⟩ => show win3_4.index t (0 : Fin 1) * 64 + 1 * k.val = k.val; omega

/-- The second weight's block at any point is the weight array. -/
theorem w1blk_apply (c : Dev nD) (W1T : FVec Ideal S64x64 .bf16) (h5 : V c (Pipeline.arrRef spec3 5) = W1T)
    (t : Fin cfg3.N) (a b : Fin 64) : w1blk V c t (ix2 a b) = W1T (ix2 a b) := by
  obtain ⟨-, -, -, -, -, -, -, e7, e8, -⟩ := block_index t
  show V c (Pipeline.arrRef spec3 5) (((cfg3.win 5).blk t).view.emb (ix2 a b)) = W1T (ix2 a b)
  rw [h5]
  congr 1
  funext d; apply Fin.ext
  match d with
  | ⟨0, _⟩ => show win3_5.index t (0 : Fin 2) * 64 + 1 * a.val = a.val; omega
  | ⟨1, _⟩ => show win3_5.index t (1 : Fin 2) * 64 + 1 * b.val = b.val; omega

/-- The second bias's block at any point is the bias array. -/
theorem b1blk_apply (c : Dev nD) (B1 : FVec Ideal S64 .f32) (h6 : V c (Pipeline.arrRef spec3 6) = B1)
    (t : Fin cfg3.N) (k : Fin 64) : b1blk V c t (ix1 k) = B1 (ix1 k) := by
  obtain ⟨-, -, -, -, -, -, -, -, -, e9, -⟩ := block_index t
  show V c (Pipeline.arrRef spec3 6) (((cfg3.win 6).blk t).view.emb (ix1 k)) = B1 (ix1 k)
  rw [h6]
  congr 1
  funext d; apply Fin.ext
  match d with
  | ⟨0, _⟩ => show win3_6.index t (0 : Fin 1) * 64 + 1 * k.val = k.val; omega

/-- The stage's payload at an entry of a block is the edge network of the block's row. -/
theorem pay_apply (v0 : Vec Ideal S10000x64 .f32) (v3 : Vec Ideal S64x64 .bf16) (v6 v31 v36 : Vec Ideal S64 .f32)
    (v42 : Vec Ideal S64x64 .bf16) (v45 : Vec Ideal S64 .f32) (r : Fin 10000) (j : Fin 64) :
    k3_pay1 (F := Ideal) (k3_pay2 v0 v3 v6 v31 v36) v42 v45 (ix2 r j)
      = edgeRow (fun c => v0 (ix2 r c)) (fun a b => v3 (ix2 a b)) (fun k => v6 (ix1 k)) (fun k => v31 (ix1 k))
          (fun k => v36 (ix1 k)) (fun a b => v42 (ix2 a b)) (fun k => v45 (ix1 k)) j :=
  by rw [Pay.k3_pay1_eq, Pay.k3_pay2_eq]; exact Pay.edge_pay v0 v3 v6 v31 v36 v42 v45 r j

/-- Entry `(r, q)` of the output block at point `t` is entry `(10000 t + r, q)` of the output array. -/
theorem out_emb (t : Fin cfg3.N) (r : Fin 10000) (q : Fin 64) (R : Fin 500000) (hR : R.val = t.val * 10000 + r.val) :
    ((cfg3.win 7).blk t).view.emb (ix2 r q) = (ix2 R q : S500000x64.Idx) := by
  obtain ⟨-, -, -, -, -, -, -, -, -, -, e10, e11⟩ := block_index t
  funext a; apply Fin.ext
  match a with
  | ⟨0, _⟩ => show win3_7.index t (0 : Fin 2) * 10000 + 1 * r.val = R.val; omega
  | ⟨1, _⟩ => show win3_7.index t (1 : Fin 2) * 64 + 1 * q.val = q.val; omega

/-- What point `t` writes back is block `t` of `edgeArr` of the seven arrays as the stage finds them. -/
theorem flushed_eq (c : Dev nD) (EA : FVec Ideal S500000x64 .f32) (W0T : FVec Ideal S64x64 .bf16) (B0 G BE : FVec Ideal S64 .f32)
    (W1T : FVec Ideal S64x64 .bf16) (B1 : FVec Ideal S64 .f32)
    (h0 : V c (Pipeline.arrRef spec3 0) = EA) (h1 : V c (Pipeline.arrRef spec3 1) = W0T) (h2 : V c (Pipeline.arrRef spec3 2) = B0)
    (h3 : V c (Pipeline.arrRef spec3 3) = G) (h4 : V c (Pipeline.arrRef spec3 4) = BE) (h5 : V c (Pipeline.arrRef spec3 5) = W1T)
    (h6 : V c (Pipeline.arrRef spec3 6) = B1) (t : Fin cfg3.N) :
    (dat3 (F := Ideal) V c).flushed 7 t = ((cfg3.win 7).blk t).view.read (Elt Ideal) (edgeArr (n := 500000) EA W0T B0 G BE W1T B1) := by
  show (cfg3.win 7).cut (grid3.coords t) ((dat3 (F := Ideal) V c).after 7 t) = _
  rw [after3_7]
  unfold out3_7
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  have hlt : t.val < 50 := lt_of_lt_of_eq t.isLt N_3
  have hR : (⟨t.val * 10000 + r.val, by omega⟩ : Fin 500000).val = t.val * 10000 + r.val := rfl
  show k3_pay1 (F := Ideal) (k3_pay2 (eablk V c t) (w0blk V c t) (b0blk V c t) (gblk V c t) (beblk V c t)) (w1blk V c t) (b1blk V c t) (ix2 r q)
    = edgeArr (n := 500000) EA W0T B0 G BE W1T B1 (((cfg3.win 7).blk t).view.emb (ix2 r q))
  rw [out_emb t r q _ hR]
  refine (pay_apply (eablk V c t) (w0blk V c t) (b0blk V c t) (gblk V c t) (beblk V c t) (w1blk V c t) (b1blk V c t) r q).trans ?_
  show edgeRow _ _ _ _ _ _ _ q = edgeRow _ _ _ _ _ _ _ q
  congr 1
  · funext k; exact eablk_apply V c EA h0 t r k _ hR
  · funext a b; exact w0blk_apply V c W0T h1 t a b
  · funext k; exact b0blk_apply V c B0 h2 t k
  · funext k; exact gblk_apply V c G h3 t k
  · funext k; exact beblk_apply V c BE h4 t k
  · funext a b; exact w1blk_apply V c W1T h5 t a b
  · funext k; exact b1blk_apply V c B1 h6 t k

/-- An index of the output array is in point `t`'s block iff each coordinate is in the block's range on its axis. -/
theorem mem_blk (t : Fin cfg3.N) (i : S500000x64.Idx) :
    i ∈ ((cfg3.win 7).blk t).view.set ↔ ∀ a : Fin 2, win3_7.index t a * S10000x64.size a ≤ (i a).val ∧ (i a).val < win3_7.index t a * S10000x64.size a + S10000x64.size a := by
  show i ∈ ((View.whole (Pipeline.arrRef spec3 7)).slice (win3_7.rect t)).set ↔ _
  rw [View.set_slice_whole, Rect.mem_set_unit]
  exact Iff.rfl

/-- Every row of the output array is in some point's block: row `R` in block `R / 10000`. -/
theorem cover (i : S500000x64.Idx) : ∃ t : Fin cfg3.N, (cfg3.win 7).flush t = true ∧ i ∈ ((cfg3.win 7).blk t).view.set := by
  have h0 : (i 0).val < 500000 := idx2_lt0 i
  have h1 : (i 1).val < 64 := idx2_lt1 i
  refine ⟨⟨(i 0).val / 10000, by rw [show cfg3.N = 50 from N_3]; omega⟩, flush3_7 _, ?_⟩
  rw [mem_blk]
  obtain ⟨-, -, -, -, -, -, -, -, -, -, e10, e11⟩ := block_index ⟨(i 0).val / 10000, by rw [show cfg3.N = 50 from N_3]; omega⟩
  intro a
  match a with
  | ⟨0, _⟩ =>
    show win3_7.index _ (0 : Fin 2) * 10000 ≤ (i 0).val ∧ (i 0).val < win3_7.index _ (0 : Fin 2) * 10000 + 10000
    rw [e10]; show (i 0).val / 10000 * 10000 ≤ (i 0).val ∧ (i 0).val < (i 0).val / 10000 * 10000 + 10000; omega
  | ⟨1, _⟩ =>
    show win3_7.index _ (1 : Fin 2) * 64 ≤ (i 1).val ∧ (i 1).val < win3_7.index _ (1 : Fin 2) * 64 + 64
    rw [e11]; omega

/-- THE OUTPUT ARRAY after the stage: every row of the attribute array through the edge network. -/
theorem reg3_value (c : Dev nD) (EA : FVec Ideal S500000x64 .f32) (W0T : FVec Ideal S64x64 .bf16) (B0 G BE : FVec Ideal S64 .f32)
    (W1T : FVec Ideal S64x64 .bf16) (B1 : FVec Ideal S64 .f32)
    (h0 : V c (Pipeline.arrRef spec3 0) = EA) (h1 : V c (Pipeline.arrRef spec3 1) = W0T) (h2 : V c (Pipeline.arrRef spec3 2) = B0)
    (h3 : V c (Pipeline.arrRef spec3 3) = G) (h4 : V c (Pipeline.arrRef spec3 4) = BE) (h5 : V c (Pipeline.arrRef spec3 5) = W1T)
    (h6 : V c (Pipeline.arrRef spec3 6) = B1) :
    (dat3 (F := Ideal) V c).arrAt 7 cfg3.N = edgeArr (n := 500000) EA W0T B0 G BE W1T B1 :=
  (dat3 (F := Ideal) V c).arrAt_eq_of_cover 7 (edgeArr (n := 500000) EA W0T B0 G BE W1T B1)
    (fun t _ => flushed_eq V c EA W0T B0 G BE W1T B1 h0 h1 h2 h3 h4 h5 h6 t) cover

end Cert.KernelIdeal.Reg3

end
-- ==== Proof.KReg4.lean ====
/-
  The linear stage of one edge type, as a whole array.

  The stage walks the node array in ten blocks of 10000 rows. At a block it multiplies the block's rows by the
  transposed weight and adds the bias, row by row, and writes the block of results back to the same rows of the
  output array. Row `R` of the output is therefore written by the block `R / 10000`, from row `R` of the node
  array and the whole weight and bias, and after the last block the output array holds `linArr` of the three
  input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg4

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the node block and the output block are block `t` of their arrays
    (rows `10000 t …`, all 64 columns); the weight and the bias are read whole at every point. -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The three input blocks at a point, each at its literal type. -/
abbrev xblk (c : Dev nD) (t : Fin cfg4.N) : Vec Ideal S10000x64 .f32 := iblk4 V c 0 t
abbrev wblk (c : Dev nD) (t : Fin cfg4.N) : Vec Ideal S64x64 .bf16 := iblk4 V c 1 t
abbrev bblk (c : Dev nD) (t : Fin cfg4.N) : Vec Ideal S64 .f32 := iblk4 V c 2 t

/-- Row `r` of the node block at point `t` is row `10000 t + r` of the node array. -/
theorem xblk_apply (c : Dev nD) (X : FVec Ideal S100000x64 .f32) (hX : V c (Pipeline.arrRef spec4 0) = X)
    (t : Fin cfg4.N) (r : Fin 10000) (k : Fin 64) (R : Fin 100000) (hR : R.val = t.val * 10000 + r.val) :
    xblk V c t (ix2 r k) = X (ix2 R k) := by
  obtain ⟨e0, e1, -⟩ := block_index t
  show V c (Pipeline.arrRef spec4 0) (((cfg4.win 0).blk t).view.emb (ix2 r k)) = X (ix2 R k)
  rw [hX]
  congr 1
  funext a; apply Fin.ext
  match a with
  | ⟨0, _⟩ => show win4_0.index t (0 : Fin 2) * 10000 + 1 * r.val = R.val; omega
  | ⟨1, _⟩ => show win4_0.index t (1 : Fin 2) * 64 + 1 * k.val = k.val; omega

/-- The weight block at any point is the weight array. -/
theorem wblk_apply (c : Dev nD) (WT : FVec Ideal S64x64 .bf16) (hW : V c (Pipeline.arrRef spec4 1) = WT)
    (t : Fin cfg4.N) (a b : Fin 64) : wblk V c t (ix2 a b) = WT (ix2 a b) := by
  obtain ⟨-, -, e2, e3, -⟩ := block_index t
  show V c (Pipeline.arrRef spec4 1) (((cfg4.win 1).blk t).view.emb (ix2 a b)) = WT (ix2 a b)
  rw [hW]
  congr 1
  funext d; apply Fin.ext
  match d with
  | ⟨0, _⟩ => show win4_1.index t (0 : Fin 2) * 64 + 1 * a.val = a.val; omega
  | ⟨1, _⟩ => show win4_1.index t (1 : Fin 2) * 64 + 1 * b.val = b.val; omega

/-- The bias block at any point is the bias array. -/
theorem bblk_apply (c : Dev nD) (B : FVec Ideal S64 .f32) (hB : V c (Pipeline.arrRef spec4 2) = B)
    (t : Fin cfg4.N) (k : Fin 64) : bblk V c t (ix1 k) = B (ix1 k) := by
  obtain ⟨-, -, -, -, e4, -⟩ := block_index t
  show V c (Pipeline.arrRef spec4 2) (((cfg4.win 2).blk t).view.emb (ix1 k)) = B (ix1 k)
  rw [hB]
  congr 1
  funext d; apply Fin.ext
  match d with
  | ⟨0, _⟩ => show win4_2.index t (0 : Fin 1) * 64 + 1 * k.val = k.val; omega

/-- The stage's payload at an entry of a block is the linear map of the block's row. -/
theorem pay_apply (v0 : Vec Ideal S10000x64 .f32) (v2 : Vec Ideal S64x64 .bf16) (v5 : Vec Ideal S64 .f32) (r : Fin 10000) (j : Fin 64) :
    k4_pay1 (F := Ideal) v0 v2 v5 (ix2 r j)
      = linRow (fun k => v0 (ix2 r k)) (fun a b => v2 (ix2 a b)) (fun k => v5 (ix1 k)) j :=
  by rw [Pay.k4_pay1_eq]; exact Pay.lin_pay v0 v2 v5 r j

/-- Entry `(r, q)` of the output block at point `t` is entry `(10000 t + r, q)` of the output array. -/
theorem out_emb (t : Fin cfg4.N) (r : Fin 10000) (q : Fin 64) (R : Fin 100000) (hR : R.val = t.val * 10000 + r.val) :
    ((cfg4.win 3).blk t).view.emb (ix2 r q) = (ix2 R q : S100000x64.Idx) := by
  obtain ⟨-, -, -, -, -, e5, e6⟩ := block_index t
  funext a; apply Fin.ext
  match a with
  | ⟨0, _⟩ => show win4_3.index t (0 : Fin 2) * 10000 + 1 * r.val = R.val; omega
  | ⟨1, _⟩ => show win4_3.index t (1 : Fin 2) * 64 + 1 * q.val = q.val; omega

/-- What point `t` writes back is block `t` of `linArr` of the three arrays as the stage finds them. -/
theorem flushed_eq (c : Dev nD) (X : FVec Ideal S100000x64 .f32) (WT : FVec Ideal S64x64 .bf16) (B : FVec Ideal S64 .f32)
    (hX : V c (Pipeline.arrRef spec4 0) = X) (hW : V c (Pipeline.arrRef spec4 1) = WT) (hB : V c (Pipeline.arrRef spec4 2) = B)
    (t : Fin cfg4.N) :
    (dat4 (F := Ideal) V c).flushed 3 t = ((cfg4.win 3).blk t).view.read (Elt Ideal) (linArr (n := 100000) X WT B) := by
  show (cfg4.win 3).cut (grid4.coords t) ((dat4 (F := Ideal) V c).after 3 t) = _
  rw [after4_3]
  unfold out4_3
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  have hlt : t.val < 10 := lt_of_lt_of_eq t.isLt N_4
  have hR : (⟨t.val * 10000 + r.val, by omega⟩ : Fin 100000).val = t.val * 10000 + r.val := rfl
  show k4_pay1 (F := Ideal) (xblk V c t) (wblk V c t) (bblk V c t) (ix2 r q)
    = linArr (n := 100000) X WT B (((cfg4.win 3).blk t).view.emb (ix2 r q))
  rw [out_emb t r q _ hR]
  refine (pay_apply (xblk V c t) (wblk V c t) (bblk V c t) r q).trans ?_
  show linRow _ _ _ q = linRow _ _ _ q
  congr 1
  · funext k; exact xblk_apply V c X hX t r k _ hR
  · funext a b; exact wblk_apply V c WT hW t a b
  · funext k; exact bblk_apply V c B hB t k

/-- An index of the output array is in point `t`'s block iff each coordinate is in the block's range on its axis. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole (Pipeline.arrRef spec4 3)).slice (win4_3.rect t)).set ↔ _
  rw [View.set_slice_whole, Rect.mem_set_unit]
  exact Iff.rfl

/-- Every row of the output array is in some point's block: row `R` in block `R / 10000`. -/
theorem cover (i : S100000x64.Idx) : ∃ t : Fin cfg4.N, (cfg4.win 3).flush t = true ∧ i ∈ ((cfg4.win 3).blk t).view.set := by
  have h0 : (i 0).val < 100000 := idx2_lt0 i
  have h1 : (i 1).val < 64 := idx2_lt1 i
  refine ⟨⟨(i 0).val / 10000, by rw [show cfg4.N = 10 from N_4]; omega⟩, flush4_3 _, ?_⟩
  rw [mem_blk]
  obtain ⟨-, -, -, -, -, e5, e6⟩ := block_index ⟨(i 0).val / 10000, by rw [show cfg4.N = 10 from N_4]; omega⟩
  intro a
  match a with
  | ⟨0, _⟩ =>
    show win4_3.index _ (0 : Fin 2) * 10000 ≤ (i 0).val ∧ (i 0).val < win4_3.index _ (0 : Fin 2) * 10000 + 10000
    rw [e5]; show (i 0).val / 10000 * 10000 ≤ (i 0).val ∧ (i 0).val < (i 0).val / 10000 * 10000 + 10000; omega
  | ⟨1, _⟩ =>
    show win4_3.index _ (1 : Fin 2) * 64 ≤ (i 1).val ∧ (i 1).val < win4_3.index _ (1 : Fin 2) * 64 + 64
    rw [e6]; omega

/-- THE OUTPUT ARRAY after the stage: every row of the node array through the linear map. -/
theorem reg4_value (c : Dev nD) (X : FVec Ideal S100000x64 .f32) (WT : FVec Ideal S64x64 .bf16) (B : FVec Ideal S64 .f32)
    (hX : V c (Pipeline.arrRef spec4 0) = X) (hW : V c (Pipeline.arrRef spec4 1) = WT) (hB : V c (Pipeline.arrRef spec4 2) = B) :
    (dat4 (F := Ideal) V c).arrAt 3 cfg4.N = linArr (n := 100000) X WT B :=
  (dat4 (F := Ideal) V c).arrAt_eq_of_cover 3 (linArr (n := 100000) X WT B)
    (fun t _ => flushed_eq V c X WT B hX hW hB t) cover

end Cert.KernelIdeal.Reg4

end
-- ==== Proof.KReg5.lean ====
/-
  The output projection of one edge type, as a whole array.

  The stage walks the node rows in ten blocks of 10000. At a block it multiplies the block's rows of the linear
  stage's output by the node part of the projection weight, the same rows of the aggregated messages by the
  aggregated part, adds the two products and the two biases, row by row, and writes the block of results back to
  the same rows of the output array; the two weights and the two biases are read whole at every block. Row `R`
  of the output is therefore written by the block `R / 10000`, from row `R` of the two row arrays, and after the
  last block the output array holds `projArrK` of the six input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg5

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the two row blocks and the output block are block `t` of their arrays
    (rows `10000 t …`, every column); the two weights and the two biases are read whole at every point. -/
theorem block_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0 ∧ win5_5.index t (0 : Fin 1) = 0
    ∧ win5_6.index t (0 : Fin 2) = t.val ∧ win5_6.index t (1 : Fin 2) = 0 :=
  (by decide +kernel : ∀ t : Fin grid5.N, _)

/-- The six input blocks at a point, each at its literal type. -/
abbrev xlblk (c : Dev nD) (t : Fin cfg5.N) : Vec Ideal S10000x64 .f32 := iblk5 V c 0 t
abbrev hblk (c : Dev nD) (t : Fin cfg5.N) : Vec Ideal S10000x128 .f32 := iblk5 V c 1 t
abbrev wxlblk (c : Dev nD) (t : Fin cfg5.N) : Vec Ideal S64x64 .bf16 := iblk5 V c 2 t
abbrev whblk (c : Dev nD) (t : Fin cfg5.N) : Vec Ideal S128x64 .bf16 := iblk5 V c 3 t
abbrev pbblk (c : Dev nD) (t : Fin cfg5.N) : Vec Ideal S64 .f32 := iblk5 V c 4 t
abbrev bbblk (c : Dev nD) (t : Fin cfg5.N) : Vec Ideal S64 .f32 := iblk5 V c 5 t

/-- Row `r` of the node-part block at point `t` is row `10000 t + r` of its array. -/
theorem xlblk_apply (c : Dev nD) (XL : FVec Ideal S100000x64 .f32) (h0 : V c (Pipeline.arrRef spec5 0) = XL)
    (t : Fin cfg5.N) (r : Fin 10000) (k : Fin 64) (R : Fin 100000) (hR : R.val = t.val * 10000 + r.val) :
    xlblk V c t (ix2 r k) = XL (ix2 R k) := by
  obtain ⟨e0, e1, -⟩ := block_index t
  show V c (Pipeline.arrRef spec5 0) (((cfg5.win 0).blk t).view.emb (ix2 r k)) = XL (ix2 R k)
  rw [h0]
  congr 1
  funext a; apply Fin.ext
  match a with
  | ⟨0, _⟩ => show win5_0.index t (0 : Fin 2) * 10000 + 1 * r.val = R.val; omega
  | ⟨1, _⟩ => show win5_0.index t (1 : Fin 2) * 64 + 1 * k.val = k.val; omega

/-- Row `r` of the aggregated block at point `t` is row `10000 t + r` of the aggregated array. -/
theorem hblk_apply (c : Dev nD) (H : FVec Ideal S100000x128 .f32) (h1 : V c (Pipeline.arrRef spec5 1) = H)
    (t : Fin cfg5.N) (r : Fin 10000) (k : Fin 128) (R : Fin 100000) (hR : R.val = t.val * 10000 + r.val) :
    hblk V c t (ix2 r k) = H (ix2 R k) := by
  obtain ⟨-, -, e2, e3, -⟩ := block_index t
  show V c (Pipeline.arrRef spec5 1) (((cfg5.win 1).blk t).view.emb (ix2 r k)) = H (ix2 R k)
  rw [h1]
  congr 1
  funext a; apply Fin.ext
  match a with
  | ⟨0, _⟩ => show win5_1.index t (0 : Fin 2) * 10000 + 1 * r.val = R.val; omega
  | ⟨1, _⟩ => show win5_1.index t (1 : Fin 2) * 128 + 1 * k.val = k.val; omega

/-- The node-part weight's block at any point is the weight array. -/
theorem wxlblk_apply (c : Dev nD) (WXL : FVec Ideal S64x64 .bf16) (h2 : V c (Pipeline.arrRef spec5 2) = WXL)
    (t : Fin cfg5.N) (a b : Fin 64) : wxlblk V c t (ix2 a b) = WXL (ix2 a b) := by
  obtain ⟨-, -, -, -, e4, e5, -⟩ := block_index t
  show V c (Pipeline.arrRef spec5 2) (((cfg5.win 2).blk t).view.emb (ix2 a b)) = WXL (ix2 a b)
  rw [h2]
  congr 1
  funext d; apply Fin.ext
  match d with
  | ⟨0, _⟩ => show win5_2.index t (0 : Fin 2) * 64 + 1 * a.val = a.val; omega
  | ⟨1, _⟩ => show win5_2.index t (1 : Fin 2) * 64 + 1 * b.val = b.val; omega

/-- The aggregated-part weight's block at any point is the weight array. -/
theorem whblk_apply (c : Dev nD) (WH : FVec Ideal S128x64 .bf16) (h3 : V c (Pipeline.arrRef spec5 3) = WH)
    (t : Fin cfg5.N) (a : Fin 128) (b : Fin 64) : whblk V c t (ix2 a b) = WH (ix2 a b) := by
  obtain ⟨-, -, -, -, -, -, e6, e7, -⟩ := block_index t
  show V c (Pipeline.arrRef spec5 3) (((cfg5.win 3).blk t).view.emb (ix2 a b)) = WH (ix2 a b)
  rw [h3]
  congr 1
  funext d; apply Fin.ext
  match d with
  | ⟨0, _⟩ => show win5_3.index t (0 : Fin 2) * 128 + 1 * a.val = a.val; omega
  | ⟨1, _⟩ => show win5_3.index t (1 : Fin 2) * 64 + 1 * b.val = b.val; omega

/-- The projection bias's block at any point is the bias array. -/
theorem pbblk_apply (c : Dev nD) (PB : FVec Ideal S64 .f32) (h4 : V c (Pipeline.arrRef spec5 4) = PB)
    (t : Fin cfg5.N) (k : Fin 64) : pbblk V c t (ix1 k) = PB (ix1 k) := by
  obtain ⟨-, -, -, -, -, -, -, -, e8, -⟩ := block_index t
  show V c (Pipeline.arrRef spec5 4) (((cfg5.win 4).blk t).view.emb (ix1 k)) = PB (ix1 k)
  rw [h4]
  congr 1
  funext d; apply Fin.ext
  match d with
  | ⟨0, _⟩ => show win5_4.index t (0 : Fin 1) * 64 + 1 * k.val = k.val; omega

/-- The layer bias's block at any point is the bias array. -/
theorem bbblk_apply (c : Dev nD) (BB : FVec Ideal S64 .f32) (h5 : V c (Pipeline.arrRef spec5 5) = BB)
    (t : Fin cfg5.N) (k : Fin 64) : bbblk V c t (ix1 k) = BB (ix1 k) := by
  obtain ⟨-, -, -, -, -, -, -, -, -, e9, -⟩ := block_index t
  show V c (Pipeline.arrRef spec5 5) (((cfg5.win 5).blk t).view.emb (ix1 k)) = BB (ix1 k)
  rw [h5]
  congr 1
  funext d; apply Fin.ext
  match d with
  | ⟨0, _⟩ => show win5_5.index t (0 : Fin 1) * 64 + 1 * k.val = k.val; omega

/-- The stage's payload at an entry of a block is the projection of the two blocks' rows. -/
theorem pay_apply (v0 : Vec Ideal S10000x64 .f32) (v3 : Vec Ideal S10000x128 .f32) (v6 : Vec Ideal S64x64 .bf16)
    (v8 : Vec Ideal S128x64 .bf16) (v13 v18 : Vec Ideal S64 .f32) (r : Fin 10000) (j : Fin 64) :
    k5_pay1 (F := Ideal) v0 v3 v6 v8 v13 v18 (ix2 r j)
      = projRowK (fun k => v0 (ix2 r k)) (fun k => v3 (ix2 r k)) (fun a b => v6 (ix2 a b)) (fun a b => v8 (ix2 a b))
          (fun k => v13 (ix1 k)) (fun k => v18 (ix1 k)) j :=
  by rw [Pay.k5_pay1_eq]; exact Pay.proj_pay v0 v3 v6 v8 v13 v18 r j

/-- Entry `(r, q)` of the output block at point `t` is entry `(10000 t + r, q)` of the output array. -/
theorem out_emb (t : Fin cfg5.N) (r : Fin 10000) (q : Fin 64) (R : Fin 100000) (hR : R.val = t.val * 10000 + r.val) :
    ((cfg5.win 6).blk t).view.emb (ix2 r q) = (ix2 R q : S100000x64.Idx) := by
  obtain ⟨-, -, -, -, -, -, -, -, -, -, e10, e11⟩ := block_index t
  funext a; apply Fin.ext
  match a with
  | ⟨0, _⟩ => show win5_6.index t (0 : Fin 2) * 10000 + 1 * r.val = R.val; omega
  | ⟨1, _⟩ => show win5_6.index t (1 : Fin 2) * 64 + 1 * q.val = q.val; omega

/-- What point `t` writes back is block `t` of `projArrK` of the six arrays as the stage finds them. -/
theorem flushed_eq (c : Dev nD) (XL : FVec Ideal S100000x64 .f32) (H : FVec Ideal S100000x128 .f32) (WXL : FVec Ideal S64x64 .bf16)
    (WH : FVec Ideal S128x64 .bf16) (PB BB : FVec Ideal S64 .f32)
    (h0 : V c (Pipeline.arrRef spec5 0) = XL) (h1 : V c (Pipeline.arrRef spec5 1) = H) (h2 : V c (Pipeline.arrRef spec5 2) = WXL)
    (h3 : V c (Pipeline.arrRef spec5 3) = WH) (h4 : V c (Pipeline.arrRef spec5 4) = PB) (h5 : V c (Pipeline.arrRef spec5 5) = BB)
    (t : Fin cfg5.N) :
    (dat5 (F := Ideal) V c).flushed 6 t = ((cfg5.win 6).blk t).view.read (Elt Ideal) (projArrK (n := 100000) XL H WXL WH PB BB) := by
  show (cfg5.win 6).cut (grid5.coords t) ((dat5 (F := Ideal) V c).after 6 t) = _
  rw [after5_6]
  unfold out5_6
  rw [View.canon_unit_zero zero2]
  simp only [View.ld_unit_zero (S := S10000x64) zero2, View.ld_unit_zero (S := S10000x128) zero2, View.ld_unit_zero (S := S64x64) zero2,
    View.ld_unit_zero (S := S128x64) zero2, View.ld_unit_zero (S := S64) zero1]
  funext j
  obtain ⟨r, q, rfl⟩ : ∃ (r : Fin 10000) (q : Fin 64), j = ix2 r q := ⟨j 0, j 1, eq_ix2 j⟩
  have hlt : t.val < 10 := lt_of_lt_of_eq t.isLt N_5
  have hR : (⟨t.val * 10000 + r.val, by omega⟩ : Fin 100000).val = t.val * 10000 + r.val := rfl
  show k5_pay1 (F := Ideal) (xlblk V c t) (hblk V c t) (wxlblk V c t) (whblk V c t) (pbblk V c t) (bbblk V c t) (ix2 r q)
    = projArrK (n := 100000) XL H WXL WH PB BB (((cfg5.win 6).blk t).view.emb (ix2 r q))
  rw [out_emb t r q _ hR]
  refine (pay_apply (xlblk V c t) (hblk V c t) (wxlblk V c t) (whblk V c t) (pbblk V c t) (bbblk V c t) r q).trans ?_
  show projRowK _ _ _ _ _ _ q = projRowK _ _ _ _ _ _ q
  congr 1
  · funext k; exact xlblk_apply V c XL h0 t r k _ hR
  · funext k; exact hblk_apply V c H h1 t r k _ hR
  · funext a b; exact wxlblk_apply V c WXL h2 t a b
  · funext a b; exact whblk_apply V c WH h3 t a b
  · funext k; exact pbblk_apply V c PB h4 t k
  · funext k; exact bbblk_apply V c BB h5 t k

/-- An index of the output array is in point `t`'s block iff each coordinate is in the block's range on its axis. -/
theorem mem_blk (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole (Pipeline.arrRef spec5 6)).slice (win5_6.rect t)).set ↔ _
  rw [View.set_slice_whole, Rect.mem_set_unit]
  exact Iff.rfl

/-- Every row of the output array is in some point's block: row `R` in block `R / 10000`. -/
theorem cover (i : S100000x64.Idx) : ∃ t : Fin cfg5.N, (cfg5.win 6).flush t = true ∧ i ∈ ((cfg5.win 6).blk t).view.set := by
  have h0 : (i 0).val < 100000 := idx2_lt0 i
  have h1 : (i 1).val < 64 := idx2_lt1 i
  refine ⟨⟨(i 0).val / 10000, by rw [show cfg5.N = 10 from N_5]; omega⟩, flush5_6 _, ?_⟩
  rw [mem_blk]
  obtain ⟨-, -, -, -, -, -, -, -, -, -, e10, e11⟩ := block_index ⟨(i 0).val / 10000, by rw [show cfg5.N = 10 from N_5]; omega⟩
  intro a
  match a with
  | ⟨0, _⟩ =>
    show win5_6.index _ (0 : Fin 2) * 10000 ≤ (i 0).val ∧ (i 0).val < win5_6.index _ (0 : Fin 2) * 10000 + 10000
    rw [e10]; show (i 0).val / 10000 * 10000 ≤ (i 0).val ∧ (i 0).val < (i 0).val / 10000 * 10000 + 10000; omega
  | ⟨1, _⟩ =>
    show win5_6.index _ (1 : Fin 2) * 64 ≤ (i 1).val ∧ (i 1).val < win5_6.index _ (1 : Fin 2) * 64 + 64
    rw [e11]; omega

/-- THE OUTPUT ARRAY after the stage: every node row, beside its aggregated row, through the projection. -/
theorem reg5_value (c : Dev nD) (XL : FVec Ideal S100000x64 .f32) (H : FVec Ideal S100000x128 .f32) (WXL : FVec Ideal S64x64 .bf16)
    (WH : FVec Ideal S128x64 .bf16) (PB BB : FVec Ideal S64 .f32)
    (h0 : V c (Pipeline.arrRef spec5 0) = XL) (h1 : V c (Pipeline.arrRef spec5 1) = H) (h2 : V c (Pipeline.arrRef spec5 2) = WXL)
    (h3 : V c (Pipeline.arrRef spec5 3) = WH) (h4 : V c (Pipeline.arrRef spec5 4) = PB) (h5 : V c (Pipeline.arrRef spec5 5) = BB) :
    (dat5 (F := Ideal) V c).arrAt 6 cfg5.N = projArrK (n := 100000) XL H WXL WH PB BB :=
  (dat5 (F := Ideal) V c).arrAt_eq_of_cover 6 (projArrK (n := 100000) XL H WXL WH PB BB)
    (fun t _ => flushed_eq V c XL H WXL WH PB BB h0 h1 h2 h3 h4 h5 t) cover

end Cert.KernelIdeal.Reg5

end
-- ==== Proof.KT1.lean ====
/-
  The second edge type through the idealized kernel's program. The same chain as for the first type — index
  vectors and weights cut from the arguments, the edge network, the node-linear map, the aggregation on the
  host, the projection — one type further on in @main; the arguments are read back to the launch memory
  through the boundaries before, and the running sum now holds the first type's output added to what it held.
-/
import proofs.«410647_j53395033423884_2_alg».proof.Proof.KT0
import proofs.«410647_j53395033423884_2_alg».proof.Proof.KS1
import proofs.«410647_j53395033423884_2_alg».proof.Proof.KReg3
import proofs.«410647_j53395033423884_2_alg».proof.Proof.KReg4
import proofs.«410647_j53395033423884_2_alg».proof.Proof.KReg5

set_option maxRecDepth 16384

noncomputable section

namespace Cert.KernelIdeal.KT1

open Idealize.ShloMosaic Idealize.ShloMosaic.TcCoe Idealize.SL.Sem
open Cert.KernelIdeal Cert.KernelIdeal.Gen Cert.KernelIdeal.KVal Cert.KernelIdeal.KCut Cert.KernelIdeal.Take Cert.PreIdx Cert.Rows

variable (m : (ℓ : Loc nD τ sig) → Buf (Elt Ideal) ℓ) (ρ : Dev nD → PrngReg) (c : Dev nD)

/-! ## The type's operands, cut from the arguments -/

abbrev x : FVec Ideal S100000x64 .f32 := (m ((c : Thread nD τ).loc main_arg0))
abbrev src : IVec S500000 32 := idxVec_1_0 (m ((c : Thread nD τ).loc main_arg1))
abbrev dst : IVec S500000 32 := idxVec_1_1 (m ((c : Thread nD τ).loc main_arg1))
abbrev lw : FVec Ideal S64x64 .f32 := cut3 (F := Ideal) ![1, 0, 0] slices_S4x64x64_S1x64x64_1_0_0 (m ((c : Thread nD τ).loc main_arg2))
abbrev lb : FVec Ideal S64 .f32 := cut2 (F := Ideal) ![1, 0] slices_S4x64_S1x64_1_0 (m ((c : Thread nD τ).loc main_arg3))
abbrev w0 : FVec Ideal S64x64 .f32 := cut3 (F := Ideal) ![1, 0, 0] slices_S4x64x64_S1x64x64_1_0_0 (m ((c : Thread nD τ).loc main_arg4))
abbrev b0 : FVec Ideal S64 .f32 := cut2 (F := Ideal) ![1, 0] slices_S4x64_S1x64_1_0 (m ((c : Thread nD τ).loc main_arg5))
abbrev g : FVec Ideal S64 .f32 := cut2 (F := Ideal) ![1, 0] slices_S4x64_S1x64_1_0 (m ((c : Thread nD τ).loc main_arg6))
abbrev be : FVec Ideal S64 .f32 := cut2 (F := Ideal) ![1, 0] slices_S4x64_S1x64_1_0 (m ((c : Thread nD τ).loc main_arg7))
abbrev w1 : FVec Ideal S64x64 .f32 := cut3 (F := Ideal) ![1, 0, 0] slices_S4x64x64_S1x64x64_1_0_0 (m ((c : Thread nD τ).loc main_arg8))
abbrev b1 : FVec Ideal S64 .f32 := cut2 (F := Ideal) ![1, 0] slices_S4x64_S1x64_1_0 (m ((c : Thread nD τ).loc main_arg9))
abbrev pw : FVec Ideal S64x192 .f32 := cutP (F := Ideal) ![1, 0, 0] slices_S4x64x192_S1x64x192_1_0_0 (m ((c : Thread nD τ).loc main_arg10))
abbrev pb : FVec Ideal S64 .f32 := cut2 (F := Ideal) ![1, 0] slices_S4x64_S1x64_1_0 (m ((c : Thread nD τ).loc main_arg11))
abbrev bb : FVec Ideal S64 .f32 := cut2 (F := Ideal) ![1, 0] slices_S4x64_S1x64_1_0 (m ((c : Thread nD τ).loc main_arg12))

/-- The running sum as this type leaves it: what the type before held, plus that type's output. -/
abbrev accVal : FVec Ideal S100000x64 .f32 := addf (KT0.accVal m c) (KT0.outVal m c)
/-- This type's output. -/
abbrev outVal : FVec Ideal S100000x64 .f32 :=
  kOut (x m c) (src m c) (dst m c) (lw m c) (lb m c) (w0 m c) (b0 m c) (g m c) (be m c) (w1 m c) (b1 m c) (pw m c) (pb m c) (bb m c)

/-! ## The host stretch before the edge network, and the edge network (region 3) -/

theorem ea14 : W14 m ρ c (Proc.devRef .tc main_v61) = kEa (x m c) (src m c) (dst m c) :=
  (KS.A1_v61 (W10 m ρ c)).trans (by rw [KArgs.W10_arg0 m ρ c, KArgs.W10_arg1 m ρ c])
theorem w0t14 : W14 m ρ c (Proc.devRef .tc main_v65) = kWT (w0 m c) :=
  (KS.A1_v65 (W10 m ρ c)).trans (by rw [KArgs.W10_arg4 m ρ c])
theorem w1t14 : W14 m ρ c (Proc.devRef .tc main_v69) = kWT (w1 m c) :=
  (KS.A1_v69 (W10 m ρ c)).trans (by rw [KArgs.W10_arg8 m ρ c])
theorem b014 : W14 m ρ c (Proc.devRef .tc main_v71) = b0 m c :=
  (KS.A1_v71 (W10 m ρ c)).trans (by rw [KArgs.W10_arg5 m ρ c])
theorem b114 : W14 m ρ c (Proc.devRef .tc main_v73) = b1 m c :=
  (KS.A1_v73 (W10 m ρ c)).trans (by rw [KArgs.W10_arg9 m ρ c])
theorem g14 : W14 m ρ c (Proc.devRef .tc main_v75) = g m c :=
  (KS.A1_v75 (W10 m ρ c)).trans (by rw [KArgs.W10_arg6 m ρ c])
theorem be14 : W14 m ρ c (Proc.devRef .tc main_v77) = be m c :=
  (KS.A1_v77 (W10 m ρ c)).trans (by rw [KArgs.W10_arg7 m ρ c])
theorem src14 : W14 m ρ c (Proc.devRef .tc main_v55) = src m c :=
  (KS.A1_v55 (W10 m ρ c)).trans (by rw [KArgs.W10_arg1 m ρ c])
theorem dst14 : W14 m ρ c (Proc.devRef .tc main_v57) = dst m c :=
  (KS.A1_v57 (W10 m ρ c)).trans (by rw [KArgs.W10_arg1 m ρ c])
theorem acc14 : W14 m ρ c (Proc.devRef .tc main_v51) = accVal m c :=
  (KS.A1_v51 (W10 m ρ c)).trans (by rw [KT0.acc_end m ρ c, KT0.out_val m ρ c])

theorem e_val : W15 m ρ c (Proc.devRef .tc main_v78)
    = kE (x m c) (src m c) (dst m c) (w0 m c) (b0 m c) (g m c) (be m c) (w1 m c) (b1 m c) := by
  unfold kE
  exact (W15_arr m ρ c 7).trans (Reg3.reg3_value (V14 m ρ) c _ _ _ _ _ _ _
    (ea14 m ρ c) (w0t14 m ρ c) (b014 m ρ c) (g14 m ρ c) (be14 m ρ c) (w1t14 m ρ c) (b114 m ρ c))

theorem src15 : W15 m ρ c (Proc.devRef .tc main_v55) = src m c :=
  (W15_of_ne m ρ c main_v55 (by decide)).trans (src14 m ρ c)
theorem dst15 : W15 m ρ c (Proc.devRef .tc main_v57) = dst m c :=
  (W15_of_ne m ρ c main_v57 (by decide)).trans (dst14 m ρ c)
theorem acc15 : W15 m ρ c (Proc.devRef .tc main_v51) = accVal m c :=
  (W15_of_ne m ρ c main_v51 (by decide)).trans (acc14 m ρ c)

/-! ## The node-linear map (region 4) -/

theorem xl_val : W17 m ρ c (Proc.devRef .tc main_v85) = kXl (x m c) (lw m c) (lb m c) := by
  unfold kXl
  refine (W17_arr m ρ c 3).trans (Reg4.reg4_value (V16 m ρ) c _ _ _ ?_ ?_ ?_)
  · exact (KS.B1_keep_arg0 (W15 m ρ c)).trans (KArgs.W15_arg0 m ρ c)
  · exact (KS.B1_v82 (W15 m ρ c)).trans (by rw [KArgs.W15_arg2 m ρ c])
  · exact (KS.B1_v84 (W15 m ρ c)).trans (by rw [KArgs.W15_arg3 m ρ c])

theorem e17 : W17 m ρ c (Proc.devRef .tc main_v78)
    = kE (x m c) (src m c) (dst m c) (w0 m c) (b0 m c) (g m c) (be m c) (w1 m c) (b1 m c) :=
  (W17_of_ne m ρ c main_v78 (by decide)).trans ((KS.B1_keep_v78 (W15 m ρ c)).trans (e_val m ρ c))
theorem src17 : W17 m ρ c (Proc.devRef .tc main_v55) = src m c :=
  (W17_of_ne m ρ c main_v55 (by decide)).trans ((KS.B1_keep_v55 (W15 m ρ c)).trans (src15 m ρ c))
theorem dst17 : W17 m ρ c (Proc.devRef .tc main_v57) = dst m c :=
  (W17_of_ne m ρ c main_v57 (by decide)).trans ((KS.B1_keep_v57 (W15 m ρ c)).trans (dst15 m ρ c))
theorem acc17 : W17 m ρ c (Proc.devRef .tc main_v51) = accVal m c :=
  (W17_of_ne m ρ c main_v51 (by decide)).trans ((KS.B1_keep_v51 (W15 m ρ c)).trans (acc15 m ρ c))

/-! ## The aggregation on the host and the projection (region 5) -/

theorem out_val : W20 m ρ c (Proc.devRef .tc main_v101) = outVal m c := by
  unfold outVal kOut
  refine (W20_arr m ρ c 6).trans (Reg5.reg5_value (V19 m ρ) c _ _ _ _ _ _ ?_ ?_ ?_ ?_ ?_ ?_)
  · exact (KS.C1_keep_v85 (W17 m ρ c)).trans (xl_val m ρ c)
  · exact (KS.C1_v90 (W17 m ρ c)).trans (by rw [xl_val m ρ c, e17 m ρ c, src17 m ρ c, dst17 m ρ c])
  · exact (KS.C1_v95 (W17 m ρ c)).trans (by rw [KArgs.W17_arg10 m ρ c])
  · exact (KS.C1_v96 (W17 m ρ c)).trans (by rw [KArgs.W17_arg10 m ρ c])
  · exact (KS.C1_v98 (W17 m ρ c)).trans (by rw [KArgs.W17_arg11 m ρ c])
  · exact (KS.C1_v100 (W17 m ρ c)).trans (by rw [KArgs.W17_arg12 m ρ c])

/-- The running sum at the type's end. -/
theorem acc_end : W20 m ρ c (Proc.devRef .tc main_v51) = accVal m c :=
  (W20_of_ne m ρ c main_v51 (by decide)).trans ((KS.C1_keep_v51 (W17 m ρ c)).trans (acc17 m ρ c))

end Cert.KernelIdeal.KT1

end
-- ==== Proof.KTake2.lean ====
/- The three row-takings of the third edge type, each read as `takeFill`: the node features' rows at the type's
  source positions and at its destination positions, and the rows of the node-linear image at the source positions.
  Each is the fold of its 23 host operations from any contents `V`, read at the result buffer: a function of the
  table's and the position vector's contents in `V` alone.
-/
import proofs.«410647_j53395033423884_2_alg».proof.Proof.Gen.KernelIdeal.Launch
import proofs.«410647_j53395033423884_2_alg».proof.Proof.TakeMask
import Idealize.ShloMosaic.Lib.StableHlo.Run

set_option maxRecDepth 16384
set_option Elab.async false

noncomputable section

namespace Cert.KernelIdeal.KTake

open Cert.KernelIdeal Cert.KernelIdeal.Gen Cert.KernelIdeal.Take
open Idealize.ShloMosaic

variable {F : FTy → Type} [FloatOps F]

set_option maxHeartbeats 4000000 in
/-- The node features' rows at the source positions. -/
theorem take2_src (V : Valuation τ sig (Elt F)) :
    StableHlo.after (hostOps6_1 (F := F)) V (Proc.devRef .tc main_v109)
      = takeFill (V (Proc.devRef .tc main_arg0)) (V (Proc.devRef .tc main_v106)) := by
  simp only [hostOps6_1]; after_results_simp
  simp only [StableHlo.TRef.ofBuf, StableHlo.TRef.toBuf, cast_eq]
  rfl

set_option maxHeartbeats 4000000 in
/-- The node features' rows at the destination positions. -/
theorem take2_dst (V : Valuation τ sig (Elt F)) :
    StableHlo.after (hostOps6_2 (F := F)) V (Proc.devRef .tc main_v110)
      = takeFill (V (Proc.devRef .tc main_arg0)) (V (Proc.devRef .tc main_v108)) := by
  simp only [hostOps6_2]; after_results_simp
  simp only [StableHlo.TRef.ofBuf, StableHlo.TRef.toBuf, cast_eq]
  rfl

set_option maxHeartbeats 4000000 in
/-- The node-linear image's rows at the source positions. -/
theorem take2_xl (V : Valuation τ sig (Elt F)) :
    StableHlo.after (hostOps8 (F := F)) V (Proc.devRef .tc main_v137)
      = takeFill (V (Proc.devRef .tc main_v136)) (V (Proc.devRef .tc main_v106)) := by
  simp only [hostOps8]; after_results_simp
  simp only [StableHlo.TRef.ofBuf, StableHlo.TRef.toBuf, cast_eq]
  rfl

end Cert.KernelIdeal.KTake
-- ==== Proof.KS2.lean ====
import proofs.«410647_j53395033423884_2_alg».proof.Proof.Gen.KernelIdeal.Launch
import proofs.«410647_j53395033423884_2_alg».proof.Proof.KVal
import proofs.«410647_j53395033423884_2_alg».proof.Proof.KCut
import proofs.«410647_j53395033423884_2_alg».proof.Proof.PreIdx
import proofs.«410647_j53395033423884_2_alg».proof.Proof.KTake2
import Idealize.ShloMosaic.Lib.StableHlo.Run

/-!
# The host stretches of one edge type, read as functions

Between two kernel launches the program runs a straight line of array operations. For one edge type the lines
are read here as functions of the arrays they start from:

* `A`: the index vectors cut out of the edge-index array, the two row reads of the node features and
  their absolute difference (the edge attributes), and the type's edge-network weights cut out of the
  stacked weights (matrices transposed);
* `B`: the node-linear weight and bias;
* `C`: the source rows of the node-linear output read, laid beside the edge-network output and added
  into the destination rows from zero, and the projection weight transposed and cut in its first 64 and last
  128 rows, with the two biases.

Each fact says what one array holds after the line, in terms of what the arrays held before it.
-/

set_option Elab.async false

noncomputable section

namespace Cert.KernelIdeal.KS

open Idealize.ShloMosaic Idealize.SL.Sem Idealize.ShloMosaic.TcCoe
open Cert.KernelIdeal Cert.KernelIdeal.Gen Cert.KernelIdeal.Take Cert.KernelIdeal.KCut Cert.KernelIdeal.KVal Cert.KernelIdeal.KTake Cert.PreIdx

/-! ## Type 2 -/

/-- The line before the edge network's launch. -/
abbrev A2 (V : Valuation τ sig (Elt Ideal)) : Valuation τ sig (Elt Ideal) :=
  StableHlo.after hostOps6_3 (StableHlo.after hostOps6_2 (StableHlo.after hostOps6_1 (StableHlo.after hostOps6 V)))

/-- The line before the node-linear launch. -/
abbrev B2 (V : Valuation τ sig (Elt Ideal)) : Valuation τ sig (Elt Ideal) :=
  StableHlo.after hostOps7 V

/-- The line before the projection's launch. -/
abbrev C2 (V : Valuation τ sig (Elt Ideal)) : Valuation τ sig (Elt Ideal) :=
  StableHlo.after hostOps8_1 (StableHlo.after hostOps8 V)

/-! The edge attributes, stretch by stretch: the index vectors, the two row reads, the absolute difference. -/

theorem A2z_keep_arg0 (W : Valuation τ sig (Elt Ideal)) :
    StableHlo.after hostOps6 W (Proc.devRef .tc main_arg0) = W (Proc.devRef .tc main_arg0) := by
  simp only [hostOps6]
  after_results_simp

theorem A2z_v106 (W : Valuation τ sig (Elt Ideal)) :
    StableHlo.after hostOps6 W (Proc.devRef .tc main_v106) = idxVec_2_0 (W (Proc.devRef .tc main_arg1)) := by
  simp only [hostOps6]
  after_results_simp
  rfl

theorem A2z_v108 (W : Valuation τ sig (Elt Ideal)) :
    StableHlo.after hostOps6 W (Proc.devRef .tc main_v108) = idxVec_2_1 (W (Proc.devRef .tc main_arg1)) := by
  simp only [hostOps6]
  after_results_simp
  rfl

set_option maxHeartbeats 4000000 in
theorem A2a_keep_arg0 (W : Valuation τ sig (Elt Ideal)) :
    StableHlo.after hostOps6_1 W (Proc.devRef .tc main_arg0) = W (Proc.devRef .tc main_arg0) := by
  simp only [hostOps6_1]
  after_results_simp

set_option maxHeartbeats 4000000 in
theorem A2a_keep_v108 (W : Valuation τ sig (Elt Ideal)) :
    StableHlo.after hostOps6_1 W (Proc.devRef .tc main_v108) = W (Proc.devRef .tc main_v108) := by
  simp only [hostOps6_1]
  after_results_simp

set_option maxHeartbeats 4000000 in
theorem A2b_keep_v109 (W : Valuation τ sig (Elt Ideal)) :
    StableHlo.after hostOps6_2 W (Proc.devRef .tc main_v109) = W (Proc.devRef .tc main_v109) := by
  simp only [hostOps6_2]
  after_results_simp

theorem A2c_v112 (W : Valuation τ sig (Elt Ideal)) :
    StableHlo.after hostOps6_3 W (Proc.devRef .tc main_v112)
      = Host.absf (subf (F := Ideal) (s := S500000x64) (φ := .f32) (W (Proc.devRef .tc main_v109)) (W (Proc.devRef .tc main_v110))) := by
  simp only [hostOps6_3]
  after_results_simp

theorem A2_v112 (V : Valuation τ sig (Elt Ideal)) :
    A2 V (Proc.devRef .tc main_v112)
      = kEa (V (Proc.devRef .tc main_arg0)) (idxVec_2_0 (V (Proc.devRef .tc main_arg1))) (idxVec_2_1 (V (Proc.devRef .tc main_arg1))) := by
  show StableHlo.after hostOps6_3 (StableHlo.after hostOps6_2 (StableHlo.after hostOps6_1 (StableHlo.after hostOps6 V)))
    (Proc.devRef .tc main_v112) = _
  rw [A2c_v112, A2b_keep_v109, take2_src, take2_dst, A2a_keep_arg0, A2a_keep_v108, A2z_keep_arg0, A2z_v106, A2z_v108]
  rfl

set_option maxHeartbeats 4000000 in
theorem A2_v116 (V : Valuation τ sig (Elt Ideal)) :
    A2 V (Proc.devRef .tc main_v116) = kWT (cut3 (F := Ideal) ![2, 0, 0] slices_S4x64x64_S1x64x64_2_0_0 (V (Proc.devRef .tc main_arg4))) := by
  simp only [A2, hostOps6, hostOps6_1, hostOps6_2, hostOps6_3]
  after_results_simp
  rfl

set_option maxHeartbeats 4000000 in
theorem A2_v120 (V : Valuation τ sig (Elt Ideal)) :
    A2 V (Proc.devRef .tc main_v120) = kWT (cut3 (F := Ideal) ![2, 0, 0] slices_S4x64x64_S1x64x64_2_0_0 (V (Proc.devRef .tc main_arg8))) := by
  simp only [A2, hostOps6, hostOps6_1, hostOps6_2, hostOps6_3]
  after_results_simp
  rfl

set_option maxHeartbeats 4000000 in
theorem A2_v122 (V : Valuation τ sig (Elt Ideal)) :
    A2 V (Proc.devRef .tc main_v122) = cut2 (F := Ideal) ![2, 0] slices_S4x64_S1x64_2_0 (V (Proc.devRef .tc main_arg5)) := by
  simp only [A2, hostOps6, hostOps6_1, hostOps6_2, hostOps6_3]
  after_results_simp
  rfl

set_option maxHeartbeats 4000000 in
theorem A2_v124 (V : Valuation τ sig (Elt Ideal)) :
    A2 V (Proc.devRef .tc main_v124) = cut2 (F := Ideal) ![2, 0] slices_S4x64_S1x64_2_0 (V (Proc.devRef .tc main_arg9)) := by
  simp only [A2, hostOps6, hostOps6_1, hostOps6_2, hostOps6_3]
  after_results_simp
  rfl

set_option maxHeartbeats 4000000 in
theorem A2_v126 (V : Valuation τ sig (Elt Ideal)) :
    A2 V (Proc.devRef .tc main_v126) = cut2 (F := Ideal) ![2, 0] slices_S4x64_S1x64_2_0 (V (Proc.devRef .tc main_arg6)) := by
  simp only [A2, hostOps6, hostOps6_1, hostOps6_2, hostOps6_3]
  after_results_simp
  rfl

set_option maxHeartbeats 4000000 in
theorem A2_v128 (V : Valuation τ sig (Elt Ideal)) :
    A2 V (Proc.devRef .tc main_v128) = cut2 (F := Ideal) ![2, 0] slices_S4x64_S1x64_2_0 (V (Proc.devRef .tc main_arg7)) := by
  simp only [A2, hostOps6, hostOps6_1, hostOps6_2, hostOps6_3]
  after_results_simp
  rfl

set_option maxHeartbeats 4000000 in
theorem A2_v106 (V : Valuation τ sig (Elt Ideal)) :
    A2 V (Proc.devRef .tc main_v106) = idxVec_2_0 (V (Proc.devRef .tc main_arg1)) := by
  simp only [A2, hostOps6, hostOps6_1, hostOps6_2, hostOps6_3]
  after_results_simp
  rfl

set_option maxHeartbeats 4000000 in
theorem A2_v108 (V : Valuation τ sig (Elt Ideal)) :
    A2 V (Proc.devRef .tc main_v108) = idxVec_2_1 (V (Proc.devRef .tc main_arg1)) := by
  simp only [A2, hostOps6, hostOps6_1, hostOps6_2, hostOps6_3]
  after_results_simp
  rfl

set_option maxHeartbeats 4000000 in
theorem A2_v102 (V : Valuation τ sig (Elt Ideal)) :
    A2 V (Proc.devRef .tc main_v102)
      = addf (F := Ideal) (s := S100000x64) (φ := .f32) (V (Proc.devRef .tc main_v51)) (V (Proc.devRef .tc main_v101)) := by
  simp only [A2, hostOps6, hostOps6_1, hostOps6_2, hostOps6_3]
  after_results_simp

set_option maxHeartbeats 4000000 in
theorem B2_v133 (V : Valuation τ sig (Elt Ideal)) :
    B2 V (Proc.devRef .tc main_v133) = kWT (cut3 (F := Ideal) ![2, 0, 0] slices_S4x64x64_S1x64x64_2_0_0 (V (Proc.devRef .tc main_arg2))) := by
  simp only [B2, hostOps7]
  after_results_simp
  rfl

set_option maxHeartbeats 4000000 in
theorem B2_v135 (V : Valuation τ sig (Elt Ideal)) :
    B2 V (Proc.devRef .tc main_v135) = cut2 (F := Ideal) ![2, 0] slices_S4x64_S1x64_2_0 (V (Proc.devRef .tc main_arg3)) := by
  simp only [B2, hostOps7]
  after_results_simp
  rfl

theorem B2_keep_arg0 (V : Valuation τ sig (Elt Ideal)) :
    B2 V (Proc.devRef .tc main_arg0) = V (Proc.devRef .tc main_arg0) := by
  simp only [B2, hostOps7]
  after_results_simp

theorem B2_keep_v106 (V : Valuation τ sig (Elt Ideal)) :
    B2 V (Proc.devRef .tc main_v106) = V (Proc.devRef .tc main_v106) := by
  simp only [B2, hostOps7]
  after_results_simp

theorem B2_keep_v108 (V : Valuation τ sig (Elt Ideal)) :
    B2 V (Proc.devRef .tc main_v108) = V (Proc.devRef .tc main_v108) := by
  simp only [B2, hostOps7]
  after_results_simp

theorem B2_keep_v129 (V : Valuation τ sig (Elt Ideal)) :
    B2 V (Proc.devRef .tc main_v129) = V (Proc.devRef .tc main_v129) := by
  simp only [B2, hostOps7]
  after_results_simp

theorem B2_keep_v102 (V : Valuation τ sig (Elt Ideal)) :
    B2 V (Proc.devRef .tc main_v102) = V (Proc.devRef .tc main_v102) := by
  simp only [B2, hostOps7]
  after_results_simp

/-! The aggregated rows, stretch by stretch: the source rows read, then laid beside the edge-network output
and added into the destination rows from zero. -/

set_option maxHeartbeats 4000000 in
theorem C2a_keep_v129 (W : Valuation τ sig (Elt Ideal)) :
    StableHlo.after hostOps8 W (Proc.devRef .tc main_v129) = W (Proc.devRef .tc main_v129) := by
  simp only [hostOps8]
  after_results_simp

set_option maxHeartbeats 4000000 in
theorem C2a_keep_v108 (W : Valuation τ sig (Elt Ideal)) :
    StableHlo.after hostOps8 W (Proc.devRef .tc main_v108) = W (Proc.devRef .tc main_v108) := by
  simp only [hostOps8]
  after_results_simp

theorem C2b_v141 (W : Valuation τ sig (Elt Ideal)) :
    StableHlo.after hostOps8_1 W (Proc.devRef .tc main_v141)
      = Host.scatterAdd (F := Ideal) scatter_S100000x128_S500000x1_S500000x128_1_0_0_1
          (broadcastInDim S100000x128 ![] bcast_S_S100000x128 (constant (F := Ideal) S_ .f32 0x00000000#32))
          (broadcastInDim S500000x1 ![0] bcast_S500000_S500000x1_0 (W (Proc.devRef .tc main_v108)))
          (concatenate S500000x128 1 [⟨S500000x64, W (Proc.devRef .tc main_v137)⟩, ⟨S500000x64, W (Proc.devRef .tc main_v129)⟩]
            concatenates_S500000x64_S500000x64_S500000x128_d1) := by
  simp only [hostOps8_1]
  after_results_simp

theorem C2_v141 (V : Valuation τ sig (Elt Ideal)) :
    C2 V (Proc.devRef .tc main_v141)
      = kH (V (Proc.devRef .tc main_v136)) (V (Proc.devRef .tc main_v129)) (V (Proc.devRef .tc main_v106)) (V (Proc.devRef .tc main_v108)) := by
  show StableHlo.after hostOps8_1 (StableHlo.after hostOps8 V) (Proc.devRef .tc main_v141) = _
  rw [C2b_v141, C2a_keep_v129, C2a_keep_v108, take2_xl]
  rfl

set_option maxHeartbeats 4000000 in
theorem C2_v146 (V : Valuation τ sig (Elt Ideal)) :
    C2 V (Proc.devRef .tc main_v146)
      = extractStridedSlice S64x64 ![0, 0]
          (kPWT (cutP (F := Ideal) ![2, 0, 0] slices_S4x64x192_S1x64x192_2_0_0 (V (Proc.devRef .tc main_arg10)))) slices_S192x64_S64x64_0_0 := by
  simp only [C2, hostOps8, hostOps8_1]
  after_results_simp
  rfl

set_option maxHeartbeats 4000000 in
theorem C2_v147 (V : Valuation τ sig (Elt Ideal)) :
    C2 V (Proc.devRef .tc main_v147)
      = extractStridedSlice S128x64 ![64, 0]
          (kPWT (cutP (F := Ideal) ![2, 0, 0] slices_S4x64x192_S1x64x192_2_0_0 (V (Proc.devRef .tc main_arg10)))) slices_S192x64_S128x64_64_0 := by
  simp only [C2, hostOps8, hostOps8_1]
  after_results_simp
  rfl

set_option maxHeartbeats 4000000 in
theorem C2_v149 (V : Valuation τ sig (Elt Ideal)) :
    C2 V (Proc.devRef .tc main_v149) = cut2 (F := Ideal) ![2, 0] slices_S4x64_S1x64_2_0 (V (Proc.devRef .tc main_arg11)) := by
  simp only [C2, hostOps8, hostOps8_1]
  after_results_simp
  rfl

set_option maxHeartbeats 4000000 in
theorem C2_v151 (V : Valuation τ sig (Elt Ideal)) :
    C2 V (Proc.devRef .tc main_v151) = cut2 (F := Ideal) ![2, 0] slices_S4x64_S1x64_2_0 (V (Proc.devRef .tc main_arg12)) := by
  simp only [C2, hostOps8, hostOps8_1]
  after_results_simp
  rfl

set_option maxHeartbeats 4000000 in
theorem C2_keep_v136 (V : Valuation τ sig (Elt Ideal)) :
    C2 V (Proc.devRef .tc main_v136) = V (Proc.devRef .tc main_v136) := by
  simp only [C2, hostOps8, hostOps8_1]
  after_results_simp

set_option maxHeartbeats 4000000 in
theorem C2_keep_v102 (V : Valuation τ sig (Elt Ideal)) :
    C2 V (Proc.devRef .tc main_v102) = V (Proc.devRef .tc main_v102) := by
  simp only [C2, hostOps8, hostOps8_1]
  after_results_simp

end Cert.KernelIdeal.KS

end
-- ==== Proof.KReg6.lean ====
/-
  The edge network of one edge type, as a whole array.

  The stage walks the edge-attribute array in fifty blocks of 10000 rows. At a block it sends each row through the
  two-layer edge network (affine map, positive part, LayerNorm over the 64 hidden entries, second affine map) and
  writes the block of results back to the same rows of the output array; the two weights, the two biases, the gain
  and the shift are read whole at every block. Row `R` of the output is therefore written by the block
  `R / 10000`, from row `R` of the attribute array, and after the last block the output array holds `edgeArr` of the
  seven input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg6

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the attribute block and the output block are block `t` of their arrays
    (rows `10000 t …`, all 64 columns); the six small arrays are read whole at every point. -/
theorem block_index : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0 ∧ win6_3.index t (0 : Fin 1) = 0 ∧ win6_4.index t (0 : Fin 1) = 0
    ∧ win6_5.index t (0 : Fin 2) = 0 ∧ win6_5.index t (1 : Fin 2) = 0
    ∧ win6_6.index t (0 : Fin 1) = 0
    ∧ win6_7.index t (0 : Fin 2) = t.val ∧ win6_7.index t (1 : Fin 2) = 0 :=
  (by decide +kernel : ∀ t : Fin grid6.N, _)

/-- The seven input blocks at a point, each at its literal type. -/
abbrev eablk (c : Dev nD) (t : Fin cfg6.N) : Vec Ideal S10000x64 .f32 := iblk6 V c 0 t
abbrev w0blk (c : Dev nD) (t : Fin cfg6.N) : Vec Ideal S64x64 .bf16 := iblk6 V c 1 t
abbrev b0blk (c : Dev nD) (t : Fin cfg6.N) : Vec Ideal S64 .f32 := iblk6 V c 2 t
abbrev gblk (c : Dev nD) (t : Fin cfg6.N) : Vec Ideal S64 .f32 := iblk6 V c 3 t
abbrev beblk (c : Dev nD) (t : Fin cfg6.N) : Vec Ideal S64 .f32 := iblk6 V c 4 t
abbrev w1blk (c : Dev nD) (t : Fin cfg6.N) : Vec Ideal S64x64 .bf16 := iblk6 V c 5 t
abbrev b1blk (c : Dev nD) (t : Fin cfg6.N) : Vec Ideal S64 .f32 := iblk6 V c 6 t

/-- Row `r` of the attribute block at point `t` is row `10000 t + r` of the attribute array. -/
theorem eablk_apply (c : Dev nD) (EA : FVec Ideal S500000x64 .f32) (h0 : V c (Pipeline.arrRef spec6 0) = EA)
    (t : Fin cfg6.N) (r : Fin 10000) (k : Fin 64) (R : Fin 500000) (hR : R.val = t.val * 10000 + r.val) :
    eablk V c t (ix2 r k) = EA (ix2 R k) := by
  obtain ⟨e0, e1, -⟩ := block_index t
  show V c (Pipeline.arrRef spec6 0) (((cfg6.win 0).blk t).view.emb (ix2 r k)) = EA (ix2 R k)
  rw [h0]
  congr 1
  funext a; apply Fin.ext
  match a with
  | ⟨0, _⟩ => show win6_0.index t (0 : Fin 2) * 10000 + 1 * r.val = R.val; omega
  | ⟨1, _⟩ => show win6_0.index t (1 : Fin 2) * 64 + 1 * k.val = k.val; omega

/-- The first weight's block at any point is the weight array. -/
theorem w0blk_apply (c : Dev nD) (W0T : FVec Ideal S64x64 .bf16) (h1 : V c (Pipeline.arrRef spec6 1) = W0T)
    (t : Fin cfg6.N) (a b : Fin 64) : w0blk V c t (ix2 a b) = W0T (ix2 a b) := by
  obtain ⟨-, -, e2, e3, -⟩ := block_index t
  show V c (Pipeline.arrRef spec6 1) (((cfg6.win 1).blk t).view.emb (ix2 a b)) = W0T (ix2 a b)
  rw [h1]
  congr 1
  funext d; apply Fin.ext
  match d with
  | ⟨0, _⟩ => show win6_1.index t (0 : Fin 2) * 64 + 1 * a.val = a.val; omega
  | ⟨1, _⟩ => show win6_1.index t (1 : Fin 2) * 64 + 1 * b.val = b.val; omega

/-- The first bias's block at any point is the bias array. -/
theorem b0blk_apply (c : Dev nD) (B0 : FVec Ideal S64 .f32) (h2 : V c (Pipeline.arrRef spec6 2) = B0)
    (t : Fin cfg6.N) (k : Fin 64) : b0blk V c t (ix1 k) = B0 (ix1 k) := by
  obtain ⟨-, -, -, -, e4, -⟩ := block_index t
  show V c (Pipeline.arrRef spec6 2) (((cfg6.win 2).blk t).view.emb (ix1 k)) = B0 (ix1 k)
  rw [h2]
  congr 1
  funext d; apply Fin.ext
  match d with
  | ⟨0, _⟩ => show win6_2.index t (0 : Fin 1) * 64 + 1 * k.val = k.val; omega

/-- The gain's block at any point is the gain array. -/
theorem gblk_apply (c : Dev nD) (G : FVec Ideal S64 .f32) (h3 : V c (Pipeline.arrRef spec6 3) = G)
    (t : Fin cfg6.N) (k : Fin 64) : gblk V c t (ix1 k) = G (ix1 k) := by
  obtain ⟨-, -, -, -, -, e5, -⟩ := block_index t
  show V c (Pipeline.arrRef spec6 3) (((cfg6.win 3).blk t).view.emb (ix1 k)) = G (ix1 k)
  rw [h3]
  congr 1
  funext d; apply Fin.ext
  match d with
  | ⟨0, _⟩ => show win6_3.index t (0 : Fin 1) * 64 + 1 * k.val = k.val; omega

/-- The shift's block at any point is the shift array. -/
theorem beblk_apply (c : Dev nD) (BE : FVec Ideal S64 .f32) (h4 : V c (Pipeline.arrRef spec6 4) = BE)
    (t : Fin cfg6.N) (k : Fin 64) : beblk V c t (ix1 k) = BE (ix1 k) := by
  obtain ⟨-, -, -, -, -, -, e6, -⟩ := block_index t
  show V c (Pipeline.arrRef spec6 4) (((cfg6.win 4).blk t).view.emb (ix1 k)) = BE (ix1 k)
  rw [h4]
  congr 1
  funext d; apply Fin.ext
  match d with
  | ⟨0, _⟩ => show win6_4.index t (0 : Fin 1) * 64 + 1 * k.val = k.val; omega

/-- The second weight's block at any point is the weight array. -/
theorem w1blk_apply (c : Dev nD) (W1T : FVec Ideal S64x64 .bf16) (h5 : V c (Pipeline.arrRef spec6 5) = W1T)
    (t : Fin cfg6.N) (a b : Fin 64) : w1blk V c t (ix2 a b) = W1T (ix2 a b) := by
  obtain ⟨-, -, -, -, -, -, -, e7, e8, -⟩ := block_index t
  show V c (Pipeline.arrRef spec6 5) (((cfg6.win 5).blk t).view.emb (ix2 a b)) = W1T (ix2 a b)
  rw [h5]
  congr 1
  funext d; apply Fin.ext
  match d with
  | ⟨0, _⟩ => show win6_5.index t (0 : Fin 2) * 64 + 1 * a.val = a.val; omega
  | ⟨1, _⟩ => show win6_5.index t (1 : Fin 2) * 64 + 1 * b.val = b.val; omega

/-- The second bias's block at any point is the bias array. -/
theorem b1blk_apply (c : Dev nD) (B1 : FVec Ideal S64 .f32) (h6 : V c (Pipeline.arrRef spec6 6) = B1)
    (t : Fin cfg6.N) (k : Fin 64) : b1blk V c t (ix1 k) = B1 (ix1 k) := by
  obtain ⟨-, -, -, -, -, -, -, -, -, e9, -⟩ := block_index t
  show V c (Pipeline.arrRef spec6 6) (((cfg6.win 6).blk t).view.emb (ix1 k)) = B1 (ix1 k)
  rw [h6]
  congr 1
  funext d; apply Fin.ext
  match d with
  | ⟨0, _⟩ => show win6_6.index t (0 : Fin 1) * 64 + 1 * k.val = k.val; omega

/-- The stage's payload at an entry of a block is the edge network of the block's row. -/
theorem pay_apply (v0 : Vec Ideal S10000x64 .f32) (v3 : Vec Ideal S64x64 .bf16) (v6 v31 v36 : Vec Ideal S64 .f32)
    (v42 : Vec Ideal S64x64 .bf16) (v45 : Vec Ideal S64 .f32) (r : Fin 10000) (j : Fin 64) :
    k6_pay1 (F := Ideal) (k6_pay2 v0 v3 v6 v31 v36) v42 v45 (ix2 r j)
      = edgeRow (fun c => v0 (ix2 r c)) (fun a b => v3 (ix2 a b)) (fun k => v6 (ix1 k)) (fun k => v31 (ix1 k))
          (fun k => v36 (ix1 k)) (fun a b => v42 (ix2 a b)) (fun k => v45 (ix1 k)) j :=
  by rw [Pay.k6_pay1_eq, Pay.k6_pay2_eq]; exact Pay.edge_pay v0 v3 v6 v31 v36 v42 v45 r j

/-- Entry `(r, q)` of the output block at point `t` is entry `(10000 t + r, q)` of the output array. -/
theorem out_emb (t : Fin cfg6.N) (r : Fin 10000) (q : Fin 64) (R : Fin 500000) (hR : R.val = t.val * 10000 + r.val) :
    ((cfg6.win 7).blk t).view.emb (ix2 r q) = (ix2 R q : S500000x64.Idx) := by
  obtain ⟨-, -, -, -, -, -, -, -, -, -, e10, e11⟩ := block_index t
  funext a; apply Fin.ext
  match a with
  | ⟨0, _⟩ => show win6_7.index t (0 : Fin 2) * 10000 + 1 * r.val = R.val; omega
  | ⟨1, _⟩ => show win6_7.index t (1 : Fin 2) * 64 + 1 * q.val = q.val; omega

/-- What point `t` writes back is block `t` of `edgeArr` of the seven arrays as the stage finds them. -/
theorem flushed_eq (c : Dev nD) (EA : FVec Ideal S500000x64 .f32) (W0T : FVec Ideal S64x64 .bf16) (B0 G BE : FVec Ideal S64 .f32)
    (W1T : FVec Ideal S64x64 .bf16) (B1 : FVec Ideal S64 .f32)
    (h0 : V c (Pipeline.arrRef spec6 0) = EA) (h1 : V c (Pipeline.arrRef spec6 1) = W0T) (h2 : V c (Pipeline.arrRef spec6 2) = B0)
    (h3 : V c (Pipeline.arrRef spec6 3) = G) (h4 : V c (Pipeline.arrRef spec6 4) = BE) (h5 : V c (Pipeline.arrRef spec6 5) = W1T)
    (h6 : V c (Pipeline.arrRef spec6 6) = B1) (t : Fin cfg6.N) :
    (dat6 (F := Ideal) V c).flushed 7 t = ((cfg6.win 7).blk t).view.read (Elt Ideal) (edgeArr (n := 500000) EA W0T B0 G BE W1T B1) := by
  show (cfg6.win 7).cut (grid6.coords t) ((dat6 (F := Ideal) V c).after 7 t) = _
  rw [after6_7]
  unfold out6_7
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  have hlt : t.val < 50 := lt_of_lt_of_eq t.isLt N_6
  have hR : (⟨t.val * 10000 + r.val, by omega⟩ : Fin 500000).val = t.val * 10000 + r.val := rfl
  show k6_pay1 (F := Ideal) (k6_pay2 (eablk V c t) (w0blk V c t) (b0blk V c t) (gblk V c t) (beblk V c t)) (w1blk V c t) (b1blk V c t) (ix2 r q)
    = edgeArr (n := 500000) EA W0T B0 G BE W1T B1 (((cfg6.win 7).blk t).view.emb (ix2 r q))
  rw [out_emb t r q _ hR]
  refine (pay_apply (eablk V c t) (w0blk V c t) (b0blk V c t) (gblk V c t) (beblk V c t) (w1blk V c t) (b1blk V c t) r q).trans ?_
  show edgeRow _ _ _ _ _ _ _ q = edgeRow _ _ _ _ _ _ _ q
  congr 1
  · funext k; exact eablk_apply V c EA h0 t r k _ hR
  · funext a b; exact w0blk_apply V c W0T h1 t a b
  · funext k; exact b0blk_apply V c B0 h2 t k
  · funext k; exact gblk_apply V c G h3 t k
  · funext k; exact beblk_apply V c BE h4 t k
  · funext a b; exact w1blk_apply V c W1T h5 t a b
  · funext k; exact b1blk_apply V c B1 h6 t k

/-- An index of the output array is in point `t`'s block iff each coordinate is in the block's range on its axis. -/
theorem mem_blk (t : Fin cfg6.N) (i : S500000x64.Idx) :
    i ∈ ((cfg6.win 7).blk t).view.set ↔ ∀ a : Fin 2, win6_7.index t a * S10000x64.size a ≤ (i a).val ∧ (i a).val < win6_7.index t a * S10000x64.size a + S10000x64.size a := by
  show i ∈ ((View.whole (Pipeline.arrRef spec6 7)).slice (win6_7.rect t)).set ↔ _
  rw [View.set_slice_whole, Rect.mem_set_unit]
  exact Iff.rfl

/-- Every row of the output array is in some point's block: row `R` in block `R / 10000`. -/
theorem cover (i : S500000x64.Idx) : ∃ t : Fin cfg6.N, (cfg6.win 7).flush t = true ∧ i ∈ ((cfg6.win 7).blk t).view.set := by
  have h0 : (i 0).val < 500000 := idx2_lt0 i
  have h1 : (i 1).val < 64 := idx2_lt1 i
  refine ⟨⟨(i 0).val / 10000, by rw [show cfg6.N = 50 from N_6]; omega⟩, flush6_7 _, ?_⟩
  rw [mem_blk]
  obtain ⟨-, -, -, -, -, -, -, -, -, -, e10, e11⟩ := block_index ⟨(i 0).val / 10000, by rw [show cfg6.N = 50 from N_6]; omega⟩
  intro a
  match a with
  | ⟨0, _⟩ =>
    show win6_7.index _ (0 : Fin 2) * 10000 ≤ (i 0).val ∧ (i 0).val < win6_7.index _ (0 : Fin 2) * 10000 + 10000
    rw [e10]; show (i 0).val / 10000 * 10000 ≤ (i 0).val ∧ (i 0).val < (i 0).val / 10000 * 10000 + 10000; omega
  | ⟨1, _⟩ =>
    show win6_7.index _ (1 : Fin 2) * 64 ≤ (i 1).val ∧ (i 1).val < win6_7.index _ (1 : Fin 2) * 64 + 64
    rw [e11]; omega

/-- THE OUTPUT ARRAY after the stage: every row of the attribute array through the edge network. -/
theorem reg6_value (c : Dev nD) (EA : FVec Ideal S500000x64 .f32) (W0T : FVec Ideal S64x64 .bf16) (B0 G BE : FVec Ideal S64 .f32)
    (W1T : FVec Ideal S64x64 .bf16) (B1 : FVec Ideal S64 .f32)
    (h0 : V c (Pipeline.arrRef spec6 0) = EA) (h1 : V c (Pipeline.arrRef spec6 1) = W0T) (h2 : V c (Pipeline.arrRef spec6 2) = B0)
    (h3 : V c (Pipeline.arrRef spec6 3) = G) (h4 : V c (Pipeline.arrRef spec6 4) = BE) (h5 : V c (Pipeline.arrRef spec6 5) = W1T)
    (h6 : V c (Pipeline.arrRef spec6 6) = B1) :
    (dat6 (F := Ideal) V c).arrAt 7 cfg6.N = edgeArr (n := 500000) EA W0T B0 G BE W1T B1 :=
  (dat6 (F := Ideal) V c).arrAt_eq_of_cover 7 (edgeArr (n := 500000) EA W0T B0 G BE W1T B1)
    (fun t _ => flushed_eq V c EA W0T B0 G BE W1T B1 h0 h1 h2 h3 h4 h5 h6 t) cover

end Cert.KernelIdeal.Reg6

end
-- ==== Proof.KReg7.lean ====
/-
  The linear stage of one edge type, as a whole array.

  The stage walks the node array in ten blocks of 10000 rows. At a block it multiplies the block's rows by the
  transposed weight and adds the bias, row by row, and writes the block of results back to the same rows of the
  output array. Row `R` of the output is therefore written by the block `R / 10000`, from row `R` of the node
  array and the whole weight and bias, and after the last block the output array holds `linArr` of the three
  input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg7

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the node block and the output block are block `t` of their arrays
    (rows `10000 t …`, all 64 columns); the weight and the bias are read whole at every point. -/
theorem block_index : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0 :=
  (by decide +kernel : ∀ t : Fin grid7.N, _)

/-- The three input blocks at a point, each at its literal type. -/
abbrev xblk (c : Dev nD) (t : Fin cfg7.N) : Vec Ideal S10000x64 .f32 := iblk7 V c 0 t
abbrev wblk (c : Dev nD) (t : Fin cfg7.N) : Vec Ideal S64x64 .bf16 := iblk7 V c 1 t
abbrev bblk (c : Dev nD) (t : Fin cfg7.N) : Vec Ideal S64 .f32 := iblk7 V c 2 t

/-- Row `r` of the node block at point `t` is row `10000 t + r` of the node array. -/
theorem xblk_apply (c : Dev nD) (X : FVec Ideal S100000x64 .f32) (hX : V c (Pipeline.arrRef spec7 0) = X)
    (t : Fin cfg7.N) (r : Fin 10000) (k : Fin 64) (R : Fin 100000) (hR : R.val = t.val * 10000 + r.val) :
    xblk V c t (ix2 r k) = X (ix2 R k) := by
  obtain ⟨e0, e1, -⟩ := block_index t
  show V c (Pipeline.arrRef spec7 0) (((cfg7.win 0).blk t).view.emb (ix2 r k)) = X (ix2 R k)
  rw [hX]
  congr 1
  funext a; apply Fin.ext
  match a with
  | ⟨0, _⟩ => show win7_0.index t (0 : Fin 2) * 10000 + 1 * r.val = R.val; omega
  | ⟨1, _⟩ => show win7_0.index t (1 : Fin 2) * 64 + 1 * k.val = k.val; omega

/-- The weight block at any point is the weight array. -/
theorem wblk_apply (c : Dev nD) (WT : FVec Ideal S64x64 .bf16) (hW : V c (Pipeline.arrRef spec7 1) = WT)
    (t : Fin cfg7.N) (a b : Fin 64) : wblk V c t (ix2 a b) = WT (ix2 a b) := by
  obtain ⟨-, -, e2, e3, -⟩ := block_index t
  show V c (Pipeline.arrRef spec7 1) (((cfg7.win 1).blk t).view.emb (ix2 a b)) = WT (ix2 a b)
  rw [hW]
  congr 1
  funext d; apply Fin.ext
  match d with
  | ⟨0, _⟩ => show win7_1.index t (0 : Fin 2) * 64 + 1 * a.val = a.val; omega
  | ⟨1, _⟩ => show win7_1.index t (1 : Fin 2) * 64 + 1 * b.val = b.val; omega

/-- The bias block at any point is the bias array. -/
theorem bblk_apply (c : Dev nD) (B : FVec Ideal S64 .f32) (hB : V c (Pipeline.arrRef spec7 2) = B)
    (t : Fin cfg7.N) (k : Fin 64) : bblk V c t (ix1 k) = B (ix1 k) := by
  obtain ⟨-, -, -, -, e4, -⟩ := block_index t
  show V c (Pipeline.arrRef spec7 2) (((cfg7.win 2).blk t).view.emb (ix1 k)) = B (ix1 k)
  rw [hB]
  congr 1
  funext d; apply Fin.ext
  match d with
  | ⟨0, _⟩ => show win7_2.index t (0 : Fin 1) * 64 + 1 * k.val = k.val; omega

/-- The stage's payload at an entry of a block is the linear map of the block's row. -/
theorem pay_apply (v0 : Vec Ideal S10000x64 .f32) (v2 : Vec Ideal S64x64 .bf16) (v5 : Vec Ideal S64 .f32) (r : Fin 10000) (j : Fin 64) :
    k7_pay1 (F := Ideal) v0 v2 v5 (ix2 r j)
      = linRow (fun k => v0 (ix2 r k)) (fun a b => v2 (ix2 a b)) (fun k => v5 (ix1 k)) j :=
  by rw [Pay.k7_pay1_eq]; exact Pay.lin_pay v0 v2 v5 r j

/-- Entry `(r, q)` of the output block at point `t` is entry `(10000 t + r, q)` of the output array. -/
theorem out_emb (t : Fin cfg7.N) (r : Fin 10000) (q : Fin 64) (R : Fin 100000) (hR : R.val = t.val * 10000 + r.val) :
    ((cfg7.win 3).blk t).view.emb (ix2 r q) = (ix2 R q : S100000x64.Idx) := by
  obtain ⟨-, -, -, -, -, e5, e6⟩ := block_index t
  funext a; apply Fin.ext
  match a with
  | ⟨0, _⟩ => show win7_3.index t (0 : Fin 2) * 10000 + 1 * r.val = R.val; omega
  | ⟨1, _⟩ => show win7_3.index t (1 : Fin 2) * 64 + 1 * q.val = q.val; omega

/-- What point `t` writes back is block `t` of `linArr` of the three arrays as the stage finds them. -/
theorem flushed_eq (c : Dev nD) (X : FVec Ideal S100000x64 .f32) (WT : FVec Ideal S64x64 .bf16) (B : FVec Ideal S64 .f32)
    (hX : V c (Pipeline.arrRef spec7 0) = X) (hW : V c (Pipeline.arrRef spec7 1) = WT) (hB : V c (Pipeline.arrRef spec7 2) = B)
    (t : Fin cfg7.N) :
    (dat7 (F := Ideal) V c).flushed 3 t = ((cfg7.win 3).blk t).view.read (Elt Ideal) (linArr (n := 100000) X WT B) := by
  show (cfg7.win 3).cut (grid7.coords t) ((dat7 (F := Ideal) V c).after 3 t) = _
  rw [after7_3]
  unfold out7_3
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  have hlt : t.val < 10 := lt_of_lt_of_eq t.isLt N_7
  have hR : (⟨t.val * 10000 + r.val, by omega⟩ : Fin 100000).val = t.val * 10000 + r.val := rfl
  show k7_pay1 (F := Ideal) (xblk V c t) (wblk V c t) (bblk V c t) (ix2 r q)
    = linArr (n := 100000) X WT B (((cfg7.win 3).blk t).view.emb (ix2 r q))
  rw [out_emb t r q _ hR]
  refine (pay_apply (xblk V c t) (wblk V c t) (bblk V c t) r q).trans ?_
  show linRow _ _ _ q = linRow _ _ _ q
  congr 1
  · funext k; exact xblk_apply V c X hX t r k _ hR
  · funext a b; exact wblk_apply V c WT hW t a b
  · funext k; exact bblk_apply V c B hB t k

/-- An index of the output array is in point `t`'s block iff each coordinate is in the block's range on its axis. -/
theorem mem_blk (t : Fin cfg7.N) (i : S100000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole (Pipeline.arrRef spec7 3)).slice (win7_3.rect t)).set ↔ _
  rw [View.set_slice_whole, Rect.mem_set_unit]
  exact Iff.rfl

/-- Every row of the output array is in some point's block: row `R` in block `R / 10000`. -/
theorem cover (i : S100000x64.Idx) : ∃ t : Fin cfg7.N, (cfg7.win 3).flush t = true ∧ i ∈ ((cfg7.win 3).blk t).view.set := by
  have h0 : (i 0).val < 100000 := idx2_lt0 i
  have h1 : (i 1).val < 64 := idx2_lt1 i
  refine ⟨⟨(i 0).val / 10000, by rw [show cfg7.N = 10 from N_7]; omega⟩, flush7_3 _, ?_⟩
  rw [mem_blk]
  obtain ⟨-, -, -, -, -, e5, e6⟩ := block_index ⟨(i 0).val / 10000, by rw [show cfg7.N = 10 from N_7]; omega⟩
  intro a
  match a with
  | ⟨0, _⟩ =>
    show win7_3.index _ (0 : Fin 2) * 10000 ≤ (i 0).val ∧ (i 0).val < win7_3.index _ (0 : Fin 2) * 10000 + 10000
    rw [e5]; show (i 0).val / 10000 * 10000 ≤ (i 0).val ∧ (i 0).val < (i 0).val / 10000 * 10000 + 10000; omega
  | ⟨1, _⟩ =>
    show win7_3.index _ (1 : Fin 2) * 64 ≤ (i 1).val ∧ (i 1).val < win7_3.index _ (1 : Fin 2) * 64 + 64
    rw [e6]; omega

/-- THE OUTPUT ARRAY after the stage: every row of the node array through the linear map. -/
theorem reg7_value (c : Dev nD) (X : FVec Ideal S100000x64 .f32) (WT : FVec Ideal S64x64 .bf16) (B : FVec Ideal S64 .f32)
    (hX : V c (Pipeline.arrRef spec7 0) = X) (hW : V c (Pipeline.arrRef spec7 1) = WT) (hB : V c (Pipeline.arrRef spec7 2) = B) :
    (dat7 (F := Ideal) V c).arrAt 3 cfg7.N = linArr (n := 100000) X WT B :=
  (dat7 (F := Ideal) V c).arrAt_eq_of_cover 3 (linArr (n := 100000) X WT B)
    (fun t _ => flushed_eq V c X WT B hX hW hB t) cover

end Cert.KernelIdeal.Reg7

end
-- ==== Proof.KReg8.lean ====
/-
  The output projection of one edge type, as a whole array.

  The stage walks the node rows in ten blocks of 10000. At a block it multiplies the block's rows of the linear
  stage's output by the node part of the projection weight, the same rows of the aggregated messages by the
  aggregated part, adds the two products and the two biases, row by row, and writes the block of results back to
  the same rows of the output array; the two weights and the two biases are read whole at every block. Row `R`
  of the output is therefore written by the block `R / 10000`, from row `R` of the two row arrays, and after the
  last block the output array holds `projArrK` of the six input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg8

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the two row blocks and the output block are block `t` of their arrays
    (rows `10000 t …`, every column); the two weights and the two biases are read whole at every point. -/
theorem block_index : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 1) = 0 ∧ win8_5.index t (0 : Fin 1) = 0
    ∧ win8_6.index t (0 : Fin 2) = t.val ∧ win8_6.index t (1 : Fin 2) = 0 :=
  (by decide +kernel : ∀ t : Fin grid8.N, _)

/-- The six input blocks at a point, each at its literal type. -/
abbrev xlblk (c : Dev nD) (t : Fin cfg8.N) : Vec Ideal S10000x64 .f32 := iblk8 V c 0 t
abbrev hblk (c : Dev nD) (t : Fin cfg8.N) : Vec Ideal S10000x128 .f32 := iblk8 V c 1 t
abbrev wxlblk (c : Dev nD) (t : Fin cfg8.N) : Vec Ideal S64x64 .bf16 := iblk8 V c 2 t
abbrev whblk (c : Dev nD) (t : Fin cfg8.N) : Vec Ideal S128x64 .bf16 := iblk8 V c 3 t
abbrev pbblk (c : Dev nD) (t : Fin cfg8.N) : Vec Ideal S64 .f32 := iblk8 V c 4 t
abbrev bbblk (c : Dev nD) (t : Fin cfg8.N) : Vec Ideal S64 .f32 := iblk8 V c 5 t

/-- Row `r` of the node-part block at point `t` is row `10000 t + r` of its array. -/
theorem xlblk_apply (c : Dev nD) (XL : FVec Ideal S100000x64 .f32) (h0 : V c (Pipeline.arrRef spec8 0) = XL)
    (t : Fin cfg8.N) (r : Fin 10000) (k : Fin 64) (R : Fin 100000) (hR : R.val = t.val * 10000 + r.val) :
    xlblk V c t (ix2 r k) = XL (ix2 R k) := by
  obtain ⟨e0, e1, -⟩ := block_index t
  show V c (Pipeline.arrRef spec8 0) (((cfg8.win 0).blk t).view.emb (ix2 r k)) = XL (ix2 R k)
  rw [h0]
  congr 1
  funext a; apply Fin.ext
  match a with
  | ⟨0, _⟩ => show win8_0.index t (0 : Fin 2) * 10000 + 1 * r.val = R.val; omega
  | ⟨1, _⟩ => show win8_0.index t (1 : Fin 2) * 64 + 1 * k.val = k.val; omega

/-- Row `r` of the aggregated block at point `t` is row `10000 t + r` of the aggregated array. -/
theorem hblk_apply (c : Dev nD) (H : FVec Ideal S100000x128 .f32) (h1 : V c (Pipeline.arrRef spec8 1) = H)
    (t : Fin cfg8.N) (r : Fin 10000) (k : Fin 128) (R : Fin 100000) (hR : R.val = t.val * 10000 + r.val) :
    hblk V c t (ix2 r k) = H (ix2 R k) := by
  obtain ⟨-, -, e2, e3, -⟩ := block_index t
  show V c (Pipeline.arrRef spec8 1) (((cfg8.win 1).blk t).view.emb (ix2 r k)) = H (ix2 R k)
  rw [h1]
  congr 1
  funext a; apply Fin.ext
  match a with
  | ⟨0, _⟩ => show win8_1.index t (0 : Fin 2) * 10000 + 1 * r.val = R.val; omega
  | ⟨1, _⟩ => show win8_1.index t (1 : Fin 2) * 128 + 1 * k.val = k.val; omega

/-- The node-part weight's block at any point is the weight array. -/
theorem wxlblk_apply (c : Dev nD) (WXL : FVec Ideal S64x64 .bf16) (h2 : V c (Pipeline.arrRef spec8 2) = WXL)
    (t : Fin cfg8.N) (a b : Fin 64) : wxlblk V c t (ix2 a b) = WXL (ix2 a b) := by
  obtain ⟨-, -, -, -, e4, e5, -⟩ := block_index t
  show V c (Pipeline.arrRef spec8 2) (((cfg8.win 2).blk t).view.emb (ix2 a b)) = WXL (ix2 a b)
  rw [h2]
  congr 1
  funext d; apply Fin.ext
  match d with
  | ⟨0, _⟩ => show win8_2.index t (0 : Fin 2) * 64 + 1 * a.val = a.val; omega
  | ⟨1, _⟩ => show win8_2.index t (1 : Fin 2) * 64 + 1 * b.val = b.val; omega

/-- The aggregated-part weight's block at any point is the weight array. -/
theorem whblk_apply (c : Dev nD) (WH : FVec Ideal S128x64 .bf16) (h3 : V c (Pipeline.arrRef spec8 3) = WH)
    (t : Fin cfg8.N) (a : Fin 128) (b : Fin 64) : whblk V c t (ix2 a b) = WH (ix2 a b) := by
  obtain ⟨-, -, -, -, -, -, e6, e7, -⟩ := block_index t
  show V c (Pipeline.arrRef spec8 3) (((cfg8.win 3).blk t).view.emb (ix2 a b)) = WH (ix2 a b)
  rw [h3]
  congr 1
  funext d; apply Fin.ext
  match d with
  | ⟨0, _⟩ => show win8_3.index t (0 : Fin 2) * 128 + 1 * a.val = a.val; omega
  | ⟨1, _⟩ => show win8_3.index t (1 : Fin 2) * 64 + 1 * b.val = b.val; omega

/-- The projection bias's block at any point is the bias array. -/
theorem pbblk_apply (c : Dev nD) (PB : FVec Ideal S64 .f32) (h4 : V c (Pipeline.arrRef spec8 4) = PB)
    (t : Fin cfg8.N) (k : Fin 64) : pbblk V c t (ix1 k) = PB (ix1 k) := by
  obtain ⟨-, -, -, -, -, -, -, -, e8, -⟩ := block_index t
  show V c (Pipeline.arrRef spec8 4) (((cfg8.win 4).blk t).view.emb (ix1 k)) = PB (ix1 k)
  rw [h4]
  congr 1
  funext d; apply Fin.ext
  match d with
  | ⟨0, _⟩ => show win8_4.index t (0 : Fin 1) * 64 + 1 * k.val = k.val; omega

/-- The layer bias's block at any point is the bias array. -/
theorem bbblk_apply (c : Dev nD) (BB : FVec Ideal S64 .f32) (h5 : V c (Pipeline.arrRef spec8 5) = BB)
    (t : Fin cfg8.N) (k : Fin 64) : bbblk V c t (ix1 k) = BB (ix1 k) := by
  obtain ⟨-, -, -, -, -, -, -, -, -, e9, -⟩ := block_index t
  show V c (Pipeline.arrRef spec8 5) (((cfg8.win 5).blk t).view.emb (ix1 k)) = BB (ix1 k)
  rw [h5]
  congr 1
  funext d; apply Fin.ext
  match d with
  | ⟨0, _⟩ => show win8_5.index t (0 : Fin 1) * 64 + 1 * k.val = k.val; omega

/-- The stage's payload at an entry of a block is the projection of the two blocks' rows. -/
theorem pay_apply (v0 : Vec Ideal S10000x64 .f32) (v3 : Vec Ideal S10000x128 .f32) (v6 : Vec Ideal S64x64 .bf16)
    (v8 : Vec Ideal S128x64 .bf16) (v13 v18 : Vec Ideal S64 .f32) (r : Fin 10000) (j : Fin 64) :
    k8_pay1 (F := Ideal) v0 v3 v6 v8 v13 v18 (ix2 r j)
      = projRowK (fun k => v0 (ix2 r k)) (fun k => v3 (ix2 r k)) (fun a b => v6 (ix2 a b)) (fun a b => v8 (ix2 a b))
          (fun k => v13 (ix1 k)) (fun k => v18 (ix1 k)) j :=
  by rw [Pay.k8_pay1_eq]; exact Pay.proj_pay v0 v3 v6 v8 v13 v18 r j

/-- Entry `(r, q)` of the output block at point `t` is entry `(10000 t + r, q)` of the output array. -/
theorem out_emb (t : Fin cfg8.N) (r : Fin 10000) (q : Fin 64) (R : Fin 100000) (hR : R.val = t.val * 10000 + r.val) :
    ((cfg8.win 6).blk t).view.emb (ix2 r q) = (ix2 R q : S100000x64.Idx) := by
  obtain ⟨-, -, -, -, -, -, -, -, -, -, e10, e11⟩ := block_index t
  funext a; apply Fin.ext
  match a with
  | ⟨0, _⟩ => show win8_6.index t (0 : Fin 2) * 10000 + 1 * r.val = R.val; omega
  | ⟨1, _⟩ => show win8_6.index t (1 : Fin 2) * 64 + 1 * q.val = q.val; omega

/-- What point `t` writes back is block `t` of `projArrK` of the six arrays as the stage finds them. -/
theorem flushed_eq (c : Dev nD) (XL : FVec Ideal S100000x64 .f32) (H : FVec Ideal S100000x128 .f32) (WXL : FVec Ideal S64x64 .bf16)
    (WH : FVec Ideal S128x64 .bf16) (PB BB : FVec Ideal S64 .f32)
    (h0 : V c (Pipeline.arrRef spec8 0) = XL) (h1 : V c (Pipeline.arrRef spec8 1) = H) (h2 : V c (Pipeline.arrRef spec8 2) = WXL)
    (h3 : V c (Pipeline.arrRef spec8 3) = WH) (h4 : V c (Pipeline.arrRef spec8 4) = PB) (h5 : V c (Pipeline.arrRef spec8 5) = BB)
    (t : Fin cfg8.N) :
    (dat8 (F := Ideal) V c).flushed 6 t = ((cfg8.win 6).blk t).view.read (Elt Ideal) (projArrK (n := 100000) XL H WXL WH PB BB) := by
  show (cfg8.win 6).cut (grid8.coords t) ((dat8 (F := Ideal) V c).after 6 t) = _
  rw [after8_6]
  unfold out8_6
  rw [View.canon_unit_zero zero2]
  simp only [View.ld_unit_zero (S := S10000x64) zero2, View.ld_unit_zero (S := S10000x128) zero2, View.ld_unit_zero (S := S64x64) zero2,
    View.ld_unit_zero (S := S128x64) zero2, View.ld_unit_zero (S := S64) zero1]
  funext j
  obtain ⟨r, q, rfl⟩ : ∃ (r : Fin 10000) (q : Fin 64), j = ix2 r q := ⟨j 0, j 1, eq_ix2 j⟩
  have hlt : t.val < 10 := lt_of_lt_of_eq t.isLt N_8
  have hR : (⟨t.val * 10000 + r.val, by omega⟩ : Fin 100000).val = t.val * 10000 + r.val := rfl
  show k8_pay1 (F := Ideal) (xlblk V c t) (hblk V c t) (wxlblk V c t) (whblk V c t) (pbblk V c t) (bbblk V c t) (ix2 r q)
    = projArrK (n := 100000) XL H WXL WH PB BB (((cfg8.win 6).blk t).view.emb (ix2 r q))
  rw [out_emb t r q _ hR]
  refine (pay_apply (xlblk V c t) (hblk V c t) (wxlblk V c t) (whblk V c t) (pbblk V c t) (bbblk V c t) r q).trans ?_
  show projRowK _ _ _ _ _ _ q = projRowK _ _ _ _ _ _ q
  congr 1
  · funext k; exact xlblk_apply V c XL h0 t r k _ hR
  · funext k; exact hblk_apply V c H h1 t r k _ hR
  · funext a b; exact wxlblk_apply V c WXL h2 t a b
  · funext a b; exact whblk_apply V c WH h3 t a b
  · funext k; exact pbblk_apply V c PB h4 t k
  · funext k; exact bbblk_apply V c BB h5 t k

/-- An index of the output array is in point `t`'s block iff each coordinate is in the block's range on its axis. -/
theorem mem_blk (t : Fin cfg8.N) (i : S100000x64.Idx) :
    i ∈ ((cfg8.win 6).blk t).view.set ↔ ∀ a : Fin 2, win8_6.index t a * S10000x64.size a ≤ (i a).val ∧ (i a).val < win8_6.index t a * S10000x64.size a + S10000x64.size a := by
  show i ∈ ((View.whole (Pipeline.arrRef spec8 6)).slice (win8_6.rect t)).set ↔ _
  rw [View.set_slice_whole, Rect.mem_set_unit]
  exact Iff.rfl

/-- Every row of the output array is in some point's block: row `R` in block `R / 10000`. -/
theorem cover (i : S100000x64.Idx) : ∃ t : Fin cfg8.N, (cfg8.win 6).flush t = true ∧ i ∈ ((cfg8.win 6).blk t).view.set := by
  have h0 : (i 0).val < 100000 := idx2_lt0 i
  have h1 : (i 1).val < 64 := idx2_lt1 i
  refine ⟨⟨(i 0).val / 10000, by rw [show cfg8.N = 10 from N_8]; omega⟩, flush8_6 _, ?_⟩
  rw [mem_blk]
  obtain ⟨-, -, -, -, -, -, -, -, -, -, e10, e11⟩ := block_index ⟨(i 0).val / 10000, by rw [show cfg8.N = 10 from N_8]; omega⟩
  intro a
  match a with
  | ⟨0, _⟩ =>
    show win8_6.index _ (0 : Fin 2) * 10000 ≤ (i 0).val ∧ (i 0).val < win8_6.index _ (0 : Fin 2) * 10000 + 10000
    rw [e10]; show (i 0).val / 10000 * 10000 ≤ (i 0).val ∧ (i 0).val < (i 0).val / 10000 * 10000 + 10000; omega
  | ⟨1, _⟩ =>
    show win8_6.index _ (1 : Fin 2) * 64 ≤ (i 1).val ∧ (i 1).val < win8_6.index _ (1 : Fin 2) * 64 + 64
    rw [e11]; omega

/-- THE OUTPUT ARRAY after the stage: every node row, beside its aggregated row, through the projection. -/
theorem reg8_value (c : Dev nD) (XL : FVec Ideal S100000x64 .f32) (H : FVec Ideal S100000x128 .f32) (WXL : FVec Ideal S64x64 .bf16)
    (WH : FVec Ideal S128x64 .bf16) (PB BB : FVec Ideal S64 .f32)
    (h0 : V c (Pipeline.arrRef spec8 0) = XL) (h1 : V c (Pipeline.arrRef spec8 1) = H) (h2 : V c (Pipeline.arrRef spec8 2) = WXL)
    (h3 : V c (Pipeline.arrRef spec8 3) = WH) (h4 : V c (Pipeline.arrRef spec8 4) = PB) (h5 : V c (Pipeline.arrRef spec8 5) = BB) :
    (dat8 (F := Ideal) V c).arrAt 6 cfg8.N = projArrK (n := 100000) XL H WXL WH PB BB :=
  (dat8 (F := Ideal) V c).arrAt_eq_of_cover 6 (projArrK (n := 100000) XL H WXL WH PB BB)
    (fun t _ => flushed_eq V c XL H WXL WH PB BB h0 h1 h2 h3 h4 h5 t) cover

end Cert.KernelIdeal.Reg8

end
-- ==== Proof.KT2.lean ====
/- The third edge type through the idealized kernel's program. The same chain as for the first type — index
  vectors and weights cut from the arguments, the edge network, the node-linear map, the aggregation on the
  host, the projection — one type further on in @main; the arguments are read back to the launch memory
  through the boundaries before, and the running sum now holds the second type's output added to what it held.
-/
import proofs.«410647_j53395033423884_2_alg».proof.Proof.KT1
import proofs.«410647_j53395033423884_2_alg».proof.Proof.KS2
import proofs.«410647_j53395033423884_2_alg».proof.Proof.KReg6
import proofs.«410647_j53395033423884_2_alg».proof.Proof.KReg7
import proofs.«410647_j53395033423884_2_alg».proof.Proof.KReg8

set_option maxRecDepth 16384

noncomputable section

namespace Cert.KernelIdeal.KT2

open Idealize.ShloMosaic Idealize.ShloMosaic.TcCoe Idealize.SL.Sem
open Cert.KernelIdeal Cert.KernelIdeal.Gen Cert.KernelIdeal.KVal Cert.KernelIdeal.KCut Cert.KernelIdeal.Take Cert.PreIdx Cert.Rows

variable (m : (ℓ : Loc nD τ sig) → Buf (Elt Ideal) ℓ) (ρ : Dev nD → PrngReg) (c : Dev nD)

/-! ## The type's operands, cut from the arguments -/

abbrev x : FVec Ideal S100000x64 .f32 := (m ((c : Thread nD τ).loc main_arg0))
abbrev src : IVec S500000 32 := idxVec_2_0 (m ((c : Thread nD τ).loc main_arg1))
abbrev dst : IVec S500000 32 := idxVec_2_1 (m ((c : Thread nD τ).loc main_arg1))
abbrev lw : FVec Ideal S64x64 .f32 := cut3 (F := Ideal) ![2, 0, 0] slices_S4x64x64_S1x64x64_2_0_0 (m ((c : Thread nD τ).loc main_arg2))
abbrev lb : FVec Ideal S64 .f32 := cut2 (F := Ideal) ![2, 0] slices_S4x64_S1x64_2_0 (m ((c : Thread nD τ).loc main_arg3))
abbrev w0 : FVec Ideal S64x64 .f32 := cut3 (F := Ideal) ![2, 0, 0] slices_S4x64x64_S1x64x64_2_0_0 (m ((c : Thread nD τ).loc main_arg4))
abbrev b0 : FVec Ideal S64 .f32 := cut2 (F := Ideal) ![2, 0] slices_S4x64_S1x64_2_0 (m ((c : Thread nD τ).loc main_arg5))
abbrev g : FVec Ideal S64 .f32 := cut2 (F := Ideal) ![2, 0] slices_S4x64_S1x64_2_0 (m ((c : Thread nD τ).loc main_arg6))
abbrev be : FVec Ideal S64 .f32 := cut2 (F := Ideal) ![2, 0] slices_S4x64_S1x64_2_0 (m ((c : Thread nD τ).loc main_arg7))
abbrev w1 : FVec Ideal S64x64 .f32 := cut3 (F := Ideal) ![2, 0, 0] slices_S4x64x64_S1x64x64_2_0_0 (m ((c : Thread nD τ).loc main_arg8))
abbrev b1 : FVec Ideal S64 .f32 := cut2 (F := Ideal) ![2, 0] slices_S4x64_S1x64_2_0 (m ((c : Thread nD τ).loc main_arg9))
abbrev pw : FVec Ideal S64x192 .f32 := cutP (F := Ideal) ![2, 0, 0] slices_S4x64x192_S1x64x192_2_0_0 (m ((c : Thread nD τ).loc main_arg10))
abbrev pb : FVec Ideal S64 .f32 := cut2 (F := Ideal) ![2, 0] slices_S4x64_S1x64_2_0 (m ((c : Thread nD τ).loc main_arg11))
abbrev bb : FVec Ideal S64 .f32 := cut2 (F := Ideal) ![2, 0] slices_S4x64_S1x64_2_0 (m ((c : Thread nD τ).loc main_arg12))

/-- The running sum as this type leaves it: what the type before held, plus that type's output. -/
abbrev accVal : FVec Ideal S100000x64 .f32 := addf (KT1.accVal m c) (KT1.outVal m c)
/-- This type's output. -/
abbrev outVal : FVec Ideal S100000x64 .f32 :=
  kOut (x m c) (src m c) (dst m c) (lw m c) (lb m c) (w0 m c) (b0 m c) (g m c) (be m c) (w1 m c) (b1 m c) (pw m c) (pb m c) (bb m c)

/-! ## The host stretch before the edge network, and the edge network (region 3) -/

theorem ea14 : W24 m ρ c (Proc.devRef .tc main_v112) = kEa (x m c) (src m c) (dst m c) :=
  (KS.A2_v112 (W20 m ρ c)).trans (by rw [KArgs.W20_arg0 m ρ c, KArgs.W20_arg1 m ρ c])
theorem w0t14 : W24 m ρ c (Proc.devRef .tc main_v116) = kWT (w0 m c) :=
  (KS.A2_v116 (W20 m ρ c)).trans (by rw [KArgs.W20_arg4 m ρ c])
theorem w1t14 : W24 m ρ c (Proc.devRef .tc main_v120) = kWT (w1 m c) :=
  (KS.A2_v120 (W20 m ρ c)).trans (by rw [KArgs.W20_arg8 m ρ c])
theorem b014 : W24 m ρ c (Proc.devRef .tc main_v122) = b0 m c :=
  (KS.A2_v122 (W20 m ρ c)).trans (by rw [KArgs.W20_arg5 m ρ c])
theorem b114 : W24 m ρ c (Proc.devRef .tc main_v124) = b1 m c :=
  (KS.A2_v124 (W20 m ρ c)).trans (by rw [KArgs.W20_arg9 m ρ c])
theorem g14 : W24 m ρ c (Proc.devRef .tc main_v126) = g m c :=
  (KS.A2_v126 (W20 m ρ c)).trans (by rw [KArgs.W20_arg6 m ρ c])
theorem be14 : W24 m ρ c (Proc.devRef .tc main_v128) = be m c :=
  (KS.A2_v128 (W20 m ρ c)).trans (by rw [KArgs.W20_arg7 m ρ c])
theorem src14 : W24 m ρ c (Proc.devRef .tc main_v106) = src m c :=
  (KS.A2_v106 (W20 m ρ c)).trans (by rw [KArgs.W20_arg1 m ρ c])
theorem dst14 : W24 m ρ c (Proc.devRef .tc main_v108) = dst m c :=
  (KS.A2_v108 (W20 m ρ c)).trans (by rw [KArgs.W20_arg1 m ρ c])
theorem acc14 : W24 m ρ c (Proc.devRef .tc main_v102) = accVal m c :=
  (KS.A2_v102 (W20 m ρ c)).trans (by rw [KT1.acc_end m ρ c, KT1.out_val m ρ c])

theorem e_val : W25 m ρ c (Proc.devRef .tc main_v129)
    = kE (x m c) (src m c) (dst m c) (w0 m c) (b0 m c) (g m c) (be m c) (w1 m c) (b1 m c) := by
  unfold kE
  exact (W25_arr m ρ c 7).trans (Reg6.reg6_value (V24 m ρ) c _ _ _ _ _ _ _
    (ea14 m ρ c) (w0t14 m ρ c) (b014 m ρ c) (g14 m ρ c) (be14 m ρ c) (w1t14 m ρ c) (b114 m ρ c))

theorem src15 : W25 m ρ c (Proc.devRef .tc main_v106) = src m c :=
  (W25_of_ne m ρ c main_v106 (by decide)).trans (src14 m ρ c)
theorem dst15 : W25 m ρ c (Proc.devRef .tc main_v108) = dst m c :=
  (W25_of_ne m ρ c main_v108 (by decide)).trans (dst14 m ρ c)
theorem acc15 : W25 m ρ c (Proc.devRef .tc main_v102) = accVal m c :=
  (W25_of_ne m ρ c main_v102 (by decide)).trans (acc14 m ρ c)

/-! ## The node-linear map (region 4) -/

theorem xl_val : W27 m ρ c (Proc.devRef .tc main_v136) = kXl (x m c) (lw m c) (lb m c) := by
  unfold kXl
  refine (W27_arr m ρ c 3).trans (Reg7.reg7_value (V26 m ρ) c _ _ _ ?_ ?_ ?_)
  · exact (KS.B2_keep_arg0 (W25 m ρ c)).trans (KArgs.W25_arg0 m ρ c)
  · exact (KS.B2_v133 (W25 m ρ c)).trans (by rw [KArgs.W25_arg2 m ρ c])
  · exact (KS.B2_v135 (W25 m ρ c)).trans (by rw [KArgs.W25_arg3 m ρ c])

theorem e17 : W27 m ρ c (Proc.devRef .tc main_v129)
    = kE (x m c) (src m c) (dst m c) (w0 m c) (b0 m c) (g m c) (be m c) (w1 m c) (b1 m c) :=
  (W27_of_ne m ρ c main_v129 (by decide)).trans ((KS.B2_keep_v129 (W25 m ρ c)).trans (e_val m ρ c))
theorem src17 : W27 m ρ c (Proc.devRef .tc main_v106) = src m c :=
  (W27_of_ne m ρ c main_v106 (by decide)).trans ((KS.B2_keep_v106 (W25 m ρ c)).trans (src15 m ρ c))
theorem dst17 : W27 m ρ c (Proc.devRef .tc main_v108) = dst m c :=
  (W27_of_ne m ρ c main_v108 (by decide)).trans ((KS.B2_keep_v108 (W25 m ρ c)).trans (dst15 m ρ c))
theorem acc17 : W27 m ρ c (Proc.devRef .tc main_v102) = accVal m c :=
  (W27_of_ne m ρ c main_v102 (by decide)).trans ((KS.B2_keep_v102 (W25 m ρ c)).trans (acc15 m ρ c))

/-! ## The aggregation on the host and the projection (region 5) -/

theorem out_val : W30 m ρ c (Proc.devRef .tc main_v152) = outVal m c := by
  unfold outVal kOut
  refine (W30_arr m ρ c 6).trans (Reg8.reg8_value (V29 m ρ) c _ _ _ _ _ _ ?_ ?_ ?_ ?_ ?_ ?_)
  · exact (KS.C2_keep_v136 (W27 m ρ c)).trans (xl_val m ρ c)
  · exact (KS.C2_v141 (W27 m ρ c)).trans (by rw [xl_val m ρ c, e17 m ρ c, src17 m ρ c, dst17 m ρ c])
  · exact (KS.C2_v146 (W27 m ρ c)).trans (by rw [KArgs.W27_arg10 m ρ c])
  · exact (KS.C2_v147 (W27 m ρ c)).trans (by rw [KArgs.W27_arg10 m ρ c])
  · exact (KS.C2_v149 (W27 m ρ c)).trans (by rw [KArgs.W27_arg11 m ρ c])
  · exact (KS.C2_v151 (W27 m ρ c)).trans (by rw [KArgs.W27_arg12 m ρ c])

/-- The running sum at the type's end. -/
theorem acc_end : W30 m ρ c (Proc.devRef .tc main_v102) = accVal m c :=
  (W30_of_ne m ρ c main_v102 (by decide)).trans ((KS.C2_keep_v102 (W27 m ρ c)).trans (acc17 m ρ c))

end Cert.KernelIdeal.KT2

end
-- ==== Proof.KTake3.lean ====
/- The three row-takings of the fourth edge type, each read as `takeFill`: the node features' rows at the type's
  source positions and at its destination positions, and the rows of the node-linear image at the source positions.
  Each is the fold of its 23 host operations from any contents `V`, read at the result buffer: a function of the
  table's and the position vector's contents in `V` alone.
-/
import proofs.«410647_j53395033423884_2_alg».proof.Proof.Gen.KernelIdeal.Launch
import proofs.«410647_j53395033423884_2_alg».proof.Proof.TakeMask
import Idealize.ShloMosaic.Lib.StableHlo.Run

set_option maxRecDepth 16384
set_option Elab.async false

noncomputable section

namespace Cert.KernelIdeal.KTake

open Cert.KernelIdeal Cert.KernelIdeal.Gen Cert.KernelIdeal.Take
open Idealize.ShloMosaic

variable {F : FTy → Type} [FloatOps F]

set_option maxHeartbeats 4000000 in
/-- The node features' rows at the source positions. -/
theorem take3_src (V : Valuation τ sig (Elt F)) :
    StableHlo.after (hostOps9_1 (F := F)) V (Proc.devRef .tc main_v160)
      = takeFill (V (Proc.devRef .tc main_arg0)) (V (Proc.devRef .tc main_v157)) := by
  simp only [hostOps9_1]; after_results_simp
  simp only [StableHlo.TRef.ofBuf, StableHlo.TRef.toBuf, cast_eq]
  rfl

set_option maxHeartbeats 4000000 in
/-- The node features' rows at the destination positions. -/
theorem take3_dst (V : Valuation τ sig (Elt F)) :
    StableHlo.after (hostOps9_2 (F := F)) V (Proc.devRef .tc main_v161)
      = takeFill (V (Proc.devRef .tc main_arg0)) (V (Proc.devRef .tc main_v159)) := by
  simp only [hostOps9_2]; after_results_simp
  simp only [StableHlo.TRef.ofBuf, StableHlo.TRef.toBuf, cast_eq]
  rfl

set_option maxHeartbeats 4000000 in
/-- The node-linear image's rows at the source positions. -/
theorem take3_xl (V : Valuation τ sig (Elt F)) :
    StableHlo.after (hostOps11 (F := F)) V (Proc.devRef .tc main_v188)
      = takeFill (V (Proc.devRef .tc main_v187)) (V (Proc.devRef .tc main_v157)) := by
  simp only [hostOps11]; after_results_simp
  simp only [StableHlo.TRef.ofBuf, StableHlo.TRef.toBuf, cast_eq]
  rfl

end Cert.KernelIdeal.KTake
-- ==== Proof.KS3.lean ====
import proofs.«410647_j53395033423884_2_alg».proof.Proof.Gen.KernelIdeal.Launch
import proofs.«410647_j53395033423884_2_alg».proof.Proof.KVal
import proofs.«410647_j53395033423884_2_alg».proof.Proof.KCut
import proofs.«410647_j53395033423884_2_alg».proof.Proof.PreIdx
import proofs.«410647_j53395033423884_2_alg».proof.Proof.KTake3
import Idealize.ShloMosaic.Lib.StableHlo.Run

/-!
# The host stretches of one edge type, read as functions

Between two kernel launches the program runs a straight line of array operations. For one edge type the lines
are read here as functions of the arrays they start from:

* `A`: the index vectors cut out of the edge-index array, the two row reads of the node features and
  their absolute difference (the edge attributes), and the type's edge-network weights cut out of the
  stacked weights (matrices transposed);
* `B`: the node-linear weight and bias;
* `C`: the source rows of the node-linear output read, laid beside the edge-network output and added
  into the destination rows from zero, and the projection weight transposed and cut in its first 64 and last
  128 rows, with the two biases.

Each fact says what one array holds after the line, in terms of what the arrays held before it.
-/

set_option Elab.async false

noncomputable section

namespace Cert.KernelIdeal.KS

open Idealize.ShloMosaic Idealize.SL.Sem Idealize.ShloMosaic.TcCoe
open Cert.KernelIdeal Cert.KernelIdeal.Gen Cert.KernelIdeal.Take Cert.KernelIdeal.KCut Cert.KernelIdeal.KVal Cert.KernelIdeal.KTake Cert.PreIdx

/-! ## Type 3 -/

/-- The line before the edge network's launch. -/
abbrev A3 (V : Valuation τ sig (Elt Ideal)) : Valuation τ sig (Elt Ideal) :=
  StableHlo.after hostOps9_3 (StableHlo.after hostOps9_2 (StableHlo.after hostOps9_1 (StableHlo.after hostOps9 V)))

/-- The line before the node-linear launch. -/
abbrev B3 (V : Valuation τ sig (Elt Ideal)) : Valuation τ sig (Elt Ideal) :=
  StableHlo.after hostOps10 V

/-- The line before the projection's launch. -/
abbrev C3 (V : Valuation τ sig (Elt Ideal)) : Valuation τ sig (Elt Ideal) :=
  StableHlo.after hostOps11_1 (StableHlo.after hostOps11 V)

/-! The edge attributes, stretch by stretch: the index vectors, the two row reads, the absolute difference. -/

theorem A3z_keep_arg0 (W : Valuation τ sig (Elt Ideal)) :
    StableHlo.after hostOps9 W (Proc.devRef .tc main_arg0) = W (Proc.devRef .tc main_arg0) := by
  simp only [hostOps9]
  after_results_simp

theorem A3z_v157 (W : Valuation τ sig (Elt Ideal)) :
    StableHlo.after hostOps9 W (Proc.devRef .tc main_v157) = idxVec_3_0 (W (Proc.devRef .tc main_arg1)) := by
  simp only [hostOps9]
  after_results_simp
  rfl

theorem A3z_v159 (W : Valuation τ sig (Elt Ideal)) :
    StableHlo.after hostOps9 W (Proc.devRef .tc main_v159) = idxVec_3_1 (W (Proc.devRef .tc main_arg1)) := by
  simp only [hostOps9]
  after_results_simp
  rfl

set_option maxHeartbeats 4000000 in
theorem A3a_keep_arg0 (W : Valuation τ sig (Elt Ideal)) :
    StableHlo.after hostOps9_1 W (Proc.devRef .tc main_arg0) = W (Proc.devRef .tc main_arg0) := by
  simp only [hostOps9_1]
  after_results_simp

set_option maxHeartbeats 4000000 in
theorem A3a_keep_v159 (W : Valuation τ sig (Elt Ideal)) :
    StableHlo.after hostOps9_1 W (Proc.devRef .tc main_v159) = W (Proc.devRef .tc main_v159) := by
  simp only [hostOps9_1]
  after_results_simp

set_option maxHeartbeats 4000000 in
theorem A3b_keep_v160 (W : Valuation τ sig (Elt Ideal)) :
    StableHlo.after hostOps9_2 W (Proc.devRef .tc main_v160) = W (Proc.devRef .tc main_v160) := by
  simp only [hostOps9_2]
  after_results_simp

theorem A3c_v163 (W : Valuation τ sig (Elt Ideal)) :
    StableHlo.after hostOps9_3 W (Proc.devRef .tc main_v163)
      = Host.absf (subf (F := Ideal) (s := S500000x64) (φ := .f32) (W (Proc.devRef .tc main_v160)) (W (Proc.devRef .tc main_v161))) := by
  simp only [hostOps9_3]
  after_results_simp

theorem A3_v163 (V : Valuation τ sig (Elt Ideal)) :
    A3 V (Proc.devRef .tc main_v163)
      = kEa (V (Proc.devRef .tc main_arg0)) (idxVec_3_0 (V (Proc.devRef .tc main_arg1))) (idxVec_3_1 (V (Proc.devRef .tc main_arg1))) := by
  show StableHlo.after hostOps9_3 (StableHlo.after hostOps9_2 (StableHlo.after hostOps9_1 (StableHlo.after hostOps9 V)))
    (Proc.devRef .tc main_v163) = _
  rw [A3c_v163, A3b_keep_v160, take3_src, take3_dst, A3a_keep_arg0, A3a_keep_v159, A3z_keep_arg0, A3z_v157, A3z_v159]
  rfl

set_option maxHeartbeats 4000000 in
theorem A3_v167 (V : Valuation τ sig (Elt Ideal)) :
    A3 V (Proc.devRef .tc main_v167) = kWT (cut3 (F := Ideal) ![3, 0, 0] slices_S4x64x64_S1x64x64_3_0_0 (V (Proc.devRef .tc main_arg4))) := by
  simp only [A3, hostOps9, hostOps9_1, hostOps9_2, hostOps9_3]
  after_results_simp
  rfl

set_option maxHeartbeats 4000000 in
theorem A3_v171 (V : Valuation τ sig (Elt Ideal)) :
    A3 V (Proc.devRef .tc main_v171) = kWT (cut3 (F := Ideal) ![3, 0, 0] slices_S4x64x64_S1x64x64_3_0_0 (V (Proc.devRef .tc main_arg8))) := by
  simp only [A3, hostOps9, hostOps9_1, hostOps9_2, hostOps9_3]
  after_results_simp
  rfl

set_option maxHeartbeats 4000000 in
theorem A3_v173 (V : Valuation τ sig (Elt Ideal)) :
    A3 V (Proc.devRef .tc main_v173) = cut2 (F := Ideal) ![3, 0] slices_S4x64_S1x64_3_0 (V (Proc.devRef .tc main_arg5)) := by
  simp only [A3, hostOps9, hostOps9_1, hostOps9_2, hostOps9_3]
  after_results_simp
  rfl

set_option maxHeartbeats 4000000 in
theorem A3_v175 (V : Valuation τ sig (Elt Ideal)) :
    A3 V (Proc.devRef .tc main_v175) = cut2 (F := Ideal) ![3, 0] slices_S4x64_S1x64_3_0 (V (Proc.devRef .tc main_arg9)) := by
  simp only [A3, hostOps9, hostOps9_1, hostOps9_2, hostOps9_3]
  after_results_simp
  rfl

set_option maxHeartbeats 4000000 in
theorem A3_v177 (V : Valuation τ sig (Elt Ideal)) :
    A3 V (Proc.devRef .tc main_v177) = cut2 (F := Ideal) ![3, 0] slices_S4x64_S1x64_3_0 (V (Proc.devRef .tc main_arg6)) := by
  simp only [A3, hostOps9, hostOps9_1, hostOps9_2, hostOps9_3]
  after_results_simp
  rfl

set_option maxHeartbeats 4000000 in
theorem A3_v179 (V : Valuation τ sig (Elt Ideal)) :
    A3 V (Proc.devRef .tc main_v179) = cut2 (F := Ideal) ![3, 0] slices_S4x64_S1x64_3_0 (V (Proc.devRef .tc main_arg7)) := by
  simp only [A3, hostOps9, hostOps9_1, hostOps9_2, hostOps9_3]
  after_results_simp
  rfl

set_option maxHeartbeats 4000000 in
theorem A3_v157 (V : Valuation τ sig (Elt Ideal)) :
    A3 V (Proc.devRef .tc main_v157) = idxVec_3_0 (V (Proc.devRef .tc main_arg1)) := by
  simp only [A3, hostOps9, hostOps9_1, hostOps9_2, hostOps9_3]
  after_results_simp
  rfl

set_option maxHeartbeats 4000000 in
theorem A3_v159 (V : Valuation τ sig (Elt Ideal)) :
    A3 V (Proc.devRef .tc main_v159) = idxVec_3_1 (V (Proc.devRef .tc main_arg1)) := by
  simp only [A3, hostOps9, hostOps9_1, hostOps9_2, hostOps9_3]
  after_results_simp
  rfl

set_option maxHeartbeats 4000000 in
theorem A3_v153 (V : Valuation τ sig (Elt Ideal)) :
    A3 V (Proc.devRef .tc main_v153)
      = addf (F := Ideal) (s := S100000x64) (φ := .f32) (V (Proc.devRef .tc main_v102)) (V (Proc.devRef .tc main_v152)) := by
  simp only [A3, hostOps9, hostOps9_1, hostOps9_2, hostOps9_3]
  after_results_simp

set_option maxHeartbeats 4000000 in
theorem B3_v184 (V : Valuation τ sig (Elt Ideal)) :
    B3 V (Proc.devRef .tc main_v184) = kWT (cut3 (F := Ideal) ![3, 0, 0] slices_S4x64x64_S1x64x64_3_0_0 (V (Proc.devRef .tc main_arg2))) := by
  simp only [B3, hostOps10]
  after_results_simp
  rfl

set_option maxHeartbeats 4000000 in
theorem B3_v186 (V : Valuation τ sig (Elt Ideal)) :
    B3 V (Proc.devRef .tc main_v186) = cut2 (F := Ideal) ![3, 0] slices_S4x64_S1x64_3_0 (V (Proc.devRef .tc main_arg3)) := by
  simp only [B3, hostOps10]
  after_results_simp
  rfl

theorem B3_keep_arg0 (V : Valuation τ sig (Elt Ideal)) :
    B3 V (Proc.devRef .tc main_arg0) = V (Proc.devRef .tc main_arg0) := by
  simp only [B3, hostOps10]
  after_results_simp

theorem B3_keep_v157 (V : Valuation τ sig (Elt Ideal)) :
    B3 V (Proc.devRef .tc main_v157) = V (Proc.devRef .tc main_v157) := by
  simp only [B3, hostOps10]
  after_results_simp

theorem B3_keep_v159 (V : Valuation τ sig (Elt Ideal)) :
    B3 V (Proc.devRef .tc main_v159) = V (Proc.devRef .tc main_v159) := by
  simp only [B3, hostOps10]
  after_results_simp

theorem B3_keep_v180 (V : Valuation τ sig (Elt Ideal)) :
    B3 V (Proc.devRef .tc main_v180) = V (Proc.devRef .tc main_v180) := by
  simp only [B3, hostOps10]
  after_results_simp

theorem B3_keep_v153 (V : Valuation τ sig (Elt Ideal)) :
    B3 V (Proc.devRef .tc main_v153) = V (Proc.devRef .tc main_v153) := by
  simp only [B3, hostOps10]
  after_results_simp

/-! The aggregated rows, stretch by stretch: the source rows read, then laid beside the edge-network output
and added into the destination rows from zero. -/

set_option maxHeartbeats 4000000 in
theorem C3a_keep_v180 (W : Valuation τ sig (Elt Ideal)) :
    StableHlo.after hostOps11 W (Proc.devRef .tc main_v180) = W (Proc.devRef .tc main_v180) := by
  simp only [hostOps11]
  after_results_simp

set_option maxHeartbeats 4000000 in
theorem C3a_keep_v159 (W : Valuation τ sig (Elt Ideal)) :
    StableHlo.after hostOps11 W (Proc.devRef .tc main_v159) = W (Proc.devRef .tc main_v159) := by
  simp only [hostOps11]
  after_results_simp

theorem C3b_v192 (W : Valuation τ sig (Elt Ideal)) :
    StableHlo.after hostOps11_1 W (Proc.devRef .tc main_v192)
      = Host.scatterAdd (F := Ideal) scatter_S100000x128_S500000x1_S500000x128_1_0_0_1
          (broadcastInDim S100000x128 ![] bcast_S_S100000x128 (constant (F := Ideal) S_ .f32 0x00000000#32))
          (broadcastInDim S500000x1 ![0] bcast_S500000_S500000x1_0 (W (Proc.devRef .tc main_v159)))
          (concatenate S500000x128 1 [⟨S500000x64, W (Proc.devRef .tc main_v188)⟩, ⟨S500000x64, W (Proc.devRef .tc main_v180)⟩]
            concatenates_S500000x64_S500000x64_S500000x128_d1) := by
  simp only [hostOps11_1]
  after_results_simp

theorem C3_v192 (V : Valuation τ sig (Elt Ideal)) :
    C3 V (Proc.devRef .tc main_v192)
      = kH (V (Proc.devRef .tc main_v187)) (V (Proc.devRef .tc main_v180)) (V (Proc.devRef .tc main_v157)) (V (Proc.devRef .tc main_v159)) := by
  show StableHlo.after hostOps11_1 (StableHlo.after hostOps11 V) (Proc.devRef .tc main_v192) = _
  rw [C3b_v192, C3a_keep_v180, C3a_keep_v159, take3_xl]
  rfl

set_option maxHeartbeats 4000000 in
theorem C3_v197 (V : Valuation τ sig (Elt Ideal)) :
    C3 V (Proc.devRef .tc main_v197)
      = extractStridedSlice S64x64 ![0, 0]
          (kPWT (cutP (F := Ideal) ![3, 0, 0] slices_S4x64x192_S1x64x192_3_0_0 (V (Proc.devRef .tc main_arg10)))) slices_S192x64_S64x64_0_0 := by
  simp only [C3, hostOps11, hostOps11_1]
  after_results_simp
  rfl

set_option maxHeartbeats 4000000 in
theorem C3_v198 (V : Valuation τ sig (Elt Ideal)) :
    C3 V (Proc.devRef .tc main_v198)
      = extractStridedSlice S128x64 ![64, 0]
          (kPWT (cutP (F := Ideal) ![3, 0, 0] slices_S4x64x192_S1x64x192_3_0_0 (V (Proc.devRef .tc main_arg10)))) slices_S192x64_S128x64_64_0 := by
  simp only [C3, hostOps11, hostOps11_1]
  after_results_simp
  rfl

set_option maxHeartbeats 4000000 in
theorem C3_v200 (V : Valuation τ sig (Elt Ideal)) :
    C3 V (Proc.devRef .tc main_v200) = cut2 (F := Ideal) ![3, 0] slices_S4x64_S1x64_3_0 (V (Proc.devRef .tc main_arg11)) := by
  simp only [C3, hostOps11, hostOps11_1]
  after_results_simp
  rfl

set_option maxHeartbeats 4000000 in
theorem C3_v202 (V : Valuation τ sig (Elt Ideal)) :
    C3 V (Proc.devRef .tc main_v202) = cut2 (F := Ideal) ![3, 0] slices_S4x64_S1x64_3_0 (V (Proc.devRef .tc main_arg12)) := by
  simp only [C3, hostOps11, hostOps11_1]
  after_results_simp
  rfl

set_option maxHeartbeats 4000000 in
theorem C3_keep_v187 (V : Valuation τ sig (Elt Ideal)) :
    C3 V (Proc.devRef .tc main_v187) = V (Proc.devRef .tc main_v187) := by
  simp only [C3, hostOps11, hostOps11_1]
  after_results_simp

set_option maxHeartbeats 4000000 in
theorem C3_keep_v153 (V : Valuation τ sig (Elt Ideal)) :
    C3 V (Proc.devRef .tc main_v153) = V (Proc.devRef .tc main_v153) := by
  simp only [C3, hostOps11, hostOps11_1]
  after_results_simp

end Cert.KernelIdeal.KS

end
-- ==== Proof.KReg9.lean ====
/-
  The edge network of one edge type, as a whole array.

  The stage walks the edge-attribute array in fifty blocks of 10000 rows. At a block it sends each row through the
  two-layer edge network (affine map, positive part, LayerNorm over the 64 hidden entries, second affine map) and
  writes the block of results back to the same rows of the output array; the two weights, the two biases, the gain
  and the shift are read whole at every block. Row `R` of the output is therefore written by the block
  `R / 10000`, from row `R` of the attribute array, and after the last block the output array holds `edgeArr` of the
  seven input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg9

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the attribute block and the output block are block `t` of their arrays
    (rows `10000 t …`, all 64 columns); the six small arrays are read whole at every point. -/
theorem block_index : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 1) = 0 ∧ win9_3.index t (0 : Fin 1) = 0 ∧ win9_4.index t (0 : Fin 1) = 0
    ∧ win9_5.index t (0 : Fin 2) = 0 ∧ win9_5.index t (1 : Fin 2) = 0
    ∧ win9_6.index t (0 : Fin 1) = 0
    ∧ win9_7.index t (0 : Fin 2) = t.val ∧ win9_7.index t (1 : Fin 2) = 0 :=
  (by decide +kernel : ∀ t : Fin grid9.N, _)

/-- The seven input blocks at a point, each at its literal type. -/
abbrev eablk (c : Dev nD) (t : Fin cfg9.N) : Vec Ideal S10000x64 .f32 := iblk9 V c 0 t
abbrev w0blk (c : Dev nD) (t : Fin cfg9.N) : Vec Ideal S64x64 .bf16 := iblk9 V c 1 t
abbrev b0blk (c : Dev nD) (t : Fin cfg9.N) : Vec Ideal S64 .f32 := iblk9 V c 2 t
abbrev gblk (c : Dev nD) (t : Fin cfg9.N) : Vec Ideal S64 .f32 := iblk9 V c 3 t
abbrev beblk (c : Dev nD) (t : Fin cfg9.N) : Vec Ideal S64 .f32 := iblk9 V c 4 t
abbrev w1blk (c : Dev nD) (t : Fin cfg9.N) : Vec Ideal S64x64 .bf16 := iblk9 V c 5 t
abbrev b1blk (c : Dev nD) (t : Fin cfg9.N) : Vec Ideal S64 .f32 := iblk9 V c 6 t

/-- Row `r` of the attribute block at point `t` is row `10000 t + r` of the attribute array. -/
theorem eablk_apply (c : Dev nD) (EA : FVec Ideal S500000x64 .f32) (h0 : V c (Pipeline.arrRef spec9 0) = EA)
    (t : Fin cfg9.N) (r : Fin 10000) (k : Fin 64) (R : Fin 500000) (hR : R.val = t.val * 10000 + r.val) :
    eablk V c t (ix2 r k) = EA (ix2 R k) := by
  obtain ⟨e0, e1, -⟩ := block_index t
  show V c (Pipeline.arrRef spec9 0) (((cfg9.win 0).blk t).view.emb (ix2 r k)) = EA (ix2 R k)
  rw [h0]
  congr 1
  funext a; apply Fin.ext
  match a with
  | ⟨0, _⟩ => show win9_0.index t (0 : Fin 2) * 10000 + 1 * r.val = R.val; omega
  | ⟨1, _⟩ => show win9_0.index t (1 : Fin 2) * 64 + 1 * k.val = k.val; omega

/-- The first weight's block at any point is the weight array. -/
theorem w0blk_apply (c : Dev nD) (W0T : FVec Ideal S64x64 .bf16) (h1 : V c (Pipeline.arrRef spec9 1) = W0T)
    (t : Fin cfg9.N) (a b : Fin 64) : w0blk V c t (ix2 a b) = W0T (ix2 a b) := by
  obtain ⟨-, -, e2, e3, -⟩ := block_index t
  show V c (Pipeline.arrRef spec9 1) (((cfg9.win 1).blk t).view.emb (ix2 a b)) = W0T (ix2 a b)
  rw [h1]
  congr 1
  funext d; apply Fin.ext
  match d with
  | ⟨0, _⟩ => show win9_1.index t (0 : Fin 2) * 64 + 1 * a.val = a.val; omega
  | ⟨1, _⟩ => show win9_1.index t (1 : Fin 2) * 64 + 1 * b.val = b.val; omega

/-- The first bias's block at any point is the bias array. -/
theorem b0blk_apply (c : Dev nD) (B0 : FVec Ideal S64 .f32) (h2 : V c (Pipeline.arrRef spec9 2) = B0)
    (t : Fin cfg9.N) (k : Fin 64) : b0blk V c t (ix1 k) = B0 (ix1 k) := by
  obtain ⟨-, -, -, -, e4, -⟩ := block_index t
  show V c (Pipeline.arrRef spec9 2) (((cfg9.win 2).blk t).view.emb (ix1 k)) = B0 (ix1 k)
  rw [h2]
  congr 1
  funext d; apply Fin.ext
  match d with
  | ⟨0, _⟩ => show win9_2.index t (0 : Fin 1) * 64 + 1 * k.val = k.val; omega

/-- The gain's block at any point is the gain array. -/
theorem gblk_apply (c : Dev nD) (G : FVec Ideal S64 .f32) (h3 : V c (Pipeline.arrRef spec9 3) = G)
    (t : Fin cfg9.N) (k : Fin 64) : gblk V c t (ix1 k) = G (ix1 k) := by
  obtain ⟨-, -, -, -, -, e5, -⟩ := block_index t
  show V c (Pipeline.arrRef spec9 3) (((cfg9.win 3).blk t).view.emb (ix1 k)) = G (ix1 k)
  rw [h3]
  congr 1
  funext d; apply Fin.ext
  match d with
  | ⟨0, _⟩ => show win9_3.index t (0 : Fin 1) * 64 + 1 * k.val = k.val; omega

/-- The shift's block at any point is the shift array. -/
theorem beblk_apply (c : Dev nD) (BE : FVec Ideal S64 .f32) (h4 : V c (Pipeline.arrRef spec9 4) = BE)
    (t : Fin cfg9.N) (k : Fin 64) : beblk V c t (ix1 k) = BE (ix1 k) := by
  obtain ⟨-, -, -, -, -, -, e6, -⟩ := block_index t
  show V c (Pipeline.arrRef spec9 4) (((cfg9.win 4).blk t).view.emb (ix1 k)) = BE (ix1 k)
  rw [h4]
  congr 1
  funext d; apply Fin.ext
  match d with
  | ⟨0, _⟩ => show win9_4.index t (0 : Fin 1) * 64 + 1 * k.val = k.val; omega

/-- The second weight's block at any point is the weight array. -/
theorem w1blk_apply (c : Dev nD) (W1T : FVec Ideal S64x64 .bf16) (h5 : V c (Pipeline.arrRef spec9 5) = W1T)
    (t : Fin cfg9.N) (a b : Fin 64) : w1blk V c t (ix2 a b) = W1T (ix2 a b) := by
  obtain ⟨-, -, -, -, -, -, -, e7, e8, -⟩ := block_index t
  show V c (Pipeline.arrRef spec9 5) (((cfg9.win 5).blk t).view.emb (ix2 a b)) = W1T (ix2 a b)
  rw [h5]
  congr 1
  funext d; apply Fin.ext
  match d with
  | ⟨0, _⟩ => show win9_5.index t (0 : Fin 2) * 64 + 1 * a.val = a.val; omega
  | ⟨1, _⟩ => show win9_5.index t (1 : Fin 2) * 64 + 1 * b.val = b.val; omega

/-- The second bias's block at any point is the bias array. -/
theorem b1blk_apply (c : Dev nD) (B1 : FVec Ideal S64 .f32) (h6 : V c (Pipeline.arrRef spec9 6) = B1)
    (t : Fin cfg9.N) (k : Fin 64) : b1blk V c t (ix1 k) = B1 (ix1 k) := by
  obtain ⟨-, -, -, -, -, -, -, -, -, e9, -⟩ := block_index t
  show V c (Pipeline.arrRef spec9 6) (((cfg9.win 6).blk t).view.emb (ix1 k)) = B1 (ix1 k)
  rw [h6]
  congr 1
  funext d; apply Fin.ext
  match d with
  | ⟨0, _⟩ => show win9_6.index t (0 : Fin 1) * 64 + 1 * k.val = k.val; omega

/-- The stage's payload at an entry of a block is the edge network of the block's row. -/
theorem pay_apply (v0 : Vec Ideal S10000x64 .f32) (v3 : Vec Ideal S64x64 .bf16) (v6 v31 v36 : Vec Ideal S64 .f32)
    (v42 : Vec Ideal S64x64 .bf16) (v45 : Vec Ideal S64 .f32) (r : Fin 10000) (j : Fin 64) :
    k9_pay1 (F := Ideal) (k9_pay2 v0 v3 v6 v31 v36) v42 v45 (ix2 r j)
      = edgeRow (fun c => v0 (ix2 r c)) (fun a b => v3 (ix2 a b)) (fun k => v6 (ix1 k)) (fun k => v31 (ix1 k))
          (fun k => v36 (ix1 k)) (fun a b => v42 (ix2 a b)) (fun k => v45 (ix1 k)) j :=
  by rw [Pay.k9_pay1_eq, Pay.k9_pay2_eq]; exact Pay.edge_pay v0 v3 v6 v31 v36 v42 v45 r j

/-- Entry `(r, q)` of the output block at point `t` is entry `(10000 t + r, q)` of the output array. -/
theorem out_emb (t : Fin cfg9.N) (r : Fin 10000) (q : Fin 64) (R : Fin 500000) (hR : R.val = t.val * 10000 + r.val) :
    ((cfg9.win 7).blk t).view.emb (ix2 r q) = (ix2 R q : S500000x64.Idx) := by
  obtain ⟨-, -, -, -, -, -, -, -, -, -, e10, e11⟩ := block_index t
  funext a; apply Fin.ext
  match a with
  | ⟨0, _⟩ => show win9_7.index t (0 : Fin 2) * 10000 + 1 * r.val = R.val; omega
  | ⟨1, _⟩ => show win9_7.index t (1 : Fin 2) * 64 + 1 * q.val = q.val; omega

/-- What point `t` writes back is block `t` of `edgeArr` of the seven arrays as the stage finds them. -/
theorem flushed_eq (c : Dev nD) (EA : FVec Ideal S500000x64 .f32) (W0T : FVec Ideal S64x64 .bf16) (B0 G BE : FVec Ideal S64 .f32)
    (W1T : FVec Ideal S64x64 .bf16) (B1 : FVec Ideal S64 .f32)
    (h0 : V c (Pipeline.arrRef spec9 0) = EA) (h1 : V c (Pipeline.arrRef spec9 1) = W0T) (h2 : V c (Pipeline.arrRef spec9 2) = B0)
    (h3 : V c (Pipeline.arrRef spec9 3) = G) (h4 : V c (Pipeline.arrRef spec9 4) = BE) (h5 : V c (Pipeline.arrRef spec9 5) = W1T)
    (h6 : V c (Pipeline.arrRef spec9 6) = B1) (t : Fin cfg9.N) :
    (dat9 (F := Ideal) V c).flushed 7 t = ((cfg9.win 7).blk t).view.read (Elt Ideal) (edgeArr (n := 500000) EA W0T B0 G BE W1T B1) := by
  show (cfg9.win 7).cut (grid9.coords t) ((dat9 (F := Ideal) V c).after 7 t) = _
  rw [after9_7]
  unfold out9_7
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  have hlt : t.val < 50 := lt_of_lt_of_eq t.isLt N_9
  have hR : (⟨t.val * 10000 + r.val, by omega⟩ : Fin 500000).val = t.val * 10000 + r.val := rfl
  show k9_pay1 (F := Ideal) (k9_pay2 (eablk V c t) (w0blk V c t) (b0blk V c t) (gblk V c t) (beblk V c t)) (w1blk V c t) (b1blk V c t) (ix2 r q)
    = edgeArr (n := 500000) EA W0T B0 G BE W1T B1 (((cfg9.win 7).blk t).view.emb (ix2 r q))
  rw [out_emb t r q _ hR]
  refine (pay_apply (eablk V c t) (w0blk V c t) (b0blk V c t) (gblk V c t) (beblk V c t) (w1blk V c t) (b1blk V c t) r q).trans ?_
  show edgeRow _ _ _ _ _ _ _ q = edgeRow _ _ _ _ _ _ _ q
  congr 1
  · funext k; exact eablk_apply V c EA h0 t r k _ hR
  · funext a b; exact w0blk_apply V c W0T h1 t a b
  · funext k; exact b0blk_apply V c B0 h2 t k
  · funext k; exact gblk_apply V c G h3 t k
  · funext k; exact beblk_apply V c BE h4 t k
  · funext a b; exact w1blk_apply V c W1T h5 t a b
  · funext k; exact b1blk_apply V c B1 h6 t k

/-- An index of the output array is in point `t`'s block iff each coordinate is in the block's range on its axis. -/
theorem mem_blk (t : Fin cfg9.N) (i : S500000x64.Idx) :
    i ∈ ((cfg9.win 7).blk t).view.set ↔ ∀ a : Fin 2, win9_7.index t a * S10000x64.size a ≤ (i a).val ∧ (i a).val < win9_7.index t a * S10000x64.size a + S10000x64.size a := by
  show i ∈ ((View.whole (Pipeline.arrRef spec9 7)).slice (win9_7.rect t)).set ↔ _
  rw [View.set_slice_whole, Rect.mem_set_unit]
  exact Iff.rfl

/-- Every row of the output array is in some point's block: row `R` in block `R / 10000`. -/
theorem cover (i : S500000x64.Idx) : ∃ t : Fin cfg9.N, (cfg9.win 7).flush t = true ∧ i ∈ ((cfg9.win 7).blk t).view.set := by
  have h0 : (i 0).val < 500000 := idx2_lt0 i
  have h1 : (i 1).val < 64 := idx2_lt1 i
  refine ⟨⟨(i 0).val / 10000, by rw [show cfg9.N = 50 from N_9]; omega⟩, flush9_7 _, ?_⟩
  rw [mem_blk]
  obtain ⟨-, -, -, -, -, -, -, -, -, -, e10, e11⟩ := block_index ⟨(i 0).val / 10000, by rw [show cfg9.N = 50 from N_9]; omega⟩
  intro a
  match a with
  | ⟨0, _⟩ =>
    show win9_7.index _ (0 : Fin 2) * 10000 ≤ (i 0).val ∧ (i 0).val < win9_7.index _ (0 : Fin 2) * 10000 + 10000
    rw [e10]; show (i 0).val / 10000 * 10000 ≤ (i 0).val ∧ (i 0).val < (i 0).val / 10000 * 10000 + 10000; omega
  | ⟨1, _⟩ =>
    show win9_7.index _ (1 : Fin 2) * 64 ≤ (i 1).val ∧ (i 1).val < win9_7.index _ (1 : Fin 2) * 64 + 64
    rw [e11]; omega

/-- THE OUTPUT ARRAY after the stage: every row of the attribute array through the edge network. -/
theorem reg9_value (c : Dev nD) (EA : FVec Ideal S500000x64 .f32) (W0T : FVec Ideal S64x64 .bf16) (B0 G BE : FVec Ideal S64 .f32)
    (W1T : FVec Ideal S64x64 .bf16) (B1 : FVec Ideal S64 .f32)
    (h0 : V c (Pipeline.arrRef spec9 0) = EA) (h1 : V c (Pipeline.arrRef spec9 1) = W0T) (h2 : V c (Pipeline.arrRef spec9 2) = B0)
    (h3 : V c (Pipeline.arrRef spec9 3) = G) (h4 : V c (Pipeline.arrRef spec9 4) = BE) (h5 : V c (Pipeline.arrRef spec9 5) = W1T)
    (h6 : V c (Pipeline.arrRef spec9 6) = B1) :
    (dat9 (F := Ideal) V c).arrAt 7 cfg9.N = edgeArr (n := 500000) EA W0T B0 G BE W1T B1 :=
  (dat9 (F := Ideal) V c).arrAt_eq_of_cover 7 (edgeArr (n := 500000) EA W0T B0 G BE W1T B1)
    (fun t _ => flushed_eq V c EA W0T B0 G BE W1T B1 h0 h1 h2 h3 h4 h5 h6 t) cover

end Cert.KernelIdeal.Reg9

end
-- ==== Proof.KReg10.lean ====
/-
  The linear stage of one edge type, as a whole array.

  The stage walks the node array in ten blocks of 10000 rows. At a block it multiplies the block's rows by the
  transposed weight and adds the bias, row by row, and writes the block of results back to the same rows of the
  output array. Row `R` of the output is therefore written by the block `R / 10000`, from row `R` of the node
  array and the whole weight and bias, and after the last block the output array holds `linArr` of the three
  input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg10

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the node block and the output block are block `t` of their arrays
    (rows `10000 t …`, all 64 columns); the weight and the bias are read whole at every point. -/
theorem block_index : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 1) = 0
    ∧ win10_3.index t (0 : Fin 2) = t.val ∧ win10_3.index t (1 : Fin 2) = 0 :=
  (by decide +kernel : ∀ t : Fin grid10.N, _)

/-- The three input blocks at a point, each at its literal type. -/
abbrev xblk (c : Dev nD) (t : Fin cfg10.N) : Vec Ideal S10000x64 .f32 := iblk10 V c 0 t
abbrev wblk (c : Dev nD) (t : Fin cfg10.N) : Vec Ideal S64x64 .bf16 := iblk10 V c 1 t
abbrev bblk (c : Dev nD) (t : Fin cfg10.N) : Vec Ideal S64 .f32 := iblk10 V c 2 t

/-- Row `r` of the node block at point `t` is row `10000 t + r` of the node array. -/
theorem xblk_apply (c : Dev nD) (X : FVec Ideal S100000x64 .f32) (hX : V c (Pipeline.arrRef spec10 0) = X)
    (t : Fin cfg10.N) (r : Fin 10000) (k : Fin 64) (R : Fin 100000) (hR : R.val = t.val * 10000 + r.val) :
    xblk V c t (ix2 r k) = X (ix2 R k) := by
  obtain ⟨e0, e1, -⟩ := block_index t
  show V c (Pipeline.arrRef spec10 0) (((cfg10.win 0).blk t).view.emb (ix2 r k)) = X (ix2 R k)
  rw [hX]
  congr 1
  funext a; apply Fin.ext
  match a with
  | ⟨0, _⟩ => show win10_0.index t (0 : Fin 2) * 10000 + 1 * r.val = R.val; omega
  | ⟨1, _⟩ => show win10_0.index t (1 : Fin 2) * 64 + 1 * k.val = k.val; omega

/-- The weight block at any point is the weight array. -/
theorem wblk_apply (c : Dev nD) (WT : FVec Ideal S64x64 .bf16) (hW : V c (Pipeline.arrRef spec10 1) = WT)
    (t : Fin cfg10.N) (a b : Fin 64) : wblk V c t (ix2 a b) = WT (ix2 a b) := by
  obtain ⟨-, -, e2, e3, -⟩ := block_index t
  show V c (Pipeline.arrRef spec10 1) (((cfg10.win 1).blk t).view.emb (ix2 a b)) = WT (ix2 a b)
  rw [hW]
  congr 1
  funext d; apply Fin.ext
  match d with
  | ⟨0, _⟩ => show win10_1.index t (0 : Fin 2) * 64 + 1 * a.val = a.val; omega
  | ⟨1, _⟩ => show win10_1.index t (1 : Fin 2) * 64 + 1 * b.val = b.val; omega

/-- The bias block at any point is the bias array. -/
theorem bblk_apply (c : Dev nD) (B : FVec Ideal S64 .f32) (hB : V c (Pipeline.arrRef spec10 2) = B)
    (t : Fin cfg10.N) (k : Fin 64) : bblk V c t (ix1 k) = B (ix1 k) := by
  obtain ⟨-, -, -, -, e4, -⟩ := block_index t
  show V c (Pipeline.arrRef spec10 2) (((cfg10.win 2).blk t).view.emb (ix1 k)) = B (ix1 k)
  rw [hB]
  congr 1
  funext d; apply Fin.ext
  match d with
  | ⟨0, _⟩ => show win10_2.index t (0 : Fin 1) * 64 + 1 * k.val = k.val; omega

/-- The stage's payload at an entry of a block is the linear map of the block's row. -/
theorem pay_apply (v0 : Vec Ideal S10000x64 .f32) (v2 : Vec Ideal S64x64 .bf16) (v5 : Vec Ideal S64 .f32) (r : Fin 10000) (j : Fin 64) :
    k10_pay1 (F := Ideal) v0 v2 v5 (ix2 r j)
      = linRow (fun k => v0 (ix2 r k)) (fun a b => v2 (ix2 a b)) (fun k => v5 (ix1 k)) j :=
  by rw [Pay.k10_pay1_eq]; exact Pay.lin_pay v0 v2 v5 r j

/-- Entry `(r, q)` of the output block at point `t` is entry `(10000 t + r, q)` of the output array. -/
theorem out_emb (t : Fin cfg10.N) (r : Fin 10000) (q : Fin 64) (R : Fin 100000) (hR : R.val = t.val * 10000 + r.val) :
    ((cfg10.win 3).blk t).view.emb (ix2 r q) = (ix2 R q : S100000x64.Idx) := by
  obtain ⟨-, -, -, -, -, e5, e6⟩ := block_index t
  funext a; apply Fin.ext
  match a with
  | ⟨0, _⟩ => show win10_3.index t (0 : Fin 2) * 10000 + 1 * r.val = R.val; omega
  | ⟨1, _⟩ => show win10_3.index t (1 : Fin 2) * 64 + 1 * q.val = q.val; omega

/-- What point `t` writes back is block `t` of `linArr` of the three arrays as the stage finds them. -/
theorem flushed_eq (c : Dev nD) (X : FVec Ideal S100000x64 .f32) (WT : FVec Ideal S64x64 .bf16) (B : FVec Ideal S64 .f32)
    (hX : V c (Pipeline.arrRef spec10 0) = X) (hW : V c (Pipeline.arrRef spec10 1) = WT) (hB : V c (Pipeline.arrRef spec10 2) = B)
    (t : Fin cfg10.N) :
    (dat10 (F := Ideal) V c).flushed 3 t = ((cfg10.win 3).blk t).view.read (Elt Ideal) (linArr (n := 100000) X WT B) := by
  show (cfg10.win 3).cut (grid10.coords t) ((dat10 (F := Ideal) V c).after 3 t) = _
  rw [after10_3]
  unfold out10_3
  rw [View.canon_unit_zero zero2]
  simp only [View.ld_unit_zero (S := S10000x64) zero2, View.ld_unit_zero (S := S64x64) zero2, View.ld_unit_zero (S := S64) zero1]
  funext j
  obtain ⟨r, q, rfl⟩ : ∃ (r : Fin 10000) (q : Fin 64), j = ix2 r q := ⟨j 0, j 1, eq_ix2 j⟩
  have hlt : t.val < 10 := lt_of_lt_of_eq t.isLt N_10
  have hR : (⟨t.val * 10000 + r.val, by omega⟩ : Fin 100000).val = t.val * 10000 + r.val := rfl
  show k10_pay1 (F := Ideal) (xblk V c t) (wblk V c t) (bblk V c t) (ix2 r q)
    = linArr (n := 100000) X WT B (((cfg10.win 3).blk t).view.emb (ix2 r q))
  rw [out_emb t r q _ hR]
  refine (pay_apply (xblk V c t) (wblk V c t) (bblk V c t) r q).trans ?_
  show linRow _ _ _ q = linRow _ _ _ q
  congr 1
  · funext k; exact xblk_apply V c X hX t r k _ hR
  · funext a b; exact wblk_apply V c WT hW t a b
  · funext k; exact bblk_apply V c B hB t k

/-- An index of the output array is in point `t`'s block iff each coordinate is in the block's range on its axis. -/
theorem mem_blk (t : Fin cfg10.N) (i : S100000x64.Idx) :
    i ∈ ((cfg10.win 3).blk t).view.set ↔ ∀ a : Fin 2, win10_3.index t a * S10000x64.size a ≤ (i a).val ∧ (i a).val < win10_3.index t a * S10000x64.size a + S10000x64.size a := by
  show i ∈ ((View.whole (Pipeline.arrRef spec10 3)).slice (win10_3.rect t)).set ↔ _
  rw [View.set_slice_whole, Rect.mem_set_unit]
  exact Iff.rfl

/-- Every row of the output array is in some point's block: row `R` in block `R / 10000`. -/
theorem cover (i : S100000x64.Idx) : ∃ t : Fin cfg10.N, (cfg10.win 3).flush t = true ∧ i ∈ ((cfg10.win 3).blk t).view.set := by
  have h0 : (i 0).val < 100000 := idx2_lt0 i
  have h1 : (i 1).val < 64 := idx2_lt1 i
  refine ⟨⟨(i 0).val / 10000, by rw [show cfg10.N = 10 from N_10]; omega⟩, flush10_3 _, ?_⟩
  rw [mem_blk]
  obtain ⟨-, -, -, -, -, e5, e6⟩ := block_index ⟨(i 0).val / 10000, by rw [show cfg10.N = 10 from N_10]; omega⟩
  intro a
  match a with
  | ⟨0, _⟩ =>
    show win10_3.index _ (0 : Fin 2) * 10000 ≤ (i 0).val ∧ (i 0).val < win10_3.index _ (0 : Fin 2) * 10000 + 10000
    rw [e5]; show (i 0).val / 10000 * 10000 ≤ (i 0).val ∧ (i 0).val < (i 0).val / 10000 * 10000 + 10000; omega
  | ⟨1, _⟩ =>
    show win10_3.index _ (1 : Fin 2) * 64 ≤ (i 1).val ∧ (i 1).val < win10_3.index _ (1 : Fin 2) * 64 + 64
    rw [e6]; omega

/-- THE OUTPUT ARRAY after the stage: every row of the node array through the linear map. -/
theorem reg10_value (c : Dev nD) (X : FVec Ideal S100000x64 .f32) (WT : FVec Ideal S64x64 .bf16) (B : FVec Ideal S64 .f32)
    (hX : V c (Pipeline.arrRef spec10 0) = X) (hW : V c (Pipeline.arrRef spec10 1) = WT) (hB : V c (Pipeline.arrRef spec10 2) = B) :
    (dat10 (F := Ideal) V c).arrAt 3 cfg10.N = linArr (n := 100000) X WT B :=
  (dat10 (F := Ideal) V c).arrAt_eq_of_cover 3 (linArr (n := 100000) X WT B)
    (fun t _ => flushed_eq V c X WT B hX hW hB t) cover

end Cert.KernelIdeal.Reg10

end
-- ==== Proof.KReg11.lean ====
/-
  The output projection of one edge type, as a whole array.

  The stage walks the node rows in ten blocks of 10000. At a block it multiplies the block's rows of the linear
  stage's output by the node part of the projection weight, the same rows of the aggregated messages by the
  aggregated part, adds the two products and the two biases, row by row, and writes the block of results back to
  the same rows of the output array; the two weights and the two biases are read whole at every block. Row `R`
  of the output is therefore written by the block `R / 10000`, from row `R` of the two row arrays, and after the
  last block the output array holds `projArrK` of the six input arrays.
-/
import proofs.«410647_j53395033423884_2_alg».proof.Proof.Spec
import proofs.«410647_j53395033423884_2_alg».proof.Proof.Gen.KernelIdeal.Frame
import proofs.«410647_j53395033423884_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg11

open Cert.KernelIdeal Cert.KernelIdeal.Gen Cert.Rows

variable (V : (c : Dev nD) → (b : Ref sig .tc) → Buf (Elt Ideal) ((c : Thread nD τ).loc b))

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- Where the blocks sit: at point `t` the two row blocks and the output block are block `t` of their arrays
    (rows `10000 t …`, every column); the two weights and the two biases are read whole at every point. -/
theorem block_index : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 1) = 0 ∧ win11_5.index t (0 : Fin 1) = 0
    ∧ win11_6.index t (0 : Fin 2) = t.val ∧ win11_6.index t (1 : Fin 2) = 0 :=
  (by decide +kernel : ∀ t : Fin grid11.N, _)

/-- The six input blocks at a point, each at its literal type. -/
abbrev xlblk (c : Dev nD) (t : Fin cfg11.N) : Vec Ideal S10000x64 .f32 := iblk11 V c 0 t
abbrev hblk (c : Dev nD) (t : Fin cfg11.N) : Vec Ideal S10000x128 .f32 := iblk11 V c 1 t
abbrev wxlblk (c : Dev nD) (t : Fin cfg11.N) : Vec Ideal S64x64 .bf16 := iblk11 V c 2 t
abbrev whblk (c : Dev nD) (t : Fin cfg11.N) : Vec Ideal S128x64 .bf16 := iblk11 V c 3 t
abbrev pbblk (c : Dev nD) (t : Fin cfg11.N) : Vec Ideal S64 .f32 := iblk11 V c 4 t
abbrev bbblk (c : Dev nD) (t : Fin cfg11.N) : Vec Ideal S64 .f32 := iblk11 V c 5 t

/-- Row `r` of the node-part block at point `t` is row `10000 t + r` of its array. -/
theorem xlblk_apply (c : Dev nD) (XL : FVec Ideal S100000x64 .f32) (h0 : V c (Pipeline.arrRef spec11 0) = XL)
    (t : Fin cfg11.N) (r : Fin 10000) (k : Fin 64) (R : Fin 100000) (hR : R.val = t.val * 10000 + r.val) :
    xlblk V c t (ix2 r k) = XL (ix2 R k) := by
  obtain ⟨e0, e1, -⟩ := block_index t
  show V c (Pipeline.arrRef spec11 0) (((cfg11.win 0).blk t).view.emb (ix2 r k)) = XL (ix2 R k)
  rw [h0]
  congr 1
  funext a; apply Fin.ext
  match a with
  | ⟨0, _⟩ => show win11_0.index t (0 : Fin 2) * 10000 + 1 * r.val = R.val; omega
  | ⟨1, _⟩ => show win11_0.index t (1 : Fin 2) * 64 + 1 * k.val = k.val; omega

/-- Row `r` of the aggregated block at point `t` is row `10000 t + r` of the aggregated array. -/
theorem hblk_apply (c : Dev nD) (H : FVec Ideal S100000x128 .f32) (h1 : V c (Pipeline.arrRef spec11 1) = H)
    (t : Fin cfg11.N) (r : Fin 10000) (k : Fin 128) (R : Fin 100000) (hR : R.val = t.val * 10000 + r.val) :
    hblk V c t (ix2 r k) = H (ix2 R k) := by
  obtain ⟨-, -, e2, e3, -⟩ := block_index t
  show V c (Pipeline.arrRef spec11 1) (((cfg11.win 1).blk t).view.emb (ix2 r k)) = H (ix2 R k)
  rw [h1]
  congr 1
  funext a; apply Fin.ext
  match a with
  | ⟨0, _⟩ => show win11_1.index t (0 : Fin 2) * 10000 + 1 * r.val = R.val; omega
  | ⟨1, _⟩ => show win11_1.index t (1 : Fin 2) * 128 + 1 * k.val = k.val; omega

/-- The node-part weight's block at any point is the weight array. -/
theorem wxlblk_apply (c : Dev nD) (WXL : FVec Ideal S64x64 .bf16) (h2 : V c (Pipeline.arrRef spec11 2) = WXL)
    (t : Fin cfg11.N) (a b : Fin 64) : wxlblk V c t (ix2 a b) = WXL (ix2 a b) := by
  obtain ⟨-, -, -, -, e4, e5, -⟩ := block_index t
  show V c (Pipeline.arrRef spec11 2) (((cfg11.win 2).blk t).view.emb (ix2 a b)) = WXL (ix2 a b)
  rw [h2]
  congr 1
  funext d; apply Fin.ext
  match d with
  | ⟨0, _⟩ => show win11_2.index t (0 : Fin 2) * 64 + 1 * a.val = a.val; omega
  | ⟨1, _⟩ => show win11_2.index t (1 : Fin 2) * 64 + 1 * b.val = b.val; omega

/-- The aggregated-part weight's block at any point is the weight array. -/
theorem whblk_apply (c : Dev nD) (WH : FVec Ideal S128x64 .bf16) (h3 : V c (Pipeline.arrRef spec11 3) = WH)
    (t : Fin cfg11.N) (a : Fin 128) (b : Fin 64) : whblk V c t (ix2 a b) = WH (ix2 a b) := by
  obtain ⟨-, -, -, -, -, -, e6, e7, -⟩ := block_index t
  show V c (Pipeline.arrRef spec11 3) (((cfg11.win 3).blk t).view.emb (ix2 a b)) = WH (ix2 a b)
  rw [h3]
  congr 1
  funext d; apply Fin.ext
  match d with
  | ⟨0, _⟩ => show win11_3.index t (0 : Fin 2) * 128 + 1 * a.val = a.val; omega
  | ⟨1, _⟩ => show win11_3.index t (1 : Fin 2) * 64 + 1 * b.val = b.val; omega

/-- The projection bias's block at any point is the bias array. -/
theorem pbblk_apply (c : Dev nD) (PB : FVec Ideal S64 .f32) (h4 : V c (Pipeline.arrRef spec11 4) = PB)
    (t : Fin cfg11.N) (k : Fin 64) : pbblk V c t (ix1 k) = PB (ix1 k) := by
  obtain ⟨-, -, -, -, -, -, -, -, e8, -⟩ := block_index t
  show V c (Pipeline.arrRef spec11 4) (((cfg11.win 4).blk t).view.emb (ix1 k)) = PB (ix1 k)
  rw [h4]
  congr 1
  funext d; apply Fin.ext
  match d with
  | ⟨0, _⟩ => show win11_4.index t (0 : Fin 1) * 64 + 1 * k.val = k.val; omega

/-- The layer bias's block at any point is the bias array. -/
theorem bbblk_apply (c : Dev nD) (BB : FVec Ideal S64 .f32) (h5 : V c (Pipeline.arrRef spec11 5) = BB)
    (t : Fin cfg11.N) (k : Fin 64) : bbblk V c t (ix1 k) = BB (ix1 k) := by
  obtain ⟨-, -, -, -, -, -, -, -, -, e9, -⟩ := block_index t
  show V c (Pipeline.arrRef spec11 5) (((cfg11.win 5).blk t).view.emb (ix1 k)) = BB (ix1 k)
  rw [h5]
  congr 1
  funext d; apply Fin.ext
  match d with
  | ⟨0, _⟩ => show win11_5.index t (0 : Fin 1) * 64 + 1 * k.val = k.val; omega

/-- The stage's payload at an entry of a block is the projection of the two blocks' rows. -/
theorem pay_apply (v0 : Vec Ideal S10000x64 .f32) (v3 : Vec Ideal S10000x128 .f32) (v6 : Vec Ideal S64x64 .bf16)
    (v8 : Vec Ideal S128x64 .bf16) (v13 v18 : Vec Ideal S64 .f32) (r : Fin 10000) (j : Fin 64) :
    k11_pay1 (F := Ideal) v0 v3 v6 v8 v13 v18 (ix2 r j)
      = projRowK (fun k => v0 (ix2 r k)) (fun k => v3 (ix2 r k)) (fun a b => v6 (ix2 a b)) (fun a b => v8 (ix2 a b))
          (fun k => v13 (ix1 k)) (fun k => v18 (ix1 k)) j :=
  by rw [Pay.k11_pay1_eq]; exact Pay.proj_pay v0 v3 v6 v8 v13 v18 r j

/-- Entry `(r, q)` of the output block at point `t` is entry `(10000 t + r, q)` of the output array. -/
theorem out_emb (t : Fin cfg11.N) (r : Fin 10000) (q : Fin 64) (R : Fin 100000) (hR : R.val = t.val * 10000 + r.val) :
    ((cfg11.win 6).blk t).view.emb (ix2 r q) = (ix2 R q : S100000x64.Idx) := by
  obtain ⟨-, -, -, -, -, -, -, -, -, -, e10, e11⟩ := block_index t
  funext a; apply Fin.ext
  match a with
  | ⟨0, _⟩ => show win11_6.index t (0 : Fin 2) * 10000 + 1 * r.val = R.val; omega
  | ⟨1, _⟩ => show win11_6.index t (1 : Fin 2) * 64 + 1 * q.val = q.val; omega

/-- What point `t` writes back is block `t` of `projArrK` of the six arrays as the stage finds them. -/
theorem flushed_eq (c : Dev nD) (XL : FVec Ideal S100000x64 .f32) (H : FVec Ideal S100000x128 .f32) (WXL : FVec Ideal S64x64 .bf16)
    (WH : FVec Ideal S128x64 .bf16) (PB BB : FVec Ideal S64 .f32)
    (h0 : V c (Pipeline.arrRef spec11 0) = XL) (h1 : V c (Pipeline.arrRef spec11 1) = H) (h2 : V c (Pipeline.arrRef spec11 2) = WXL)
    (h3 : V c (Pipeline.arrRef spec11 3) = WH) (h4 : V c (Pipeline.arrRef spec11 4) = PB) (h5 : V c (Pipeline.arrRef spec11 5) = BB)
    (t : Fin cfg11.N) :
    (dat11 (F := Ideal) V c).flushed 6 t = ((cfg11.win 6).blk t).view.read (Elt Ideal) (projArrK (n := 100000) XL H WXL WH PB BB) := by
  show (cfg11.win 6).cut (grid11.coords t) ((dat11 (F := Ideal) V c).after 6 t) = _
  rw [after11_6]
  unfold out11_6
  rw [View.canon_unit_zero zero2]
  simp only [View.ld_unit_zero (S := S10000x64) zero2, View.ld_unit_zero (S := S10000x128) zero2, View.ld_unit_zero (S := S64x64) zero2,
    View.ld_unit_zero (S := S128x64) zero2, View.ld_unit_zero (S := S64) zero1]
  funext j
  obtain ⟨r, q, rfl⟩ : ∃ (r : Fin 10000) (q : Fin 64), j = ix2 r q := ⟨j 0, j 1, eq_ix2 j⟩
  have hlt : t.val < 10 := lt_of_lt_of_eq t.isLt N_11
  have hR : (⟨t.val * 10000 + r.val, by omega⟩ : Fin 100000).val = t.val * 10000 + r.val := rfl
  show k11_pay1 (F := Ideal) (xlblk V c t) (hblk V c t) (wxlblk V c t) (whblk V c t) (pbblk V c t) (bbblk V c t) (ix2 r q)
    = projArrK (n := 100000) XL H WXL WH PB BB (((cfg11.win 6).blk t).view.emb (ix2 r q))
  rw [out_emb t r q _ hR]
  refine (pay_apply (xlblk V c t) (hblk V c t) (wxlblk V c t) (whblk V c t) (pbblk V c t) (bbblk V c t) r q).trans ?_
  show projRowK _ _ _ _ _ _ q = projRowK _ _ _ _ _ _ q
  congr 1
  · funext k; exact xlblk_apply V c XL h0 t r k _ hR
  · funext k; exact hblk_apply V c H h1 t r k _ hR
  · funext a b; exact wxlblk_apply V c WXL h2 t a b
  · funext a b; exact whblk_apply V c WH h3 t a b
  · funext k; exact pbblk_apply V c PB h4 t k
  · funext k; exact bbblk_apply V c BB h5 t k

/-- An index of the output array is in point `t`'s block iff each coordinate is in the block's range on its axis. -/
theorem mem_blk (t : Fin cfg11.N) (i : S100000x64.Idx) :
    i ∈ ((cfg11.win 6).blk t).view.set ↔ ∀ a : Fin 2, win11_6.index t a * S10000x64.size a ≤ (i a).val ∧ (i a).val < win11_6.index t a * S10000x64.size a + S10000x64.size a := by
  show i ∈ ((View.whole (Pipeline.arrRef spec11 6)).slice (win11_6.rect t)).set ↔ _
  rw [View.set_slice_whole, Rect.mem_set_unit]
  exact Iff.rfl

/-- Every row of the output array is in some point's block: row `R` in block `R / 10000`. -/
theorem cover (i : S100000x64.Idx) : ∃ t : Fin cfg11.N, (cfg11.win 6).flush t = true ∧ i ∈ ((cfg11.win 6).blk t).view.set := by
  have h0 : (i 0).val < 100000 := idx2_lt0 i
  have h1 : (i 1).val < 64 := idx2_lt1 i
  refine ⟨⟨(i 0).val / 10000, by rw [show cfg11.N = 10 from N_11]; omega⟩, flush11_6 _, ?_⟩
  rw [mem_blk]
  obtain ⟨-, -, -, -, -, -, -, -, -, -, e10, e11⟩ := block_index ⟨(i 0).val / 10000, by rw [show cfg11.N = 10 from N_11]; omega⟩
  intro a
  match a with
  | ⟨0, _⟩ =>
    show win11_6.index _ (0 : Fin 2) * 10000 ≤ (i 0).val ∧ (i 0).val < win11_6.index _ (0 : Fin 2) * 10000 + 10000
    rw [e10]; show (i 0).val / 10000 * 10000 ≤ (i 0).val ∧ (i 0).val < (i 0).val / 10000 * 10000 + 10000; omega
  | ⟨1, _⟩ =>
    show win11_6.index _ (1 : Fin 2) * 64 ≤ (i 1).val ∧ (i 1).val < win11_6.index _ (1 : Fin 2) * 64 + 64
    rw [e11]; omega

/-- THE OUTPUT ARRAY after the stage: every node row, beside its aggregated row, through the projection. -/
theorem reg11_value (c : Dev nD) (XL : FVec Ideal S100000x64 .f32) (H : FVec Ideal S100000x128 .f32) (WXL : FVec Ideal S64x64 .bf16)
    (WH : FVec Ideal S128x64 .bf16) (PB BB : FVec Ideal S64 .f32)
    (h0 : V c (Pipeline.arrRef spec11 0) = XL) (h1 : V c (Pipeline.arrRef spec11 1) = H) (h2 : V c (Pipeline.arrRef spec11 2) = WXL)
    (h3 : V c (Pipeline.arrRef spec11 3) = WH) (h4 : V c (Pipeline.arrRef spec11 4) = PB) (h5 : V c (Pipeline.arrRef spec11 5) = BB) :
    (dat11 (F := Ideal) V c).arrAt 6 cfg11.N = projArrK (n := 100000) XL H WXL WH PB BB :=
  (dat11 (F := Ideal) V c).arrAt_eq_of_cover 6 (projArrK (n := 100000) XL H WXL WH PB BB)
    (fun t _ => flushed_eq V c XL H WXL WH PB BB h0 h1 h2 h3 h4 h5 t) cover

end Cert.KernelIdeal.Reg11

end
-- ==== Proof.KT3.lean ====
/- The fourth edge type through the idealized kernel's program. The same chain as for the first type — index
  vectors and weights cut from the arguments, the edge network, the node-linear map, the aggregation on the
  host, the projection — one type further on in @main; the arguments are read back to the launch memory
  through the boundaries before, and the running sum now holds the third type's output added to what it held.
-/
import proofs.«410647_j53395033423884_2_alg».proof.Proof.KT2
import proofs.«410647_j53395033423884_2_alg».proof.Proof.KS3
import proofs.«410647_j53395033423884_2_alg».proof.Proof.KReg9
import proofs.«410647_j53395033423884_2_alg».proof.Proof.KReg10
import proofs.«410647_j53395033423884_2_alg».proof.Proof.KReg11

set_option maxRecDepth 16384

noncomputable section

namespace Cert.KernelIdeal.KT3

open Idealize.ShloMosaic Idealize.ShloMosaic.TcCoe Idealize.SL.Sem
open Cert.KernelIdeal Cert.KernelIdeal.Gen Cert.KernelIdeal.KVal Cert.KernelIdeal.KCut Cert.KernelIdeal.Take Cert.PreIdx Cert.Rows

variable (m : (ℓ : Loc nD τ sig) → Buf (Elt Ideal) ℓ) (ρ : Dev nD → PrngReg) (c : Dev nD)

/-! ## The type's operands, cut from the arguments -/

abbrev x : FVec Ideal S100000x64 .f32 := (m ((c : Thread nD τ).loc main_arg0))
abbrev src : IVec S500000 32 := idxVec_3_0 (m ((c : Thread nD τ).loc main_arg1))
abbrev dst : IVec S500000 32 := idxVec_3_1 (m ((c : Thread nD τ).loc main_arg1))
abbrev lw : FVec Ideal S64x64 .f32 := cut3 (F := Ideal) ![3, 0, 0] slices_S4x64x64_S1x64x64_3_0_0 (m ((c : Thread nD τ).loc main_arg2))
abbrev lb : FVec Ideal S64 .f32 := cut2 (F := Ideal) ![3, 0] slices_S4x64_S1x64_3_0 (m ((c : Thread nD τ).loc main_arg3))
abbrev w0 : FVec Ideal S64x64 .f32 := cut3 (F := Ideal) ![3, 0, 0] slices_S4x64x64_S1x64x64_3_0_0 (m ((c : Thread nD τ).loc main_arg4))
abbrev b0 : FVec Ideal S64 .f32 := cut2 (F := Ideal) ![3, 0] slices_S4x64_S1x64_3_0 (m ((c : Thread nD τ).loc main_arg5))
abbrev g : FVec Ideal S64 .f32 := cut2 (F := Ideal) ![3, 0] slices_S4x64_S1x64_3_0 (m ((c : Thread nD τ).loc main_arg6))
abbrev be : FVec Ideal S64 .f32 := cut2 (F := Ideal) ![3, 0] slices_S4x64_S1x64_3_0 (m ((c : Thread nD τ).loc main_arg7))
abbrev w1 : FVec Ideal S64x64 .f32 := cut3 (F := Ideal) ![3, 0, 0] slices_S4x64x64_S1x64x64_3_0_0 (m ((c : Thread nD τ).loc main_arg8))
abbrev b1 : FVec Ideal S64 .f32 := cut2 (F := Ideal) ![3, 0] slices_S4x64_S1x64_3_0 (m ((c : Thread nD τ).loc main_arg9))
abbrev pw : FVec Ideal S64x192 .f32 := cutP (F := Ideal) ![3, 0, 0] slices_S4x64x192_S1x64x192_3_0_0 (m ((c : Thread nD τ).loc main_arg10))
abbrev pb : FVec Ideal S64 .f32 := cut2 (F := Ideal) ![3, 0] slices_S4x64_S1x64_3_0 (m ((c : Thread nD τ).loc main_arg11))
abbrev bb : FVec Ideal S64 .f32 := cut2 (F := Ideal) ![3, 0] slices_S4x64_S1x64_3_0 (m ((c : Thread nD τ).loc main_arg12))

/-- The running sum as this type leaves it: what the type before held, plus that type's output. -/
abbrev accVal : FVec Ideal S100000x64 .f32 := addf (KT2.accVal m c) (KT2.outVal m c)
/-- This type's output. -/
abbrev outVal : FVec Ideal S100000x64 .f32 :=
  kOut (x m c) (src m c) (dst m c) (lw m c) (lb m c) (w0 m c) (b0 m c) (g m c) (be m c) (w1 m c) (b1 m c) (pw m c) (pb m c) (bb m c)

/-! ## The host stretch before the edge network, and the edge network (region 3) -/

theorem ea14 : W34 m ρ c (Proc.devRef .tc main_v163) = kEa (x m c) (src m c) (dst m c) :=
  (KS.A3_v163 (W30 m ρ c)).trans (by rw [KArgs.W30_arg0 m ρ c, KArgs.W30_arg1 m ρ c])
theorem w0t14 : W34 m ρ c (Proc.devRef .tc main_v167) = kWT (w0 m c) :=
  (KS.A3_v167 (W30 m ρ c)).trans (by rw [KArgs.W30_arg4 m ρ c])
theorem w1t14 : W34 m ρ c (Proc.devRef .tc main_v171) = kWT (w1 m c) :=
  (KS.A3_v171 (W30 m ρ c)).trans (by rw [KArgs.W30_arg8 m ρ c])
theorem b014 : W34 m ρ c (Proc.devRef .tc main_v173) = b0 m c :=
  (KS.A3_v173 (W30 m ρ c)).trans (by rw [KArgs.W30_arg5 m ρ c])
theorem b114 : W34 m ρ c (Proc.devRef .tc main_v175) = b1 m c :=
  (KS.A3_v175 (W30 m ρ c)).trans (by rw [KArgs.W30_arg9 m ρ c])
theorem g14 : W34 m ρ c (Proc.devRef .tc main_v177) = g m c :=
  (KS.A3_v177 (W30 m ρ c)).trans (by rw [KArgs.W30_arg6 m ρ c])
theorem be14 : W34 m ρ c (Proc.devRef .tc main_v179) = be m c :=
  (KS.A3_v179 (W30 m ρ c)).trans (by rw [KArgs.W30_arg7 m ρ c])
theorem src14 : W34 m ρ c (Proc.devRef .tc main_v157) = src m c :=
  (KS.A3_v157 (W30 m ρ c)).trans (by rw [KArgs.W30_arg1 m ρ c])
theorem dst14 : W34 m ρ c (Proc.devRef .tc main_v159) = dst m c :=
  (KS.A3_v159 (W30 m ρ c)).trans (by rw [KArgs.W30_arg1 m ρ c])
theorem acc14 : W34 m ρ c (Proc.devRef .tc main_v153) = accVal m c :=
  (KS.A3_v153 (W30 m ρ c)).trans (by rw [KT2.acc_end m ρ c, KT2.out_val m ρ c])

theorem e_val : W35 m ρ c (Proc.devRef .tc main_v180)
    = kE (x m c) (src m c) (dst m c) (w0 m c) (b0 m c) (g m c) (be m c) (w1 m c) (b1 m c) := by
  unfold kE
  exact (W35_arr m ρ c 7).trans (Reg9.reg9_value (V34 m ρ) c _ _ _ _ _ _ _
    (ea14 m ρ c) (w0t14 m ρ c) (b014 m ρ c) (g14 m ρ c) (be14 m ρ c) (w1t14 m ρ c) (b114 m ρ c))

theorem src15 : W35 m ρ c (Proc.devRef .tc main_v157) = src m c :=
  (W35_of_ne m ρ c main_v157 (by decide)).trans (src14 m ρ c)
theorem dst15 : W35 m ρ c (Proc.devRef .tc main_v159) = dst m c :=
  (W35_of_ne m ρ c main_v159 (by decide)).trans (dst14 m ρ c)
theorem acc15 : W35 m ρ c (Proc.devRef .tc main_v153) = accVal m c :=
  (W35_of_ne m ρ c main_v153 (by decide)).trans (acc14 m ρ c)

/-! ## The node-linear map (region 4) -/

theorem xl_val : W37 m ρ c (Proc.devRef .tc main_v187) = kXl (x m c) (lw m c) (lb m c) := by
  unfold kXl
  refine (W37_arr m ρ c 3).trans (Reg10.reg10_value (V36 m ρ) c _ _ _ ?_ ?_ ?_)
  · exact (KS.B3_keep_arg0 (W35 m ρ c)).trans (KArgs.W35_arg0 m ρ c)
  · exact (KS.B3_v184 (W35 m ρ c)).trans (by rw [KArgs.W35_arg2 m ρ c])
  · exact (KS.B3_v186 (W35 m ρ c)).trans (by rw [KArgs.W35_arg3 m ρ c])

theorem e17 : W37 m ρ c (Proc.devRef .tc main_v180)
    = kE (x m c) (src m c) (dst m c) (w0 m c) (b0 m c) (g m c) (be m c) (w1 m c) (b1 m c) :=
  (W37_of_ne m ρ c main_v180 (by decide)).trans ((KS.B3_keep_v180 (W35 m ρ c)).trans (e_val m ρ c))
theorem src17 : W37 m ρ c (Proc.devRef .tc main_v157) = src m c :=
  (W37_of_ne m ρ c main_v157 (by decide)).trans ((KS.B3_keep_v157 (W35 m ρ c)).trans (src15 m ρ c))
theorem dst17 : W37 m ρ c (Proc.devRef .tc main_v159) = dst m c :=
  (W37_of_ne m ρ c main_v159 (by decide)).trans ((KS.B3_keep_v159 (W35 m ρ c)).trans (dst15 m ρ c))
theorem acc17 : W37 m ρ c (Proc.devRef .tc main_v153) = accVal m c :=
  (W37_of_ne m ρ c main_v153 (by decide)).trans ((KS.B3_keep_v153 (W35 m ρ c)).trans (acc15 m ρ c))

/-! ## The aggregation on the host and the projection (region 5) -/

theorem out_val : W40 m ρ c (Proc.devRef .tc main_v203) = outVal m c := by
  unfold outVal kOut
  refine (W40_arr m ρ c 6).trans (Reg11.reg11_value (V39 m ρ) c _ _ _ _ _ _ ?_ ?_ ?_ ?_ ?_ ?_)
  · exact (KS.C3_keep_v187 (W37 m ρ c)).trans (xl_val m ρ c)
  · exact (KS.C3_v192 (W37 m ρ c)).trans (by rw [xl_val m ρ c, e17 m ρ c, src17 m ρ c, dst17 m ρ c])
  · exact (KS.C3_v197 (W37 m ρ c)).trans (by rw [KArgs.W37_arg10 m ρ c])
  · exact (KS.C3_v198 (W37 m ρ c)).trans (by rw [KArgs.W37_arg10 m ρ c])
  · exact (KS.C3_v200 (W37 m ρ c)).trans (by rw [KArgs.W37_arg11 m ρ c])
  · exact (KS.C3_v202 (W37 m ρ c)).trans (by rw [KArgs.W37_arg12 m ρ c])

/-- The running sum at the type's end. -/
theorem acc_end : W40 m ρ c (Proc.devRef .tc main_v153) = accVal m c :=
  (W40_of_ne m ρ c main_v153 (by decide)).trans ((KS.C3_keep_v153 (W37 m ρ c)).trans (acc17 m ρ c))

end Cert.KernelIdeal.KT3

end
-- ==== Proof.KWeights.lean ====
import proofs.«410647_j53395033423884_2_alg».proof.KernelIdeal
import proofs.«410647_j53395033423884_2_alg».proof.ReferenceIdeal
import proofs.«410647_j53395033423884_2_alg».proof.Proof.Gen.KernelIdeal
import proofs.«410647_j53395033423884_2_alg».proof.Proof.Gen.ReferenceIdeal
import proofs.«410647_j53395033423884_2_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# Weights and the last step, on the extended reals

* A change of float format is the identity, and the first 64 / last 128 rows of the transposed projection
  weight are its slices at row offsets 0 / 64.
* The last step of the layer: one program adds the four per-type outputs to zero one after the other and
  scales by a quarter; the other stacks them along a new leading axis, sums that axis from zero and divides
  by four. Entry by entry both are the mean of the four values.
-/

noncomputable section

namespace Cert.KWeights

open Idealize.ShloMosaic Idealize.ShloMosaic.ValueIdx

/-! ## Format changes and row blocks -/

/-- Narrowing the float format does nothing on the extended reals. -/
theorem trunc_id {S : Shape} (w : FVec Ideal S .f32) (h : FTy.bits .bf16 < FTy.bits .f32) :
    (truncf .bf16 w h : FVec Ideal S .bf16) = w := rfl

/-- The slice of 64 rows at row offset 0 is the first 64 rows. -/
theorem top_rows (p : FVec Ideal Cert.KernelIdeal.S192x64 .bf16)
    (h : Cert.KernelIdeal.S192x64.Slices ![0, 0] Cert.KernelIdeal.S64x64) :
    extractStridedSlice Cert.KernelIdeal.S64x64 ![0, 0] p h = Cert.Rows.topRows p := by
  funext i
  refine extractStridedSlice_apply ![0, 0] p h i (ix2 ⟨(i 0).val, by have := idx2_lt0 i; omega⟩ (i 1)) fun a => ?_
  match a with
  | ⟨0, _⟩ => show (i 0).val = 0 + (i 0).val; omega
  | ⟨1, _⟩ => show (i 1).val = 0 + (i 1).val; omega

/-- The slice of 128 rows at row offset 64 is the last 128 rows. -/
theorem bot_rows (p : FVec Ideal Cert.KernelIdeal.S192x64 .bf16)
    (h : Cert.KernelIdeal.S192x64.Slices ![64, 0] Cert.KernelIdeal.S128x64) :
    extractStridedSlice Cert.KernelIdeal.S128x64 ![64, 0] p h = Cert.Rows.botRows p := by
  funext i
  refine extractStridedSlice_apply ![64, 0] p h i (ix2 ⟨(i 0).val + 64, by have := idx2_lt0 i; omega⟩ (i 1)) fun a => ?_
  match a with
  | ⟨0, _⟩ => show (i 0).val + 64 = 64 + (i 0).val; omega
  | ⟨1, _⟩ => show (i 1).val = 0 + (i 1).val; omega

/-! ## The last step -/

section Final

/-- The four outputs added to zero one after the other, the sum scaled by a quarter. -/
def kFinal (o0 o1 o2 o3 : FVec Ideal Cert.KernelIdeal.S100000x64 .f32) : FVec Ideal Cert.KernelIdeal.S100000x64 .f32 :=
  mulf
    (addf (addf (addf (addf
      (broadcastInDim Cert.KernelIdeal.S100000x64 ![] Cert.KernelIdeal.Gen.bcast_S_S100000x64
        (constant (F := Ideal) Cert.KernelIdeal.S_ .f32 0x00000000#32)) o0) o1) o2) o3)
    (broadcastInDim Cert.KernelIdeal.S100000x64 ![] Cert.KernelIdeal.Gen.bcast_S_S100000x64
      (constant (F := Ideal) Cert.KernelIdeal.S_ .f32 0x3E800000#32))

/-- The four outputs, each given a leading unit axis, stacked along that axis. -/
def rStack (o0 o1 o2 o3 : FVec Ideal Cert.ReferenceIdeal.S100000x64 .f32) : FVec Ideal Cert.ReferenceIdeal.S4x100000x64 .f32 :=
  concatenate Cert.ReferenceIdeal.S4x100000x64 0
    [⟨Cert.ReferenceIdeal.S1x100000x64, broadcastInDim Cert.ReferenceIdeal.S1x100000x64 ![1, 2] Cert.ReferenceIdeal.Gen.bcast_S100000x64_S1x100000x64_1_2 o0⟩,
     ⟨Cert.ReferenceIdeal.S1x100000x64, broadcastInDim Cert.ReferenceIdeal.S1x100000x64 ![1, 2] Cert.ReferenceIdeal.Gen.bcast_S100000x64_S1x100000x64_1_2 o1⟩,
     ⟨Cert.ReferenceIdeal.S1x100000x64, broadcastInDim Cert.ReferenceIdeal.S1x100000x64 ![1, 2] Cert.ReferenceIdeal.Gen.bcast_S100000x64_S1x100000x64_1_2 o2⟩,
     ⟨Cert.ReferenceIdeal.S1x100000x64, broadcastInDim Cert.ReferenceIdeal.S1x100000x64 ![1, 2] Cert.ReferenceIdeal.Gen.bcast_S100000x64_S1x100000x64_1_2 o3⟩]
    Cert.ReferenceIdeal.Gen.concatenates_S1x100000x64_S1x100000x64_S1x100000x64_S1x100000x64_S4x100000x64_d0

/-- The stack summed along its leading axis from zero, divided by four. -/
def rFinal (o0 o1 o2 o3 : FVec Ideal Cert.ReferenceIdeal.S100000x64 .f32) : FVec Ideal Cert.ReferenceIdeal.S100000x64 .f32 :=
  Host.divf
    (Host.reduceAdd (rStack o0 o1 o2 o3) (constant (F := Ideal) Cert.ReferenceIdeal.S_ .f32 0x00000000#32)
      Cert.ReferenceIdeal.Gen.reducesTo_S4x100000x64_S100000x64_d0 Cert.ReferenceIdeal.Gen.h_S_)
    (broadcastInDim Cert.ReferenceIdeal.S100000x64 ![] Cert.ReferenceIdeal.Gen.bcast_S_S100000x64
      (constant (F := Ideal) Cert.ReferenceIdeal.S_ .f32 0x40800000#32))

open Cert.ReferenceIdeal in
/-- Entry `(k, r, c)` of the stack. -/
abbrev ix3 (k : Fin 4) (i : S100000x64.Idx) : S4x100000x64.Idx := fun a => match a with
  | ⟨0, _⟩ => ⟨k.val, k.isLt⟩
  | ⟨1, _⟩ => ⟨(i 0).val, (i 0).isLt⟩
  | ⟨2, _⟩ => ⟨(i 1).val, (i 1).isLt⟩

open Cert.ReferenceIdeal in
/-- Entry `(0, r, c)` of one layer of the stack. -/
abbrev ix3u (i : S100000x64.Idx) : S1x100000x64.Idx := fun a => match a with
  | ⟨0, _⟩ => ⟨0, Nat.one_pos⟩
  | ⟨1, _⟩ => ⟨(i 0).val, (i 0).isLt⟩
  | ⟨2, _⟩ => ⟨(i 1).val, (i 1).isLt⟩

open Cert.ReferenceIdeal Cert.ReferenceIdeal.Gen in
/-- An output with a leading unit axis, read at `(0, r, c)`, is the output at `(r, c)`. -/
theorem layer_apply (o : FVec Ideal S100000x64 .f32) (i : S100000x64.Idx) :
    broadcastInDim S1x100000x64 ![1, 2] bcast_S100000x64_S1x100000x64_1_2 o (ix3u i) = o i := by
  refine broadcastInDim_apply _ bcast_S100000x64_S1x100000x64_1_2 o (ix3u i) i fun a => ?_
  match a with
  | ⟨0, _⟩ => show (i 0).val = if (100000 : Nat) = 1 then 0 else (i 0).val; rw [if_neg (by decide)]
  | ⟨1, _⟩ => show (i 1).val = if (64 : Nat) = 1 then 0 else (i 1).val; rw [if_neg (by decide)]

open Cert.ReferenceIdeal Cert.ReferenceIdeal.Gen in
/-- The stack read at `(k, r, c)` is output `k` at `(r, c)`. -/
theorem rStack_apply (o0 o1 o2 o3 : FVec Ideal S100000x64 .f32) (i : S100000x64.Idx) :
    rStack o0 o1 o2 o3 (ix3 0 i) = o0 i ∧ rStack o0 o1 o2 o3 (ix3 1 i) = o1 i
      ∧ rStack o0 o1 o2 o3 (ix3 2 i) = o2 i ∧ rStack o0 o1 o2 o3 (ix3 3 i) = o3 i := by
  have off : ∀ b : Fin S1x100000x64.rank, b.cast (rfl : S1x100000x64.rank = S4x100000x64.rank) ≠ (0 : Fin S4x100000x64.rank) →
      ∀ k : Fin 4, (ix3u i b).val = (ix3 k i (b.cast rfl)).val := fun b hb k => by
    match b with
    | ⟨0, _⟩ => exact absurd rfl hb
    | ⟨1, _⟩ => rfl
    | ⟨2, _⟩ => rfl
  refine ⟨?_, ?_, ?_, ?_⟩
  · exact (concatenate_apply_piece 0 _ _ (ix3 0 i) 0 (by show (0 : Nat) < 4; decide) S1x100000x64 _ rfl rfl 0 rfl (ix3u i)
      (fun b hb => off b hb 0) rfl).trans (layer_apply o0 i)
  · exact (concatenate_apply_piece 0 _ _ (ix3 1 i) 1 (by show (1 : Nat) < 4; decide) S1x100000x64 _ rfl rfl 1 rfl (ix3u i)
      (fun b hb => off b hb 1) rfl).trans (layer_apply o1 i)
  · exact (concatenate_apply_piece 0 _ _ (ix3 2 i) 2 (by show (2 : Nat) < 4; decide) S1x100000x64 _ rfl rfl 2 rfl (ix3u i)
      (fun b hb => off b hb 2) rfl).trans (layer_apply o2 i)
  · exact (concatenate_apply_piece 0 _ _ (ix3 3 i) 3 (by show (3 : Nat) < 4; decide) S1x100000x64 _ rfl rfl 3 rfl (ix3u i)
      (fun b hb => off b hb 3) rfl).trans (layer_apply o3 i)

open Cert.ReferenceIdeal Cert.ReferenceIdeal.Gen in
/-- The two last steps agree: both are the mean of the four outputs, entry by entry. -/
theorem final_eq (o0 o1 o2 o3 : FVec Ideal S100000x64 .f32) : kFinal o0 o1 o2 o3 = rFinal o0 o1 o2 o3 := by
  funext i
  obtain ⟨e0, e1, e2, e3⟩ := rStack_apply o0 o1 o2 o3 i
  have hsum : Ideal.hostReduceAdd reducesTo_S4x100000x64_S100000x64_d0 (rStack o0 o1 o2 o3) Cert.Rows.zeroW i
      = Cert.Rows.zeroW + (o0 i + (o1 i + (o2 i + o3 i))) := by
    have hR : S4x100000x64.Reduces [0] S100000x64 := by decide
    have hl : ∀ k : Fin 4, hR.lift i k = ix3 k i := fun k =>
      funext fun a => Fin.ext (by match a with | ⟨0, _⟩ => rfl | ⟨1, _⟩ => rfl | ⟨2, _⟩ => rfl)
    rw [Ideal.hostReduceAdd_single reducesTo_S4x100000x64_S100000x64_d0 hR]
    show Cert.Rows.zeroW + ∑ k : Fin 4, rStack o0 o1 o2 o3 (hR.lift i k) = _
    rw [Fin.sum_univ_four, hl 0, hl 1, hl 2, hl 3, e0, e1, e2, e3, add_assoc, add_assoc]
  show ((((Cert.Rows.zeroW + o0 i) + o1 i) + o2 i) + o3 i) * Cert.Rows.quarterW
    = Ideal.div (Ideal.hostReduceAdd reducesTo_S4x100000x64_S100000x64_d0 (rStack o0 o1 o2 o3) Cert.Rows.zeroW i) Cert.Rows.fourW
  rw [hsum]
  exact Cert.Rows.mean4 _ _ _ _

end Final

end Cert.KWeights

end
-- ==== Proof.KTF.lean ====
/-
  The idealized kernel's result: the four edge types' outputs, summed from zero one after the other and scaled by
  a quarter. The last host stretch adds the fourth output to the running sum and multiplies by the broadcast 0.25.
-/
import proofs.«410647_j53395033423884_2_alg».proof.Proof.KT3
import proofs.«410647_j53395033423884_2_alg».proof.Proof.KWeights

set_option maxRecDepth 16384

noncomputable section

namespace Cert.KernelIdeal.KTF

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The result buffer at the program's end. -/
theorem result : W41 m ρ c (Proc.devRef .tc main_v206)
    = Cert.KWeights.kFinal (KT0.outVal m c) (KT1.outVal m c) (KT2.outVal m c) (KT3.outVal m c) :=
  (KS.E_v206 (W40 m ρ c)).trans (by rw [KT3.acc_end m ρ c, KT3.out_val m ρ c]; rfl)

end Cert.KernelIdeal.KTF

end
-- ==== Proof.RefRows.lean ====
/-
  The reference's three dense stages as compositions of whole-array operations, each equal to the row-by-row
  specification, on the extended reals and for ARBITRARY operand arrays.

  * The node linear layer: a 100000 × 64 array times a 64 × 64 array (one contracted axis), plus a bias vector
    repeated down the rows. At (R, j) this is (∑ k, X (R, k) * WT (k, j)) + B j, which is `linRow` of row R.
  * The edge network on a 500000 × 64 array: a product and a bias as above; the maximum with the zero array; the
    row sums from zero, as a column, divided by 64 (the row means); the centred array and the row sums of its
    squares divided by 64 (the row variances); the centred array times the inverse square root of the variance plus
    epsilon, times the gain and plus the shift (both repeated down the rows); a second product and bias. At (R, j)
    this is `edgeRow` of row R: each whole-array operation is read at one index — a pointwise operation is the
    operation on the two entries, a vector repeated down the rows reads its entry j, a column repeated along the
    rows reads its entry R, a scalar repeated everywhere reads the scalar, a row sum from zero is the sum of the
    row's 64 entries, and a product with one contracted axis is the sum over that axis of the products of entries.
  * The output projection: the node array (64 columns) beside the aggregated array (128 columns) is a 100000 × 192
    array whose entry (R, k) is the node entry (R, k) for k < 64 and the aggregated entry (R, k − 64) otherwise;
    its product with the 192 × 64 array plus two biases is `projRowR` of that concatenated row, which
    `projRow_split` turns into `projRowK` with the first 64 and the last 128 rows of the weight.
-/
import proofs.«410647_j53395033423884_2_alg».proof.ReferenceIdeal
import proofs.«410647_j53395033423884_2_alg».proof.Proof.Gen.ReferenceIdeal
import proofs.«410647_j53395033423884_2_alg».proof.Proof.Spec
import Idealize.ShloMosaic.Lib.ValueIdx
import Idealize.ShloMosaic.PureOps.Ideal.Laws
import Idealize.ShloMosaic.Lib.Pipeline.Value
import Idealize.ShloMosaic.Lib.ValueLayout
import Idealize.ShloMosaic.Lib.IdealHost
import Idealize.ShloMosaic.Lib.KernelVsHost

noncomputable section

namespace Cert.ReferenceIdeal.Rows

open Cert.ReferenceIdeal Cert.Rows Idealize.ShloMosaic Idealize.ShloMosaic.ValueIdx
open Cert.ReferenceIdeal.Facts₀
open scoped BigOperators

def refLin (X : FVec Ideal S100000x64 .f32) (WT : FVec Ideal S64x64 .f32) (B : FVec Ideal S64 .f32) : FVec Ideal S100000x64 .f32 :=
  addf (Host.dotGeneral dot_S100000x64_S64x64_S100000x64_1_0_0_1_n_n none X WT)
    (broadcastInDim S100000x64 ![0, 1] bcast_S1x64_S100000x64_0_1 (broadcastInDim S1x64 ![1] bcast_S64_S1x64_1 B))

/-- A length-64 vector made a one-row matrix, read at (0, j). -/
theorem rowOf_apply (B : FVec Ideal S64 .f32) (j : Fin 64) :
    broadcastInDim S1x64 ![1] bcast_S64_S1x64_1 B (ix2 (0 : Fin 1) j) = B (ix1 j) := by
  refine broadcastInDim_apply ![1] bcast_S64_S1x64_1 B (ix2 (0 : Fin 1) j) (ix1 j) ?_
  intro a
  match a with
  | ⟨0, _⟩ => rfl

theorem lhs_lin_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lhs_lin_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_lin_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_lin_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The node product read at (R, j): the sum over the 64 contracted entries. -/
theorem dotLin_apply (X : FVec Ideal S100000x64 .f32) (WT : FVec Ideal S64x64 .f32) (R : Fin 100000) (j : Fin 64) :
    Host.dotGeneral dot_S100000x64_S64x64_S100000x64_1_0_0_1_n_n none X WT (ix2 R j) = ∑ k : Fin 64, X (ix2 R k) * WT (ix2 k j) := by
  show FloatOps.dotGeneral _ none _ X WT (ix2 R j) = _
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 R j) ((contrEquiv1 dot_S100000x64_S64x64_S100000x64_1_0_0_1_n_n 64 rfl rfl).symm k) = ix2 R k :=
    funext fun a => Fin.ext (by
      match a with
      | ⟨0, _⟩ => exact lhs_lin_0 _ _
      | ⟨1, _⟩ => exact (lhs_lin_1 _ _).trans hk)
  have er : dot_S100000x64_S64x64_S100000x64_1_0_0_1_n_n.rhsIdx (ix2 R j) ((contrEquiv1 dot_S100000x64_S64x64_S100000x64_1_0_0_1_n_n 64 rfl rfl).symm k) = ix2 k j :=
    funext fun a => Fin.ext (by
      match a with
      | ⟨0, _⟩ => exact (rhs_lin_0 _ _).trans hk
      | ⟨1, _⟩ => exact rhs_lin_1 _ _)
  rw [el, er]

theorem refLin_apply (X : FVec Ideal S100000x64 .f32) (WT : FVec Ideal S64x64 .f32) (B : FVec Ideal S64 .f32) (R : Fin 100000) (j : Fin 64) :
    refLin X WT B (ix2 R j) = (∑ k : Fin 64, X (ix2 R k) * WT (ix2 k j)) + B (ix1 j) := by
  unfold refLin
  rw [addf_apply, dotLin_apply, broadcastInDim_oneRow_apply, rowOf_apply]

/-! ## The edge network -/

/-- The positive part: the maximum with the zero array. -/
def refRelu (Z : FVec Ideal S500000x64 .f32) : FVec Ideal S500000x64 .f32 :=
  maximumf Z (broadcastInDim S500000x64 ![] bcast_S_S500000x64 (constant (F := Ideal) S_ .f32 0x00000000#32))

/-- The hidden array: the first affine map, then the positive part. -/
def edgeH (EA : FVec Ideal S500000x64 .f32) (W0T : FVec Ideal S64x64 .f32) (B0 : FVec Ideal S64 .f32) : FVec Ideal S500000x64 .f32 :=
  refRelu (addf (Host.dotGeneral dot_S500000x64_S64x64_S500000x64_1_0_0_1_n_n none EA W0T)
    (broadcastInDim S500000x64 ![0, 1] bcast_S1x64_S500000x64_0_1 (broadcastInDim S1x64 ![1] bcast_S64_S1x64_1 B0)))

/-- The sum of each row, from the zero word. -/
def rowSum (X : FVec Ideal S500000x64 .f32) : FVec Ideal S500000 .f32 :=
  Host.reduceAdd (F := Ideal) X (constant (F := Ideal) S_ .f32 0x00000000#32) reducesTo_S500000x64_S500000_d1 h_S_

/-- A per-row quantity as a one-column array, divided by the word 64. -/
def colMean (V : FVec Ideal S500000 .f32) : FVec Ideal S500000x1 .f32 :=
  Host.divf (F := Ideal) (broadcastInDim S500000x1 ![0] bcast_S500000_S500000x1_0 V)
    (broadcastInDim S500000x1 ![] bcast_S_S500000x1 (constant (F := Ideal) S_ .f32 0x42800000#32))

/-- The row means, one column. -/
def edgeMu (H : FVec Ideal S500000x64 .f32) : FVec Ideal S500000x1 .f32 := colMean (rowSum H)

/-- The array centred by a one-column array. -/
def centred (H : FVec Ideal S500000x64 .f32) (MU : FVec Ideal S500000x1 .f32) : FVec Ideal S500000x64 .f32 :=
  subf H (broadcastInDim S500000x64 ![0, 1] bcast_S500000x1_S500000x64_0_1 MU)

/-- The row variances, one column. -/
def edgeVar (H : FVec Ideal S500000x64 .f32) (MU : FVec Ideal S500000x1 .f32) : FVec Ideal S500000x1 .f32 :=
  colMean (rowSum (mulf (centred H MU) (centred H MU)))

/-- The normalised rows with gain and shift. -/
def edgeNorm (H : FVec Ideal S500000x64 .f32) (MU VAR : FVec Ideal S500000x1 .f32) (G BE : FVec Ideal S64 .f32) : FVec Ideal S500000x64 .f32 :=
  addf (mulf (mulf (centred H MU)
      (broadcastInDim S500000x64 ![0, 1] bcast_S500000x1_S500000x64_0_1
        (Host.rsqrt (F := Ideal) (addf VAR (broadcastInDim S500000x1 ![] bcast_S_S500000x1 (constant (F := Ideal) S_ .f32 0x3727C5AC#32))))))
      (broadcastInDim S500000x64 ![0, 1] bcast_S1x64_S500000x64_0_1 (broadcastInDim S1x64 ![1] bcast_S64_S1x64_1 G)))
    (broadcastInDim S500000x64 ![0, 1] bcast_S1x64_S500000x64_0_1 (broadcastInDim S1x64 ![1] bcast_S64_S1x64_1 BE))

/-- The whole edge network on the array of edge attributes. -/
def refEdge (EA : FVec Ideal S500000x64 .f32) (W0T : FVec Ideal S64x64 .f32) (B0 G BE : FVec Ideal S64 .f32)
    (W1T : FVec Ideal S64x64 .f32) (B1 : FVec Ideal S64 .f32) : FVec Ideal S500000x64 .f32 :=
  addf (Host.dotGeneral dot_S500000x64_S64x64_S500000x64_1_0_0_1_n_n none
      (edgeNorm (edgeH EA W0T B0) (edgeMu (edgeH EA W0T B0)) (edgeVar (edgeH EA W0T B0) (edgeMu (edgeH EA W0T B0))) G BE) W1T)
    (broadcastInDim S500000x64 ![0, 1] bcast_S1x64_S500000x64_0_1 (broadcastInDim S1x64 ![1] bcast_S64_S1x64_1 B1))

theorem lhs_edge_0 (i : S500000x64.Idx) (q : dot_S500000x64_S64x64_S500000x64_1_0_0_1_n_n.contr.Idx) :
    (dot_S500000x64_S64x64_S500000x64_1_0_0_1_n_n.lhsIdx i q 0).val = (i 0).val := by
  unfold DotDims.lhsIdx
  rw [dif_neg (show ¬(0 : Fin S500000x64.rank) ∈ dot_S500000x64_S64x64_S500000x64_1_0_0_1_n_n.lhsBatch by decide),
    dif_pos (show (0 : Fin S500000x64.rank) ∈ dot_S500000x64_S64x64_S500000x64_1_0_0_1_n_n.lhsNonContracting by decide)]
  rfl
theorem lhs_edge_1 (i : S500000x64.Idx) (q : dot_S500000x64_S64x64_S500000x64_1_0_0_1_n_n.contr.Idx) :
    (dot_S500000x64_S64x64_S500000x64_1_0_0_1_n_n.lhsIdx i q 1).val = (q ⟨0, by decide⟩).val :=
  dot_S500000x64_S64x64_S500000x64_1_0_0_1_n_n.lhsIdx_val_of_single rfl i q
theorem rhs_edge_0 (i : S500000x64.Idx) (q : dot_S500000x64_S64x64_S500000x64_1_0_0_1_n_n.contr.Idx) :
    (dot_S500000x64_S64x64_S500000x64_1_0_0_1_n_n.rhsIdx i q 0).val = (q ⟨0, by decide⟩).val :=
  dot_S500000x64_S64x64_S500000x64_1_0_0_1_n_n.rhsIdx_val_of_single rfl i q
theorem rhs_edge_1 (i : S500000x64.Idx) (q : dot_S500000x64_S64x64_S500000x64_1_0_0_1_n_n.contr.Idx) :
    (dot_S500000x64_S64x64_S500000x64_1_0_0_1_n_n.rhsIdx i q 1).val = (i 1).val := by
  unfold DotDims.rhsIdx
  rw [dif_neg (show ¬(1 : Fin S64x64.rank) ∈ dot_S500000x64_S64x64_S500000x64_1_0_0_1_n_n.rhsBatch by decide),
    dif_pos (show (1 : Fin S64x64.rank) ∈ dot_S500000x64_S64x64_S500000x64_1_0_0_1_n_n.rhsNonContracting by decide)]
  rfl

/-- An edge product read at (R, j): the sum over the 64 contracted entries. -/
theorem dotEdge_apply (X : FVec Ideal S500000x64 .f32) (WT : FVec Ideal S64x64 .f32) (R : Fin 500000) (j : Fin 64) :
    Host.dotGeneral dot_S500000x64_S64x64_S500000x64_1_0_0_1_n_n none X WT (ix2 R j) = ∑ k : Fin 64, X (ix2 R k) * WT (ix2 k j) := by
  show FloatOps.dotGeneral _ none _ X WT (ix2 R j) = _
  rw [Ideal.dotGeneral_apply, ← Equiv.sum_comp (contrEquiv1 dot_S500000x64_S64x64_S500000x64_1_0_0_1_n_n 64 rfl rfl).symm]
  refine Finset.sum_congr rfl fun k _ => ?_
  have hk := contrEquiv1_symm_val dot_S500000x64_S64x64_S500000x64_1_0_0_1_n_n 64 rfl rfl k
  have el : dot_S500000x64_S64x64_S500000x64_1_0_0_1_n_n.lhsIdx (ix2 R j) ((contrEquiv1 dot_S500000x64_S64x64_S500000x64_1_0_0_1_n_n 64 rfl rfl).symm k) = ix2 R k :=
    funext fun a => Fin.ext (by
      match a with
      | ⟨0, _⟩ => exact lhs_edge_0 _ _
      | ⟨1, _⟩ => exact (lhs_edge_1 _ _).trans hk)
  have er : dot_S500000x64_S64x64_S500000x64_1_0_0_1_n_n.rhsIdx (ix2 R j) ((contrEquiv1 dot_S500000x64_S64x64_S500000x64_1_0_0_1_n_n 64 rfl rfl).symm k) = ix2 k j :=
    funext fun a => Fin.ext (by
      match a with
      | ⟨0, _⟩ => exact (rhs_edge_0 _ _).trans hk
      | ⟨1, _⟩ => exact rhs_edge_1 _ _)
  rw [el, er]

/-- The positive part at an index. -/
theorem refRelu_apply (Z : FVec Ideal S500000x64 .f32) (i : S500000x64.Idx) :
    refRelu Z i = max (Z i) (Ideal.ofBits .f32 0x00000000#32) := by
  unfold refRelu
  rw [maximumf_apply, broadcastInDim_scalar_apply]
  rfl

/-- The hidden array at (R, k). -/
theorem edgeH_apply (EA : FVec Ideal S500000x64 .f32) (W0T : FVec Ideal S64x64 .f32) (B0 : FVec Ideal S64 .f32) (R : Fin 500000) (k : Fin 64) :
    edgeH EA W0T B0 (ix2 R k) = max ((∑ c : Fin 64, EA (ix2 R c) * W0T (ix2 c k)) + B0 (ix1 k)) (Ideal.ofBits .f32 0x00000000#32) := by
  unfold edgeH
  rw [refRelu_apply, addf_apply, dotEdge_apply, broadcastInDim_oneRow_apply, rowOf_apply]

/-- A row sum from the zero word is the sum of the row. -/
theorem rowSum_apply (X : FVec Ideal S500000x64 .f32) (R : Fin 500000) :
    rowSum X (ix1 R) = ∑ k : Fin 64, X (ix2 R k) := by
  unfold rowSum
  rw [hostReduceAdd_apply, Ideal.hostReduceAdd_single reducesTo_S500000x64_S500000_d1 (by decide)]
  rw [constant_apply, Ideal.ofBits_zero_f32, zero_add]
  refine Finset.sum_congr rfl fun k _ => ?_
  exact congrArg X (funext fun a => Fin.ext (by match a with | ⟨0, _⟩ => rfl | ⟨1, _⟩ => rfl))

/-- A vector made a one-column array, read at (R, 0). -/
theorem colOf_apply (V : FVec Ideal S500000 .f32) (R : Fin 500000) :
    broadcastInDim S500000x1 ![0] bcast_S500000_S500000x1_0 V (ix2 R (0 : Fin 1)) = V (ix1 R) := by
  refine broadcastInDim_apply ![0] bcast_S500000_S500000x1_0 V (ix2 R (0 : Fin 1)) (ix1 R) ?_
  intro a
  match a with
  | ⟨0, _⟩ => rfl

/-- A one-column array broadcast along the rows, read at (R, k). -/
theorem colBcast_apply (V : FVec Ideal S500000x1 .f32) (R : Fin 500000) (k : Fin 64) :
    broadcastInDim S500000x64 ![0, 1] bcast_S500000x1_S500000x64_0_1 V (ix2 R k) = V (ix2 R (0 : Fin 1)) := by
  refine broadcastInDim_apply ![0, 1] bcast_S500000x1_S500000x64_0_1 V (ix2 R k) (ix2 R (0 : Fin 1)) ?_
  intro a
  match a with
  | ⟨0, _⟩ => rfl
  | ⟨1, _⟩ => rfl

theorem colMean_apply (V : FVec Ideal S500000 .f32) (R : Fin 500000) :
    colMean V (ix2 R (0 : Fin 1)) = Ideal.div (V (ix1 R)) (Ideal.ofBits .f32 0x42800000#32) := by
  unfold colMean
  rw [hostDivf_apply, colOf_apply, broadcastInDim_scalar_apply]
  rfl

theorem edgeMu_apply (H : FVec Ideal S500000x64 .f32) (R : Fin 500000) :
    edgeMu H (ix2 R (0 : Fin 1)) = Ideal.div (∑ k : Fin 64, H (ix2 R k)) (Ideal.ofBits .f32 0x42800000#32) := by
  unfold edgeMu
  rw [colMean_apply, rowSum_apply]

theorem centred_apply (H : FVec Ideal S500000x64 .f32) (MU : FVec Ideal S500000x1 .f32) (R : Fin 500000) (k : Fin 64) :
    centred H MU (ix2 R k) = H (ix2 R k) - MU (ix2 R (0 : Fin 1)) := by
  unfold centred
  rw [subf_apply, colBcast_apply]

theorem edgeVar_apply (H : FVec Ideal S500000x64 .f32) (MU : FVec Ideal S500000x1 .f32) (R : Fin 500000) :
    edgeVar H MU (ix2 R (0 : Fin 1))
      = Ideal.div (∑ c : Fin 64, (H (ix2 R c) - MU (ix2 R (0 : Fin 1))) * (H (ix2 R c) - MU (ix2 R (0 : Fin 1)))) (Ideal.ofBits .f32 0x42800000#32) := by
  unfold edgeVar
  rw [colMean_apply, rowSum_apply]
  refine congrArg (Ideal.div · _) (Finset.sum_congr rfl fun c _ => ?_)
  rw [mulf_apply, centred_apply]

theorem edgeNorm_apply (H : FVec Ideal S500000x64 .f32) (MU VAR : FVec Ideal S500000x1 .f32) (G BE : FVec Ideal S64 .f32) (R : Fin 500000) (k : Fin 64) :
    edgeNorm H MU VAR G BE (ix2 R k)
      = ((H (ix2 R k) - MU (ix2 R (0 : Fin 1))) * Ideal.rsqrt (VAR (ix2 R (0 : Fin 1)) + Ideal.ofBits .f32 0x3727C5AC#32)) * G (ix1 k) + BE (ix1 k) := by
  unfold edgeNorm
  rw [addf_apply, mulf_apply, mulf_apply, centred_apply, colBcast_apply, broadcastInDim_oneRow_apply, rowOf_apply,
    broadcastInDim_oneRow_apply, rowOf_apply]
  show _ * Ideal.rsqrt (VAR (ix2 R (0 : Fin 1)) + broadcastInDim S500000x1 ![] bcast_S_S500000x1 (constant (F := Ideal) S_ .f32 0x3727C5AC#32) (ix2 R (0 : Fin 1))) * _ + _ = _
  rw [broadcastInDim_scalar_apply]
  rfl

theorem refEdge_apply (EA : FVec Ideal S500000x64 .f32) (W0T : FVec Ideal S64x64 .f32) (B0 G BE : FVec Ideal S64 .f32)
    (W1T : FVec Ideal S64x64 .f32) (B1 : FVec Ideal S64 .f32) (R : Fin 500000) (j : Fin 64) :
    refEdge EA W0T B0 G BE W1T B1 (ix2 R j)
      = (∑ k : Fin 64, edgeNorm (edgeH EA W0T B0) (edgeMu (edgeH EA W0T B0)) (edgeVar (edgeH EA W0T B0) (edgeMu (edgeH EA W0T B0))) G BE (ix2 R k) * W1T (ix2 k j))
        + B1 (ix1 j) := by
  unfold refEdge
  rw [addf_apply, dotEdge_apply, broadcastInDim_oneRow_apply, rowOf_apply]

/-! ## The output projection -/

/-- The node rows beside the aggregated rows, times the transposed projection weight, plus the two biases. -/
def refProj (XL : FVec Ideal S100000x64 .f32) (H : FVec Ideal S100000x128 .f32) (PWT : FVec Ideal S192x64 .f32)
    (PB BB : FVec Ideal S64 .f32) : FVec Ideal S100000x64 .f32 :=
  addf (addf (Host.dotGeneral dot_S100000x192_S192x64_S100000x64_1_0_0_1_n_n none
        (concatenate S100000x192 1 [⟨S100000x64, XL⟩, ⟨S100000x128, H⟩] concatenates_S100000x64_S100000x128_S100000x192_d1) PWT)
      (broadcastInDim S100000x64 ![0, 1] bcast_S1x64_S100000x64_0_1 (broadcastInDim S1x64 ![1] bcast_S64_S1x64_1 PB)))
    (broadcastInDim S100000x64 ![0, 1] bcast_S1x64_S100000x64_0_1 (broadcastInDim S1x64 ![1] bcast_S64_S1x64_1 BB))

theorem lhs_proj_0 (i : S100000x64.Idx) (q : dot_S100000x192_S192x64_S100000x64_1_0_0_1_n_n.contr.Idx) :
    (dot_S100000x192_S192x64_S100000x64_1_0_0_1_n_n.lhsIdx i q 0).val = (i 0).val := by
  unfold DotDims.lhsIdx
  rw [dif_neg (show ¬(0 : Fin S100000x192.rank) ∈ dot_S100000x192_S192x64_S100000x64_1_0_0_1_n_n.lhsBatch by decide),
    dif_pos (show (0 : Fin S100000x192.rank) ∈ dot_S100000x192_S192x64_S100000x64_1_0_0_1_n_n.lhsNonContracting by decide)]
  rfl
theorem lhs_proj_1 (i : S100000x64.Idx) (q : dot_S100000x192_S192x64_S100000x64_1_0_0_1_n_n.contr.Idx) :
    (dot_S100000x192_S192x64_S100000x64_1_0_0_1_n_n.lhsIdx i q 1).val = (q ⟨0, by decide⟩).val :=
  dot_S100000x192_S192x64_S100000x64_1_0_0_1_n_n.lhsIdx_val_of_single rfl i q
theorem rhs_proj_0 (i : S100000x64.Idx) (q : dot_S100000x192_S192x64_S100000x64_1_0_0_1_n_n.contr.Idx) :
    (dot_S100000x192_S192x64_S100000x64_1_0_0_1_n_n.rhsIdx i q 0).val = (q ⟨0, by decide⟩).val :=
  dot_S100000x192_S192x64_S100000x64_1_0_0_1_n_n.rhsIdx_val_of_single rfl i q
theorem rhs_proj_1 (i : S100000x64.Idx) (q : dot_S100000x192_S192x64_S100000x64_1_0_0_1_n_n.contr.Idx) :
    (dot_S100000x192_S192x64_S100000x64_1_0_0_1_n_n.rhsIdx i q 1).val = (i 1).val := by
  unfold DotDims.rhsIdx
  rw [dif_neg (show ¬(1 : Fin S192x64.rank) ∈ dot_S100000x192_S192x64_S100000x64_1_0_0_1_n_n.rhsBatch by decide),
    dif_pos (show (1 : Fin S192x64.rank) ∈ dot_S100000x192_S192x64_S100000x64_1_0_0_1_n_n.rhsNonContracting by decide)]
  rfl

/-- The projection product read at (R, j): the sum over the 192 contracted entries. -/
theorem dotProj_apply (X : FVec Ideal S100000x192 .f32) (WT : FVec Ideal S192x64 .f32) (R : Fin 100000) (j : Fin 64) :
    Host.dotGeneral dot_S100000x192_S192x64_S100000x64_1_0_0_1_n_n none X WT (ix2 R j) = ∑ k : Fin 192, X (ix2 R k) * WT (ix2 k j) := by
  show FloatOps.dotGeneral _ none _ X WT (ix2 R j) = _
  rw [Ideal.dotGeneral_apply, ← Equiv.sum_comp (contrEquiv1 dot_S100000x192_S192x64_S100000x64_1_0_0_1_n_n 192 rfl rfl).symm]
  refine Finset.sum_congr rfl fun k _ => ?_
  have hk := contrEquiv1_symm_val dot_S100000x192_S192x64_S100000x64_1_0_0_1_n_n 192 rfl rfl k
  have el : dot_S100000x192_S192x64_S100000x64_1_0_0_1_n_n.lhsIdx (ix2 R j) ((contrEquiv1 dot_S100000x192_S192x64_S100000x64_1_0_0_1_n_n 192 rfl rfl).symm k) = ix2 R k :=
    funext fun a => Fin.ext (by
      match a with
      | ⟨0, _⟩ => exact lhs_proj_0 _ _
      | ⟨1, _⟩ => exact (lhs_proj_1 _ _).trans hk)
  have er : dot_S100000x192_S192x64_S100000x64_1_0_0_1_n_n.rhsIdx (ix2 R j) ((contrEquiv1 dot_S100000x192_S192x64_S100000x64_1_0_0_1_n_n 192 rfl rfl).symm k) = ix2 k j :=
    funext fun a => Fin.ext (by
      match a with
      | ⟨0, _⟩ => exact (rhs_proj_0 _ _).trans hk
      | ⟨1, _⟩ => exact rhs_proj_1 _ _)
  rw [el, er]

/-- The two arrays side by side, read at (R, k): the first 64 columns are the node rows, the last 128 the aggregated rows. -/
theorem cat_apply (XL : FVec Ideal S100000x64 .f32) (H : FVec Ideal S100000x128 .f32) (R : Fin 100000) (k : Fin 192) :
    concatenate S100000x192 1 [⟨S100000x64, XL⟩, ⟨S100000x128, H⟩] concatenates_S100000x64_S100000x128_S100000x192_d1 (ix2 R k)
      = if hk : k.val < 64 then XL (ix2 R ⟨k.val, hk⟩) else H (ix2 R ⟨k.val - 64, by omega⟩) := by
  by_cases hk : k.val < 64
  · rw [dif_pos hk]
    refine concatenate_pair_apply_left (1 : Fin S100000x192.rank) XL H concatenates_S100000x64_S100000x128_S100000x192_d1 (ix2 R k) rfl (ix2 R ⟨k.val, hk⟩) ?_
    intro b
    match b with
    | ⟨0, _⟩ => rfl
    | ⟨1, _⟩ => rfl
  · rw [dif_neg hk]
    refine concatenate_pair_apply_right (1 : Fin S100000x192.rank) XL H concatenates_S100000x64_S100000x128_S100000x192_d1 (ix2 R k) rfl rfl (ix2 R ⟨k.val - 64, by omega⟩) ?_ ?_
    · intro b hb
      match b, hb with
      | ⟨0, _⟩, _ => rfl
      | ⟨1, _⟩, hb => exact absurd rfl hb
    · show (k.val - 64) + 64 = k.val
      omega

theorem refProj_apply (XL : FVec Ideal S100000x64 .f32) (H : FVec Ideal S100000x128 .f32) (PWT : FVec Ideal S192x64 .f32)
    (PB BB : FVec Ideal S64 .f32) (R : Fin 100000) (j : Fin 64) :
    refProj XL H PWT PB BB (ix2 R j)
      = ((∑ k : Fin 192, (if hk : k.val < 64 then XL (ix2 R ⟨k.val, hk⟩) else H (ix2 R ⟨k.val - 64, by omega⟩)) * PWT (ix2 k j))
          + PB (ix1 j)) + BB (ix1 j) := by
  unfold refProj
  rw [addf_apply, addf_apply, dotProj_apply, broadcastInDim_oneRow_apply, rowOf_apply, broadcastInDim_oneRow_apply, rowOf_apply]
  refine congrArg (· + _ + _) (Finset.sum_congr rfl fun k _ => ?_)
  rw [cat_apply]

/-! ## The three stages against the row-by-row specification -/

/-- The node linear layer is `linRow` on every row. -/
theorem refLin_eq (X : FVec Ideal S100000x64 .f32) (WT : FVec Ideal S64x64 .f32) (B : FVec Ideal S64 .f32) :
    refLin X WT B = linArr (n := 100000) X WT B := by
  funext i
  obtain ⟨R, j, rfl⟩ : ∃ (R : Fin 100000) (j : Fin 64), i = ix2 R j := ⟨i 0, i 1, eq_ix2 i⟩
  rw [refLin_apply]
  rfl

/-- The edge network is `edgeRow` on every row. -/
theorem refEdge_eq (EA : FVec Ideal S500000x64 .f32) (W0T : FVec Ideal S64x64 .f32) (B0 G BE : FVec Ideal S64 .f32)
    (W1T : FVec Ideal S64x64 .f32) (B1 : FVec Ideal S64 .f32) :
    refEdge EA W0T B0 G BE W1T B1 = edgeArr (n := 500000) EA W0T B0 G BE W1T B1 := by
  funext i
  obtain ⟨R, j, rfl⟩ : ∃ (R : Fin 500000) (j : Fin 64), i = ix2 R j := ⟨i 0, i 1, eq_ix2 i⟩
  rw [refEdge_apply]
  simp only [edgeNorm_apply, edgeVar_apply, edgeMu_apply, edgeH_apply]
  rfl

/-- The projection over the concatenated row is `projRowK` with the weight's two row blocks. -/
theorem refProj_eq (XL : FVec Ideal S100000x64 .f32) (H : FVec Ideal S100000x128 .f32) (PWT : FVec Ideal S192x64 .f32)
    (PB BB : FVec Ideal S64 .f32) :
    refProj XL H PWT PB BB = projArrR (n := 100000) XL H PWT PB BB := by
  funext i
  obtain ⟨R, j, rfl⟩ : ∃ (R : Fin 100000) (j : Fin 64), i = ix2 R j := ⟨i 0, i 1, eq_ix2 i⟩
  rw [refProj_apply]
  exact projRow_split (fun k => XL (ix2 R k)) (fun k => H (ix2 R k)) (fun a b => PWT (ix2 a b)) (fun k => PB (ix1 k)) (fun k => BB (ix1 k)) j

end Cert.ReferenceIdeal.Rows

end
-- ==== Proof.RefVal.lean ====
/-
  The reference program's result as a composition of its stages.

  For each of the four edge types the program computes the same function `rOut` of the node features, the type's
  source and destination index vectors and the type's weights:
  * `rXl`   the node linear layer (the stored weight transposed, then `refLin`);
  * `rEa`   the edge attributes |x[src] − x[dst]|, the rows looked up at the normalised indices (`rNorm`: a
              negative index shifted by the number of nodes, then the vector made a column);
  * `rE`    the edge network `refEdge` on the edge attributes (both stored weights transposed);
  * `rAgg`  for every edge the source's linear row beside the edge network's row, added into the destination's
              row of a zero array;
  * `rOut`  the projection `refProj` of the node rows beside the aggregated rows (the stored weight transposed).
  The operands of type t are entry t of each stacked argument: a slice of extent one along the leading axis with
  that axis dropped (`cut3`, `cut2`, `cutP`), and the rows 0 and 1 of entry t of the edge list (`idxVec_t_0`,
  `idxVec_t_1`). `outT_eq` says the program's value for type t is `rOut` at those operands; each step is the
  unfolding of the program's operations, one value at a time. `result_eq`: the result is the mean of the four
  outputs (stacked along a new leading axis, summed along it from zero, divided by four).
-/
import proofs.«410647_j53395033423884_2_alg».proof.Proof.RefStages
import proofs.«410647_j53395033423884_2_alg».proof.Proof.RefRows
import proofs.«410647_j53395033423884_2_alg».proof.Proof.PreIdx
import proofs.«410647_j53395033423884_2_alg».proof.Proof.KCut
import proofs.«410647_j53395033423884_2_alg».proof.Proof.KWeights

noncomputable section

namespace Cert.ReferenceIdeal.RefVal

open Cert.ReferenceIdeal Cert.ReferenceIdeal.Read Cert.ReferenceIdeal.Rows Idealize.ShloMosaic
open Cert.ReferenceIdeal.Facts₀
open Cert.KernelIdeal.KCut (cut3 cut2 cutP)

/-- The index normalisation: a negative index is shifted by the number of nodes; then the vector becomes a column. -/
def rNorm (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- The node linear layer with the weight as stored (transposed before the product). -/
def rXl (x : FVec Ideal S100000x64 .f32) (lw : FVec Ideal S64x64 .f32) (lb : FVec Ideal S64 .f32) : FVec Ideal S100000x64 .f32 :=
  refLin x (transpose S64x64 [1, 0] lw transposes_S64x64_S64x64_1_0) lb

/-- The edge attributes: the absolute difference of the source row and the destination row. -/
def rEa (x : FVec Ideal S100000x64 .f32) (src dst : IVec S500000 32) : FVec Ideal S500000x64 .f32 :=
  Host.absf (subf (Host.gather gather_S100000x64_S500000x1_S500000x64_1_0_n_n_0_1_164 x (rNorm src)) (Host.gather gather_S100000x64_S500000x1_S500000x64_1_0_n_n_0_1_164 x (rNorm dst)))

/-- The edge network on the edge attributes, with the weights as stored. -/
def rE (x : FVec Ideal S100000x64 .f32) (src dst : IVec S500000 32) (w0 : FVec Ideal S64x64 .f32) (b0 g be : FVec Ideal S64 .f32)
    (w1 : FVec Ideal S64x64 .f32) (b1 : FVec Ideal S64 .f32) : FVec Ideal S500000x64 .f32 :=
  refEdge (rEa x src dst) (transpose S64x64 [1, 0] w0 transposes_S64x64_S64x64_1_0) b0 g be (transpose S64x64 [1, 0] w1 transposes_S64x64_S64x64_1_0) b1

/-- The aggregation: each edge's row (the source's linear row beside the edge network's row) added into the
    destination's row of a zero array. -/
def rAgg (x : FVec Ideal S100000x64 .f32) (src dst : IVec S500000 32) (lw : FVec Ideal S64x64 .f32) (lb : FVec Ideal S64 .f32)
    (w0 : FVec Ideal S64x64 .f32) (b0 g be : FVec Ideal S64 .f32) (w1 : FVec Ideal S64x64 .f32) (b1 : FVec Ideal S64 .f32) :
    FVec Ideal S100000x128 .f32 :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 dst)
    (concatenate S500000x128 1 [⟨S500000x64, Host.gather gather_S100000x64_S500000x1_S500000x64_1_0_n_n_0_1_164 (rXl x lw lb) (rNorm src)⟩,
      ⟨S500000x64, rE x src dst w0 b0 g be w1 b1⟩] concatenates_S500000x64_S500000x64_S500000x128_d1)

/-- One edge type's output: the projection of the node rows beside the aggregated rows. -/
def rOut (x : FVec Ideal S100000x64 .f32) (src dst : IVec S500000 32) (lw : FVec Ideal S64x64 .f32) (lb : FVec Ideal S64 .f32)
    (w0 : FVec Ideal S64x64 .f32) (b0 g be : FVec Ideal S64 .f32) (w1 : FVec Ideal S64x64 .f32) (b1 : FVec Ideal S64 .f32)
    (pw : FVec Ideal S64x192 .f32) (pb bb : FVec Ideal S64 .f32) : FVec Ideal S100000x64 .f32 :=
  refProj (rXl x lw lb) (rAgg x src dst lw lb w0 b0 g be w1 b1) (transpose S192x64 [1, 0] pw transposes_S64x192_S192x64_1_0) pb bb

/-! ### Edge type 0 -/

theorem src0_eq (x1 : (⟨S4x2x500000, .i32⟩ : BufTy).Contents (Elt Ideal)) : val_main_v25 (F := Ideal) x1 = Cert.PreIdx.idxVec_0_0 x1 := rfl
theorem dst0_eq (x1 : (⟨S4x2x500000, .i32⟩ : BufTy).Contents (Elt Ideal)) : val_main_v27 (F := Ideal) x1 = Cert.PreIdx.idxVec_0_1 x1 := rfl
theorem lw0_eq (x2 : (⟨S4x64x64, .f32⟩ : BufTy).Contents (Elt Ideal)) : val_main_v3 (F := Ideal) x2 = cut3 (F := Ideal) ![0, 0, 0] slices_S4x64x64_S1x64x64_0_0_0 x2 := rfl
theorem lb0_eq (x3 : (⟨S4x64, .f32⟩ : BufTy).Contents (Elt Ideal)) : val_main_v5 (F := Ideal) x3 = cut2 (F := Ideal) ![0, 0] slices_S4x64_S1x64_0_0 x3 := rfl
theorem w00_eq (x4 : (⟨S4x64x64, .f32⟩ : BufTy).Contents (Elt Ideal)) : val_main_v7 (F := Ideal) x4 = cut3 (F := Ideal) ![0, 0, 0] slices_S4x64x64_S1x64x64_0_0_0 x4 := rfl
theorem b00_eq (x5 : (⟨S4x64, .f32⟩ : BufTy).Contents (Elt Ideal)) : val_main_v9 (F := Ideal) x5 = cut2 (F := Ideal) ![0, 0] slices_S4x64_S1x64_0_0 x5 := rfl
theorem g0_eq (x6 : (⟨S4x64, .f32⟩ : BufTy).Contents (Elt Ideal)) : val_main_v11 (F := Ideal) x6 = cut2 (F := Ideal) ![0, 0] slices_S4x64_S1x64_0_0 x6 := rfl
theorem be0_eq (x7 : (⟨S4x64, .f32⟩ : BufTy).Contents (Elt Ideal)) : val_main_v13 (F := Ideal) x7 = cut2 (F := Ideal) ![0, 0] slices_S4x64_S1x64_0_0 x7 := rfl
theorem w10_eq (x8 : (⟨S4x64x64, .f32⟩ : BufTy).Contents (Elt Ideal)) : val_main_v15 (F := Ideal) x8 = cut3 (F := Ideal) ![0, 0, 0] slices_S4x64x64_S1x64x64_0_0_0 x8 := rfl
theorem b10_eq (x9 : (⟨S4x64, .f32⟩ : BufTy).Contents (Elt Ideal)) : val_main_v17 (F := Ideal) x9 = cut2 (F := Ideal) ![0, 0] slices_S4x64_S1x64_0_0 x9 := rfl
theorem pw0_eq (x10 : (⟨S4x64x192, .f32⟩ : BufTy).Contents (Elt Ideal)) : val_main_v19 (F := Ideal) x10 = cutP (F := Ideal) ![0, 0, 0] slices_S4x64x192_S1x64x192_0_0_0 x10 := rfl
theorem pb0_eq (x11 : (⟨S4x64, .f32⟩ : BufTy).Contents (Elt Ideal)) : val_main_v21 (F := Ideal) x11 = cut2 (F := Ideal) ![0, 0] slices_S4x64_S1x64_0_0 x11 := rfl
theorem bb0_eq (x12 : (⟨S4x64, .f32⟩ : BufTy).Contents (Elt Ideal)) : val_main_v23 (F := Ideal) x12 = cut2 (F := Ideal) ![0, 0] slices_S4x64_S1x64_0_0 x12 := rfl

/-- The normalised source column, computed twice by the program, and the normalised destination column. -/
theorem nsrc0_eq (x1 : (⟨S4x2x500000, .i32⟩ : BufTy).Contents (Elt Ideal)) : val_main_v33 (F := Ideal) x1 = rNorm (Cert.PreIdx.idxVec_0_0 x1) := rfl
theorem ndst0_eq (x1 : (⟨S4x2x500000, .i32⟩ : BufTy).Contents (Elt Ideal)) : val_main_v40 (F := Ideal) x1 = rNorm (Cert.PreIdx.idxVec_0_1 x1) := rfl
theorem nsrc0_eq' (x1 : (⟨S4x2x500000, .i32⟩ : BufTy).Contents (Elt Ideal)) : val_main_v89 (F := Ideal) x1 = rNorm (Cert.PreIdx.idxVec_0_0 x1) := rfl
theorem cdst0_eq (x1 : (⟨S4x2x500000, .i32⟩ : BufTy).Contents (Elt Ideal)) :
    val_main_v93 (F := Ideal) x1 = broadcastInDim S500000x1 ![0] bcast_S500000_S500000x1_0 (Cert.PreIdx.idxVec_0_1 x1) := rfl

/-- The node linear layer of type 0. -/
theorem xl0_eq (x0 : (⟨S100000x64, .f32⟩ : BufTy).Contents (Elt Ideal)) (x2 : (⟨S4x64x64, .f32⟩ : BufTy).Contents (Elt Ideal)) (x3 : (⟨S4x64, .f32⟩ : BufTy).Contents (Elt Ideal)) : val_main_v48 (F := Ideal) x0 x2 x3 = rXl x0 (cut3 (F := Ideal) ![0, 0, 0] slices_S4x64x64_S1x64x64_0_0_0 x2) (cut2 (F := Ideal) ![0, 0] slices_S4x64_S1x64_0_0 x3) := rfl

/-- The edge attributes of type 0. -/
theorem ea0_eq (x0 : (⟨S100000x64, .f32⟩ : BufTy).Contents (Elt Ideal)) (x1 : (⟨S4x2x500000, .i32⟩ : BufTy).Contents (Elt Ideal)) : val_main_v43 (F := Ideal) x0 x1 = rEa x0 (Cert.PreIdx.idxVec_0_0 x1) (Cert.PreIdx.idxVec_0_1 x1) := by
  unfold val_main_v43 val_main_v42 val_main_v34 val_main_v41 rEa
  rw [nsrc0_eq, ndst0_eq]

/-- The hidden array of type 0's edge network. -/
theorem hid0_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v54 (F := Ideal) x0 x1 x4 x5 = edgeH (rEa x0 (Cert.PreIdx.idxVec_0_0 x1) (Cert.PreIdx.idxVec_0_1 x1)) (transpose S64x64 [1, 0] (cut3 (F := Ideal) ![0, 0, 0] slices_S4x64x64_S1x64x64_0_0_0 x4) transposes_S64x64_S64x64_1_0) (cut2 (F := Ideal) ![0, 0] slices_S4x64_S1x64_0_0 x5) := by
  unfold val_main_v54 val_main_v53 val_main_v50 val_main_v52 val_main_v51 val_main_v49 edgeH refRelu
  rw [ea0_eq]
  rfl

/-- Its row means. -/
theorem mu0_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v58 (F := Ideal) x0 x1 x4 x5 = edgeMu (val_main_v54 (F := Ideal) x0 x1 x4 x5) := rfl

/-- Its row variances. -/
theorem var0_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v65 (F := Ideal) x0 x1 x4 x5 = edgeVar (val_main_v54 (F := Ideal) x0 x1 x4 x5) (val_main_v58 (F := Ideal) x0 x1 x4 x5) := rfl

/-- Its normalised rows with gain and shift. -/
theorem norm0_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) :
    val_main_v78 (F := Ideal) x0 x1 x4 x5 x6 x7
      = edgeNorm (val_main_v54 (F := Ideal) x0 x1 x4 x5) (val_main_v58 (F := Ideal) x0 x1 x4 x5) (val_main_v65 (F := Ideal) x0 x1 x4 x5) (cut2 (F := Ideal) ![0, 0] slices_S4x64_S1x64_0_0 x6) (cut2 (F := Ideal) ![0, 0] slices_S4x64_S1x64_0_0 x7) := rfl

/-- The edge network of type 0. -/
theorem e0_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) :
    val_main_v83 (F := Ideal) x0 x1 x4 x5 x6 x7 x8 x9 = rE x0 (Cert.PreIdx.idxVec_0_0 x1) (Cert.PreIdx.idxVec_0_1 x1) (cut3 (F := Ideal) ![0, 0, 0] slices_S4x64x64_S1x64x64_0_0_0 x4) (cut2 (F := Ideal) ![0, 0] slices_S4x64_S1x64_0_0 x5) (cut2 (F := Ideal) ![0, 0] slices_S4x64_S1x64_0_0 x6) (cut2 (F := Ideal) ![0, 0] slices_S4x64_S1x64_0_0 x7) (cut3 (F := Ideal) ![0, 0, 0] slices_S4x64x64_S1x64x64_0_0_0 x8) (cut2 (F := Ideal) ![0, 0] slices_S4x64_S1x64_0_0 x9) := by
  unfold val_main_v83 val_main_v80 val_main_v82 val_main_v81 val_main_v79 rE refEdge
  rw [norm0_eq, var0_eq, mu0_eq, hid0_eq]
  rfl

/-- The aggregated array of type 0. -/
theorem agg0_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) :
    val_main_v94 (F := Ideal) x0 x1 x2 x3 x4 x5 x6 x7 x8 x9 = rAgg x0 (Cert.PreIdx.idxVec_0_0 x1) (Cert.PreIdx.idxVec_0_1 x1) (cut3 (F := Ideal) ![0, 0, 0] slices_S4x64x64_S1x64x64_0_0_0 x2) (cut2 (F := Ideal) ![0, 0] slices_S4x64_S1x64_0_0 x3) (cut3 (F := Ideal) ![0, 0, 0] slices_S4x64x64_S1x64x64_0_0_0 x4) (cut2 (F := Ideal) ![0, 0] slices_S4x64_S1x64_0_0 x5) (cut2 (F := Ideal) ![0, 0] slices_S4x64_S1x64_0_0 x6) (cut2 (F := Ideal) ![0, 0] slices_S4x64_S1x64_0_0 x7) (cut3 (F := Ideal) ![0, 0, 0] slices_S4x64x64_S1x64x64_0_0_0 x8) (cut2 (F := Ideal) ![0, 0] slices_S4x64_S1x64_0_0 x9) := by
  unfold val_main_v94 val_main_v91 val_main_v90 val_main_v92 rAgg
  rw [e0_eq, xl0_eq, nsrc0_eq', cdst0_eq]
  rfl

/-- The output of type 0. -/
theorem out0_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) (x10 : (⟨S4x64x192, .f32⟩ : BufTy).Contents (Elt Ideal)) (x11 : (⟨S4x64, .f32⟩ : BufTy).Contents (Elt Ideal)) (x12 : (⟨S4x64, .f32⟩ : BufTy).Contents (Elt Ideal)) :
    val_main_v103 (F := Ideal) x0 x1 x2 x3 x4 x5 x6 x7 x8 x9 x10 x11 x12
      = rOut x0 (Cert.PreIdx.idxVec_0_0 x1) (Cert.PreIdx.idxVec_0_1 x1) (cut3 (F := Ideal) ![0, 0, 0] slices_S4x64x64_S1x64x64_0_0_0 x2) (cut2 (F := Ideal) ![0, 0] slices_S4x64_S1x64_0_0 x3) (cut3 (F := Ideal) ![0, 0, 0] slices_S4x64x64_S1x64x64_0_0_0 x4) (cut2 (F := Ideal) ![0, 0] slices_S4x64_S1x64_0_0 x5) (cut2 (F := Ideal) ![0, 0] slices_S4x64_S1x64_0_0 x6) (cut2 (F := Ideal) ![0, 0] slices_S4x64_S1x64_0_0 x7) (cut3 (F := Ideal) ![0, 0, 0] slices_S4x64x64_S1x64x64_0_0_0 x8) (cut2 (F := Ideal) ![0, 0] slices_S4x64_S1x64_0_0 x9) (cutP (F := Ideal) ![0, 0, 0] slices_S4x64x192_S1x64x192_0_0_0 x10) (cut2 (F := Ideal) ![0, 0] slices_S4x64_S1x64_0_0 x11) (cut2 (F := Ideal) ![0, 0] slices_S4x64_S1x64_0_0 x12) := by
  unfold val_main_v103 val_main_v100 val_main_v102 val_main_v101 val_main_v99 val_main_v98 val_main_v97 val_main_v96 val_main_v95 rOut refProj
  rw [agg0_eq, xl0_eq]
  rfl

/-! ### Edge type 1 -/

theorem src1_eq (x1 : (⟨S4x2x500000, .i32⟩ : BufTy).Contents (Elt Ideal)) : val_main_v129 (F := Ideal) x1 = Cert.PreIdx.idxVec_1_0 x1 := rfl
theorem dst1_eq (x1 : (⟨S4x2x500000, .i32⟩ : BufTy).Contents (Elt Ideal)) : val_main_v131 (F := Ideal) x1 = Cert.PreIdx.idxVec_1_1 x1 := rfl
theorem lw1_eq (x2 : (⟨S4x64x64, .f32⟩ : BufTy).Contents (Elt Ideal)) : val_main_v107 (F := Ideal) x2 = cut3 (F := Ideal) ![1, 0, 0] slices_S4x64x64_S1x64x64_1_0_0 x2 := rfl
theorem lb1_eq (x3 : (⟨S4x64, .f32⟩ : BufTy).Contents (Elt Ideal)) : val_main_v109 (F := Ideal) x3 = cut2 (F := Ideal) ![1, 0] slices_S4x64_S1x64_1_0 x3 := rfl
theorem w01_eq (x4 : (⟨S4x64x64, .f32⟩ : BufTy).Contents (Elt Ideal)) : val_main_v111 (F := Ideal) x4 = cut3 (F := Ideal) ![1, 0, 0] slices_S4x64x64_S1x64x64_1_0_0 x4 := rfl
theorem b01_eq (x5 : (⟨S4x64, .f32⟩ : BufTy).Contents (Elt Ideal)) : val_main_v113 (F := Ideal) x5 = cut2 (F := Ideal) ![1, 0] slices_S4x64_S1x64_1_0 x5 := rfl
theorem g1_eq (x6 : (⟨S4x64, .f32⟩ : BufTy).Contents (Elt Ideal)) : val_main_v115 (F := Ideal) x6 = cut2 (F := Ideal) ![1, 0] slices_S4x64_S1x64_1_0 x6 := rfl
theorem be1_eq (x7 : (⟨S4x64, .f32⟩ : BufTy).Contents (Elt Ideal)) : val_main_v117 (F := Ideal) x7 = cut2 (F := Ideal) ![1, 0] slices_S4x64_S1x64_1_0 x7 := rfl
theorem w11_eq (x8 : (⟨S4x64x64, .f32⟩ : BufTy).Contents (Elt Ideal)) : val_main_v119 (F := Ideal) x8 = cut3 (F := Ideal) ![1, 0, 0] slices_S4x64x64_S1x64x64_1_0_0 x8 := rfl
theorem b11_eq (x9 : (⟨S4x64, .f32⟩ : BufTy).Contents (Elt Ideal)) : val_main_v121 (F := Ideal) x9 = cut2 (F := Ideal) ![1, 0] slices_S4x64_S1x64_1_0 x9 := rfl
theorem pw1_eq (x10 : (⟨S4x64x192, .f32⟩ : BufTy).Contents (Elt Ideal)) : val_main_v123 (F := Ideal) x10 = cutP (F := Ideal) ![1, 0, 0] slices_S4x64x192_S1x64x192_1_0_0 x10 := rfl
theorem pb1_eq (x11 : (⟨S4x64, .f32⟩ : BufTy).Contents (Elt Ideal)) : val_main_v125 (F := Ideal) x11 = cut2 (F := Ideal) ![1, 0] slices_S4x64_S1x64_1_0 x11 := rfl
theorem bb1_eq (x12 : (⟨S4x64, .f32⟩ : BufTy).Contents (Elt Ideal)) : val_main_v127 (F := Ideal) x12 = cut2 (F := Ideal) ![1, 0] slices_S4x64_S1x64_1_0 x12 := rfl

/-- The normalised source column, computed twice by the program, and the normalised destination column. -/
theorem nsrc1_eq (x1 : (⟨S4x2x500000, .i32⟩ : BufTy).Contents (Elt Ideal)) : val_main_v137 (F := Ideal) x1 = rNorm (Cert.PreIdx.idxVec_1_0 x1) := rfl
theorem ndst1_eq (x1 : (⟨S4x2x500000, .i32⟩ : BufTy).Contents (Elt Ideal)) : val_main_v144 (F := Ideal) x1 = rNorm (Cert.PreIdx.idxVec_1_1 x1) := rfl
theorem nsrc1_eq' (x1 : (⟨S4x2x500000, .i32⟩ : BufTy).Contents (Elt Ideal)) : val_main_v193 (F := Ideal) x1 = rNorm (Cert.PreIdx.idxVec_1_0 x1) := rfl
theorem cdst1_eq (x1 : (⟨S4x2x500000, .i32⟩ : BufTy).Contents (Elt Ideal)) :
    val_main_v197 (F := Ideal) x1 = broadcastInDim S500000x1 ![0] bcast_S500000_S500000x1_0 (Cert.PreIdx.idxVec_1_1 x1) := rfl

/-- The node linear layer of type 1. -/
theorem xl1_eq (x0 : (⟨S100000x64, .f32⟩ : BufTy).Contents (Elt Ideal)) (x2 : (⟨S4x64x64, .f32⟩ : BufTy).Contents (Elt Ideal)) (x3 : (⟨S4x64, .f32⟩ : BufTy).Contents (Elt Ideal)) : val_main_v152 (F := Ideal) x0 x2 x3 = rXl x0 (cut3 (F := Ideal) ![1, 0, 0] slices_S4x64x64_S1x64x64_1_0_0 x2) (cut2 (F := Ideal) ![1, 0] slices_S4x64_S1x64_1_0 x3) := rfl

/-- The edge attributes of type 1. -/
theorem ea1_eq (x0 : (⟨S100000x64, .f32⟩ : BufTy).Contents (Elt Ideal)) (x1 : (⟨S4x2x500000, .i32⟩ : BufTy).Contents (Elt Ideal)) : val_main_v147 (F := Ideal) x0 x1 = rEa x0 (Cert.PreIdx.idxVec_1_0 x1) (Cert.PreIdx.idxVec_1_1 x1) := by
  unfold val_main_v147 val_main_v146 val_main_v138 val_main_v145 rEa
  rw [nsrc1_eq, ndst1_eq]

/-- The hidden array of type 1's edge network. -/
theorem hid1_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v158 (F := Ideal) x0 x1 x4 x5 = edgeH (rEa x0 (Cert.PreIdx.idxVec_1_0 x1) (Cert.PreIdx.idxVec_1_1 x1)) (transpose S64x64 [1, 0] (cut3 (F := Ideal) ![1, 0, 0] slices_S4x64x64_S1x64x64_1_0_0 x4) transposes_S64x64_S64x64_1_0) (cut2 (F := Ideal) ![1, 0] slices_S4x64_S1x64_1_0 x5) := by
  unfold val_main_v158 val_main_v157 val_main_v154 val_main_v156 val_main_v155 val_main_v153 edgeH refRelu
  rw [ea1_eq]
  rfl

/-- Its row means. -/
theorem mu1_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v162 (F := Ideal) x0 x1 x4 x5 = edgeMu (val_main_v158 (F := Ideal) x0 x1 x4 x5) := rfl

/-- Its row variances. -/
theorem var1_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v169 (F := Ideal) x0 x1 x4 x5 = edgeVar (val_main_v158 (F := Ideal) x0 x1 x4 x5) (val_main_v162 (F := Ideal) x0 x1 x4 x5) := rfl

/-- Its normalised rows with gain and shift. -/
theorem norm1_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) :
    val_main_v182 (F := Ideal) x0 x1 x4 x5 x6 x7
      = edgeNorm (val_main_v158 (F := Ideal) x0 x1 x4 x5) (val_main_v162 (F := Ideal) x0 x1 x4 x5) (val_main_v169 (F := Ideal) x0 x1 x4 x5) (cut2 (F := Ideal) ![1, 0] slices_S4x64_S1x64_1_0 x6) (cut2 (F := Ideal) ![1, 0] slices_S4x64_S1x64_1_0 x7) := rfl

/-- The edge network of type 1. -/
theorem e1_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) :
    val_main_v187 (F := Ideal) x0 x1 x4 x5 x6 x7 x8 x9 = rE x0 (Cert.PreIdx.idxVec_1_0 x1) (Cert.PreIdx.idxVec_1_1 x1) (cut3 (F := Ideal) ![1, 0, 0] slices_S4x64x64_S1x64x64_1_0_0 x4) (cut2 (F := Ideal) ![1, 0] slices_S4x64_S1x64_1_0 x5) (cut2 (F := Ideal) ![1, 0] slices_S4x64_S1x64_1_0 x6) (cut2 (F := Ideal) ![1, 0] slices_S4x64_S1x64_1_0 x7) (cut3 (F := Ideal) ![1, 0, 0] slices_S4x64x64_S1x64x64_1_0_0 x8) (cut2 (F := Ideal) ![1, 0] slices_S4x64_S1x64_1_0 x9) := by
  unfold val_main_v187 val_main_v184 val_main_v186 val_main_v185 val_main_v183 rE refEdge
  rw [norm1_eq, var1_eq, mu1_eq, hid1_eq]
  rfl

/-- The aggregated array of type 1. -/
theorem agg1_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) :
    val_main_v198 (F := Ideal) x0 x1 x2 x3 x4 x5 x6 x7 x8 x9 = rAgg x0 (Cert.PreIdx.idxVec_1_0 x1) (Cert.PreIdx.idxVec_1_1 x1) (cut3 (F := Ideal) ![1, 0, 0] slices_S4x64x64_S1x64x64_1_0_0 x2) (cut2 (F := Ideal) ![1, 0] slices_S4x64_S1x64_1_0 x3) (cut3 (F := Ideal) ![1, 0, 0] slices_S4x64x64_S1x64x64_1_0_0 x4) (cut2 (F := Ideal) ![1, 0] slices_S4x64_S1x64_1_0 x5) (cut2 (F := Ideal) ![1, 0] slices_S4x64_S1x64_1_0 x6) (cut2 (F := Ideal) ![1, 0] slices_S4x64_S1x64_1_0 x7) (cut3 (F := Ideal) ![1, 0, 0] slices_S4x64x64_S1x64x64_1_0_0 x8) (cut2 (F := Ideal) ![1, 0] slices_S4x64_S1x64_1_0 x9) := by
  unfold val_main_v198 val_main_v195 val_main_v194 val_main_v196 rAgg
  rw [e1_eq, xl1_eq, nsrc1_eq', cdst1_eq]
  rfl

/-- The output of type 1. -/
theorem out1_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) (x10 : (⟨S4x64x192, .f32⟩ : BufTy).Contents (Elt Ideal)) (x11 : (⟨S4x64, .f32⟩ : BufTy).Contents (Elt Ideal)) (x12 : (⟨S4x64, .f32⟩ : BufTy).Contents (Elt Ideal)) :
    val_main_v207 (F := Ideal) x0 x1 x2 x3 x4 x5 x6 x7 x8 x9 x10 x11 x12
      = rOut x0 (Cert.PreIdx.idxVec_1_0 x1) (Cert.PreIdx.idxVec_1_1 x1) (cut3 (F := Ideal) ![1, 0, 0] slices_S4x64x64_S1x64x64_1_0_0 x2) (cut2 (F := Ideal) ![1, 0] slices_S4x64_S1x64_1_0 x3) (cut3 (F := Ideal) ![1, 0, 0] slices_S4x64x64_S1x64x64_1_0_0 x4) (cut2 (F := Ideal) ![1, 0] slices_S4x64_S1x64_1_0 x5) (cut2 (F := Ideal) ![1, 0] slices_S4x64_S1x64_1_0 x6) (cut2 (F := Ideal) ![1, 0] slices_S4x64_S1x64_1_0 x7) (cut3 (F := Ideal) ![1, 0, 0] slices_S4x64x64_S1x64x64_1_0_0 x8) (cut2 (F := Ideal) ![1, 0] slices_S4x64_S1x64_1_0 x9) (cutP (F := Ideal) ![1, 0, 0] slices_S4x64x192_S1x64x192_1_0_0 x10) (cut2 (F := Ideal) ![1, 0] slices_S4x64_S1x64_1_0 x11) (cut2 (F := Ideal) ![1, 0] slices_S4x64_S1x64_1_0 x12) := by
  unfold val_main_v207 val_main_v204 val_main_v206 val_main_v205 val_main_v203 val_main_v202 val_main_v201 val_main_v200 val_main_v199 rOut refProj
  rw [agg1_eq, xl1_eq]
  rfl

/-! ### Edge type 2 -/

theorem src2_eq (x1 : (⟨S4x2x500000, .i32⟩ : BufTy).Contents (Elt Ideal)) : val_main_v233 (F := Ideal) x1 = Cert.PreIdx.idxVec_2_0 x1 := rfl
theorem dst2_eq (x1 : (⟨S4x2x500000, .i32⟩ : BufTy).Contents (Elt Ideal)) : val_main_v235 (F := Ideal) x1 = Cert.PreIdx.idxVec_2_1 x1 := rfl
theorem lw2_eq (x2 : (⟨S4x64x64, .f32⟩ : BufTy).Contents (Elt Ideal)) : val_main_v211 (F := Ideal) x2 = cut3 (F := Ideal) ![2, 0, 0] slices_S4x64x64_S1x64x64_2_0_0 x2 := rfl
theorem lb2_eq (x3 : (⟨S4x64, .f32⟩ : BufTy).Contents (Elt Ideal)) : val_main_v213 (F := Ideal) x3 = cut2 (F := Ideal) ![2, 0] slices_S4x64_S1x64_2_0 x3 := rfl
theorem w02_eq (x4 : (⟨S4x64x64, .f32⟩ : BufTy).Contents (Elt Ideal)) : val_main_v215 (F := Ideal) x4 = cut3 (F := Ideal) ![2, 0, 0] slices_S4x64x64_S1x64x64_2_0_0 x4 := rfl
theorem b02_eq (x5 : (⟨S4x64, .f32⟩ : BufTy).Contents (Elt Ideal)) : val_main_v217 (F := Ideal) x5 = cut2 (F := Ideal) ![2, 0] slices_S4x64_S1x64_2_0 x5 := rfl
theorem g2_eq (x6 : (⟨S4x64, .f32⟩ : BufTy).Contents (Elt Ideal)) : val_main_v219 (F := Ideal) x6 = cut2 (F := Ideal) ![2, 0] slices_S4x64_S1x64_2_0 x6 := rfl
theorem be2_eq (x7 : (⟨S4x64, .f32⟩ : BufTy).Contents (Elt Ideal)) : val_main_v221 (F := Ideal) x7 = cut2 (F := Ideal) ![2, 0] slices_S4x64_S1x64_2_0 x7 := rfl
theorem w12_eq (x8 : (⟨S4x64x64, .f32⟩ : BufTy).Contents (Elt Ideal)) : val_main_v223 (F := Ideal) x8 = cut3 (F := Ideal) ![2, 0, 0] slices_S4x64x64_S1x64x64_2_0_0 x8 := rfl
theorem b12_eq (x9 : (⟨S4x64, .f32⟩ : BufTy).Contents (Elt Ideal)) : val_main_v225 (F := Ideal) x9 = cut2 (F := Ideal) ![2, 0] slices_S4x64_S1x64_2_0 x9 := rfl
theorem pw2_eq (x10 : (⟨S4x64x192, .f32⟩ : BufTy).Contents (Elt Ideal)) : val_main_v227 (F := Ideal) x10 = cutP (F := Ideal) ![2, 0, 0] slices_S4x64x192_S1x64x192_2_0_0 x10 := rfl
theorem pb2_eq (x11 : (⟨S4x64, .f32⟩ : BufTy).Contents (Elt Ideal)) : val_main_v229 (F := Ideal) x11 = cut2 (F := Ideal) ![2, 0] slices_S4x64_S1x64_2_0 x11 := rfl
theorem bb2_eq (x12 : (⟨S4x64, .f32⟩ : BufTy).Contents (Elt Ideal)) : val_main_v231 (F := Ideal) x12 = cut2 (F := Ideal) ![2, 0] slices_S4x64_S1x64_2_0 x12 := rfl

/-- The normalised source column, computed twice by the program, and the normalised destination column. -/
theorem nsrc2_eq (x1 : (⟨S4x2x500000, .i32⟩ : BufTy).Contents (Elt Ideal)) : val_main_v241 (F := Ideal) x1 = rNorm (Cert.PreIdx.idxVec_2_0 x1) := rfl
theorem ndst2_eq (x1 : (⟨S4x2x500000, .i32⟩ : BufTy).Contents (Elt Ideal)) : val_main_v248 (F := Ideal) x1 = rNorm (Cert.PreIdx.idxVec_2_1 x1) := rfl
theorem nsrc2_eq' (x1 : (⟨S4x2x500000, .i32⟩ : BufTy).Contents (Elt Ideal)) : val_main_v297 (F := Ideal) x1 = rNorm (Cert.PreIdx.idxVec_2_0 x1) := rfl
theorem cdst2_eq (x1 : (⟨S4x2x500000, .i32⟩ : BufTy).Contents (Elt Ideal)) :
    val_main_v301 (F := Ideal) x1 = broadcastInDim S500000x1 ![0] bcast_S500000_S500000x1_0 (Cert.PreIdx.idxVec_2_1 x1) := rfl

/-- The node linear layer of type 2. -/
theorem xl2_eq (x0 : (⟨S100000x64, .f32⟩ : BufTy).Contents (Elt Ideal)) (x2 : (⟨S4x64x64, .f32⟩ : BufTy).Contents (Elt Ideal)) (x3 : (⟨S4x64, .f32⟩ : BufTy).Contents (Elt Ideal)) : val_main_v256 (F := Ideal) x0 x2 x3 = rXl x0 (cut3 (F := Ideal) ![2, 0, 0] slices_S4x64x64_S1x64x64_2_0_0 x2) (cut2 (F := Ideal) ![2, 0] slices_S4x64_S1x64_2_0 x3) := rfl

/-- The edge attributes of type 2. -/
theorem ea2_eq (x0 : (⟨S100000x64, .f32⟩ : BufTy).Contents (Elt Ideal)) (x1 : (⟨S4x2x500000, .i32⟩ : BufTy).Contents (Elt Ideal)) : val_main_v251 (F := Ideal) x0 x1 = rEa x0 (Cert.PreIdx.idxVec_2_0 x1) (Cert.PreIdx.idxVec_2_1 x1) := by
  unfold val_main_v251 val_main_v250 val_main_v242 val_main_v249 rEa
  rw [nsrc2_eq, ndst2_eq]

/-- The hidden array of type 2's edge network. -/
theorem hid2_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v262 (F := Ideal) x0 x1 x4 x5 = edgeH (rEa x0 (Cert.PreIdx.idxVec_2_0 x1) (Cert.PreIdx.idxVec_2_1 x1)) (transpose S64x64 [1, 0] (cut3 (F := Ideal) ![2, 0, 0] slices_S4x64x64_S1x64x64_2_0_0 x4) transposes_S64x64_S64x64_1_0) (cut2 (F := Ideal) ![2, 0] slices_S4x64_S1x64_2_0 x5) := by
  unfold val_main_v262 val_main_v261 val_main_v258 val_main_v260 val_main_v259 val_main_v257 edgeH refRelu
  rw [ea2_eq]
  rfl

/-- Its row means. -/
theorem mu2_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v266 (F := Ideal) x0 x1 x4 x5 = edgeMu (val_main_v262 (F := Ideal) x0 x1 x4 x5) := rfl

/-- Its row variances. -/
theorem var2_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v273 (F := Ideal) x0 x1 x4 x5 = edgeVar (val_main_v262 (F := Ideal) x0 x1 x4 x5) (val_main_v266 (F := Ideal) x0 x1 x4 x5) := rfl

/-- Its normalised rows with gain and shift. -/
theorem norm2_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) :
    val_main_v286 (F := Ideal) x0 x1 x4 x5 x6 x7
      = edgeNorm (val_main_v262 (F := Ideal) x0 x1 x4 x5) (val_main_v266 (F := Ideal) x0 x1 x4 x5) (val_main_v273 (F := Ideal) x0 x1 x4 x5) (cut2 (F := Ideal) ![2, 0] slices_S4x64_S1x64_2_0 x6) (cut2 (F := Ideal) ![2, 0] slices_S4x64_S1x64_2_0 x7) := rfl

/-- The edge network of type 2. -/
theorem e2_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) :
    val_main_v291 (F := Ideal) x0 x1 x4 x5 x6 x7 x8 x9 = rE x0 (Cert.PreIdx.idxVec_2_0 x1) (Cert.PreIdx.idxVec_2_1 x1) (cut3 (F := Ideal) ![2, 0, 0] slices_S4x64x64_S1x64x64_2_0_0 x4) (cut2 (F := Ideal) ![2, 0] slices_S4x64_S1x64_2_0 x5) (cut2 (F := Ideal) ![2, 0] slices_S4x64_S1x64_2_0 x6) (cut2 (F := Ideal) ![2, 0] slices_S4x64_S1x64_2_0 x7) (cut3 (F := Ideal) ![2, 0, 0] slices_S4x64x64_S1x64x64_2_0_0 x8) (cut2 (F := Ideal) ![2, 0] slices_S4x64_S1x64_2_0 x9) := by
  unfold val_main_v291 val_main_v288 val_main_v290 val_main_v289 val_main_v287 rE refEdge
  rw [norm2_eq, var2_eq, mu2_eq, hid2_eq]
  rfl

/-- The aggregated array of type 2. -/
theorem agg2_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) :
    val_main_v302 (F := Ideal) x0 x1 x2 x3 x4 x5 x6 x7 x8 x9 = rAgg x0 (Cert.PreIdx.idxVec_2_0 x1) (Cert.PreIdx.idxVec_2_1 x1) (cut3 (F := Ideal) ![2, 0, 0] slices_S4x64x64_S1x64x64_2_0_0 x2) (cut2 (F := Ideal) ![2, 0] slices_S4x64_S1x64_2_0 x3) (cut3 (F := Ideal) ![2, 0, 0] slices_S4x64x64_S1x64x64_2_0_0 x4) (cut2 (F := Ideal) ![2, 0] slices_S4x64_S1x64_2_0 x5) (cut2 (F := Ideal) ![2, 0] slices_S4x64_S1x64_2_0 x6) (cut2 (F := Ideal) ![2, 0] slices_S4x64_S1x64_2_0 x7) (cut3 (F := Ideal) ![2, 0, 0] slices_S4x64x64_S1x64x64_2_0_0 x8) (cut2 (F := Ideal) ![2, 0] slices_S4x64_S1x64_2_0 x9) := by
  unfold val_main_v302 val_main_v299 val_main_v298 val_main_v300 rAgg
  rw [e2_eq, xl2_eq, nsrc2_eq', cdst2_eq]
  rfl

/-- The output of type 2. -/
theorem out2_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) (x10 : (⟨S4x64x192, .f32⟩ : BufTy).Contents (Elt Ideal)) (x11 : (⟨S4x64, .f32⟩ : BufTy).Contents (Elt Ideal)) (x12 : (⟨S4x64, .f32⟩ : BufTy).Contents (Elt Ideal)) :
    val_main_v311 (F := Ideal) x0 x1 x2 x3 x4 x5 x6 x7 x8 x9 x10 x11 x12
      = rOut x0 (Cert.PreIdx.idxVec_2_0 x1) (Cert.PreIdx.idxVec_2_1 x1) (cut3 (F := Ideal) ![2, 0, 0] slices_S4x64x64_S1x64x64_2_0_0 x2) (cut2 (F := Ideal) ![2, 0] slices_S4x64_S1x64_2_0 x3) (cut3 (F := Ideal) ![2, 0, 0] slices_S4x64x64_S1x64x64_2_0_0 x4) (cut2 (F := Ideal) ![2, 0] slices_S4x64_S1x64_2_0 x5) (cut2 (F := Ideal) ![2, 0] slices_S4x64_S1x64_2_0 x6) (cut2 (F := Ideal) ![2, 0] slices_S4x64_S1x64_2_0 x7) (cut3 (F := Ideal) ![2, 0, 0] slices_S4x64x64_S1x64x64_2_0_0 x8) (cut2 (F := Ideal) ![2, 0] slices_S4x64_S1x64_2_0 x9) (cutP (F := Ideal) ![2, 0, 0] slices_S4x64x192_S1x64x192_2_0_0 x10) (cut2 (F := Ideal) ![2, 0] slices_S4x64_S1x64_2_0 x11) (cut2 (F := Ideal) ![2, 0] slices_S4x64_S1x64_2_0 x12) := by
  unfold val_main_v311 val_main_v308 val_main_v310 val_main_v309 val_main_v307 val_main_v306 val_main_v305 val_main_v304 val_main_v303 rOut refProj
  rw [agg2_eq, xl2_eq]
  rfl

/-! ### Edge type 3 -/

theorem src3_eq (x1 : (⟨S4x2x500000, .i32⟩ : BufTy).Contents (Elt Ideal)) : val_main_v337 (F := Ideal) x1 = Cert.PreIdx.idxVec_3_0 x1 := rfl
theorem dst3_eq (x1 : (⟨S4x2x500000, .i32⟩ : BufTy).Contents (Elt Ideal)) : val_main_v339 (F := Ideal) x1 = Cert.PreIdx.idxVec_3_1 x1 := rfl
theorem lw3_eq (x2 : (⟨S4x64x64, .f32⟩ : BufTy).Contents (Elt Ideal)) : val_main_v315 (F := Ideal) x2 = cut3 (F := Ideal) ![3, 0, 0] slices_S4x64x64_S1x64x64_3_0_0 x2 := rfl
theorem lb3_eq (x3 : (⟨S4x64, .f32⟩ : BufTy).Contents (Elt Ideal)) : val_main_v317 (F := Ideal) x3 = cut2 (F := Ideal) ![3, 0] slices_S4x64_S1x64_3_0 x3 := rfl
theorem w03_eq (x4 : (⟨S4x64x64, .f32⟩ : BufTy).Contents (Elt Ideal)) : val_main_v319 (F := Ideal) x4 = cut3 (F := Ideal) ![3, 0, 0] slices_S4x64x64_S1x64x64_3_0_0 x4 := rfl
theorem b03_eq (x5 : (⟨S4x64, .f32⟩ : BufTy).Contents (Elt Ideal)) : val_main_v321 (F := Ideal) x5 = cut2 (F := Ideal) ![3, 0] slices_S4x64_S1x64_3_0 x5 := rfl
theorem g3_eq (x6 : (⟨S4x64, .f32⟩ : BufTy).Contents (Elt Ideal)) : val_main_v323 (F := Ideal) x6 = cut2 (F := Ideal) ![3, 0] slices_S4x64_S1x64_3_0 x6 := rfl
theorem be3_eq (x7 : (⟨S4x64, .f32⟩ : BufTy).Contents (Elt Ideal)) : val_main_v325 (F := Ideal) x7 = cut2 (F := Ideal) ![3, 0] slices_S4x64_S1x64_3_0 x7 := rfl
theorem w13_eq (x8 : (⟨S4x64x64, .f32⟩ : BufTy).Contents (Elt Ideal)) : val_main_v327 (F := Ideal) x8 = cut3 (F := Ideal) ![3, 0, 0] slices_S4x64x64_S1x64x64_3_0_0 x8 := rfl
theorem b13_eq (x9 : (⟨S4x64, .f32⟩ : BufTy).Contents (Elt Ideal)) : val_main_v329 (F := Ideal) x9 = cut2 (F := Ideal) ![3, 0] slices_S4x64_S1x64_3_0 x9 := rfl
theorem pw3_eq (x10 : (⟨S4x64x192, .f32⟩ : BufTy).Contents (Elt Ideal)) : val_main_v331 (F := Ideal) x10 = cutP (F := Ideal) ![3, 0, 0] slices_S4x64x192_S1x64x192_3_0_0 x10 := rfl
theorem pb3_eq (x11 : (⟨S4x64, .f32⟩ : BufTy).Contents (Elt Ideal)) : val_main_v333 (F := Ideal) x11 = cut2 (F := Ideal) ![3, 0] slices_S4x64_S1x64_3_0 x11 := rfl
theorem bb3_eq (x12 : (⟨S4x64, .f32⟩ : BufTy).Contents (Elt Ideal)) : val_main_v335 (F := Ideal) x12 = cut2 (F := Ideal) ![3, 0] slices_S4x64_S1x64_3_0 x12 := rfl

/-- The normalised source column, computed twice by the program, and the normalised destination column. -/
theorem nsrc3_eq (x1 : (⟨S4x2x500000, .i32⟩ : BufTy).Contents (Elt Ideal)) : val_main_v345 (F := Ideal) x1 = rNorm (Cert.PreIdx.idxVec_3_0 x1) := rfl
theorem ndst3_eq (x1 : (⟨S4x2x500000, .i32⟩ : BufTy).Contents (Elt Ideal)) : val_main_v352 (F := Ideal) x1 = rNorm (Cert.PreIdx.idxVec_3_1 x1) := rfl
theorem nsrc3_eq' (x1 : (⟨S4x2x500000, .i32⟩ : BufTy).Contents (Elt Ideal)) : val_main_v401 (F := Ideal) x1 = rNorm (Cert.PreIdx.idxVec_3_0 x1) := rfl
theorem cdst3_eq (x1 : (⟨S4x2x500000, .i32⟩ : BufTy).Contents (Elt Ideal)) :
    val_main_v405 (F := Ideal) x1 = broadcastInDim S500000x1 ![0] bcast_S500000_S500000x1_0 (Cert.PreIdx.idxVec_3_1 x1) := rfl

/-- The node linear layer of type 3. -/
theorem xl3_eq (x0 : (⟨S100000x64, .f32⟩ : BufTy).Contents (Elt Ideal)) (x2 : (⟨S4x64x64, .f32⟩ : BufTy).Contents (Elt Ideal)) (x3 : (⟨S4x64, .f32⟩ : BufTy).Contents (Elt Ideal)) : val_main_v360 (F := Ideal) x0 x2 x3 = rXl x0 (cut3 (F := Ideal) ![3, 0, 0] slices_S4x64x64_S1x64x64_3_0_0 x2) (cut2 (F := Ideal) ![3, 0] slices_S4x64_S1x64_3_0 x3) := rfl

/-- The edge attributes of type 3. -/
theorem ea3_eq (x0 : (⟨S100000x64, .f32⟩ : BufTy).Contents (Elt Ideal)) (x1 : (⟨S4x2x500000, .i32⟩ : BufTy).Contents (Elt Ideal)) : val_main_v355 (F := Ideal) x0 x1 = rEa x0 (Cert.PreIdx.idxVec_3_0 x1) (Cert.PreIdx.idxVec_3_1 x1) := by
  unfold val_main_v355 val_main_v354 val_main_v346 val_main_v353 rEa
  rw [nsrc3_eq, ndst3_eq]

/-- The hidden array of type 3's edge network. -/
theorem hid3_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v366 (F := Ideal) x0 x1 x4 x5 = edgeH (rEa x0 (Cert.PreIdx.idxVec_3_0 x1) (Cert.PreIdx.idxVec_3_1 x1)) (transpose S64x64 [1, 0] (cut3 (F := Ideal) ![3, 0, 0] slices_S4x64x64_S1x64x64_3_0_0 x4) transposes_S64x64_S64x64_1_0) (cut2 (F := Ideal) ![3, 0] slices_S4x64_S1x64_3_0 x5) := by
  unfold val_main_v366 val_main_v365 val_main_v362 val_main_v364 val_main_v363 val_main_v361 edgeH refRelu
  rw [ea3_eq]
  rfl

/-- Its row means. -/
theorem mu3_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v370 (F := Ideal) x0 x1 x4 x5 = edgeMu (val_main_v366 (F := Ideal) x0 x1 x4 x5) := rfl

/-- Its row variances. -/
theorem var3_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) :
    val_main_v377 (F := Ideal) x0 x1 x4 x5 = edgeVar (val_main_v366 (F := Ideal) x0 x1 x4 x5) (val_main_v370 (F := Ideal) x0 x1 x4 x5) := rfl

/-- Its normalised rows with gain and shift. -/
theorem norm3_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) :
    val_main_v390 (F := Ideal) x0 x1 x4 x5 x6 x7
      = edgeNorm (val_main_v366 (F := Ideal) x0 x1 x4 x5) (val_main_v370 (F := Ideal) x0 x1 x4 x5) (val_main_v377 (F := Ideal) x0 x1 x4 x5) (cut2 (F := Ideal) ![3, 0] slices_S4x64_S1x64_3_0 x6) (cut2 (F := Ideal) ![3, 0] slices_S4x64_S1x64_3_0 x7) := rfl

/-- The edge network of type 3. -/
theorem e3_eq (x0 : (⟨S100000x64, .f32⟩ : BufTy).Contents (Elt Ideal)) (x1 : (⟨S4x2x500000, .i32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) :
    val_main_v395 (F := Ideal) x0 x1 x4 x5 x6 x7 x8 x9 = rE x0 (Cert.PreIdx.idxVec_3_0 x1) (Cert.PreIdx.idxVec_3_1 x1) (cut3 (F := Ideal) ![3, 0, 0] slices_S4x64x64_S1x64x64_3_0_0 x4) (cut2 (F := Ideal) ![3, 0] slices_S4x64_S1x64_3_0 x5) (cut2 (F := Ideal) ![3, 0] slices_S4x64_S1x64_3_0 x6) (cut2 (F := Ideal) ![3, 0] slices_S4x64_S1x64_3_0 x7) (cut3 (F := Ideal) ![3, 0, 0] slices_S4x64x64_S1x64x64_3_0_0 x8) (cut2 (F := Ideal) ![3, 0] slices_S4x64_S1x64_3_0 x9) := by
  unfold val_main_v395 val_main_v392 val_main_v394 val_main_v393 val_main_v391 rE refEdge
  rw [norm3_eq, var3_eq, mu3_eq, hid3_eq]
  rfl

/-- The aggregated array of type 3. -/
theorem agg3_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) :
    val_main_v406 (F := Ideal) x0 x1 x2 x3 x4 x5 x6 x7 x8 x9 = rAgg x0 (Cert.PreIdx.idxVec_3_0 x1) (Cert.PreIdx.idxVec_3_1 x1) (cut3 (F := Ideal) ![3, 0, 0] slices_S4x64x64_S1x64x64_3_0_0 x2) (cut2 (F := Ideal) ![3, 0] slices_S4x64_S1x64_3_0 x3) (cut3 (F := Ideal) ![3, 0, 0] slices_S4x64x64_S1x64x64_3_0_0 x4) (cut2 (F := Ideal) ![3, 0] slices_S4x64_S1x64_3_0 x5) (cut2 (F := Ideal) ![3, 0] slices_S4x64_S1x64_3_0 x6) (cut2 (F := Ideal) ![3, 0] slices_S4x64_S1x64_3_0 x7) (cut3 (F := Ideal) ![3, 0, 0] slices_S4x64x64_S1x64x64_3_0_0 x8) (cut2 (F := Ideal) ![3, 0] slices_S4x64_S1x64_3_0 x9) := by
  unfold val_main_v406 val_main_v403 val_main_v402 val_main_v404 rAgg
  rw [e3_eq, xl3_eq, nsrc3_eq', cdst3_eq]
  rfl

/-- The output of type 3. -/
theorem out3_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) (x10 : (⟨S4x64x192, .f32⟩ : BufTy).Contents (Elt Ideal)) (x11 : (⟨S4x64, .f32⟩ : BufTy).Contents (Elt Ideal)) (x12 : (⟨S4x64, .f32⟩ : BufTy).Contents (Elt Ideal)) :
    val_main_v415 (F := Ideal) x0 x1 x2 x3 x4 x5 x6 x7 x8 x9 x10 x11 x12
      = rOut x0 (Cert.PreIdx.idxVec_3_0 x1) (Cert.PreIdx.idxVec_3_1 x1) (cut3 (F := Ideal) ![3, 0, 0] slices_S4x64x64_S1x64x64_3_0_0 x2) (cut2 (F := Ideal) ![3, 0] slices_S4x64_S1x64_3_0 x3) (cut3 (F := Ideal) ![3, 0, 0] slices_S4x64x64_S1x64x64_3_0_0 x4) (cut2 (F := Ideal) ![3, 0] slices_S4x64_S1x64_3_0 x5) (cut2 (F := Ideal) ![3, 0] slices_S4x64_S1x64_3_0 x6) (cut2 (F := Ideal) ![3, 0] slices_S4x64_S1x64_3_0 x7) (cut3 (F := Ideal) ![3, 0, 0] slices_S4x64x64_S1x64x64_3_0_0 x8) (cut2 (F := Ideal) ![3, 0] slices_S4x64_S1x64_3_0 x9) (cutP (F := Ideal) ![3, 0, 0] slices_S4x64x192_S1x64x192_3_0_0 x10) (cut2 (F := Ideal) ![3, 0] slices_S4x64_S1x64_3_0 x11) (cut2 (F := Ideal) ![3, 0] slices_S4x64_S1x64_3_0 x12) := by
  unfold val_main_v415 val_main_v412 val_main_v414 val_main_v413 val_main_v411 val_main_v410 val_main_v409 val_main_v408 val_main_v407 rOut refProj
  rw [agg3_eq, xl3_eq]
  rfl

/-! ### The last step -/

/-- The program's result is the mean of the four types' outputs: they are stacked along a new leading axis, the stack is
    summed along it from zero, and the sum is divided by four. -/
theorem result_eq (x0 : (⟨S100000x64, .f32⟩ : BufTy).Contents (Elt Ideal)) (x1 : (⟨S4x2x500000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S4x64, .f32⟩ : BufTy).Contents (Elt Ideal)) (x7 : (⟨S4x64, .f32⟩ : BufTy).Contents (Elt Ideal)) (x8 : (⟨S4x64x64, .f32⟩ : BufTy).Contents (Elt Ideal)) (x9 : (⟨S4x64, .f32⟩ : BufTy).Contents (Elt Ideal)) (x10 : (⟨S4x64x192, .f32⟩ : BufTy).Contents (Elt Ideal)) (x11 : (⟨S4x64, .f32⟩ : BufTy).Contents (Elt Ideal)) (x12 : (⟨S4x64, .f32⟩ : BufTy).Contents (Elt Ideal)) :
    val_main_v423 (F := Ideal) x0 x1 x2 x3 x4 x5 x6 x7 x8 x9 x10 x11 x12
      = Cert.KWeights.rFinal (val_main_v103 (F := Ideal) x0 x1 x2 x3 x4 x5 x6 x7 x8 x9 x10 x11 x12) (val_main_v207 (F := Ideal) x0 x1 x2 x3 x4 x5 x6 x7 x8 x9 x10 x11 x12)
          (val_main_v311 (F := Ideal) x0 x1 x2 x3 x4 x5 x6 x7 x8 x9 x10 x11 x12) (val_main_v415 (F := Ideal) x0 x1 x2 x3 x4 x5 x6 x7 x8 x9 x10 x11 x12) := rfl

end Cert.ReferenceIdeal.RefVal

end
-- ==== Proof.Bridge.lean ====
/-
  One edge type's output is the same function of its operands in the two programs.

  Both programs compute, for one edge type, from the node features `x`, the source and destination index vectors and
  the type's weights:
  * the node-linear rows `xl` (every row of `x` times the transposed weight, plus the bias);
  * the edge attributes |x[src] − x[dst]|;
  * the edge network on every edge attribute row (both weights transposed);
  * the aggregation: the rows [xl[src] | e] added into the row of their destination node, from zero;
  * the projection of [xl | h] by the transposed projection weight, plus two biases.
  They differ in three ways, none of which changes a value on the extended reals. One program reads rows through an
  index-tested read that overwrites a row whose index is out of range: with every index in [0, 100000) the test always
  passes and the read is the plain gather at the normalised index column. One program narrows the float format of its
  transposed weights, which is the identity. One program multiplies [xl | h] by the whole transposed projection weight,
  the other multiplies `xl` by its first 64 rows and `h` by its last 128 rows and adds: a sum over 192 = 64 + 128 terms
  split in two. The shapes and dimension records of the two programs are the same literals under two names.
-/
import proofs.«410647_j53395033423884_2_alg».proof.Proof.KVal
import proofs.«410647_j53395033423884_2_alg».proof.Proof.TakeMask
import proofs.«410647_j53395033423884_2_alg».proof.Proof.PreIdx
import proofs.«410647_j53395033423884_2_alg».proof.Proof.RefRows
import proofs.«410647_j53395033423884_2_alg».proof.Proof.KWeights
import proofs.«410647_j53395033423884_2_alg».proof.Proof.RefVal

noncomputable section

namespace Cert.Bridge

open Idealize.ShloMosaic Cert.Rows

/-! ## The two programs name the same records and index columns -/

/-- The normalised index column is the same function in the two programs. -/
theorem normIdx_eq (v : IVec Cert.KernelIdeal.S500000 32) :
    Cert.KernelIdeal.Take.normIdx v = Cert.ReferenceIdeal.RefVal.rNorm v := rfl

/-- The row gather is the same function in the two programs. -/
theorem gather_eq (x : FVec Ideal Cert.KernelIdeal.S100000x64 .f32) (i : IVec Cert.KernelIdeal.S500000x1 32) :
    Host.gather Cert.KernelIdeal.gather_S100000x64_S500000x1_S500000x64_1_0_n_n_0_1_164 x i
      = Host.gather Cert.ReferenceIdeal.gather_S100000x64_S500000x1_S500000x64_1_0_n_n_0_1_164 x i := rfl

/-- The row scatter-add is the same function in the two programs. -/
theorem scatter_eq (z : FVec Ideal Cert.KernelIdeal.S100000x128 .f32) (i : IVec Cert.KernelIdeal.S500000x1 32)
    (u : FVec Ideal Cert.KernelIdeal.S500000x128 .f32) :
    Host.scatterAdd Cert.KernelIdeal.scatter_S100000x128_S500000x1_S500000x128_1_0_0_1 z i u
      = Host.scatterAdd Cert.ReferenceIdeal.scatter_S100000x128_S500000x1_S500000x128_1_0_0_1 z i u := rfl

/-- With every index in range, the index-tested row read is the plain gather at the normalised index column. -/
theorem take_eq (x : FVec Ideal Cert.KernelIdeal.S100000x64 .f32) (v : IVec Cert.KernelIdeal.S500000 32)
    (hv : ∀ e, Cert.PreIdx.InRange (v e)) :
    Cert.KernelIdeal.Take.takeFill (F := Ideal) x v
      = Host.gather Cert.ReferenceIdeal.gather_S100000x64_S500000x1_S500000x64_1_0_n_n_0_1_164 x
          (Cert.ReferenceIdeal.RefVal.rNorm v) :=
  (Cert.KernelIdeal.Take.takeFill_eq x v hv).trans (gather_eq x _)

/-- A transposed 64 × 64 weight, narrowed in format, is the transposed weight. -/
theorem kWT_eq (w : FVec Ideal Cert.KernelIdeal.S64x64 .f32) :
    Cert.KernelIdeal.KVal.kWT w
      = transpose Cert.ReferenceIdeal.S64x64 [1, 0] w Cert.ReferenceIdeal.Facts₀.transposes_S64x64_S64x64_1_0 :=
  Cert.KWeights.trunc_id _ _

/-- The transposed projection weight likewise. -/
theorem kPWT_eq (pw : FVec Ideal Cert.KernelIdeal.S64x192 .f32) :
    Cert.KernelIdeal.KVal.kPWT pw
      = transpose Cert.ReferenceIdeal.S192x64 [1, 0] pw Cert.ReferenceIdeal.Facts₀.transposes_S64x192_S192x64_1_0 :=
  Cert.KWeights.trunc_id _ _

/-! ## Stage by stage -/

/-- The node-linear stage. -/
theorem kXl_eq (x : FVec Ideal Cert.KernelIdeal.S100000x64 .f32) (lw : FVec Ideal Cert.KernelIdeal.S64x64 .f32)
    (lb : FVec Ideal Cert.KernelIdeal.S64 .f32) :
    Cert.KernelIdeal.KVal.kXl x lw lb = Cert.ReferenceIdeal.RefVal.rXl x lw lb := by
  unfold Cert.KernelIdeal.KVal.kXl Cert.ReferenceIdeal.RefVal.rXl
  rw [kWT_eq lw]
  exact (Cert.ReferenceIdeal.Rows.refLin_eq x _ lb).symm

/-- The edge attributes: the absolute difference of the two gathered rows. -/
theorem kEa_eq (x : FVec Ideal Cert.KernelIdeal.S100000x64 .f32) (src dst : IVec Cert.KernelIdeal.S500000 32)
    (hs : ∀ e, Cert.PreIdx.InRange (src e)) (hd : ∀ e, Cert.PreIdx.InRange (dst e)) :
    Cert.KernelIdeal.KVal.kEa x src dst = Cert.ReferenceIdeal.RefVal.rEa x src dst := by
  unfold Cert.KernelIdeal.KVal.kEa Cert.ReferenceIdeal.RefVal.rEa
  rw [take_eq x src hs, take_eq x dst hd]

/-- The edge network on every edge row. -/
theorem kE_eq (x : FVec Ideal Cert.KernelIdeal.S100000x64 .f32) (src dst : IVec Cert.KernelIdeal.S500000 32)
    (w0 : FVec Ideal Cert.KernelIdeal.S64x64 .f32) (b0 g be : FVec Ideal Cert.KernelIdeal.S64 .f32)
    (w1 : FVec Ideal Cert.KernelIdeal.S64x64 .f32) (b1 : FVec Ideal Cert.KernelIdeal.S64 .f32)
    (hs : ∀ e, Cert.PreIdx.InRange (src e)) (hd : ∀ e, Cert.PreIdx.InRange (dst e)) :
    Cert.KernelIdeal.KVal.kE x src dst w0 b0 g be w1 b1 = Cert.ReferenceIdeal.RefVal.rE x src dst w0 b0 g be w1 b1 := by
  unfold Cert.KernelIdeal.KVal.kE Cert.ReferenceIdeal.RefVal.rE
  rw [kEa_eq x src dst hs hd, kWT_eq w0, kWT_eq w1]
  exact (Cert.ReferenceIdeal.Rows.refEdge_eq _ _ b0 g be _ b1).symm

/-- The aggregation: the rows [xl[src] | e] added into their destination rows, from zero. -/
theorem kH_eq (x : FVec Ideal Cert.KernelIdeal.S100000x64 .f32) (src dst : IVec Cert.KernelIdeal.S500000 32)
    (lw : FVec Ideal Cert.KernelIdeal.S64x64 .f32) (lb : FVec Ideal Cert.KernelIdeal.S64 .f32)
    (w0 : FVec Ideal Cert.KernelIdeal.S64x64 .f32) (b0 g be : FVec Ideal Cert.KernelIdeal.S64 .f32)
    (w1 : FVec Ideal Cert.KernelIdeal.S64x64 .f32) (b1 : FVec Ideal Cert.KernelIdeal.S64 .f32)
    (hs : ∀ e, Cert.PreIdx.InRange (src e)) (hd : ∀ e, Cert.PreIdx.InRange (dst e)) :
    Cert.KernelIdeal.KVal.kH (Cert.KernelIdeal.KVal.kXl x lw lb) (Cert.KernelIdeal.KVal.kE x src dst w0 b0 g be w1 b1) src dst
      = Cert.ReferenceIdeal.RefVal.rAgg x src dst lw lb w0 b0 g be w1 b1 := by
  rw [kXl_eq x lw lb, kE_eq x src dst w0 b0 g be w1 b1 hs hd]
  unfold Cert.KernelIdeal.KVal.kH Cert.ReferenceIdeal.RefVal.rAgg
  rw [take_eq (Cert.ReferenceIdeal.RefVal.rXl x lw lb) src hs]
  exact scatter_eq _ _ _

/-! ## One edge type's output -/

/-- With both index vectors in range, one edge type's output is the same function of its operands in the two programs. -/
theorem kOut_eq_rOut (x : FVec Ideal Cert.KernelIdeal.S100000x64 .f32) (src dst : IVec Cert.KernelIdeal.S500000 32)
    (lw : FVec Ideal Cert.KernelIdeal.S64x64 .f32) (lb : FVec Ideal Cert.KernelIdeal.S64 .f32)
    (w0 : FVec Ideal Cert.KernelIdeal.S64x64 .f32) (b0 g be : FVec Ideal Cert.KernelIdeal.S64 .f32)
    (w1 : FVec Ideal Cert.KernelIdeal.S64x64 .f32) (b1 : FVec Ideal Cert.KernelIdeal.S64 .f32)
    (pw : FVec Ideal Cert.KernelIdeal.S64x192 .f32) (pb bb : FVec Ideal Cert.KernelIdeal.S64 .f32)
    (hs : ∀ e, Cert.PreIdx.InRange (src e)) (hd : ∀ e, Cert.PreIdx.InRange (dst e)) :
    Cert.KernelIdeal.KVal.kOut x src dst lw lb w0 b0 g be w1 b1 pw pb bb
      = Cert.ReferenceIdeal.RefVal.rOut x src dst lw lb w0 b0 g be w1 b1 pw pb bb := by
  unfold Cert.KernelIdeal.KVal.kOut Cert.ReferenceIdeal.RefVal.rOut
  rw [Cert.KWeights.top_rows, Cert.KWeights.bot_rows, kH_eq x src dst lw lb w0 b0 g be w1 b1 hs hd, kXl_eq x lw lb]
  refine (Cert.ReferenceIdeal.Rows.refProj_eq _ _ (Cert.KernelIdeal.KVal.kPWT pw) pb bb).symm.trans ?_
  rw [kPWT_eq pw]

end Cert.Bridge

end
-- ==== Proof.AlgVal.lean ====
/-
  The two idealized programs compute the same array.

  The kernel's result is `kFinal` of its four type outputs, each `kOut` of the pieces cut from the arguments; the
  reference's is `rFinal` of its four type outputs, each `rOut` of the same pieces. Under the precondition every
  entry of the edge list is a valid node index, so each index-tested row read of the kernel is the plain row
  read of the reference and `kOut = rOut`; the two last steps agree because a sum of four scaled by a quarter is
  that sum divided by four.
-/
import proofs.«410647_j53395033423884_2_alg».proof.Proof.KTF
import proofs.«410647_j53395033423884_2_alg».proof.Proof.RefVal
import proofs.«410647_j53395033423884_2_alg».proof.Proof.Bridge

set_option maxRecDepth 16384

noncomputable section

namespace Cert.Proof.Alg

open Idealize.ShloMosaic Idealize.ShloMosaic.TcCoe Idealize.SL.Sem
open Cert.KernelIdeal Cert.KernelIdeal.Gen Cert.PreIdx

/-- Edge type 0: the kernel's output is the reference's function of the same pieces. -/
theorem out0 (m : (ℓ : Loc nD τ sig) → Buf (Elt Ideal) ℓ) (hpre : Cert.Pre_KernelIdeal m) (c : Dev nD) :
    KT0.outVal m c = Cert.ReferenceIdeal.RefVal.rOut (KT0.x m c) (KT0.src m c) (KT0.dst m c) (KT0.lw m c) (KT0.lb m c) (KT0.w0 m c)
      (KT0.b0 m c) (KT0.g m c) (KT0.be m c) (KT0.w1 m c) (KT0.b1 m c) (KT0.pw m c) (KT0.pb m c) (KT0.bb m c) :=
  Cert.Bridge.kOut_eq_rOut _ _ _ _ _ _ _ _ _ _ _ _ _ _
    (idxVec_0_0_range _ (arg1_range m hpre c)) (idxVec_0_1_range _ (arg1_range m hpre c))

/-- Edge type 1: the kernel's output is the reference's function of the same pieces. -/
theorem out1 (m : (ℓ : Loc nD τ sig) → Buf (Elt Ideal) ℓ) (hpre : Cert.Pre_KernelIdeal m) (c : Dev nD) :
    KT1.outVal m c = Cert.ReferenceIdeal.RefVal.rOut (KT1.x m c) (KT1.src m c) (KT1.dst m c) (KT1.lw m c) (KT1.lb m c) (KT1.w0 m c)
      (KT1.b0 m c) (KT1.g m c) (KT1.be m c) (KT1.w1 m c) (KT1.b1 m c) (KT1.pw m c) (KT1.pb m c) (KT1.bb m c) :=
  Cert.Bridge.kOut_eq_rOut _ _ _ _ _ _ _ _ _ _ _ _ _ _
    (idxVec_1_0_range _ (arg1_range m hpre c)) (idxVec_1_1_range _ (arg1_range m hpre c))

/-- Edge type 2: the kernel's output is the reference's function of the same pieces. -/
theorem out2 (m : (ℓ : Loc nD τ sig) → Buf (Elt Ideal) ℓ) (hpre : Cert.Pre_KernelIdeal m) (c : Dev nD) :
    KT2.outVal m c = Cert.ReferenceIdeal.RefVal.rOut (KT2.x m c) (KT2.src m c) (KT2.dst m c) (KT2.lw m c) (KT2.lb m c) (KT2.w0 m c)
      (KT2.b0 m c) (KT2.g m c) (KT2.be m c) (KT2.w1 m c) (KT2.b1 m c) (KT2.pw m c) (KT2.pb m c) (KT2.bb m c) :=
  Cert.Bridge.kOut_eq_rOut _ _ _ _ _ _ _ _ _ _ _ _ _ _
    (idxVec_2_0_range _ (arg1_range m hpre c)) (idxVec_2_1_range _ (arg1_range m hpre c))

/-- Edge type 3: the kernel's output is the reference's function of the same pieces. -/
theorem out3 (m : (ℓ : Loc nD τ sig) → Buf (Elt Ideal) ℓ) (hpre : Cert.Pre_KernelIdeal m) (c : Dev nD) :
    KT3.outVal m c = Cert.ReferenceIdeal.RefVal.rOut (KT3.x m c) (KT3.src m c) (KT3.dst m c) (KT3.lw m c) (KT3.lb m c) (KT3.w0 m c)
      (KT3.b0 m c) (KT3.g m c) (KT3.be m c) (KT3.w1 m c) (KT3.b1 m c) (KT3.pw m c) (KT3.pb m c) (KT3.bb m c) :=
  Cert.Bridge.kOut_eq_rOut _ _ _ _ _ _ _ _ _ _ _ _ _ _
    (idxVec_3_0_range _ (arg1_range m hpre c)) (idxVec_3_1_range _ (arg1_range m hpre c))

/-- The reference's stages at arguments that agree with the kernel's are the kernel's result: stage by stage the
    reference's term is rewritten into the kernel's. -/
theorem value_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hpre : Cert.Pre_KernelIdeal m) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12)) :
    Cert.ReferenceIdeal.Read.val_main_v423 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = W41 m ρ c (Proc.devRef .tc main_v206) := by
  rw [h0, h1, h2, h3, h4, h5, h6, h7, h8, h9, h10, h11, h12,
    Cert.ReferenceIdeal.RefVal.result_eq, Cert.ReferenceIdeal.RefVal.out0_eq, Cert.ReferenceIdeal.RefVal.out1_eq,
    Cert.ReferenceIdeal.RefVal.out2_eq, Cert.ReferenceIdeal.RefVal.out3_eq]
  rw [KTF.result m ρ c, out0 m hpre c, out1 m hpre c, out2 m hpre c, out3 m hpre c, Cert.KWeights.final_eq]

end Cert.Proof.Alg

end
-- ==== Proof.RefOps.lean ====
/- The reference program as a list of operations, cut at the windows the program is printed in.

  Each window `main_partK` is the sequence `seq opsK` of its operations (a called function's operations stand in its
  call's place); the whole program is the sequence of the concatenated list `ops`. For each window: every operation's
  buffers are TensorCore buffers (`opsK_sub`), no operation allocates (`opsK_fresh`), and the buffers the window
  writes are among the listed ones (`opsK_W`, `opsK_writes`), so a buffer outside that list keeps its contents
  through the window (`opsK_keep`).
-/
import proofs.«410647_j53395033423884_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in order. -/
abbrev ops0 : List (HloOp τ sig (Elt F)) :=
  [ unary main_arg1 main_v0 ((extractStridedSlice S1x2x500000 ![0, 0, 0] · slices_S4x2x500000_S1x2x500000_0_0_0) : (⟨S4x2x500000, .i32⟩ : BufTy).Contents (Elt F) → (⟨S1x2x500000, .i32⟩ : BufTy).Contents (Elt F)),
    reshape main_v0 main_v1 rfl shapeCasts_S1x2x500000_S2x500000,
    unary main_arg2 main_v2 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v2 main_v3 rfl shapeCasts_S1x64x64_S64x64,
    unary main_arg3 main_v4 ((extractStridedSlice S1x64 ![0, 0] · slices_S4x64_S1x64_0_0) : (⟨S4x64, .f32⟩ : BufTy).Contents (Elt F) → (⟨S1x64, .f32⟩ : BufTy).Contents (Elt F)),
    reshape main_v4 main_v5 rfl shapeCasts_S1x64_S64,
    unary main_arg4 main_v6 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v6 main_v7 rfl shapeCasts_S1x64x64_S64x64,
    unary main_arg5 main_v8 ((extractStridedSlice S1x64 ![0, 0] · slices_S4x64_S1x64_0_0) : (⟨S4x64, .f32⟩ : BufTy).Contents (Elt F) → (⟨S1x64, .f32⟩ : BufTy).Contents (Elt F)),
    reshape main_v8 main_v9 rfl shapeCasts_S1x64_S64,
    unary main_arg6 main_v10 ((extractStridedSlice S1x64 ![0, 0] · slices_S4x64_S1x64_0_0) : (⟨S4x64, .f32⟩ : BufTy).Contents (Elt F) → (⟨S1x64, .f32⟩ : BufTy).Contents (Elt F)),
    reshape main_v10 main_v11 rfl shapeCasts_S1x64_S64,
    unary main_arg7 main_v12 ((extractStridedSlice S1x64 ![0, 0] · slices_S4x64_S1x64_0_0) : (⟨S4x64, .f32⟩ : BufTy).Contents (Elt F) → (⟨S1x64, .f32⟩ : BufTy).Contents (Elt F)),
    reshape main_v12 main_v13 rfl shapeCasts_S1x64_S64,
    unary main_arg8 main_v14 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v14 main_v15 rfl shapeCasts_S1x64x64_S64x64,
    unary main_arg9 main_v16 ((extractStridedSlice S1x64 ![0, 0] · slices_S4x64_S1x64_0_0) : (⟨S4x64, .f32⟩ : BufTy).Contents (Elt F) → (⟨S1x64, .f32⟩ : BufTy).Contents (Elt F)),
    reshape main_v16 main_v17 rfl shapeCasts_S1x64_S64,
    unary main_arg10 main_v18 ((extractStridedSlice S1x64x192 ![0, 0, 0] · slices_S4x64x192_S1x64x192_0_0_0) : (⟨S4x64x192, .f32⟩ : BufTy).Contents (Elt F) → (⟨S1x64x192, .f32⟩ : BufTy).Contents (Elt F)),
    reshape main_v18 main_v19 rfl shapeCasts_S1x64x192_S64x192,
    unary main_arg11 main_v20 ((extractStridedSlice S1x64 ![0, 0] · slices_S4x64_S1x64_0_0) : (⟨S4x64, .f32⟩ : BufTy).Contents (Elt F) → (⟨S1x64, .f32⟩ : BufTy).Contents (Elt F)),
    reshape main_v20 main_v21 rfl shapeCasts_S1x64_S64,
    unary main_arg12 main_v22 ((extractStridedSlice S1x64 ![0, 0] · slices_S4x64_S1x64_0_0) : (⟨S4x64, .f32⟩ : BufTy).Contents (Elt F) → (⟨S1x64, .f32⟩ : BufTy).Contents (Elt F)),
    reshape main_v22 main_v23 rfl shapeCasts_S1x64_S64,
    unary main_v1 main_v24 ((extractStridedSlice S1x500000 ![0, 0] · slices_S2x500000_S1x500000_0_0) : (⟨S2x500000, .i32⟩ : BufTy).Contents (Elt F) → (⟨S1x500000, .i32⟩ : BufTy).Contents (Elt F)),
    reshape main_v24 main_v25 rfl shapeCasts_S1x500000_S500000,
    unary main_v1 main_v26 ((extractStridedSlice S1x500000 ![1, 0] · slices_S2x500000_S1x500000_1_0) : (⟨S2x500000, .i32⟩ : BufTy).Contents (Elt F) → (⟨S1x500000, .i32⟩ : BufTy).Contents (Elt F)),
    reshape main_v26 main_v27 rfl shapeCasts_S1x500000_S500000,
    nullary main_c (constantI S_ 32 0#32),
    unary main_c main_v28 (broadcastInDim S500000 ![] bcast_S_S500000 : (⟨S_, .i32⟩ : BufTy).Contents (Elt F) → (⟨S500000, .i32⟩ : BufTy).Contents (Elt F)),
    binary main_v25 main_v28 main_v29 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v30 (broadcastInDim S500000 ![] bcast_S_S500000 : (⟨S_, .i32⟩ : BufTy).Contents (Elt F) → (⟨S500000, .i32⟩ : BufTy).Contents (Elt F)),
    binary main_v25 main_v30 main_v31 (addi : (⟨S500000, .i32⟩ : BufTy).Contents (Elt F) → (⟨S500000, .i32⟩ : BufTy).Contents (Elt F) → (⟨S500000, .i32⟩ : BufTy).Contents (Elt F)),
    ternary main_v29 main_v31 main_v25 main_v32 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v32 main_v33 (broadcastInDim S500000x1 ![0] bcast_S500000_S500000x1_0 : (⟨S500000, .i32⟩ : BufTy).Contents (Elt F) → (⟨S500000x1, .i32⟩ : BufTy).Contents (Elt F)),
    binary main_arg0 main_v33 main_v34 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_1 (constantI S_ 32 0#32),
    unary main_c_1 main_v35 (broadcastInDim S500000 ![] bcast_S_S500000 : (⟨S_, .i32⟩ : BufTy).Contents (Elt F) → (⟨S500000, .i32⟩ : BufTy).Contents (Elt F)),
    binary main_v27 main_v35 main_v36 (cmpi .slt : (⟨S500000, .i32⟩ : BufTy).Contents (Elt F) → (⟨S500000, .i32⟩ : BufTy).Contents (Elt F) → (⟨S500000, .i1⟩ : BufTy).Contents (Elt F)),
    nullary main_c_2 (constantI S_ 32 100000#32),
    unary main_c_2 main_v37 (broadcastInDim S500000 ![] bcast_S_S500000 : (⟨S_, .i32⟩ : BufTy).Contents (Elt F) → (⟨S500000, .i32⟩ : BufTy).Contents (Elt F)),
    binary main_v27 main_v37 main_v38 (addi : (⟨S500000, .i32⟩ : BufTy).Contents (Elt F) → (⟨S500000, .i32⟩ : BufTy).Contents (Elt F) → (⟨S500000, .i32⟩ : BufTy).Contents (Elt F)),
    ternary main_v36 main_v38 main_v27 main_v39 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v39 main_v40 (broadcastInDim S500000x1 ![0] bcast_S500000_S500000x1_0 : (⟨S500000, .i32⟩ : BufTy).Contents (Elt F) → (⟨S500000x1, .i32⟩ : BufTy).Contents (Elt F)),
    binary main_arg0 main_v40 main_v41 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v34 main_v41 main_v42 (subf : (⟨S500000x64, .f32⟩ : BufTy).Contents (Elt F) → (⟨S500000x64, .f32⟩ : BufTy).Contents (Elt F) → (⟨S500000x64, .f32⟩ : BufTy).Contents (Elt F)),
    unary main_v42 main_v43 (Host.absf : (⟨S500000x64, .f32⟩ : BufTy).Contents (Elt F) → (⟨S500000x64, .f32⟩ : BufTy).Contents (Elt F)),
    unary main_v3 main_v44 ((transpose S64x64 [1, 0] · transposes_S64x64_S64x64_1_0) : (⟨S64x64, .f32⟩ : BufTy).Contents (Elt F) → (⟨S64x64, .f32⟩ : BufTy).Contents (Elt F)),
    binary main_arg0 main_v44 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v5 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    unary main_v7 main_v49 ((transpose S64x64 [1, 0] · transposes_S64x64_S64x64_1_0) : (⟨S64x64, .f32⟩ : BufTy).Contents (Elt F) → (⟨S64x64, .f32⟩ : BufTy).Contents (Elt F)),
    binary main_v43 main_v49 main_v50 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v9 main_v51 (broadcastInDim S1x64 ![1] bcast_S64_S1x64_1 : (⟨S64, .f32⟩ : BufTy).Contents (Elt F) → (⟨S1x64, .f32⟩ : BufTy).Contents (Elt F)),
    unary main_v51 main_v52 (broadcastInDim S500000x64 ![0, 1] bcast_S1x64_S500000x64_0_1 : (⟨S1x64, .f32⟩ : BufTy).Contents (Elt F) → (⟨S500000x64, .f32⟩ : BufTy).Contents (Elt F)),
    binary main_v50 main_v52 main_v53 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S500000x64, .f32⟩) main_call0_v0) (broadcastInDim S500000x64 ![] bcast_S_S500000x64),
    TRef.binary (TRef.of (T := ⟨S500000x64, .f32⟩) main_v53) (TRef.of (T := ⟨S500000x64, .f32⟩) main_call0_v0) (TRef.of (T := ⟨S500000x64, .f32⟩) main_v54) maximumf,
    nullary main_cst (constant S_ .f32 0x00000000#32) ]

/-- The operations of window 1, in order. -/
abbrev ops1 : List (HloOp τ sig (Elt F)) :=
  [ binary main_v54 main_cst main_v55 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v55 main_v56 (broadcastInDim S500000x1 ![0] bcast_S500000_S500000x1_0 : (⟨S500000, .f32⟩ : BufTy).Contents (Elt F) → (⟨S500000x1, .f32⟩ : BufTy).Contents (Elt F)),
    nullary main_cst_3 (constant S_ .f32 0x42800000#32),
    unary main_cst_3 main_v57 (broadcastInDim S500000x1 ![] bcast_S_S500000x1 : (⟨S_, .f32⟩ : BufTy).Contents (Elt F) → (⟨S500000x1, .f32⟩ : BufTy).Contents (Elt F)),
    binary main_v56 main_v57 main_v58 (Host.divf : (⟨S500000x1, .f32⟩ : BufTy).Contents (Elt F) → (⟨S500000x1, .f32⟩ : BufTy).Contents (Elt F) → (⟨S500000x1, .f32⟩ : BufTy).Contents (Elt F)),
    unary main_v58 main_v59 (broadcastInDim S500000x64 ![0, 1] bcast_S500000x1_S500000x64_0_1 : (⟨S500000x1, .f32⟩ : BufTy).Contents (Elt F) → (⟨S500000x64, .f32⟩ : BufTy).Contents (Elt F)),
    binary main_v54 main_v59 main_v60 (subf : (⟨S500000x64, .f32⟩ : BufTy).Contents (Elt F) → (⟨S500000x64, .f32⟩ : BufTy).Contents (Elt F) → (⟨S500000x64, .f32⟩ : BufTy).Contents (Elt F)),
    binary main_v60 main_v60 main_v61 (mulf : (⟨S500000x64, .f32⟩ : BufTy).Contents (Elt F) → (⟨S500000x64, .f32⟩ : BufTy).Contents (Elt F) → (⟨S500000x64, .f32⟩ : BufTy).Contents (Elt F)),
    nullary main_cst_4 (constant S_ .f32 0x00000000#32),
    binary main_v61 main_cst_4 main_v62 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v62 main_v63 (broadcastInDim S500000x1 ![0] bcast_S500000_S500000x1_0 : (⟨S500000, .f32⟩ : BufTy).Contents (Elt F) → (⟨S500000x1, .f32⟩ : BufTy).Contents (Elt F)),
    nullary main_cst_5 (constant S_ .f32 0x42800000#32),
    unary main_cst_5 main_v64 (broadcastInDim S500000x1 ![] bcast_S_S500000x1 : (⟨S_, .f32⟩ : BufTy).Contents (Elt F) → (⟨S500000x1, .f32⟩ : BufTy).Contents (Elt F)),
    binary main_v63 main_v64 main_v65 (Host.divf : (⟨S500000x1, .f32⟩ : BufTy).Contents (Elt F) → (⟨S500000x1, .f32⟩ : BufTy).Contents (Elt F) → (⟨S500000x1, .f32⟩ : BufTy).Contents (Elt F)),
    unary main_v58 main_v66 (broadcastInDim S500000x64 ![0, 1] bcast_S500000x1_S500000x64_0_1 : (⟨S500000x1, .f32⟩ : BufTy).Contents (Elt F) → (⟨S500000x64, .f32⟩ : BufTy).Contents (Elt F)),
    binary main_v54 main_v66 main_v67 (subf : (⟨S500000x64, .f32⟩ : BufTy).Contents (Elt F) → (⟨S500000x64, .f32⟩ : BufTy).Contents (Elt F) → (⟨S500000x64, .f32⟩ : BufTy).Contents (Elt F)),
    nullary main_cst_6 (constant S_ .f32 0x3727C5AC#32),
    unary main_cst_6 main_v68 (broadcastInDim S500000x1 ![] bcast_S_S500000x1 : (⟨S_, .f32⟩ : BufTy).Contents (Elt F) → (⟨S500000x1, .f32⟩ : BufTy).Contents (Elt F)),
    binary main_v65 main_v68 main_v69 (addf : (⟨S500000x1, .f32⟩ : BufTy).Contents (Elt F) → (⟨S500000x1, .f32⟩ : BufTy).Contents (Elt F) → (⟨S500000x1, .f32⟩ : BufTy).Contents (Elt F)),
    unary main_v69 main_v70 (Host.rsqrt : (⟨S500000x1, .f32⟩ : BufTy).Contents (Elt F) → (⟨S500000x1, .f32⟩ : BufTy).Contents (Elt F)),
    unary main_v70 main_v71 (broadcastInDim S500000x64 ![0, 1] bcast_S500000x1_S500000x64_0_1 : (⟨S500000x1, .f32⟩ : BufTy).Contents (Elt F) → (⟨S500000x64, .f32⟩ : BufTy).Contents (Elt F)),
    binary main_v67 main_v71 main_v72 (mulf : (⟨S500000x64, .f32⟩ : BufTy).Contents (Elt F) → (⟨S500000x64, .f32⟩ : BufTy).Contents (Elt F) → (⟨S500000x64, .f32⟩ : BufTy).Contents (Elt F)),
    unary main_v11 main_v73 (broadcastInDim S1x64 ![1] bcast_S64_S1x64_1 : (⟨S64, .f32⟩ : BufTy).Contents (Elt F) → (⟨S1x64, .f32⟩ : BufTy).Contents (Elt F)),
    unary main_v73 main_v74 (broadcastInDim S500000x64 ![0, 1] bcast_S1x64_S500000x64_0_1 : (⟨S1x64, .f32⟩ : BufTy).Contents (Elt F) → (⟨S500000x64, .f32⟩ : BufTy).Contents (Elt F)),
    binary main_v72 main_v74 main_v75 (mulf : (⟨S500000x64, .f32⟩ : BufTy).Contents (Elt F) → (⟨S500000x64, .f32⟩ : BufTy).Contents (Elt F) → (⟨S500000x64, .f32⟩ : BufTy).Contents (Elt F)),
    unary main_v13 main_v76 (broadcastInDim S1x64 ![1] bcast_S64_S1x64_1 : (⟨S64, .f32⟩ : BufTy).Contents (Elt F) → (⟨S1x64, .f32⟩ : BufTy).Contents (Elt F)),
    unary main_v76 main_v77 (broadcastInDim S500000x64 ![0, 1] bcast_S1x64_S500000x64_0_1 : (⟨S1x64, .f32⟩ : BufTy).Contents (Elt F) → (⟨S500000x64, .f32⟩ : BufTy).Contents (Elt F)),
    binary main_v75 main_v77 main_v78 (addf : (⟨S500000x64, .f32⟩ : BufTy).Contents (Elt F) → (⟨S500000x64, .f32⟩ : BufTy).Contents (Elt F) → (⟨S500000x64, .f32⟩ : BufTy).Contents (Elt F)),
    unary main_v15 main_v79 ((transpose S64x64 [1, 0] · transposes_S64x64_S64x64_1_0) : (⟨S64x64, .f32⟩ : BufTy).Contents (Elt F) → (⟨S64x64, .f32⟩ : BufTy).Contents (Elt F)),
    binary main_v78 main_v79 main_v80 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v17 main_v81 (broadcastInDim S1x64 ![1] bcast_S64_S1x64_1 : (⟨S64, .f32⟩ : BufTy).Contents (Elt F) → (⟨S1x64, .f32⟩ : BufTy).Contents (Elt F)),
    unary main_v81 main_v82 (broadcastInDim S500000x64 ![0, 1] bcast_S1x64_S500000x64_0_1 : (⟨S1x64, .f32⟩ : BufTy).Contents (Elt F) → (⟨S500000x64, .f32⟩ : BufTy).Contents (Elt F)),
    binary main_v80 main_v82 main_v83 (addf : (⟨S500000x64, .f32⟩ : BufTy).Contents (Elt F) → (⟨S500000x64, .f32⟩ : BufTy).Contents (Elt F) → (⟨S500000x64, .f32⟩ : BufTy).Contents (Elt F)),
    nullary main_c_7 (constantI S_ 32 0#32),
    unary main_c_7 main_v84 (broadcastInDim S500000 ![] bcast_S_S500000 : (⟨S_, .i32⟩ : BufTy).Contents (Elt F) → (⟨S500000, .i32⟩ : BufTy).Contents (Elt F)),
    binary main_v25 main_v84 main_v85 (cmpi .slt : (⟨S500000, .i32⟩ : BufTy).Contents (Elt F) → (⟨S500000, .i32⟩ : BufTy).Contents (Elt F) → (⟨S500000, .i1⟩ : BufTy).Contents (Elt F)),
    nullary main_c_8 (constantI S_ 32 100000#32),
    unary main_c_8 main_v86 (broadcastInDim S500000 ![] bcast_S_S500000 : (⟨S_, .i32⟩ : BufTy).Contents (Elt F) → (⟨S500000, .i32⟩ : BufTy).Contents (Elt F)),
    binary main_v25 main_v86 main_v87 (addi : (⟨S500000, .i32⟩ : BufTy).Contents (Elt F) → (⟨S500000, .i32⟩ : BufTy).Contents (Elt F) → (⟨S500000, .i32⟩ : BufTy).Contents (Elt F)),
    ternary main_v85 main_v87 main_v25 main_v88 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v88 main_v89 (broadcastInDim S500000x1 ![0] bcast_S500000_S500000x1_0 : (⟨S500000, .i32⟩ : BufTy).Contents (Elt F) → (⟨S500000x1, .i32⟩ : BufTy).Contents (Elt F)),
    binary main_v48 main_v89 main_v90 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v90 main_v83 main_v91 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst_9 (constant S_ .f32 0x00000000#32),
    unary main_cst_9 main_v92 (broadcastInDim S100000x128 ![] bcast_S_S100000x128 : (⟨S_, .f32⟩ : BufTy).Contents (Elt F) → (⟨S100000x128, .f32⟩ : BufTy).Contents (Elt F)),
    unary main_v27 main_v93 (broadcastInDim S500000x1 ![0] bcast_S500000_S500000x1_0 : (⟨S500000, .i32⟩ : BufTy).Contents (Elt F) → (⟨S500000x1, .i32⟩ : BufTy).Contents (Elt F)),
    ternary main_v92 main_v93 main_v91 main_v94 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    binary main_v48 main_v94 main_v95 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    unary main_v19 main_v96 ((transpose S192x64 [1, 0] · transposes_S64x192_S192x64_1_0) : (⟨S64x192, .f32⟩ : BufTy).Contents (Elt F) → (⟨S192x64, .f32⟩ : BufTy).Contents (Elt F)),
    binary main_v95 main_v96 main_v97 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_v21 main_v98 (broadcastInDim S1x64 ![1] bcast_S64_S1x64_1 : (⟨S64, .f32⟩ : BufTy).Contents (Elt F) → (⟨S1x64, .f32⟩ : BufTy).Contents (Elt F)),
    unary main_v98 main_v99 (broadcastInDim S100000x64 ![0, 1] bcast_S1x64_S100000x64_0_1 : (⟨S1x64, .f32⟩ : BufTy).Contents (Elt F) → (⟨S100000x64, .f32⟩ : BufTy).Contents (Elt F)),
    binary main_v97 main_v99 main_v100 (addf : (⟨S100000x64, .f32⟩ : BufTy).Contents (Elt F) → (⟨S100000x64, .f32⟩ : BufTy).Contents (Elt F) → (⟨S100000x64, .f32⟩ : BufTy).Contents (Elt F)),
    unary main_v23 main_v101 (broadcastInDim S1x64 ![1] bcast_S64_S1x64_1 : (⟨S64, .f32⟩ : BufTy).Contents (Elt F) → (⟨S1x64, .f32⟩ : BufTy).Contents (Elt F)),
    unary main_v101 main_v102 (broadcastInDim S100000x64 ![0, 1] bcast_S1x64_S100000x64_0_1 : (⟨S1x64, .f32⟩ : BufTy).Contents (Elt F) → (⟨S100000x64, .f32⟩ : BufTy).Contents (Elt F)),
    binary main_v100 main_v102 main_v103 (addf : (⟨S100000x64, .f32⟩ : BufTy).Contents (Elt F) → (⟨S100000x64, .f32⟩ : BufTy).Contents (Elt F) → (⟨S100000x64, .f32⟩ : BufTy).Contents (Elt F)),
    unary main_arg1 main_v104 ((extractStridedSlice S1x2x500000 ![1, 0, 0] · slices_S4x2x500000_S1x2x500000_1_0_0) : (⟨S4x2x500000, .i32⟩ : BufTy).Contents (Elt F) → (⟨S1x2x500000, .i32⟩ : BufTy).Contents (Elt F)),
    reshape main_v104 main_v105 rfl shapeCasts_S1x2x500000_S2x500000,
    unary main_arg2 main_v106 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v106 main_v107 rfl shapeCasts_S1x64x64_S64x64 ]

/-- The operations of window 2, in order. -/
abbrev ops2 : List (HloOp τ sig (Elt F)) :=
  [ unary main_arg3 main_v108 ((extractStridedSlice S1x64 ![1, 0] · slices_S4x64_S1x64_1_0) : (⟨S4x64, .f32⟩ : BufTy).Contents (Elt F) → (⟨S1x64, .f32⟩ : BufTy).Contents (Elt F)),
    reshape main_v108 main_v109 rfl shapeCasts_S1x64_S64,
    unary main_arg4 main_v110 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v110 main_v111 rfl shapeCasts_S1x64x64_S64x64,
    unary main_arg5 main_v112 ((extractStridedSlice S1x64 ![1, 0] · slices_S4x64_S1x64_1_0) : (⟨S4x64, .f32⟩ : BufTy).Contents (Elt F) → (⟨S1x64, .f32⟩ : BufTy).Contents (Elt F)),
    reshape main_v112 main_v113 rfl shapeCasts_S1x64_S64,
    unary main_arg6 main_v114 ((extractStridedSlice S1x64 ![1, 0] · slices_S4x64_S1x64_1_0) : (⟨S4x64, .f32⟩ : BufTy).Contents (Elt F) → (⟨S1x64, .f32⟩ : BufTy).Contents (Elt F)),
    reshape main_v114 main_v115 rfl shapeCasts_S1x64_S64,
    unary main_arg7 main_v116 ((extractStridedSlice S1x64 ![1, 0] · slices_S4x64_S1x64_1_0) : (⟨S4x64, .f32⟩ : BufTy).Contents (Elt F) → (⟨S1x64, .f32⟩ : BufTy).Contents (Elt F)),
    reshape main_v116 main_v117 rfl shapeCasts_S1x64_S64,
    unary main_arg8 main_v118 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v118 main_v119 rfl shapeCasts_S1x64x64_S64x64,
    unary main_arg9 main_v120 ((extractStridedSlice S1x64 ![1, 0] · slices_S4x64_S1x64_1_0) : (⟨S4x64, .f32⟩ : BufTy).Contents (Elt F) → (⟨S1x64, .f32⟩ : BufTy).Contents (Elt F)),
    reshape main_v120 main_v121 rfl shapeCasts_S1x64_S64,
    unary main_arg10 main_v122 ((extractStridedSlice S1x64x192 ![1, 0, 0] · slices_S4x64x192_S1x64x192_1_0_0) : (⟨S4x64x192, .f32⟩ : BufTy).Contents (Elt F) → (⟨S1x64x192, .f32⟩ : BufTy).Contents (Elt F)),
    reshape main_v122 main_v123 rfl shapeCasts_S1x64x192_S64x192,
    unary main_arg11 main_v124 ((extractStridedSlice S1x64 ![1, 0] · slices_S4x64_S1x64_1_0) : (⟨S4x64, .f32⟩ : BufTy).Contents (Elt F) → (⟨S1x64, .f32⟩ : BufTy).Contents (Elt F)),
    reshape main_v124 main_v125 rfl shapeCasts_S1x64_S64,
    unary main_arg12 main_v126 ((extractStridedSlice S1x64 ![1, 0] · slices_S4x64_S1x64_1_0) : (⟨S4x64, .f32⟩ : BufTy).Contents (Elt F) → (⟨S1x64, .f32⟩ : BufTy).Contents (Elt F)),
    reshape main_v126 main_v127 rfl shapeCasts_S1x64_S64,
    unary main_v105 main_v128 ((extractStridedSlice S1x500000 ![0, 0] · slices_S2x500000_S1x500000_0_0) : (⟨S2x500000, .i32⟩ : BufTy).Contents (Elt F) → (⟨S1x500000, .i32⟩ : BufTy).Contents (Elt F)),
    reshape main_v128 main_v129 rfl shapeCasts_S1x500000_S500000,
    unary main_v105 main_v130 ((extractStridedSlice S1x500000 ![1, 0] · slices_S2x500000_S1x500000_1_0) : (⟨S2x500000, .i32⟩ : BufTy).Contents (Elt F) → (⟨S1x500000, .i32⟩ : BufTy).Contents (Elt F)),
    reshape main_v130 main_v131 rfl shapeCasts_S1x500000_S500000,
    nullary main_c_10 (constantI S_ 32 0#32),
    unary main_c_10 main_v132 (broadcastInDim S500000 ![] bcast_S_S500000 : (⟨S_, .i32⟩ : BufTy).Contents (Elt F) → (⟨S500000, .i32⟩ : BufTy).Contents (Elt F)),
    binary main_v129 main_v132 main_v133 (cmpi .slt : (⟨S500000, .i32⟩ : BufTy).Contents (Elt F) → (⟨S500000, .i32⟩ : BufTy).Contents (Elt F) → (⟨S500000, .i1⟩ : BufTy).Contents (Elt F)),
    nullary main_c_11 (constantI S_ 32 100000#32),
    unary main_c_11 main_v134 (broadcastInDim S500000 ![] bcast_S_S500000 : (⟨S_, .i32⟩ : BufTy).Contents (Elt F) → (⟨S500000, .i32⟩ : BufTy).Contents (Elt F)),
    binary main_v129 main_v134 main_v135 (addi : (⟨S500000, .i32⟩ : BufTy).Contents (Elt F) → (⟨S500000, .i32⟩ : BufTy).Contents (Elt F) → (⟨S500000, .i32⟩ : BufTy).Contents (Elt F)),
    ternary main_v133 main_v135 main_v129 main_v136 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v136 main_v137 (broadcastInDim S500000x1 ![0] bcast_S500000_S500000x1_0 : (⟨S500000, .i32⟩ : BufTy).Contents (Elt F) → (⟨S500000x1, .i32⟩ : BufTy).Contents (Elt F)),
    binary main_arg0 main_v137 main_v138 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_12 (constantI S_ 32 0#32),
    unary main_c_12 main_v139 (broadcastInDim S500000 ![] bcast_S_S500000 : (⟨S_, .i32⟩ : BufTy).Contents (Elt F) → (⟨S500000, .i32⟩ : BufTy).Contents (Elt F)),
    binary main_v131 main_v139 main_v140 (cmpi .slt : (⟨S500000, .i32⟩ : BufTy).Contents (Elt F) → (⟨S500000, .i32⟩ : BufTy).Contents (Elt F) → (⟨S500000, .i1⟩ : BufTy).Contents (Elt F)),
    nullary main_c_13 (constantI S_ 32 100000#32),
    unary main_c_13 main_v141 (broadcastInDim S500000 ![] bcast_S_S500000 : (⟨S_, .i32⟩ : BufTy).Contents (Elt F) → (⟨S500000, .i32⟩ : BufTy).Contents (Elt F)),
    binary main_v131 main_v141 main_v142 (addi : (⟨S500000, .i32⟩ : BufTy).Contents (Elt F) → (⟨S500000, .i32⟩ : BufTy).Contents (Elt F) → (⟨S500000, .i32⟩ : BufTy).Contents (Elt F)),
    ternary main_v140 main_v142 main_v131 main_v143 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v143 main_v144 (broadcastInDim S500000x1 ![0] bcast_S500000_S500000x1_0 : (⟨S500000, .i32⟩ : BufTy).Contents (Elt F) → (⟨S500000x1, .i32⟩ : BufTy).Contents (Elt F)),
    binary main_arg0 main_v144 main_v145 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v138 main_v145 main_v146 (subf : (⟨S500000x64, .f32⟩ : BufTy).Contents (Elt F) → (⟨S500000x64, .f32⟩ : BufTy).Contents (Elt F) → (⟨S500000x64, .f32⟩ : BufTy).Contents (Elt F)),
    unary main_v146 main_v147 (Host.absf : (⟨S500000x64, .f32⟩ : BufTy).Contents (Elt F) → (⟨S500000x64, .f32⟩ : BufTy).Contents (Elt F)),
    unary main_v107 main_v148 ((transpose S64x64 [1, 0] · transposes_S64x64_S64x64_1_0) : (⟨S64x64, .f32⟩ : BufTy).Contents (Elt F) → (⟨S64x64, .f32⟩ : BufTy).Contents (Elt F)),
    binary main_arg0 main_v148 main_v149 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v109 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v149 main_v151 main_v152 (addf : (⟨S100000x64, .f32⟩ : BufTy).Contents (Elt F) → (⟨S100000x64, .f32⟩ : BufTy).Contents (Elt F) → (⟨S100000x64, .f32⟩ : BufTy).Contents (Elt F)),
    unary main_v111 main_v153 ((transpose S64x64 [1, 0] · transposes_S64x64_S64x64_1_0) : (⟨S64x64, .f32⟩ : BufTy).Contents (Elt F) → (⟨S64x64, .f32⟩ : BufTy).Contents (Elt F)),
    binary main_v147 main_v153 main_v154 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v113 main_v155 (broadcastInDim S1x64 ![1] bcast_S64_S1x64_1 : (⟨S64, .f32⟩ : BufTy).Contents (Elt F) → (⟨S1x64, .f32⟩ : BufTy).Contents (Elt F)),
    unary main_v155 main_v156 (broadcastInDim S500000x64 ![0, 1] bcast_S1x64_S500000x64_0_1 : (⟨S1x64, .f32⟩ : BufTy).Contents (Elt F) → (⟨S500000x64, .f32⟩ : BufTy).Contents (Elt F)),
    binary main_v154 main_v156 main_v157 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x64, .f32⟩) main_call1_v0) (broadcastInDim S500000x64 ![] bcast_S_S500000x64),
    TRef.binary (TRef.of (T := ⟨S500000x64, .f32⟩) main_v157) (TRef.of (T := ⟨S500000x64, .f32⟩) main_call1_v0) (TRef.of (T := ⟨S500000x64, .f32⟩) main_v158) maximumf,
    nullary main_cst_14 (constant S_ .f32 0x00000000#32),
    binary main_v158 main_cst_14 main_v159 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v159 main_v160 (broadcastInDim S500000x1 ![0] bcast_S500000_S500000x1_0 : (⟨S500000, .f32⟩ : BufTy).Contents (Elt F) → (⟨S500000x1, .f32⟩ : BufTy).Contents (Elt F)),
    nullary main_cst_15 (constant S_ .f32 0x42800000#32),
    unary main_cst_15 main_v161 (broadcastInDim S500000x1 ![] bcast_S_S500000x1 : (⟨S_, .f32⟩ : BufTy).Contents (Elt F) → (⟨S500000x1, .f32⟩ : BufTy).Contents (Elt F)) ]

/-- The operations of window 3, in order. -/
abbrev ops3 : List (HloOp τ sig (Elt F)) :=
  [ binary main_v160 main_v161 main_v162 (Host.divf : (⟨S500000x1, .f32⟩ : BufTy).Contents (Elt F) → (⟨S500000x1, .f32⟩ : BufTy).Contents (Elt F) → (⟨S500000x1, .f32⟩ : BufTy).Contents (Elt F)),
    unary main_v162 main_v163 (broadcastInDim S500000x64 ![0, 1] bcast_S500000x1_S500000x64_0_1 : (⟨S500000x1, .f32⟩ : BufTy).Contents (Elt F) → (⟨S500000x64, .f32⟩ : BufTy).Contents (Elt F)),
    binary main_v158 main_v163 main_v164 (subf : (⟨S500000x64, .f32⟩ : BufTy).Contents (Elt F) → (⟨S500000x64, .f32⟩ : BufTy).Contents (Elt F) → (⟨S500000x64, .f32⟩ : BufTy).Contents (Elt F)),
    binary main_v164 main_v164 main_v165 (mulf : (⟨S500000x64, .f32⟩ : BufTy).Contents (Elt F) → (⟨S500000x64, .f32⟩ : BufTy).Contents (Elt F) → (⟨S500000x64, .f32⟩ : BufTy).Contents (Elt F)),
    nullary main_cst_16 (constant S_ .f32 0x00000000#32),
    binary main_v165 main_cst_16 main_v166 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v166 main_v167 (broadcastInDim S500000x1 ![0] bcast_S500000_S500000x1_0 : (⟨S500000, .f32⟩ : BufTy).Contents (Elt F) → (⟨S500000x1, .f32⟩ : BufTy).Contents (Elt F)),
    nullary main_cst_17 (constant S_ .f32 0x42800000#32),
    unary main_cst_17 main_v168 (broadcastInDim S500000x1 ![] bcast_S_S500000x1 : (⟨S_, .f32⟩ : BufTy).Contents (Elt F) → (⟨S500000x1, .f32⟩ : BufTy).Contents (Elt F)),
    binary main_v167 main_v168 main_v169 (Host.divf : (⟨S500000x1, .f32⟩ : BufTy).Contents (Elt F) → (⟨S500000x1, .f32⟩ : BufTy).Contents (Elt F) → (⟨S500000x1, .f32⟩ : BufTy).Contents (Elt F)),
    unary main_v162 main_v170 (broadcastInDim S500000x64 ![0, 1] bcast_S500000x1_S500000x64_0_1 : (⟨S500000x1, .f32⟩ : BufTy).Contents (Elt F) → (⟨S500000x64, .f32⟩ : BufTy).Contents (Elt F)),
    binary main_v158 main_v170 main_v171 (subf : (⟨S500000x64, .f32⟩ : BufTy).Contents (Elt F) → (⟨S500000x64, .f32⟩ : BufTy).Contents (Elt F) → (⟨S500000x64, .f32⟩ : BufTy).Contents (Elt F)),
    nullary main_cst_18 (constant S_ .f32 0x3727C5AC#32),
    unary main_cst_18 main_v172 (broadcastInDim S500000x1 ![] bcast_S_S500000x1 : (⟨S_, .f32⟩ : BufTy).Contents (Elt F) → (⟨S500000x1, .f32⟩ : BufTy).Contents (Elt F)),
    binary main_v169 main_v172 main_v173 (addf : (⟨S500000x1, .f32⟩ : BufTy).Contents (Elt F) → (⟨S500000x1, .f32⟩ : BufTy).Contents (Elt F) → (⟨S500000x1, .f32⟩ : BufTy).Contents (Elt F)),
    unary main_v173 main_v174 (Host.rsqrt : (⟨S500000x1, .f32⟩ : BufTy).Contents (Elt F) → (⟨S500000x1, .f32⟩ : BufTy).Contents (Elt F)),
    unary main_v174 main_v175 (broadcastInDim S500000x64 ![0, 1] bcast_S500000x1_S500000x64_0_1 : (⟨S500000x1, .f32⟩ : BufTy).Contents (Elt F) → (⟨S500000x64, .f32⟩ : BufTy).Contents (Elt F)),
    binary main_v171 main_v175 main_v176 (mulf : (⟨S500000x64, .f32⟩ : BufTy).Contents (Elt F) → (⟨S500000x64, .f32⟩ : BufTy).Contents (Elt F) → (⟨S500000x64, .f32⟩ : BufTy).Contents (Elt F)),
    unary main_v115 main_v177 (broadcastInDim S1x64 ![1] bcast_S64_S1x64_1 : (⟨S64, .f32⟩ : BufTy).Contents (Elt F) → (⟨S1x64, .f32⟩ : BufTy).Contents (Elt F)),
    unary main_v177 main_v178 (broadcastInDim S500000x64 ![0, 1] bcast_S1x64_S500000x64_0_1 : (⟨S1x64, .f32⟩ : BufTy).Contents (Elt F) → (⟨S500000x64, .f32⟩ : BufTy).Contents (Elt F)),
    binary main_v176 main_v178 main_v179 (mulf : (⟨S500000x64, .f32⟩ : BufTy).Contents (Elt F) → (⟨S500000x64, .f32⟩ : BufTy).Contents (Elt F) → (⟨S500000x64, .f32⟩ : BufTy).Contents (Elt F)),
    unary main_v117 main_v180 (broadcastInDim S1x64 ![1] bcast_S64_S1x64_1 : (⟨S64, .f32⟩ : BufTy).Contents (Elt F) → (⟨S1x64, .f32⟩ : BufTy).Contents (Elt F)),
    unary main_v180 main_v181 (broadcastInDim S500000x64 ![0, 1] bcast_S1x64_S500000x64_0_1 : (⟨S1x64, .f32⟩ : BufTy).Contents (Elt F) → (⟨S500000x64, .f32⟩ : BufTy).Contents (Elt F)),
    binary main_v179 main_v181 main_v182 (addf : (⟨S500000x64, .f32⟩ : BufTy).Contents (Elt F) → (⟨S500000x64, .f32⟩ : BufTy).Contents (Elt F) → (⟨S500000x64, .f32⟩ : BufTy).Contents (Elt F)),
    unary main_v119 main_v183 ((transpose S64x64 [1, 0] · transposes_S64x64_S64x64_1_0) : (⟨S64x64, .f32⟩ : BufTy).Contents (Elt F) → (⟨S64x64, .f32⟩ : BufTy).Contents (Elt F)),
    binary main_v182 main_v183 main_v184 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v121 main_v185 (broadcastInDim S1x64 ![1] bcast_S64_S1x64_1 : (⟨S64, .f32⟩ : BufTy).Contents (Elt F) → (⟨S1x64, .f32⟩ : BufTy).Contents (Elt F)),
    unary main_v185 main_v186 (broadcastInDim S500000x64 ![0, 1] bcast_S1x64_S500000x64_0_1 : (⟨S1x64, .f32⟩ : BufTy).Contents (Elt F) → (⟨S500000x64, .f32⟩ : BufTy).Contents (Elt F)),
    binary main_v184 main_v186 main_v187 (addf : (⟨S500000x64, .f32⟩ : BufTy).Contents (Elt F) → (⟨S500000x64, .f32⟩ : BufTy).Contents (Elt F) → (⟨S500000x64, .f32⟩ : BufTy).Contents (Elt F)),
    nullary main_c_19 (constantI S_ 32 0#32),
    unary main_c_19 main_v188 (broadcastInDim S500000 ![] bcast_S_S500000 : (⟨S_, .i32⟩ : BufTy).Contents (Elt F) → (⟨S500000, .i32⟩ : BufTy).Contents (Elt F)),
    binary main_v129 main_v188 main_v189 (cmpi .slt : (⟨S500000, .i32⟩ : BufTy).Contents (Elt F) → (⟨S500000, .i32⟩ : BufTy).Contents (Elt F) → (⟨S500000, .i1⟩ : BufTy).Contents (Elt F)),
    nullary main_c_20 (constantI S_ 32 100000#32),
    unary main_c_20 main_v190 (broadcastInDim S500000 ![] bcast_S_S500000 : (⟨S_, .i32⟩ : BufTy).Contents (Elt F) → (⟨S500000, .i32⟩ : BufTy).Contents (Elt F)),
    binary main_v129 main_v190 main_v191 (addi : (⟨S500000, .i32⟩ : BufTy).Contents (Elt F) → (⟨S500000, .i32⟩ : BufTy).Contents (Elt F) → (⟨S500000, .i32⟩ : BufTy).Contents (Elt F)),
    ternary main_v189 main_v191 main_v129 main_v192 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v192 main_v193 (broadcastInDim S500000x1 ![0] bcast_S500000_S500000x1_0 : (⟨S500000, .i32⟩ : BufTy).Contents (Elt F) → (⟨S500000x1, .i32⟩ : BufTy).Contents (Elt F)),
    binary main_v152 main_v193 main_v194 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v194 main_v187 main_v195 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst_21 (constant S_ .f32 0x00000000#32),
    unary main_cst_21 main_v196 (broadcastInDim S100000x128 ![] bcast_S_S100000x128 : (⟨S_, .f32⟩ : BufTy).Contents (Elt F) → (⟨S100000x128, .f32⟩ : BufTy).Contents (Elt F)),
    unary main_v131 main_v197 (broadcastInDim S500000x1 ![0] bcast_S500000_S500000x1_0 : (⟨S500000, .i32⟩ : BufTy).Contents (Elt F) → (⟨S500000x1, .i32⟩ : BufTy).Contents (Elt F)),
    ternary main_v196 main_v197 main_v195 main_v198 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    binary main_v152 main_v198 main_v199 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    unary main_v123 main_v200 ((transpose S192x64 [1, 0] · transposes_S64x192_S192x64_1_0) : (⟨S64x192, .f32⟩ : BufTy).Contents (Elt F) → (⟨S192x64, .f32⟩ : BufTy).Contents (Elt F)),
    binary main_v199 main_v200 main_v201 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_v125 main_v202 (broadcastInDim S1x64 ![1] bcast_S64_S1x64_1 : (⟨S64, .f32⟩ : BufTy).Contents (Elt F) → (⟨S1x64, .f32⟩ : BufTy).Contents (Elt F)),
    unary main_v202 main_v203 (broadcastInDim S100000x64 ![0, 1] bcast_S1x64_S100000x64_0_1 : (⟨S1x64, .f32⟩ : BufTy).Contents (Elt F) → (⟨S100000x64, .f32⟩ : BufTy).Contents (Elt F)),
    binary main_v201 main_v203 main_v204 (addf : (⟨S100000x64, .f32⟩ : BufTy).Contents (Elt F) → (⟨S100000x64, .f32⟩ : BufTy).Contents (Elt F) → (⟨S100000x64, .f32⟩ : BufTy).Contents (Elt F)),
    unary main_v127 main_v205 (broadcastInDim S1x64 ![1] bcast_S64_S1x64_1 : (⟨S64, .f32⟩ : BufTy).Contents (Elt F) → (⟨S1x64, .f32⟩ : BufTy).Contents (Elt F)),
    unary main_v205 main_v206 (broadcastInDim S100000x64 ![0, 1] bcast_S1x64_S100000x64_0_1 : (⟨S1x64, .f32⟩ : BufTy).Contents (Elt F) → (⟨S100000x64, .f32⟩ : BufTy).Contents (Elt F)),
    binary main_v204 main_v206 main_v207 (addf : (⟨S100000x64, .f32⟩ : BufTy).Contents (Elt F) → (⟨S100000x64, .f32⟩ : BufTy).Contents (Elt F) → (⟨S100000x64, .f32⟩ : BufTy).Contents (Elt F)),
    unary main_arg1 main_v208 ((extractStridedSlice S1x2x500000 ![2, 0, 0] · slices_S4x2x500000_S1x2x500000_2_0_0) : (⟨S4x2x500000, .i32⟩ : BufTy).Contents (Elt F) → (⟨S1x2x500000, .i32⟩ : BufTy).Contents (Elt F)),
    reshape main_v208 main_v209 rfl shapeCasts_S1x2x500000_S2x500000,
    unary main_arg2 main_v210 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v210 main_v211 rfl shapeCasts_S1x64x64_S64x64,
    unary main_arg3 main_v212 ((extractStridedSlice S1x64 ![2, 0] · slices_S4x64_S1x64_2_0) : (⟨S4x64, .f32⟩ : BufTy).Contents (Elt F) → (⟨S1x64, .f32⟩ : BufTy).Contents (Elt F)),
    reshape main_v212 main_v213 rfl shapeCasts_S1x64_S64,
    unary main_arg4 main_v214 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v214 main_v215 rfl shapeCasts_S1x64x64_S64x64 ]

/-- The operations of window 4, in order. -/
abbrev ops4 : List (HloOp τ sig (Elt F)) :=
  [ unary main_arg5 main_v216 ((extractStridedSlice S1x64 ![2, 0] · slices_S4x64_S1x64_2_0) : (⟨S4x64, .f32⟩ : BufTy).Contents (Elt F) → (⟨S1x64, .f32⟩ : BufTy).Contents (Elt F)),
    reshape main_v216 main_v217 rfl shapeCasts_S1x64_S64,
    unary main_arg6 main_v218 ((extractStridedSlice S1x64 ![2, 0] · slices_S4x64_S1x64_2_0) : (⟨S4x64, .f32⟩ : BufTy).Contents (Elt F) → (⟨S1x64, .f32⟩ : BufTy).Contents (Elt F)),
    reshape main_v218 main_v219 rfl shapeCasts_S1x64_S64,
    unary main_arg7 main_v220 ((extractStridedSlice S1x64 ![2, 0] · slices_S4x64_S1x64_2_0) : (⟨S4x64, .f32⟩ : BufTy).Contents (Elt F) → (⟨S1x64, .f32⟩ : BufTy).Contents (Elt F)),
    reshape main_v220 main_v221 rfl shapeCasts_S1x64_S64,
    unary main_arg8 main_v222 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v222 main_v223 rfl shapeCasts_S1x64x64_S64x64,
    unary main_arg9 main_v224 ((extractStridedSlice S1x64 ![2, 0] · slices_S4x64_S1x64_2_0) : (⟨S4x64, .f32⟩ : BufTy).Contents (Elt F) → (⟨S1x64, .f32⟩ : BufTy).Contents (Elt F)),
    reshape main_v224 main_v225 rfl shapeCasts_S1x64_S64,
    unary main_arg10 main_v226 ((extractStridedSlice S1x64x192 ![2, 0, 0] · slices_S4x64x192_S1x64x192_2_0_0) : (⟨S4x64x192, .f32⟩ : BufTy).Contents (Elt F) → (⟨S1x64x192, .f32⟩ : BufTy).Contents (Elt F)),
    reshape main_v226 main_v227 rfl shapeCasts_S1x64x192_S64x192,
    unary main_arg11 main_v228 ((extractStridedSlice S1x64 ![2, 0] · slices_S4x64_S1x64_2_0) : (⟨S4x64, .f32⟩ : BufTy).Contents (Elt F) → (⟨S1x64, .f32⟩ : BufTy).Contents (Elt F)),
    reshape main_v228 main_v229 rfl shapeCasts_S1x64_S64,
    unary main_arg12 main_v230 ((extractStridedSlice S1x64 ![2, 0] · slices_S4x64_S1x64_2_0) : (⟨S4x64, .f32⟩ : BufTy).Contents (Elt F) → (⟨S1x64, .f32⟩ : BufTy).Contents (Elt F)),
    reshape main_v230 main_v231 rfl shapeCasts_S1x64_S64,
    unary main_v209 main_v232 ((extractStridedSlice S1x500000 ![0, 0] · slices_S2x500000_S1x500000_0_0) : (⟨S2x500000, .i32⟩ : BufTy).Contents (Elt F) → (⟨S1x500000, .i32⟩ : BufTy).Contents (Elt F)),
    reshape main_v232 main_v233 rfl shapeCasts_S1x500000_S500000,
    unary main_v209 main_v234 ((extractStridedSlice S1x500000 ![1, 0] · slices_S2x500000_S1x500000_1_0) : (⟨S2x500000, .i32⟩ : BufTy).Contents (Elt F) → (⟨S1x500000, .i32⟩ : BufTy).Contents (Elt F)),
    reshape main_v234 main_v235 rfl shapeCasts_S1x500000_S500000,
    nullary main_c_22 (constantI S_ 32 0#32),
    unary main_c_22 main_v236 (broadcastInDim S500000 ![] bcast_S_S500000 : (⟨S_, .i32⟩ : BufTy).Contents (Elt F) → (⟨S500000, .i32⟩ : BufTy).Contents (Elt F)),
    binary main_v233 main_v236 main_v237 (cmpi .slt : (⟨S500000, .i32⟩ : BufTy).Contents (Elt F) → (⟨S500000, .i32⟩ : BufTy).Contents (Elt F) → (⟨S500000, .i1⟩ : BufTy).Contents (Elt F)),
    nullary main_c_23 (constantI S_ 32 100000#32),
    unary main_c_23 main_v238 (broadcastInDim S500000 ![] bcast_S_S500000 : (⟨S_, .i32⟩ : BufTy).Contents (Elt F) → (⟨S500000, .i32⟩ : BufTy).Contents (Elt F)),
    binary main_v233 main_v238 main_v239 (addi : (⟨S500000, .i32⟩ : BufTy).Contents (Elt F) → (⟨S500000, .i32⟩ : BufTy).Contents (Elt F) → (⟨S500000, .i32⟩ : BufTy).Contents (Elt F)),
    ternary main_v237 main_v239 main_v233 main_v240 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v240 main_v241 (broadcastInDim S500000x1 ![0] bcast_S500000_S500000x1_0 : (⟨S500000, .i32⟩ : BufTy).Contents (Elt F) → (⟨S500000x1, .i32⟩ : BufTy).Contents (Elt F)),
    binary main_arg0 main_v241 main_v242 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_24 (constantI S_ 32 0#32),
    unary main_c_24 main_v243 (broadcastInDim S500000 ![] bcast_S_S500000 : (⟨S_, .i32⟩ : BufTy).Contents (Elt F) → (⟨S500000, .i32⟩ : BufTy).Contents (Elt F)),
    binary main_v235 main_v243 main_v244 (cmpi .slt : (⟨S500000, .i32⟩ : BufTy).Contents (Elt F) → (⟨S500000, .i32⟩ : BufTy).Contents (Elt F) → (⟨S500000, .i1⟩ : BufTy).Contents (Elt F)),
    nullary main_c_25 (constantI S_ 32 100000#32),
    unary main_c_25 main_v245 (broadcastInDim S500000 ![] bcast_S_S500000 : (⟨S_, .i32⟩ : BufTy).Contents (Elt F) → (⟨S500000, .i32⟩ : BufTy).Contents (Elt F)),
    binary main_v235 main_v245 main_v246 (addi : (⟨S500000, .i32⟩ : BufTy).Contents (Elt F) → (⟨S500000, .i32⟩ : BufTy).Contents (Elt F) → (⟨S500000, .i32⟩ : BufTy).Contents (Elt F)),
    ternary main_v244 main_v246 main_v235 main_v247 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v247 main_v248 (broadcastInDim S500000x1 ![0] bcast_S500000_S500000x1_0 : (⟨S500000, .i32⟩ : BufTy).Contents (Elt F) → (⟨S500000x1, .i32⟩ : BufTy).Contents (Elt F)),
    binary main_arg0 main_v248 main_v249 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v242 main_v249 main_v250 (subf : (⟨S500000x64, .f32⟩ : BufTy).Contents (Elt F) → (⟨S500000x64, .f32⟩ : BufTy).Contents (Elt F) → (⟨S500000x64, .f32⟩ : BufTy).Contents (Elt F)),
    unary main_v250 main_v251 (Host.absf : (⟨S500000x64, .f32⟩ : BufTy).Contents (Elt F) → (⟨S500000x64, .f32⟩ : BufTy).Contents (Elt F)),
    unary main_v211 main_v252 ((transpose S64x64 [1, 0] · transposes_S64x64_S64x64_1_0) : (⟨S64x64, .f32⟩ : BufTy).Contents (Elt F) → (⟨S64x64, .f32⟩ : BufTy).Contents (Elt F)),
    binary main_arg0 main_v252 main_v253 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v213 main_v254 (broadcastInDim S1x64 ![1] bcast_S64_S1x64_1 : (⟨S64, .f32⟩ : BufTy).Contents (Elt F) → (⟨S1x64, .f32⟩ : BufTy).Contents (Elt F)),
    unary main_v254 main_v255 (broadcastInDim S100000x64 ![0, 1] bcast_S1x64_S100000x64_0_1 : (⟨S1x64, .f32⟩ : BufTy).Contents (Elt F) → (⟨S100000x64, .f32⟩ : BufTy).Contents (Elt F)),
    binary main_v253 main_v255 main_v256 (addf : (⟨S100000x64, .f32⟩ : BufTy).Contents (Elt F) → (⟨S100000x64, .f32⟩ : BufTy).Contents (Elt F) → (⟨S100000x64, .f32⟩ : BufTy).Contents (Elt F)),
    unary main_v215 main_v257 ((transpose S64x64 [1, 0] · transposes_S64x64_S64x64_1_0) : (⟨S64x64, .f32⟩ : BufTy).Contents (Elt F) → (⟨S64x64, .f32⟩ : BufTy).Contents (Elt F)),
    binary main_v251 main_v257 main_v258 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v217 main_v259 (broadcastInDim S1x64 ![1] bcast_S64_S1x64_1 : (⟨S64, .f32⟩ : BufTy).Contents (Elt F) → (⟨S1x64, .f32⟩ : BufTy).Contents (Elt F)),
    unary main_v259 main_v260 (broadcastInDim S500000x64 ![0, 1] bcast_S1x64_S500000x64_0_1 : (⟨S1x64, .f32⟩ : BufTy).Contents (Elt F) → (⟨S500000x64, .f32⟩ : BufTy).Contents (Elt F)),
    binary main_v258 main_v260 main_v261 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S500000x64, .f32⟩) main_call2_v0) (broadcastInDim S500000x64 ![] bcast_S_S500000x64),
    TRef.binary (TRef.of (T := ⟨S500000x64, .f32⟩) main_v261) (TRef.of (T := ⟨S500000x64, .f32⟩) main_call2_v0) (TRef.of (T := ⟨S500000x64, .f32⟩) main_v262) maximumf,
    nullary main_cst_26 (constant S_ .f32 0x00000000#32),
    binary main_v262 main_cst_26 main_v263 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v263 main_v264 (broadcastInDim S500000x1 ![0] bcast_S500000_S500000x1_0 : (⟨S500000, .f32⟩ : BufTy).Contents (Elt F) → (⟨S500000x1, .f32⟩ : BufTy).Contents (Elt F)),
    nullary main_cst_27 (constant S_ .f32 0x42800000#32),
    unary main_cst_27 main_v265 (broadcastInDim S500000x1 ![] bcast_S_S500000x1 : (⟨S_, .f32⟩ : BufTy).Contents (Elt F) → (⟨S500000x1, .f32⟩ : BufTy).Contents (Elt F)),
    binary main_v264 main_v265 main_v266 (Host.divf : (⟨S500000x1, .f32⟩ : BufTy).Contents (Elt F) → (⟨S500000x1, .f32⟩ : BufTy).Contents (Elt F) → (⟨S500000x1, .f32⟩ : BufTy).Contents (Elt F)),
    unary main_v266 main_v267 (broadcastInDim S500000x64 ![0, 1] bcast_S500000x1_S500000x64_0_1 : (⟨S500000x1, .f32⟩ : BufTy).Contents (Elt F) → (⟨S500000x64, .f32⟩ : BufTy).Contents (Elt F)),
    binary main_v262 main_v267 main_v268 (subf : (⟨S500000x64, .f32⟩ : BufTy).Contents (Elt F) → (⟨S500000x64, .f32⟩ : BufTy).Contents (Elt F) → (⟨S500000x64, .f32⟩ : BufTy).Contents (Elt F)),
    binary main_v268 main_v268 main_v269 (mulf : (⟨S500000x64, .f32⟩ : BufTy).Contents (Elt F) → (⟨S500000x64, .f32⟩ : BufTy).Contents (Elt F) → (⟨S500000x64, .f32⟩ : BufTy).Contents (Elt F)) ]

/-- The operations of window 5, in order. -/
abbrev ops5 : List (HloOp τ sig (Elt F)) :=
  [ nullary main_cst_28 (constant S_ .f32 0x00000000#32),
    binary main_v269 main_cst_28 main_v270 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v270 main_v271 (broadcastInDim S500000x1 ![0] bcast_S500000_S500000x1_0 : (⟨S500000, .f32⟩ : BufTy).Contents (Elt F) → (⟨S500000x1, .f32⟩ : BufTy).Contents (Elt F)),
    nullary main_cst_29 (constant S_ .f32 0x42800000#32),
    unary main_cst_29 main_v272 (broadcastInDim S500000x1 ![] bcast_S_S500000x1 : (⟨S_, .f32⟩ : BufTy).Contents (Elt F) → (⟨S500000x1, .f32⟩ : BufTy).Contents (Elt F)),
    binary main_v271 main_v272 main_v273 (Host.divf : (⟨S500000x1, .f32⟩ : BufTy).Contents (Elt F) → (⟨S500000x1, .f32⟩ : BufTy).Contents (Elt F) → (⟨S500000x1, .f32⟩ : BufTy).Contents (Elt F)),
    unary main_v266 main_v274 (broadcastInDim S500000x64 ![0, 1] bcast_S500000x1_S500000x64_0_1 : (⟨S500000x1, .f32⟩ : BufTy).Contents (Elt F) → (⟨S500000x64, .f32⟩ : BufTy).Contents (Elt F)),
    binary main_v262 main_v274 main_v275 (subf : (⟨S500000x64, .f32⟩ : BufTy).Contents (Elt F) → (⟨S500000x64, .f32⟩ : BufTy).Contents (Elt F) → (⟨S500000x64, .f32⟩ : BufTy).Contents (Elt F)),
    nullary main_cst_30 (constant S_ .f32 0x3727C5AC#32),
    unary main_cst_30 main_v276 (broadcastInDim S500000x1 ![] bcast_S_S500000x1 : (⟨S_, .f32⟩ : BufTy).Contents (Elt F) → (⟨S500000x1, .f32⟩ : BufTy).Contents (Elt F)),
    binary main_v273 main_v276 main_v277 (addf : (⟨S500000x1, .f32⟩ : BufTy).Contents (Elt F) → (⟨S500000x1, .f32⟩ : BufTy).Contents (Elt F) → (⟨S500000x1, .f32⟩ : BufTy).Contents (Elt F)),
    unary main_v277 main_v278 (Host.rsqrt : (⟨S500000x1, .f32⟩ : BufTy).Contents (Elt F) → (⟨S500000x1, .f32⟩ : BufTy).Contents (Elt F)),
    unary main_v278 main_v279 (broadcastInDim S500000x64 ![0, 1] bcast_S500000x1_S500000x64_0_1 : (⟨S500000x1, .f32⟩ : BufTy).Contents (Elt F) → (⟨S500000x64, .f32⟩ : BufTy).Contents (Elt F)),
    binary main_v275 main_v279 main_v280 (mulf : (⟨S500000x64, .f32⟩ : BufTy).Contents (Elt F) → (⟨S500000x64, .f32⟩ : BufTy).Contents (Elt F) → (⟨S500000x64, .f32⟩ : BufTy).Contents (Elt F)),
    unary main_v219 main_v281 (broadcastInDim S1x64 ![1] bcast_S64_S1x64_1 : (⟨S64, .f32⟩ : BufTy).Contents (Elt F) → (⟨S1x64, .f32⟩ : BufTy).Contents (Elt F)),
    unary main_v281 main_v282 (broadcastInDim S500000x64 ![0, 1] bcast_S1x64_S500000x64_0_1 : (⟨S1x64, .f32⟩ : BufTy).Contents (Elt F) → (⟨S500000x64, .f32⟩ : BufTy).Contents (Elt F)),
    binary main_v280 main_v282 main_v283 (mulf : (⟨S500000x64, .f32⟩ : BufTy).Contents (Elt F) → (⟨S500000x64, .f32⟩ : BufTy).Contents (Elt F) → (⟨S500000x64, .f32⟩ : BufTy).Contents (Elt F)),
    unary main_v221 main_v284 (broadcastInDim S1x64 ![1] bcast_S64_S1x64_1 : (⟨S64, .f32⟩ : BufTy).Contents (Elt F) → (⟨S1x64, .f32⟩ : BufTy).Contents (Elt F)),
    unary main_v284 main_v285 (broadcastInDim S500000x64 ![0, 1] bcast_S1x64_S500000x64_0_1 : (⟨S1x64, .f32⟩ : BufTy).Contents (Elt F) → (⟨S500000x64, .f32⟩ : BufTy).Contents (Elt F)),
    binary main_v283 main_v285 main_v286 (addf : (⟨S500000x64, .f32⟩ : BufTy).Contents (Elt F) → (⟨S500000x64, .f32⟩ : BufTy).Contents (Elt F) → (⟨S500000x64, .f32⟩ : BufTy).Contents (Elt F)),
    unary main_v223 main_v287 ((transpose S64x64 [1, 0] · transposes_S64x64_S64x64_1_0) : (⟨S64x64, .f32⟩ : BufTy).Contents (Elt F) → (⟨S64x64, .f32⟩ : BufTy).Contents (Elt F)),
    binary main_v286 main_v287 main_v288 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v225 main_v289 (broadcastInDim S1x64 ![1] bcast_S64_S1x64_1 : (⟨S64, .f32⟩ : BufTy).Contents (Elt F) → (⟨S1x64, .f32⟩ : BufTy).Contents (Elt F)),
    unary main_v289 main_v290 (broadcastInDim S500000x64 ![0, 1] bcast_S1x64_S500000x64_0_1 : (⟨S1x64, .f32⟩ : BufTy).Contents (Elt F) → (⟨S500000x64, .f32⟩ : BufTy).Contents (Elt F)),
    binary main_v288 main_v290 main_v291 (addf : (⟨S500000x64, .f32⟩ : BufTy).Contents (Elt F) → (⟨S500000x64, .f32⟩ : BufTy).Contents (Elt F) → (⟨S500000x64, .f32⟩ : BufTy).Contents (Elt F)),
    nullary main_c_31 (constantI S_ 32 0#32),
    unary main_c_31 main_v292 (broadcastInDim S500000 ![] bcast_S_S500000 : (⟨S_, .i32⟩ : BufTy).Contents (Elt F) → (⟨S500000, .i32⟩ : BufTy).Contents (Elt F)),
    binary main_v233 main_v292 main_v293 (cmpi .slt : (⟨S500000, .i32⟩ : BufTy).Contents (Elt F) → (⟨S500000, .i32⟩ : BufTy).Contents (Elt F) → (⟨S500000, .i1⟩ : BufTy).Contents (Elt F)),
    nullary main_c_32 (constantI S_ 32 100000#32),
    unary main_c_32 main_v294 (broadcastInDim S500000 ![] bcast_S_S500000 : (⟨S_, .i32⟩ : BufTy).Contents (Elt F) → (⟨S500000, .i32⟩ : BufTy).Contents (Elt F)),
    binary main_v233 main_v294 main_v295 (addi : (⟨S500000, .i32⟩ : BufTy).Contents (Elt F) → (⟨S500000, .i32⟩ : BufTy).Contents (Elt F) → (⟨S500000, .i32⟩ : BufTy).Contents (Elt F)),
    ternary main_v293 main_v295 main_v233 main_v296 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v296 main_v297 (broadcastInDim S500000x1 ![0] bcast_S500000_S500000x1_0 : (⟨S500000, .i32⟩ : BufTy).Contents (Elt F) → (⟨S500000x1, .i32⟩ : BufTy).Contents (Elt F)),
    binary main_v256 main_v297 main_v298 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v298 main_v291 main_v299 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst_33 (constant S_ .f32 0x00000000#32),
    unary main_cst_33 main_v300 (broadcastInDim S100000x128 ![] bcast_S_S100000x128 : (⟨S_, .f32⟩ : BufTy).Contents (Elt F) → (⟨S100000x128, .f32⟩ : BufTy).Contents (Elt F)),
    unary main_v235 main_v301 (broadcastInDim S500000x1 ![0] bcast_S500000_S500000x1_0 : (⟨S500000, .i32⟩ : BufTy).Contents (Elt F) → (⟨S500000x1, .i32⟩ : BufTy).Contents (Elt F)),
    ternary main_v300 main_v301 main_v299 main_v302 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    binary main_v256 main_v302 main_v303 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    unary main_v227 main_v304 ((transpose S192x64 [1, 0] · transposes_S64x192_S192x64_1_0) : (⟨S64x192, .f32⟩ : BufTy).Contents (Elt F) → (⟨S192x64, .f32⟩ : BufTy).Contents (Elt F)),
    binary main_v303 main_v304 main_v305 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_v229 main_v306 (broadcastInDim S1x64 ![1] bcast_S64_S1x64_1 : (⟨S64, .f32⟩ : BufTy).Contents (Elt F) → (⟨S1x64, .f32⟩ : BufTy).Contents (Elt F)),
    unary main_v306 main_v307 (broadcastInDim S100000x64 ![0, 1] bcast_S1x64_S100000x64_0_1 : (⟨S1x64, .f32⟩ : BufTy).Contents (Elt F) → (⟨S100000x64, .f32⟩ : BufTy).Contents (Elt F)),
    binary main_v305 main_v307 main_v308 (addf : (⟨S100000x64, .f32⟩ : BufTy).Contents (Elt F) → (⟨S100000x64, .f32⟩ : BufTy).Contents (Elt F) → (⟨S100000x64, .f32⟩ : BufTy).Contents (Elt F)),
    unary main_v231 main_v309 (broadcastInDim S1x64 ![1] bcast_S64_S1x64_1 : (⟨S64, .f32⟩ : BufTy).Contents (Elt F) → (⟨S1x64, .f32⟩ : BufTy).Contents (Elt F)),
    unary main_v309 main_v310 (broadcastInDim S100000x64 ![0, 1] bcast_S1x64_S100000x64_0_1 : (⟨S1x64, .f32⟩ : BufTy).Contents (Elt F) → (⟨S100000x64, .f32⟩ : BufTy).Contents (Elt F)),
    binary main_v308 main_v310 main_v311 (addf : (⟨S100000x64, .f32⟩ : BufTy).Contents (Elt F) → (⟨S100000x64, .f32⟩ : BufTy).Contents (Elt F) → (⟨S100000x64, .f32⟩ : BufTy).Contents (Elt F)),
    unary main_arg1 main_v312 ((extractStridedSlice S1x2x500000 ![3, 0, 0] · slices_S4x2x500000_S1x2x500000_3_0_0) : (⟨S4x2x500000, .i32⟩ : BufTy).Contents (Elt F) → (⟨S1x2x500000, .i32⟩ : BufTy).Contents (Elt F)),
    reshape main_v312 main_v313 rfl shapeCasts_S1x2x500000_S2x500000,
    unary main_arg2 main_v314 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v314 main_v315 rfl shapeCasts_S1x64x64_S64x64,
    unary main_arg3 main_v316 ((extractStridedSlice S1x64 ![3, 0] · slices_S4x64_S1x64_3_0) : (⟨S4x64, .f32⟩ : BufTy).Contents (Elt F) → (⟨S1x64, .f32⟩ : BufTy).Contents (Elt F)),
    reshape main_v316 main_v317 rfl shapeCasts_S1x64_S64,
    unary main_arg4 main_v318 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v318 main_v319 rfl shapeCasts_S1x64x64_S64x64,
    unary main_arg5 main_v320 ((extractStridedSlice S1x64 ![3, 0] · slices_S4x64_S1x64_3_0) : (⟨S4x64, .f32⟩ : BufTy).Contents (Elt F) → (⟨S1x64, .f32⟩ : BufTy).Contents (Elt F)),
    reshape main_v320 main_v321 rfl shapeCasts_S1x64_S64,
    unary main_arg6 main_v322 ((extractStridedSlice S1x64 ![3, 0] · slices_S4x64_S1x64_3_0) : (⟨S4x64, .f32⟩ : BufTy).Contents (Elt F) → (⟨S1x64, .f32⟩ : BufTy).Contents (Elt F)),
    reshape main_v322 main_v323 rfl shapeCasts_S1x64_S64 ]

/-- The operations of window 6, in order. -/
abbrev ops6 : List (HloOp τ sig (Elt F)) :=
  [ unary main_arg7 main_v324 ((extractStridedSlice S1x64 ![3, 0] · slices_S4x64_S1x64_3_0) : (⟨S4x64, .f32⟩ : BufTy).Contents (Elt F) → (⟨S1x64, .f32⟩ : BufTy).Contents (Elt F)),
    reshape main_v324 main_v325 rfl shapeCasts_S1x64_S64,
    unary main_arg8 main_v326 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v326 main_v327 rfl shapeCasts_S1x64x64_S64x64,
    unary main_arg9 main_v328 ((extractStridedSlice S1x64 ![3, 0] · slices_S4x64_S1x64_3_0) : (⟨S4x64, .f32⟩ : BufTy).Contents (Elt F) → (⟨S1x64, .f32⟩ : BufTy).Contents (Elt F)),
    reshape main_v328 main_v329 rfl shapeCasts_S1x64_S64,
    unary main_arg10 main_v330 ((extractStridedSlice S1x64x192 ![3, 0, 0] · slices_S4x64x192_S1x64x192_3_0_0) : (⟨S4x64x192, .f32⟩ : BufTy).Contents (Elt F) → (⟨S1x64x192, .f32⟩ : BufTy).Contents (Elt F)),
    reshape main_v330 main_v331 rfl shapeCasts_S1x64x192_S64x192,
    unary main_arg11 main_v332 ((extractStridedSlice S1x64 ![3, 0] · slices_S4x64_S1x64_3_0) : (⟨S4x64, .f32⟩ : BufTy).Contents (Elt F) → (⟨S1x64, .f32⟩ : BufTy).Contents (Elt F)),
    reshape main_v332 main_v333 rfl shapeCasts_S1x64_S64,
    unary main_arg12 main_v334 ((extractStridedSlice S1x64 ![3, 0] · slices_S4x64_S1x64_3_0) : (⟨S4x64, .f32⟩ : BufTy).Contents (Elt F) → (⟨S1x64, .f32⟩ : BufTy).Contents (Elt F)),
    reshape main_v334 main_v335 rfl shapeCasts_S1x64_S64,
    unary main_v313 main_v336 ((extractStridedSlice S1x500000 ![0, 0] · slices_S2x500000_S1x500000_0_0) : (⟨S2x500000, .i32⟩ : BufTy).Contents (Elt F) → (⟨S1x500000, .i32⟩ : BufTy).Contents (Elt F)),
    reshape main_v336 main_v337 rfl shapeCasts_S1x500000_S500000,
    unary main_v313 main_v338 ((extractStridedSlice S1x500000 ![1, 0] · slices_S2x500000_S1x500000_1_0) : (⟨S2x500000, .i32⟩ : BufTy).Contents (Elt F) → (⟨S1x500000, .i32⟩ : BufTy).Contents (Elt F)),
    reshape main_v338 main_v339 rfl shapeCasts_S1x500000_S500000,
    nullary main_c_34 (constantI S_ 32 0#32),
    unary main_c_34 main_v340 (broadcastInDim S500000 ![] bcast_S_S500000 : (⟨S_, .i32⟩ : BufTy).Contents (Elt F) → (⟨S500000, .i32⟩ : BufTy).Contents (Elt F)),
    binary main_v337 main_v340 main_v341 (cmpi .slt : (⟨S500000, .i32⟩ : BufTy).Contents (Elt F) → (⟨S500000, .i32⟩ : BufTy).Contents (Elt F) → (⟨S500000, .i1⟩ : BufTy).Contents (Elt F)),
    nullary main_c_35 (constantI S_ 32 100000#32),
    unary main_c_35 main_v342 (broadcastInDim S500000 ![] bcast_S_S500000 : (⟨S_, .i32⟩ : BufTy).Contents (Elt F) → (⟨S500000, .i32⟩ : BufTy).Contents (Elt F)),
    binary main_v337 main_v342 main_v343 (addi : (⟨S500000, .i32⟩ : BufTy).Contents (Elt F) → (⟨S500000, .i32⟩ : BufTy).Contents (Elt F) → (⟨S500000, .i32⟩ : BufTy).Contents (Elt F)),
    ternary main_v341 main_v343 main_v337 main_v344 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v344 main_v345 (broadcastInDim S500000x1 ![0] bcast_S500000_S500000x1_0 : (⟨S500000, .i32⟩ : BufTy).Contents (Elt F) → (⟨S500000x1, .i32⟩ : BufTy).Contents (Elt F)),
    binary main_arg0 main_v345 main_v346 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_36 (constantI S_ 32 0#32),
    unary main_c_36 main_v347 (broadcastInDim S500000 ![] bcast_S_S500000 : (⟨S_, .i32⟩ : BufTy).Contents (Elt F) → (⟨S500000, .i32⟩ : BufTy).Contents (Elt F)),
    binary main_v339 main_v347 main_v348 (cmpi .slt : (⟨S500000, .i32⟩ : BufTy).Contents (Elt F) → (⟨S500000, .i32⟩ : BufTy).Contents (Elt F) → (⟨S500000, .i1⟩ : BufTy).Contents (Elt F)),
    nullary main_c_37 (constantI S_ 32 100000#32),
    unary main_c_37 main_v349 (broadcastInDim S500000 ![] bcast_S_S500000 : (⟨S_, .i32⟩ : BufTy).Contents (Elt F) → (⟨S500000, .i32⟩ : BufTy).Contents (Elt F)),
    binary main_v339 main_v349 main_v350 (addi : (⟨S500000, .i32⟩ : BufTy).Contents (Elt F) → (⟨S500000, .i32⟩ : BufTy).Contents (Elt F) → (⟨S500000, .i32⟩ : BufTy).Contents (Elt F)),
    ternary main_v348 main_v350 main_v339 main_v351 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v351 main_v352 (broadcastInDim S500000x1 ![0] bcast_S500000_S500000x1_0 : (⟨S500000, .i32⟩ : BufTy).Contents (Elt F) → (⟨S500000x1, .i32⟩ : BufTy).Contents (Elt F)),
    binary main_arg0 main_v352 main_v353 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v346 main_v353 main_v354 (subf : (⟨S500000x64, .f32⟩ : BufTy).Contents (Elt F) → (⟨S500000x64, .f32⟩ : BufTy).Contents (Elt F) → (⟨S500000x64, .f32⟩ : BufTy).Contents (Elt F)),
    unary main_v354 main_v355 (Host.absf : (⟨S500000x64, .f32⟩ : BufTy).Contents (Elt F) → (⟨S500000x64, .f32⟩ : BufTy).Contents (Elt F)),
    unary main_v315 main_v356 ((transpose S64x64 [1, 0] · transposes_S64x64_S64x64_1_0) : (⟨S64x64, .f32⟩ : BufTy).Contents (Elt F) → (⟨S64x64, .f32⟩ : BufTy).Contents (Elt F)),
    binary main_arg0 main_v356 main_v357 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v317 main_v358 (broadcastInDim S1x64 ![1] bcast_S64_S1x64_1 : (⟨S64, .f32⟩ : BufTy).Contents (Elt F) → (⟨S1x64, .f32⟩ : BufTy).Contents (Elt F)),
    unary main_v358 main_v359 (broadcastInDim S100000x64 ![0, 1] bcast_S1x64_S100000x64_0_1 : (⟨S1x64, .f32⟩ : BufTy).Contents (Elt F) → (⟨S100000x64, .f32⟩ : BufTy).Contents (Elt F)),
    binary main_v357 main_v359 main_v360 (addf : (⟨S100000x64, .f32⟩ : BufTy).Contents (Elt F) → (⟨S100000x64, .f32⟩ : BufTy).Contents (Elt F) → (⟨S100000x64, .f32⟩ : BufTy).Contents (Elt F)),
    unary main_v319 main_v361 ((transpose S64x64 [1, 0] · transposes_S64x64_S64x64_1_0) : (⟨S64x64, .f32⟩ : BufTy).Contents (Elt F) → (⟨S64x64, .f32⟩ : BufTy).Contents (Elt F)),
    binary main_v355 main_v361 main_v362 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v321 main_v363 (broadcastInDim S1x64 ![1] bcast_S64_S1x64_1 : (⟨S64, .f32⟩ : BufTy).Contents (Elt F) → (⟨S1x64, .f32⟩ : BufTy).Contents (Elt F)),
    unary main_v363 main_v364 (broadcastInDim S500000x64 ![0, 1] bcast_S1x64_S500000x64_0_1 : (⟨S1x64, .f32⟩ : BufTy).Contents (Elt F) → (⟨S500000x64, .f32⟩ : BufTy).Contents (Elt F)),
    binary main_v362 main_v364 main_v365 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S500000x64, .f32⟩) main_call3_v0) (broadcastInDim S500000x64 ![] bcast_S_S500000x64),
    TRef.binary (TRef.of (T := ⟨S500000x64, .f32⟩) main_v365) (TRef.of (T := ⟨S500000x64, .f32⟩) main_call3_v0) (TRef.of (T := ⟨S500000x64, .f32⟩) main_v366) maximumf,
    nullary main_cst_38 (constant S_ .f32 0x00000000#32),
    binary main_v366 main_cst_38 main_v367 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v367 main_v368 (broadcastInDim S500000x1 ![0] bcast_S500000_S500000x1_0 : (⟨S500000, .f32⟩ : BufTy).Contents (Elt F) → (⟨S500000x1, .f32⟩ : BufTy).Contents (Elt F)),
    nullary main_cst_39 (constant S_ .f32 0x42800000#32),
    unary main_cst_39 main_v369 (broadcastInDim S500000x1 ![] bcast_S_S500000x1 : (⟨S_, .f32⟩ : BufTy).Contents (Elt F) → (⟨S500000x1, .f32⟩ : BufTy).Contents (Elt F)),
    binary main_v368 main_v369 main_v370 (Host.divf : (⟨S500000x1, .f32⟩ : BufTy).Contents (Elt F) → (⟨S500000x1, .f32⟩ : BufTy).Contents (Elt F) → (⟨S500000x1, .f32⟩ : BufTy).Contents (Elt F)),
    unary main_v370 main_v371 (broadcastInDim S500000x64 ![0, 1] bcast_S500000x1_S500000x64_0_1 : (⟨S500000x1, .f32⟩ : BufTy).Contents (Elt F) → (⟨S500000x64, .f32⟩ : BufTy).Contents (Elt F)),
    binary main_v366 main_v371 main_v372 (subf : (⟨S500000x64, .f32⟩ : BufTy).Contents (Elt F) → (⟨S500000x64, .f32⟩ : BufTy).Contents (Elt F) → (⟨S500000x64, .f32⟩ : BufTy).Contents (Elt F)),
    binary main_v372 main_v372 main_v373 (mulf : (⟨S500000x64, .f32⟩ : BufTy).Contents (Elt F) → (⟨S500000x64, .f32⟩ : BufTy).Contents (Elt F) → (⟨S500000x64, .f32⟩ : BufTy).Contents (Elt F)),
    nullary main_cst_40 (constant S_ .f32 0x00000000#32),
    binary main_v373 main_cst_40 main_v374 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v374 main_v375 (broadcastInDim S500000x1 ![0] bcast_S500000_S500000x1_0 : (⟨S500000, .f32⟩ : BufTy).Contents (Elt F) → (⟨S500000x1, .f32⟩ : BufTy).Contents (Elt F)),
    nullary main_cst_41 (constant S_ .f32 0x42800000#32) ]

/-- The operations of window 7, in order. -/
abbrev ops7 : List (HloOp τ sig (Elt F)) :=
  [ unary main_cst_41 main_v376 (broadcastInDim S500000x1 ![] bcast_S_S500000x1 : (⟨S_, .f32⟩ : BufTy).Contents (Elt F) → (⟨S500000x1, .f32⟩ : BufTy).Contents (Elt F)),
    binary main_v375 main_v376 main_v377 (Host.divf : (⟨S500000x1, .f32⟩ : BufTy).Contents (Elt F) → (⟨S500000x1, .f32⟩ : BufTy).Contents (Elt F) → (⟨S500000x1, .f32⟩ : BufTy).Contents (Elt F)),
    unary main_v370 main_v378 (broadcastInDim S500000x64 ![0, 1] bcast_S500000x1_S500000x64_0_1 : (⟨S500000x1, .f32⟩ : BufTy).Contents (Elt F) → (⟨S500000x64, .f32⟩ : BufTy).Contents (Elt F)),
    binary main_v366 main_v378 main_v379 (subf : (⟨S500000x64, .f32⟩ : BufTy).Contents (Elt F) → (⟨S500000x64, .f32⟩ : BufTy).Contents (Elt F) → (⟨S500000x64, .f32⟩ : BufTy).Contents (Elt F)),
    nullary main_cst_42 (constant S_ .f32 0x3727C5AC#32),
    unary main_cst_42 main_v380 (broadcastInDim S500000x1 ![] bcast_S_S500000x1 : (⟨S_, .f32⟩ : BufTy).Contents (Elt F) → (⟨S500000x1, .f32⟩ : BufTy).Contents (Elt F)),
    binary main_v377 main_v380 main_v381 (addf : (⟨S500000x1, .f32⟩ : BufTy).Contents (Elt F) → (⟨S500000x1, .f32⟩ : BufTy).Contents (Elt F) → (⟨S500000x1, .f32⟩ : BufTy).Contents (Elt F)),
    unary main_v381 main_v382 (Host.rsqrt : (⟨S500000x1, .f32⟩ : BufTy).Contents (Elt F) → (⟨S500000x1, .f32⟩ : BufTy).Contents (Elt F)),
    unary main_v382 main_v383 (broadcastInDim S500000x64 ![0, 1] bcast_S500000x1_S500000x64_0_1 : (⟨S500000x1, .f32⟩ : BufTy).Contents (Elt F) → (⟨S500000x64, .f32⟩ : BufTy).Contents (Elt F)),
    binary main_v379 main_v383 main_v384 (mulf : (⟨S500000x64, .f32⟩ : BufTy).Contents (Elt F) → (⟨S500000x64, .f32⟩ : BufTy).Contents (Elt F) → (⟨S500000x64, .f32⟩ : BufTy).Contents (Elt F)),
    unary main_v323 main_v385 (broadcastInDim S1x64 ![1] bcast_S64_S1x64_1 : (⟨S64, .f32⟩ : BufTy).Contents (Elt F) → (⟨S1x64, .f32⟩ : BufTy).Contents (Elt F)),
    unary main_v385 main_v386 (broadcastInDim S500000x64 ![0, 1] bcast_S1x64_S500000x64_0_1 : (⟨S1x64, .f32⟩ : BufTy).Contents (Elt F) → (⟨S500000x64, .f32⟩ : BufTy).Contents (Elt F)),
    binary main_v384 main_v386 main_v387 (mulf : (⟨S500000x64, .f32⟩ : BufTy).Contents (Elt F) → (⟨S500000x64, .f32⟩ : BufTy).Contents (Elt F) → (⟨S500000x64, .f32⟩ : BufTy).Contents (Elt F)),
    unary main_v325 main_v388 (broadcastInDim S1x64 ![1] bcast_S64_S1x64_1 : (⟨S64, .f32⟩ : BufTy).Contents (Elt F) → (⟨S1x64, .f32⟩ : BufTy).Contents (Elt F)),
    unary main_v388 main_v389 (broadcastInDim S500000x64 ![0, 1] bcast_S1x64_S500000x64_0_1 : (⟨S1x64, .f32⟩ : BufTy).Contents (Elt F) → (⟨S500000x64, .f32⟩ : BufTy).Contents (Elt F)),
    binary main_v387 main_v389 main_v390 (addf : (⟨S500000x64, .f32⟩ : BufTy).Contents (Elt F) → (⟨S500000x64, .f32⟩ : BufTy).Contents (Elt F) → (⟨S500000x64, .f32⟩ : BufTy).Contents (Elt F)),
    unary main_v327 main_v391 ((transpose S64x64 [1, 0] · transposes_S64x64_S64x64_1_0) : (⟨S64x64, .f32⟩ : BufTy).Contents (Elt F) → (⟨S64x64, .f32⟩ : BufTy).Contents (Elt F)),
    binary main_v390 main_v391 main_v392 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v329 main_v393 (broadcastInDim S1x64 ![1] bcast_S64_S1x64_1 : (⟨S64, .f32⟩ : BufTy).Contents (Elt F) → (⟨S1x64, .f32⟩ : BufTy).Contents (Elt F)),
    unary main_v393 main_v394 (broadcastInDim S500000x64 ![0, 1] bcast_S1x64_S500000x64_0_1 : (⟨S1x64, .f32⟩ : BufTy).Contents (Elt F) → (⟨S500000x64, .f32⟩ : BufTy).Contents (Elt F)),
    binary main_v392 main_v394 main_v395 (addf : (⟨S500000x64, .f32⟩ : BufTy).Contents (Elt F) → (⟨S500000x64, .f32⟩ : BufTy).Contents (Elt F) → (⟨S500000x64, .f32⟩ : BufTy).Contents (Elt F)),
    nullary main_c_43 (constantI S_ 32 0#32),
    unary main_c_43 main_v396 (broadcastInDim S500000 ![] bcast_S_S500000 : (⟨S_, .i32⟩ : BufTy).Contents (Elt F) → (⟨S500000, .i32⟩ : BufTy).Contents (Elt F)),
    binary main_v337 main_v396 main_v397 (cmpi .slt : (⟨S500000, .i32⟩ : BufTy).Contents (Elt F) → (⟨S500000, .i32⟩ : BufTy).Contents (Elt F) → (⟨S500000, .i1⟩ : BufTy).Contents (Elt F)),
    nullary main_c_44 (constantI S_ 32 100000#32),
    unary main_c_44 main_v398 (broadcastInDim S500000 ![] bcast_S_S500000 : (⟨S_, .i32⟩ : BufTy).Contents (Elt F) → (⟨S500000, .i32⟩ : BufTy).Contents (Elt F)),
    binary main_v337 main_v398 main_v399 (addi : (⟨S500000, .i32⟩ : BufTy).Contents (Elt F) → (⟨S500000, .i32⟩ : BufTy).Contents (Elt F) → (⟨S500000, .i32⟩ : BufTy).Contents (Elt F)),
    ternary main_v397 main_v399 main_v337 main_v400 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v400 main_v401 (broadcastInDim S500000x1 ![0] bcast_S500000_S500000x1_0 : (⟨S500000, .i32⟩ : BufTy).Contents (Elt F) → (⟨S500000x1, .i32⟩ : BufTy).Contents (Elt F)),
    binary main_v360 main_v401 main_v402 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v402 main_v395 main_v403 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst_45 (constant S_ .f32 0x00000000#32),
    unary main_cst_45 main_v404 (broadcastInDim S100000x128 ![] bcast_S_S100000x128 : (⟨S_, .f32⟩ : BufTy).Contents (Elt F) → (⟨S100000x128, .f32⟩ : BufTy).Contents (Elt F)),
    unary main_v339 main_v405 (broadcastInDim S500000x1 ![0] bcast_S500000_S500000x1_0 : (⟨S500000, .i32⟩ : BufTy).Contents (Elt F) → (⟨S500000x1, .i32⟩ : BufTy).Contents (Elt F)),
    ternary main_v404 main_v405 main_v403 main_v406 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    binary main_v360 main_v406 main_v407 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    unary main_v331 main_v408 ((transpose S192x64 [1, 0] · transposes_S64x192_S192x64_1_0) : (⟨S64x192, .f32⟩ : BufTy).Contents (Elt F) → (⟨S192x64, .f32⟩ : BufTy).Contents (Elt F)),
    binary main_v407 main_v408 main_v409 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_v333 main_v410 (broadcastInDim S1x64 ![1] bcast_S64_S1x64_1 : (⟨S64, .f32⟩ : BufTy).Contents (Elt F) → (⟨S1x64, .f32⟩ : BufTy).Contents (Elt F)),
    unary main_v410 main_v411 (broadcastInDim S100000x64 ![0, 1] bcast_S1x64_S100000x64_0_1 : (⟨S1x64, .f32⟩ : BufTy).Contents (Elt F) → (⟨S100000x64, .f32⟩ : BufTy).Contents (Elt F)),
    binary main_v409 main_v411 main_v412 (addf : (⟨S100000x64, .f32⟩ : BufTy).Contents (Elt F) → (⟨S100000x64, .f32⟩ : BufTy).Contents (Elt F) → (⟨S100000x64, .f32⟩ : BufTy).Contents (Elt F)),
    unary main_v335 main_v413 (broadcastInDim S1x64 ![1] bcast_S64_S1x64_1 : (⟨S64, .f32⟩ : BufTy).Contents (Elt F) → (⟨S1x64, .f32⟩ : BufTy).Contents (Elt F)),
    unary main_v413 main_v414 (broadcastInDim S100000x64 ![0, 1] bcast_S1x64_S100000x64_0_1 : (⟨S1x64, .f32⟩ : BufTy).Contents (Elt F) → (⟨S100000x64, .f32⟩ : BufTy).Contents (Elt F)),
    binary main_v412 main_v414 main_v415 (addf : (⟨S100000x64, .f32⟩ : BufTy).Contents (Elt F) → (⟨S100000x64, .f32⟩ : BufTy).Contents (Elt F) → (⟨S100000x64, .f32⟩ : BufTy).Contents (Elt F)),
    unary main_v103 main_v416 (broadcastInDim S1x100000x64 ![1, 2] bcast_S100000x64_S1x100000x64_1_2 : (⟨S100000x64, .f32⟩ : BufTy).Contents (Elt F) → (⟨S1x100000x64, .f32⟩ : BufTy).Contents (Elt F)),
    unary main_v207 main_v417 (broadcastInDim S1x100000x64 ![1, 2] bcast_S100000x64_S1x100000x64_1_2 : (⟨S100000x64, .f32⟩ : BufTy).Contents (Elt F) → (⟨S1x100000x64, .f32⟩ : BufTy).Contents (Elt F)),
    unary main_v311 main_v418 (broadcastInDim S1x100000x64 ![1, 2] bcast_S100000x64_S1x100000x64_1_2 : (⟨S100000x64, .f32⟩ : BufTy).Contents (Elt F) → (⟨S1x100000x64, .f32⟩ : BufTy).Contents (Elt F)),
    unary main_v415 main_v419 (broadcastInDim S1x100000x64 ![1, 2] bcast_S100000x64_S1x100000x64_1_2 : (⟨S100000x64, .f32⟩ : BufTy).Contents (Elt F) → (⟨S1x100000x64, .f32⟩ : BufTy).Contents (Elt F)),
    nary ![main_v416, main_v417, main_v418, main_v419] main_v420 (fun u => concatenate S4x100000x64 0 [⟨S1x100000x64, u 0⟩, ⟨S1x100000x64, u 1⟩, ⟨S1x100000x64, u 2⟩, ⟨S1x100000x64, u 3⟩] concatenates_S1x100000x64_S1x100000x64_S1x100000x64_S1x100000x64_S4x100000x64_d0),
    nullary main_cst_46 (constant S_ .f32 0x00000000#32),
    binary main_v420 main_cst_46 main_v421 ((fun x v => Host.reduceAdd x v reducesTo_S4x100000x64_S100000x64_d0 h_S_) : (⟨S4x100000x64, .f32⟩ : BufTy).Contents (Elt F) → (⟨S_, .f32⟩ : BufTy).Contents (Elt F) → (⟨S100000x64, .f32⟩ : BufTy).Contents (Elt F)),
    nullary main_cst_47 (constant S_ .f32 0x40800000#32),
    unary main_cst_47 main_v422 (broadcastInDim S100000x64 ![] bcast_S_S100000x64 : (⟨S_, .f32⟩ : BufTy).Contents (Elt F) → (⟨S100000x64, .f32⟩ : BufTy).Contents (Elt F)),
    binary main_v421 main_v422 main_v423 (Host.divf : (⟨S100000x64, .f32⟩ : BufTy).Contents (Elt F) → (⟨S100000x64, .f32⟩ : BufTy).Contents (Elt F) → (⟨S100000x64, .f32⟩ : BufTy).Contents (Elt F)) ]

/-- The program's 482 operations, in order. -/
abbrev ops : List (HloOp τ sig (Elt F)) :=
  ops0 ++ (ops1 ++ (ops2 ++ (ops3 ++ (ops4 ++ (ops5 ++ (ops6 ++ ops7))))))

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl
set_option maxRecDepth 8192 in
set_option maxHeartbeats 4000000 in
theorem main_part3_eq (c : Dev nD) : main_part3 (F := F) c = seq ops3 := rfl
set_option maxRecDepth 8192 in
set_option maxHeartbeats 4000000 in
theorem main_part4_eq (c : Dev nD) : main_part4 (F := F) c = seq ops4 := rfl
set_option maxRecDepth 8192 in
set_option maxHeartbeats 4000000 in
theorem main_part5_eq (c : Dev nD) : main_part5 (F := F) c = seq ops5 := rfl
set_option maxRecDepth 8192 in
set_option maxHeartbeats 4000000 in
theorem main_part6_eq (c : Dev nD) : main_part6 (F := F) c = seq ops6 := rfl
set_option maxRecDepth 8192 in
set_option maxHeartbeats 4000000 in
theorem main_part7_eq (c : Dev nD) : main_part7 (F := F) c = seq ops7 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub ..⟩
set_option maxRecDepth 8192 in
set_option maxHeartbeats 4000000 in
theorem ops0_fresh : ∀ op ∈ (ops0 : List (HloOp τ sig (Elt F))), op.fresh = ∅ := by
  intro _ h; (repeat (cases h with | head => rfl | tail _ h => ?_)); exact nomatch h
/-- The buffers that window 0's operations write. -/
abbrev ops0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_c, main_v28, main_v29, main_c_0, main_v30, main_v31, main_v32, main_v33, main_v34, main_c_1, main_v35, main_v36, main_c_2, main_v37, main_v38, main_v39, main_v40, main_v41, main_v42, main_v43, main_v44, main_v45, main_v46, main_v47, main_v48, main_v49, main_v50, main_v51, main_v52, main_v53, main_call0_cst, main_call0_v0, main_v54, main_cst]
set_option maxRecDepth 8192 in
set_option maxHeartbeats 4000000 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 0 does not write keeps its contents through it. -/
theorem ops0_keep (W : Valuation τ sig (Elt F)) (r : Ref sig .tc) (h : r ∉ ops0_W) :
    after ops0 W (Proc.devRef .tc r) = W (Proc.devRef .tc r) :=
  after_of_writes_sub ops0 _ ops0_writes h

set_option maxRecDepth 8192 in
theorem ops1_sub : (ops1 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub ..⟩
set_option maxRecDepth 8192 in
set_option maxHeartbeats 4000000 in
theorem ops1_fresh : ∀ op ∈ (ops1 : List (HloOp τ sig (Elt F))), op.fresh = ∅ := by
  intro _ h; (repeat (cases h with | head => rfl | tail _ h => ?_)); exact nomatch h
/-- The buffers that window 1's operations write. -/
abbrev ops1_W : List (Ref sig .tc) := [main_v55, main_v56, main_cst_3, main_v57, main_v58, main_v59, main_v60, main_v61, main_cst_4, main_v62, main_v63, main_cst_5, main_v64, main_v65, main_v66, main_v67, main_cst_6, main_v68, main_v69, main_v70, main_v71, main_v72, main_v73, main_v74, main_v75, main_v76, main_v77, main_v78, main_v79, main_v80, main_v81, main_v82, main_v83, main_c_7, main_v84, main_v85, main_c_8, main_v86, main_v87, main_v88, main_v89, main_v90, main_v91, main_cst_9, main_v92, main_v93, main_v94, main_v95, main_v96, main_v97, main_v98, main_v99, main_v100, main_v101, main_v102, main_v103, main_v104, main_v105, main_v106, main_v107]
set_option maxRecDepth 8192 in
set_option maxHeartbeats 4000000 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 1 does not write keeps its contents through it. -/
theorem ops1_keep (W : Valuation τ sig (Elt F)) (r : Ref sig .tc) (h : r ∉ ops1_W) :
    after ops1 W (Proc.devRef .tc r) = W (Proc.devRef .tc r) :=
  after_of_writes_sub ops1 _ ops1_writes h

set_option maxRecDepth 8192 in
theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub ..⟩
set_option maxRecDepth 8192 in
set_option maxHeartbeats 4000000 in
theorem ops2_fresh : ∀ op ∈ (ops2 : List (HloOp τ sig (Elt F))), op.fresh = ∅ := by
  intro _ h; (repeat (cases h with | head => rfl | tail _ h => ?_)); exact nomatch h
/-- The buffers that window 2's operations write. -/
abbrev ops2_W : List (Ref sig .tc) := [main_v108, main_v109, main_v110, main_v111, main_v112, main_v113, main_v114, main_v115, main_v116, main_v117, main_v118, main_v119, main_v120, main_v121, main_v122, main_v123, main_v124, main_v125, main_v126, main_v127, main_v128, main_v129, main_v130, main_v131, main_c_10, main_v132, main_v133, main_c_11, main_v134, main_v135, main_v136, main_v137, main_v138, main_c_12, main_v139, main_v140, main_c_13, main_v141, main_v142, main_v143, main_v144, main_v145, main_v146, main_v147, main_v148, main_v149, main_v150, main_v151, main_v152, main_v153, main_v154, main_v155, main_v156, main_v157, main_call1_cst, main_call1_v0, main_v158, main_cst_14, main_v159, main_v160, main_cst_15, main_v161]
set_option maxRecDepth 8192 in
set_option maxHeartbeats 4000000 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 2 does not write keeps its contents through it. -/
theorem ops2_keep (W : Valuation τ sig (Elt F)) (r : Ref sig .tc) (h : r ∉ ops2_W) :
    after ops2 W (Proc.devRef .tc r) = W (Proc.devRef .tc r) :=
  after_of_writes_sub ops2 _ ops2_writes h

set_option maxRecDepth 8192 in
theorem ops3_sub : (ops3 : List (HloOp τ sig (Elt F))).Forall fun op => op.bufs ⊆ tcRefs τ sig :=
  ⟨binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub ..⟩
set_option maxRecDepth 8192 in
set_option maxHeartbeats 4000000 in
theorem ops3_fresh : ∀ op ∈ (ops3 : List (HloOp τ sig (Elt F))), op.fresh = ∅ := by
  intro _ h; (repeat (cases h with | head => rfl | tail _ h => ?_)); exact nomatch h
/-- The buffers that window 3's operations write. -/
abbrev ops3_W : List (Ref sig .tc) := [main_v162, main_v163, main_v164, main_v165, main_cst_16, main_v166, main_v167, main_cst_17, main_v168, main_v169, main_v170, main_v171, main_cst_18, main_v172, main_v173, main_v174, main_v175, main_v176, main_v177, main_v178, main_v179, main_v180, main_v181, main_v182, main_v183, main_v184, main_v185, main_v186, main_v187, main_c_19, main_v188, main_v189, main_c_20, main_v190, main_v191, main_v192, main_v193, main_v194, main_v195, main_cst_21, main_v196, main_v197, main_v198, main_v199, main_v200, main_v201, main_v202, main_v203, main_v204, main_v205, main_v206, main_v207, main_v208, main_v209, main_v210, main_v211, main_v212, main_v213, main_v214, main_v215]
set_option maxRecDepth 8192 in
set_option maxHeartbeats 4000000 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 3 does not write keeps its contents through it. -/
theorem ops3_keep (W : Valuation τ sig (Elt F)) (r : Ref sig .tc) (h : r ∉ ops3_W) :
    after ops3 W (Proc.devRef .tc r) = W (Proc.devRef .tc r) :=
  after_of_writes_sub ops3 _ ops3_writes h

set_option maxRecDepth 8192 in
theorem ops4_sub : (ops4 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub ..⟩
set_option maxRecDepth 8192 in
set_option maxHeartbeats 4000000 in
theorem ops4_fresh : ∀ op ∈ (ops4 : List (HloOp τ sig (Elt F))), op.fresh = ∅ := by
  intro _ h; (repeat (cases h with | head => rfl | tail _ h => ?_)); exact nomatch h
/-- The buffers that window 4's operations write. -/
abbrev ops4_W : List (Ref sig .tc) := [main_v216, main_v217, main_v218, main_v219, main_v220, main_v221, main_v222, main_v223, main_v224, main_v225, main_v226, main_v227, main_v228, main_v229, main_v230, main_v231, main_v232, main_v233, main_v234, main_v235, main_c_22, main_v236, main_v237, main_c_23, main_v238, main_v239, main_v240, main_v241, main_v242, main_c_24, main_v243, main_v244, main_c_25, main_v245, main_v246, main_v247, main_v248, main_v249, main_v250, main_v251, main_v252, main_v253, main_v254, main_v255, main_v256, main_v257, main_v258, main_v259, main_v260, main_v261, main_call2_cst, main_call2_v0, main_v262, main_cst_26, main_v263, main_v264, main_cst_27, main_v265, main_v266, main_v267, main_v268, main_v269]
set_option maxRecDepth 8192 in
set_option maxHeartbeats 4000000 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 4 does not write keeps its contents through it. -/
theorem ops4_keep (W : Valuation τ sig (Elt F)) (r : Ref sig .tc) (h : r ∉ ops4_W) :
    after ops4 W (Proc.devRef .tc r) = W (Proc.devRef .tc r) :=
  after_of_writes_sub ops4 _ ops4_writes h

set_option maxRecDepth 8192 in
theorem ops5_sub : (ops5 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
set_option maxRecDepth 8192 in
set_option maxHeartbeats 4000000 in
theorem ops5_fresh : ∀ op ∈ (ops5 : List (HloOp τ sig (Elt F))), op.fresh = ∅ := by
  intro _ h; (repeat (cases h with | head => rfl | tail _ h => ?_)); exact nomatch h
/-- The buffers that window 5's operations write. -/
abbrev ops5_W : List (Ref sig .tc) := [main_cst_28, main_v270, main_v271, main_cst_29, main_v272, main_v273, main_v274, main_v275, main_cst_30, main_v276, main_v277, main_v278, main_v279, main_v280, main_v281, main_v282, main_v283, main_v284, main_v285, main_v286, main_v287, main_v288, main_v289, main_v290, main_v291, main_c_31, main_v292, main_v293, main_c_32, main_v294, main_v295, main_v296, main_v297, main_v298, main_v299, main_cst_33, main_v300, main_v301, main_v302, main_v303, main_v304, main_v305, main_v306, main_v307, main_v308, main_v309, main_v310, main_v311, main_v312, main_v313, main_v314, main_v315, main_v316, main_v317, main_v318, main_v319, main_v320, main_v321, main_v322, main_v323]
set_option maxRecDepth 8192 in
set_option maxHeartbeats 4000000 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 5 does not write keeps its contents through it. -/
theorem ops5_keep (W : Valuation τ sig (Elt F)) (r : Ref sig .tc) (h : r ∉ ops5_W) :
    after ops5 W (Proc.devRef .tc r) = W (Proc.devRef .tc r) :=
  after_of_writes_sub ops5 _ ops5_writes h

set_option maxRecDepth 8192 in
theorem ops6_sub : (ops6 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub ..⟩
set_option maxRecDepth 8192 in
set_option maxHeartbeats 4000000 in
theorem ops6_fresh : ∀ op ∈ (ops6 : List (HloOp τ sig (Elt F))), op.fresh = ∅ := by
  intro _ h; (repeat (cases h with | head => rfl | tail _ h => ?_)); exact nomatch h
/-- The buffers that window 6's operations write. -/
abbrev ops6_W : List (Ref sig .tc) := [main_v324, main_v325, main_v326, main_v327, main_v328, main_v329, main_v330, main_v331, main_v332, main_v333, main_v334, main_v335, main_v336, main_v337, main_v338, main_v339, main_c_34, main_v340, main_v341, main_c_35, main_v342, main_v343, main_v344, main_v345, main_v346, main_c_36, main_v347, main_v348, main_c_37, main_v349, main_v350, main_v351, main_v352, main_v353, main_v354, main_v355, main_v356, main_v357, main_v358, main_v359, main_v360, main_v361, main_v362, main_v363, main_v364, main_v365, main_call3_cst, main_call3_v0, main_v366, main_cst_38, main_v367, main_v368, main_cst_39, main_v369, main_v370, main_v371, main_v372, main_v373, main_cst_40, main_v374, main_v375, main_cst_41]
set_option maxRecDepth 8192 in
set_option maxHeartbeats 4000000 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 6 does not write keeps its contents through it. -/
theorem ops6_keep (W : Valuation τ sig (Elt F)) (r : Ref sig .tc) (h : r ∉ ops6_W) :
    after ops6 W (Proc.devRef .tc r) = W (Proc.devRef .tc r) :=
  after_of_writes_sub ops6 _ ops6_writes h

set_option maxRecDepth 8192 in
theorem ops7_sub : (ops7 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., nary_bufs_sub .., nullary_bufs_sub .., binary_bufs_sub .., nullary_bufs_sub .., unary_bufs_sub .., binary_bufs_sub ..⟩
set_option maxRecDepth 8192 in
set_option maxHeartbeats 4000000 in
theorem ops7_fresh : ∀ op ∈ (ops7 : List (HloOp τ sig (Elt F))), op.fresh = ∅ := by
  intro _ h; (repeat (cases h with | head => rfl | tail _ h => ?_)); exact nomatch h
/-- The buffers that window 7's operations write. -/
abbrev ops7_W : List (Ref sig .tc) := [main_v376, main_v377, main_v378, main_v379, main_cst_42, main_v380, main_v381, main_v382, main_v383, main_v384, main_v385, main_v386, main_v387, main_v388, main_v389, main_v390, main_v391, main_v392, main_v393, main_v394, main_v395, main_c_43, main_v396, main_v397, main_c_44, main_v398, main_v399, main_v400, main_v401, main_v402, main_v403, main_cst_45, main_v404, main_v405, main_v406, main_v407, main_v408, main_v409, main_v410, main_v411, main_v412, main_v413, main_v414, main_v415, main_v416, main_v417, main_v418, main_v419, main_v420, main_cst_46, main_v421, main_cst_47, main_v422, main_v423]
set_option maxRecDepth 8192 in
set_option maxHeartbeats 4000000 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 7 does not write keeps its contents through it. -/
theorem ops7_keep (W : Valuation τ sig (Elt F)) (r : Ref sig .tc) (h : r ∉ ops7_W) :
    after ops7 W (Proc.devRef .tc r) = W (Proc.devRef .tc r) :=
  after_of_writes_sub ops7 _ ops7_writes h

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]

theorem ops_fresh : ∀ op ∈ (ops : List (HloOp τ sig (Elt F))), op.fresh = ∅ := by
  intro op h
  simp only [ops, List.mem_append] at h
  rcases h with h | h | h | h | h | h | h | h
  exacts [ops0_fresh op h, ops1_fresh op h, ops2_fresh op h, ops3_fresh op h, ops4_fresh op h, ops5_fresh op h, ops6_fresh op h, ops7_fresh op h]

/-- The contents after the whole list: window after window. -/
theorem after_ops (V : Valuation τ sig (Elt F)) :
    after ops V = after ops7 (after ops6 (after ops5 (after ops4 (after ops3 (after ops2 (after ops1 (after ops0 V))))))) := by
  simp only [ops, after_append]

end Cert.ReferenceIdeal.RefRun

end
-- ==== Proof.RefWin0.lean ====
/- Window 0 of the reference program, read through: from any contents in which the buffers the window reads hold the
  stage values of the program's arguments, each buffer that later windows read holds its stage value after the window.
-/
import proofs.«410647_j53395033423884_2_alg».proof.Proof.RefStages
import proofs.«410647_j53395033423884_2_alg».proof.Proof.RefOps

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 2000000 in
theorem win0_main_v11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v11) = val_main_v11 (F := F) x6 := by
  simp only [ops0]
  after_results_simp
  rw [h_main_arg6] <;> rfl

set_option maxRecDepth 8192 in
set_option maxHeartbeats 2000000 in
theorem win0_main_v13 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v13) = val_main_v13 (F := F) x7 := by
  simp only [ops0]
  after_results_simp
  rw [h_main_arg7] <;> rfl

set_option maxRecDepth 8192 in
set_option maxHeartbeats 2000000 in
theorem win0_main_v15 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v15) = val_main_v15 (F := F) x8 := by
  simp only [ops0]
  after_results_simp
  rw [h_main_arg8] <;> rfl

set_option maxRecDepth 8192 in
set_option maxHeartbeats 2000000 in
theorem win0_main_v17 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v17) = val_main_v17 (F := F) x9 := by
  simp only [ops0]
  after_results_simp
  rw [h_main_arg9] <;> rfl

set_option maxRecDepth 8192 in
set_option maxHeartbeats 2000000 in
theorem win0_main_v19 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v19) = val_main_v19 (F := F) x10 := by
  simp only [ops0]
  after_results_simp
  rw [h_main_arg10] <;> rfl

set_option maxRecDepth 8192 in
set_option maxHeartbeats 2000000 in
theorem win0_main_v21 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v21) = val_main_v21 (F := F) x11 := by
  simp only [ops0]
  after_results_simp
  rw [h_main_arg11] <;> rfl

set_option maxRecDepth 8192 in
set_option maxHeartbeats 2000000 in
theorem win0_main_v23 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v23) = val_main_v23 (F := F) x12 := by
  simp only [ops0]
  after_results_simp
  rw [h_main_arg12] <;> rfl

set_option maxRecDepth 8192 in
set_option maxHeartbeats 2000000 in
theorem win0_main_v25 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v25) = val_main_v25 (F := F) x1 := by
  simp only [ops0]
  after_results_simp
  rw [h_main_arg1] <;> rfl

set_option maxRecDepth 8192 in
set_option maxHeartbeats 2000000 in
theorem win0_main_v27 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v27) = val_main_v27 (F := F) x1 := by
  simp only [ops0]
  after_results_simp
  rw [h_main_arg1] <;> rfl

set_option maxRecDepth 8192 in
set_option maxHeartbeats 2000000 in
theorem win0_main_v48 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v48) = val_main_v48 (F := F) x0 x2 x3 := by
  simp only [ops0]
  after_results_simp
  rw [h_main_arg3, h_main_arg2, h_main_arg0] <;> rfl

set_option maxRecDepth 8192 in
set_option maxHeartbeats 2000000 in
theorem win0_main_v54 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_v54) = val_main_v54 (F := F) x0 x1 x4 x5 := by
  simp only [ops0]
  after_results_simp
  rw [h_main_arg5, h_main_arg4, h_main_arg1, h_main_arg0] <;> rfl

set_option maxRecDepth 8192 in
set_option maxHeartbeats 2000000 in
theorem win0_main_cst (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12) :
    after ops0 W (Proc.devRef .tc main_cst) = val_main_cst (F := F) := by
  simp only [ops0]
  after_results_simp
  all_goals rfl

end Cert.ReferenceIdeal.RefRun

end
-- ==== Proof.RefWin1.lean ====
/- Window 1 of the reference program, read through: from any contents in which the buffers the window reads hold the
  stage values of the program's arguments, each buffer that later windows read holds its stage value after the window.
-/
import proofs.«410647_j53395033423884_2_alg».proof.Proof.RefStages
import proofs.«410647_j53395033423884_2_alg».proof.Proof.RefOps

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Stretch 0 of window 1: a stretch ends before each concatenation. -/
abbrev ops1_0 : List (HloOp τ sig (Elt F)) :=
  [ binary main_v54 main_cst main_v55 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v55 main_v56 (broadcastInDim S500000x1 ![0] bcast_S500000_S500000x1_0 : (⟨S500000, .f32⟩ : BufTy).Contents (Elt F) → (⟨S500000x1, .f32⟩ : BufTy).Contents (Elt F)),
    nullary main_cst_3 (constant S_ .f32 0x42800000#32),
    unary main_cst_3 main_v57 (broadcastInDim S500000x1 ![] bcast_S_S500000x1 : (⟨S_, .f32⟩ : BufTy).Contents (Elt F) → (⟨S500000x1, .f32⟩ : BufTy).Contents (Elt F)),
    binary main_v56 main_v57 main_v58 (Host.divf : (⟨S500000x1, .f32⟩ : BufTy).Contents (Elt F) → (⟨S500000x1, .f32⟩ : BufTy).Contents (Elt F) → (⟨S500000x1, .f32⟩ : BufTy).Contents (Elt F)),
    unary main_v58 main_v59 (broadcastInDim S500000x64 ![0, 1] bcast_S500000x1_S500000x64_0_1 : (⟨S500000x1, .f32⟩ : BufTy).Contents (Elt F) → (⟨S500000x64, .f32⟩ : BufTy).Contents (Elt F)),
    binary main_v54 main_v59 main_v60 (subf : (⟨S500000x64, .f32⟩ : BufTy).Contents (Elt F) → (⟨S500000x64, .f32⟩ : BufTy).Contents (Elt F) → (⟨S500000x64, .f32⟩ : BufTy).Contents (Elt F)),
    binary main_v60 main_v60 main_v61 (mulf : (⟨S500000x64, .f32⟩ : BufTy).Contents (Elt F) → (⟨S500000x64, .f32⟩ : BufTy).Contents (Elt F) → (⟨S500000x64, .f32⟩ : BufTy).Contents (Elt F)),
    nullary main_cst_4 (constant S_ .f32 0x00000000#32),
    binary main_v61 main_cst_4 main_v62 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v62 main_v63 (broadcastInDim S500000x1 ![0] bcast_S500000_S500000x1_0 : (⟨S500000, .f32⟩ : BufTy).Contents (Elt F) → (⟨S500000x1, .f32⟩ : BufTy).Contents (Elt F)),
    nullary main_cst_5 (constant S_ .f32 0x42800000#32),
    unary main_cst_5 main_v64 (broadcastInDim S500000x1 ![] bcast_S_S500000x1 : (⟨S_, .f32⟩ : BufTy).Contents (Elt F) → (⟨S500000x1, .f32⟩ : BufTy).Contents (Elt F)),
    binary main_v63 main_v64 main_v65 (Host.divf : (⟨S500000x1, .f32⟩ : BufTy).Contents (Elt F) → (⟨S500000x1, .f32⟩ : BufTy).Contents (Elt F) → (⟨S500000x1, .f32⟩ : BufTy).Contents (Elt F)),
    unary main_v58 main_v66 (broadcastInDim S500000x64 ![0, 1] bcast_S500000x1_S500000x64_0_1 : (⟨S500000x1, .f32⟩ : BufTy).Contents (Elt F) → (⟨S500000x64, .f32⟩ : BufTy).Contents (Elt F)),
    binary main_v54 main_v66 main_v67 (subf : (⟨S500000x64, .f32⟩ : BufTy).Contents (Elt F) → (⟨S500000x64, .f32⟩ : BufTy).Contents (Elt F) → (⟨S500000x64, .f32⟩ : BufTy).Contents (Elt F)),
    nullary main_cst_6 (constant S_ .f32 0x3727C5AC#32),
    unary main_cst_6 main_v68 (broadcastInDim S500000x1 ![] bcast_S_S500000x1 : (⟨S_, .f32⟩ : BufTy).Contents (Elt F) → (⟨S500000x1, .f32⟩ : BufTy).Contents (Elt F)),
    binary main_v65 main_v68 main_v69 (addf : (⟨S500000x1, .f32⟩ : BufTy).Contents (Elt F) → (⟨S500000x1, .f32⟩ : BufTy).Contents (Elt F) → (⟨S500000x1, .f32⟩ : BufTy).Contents (Elt F)),
    unary main_v69 main_v70 (Host.rsqrt : (⟨S500000x1, .f32⟩ : BufTy).Contents (Elt F) → (⟨S500000x1, .f32⟩ : BufTy).Contents (Elt F)),
    unary main_v70 main_v71 (broadcastInDim S500000x64 ![0, 1] bcast_S500000x1_S500000x64_0_1 : (⟨S500000x1, .f32⟩ : BufTy).Contents (Elt F) → (⟨S500000x64, .f32⟩ : BufTy).Contents (Elt F)),
    binary main_v67 main_v71 main_v72 (mulf : (⟨S500000x64, .f32⟩ : BufTy).Contents (Elt F) → (⟨S500000x64, .f32⟩ : BufTy).Contents (Elt F) → (⟨S500000x64, .f32⟩ : BufTy).Contents (Elt F)),
    unary main_v11 main_v73 (broadcastInDim S1x64 ![1] bcast_S64_S1x64_1 : (⟨S64, .f32⟩ : BufTy).Contents (Elt F) → (⟨S1x64, .f32⟩ : BufTy).Contents (Elt F)),
    unary main_v73 main_v74 (broadcastInDim S500000x64 ![0, 1] bcast_S1x64_S500000x64_0_1 : (⟨S1x64, .f32⟩ : BufTy).Contents (Elt F) → (⟨S500000x64, .f32⟩ : BufTy).Contents (Elt F)),
    binary main_v72 main_v74 main_v75 (mulf : (⟨S500000x64, .f32⟩ : BufTy).Contents (Elt F) → (⟨S500000x64, .f32⟩ : BufTy).Contents (Elt F) → (⟨S500000x64, .f32⟩ : BufTy).Contents (Elt F)),
    unary main_v13 main_v76 (broadcastInDim S1x64 ![1] bcast_S64_S1x64_1 : (⟨S64, .f32⟩ : BufTy).Contents (Elt F) → (⟨S1x64, .f32⟩ : BufTy).Contents (Elt F)),
    unary main_v76 main_v77 (broadcastInDim S500000x64 ![0, 1] bcast_S1x64_S500000x64_0_1 : (⟨S1x64, .f32⟩ : BufTy).Contents (Elt F) → (⟨S500000x64, .f32⟩ : BufTy).Contents (Elt F)),
    binary main_v75 main_v77 main_v78 (addf : (⟨S500000x64, .f32⟩ : BufTy).Contents (Elt F) → (⟨S500000x64, .f32⟩ : BufTy).Contents (Elt F) → (⟨S500000x64, .f32⟩ : BufTy).Contents (Elt F)),
    unary main_v15 main_v79 ((transpose S64x64 [1, 0] · transposes_S64x64_S64x64_1_0) : (⟨S64x64, .f32⟩ : BufTy).Contents (Elt F) → (⟨S64x64, .f32⟩ : BufTy).Contents (Elt F)),
    binary main_v78 main_v79 main_v80 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v17 main_v81 (broadcastInDim S1x64 ![1] bcast_S64_S1x64_1 : (⟨S64, .f32⟩ : BufTy).Contents (Elt F) → (⟨S1x64, .f32⟩ : BufTy).Contents (Elt F)),
    unary main_v81 main_v82 (broadcastInDim S500000x64 ![0, 1] bcast_S1x64_S500000x64_0_1 : (⟨S1x64, .f32⟩ : BufTy).Contents (Elt F) → (⟨S500000x64, .f32⟩ : BufTy).Contents (Elt F)),
    binary main_v80 main_v82 main_v83 (addf : (⟨S500000x64, .f32⟩ : BufTy).Contents (Elt F) → (⟨S500000x64, .f32⟩ : BufTy).Contents (Elt F) → (⟨S500000x64, .f32⟩ : BufTy).Contents (Elt F)),
    nullary main_c_7 (constantI S_ 32 0#32),
    unary main_c_7 main_v84 (broadcastInDim S500000 ![] bcast_S_S500000 : (⟨S_, .i32⟩ : BufTy).Contents (Elt F) → (⟨S500000, .i32⟩ : BufTy).Contents (Elt F)),
    binary main_v25 main_v84 main_v85 (cmpi .slt : (⟨S500000, .i32⟩ : BufTy).Contents (Elt F) → (⟨S500000, .i32⟩ : BufTy).Contents (Elt F) → (⟨S500000, .i1⟩ : BufTy).Contents (Elt F)),
    nullary main_c_8 (constantI S_ 32 100000#32),
    unary main_c_8 main_v86 (broadcastInDim S500000 ![] bcast_S_S500000 : (⟨S_, .i32⟩ : BufTy).Contents (Elt F) → (⟨S500000, .i32⟩ : BufTy).Contents (Elt F)),
    binary main_v25 main_v86 main_v87 (addi : (⟨S500000, .i32⟩ : BufTy).Contents (Elt F) → (⟨S500000, .i32⟩ : BufTy).Contents (Elt F) → (⟨S500000, .i32⟩ : BufTy).Contents (Elt F)),
    ternary main_v85 main_v87 main_v25 main_v88 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v88 main_v89 (broadcastInDim S500000x1 ![0] bcast_S500000_S500000x1_0 : (⟨S500000, .i32⟩ : BufTy).Contents (Elt F) → (⟨S500000x1, .i32⟩ : BufTy).Contents (Elt F)),
    binary main_v48 main_v89 main_v90 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)) ]

/-- Stretch 1 of window 1: a stretch ends before each concatenation. -/
abbrev ops1_1 : List (HloOp τ sig (Elt F)) :=
  [ binary main_v90 main_v83 main_v91 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst_9 (constant S_ .f32 0x00000000#32),
    unary main_cst_9 main_v92 (broadcastInDim S100000x128 ![] bcast_S_S100000x128 : (⟨S_, .f32⟩ : BufTy).Contents (Elt F) → (⟨S100000x128, .f32⟩ : BufTy).Contents (Elt F)),
    unary main_v27 main_v93 (broadcastInDim S500000x1 ![0] bcast_S500000_S500000x1_0 : (⟨S500000, .i32⟩ : BufTy).Contents (Elt F) → (⟨S500000x1, .i32⟩ : BufTy).Contents (Elt F)),
    ternary main_v92 main_v93 main_v91 main_v94 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)) ]

/-- Stretch 2 of window 1: a stretch ends before each concatenation. -/
abbrev ops1_2 : List (HloOp τ sig (Elt F)) :=
  [ binary main_v48 main_v94 main_v95 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    unary main_v19 main_v96 ((transpose S192x64 [1, 0] · transposes_S64x192_S192x64_1_0) : (⟨S64x192, .f32⟩ : BufTy).Contents (Elt F) → (⟨S192x64, .f32⟩ : BufTy).Contents (Elt F)),
    binary main_v95 main_v96 main_v97 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_v21 main_v98 (broadcastInDim S1x64 ![1] bcast_S64_S1x64_1 : (⟨S64, .f32⟩ : BufTy).Contents (Elt F) → (⟨S1x64, .f32⟩ : BufTy).Contents (Elt F)),
    unary main_v98 main_v99 (broadcastInDim S100000x64 ![0, 1] bcast_S1x64_S100000x64_0_1 : (⟨S1x64, .f32⟩ : BufTy).Contents (Elt F) → (⟨S100000x64, .f32⟩ : BufTy).Contents (Elt F)),
    binary main_v97 main_v99 main_v100 (addf : (⟨S100000x64, .f32⟩ : BufTy).Contents (Elt F) → (⟨S100000x64, .f32⟩ : BufTy).Contents (Elt F) → (⟨S100000x64, .f32⟩ : BufTy).Contents (Elt F)),
    unary main_v23 main_v101 (broadcastInDim S1x64 ![1] bcast_S64_S1x64_1 : (⟨S64, .f32⟩ : BufTy).Contents (Elt F) → (⟨S1x64, .f32⟩ : BufTy).Contents (Elt F)),
    unary main_v101 main_v102 (broadcastInDim S100000x64 ![0, 1] bcast_S1x64_S100000x64_0_1 : (⟨S1x64, .f32⟩ : BufTy).Contents (Elt F) → (⟨S100000x64, .f32⟩ : BufTy).Contents (Elt F)),
    binary main_v100 main_v102 main_v103 (addf : (⟨S100000x64, .f32⟩ : BufTy).Contents (Elt F) → (⟨S100000x64, .f32⟩ : BufTy).Contents (Elt F) → (⟨S100000x64, .f32⟩ : BufTy).Contents (Elt F)),
    unary main_arg1 main_v104 ((extractStridedSlice S1x2x500000 ![1, 0, 0] · slices_S4x2x500000_S1x2x500000_1_0_0) : (⟨S4x2x500000, .i32⟩ : BufTy).Contents (Elt F) → (⟨S1x2x500000, .i32⟩ : BufTy).Contents (Elt F)),
    reshape main_v104 main_v105 rfl shapeCasts_S1x2x500000_S2x500000,
    unary main_arg2 main_v106 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v106 main_v107 rfl shapeCasts_S1x64x64_S64x64 ]

set_option maxRecDepth 8192 in
theorem ops1_split : (ops1 : List (HloOp τ sig (Elt F))) = ops1_0 ++ (ops1_1 ++ (ops1_2)) := rfl

/-- The buffers that stretch 0 writes. -/
abbrev ops1_0_W : List (Ref sig .tc) := [main_v55, main_v56, main_cst_3, main_v57, main_v58, main_v59, main_v60, main_v61, main_cst_4, main_v62, main_v63, main_cst_5, main_v64, main_v65, main_v66, main_v67, main_cst_6, main_v68, main_v69, main_v70, main_v71, main_v72, main_v73, main_v74, main_v75, main_v76, main_v77, main_v78, main_v79, main_v80, main_v81, main_v82, main_v83, main_c_7, main_v84, main_v85, main_c_8, main_v86, main_v87, main_v88, main_v89, main_v90]
set_option maxRecDepth 8192 in
set_option maxHeartbeats 2000000 in
theorem ops1_0_writes : (ops1_0 : List (HloOp τ sig (Elt F))).Forall fun op => op.writes ⊆ (ops1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops1_0_keep (W : Valuation τ sig (Elt F)) (r : Ref sig .tc) (h : r ∉ ops1_0_W) :
    after ops1_0 W (Proc.devRef .tc r) = W (Proc.devRef .tc r) :=
  after_of_writes_sub ops1_0 _ ops1_0_writes h

/-- The buffers that stretch 1 writes. -/
abbrev ops1_1_W : List (Ref sig .tc) := [main_v91, main_cst_9, main_v92, main_v93, main_v94]
set_option maxRecDepth 8192 in
set_option maxHeartbeats 2000000 in
theorem ops1_1_writes : (ops1_1 : List (HloOp τ sig (Elt F))).Forall fun op => op.writes ⊆ (ops1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops1_1_keep (W : Valuation τ sig (Elt F)) (r : Ref sig .tc) (h : r ∉ ops1_1_W) :
    after ops1_1 W (Proc.devRef .tc r) = W (Proc.devRef .tc r) :=
  after_of_writes_sub ops1_1 _ ops1_1_writes h

/-- The buffers that stretch 2 writes. -/
abbrev ops1_2_W : List (Ref sig .tc) := [main_v95, main_v96, main_v97, main_v98, main_v99, main_v100, main_v101, main_v102, main_v103, main_v104, main_v105, main_v106, main_v107]
set_option maxRecDepth 8192 in
set_option maxHeartbeats 2000000 in
theorem ops1_2_writes : (ops1_2 : List (HloOp τ sig (Elt F))).Forall fun op => op.writes ⊆ (ops1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops1_2_keep (W : Valuation τ sig (Elt F)) (r : Ref sig .tc) (h : r ∉ ops1_2_W) :
    after ops1_2 W (Proc.devRef .tc r) = W (Proc.devRef .tc r) :=
  after_of_writes_sub ops1_2 _ ops1_2_writes h

set_option maxRecDepth 8192 in
set_option maxHeartbeats 2000000 in
theorem sub1_0_main_v83 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v17 : W (no_index (Proc.devRef .tc main_v17)) = val_main_v17 (F := F) x9)
    (h_main_v15 : W (no_index (Proc.devRef .tc main_v15)) = val_main_v15 (F := F) x8)
    (h_main_v13 : W (no_index (Proc.devRef .tc main_v13)) = val_main_v13 (F := F) x7)
    (h_main_v11 : W (no_index (Proc.devRef .tc main_v11)) = val_main_v11 (F := F) x6)
    (h_main_cst : W (no_index (Proc.devRef .tc main_cst)) = val_main_cst (F := F))
    (h_main_v54 : W (no_index (Proc.devRef .tc main_v54)) = val_main_v54 (F := F) x0 x1 x4 x5) :
    after ops1_0 W (Proc.devRef .tc main_v83) = val_main_v83 (F := F) x0 x1 x4 x5 x6 x7 x8 x9 := by
  simp only [ops1_0]
  after_results_simp
  rw [h_main_v17, h_main_v15, h_main_v13, h_main_v11, h_main_cst, h_main_v54] <;> rfl

set_option maxRecDepth 8192 in
set_option maxHeartbeats 2000000 in
theorem sub1_0_main_v90 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v25 : W (no_index (Proc.devRef .tc main_v25)) = val_main_v25 (F := F) x1)
    (h_main_v48 : W (no_index (Proc.devRef .tc main_v48)) = val_main_v48 (F := F) x0 x2 x3) :
    after ops1_0 W (Proc.devRef .tc main_v90) = val_main_v90 (F := F) x0 x1 x2 x3 := by
  simp only [ops1_0]
  after_results_simp
  rw [h_main_v25, h_main_v48] <;> rfl

set_option maxRecDepth 8192 in
set_option maxHeartbeats 2000000 in
theorem sub1_1_main_v94 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v83 : W (no_index (Proc.devRef .tc main_v83)) = val_main_v83 (F := F) x0 x1 x4 x5 x6 x7 x8 x9)
    (h_main_v90 : W (no_index (Proc.devRef .tc main_v90)) = val_main_v90 (F := F) x0 x1 x2 x3)
    (h_main_v27 : W (no_index (Proc.devRef .tc main_v27)) = val_main_v27 (F := F) x1) :
    after ops1_1 W (Proc.devRef .tc main_v94) = val_main_v94 (F := F) x0 x1 x2 x3 x4 x5 x6 x7 x8 x9 := by
  simp only [ops1_1]
  after_results_simp
  rw [h_main_v83, h_main_v90, h_main_v27] <;> rfl

set_option maxRecDepth 8192 in
set_option maxHeartbeats 2000000 in
theorem sub1_2_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v23 : W (no_index (Proc.devRef .tc main_v23)) = val_main_v23 (F := F) x12)
    (h_main_v21 : W (no_index (Proc.devRef .tc main_v21)) = val_main_v21 (F := F) x11)
    (h_main_v19 : W (no_index (Proc.devRef .tc main_v19)) = val_main_v19 (F := F) x10)
    (h_main_v94 : W (no_index (Proc.devRef .tc main_v94)) = val_main_v94 (F := F) x0 x1 x2 x3 x4 x5 x6 x7 x8 x9)
    (h_main_v48 : W (no_index (Proc.devRef .tc main_v48)) = val_main_v48 (F := F) x0 x2 x3) :
    after ops1_2 W (Proc.devRef .tc main_v103) = val_main_v103 (F := F) x0 x1 x2 x3 x4 x5 x6 x7 x8 x9 x10 x11 x12 := by
  simp only [ops1_2]
  after_results_simp
  rw [h_main_v23, h_main_v21, h_main_v19, h_main_v94, h_main_v48] <;> rfl

set_option maxRecDepth 8192 in
set_option maxHeartbeats 2000000 in
theorem sub1_2_main_v105 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg1 : W (no_index (Proc.devRef .tc main_arg1)) = x1) :
    after ops1_2 W (Proc.devRef .tc main_v105) = val_main_v105 (F := F) x1 := by
  simp only [ops1_2]
  after_results_simp
  rw [h_main_arg1] <;> rfl

set_option maxRecDepth 8192 in
set_option maxHeartbeats 2000000 in
theorem sub1_2_main_v107 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg2 : W (no_index (Proc.devRef .tc main_arg2)) = x2) :
    after ops1_2 W (Proc.devRef .tc main_v107) = val_main_v107 (F := F) x2 := by
  simp only [ops1_2]
  after_results_simp
  rw [h_main_arg2] <;> rfl
theorem w1_1_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg0) = x0 :=
  (ops1_0_keep W main_arg0 (by decide)).trans h_main_arg0
theorem w1_1_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg1) = x1 :=
  (ops1_0_keep W main_arg1 (by decide)).trans h_main_arg1
theorem w1_1_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg2) = x2 :=
  (ops1_0_keep W main_arg2 (by decide)).trans h_main_arg2
theorem w1_1_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg3) = x3 :=
  (ops1_0_keep W main_arg3 (by decide)).trans h_main_arg3
theorem w1_1_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg4) = x4 :=
  (ops1_0_keep W main_arg4 (by decide)).trans h_main_arg4
theorem w1_1_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg5) = x5 :=
  (ops1_0_keep W main_arg5 (by decide)).trans h_main_arg5
theorem w1_1_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg6) = x6 :=
  (ops1_0_keep W main_arg6 (by decide)).trans h_main_arg6
theorem w1_1_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg7) = x7 :=
  (ops1_0_keep W main_arg7 (by decide)).trans h_main_arg7
theorem w1_1_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg8) = x8 :=
  (ops1_0_keep W main_arg8 (by decide)).trans h_main_arg8
theorem w1_1_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg9) = x9 :=
  (ops1_0_keep W main_arg9 (by decide)).trans h_main_arg9
theorem w1_1_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg10) = x10 :=
  (ops1_0_keep W main_arg10 (by decide)).trans h_main_arg10
theorem w1_1_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg11) = x11 :=
  (ops1_0_keep W main_arg11 (by decide)).trans h_main_arg11
theorem w1_1_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_arg12) = x12 :=
  (ops1_0_keep W main_arg12 (by decide)).trans h_main_arg12
theorem w1_1_main_v19 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_v19) = val_main_v19 (F := F) x10 :=
  (ops1_0_keep W main_v19 (by decide)).trans h_main_v19
theorem w1_1_main_v21 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_v21) = val_main_v21 (F := F) x11 :=
  (ops1_0_keep W main_v21 (by decide)).trans h_main_v21
theorem w1_1_main_v23 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_v23) = val_main_v23 (F := F) x12 :=
  (ops1_0_keep W main_v23 (by decide)).trans h_main_v23
theorem w1_1_main_v27 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_v27) = val_main_v27 (F := F) x1 :=
  (ops1_0_keep W main_v27 (by decide)).trans h_main_v27
theorem w1_1_main_v48 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_v48) = val_main_v48 (F := F) x0 x2 x3 :=
  (ops1_0_keep W main_v48 (by decide)).trans h_main_v48
theorem w1_1_main_v83 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_v83) = val_main_v83 (F := F) x0 x1 x4 x5 x6 x7 x8 x9 :=
  sub1_0_main_v83 W x0 x1 x2 x3 x4 x5 x6 x7 x8 x9 x10 x11 x12 h_main_v17 h_main_v15 h_main_v13 h_main_v11 h_main_cst h_main_v54
theorem w1_1_main_v90 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_0 W) (Proc.devRef .tc main_v90) = val_main_v90 (F := F) x0 x1 x2 x3 :=
  sub1_0_main_v90 W x0 x1 x2 x3 x4 x5 x6 x7 x8 x9 x10 x11 x12 h_main_v25 h_main_v48
theorem w1_2_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg0) = x0 :=
  (ops1_1_keep (after ops1_0 W) main_arg0 (by decide)).trans (w1_1_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg1) = x1 :=
  (ops1_1_keep (after ops1_0 W) main_arg1 (by decide)).trans (w1_1_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg2) = x2 :=
  (ops1_1_keep (after ops1_0 W) main_arg2 (by decide)).trans (w1_1_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg3) = x3 :=
  (ops1_1_keep (after ops1_0 W) main_arg3 (by decide)).trans (w1_1_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg4) = x4 :=
  (ops1_1_keep (after ops1_0 W) main_arg4 (by decide)).trans (w1_1_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg5) = x5 :=
  (ops1_1_keep (after ops1_0 W) main_arg5 (by decide)).trans (w1_1_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg6) = x6 :=
  (ops1_1_keep (after ops1_0 W) main_arg6 (by decide)).trans (w1_1_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg7) = x7 :=
  (ops1_1_keep (after ops1_0 W) main_arg7 (by decide)).trans (w1_1_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg8) = x8 :=
  (ops1_1_keep (after ops1_0 W) main_arg8 (by decide)).trans (w1_1_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg9) = x9 :=
  (ops1_1_keep (after ops1_0 W) main_arg9 (by decide)).trans (w1_1_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg10) = x10 :=
  (ops1_1_keep (after ops1_0 W) main_arg10 (by decide)).trans (w1_1_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg11) = x11 :=
  (ops1_1_keep (after ops1_0 W) main_arg11 (by decide)).trans (w1_1_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_arg12) = x12 :=
  (ops1_1_keep (after ops1_0 W) main_arg12 (by decide)).trans (w1_1_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_v19 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_v19) = val_main_v19 (F := F) x10 :=
  (ops1_1_keep (after ops1_0 W) main_v19 (by decide)).trans (w1_1_main_v19 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_v21 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_v21) = val_main_v21 (F := F) x11 :=
  (ops1_1_keep (after ops1_0 W) main_v21 (by decide)).trans (w1_1_main_v21 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_v23 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_v23) = val_main_v23 (F := F) x12 :=
  (ops1_1_keep (after ops1_0 W) main_v23 (by decide)).trans (w1_1_main_v23 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_v48 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_v48) = val_main_v48 (F := F) x0 x2 x3 :=
  (ops1_1_keep (after ops1_0 W) main_v48 (by decide)).trans (w1_1_main_v48 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_2_main_v94 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_1 (after ops1_0 W)) (Proc.devRef .tc main_v94) = val_main_v94 (F := F) x0 x1 x2 x3 x4 x5 x6 x7 x8 x9 :=
  sub1_1_main_v94 (after ops1_0 W) x0 x1 x2 x3 x4 x5 x6 x7 x8 x9 x10 x11 x12 (w1_1_main_v83 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst) (w1_1_main_v90 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst) (w1_1_main_v27 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg0) = x0 :=
  (ops1_2_keep (after ops1_1 (after ops1_0 W)) main_arg0 (by decide)).trans (w1_2_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg1) = x1 :=
  (ops1_2_keep (after ops1_1 (after ops1_0 W)) main_arg1 (by decide)).trans (w1_2_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg2) = x2 :=
  (ops1_2_keep (after ops1_1 (after ops1_0 W)) main_arg2 (by decide)).trans (w1_2_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg3) = x3 :=
  (ops1_2_keep (after ops1_1 (after ops1_0 W)) main_arg3 (by decide)).trans (w1_2_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg4) = x4 :=
  (ops1_2_keep (after ops1_1 (after ops1_0 W)) main_arg4 (by decide)).trans (w1_2_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg5) = x5 :=
  (ops1_2_keep (after ops1_1 (after ops1_0 W)) main_arg5 (by decide)).trans (w1_2_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg6) = x6 :=
  (ops1_2_keep (after ops1_1 (after ops1_0 W)) main_arg6 (by decide)).trans (w1_2_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg7) = x7 :=
  (ops1_2_keep (after ops1_1 (after ops1_0 W)) main_arg7 (by decide)).trans (w1_2_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg8) = x8 :=
  (ops1_2_keep (after ops1_1 (after ops1_0 W)) main_arg8 (by decide)).trans (w1_2_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg9) = x9 :=
  (ops1_2_keep (after ops1_1 (after ops1_0 W)) main_arg9 (by decide)).trans (w1_2_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg10) = x10 :=
  (ops1_2_keep (after ops1_1 (after ops1_0 W)) main_arg10 (by decide)).trans (w1_2_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg11) = x11 :=
  (ops1_2_keep (after ops1_1 (after ops1_0 W)) main_arg11 (by decide)).trans (w1_2_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_arg12) = x12 :=
  (ops1_2_keep (after ops1_1 (after ops1_0 W)) main_arg12 (by decide)).trans (w1_2_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_v103) = val_main_v103 (F := F) x0 x1 x2 x3 x4 x5 x6 x7 x8 x9 x10 x11 x12 :=
  sub1_2_main_v103 (after ops1_1 (after ops1_0 W)) x0 x1 x2 x3 x4 x5 x6 x7 x8 x9 x10 x11 x12 (w1_2_main_v23 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst) (w1_2_main_v21 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst) (w1_2_main_v19 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst) (w1_2_main_v94 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst) (w1_2_main_v48 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_v105 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_v105) = val_main_v105 (F := F) x1 :=
  sub1_2_main_v105 (after ops1_1 (after ops1_0 W)) x0 x1 x2 x3 x4 x5 x6 x7 x8 x9 x10 x11 x12 (w1_2_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)
theorem w1_3_main_v107 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    (after ops1_2 (after ops1_1 (after ops1_0 W))) (Proc.devRef .tc main_v107) = val_main_v107 (F := F) x2 :=
  sub1_2_main_v107 (after ops1_1 (after ops1_0 W)) x0 x1 x2 x3 x4 x5 x6 x7 x8 x9 x10 x11 x12 (w1_2_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst)

theorem win1_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    after ops1 W (Proc.devRef .tc main_v103) = val_main_v103 (F := F) x0 x1 x2 x3 x4 x5 x6 x7 x8 x9 x10 x11 x12 := by
  rw [ops1_split]
  simp only [after_append]
  exact w1_3_main_v103 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst

theorem win1_main_v105 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    after ops1 W (Proc.devRef .tc main_v105) = val_main_v105 (F := F) x1 := by
  rw [ops1_split]
  simp only [after_append]
  exact w1_3_main_v105 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst

theorem win1_main_v107 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v11 : W (no_index (Proc.devRef .tc main_v11)) = val_main_v11 (F := F) x6)
    (h_main_v13 : W (no_index (Proc.devRef .tc main_v13)) = val_main_v13 (F := F) x7)
    (h_main_v15 : W (no_index (Proc.devRef .tc main_v15)) = val_main_v15 (F := F) x8)
    (h_main_v17 : W (no_index (Proc.devRef .tc main_v17)) = val_main_v17 (F := F) x9)
    (h_main_v19 : W (no_index (Proc.devRef .tc main_v19)) = val_main_v19 (F := F) x10)
    (h_main_v21 : W (no_index (Proc.devRef .tc main_v21)) = val_main_v21 (F := F) x11)
    (h_main_v23 : W (no_index (Proc.devRef .tc main_v23)) = val_main_v23 (F := F) x12)
    (h_main_v25 : W (no_index (Proc.devRef .tc main_v25)) = val_main_v25 (F := F) x1)
    (h_main_v27 : W (no_index (Proc.devRef .tc main_v27)) = val_main_v27 (F := F) x1)
    (h_main_v48 : W (no_index (Proc.devRef .tc main_v48)) = val_main_v48 (F := F) x0 x2 x3)
    (h_main_v54 : W (no_index (Proc.devRef .tc main_v54)) = val_main_v54 (F := F) x0 x1 x4 x5)
    (h_main_cst : W (no_index (Proc.devRef .tc main_cst)) = val_main_cst (F := F)) :
    after ops1 W (Proc.devRef .tc main_v107) = val_main_v107 (F := F) x2 := by
  rw [ops1_split]
  simp only [after_append]
  exact w1_3_main_v107 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v11 h_main_v13 h_main_v15 h_main_v17 h_main_v19 h_main_v21 h_main_v23 h_main_v25 h_main_v27 h_main_v48 h_main_v54 h_main_cst

end Cert.ReferenceIdeal.RefRun

end
-- ==== Proof.RefWin2.lean ====
/- Window 2 of the reference program, read through: from any contents in which the buffers the window reads hold the
  stage values of the program's arguments, each buffer that later windows read holds its stage value after the window.
-/
import proofs.«410647_j53395033423884_2_alg».proof.Proof.RefStages
import proofs.«410647_j53395033423884_2_alg».proof.Proof.RefOps

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 2000000 in
theorem win2_main_v115 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v115) = val_main_v115 (F := F) x6 := by
  simp only [ops2]
  after_results_simp
  rw [h_main_arg6] <;> rfl

set_option maxRecDepth 8192 in
set_option maxHeartbeats 2000000 in
theorem win2_main_v117 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v117) = val_main_v117 (F := F) x7 := by
  simp only [ops2]
  after_results_simp
  rw [h_main_arg7] <;> rfl

set_option maxRecDepth 8192 in
set_option maxHeartbeats 2000000 in
theorem win2_main_v119 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v119) = val_main_v119 (F := F) x8 := by
  simp only [ops2]
  after_results_simp
  rw [h_main_arg8] <;> rfl

set_option maxRecDepth 8192 in
set_option maxHeartbeats 2000000 in
theorem win2_main_v121 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v121) = val_main_v121 (F := F) x9 := by
  simp only [ops2]
  after_results_simp
  rw [h_main_arg9] <;> rfl

set_option maxRecDepth 8192 in
set_option maxHeartbeats 2000000 in
theorem win2_main_v123 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v123) = val_main_v123 (F := F) x10 := by
  simp only [ops2]
  after_results_simp
  rw [h_main_arg10] <;> rfl

set_option maxRecDepth 8192 in
set_option maxHeartbeats 2000000 in
theorem win2_main_v125 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v125) = val_main_v125 (F := F) x11 := by
  simp only [ops2]
  after_results_simp
  rw [h_main_arg11] <;> rfl

set_option maxRecDepth 8192 in
set_option maxHeartbeats 2000000 in
theorem win2_main_v127 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v127) = val_main_v127 (F := F) x12 := by
  simp only [ops2]
  after_results_simp
  rw [h_main_arg12] <;> rfl

set_option maxRecDepth 8192 in
set_option maxHeartbeats 2000000 in
theorem win2_main_v129 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v129) = val_main_v129 (F := F) x1 := by
  simp only [ops2]
  after_results_simp
  rw [h_main_v105] <;> rfl

set_option maxRecDepth 8192 in
set_option maxHeartbeats 2000000 in
theorem win2_main_v131 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v131) = val_main_v131 (F := F) x1 := by
  simp only [ops2]
  after_results_simp
  rw [h_main_v105] <;> rfl

set_option maxRecDepth 8192 in
set_option maxHeartbeats 2000000 in
theorem win2_main_v152 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v152) = val_main_v152 (F := F) x0 x2 x3 := by
  simp only [ops2]
  after_results_simp
  rw [h_main_arg3, h_main_v107, h_main_arg0] <;> rfl

set_option maxRecDepth 8192 in
set_option maxHeartbeats 2000000 in
theorem win2_main_v158 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v158) = val_main_v158 (F := F) x0 x1 x4 x5 := by
  simp only [ops2]
  after_results_simp
  rw [h_main_arg5, h_main_arg4, h_main_v105, h_main_arg0] <;> rfl

set_option maxRecDepth 8192 in
set_option maxHeartbeats 2000000 in
theorem win2_main_v160 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v160) = val_main_v160 (F := F) x0 x1 x4 x5 := by
  simp only [ops2]
  after_results_simp
  rw [h_main_arg5, h_main_arg4, h_main_v105, h_main_arg0] <;> rfl

set_option maxRecDepth 8192 in
set_option maxHeartbeats 2000000 in
theorem win2_main_v161 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v105 : W (no_index (Proc.devRef .tc main_v105)) = val_main_v105 (F := F) x1)
    (h_main_v107 : W (no_index (Proc.devRef .tc main_v107)) = val_main_v107 (F := F) x2) :
    after ops2 W (Proc.devRef .tc main_v161) = val_main_v161 (F := F) := by
  simp only [ops2]
  after_results_simp
  all_goals rfl

end Cert.ReferenceIdeal.RefRun

end
-- ==== Proof.RefWin3.lean ====
/- Window 3 of the reference program, read through: from any contents in which the buffers the window reads hold the
  stage values of the program's arguments, each buffer that later windows read holds its stage value after the window.
-/
import proofs.«410647_j53395033423884_2_alg».proof.Proof.RefStages
import proofs.«410647_j53395033423884_2_alg».proof.Proof.RefOps

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Stretch 0 of window 3: a stretch ends before each concatenation. -/
abbrev ops3_0 : List (HloOp τ sig (Elt F)) :=
  [ binary main_v160 main_v161 main_v162 (Host.divf : (⟨S500000x1, .f32⟩ : BufTy).Contents (Elt F) → (⟨S500000x1, .f32⟩ : BufTy).Contents (Elt F) → (⟨S500000x1, .f32⟩ : BufTy).Contents (Elt F)),
    unary main_v162 main_v163 (broadcastInDim S500000x64 ![0, 1] bcast_S500000x1_S500000x64_0_1 : (⟨S500000x1, .f32⟩ : BufTy).Contents (Elt F) → (⟨S500000x64, .f32⟩ : BufTy).Contents (Elt F)),
    binary main_v158 main_v163 main_v164 (subf : (⟨S500000x64, .f32⟩ : BufTy).Contents (Elt F) → (⟨S500000x64, .f32⟩ : BufTy).Contents (Elt F) → (⟨S500000x64, .f32⟩ : BufTy).Contents (Elt F)),
    binary main_v164 main_v164 main_v165 (mulf : (⟨S500000x64, .f32⟩ : BufTy).Contents (Elt F) → (⟨S500000x64, .f32⟩ : BufTy).Contents (Elt F) → (⟨S500000x64, .f32⟩ : BufTy).Contents (Elt F)),
    nullary main_cst_16 (constant S_ .f32 0x00000000#32),
    binary main_v165 main_cst_16 main_v166 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v166 main_v167 (broadcastInDim S500000x1 ![0] bcast_S500000_S500000x1_0 : (⟨S500000, .f32⟩ : BufTy).Contents (Elt F) → (⟨S500000x1, .f32⟩ : BufTy).Contents (Elt F)),
    nullary main_cst_17 (constant S_ .f32 0x42800000#32),
    unary main_cst_17 main_v168 (broadcastInDim S500000x1 ![] bcast_S_S500000x1 : (⟨S_, .f32⟩ : BufTy).Contents (Elt F) → (⟨S500000x1, .f32⟩ : BufTy).Contents (Elt F)),
    binary main_v167 main_v168 main_v169 (Host.divf : (⟨S500000x1, .f32⟩ : BufTy).Contents (Elt F) → (⟨S500000x1, .f32⟩ : BufTy).Contents (Elt F) → (⟨S500000x1, .f32⟩ : BufTy).Contents (Elt F)),
    unary main_v162 main_v170 (broadcastInDim S500000x64 ![0, 1] bcast_S500000x1_S500000x64_0_1 : (⟨S500000x1, .f32⟩ : BufTy).Contents (Elt F) → (⟨S500000x64, .f32⟩ : BufTy).Contents (Elt F)),
    binary main_v158 main_v170 main_v171 (subf : (⟨S500000x64, .f32⟩ : BufTy).Contents (Elt F) → (⟨S500000x64, .f32⟩ : BufTy).Contents (Elt F) → (⟨S500000x64, .f32⟩ : BufTy).Contents (Elt F)),
    nullary main_cst_18 (constant S_ .f32 0x3727C5AC#32),
    unary main_cst_18 main_v172 (broadcastInDim S500000x1 ![] bcast_S_S500000x1 : (⟨S_, .f32⟩ : BufTy).Contents (Elt F) → (⟨S500000x1, .f32⟩ : BufTy).Contents (Elt F)),
    binary main_v169 main_v172 main_v173 (addf : (⟨S500000x1, .f32⟩ : BufTy).Contents (Elt F) → (⟨S500000x1, .f32⟩ : BufTy).Contents (Elt F) → (⟨S500000x1, .f32⟩ : BufTy).Contents (Elt F)),
    unary main_v173 main_v174 (Host.rsqrt : (⟨S500000x1, .f32⟩ : BufTy).Contents (Elt F) → (⟨S500000x1, .f32⟩ : BufTy).Contents (Elt F)),
    unary main_v174 main_v175 (broadcastInDim S500000x64 ![0, 1] bcast_S500000x1_S500000x64_0_1 : (⟨S500000x1, .f32⟩ : BufTy).Contents (Elt F) → (⟨S500000x64, .f32⟩ : BufTy).Contents (Elt F)),
    binary main_v171 main_v175 main_v176 (mulf : (⟨S500000x64, .f32⟩ : BufTy).Contents (Elt F) → (⟨S500000x64, .f32⟩ : BufTy).Contents (Elt F) → (⟨S500000x64, .f32⟩ : BufTy).Contents (Elt F)),
    unary main_v115 main_v177 (broadcastInDim S1x64 ![1] bcast_S64_S1x64_1 : (⟨S64, .f32⟩ : BufTy).Contents (Elt F) → (⟨S1x64, .f32⟩ : BufTy).Contents (Elt F)),
    unary main_v177 main_v178 (broadcastInDim S500000x64 ![0, 1] bcast_S1x64_S500000x64_0_1 : (⟨S1x64, .f32⟩ : BufTy).Contents (Elt F) → (⟨S500000x64, .f32⟩ : BufTy).Contents (Elt F)),
    binary main_v176 main_v178 main_v179 (mulf : (⟨S500000x64, .f32⟩ : BufTy).Contents (Elt F) → (⟨S500000x64, .f32⟩ : BufTy).Contents (Elt F) → (⟨S500000x64, .f32⟩ : BufTy).Contents (Elt F)),
    unary main_v117 main_v180 (broadcastInDim S1x64 ![1] bcast_S64_S1x64_1 : (⟨S64, .f32⟩ : BufTy).Contents (Elt F) → (⟨S1x64, .f32⟩ : BufTy).Contents (Elt F)),
    unary main_v180 main_v181 (broadcastInDim S500000x64 ![0, 1] bcast_S1x64_S500000x64_0_1 : (⟨S1x64, .f32⟩ : BufTy).Contents (Elt F) → (⟨S500000x64, .f32⟩ : BufTy).Contents (Elt F)),
    binary main_v179 main_v181 main_v182 (addf : (⟨S500000x64, .f32⟩ : BufTy).Contents (Elt F) → (⟨S500000x64, .f32⟩ : BufTy).Contents (Elt F) → (⟨S500000x64, .f32⟩ : BufTy).Contents (Elt F)),
    unary main_v119 main_v183 ((transpose S64x64 [1, 0] · transposes_S64x64_S64x64_1_0) : (⟨S64x64, .f32⟩ : BufTy).Contents (Elt F) → (⟨S64x64, .f32⟩ : BufTy).Contents (Elt F)),
    binary main_v182 main_v183 main_v184 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v121 main_v185 (broadcastInDim S1x64 ![1] bcast_S64_S1x64_1 : (⟨S64, .f32⟩ : BufTy).Contents (Elt F) → (⟨S1x64, .f32⟩ : BufTy).Contents (Elt F)),
    unary main_v185 main_v186 (broadcastInDim S500000x64 ![0, 1] bcast_S1x64_S500000x64_0_1 : (⟨S1x64, .f32⟩ : BufTy).Contents (Elt F) → (⟨S500000x64, .f32⟩ : BufTy).Contents (Elt F)),
    binary main_v184 main_v186 main_v187 (addf : (⟨S500000x64, .f32⟩ : BufTy).Contents (Elt F) → (⟨S500000x64, .f32⟩ : BufTy).Contents (Elt F) → (⟨S500000x64, .f32⟩ : BufTy).Contents (Elt F)),
    nullary main_c_19 (constantI S_ 32 0#32),
    unary main_c_19 main_v188 (broadcastInDim S500000 ![] bcast_S_S500000 : (⟨S_, .i32⟩ : BufTy).Contents (Elt F) → (⟨S500000, .i32⟩ : BufTy).Contents (Elt F)),
    binary main_v129 main_v188 main_v189 (cmpi .slt : (⟨S500000, .i32⟩ : BufTy).Contents (Elt F) → (⟨S500000, .i32⟩ : BufTy).Contents (Elt F) → (⟨S500000, .i1⟩ : BufTy).Contents (Elt F)),
    nullary main_c_20 (constantI S_ 32 100000#32),
    unary main_c_20 main_v190 (broadcastInDim S500000 ![] bcast_S_S500000 : (⟨S_, .i32⟩ : BufTy).Contents (Elt F) → (⟨S500000, .i32⟩ : BufTy).Contents (Elt F)),
    binary main_v129 main_v190 main_v191 (addi : (⟨S500000, .i32⟩ : BufTy).Contents (Elt F) → (⟨S500000, .i32⟩ : BufTy).Contents (Elt F) → (⟨S500000, .i32⟩ : BufTy).Contents (Elt F)),
    ternary main_v189 main_v191 main_v129 main_v192 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v192 main_v193 (broadcastInDim S500000x1 ![0] bcast_S500000_S500000x1_0 : (⟨S500000, .i32⟩ : BufTy).Contents (Elt F) → (⟨S500000x1, .i32⟩ : BufTy).Contents (Elt F)),
    binary main_v152 main_v193 main_v194 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)) ]

/-- Stretch 1 of window 3: a stretch ends before each concatenation. -/
abbrev ops3_1 : List (HloOp τ sig (Elt F)) :=
  [ binary main_v194 main_v187 main_v195 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst_21 (constant S_ .f32 0x00000000#32),
    unary main_cst_21 main_v196 (broadcastInDim S100000x128 ![] bcast_S_S100000x128 : (⟨S_, .f32⟩ : BufTy).Contents (Elt F) → (⟨S100000x128, .f32⟩ : BufTy).Contents (Elt F)),
    unary main_v131 main_v197 (broadcastInDim S500000x1 ![0] bcast_S500000_S500000x1_0 : (⟨S500000, .i32⟩ : BufTy).Contents (Elt F) → (⟨S500000x1, .i32⟩ : BufTy).Contents (Elt F)),
    ternary main_v196 main_v197 main_v195 main_v198 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)) ]

/-- Stretch 2 of window 3: a stretch ends before each concatenation. -/
abbrev ops3_2 : List (HloOp τ sig (Elt F)) :=
  [ binary main_v152 main_v198 main_v199 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    unary main_v123 main_v200 ((transpose S192x64 [1, 0] · transposes_S64x192_S192x64_1_0) : (⟨S64x192, .f32⟩ : BufTy).Contents (Elt F) → (⟨S192x64, .f32⟩ : BufTy).Contents (Elt F)),
    binary main_v199 main_v200 main_v201 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_v125 main_v202 (broadcastInDim S1x64 ![1] bcast_S64_S1x64_1 : (⟨S64, .f32⟩ : BufTy).Contents (Elt F) → (⟨S1x64, .f32⟩ : BufTy).Contents (Elt F)),
    unary main_v202 main_v203 (broadcastInDim S100000x64 ![0, 1] bcast_S1x64_S100000x64_0_1 : (⟨S1x64, .f32⟩ : BufTy).Contents (Elt F) → (⟨S100000x64, .f32⟩ : BufTy).Contents (Elt F)),
    binary main_v201 main_v203 main_v204 (addf : (⟨S100000x64, .f32⟩ : BufTy).Contents (Elt F) → (⟨S100000x64, .f32⟩ : BufTy).Contents (Elt F) → (⟨S100000x64, .f32⟩ : BufTy).Contents (Elt F)),
    unary main_v127 main_v205 (broadcastInDim S1x64 ![1] bcast_S64_S1x64_1 : (⟨S64, .f32⟩ : BufTy).Contents (Elt F) → (⟨S1x64, .f32⟩ : BufTy).Contents (Elt F)),
    unary main_v205 main_v206 (broadcastInDim S100000x64 ![0, 1] bcast_S1x64_S100000x64_0_1 : (⟨S1x64, .f32⟩ : BufTy).Contents (Elt F) → (⟨S100000x64, .f32⟩ : BufTy).Contents (Elt F)),
    binary main_v204 main_v206 main_v207 (addf : (⟨S100000x64, .f32⟩ : BufTy).Contents (Elt F) → (⟨S100000x64, .f32⟩ : BufTy).Contents (Elt F) → (⟨S100000x64, .f32⟩ : BufTy).Contents (Elt F)),
    unary main_arg1 main_v208 ((extractStridedSlice S1x2x500000 ![2, 0, 0] · slices_S4x2x500000_S1x2x500000_2_0_0) : (⟨S4x2x500000, .i32⟩ : BufTy).Contents (Elt F) → (⟨S1x2x500000, .i32⟩ : BufTy).Contents (Elt F)),
    reshape main_v208 main_v209 rfl shapeCasts_S1x2x500000_S2x500000,
    unary main_arg2 main_v210 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v210 main_v211 rfl shapeCasts_S1x64x64_S64x64,
    unary main_arg3 main_v212 ((extractStridedSlice S1x64 ![2, 0] · slices_S4x64_S1x64_2_0) : (⟨S4x64, .f32⟩ : BufTy).Contents (Elt F) → (⟨S1x64, .f32⟩ : BufTy).Contents (Elt F)),
    reshape main_v212 main_v213 rfl shapeCasts_S1x64_S64,
    unary main_arg4 main_v214 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v214 main_v215 rfl shapeCasts_S1x64x64_S64x64 ]

set_option maxRecDepth 8192 in
theorem ops3_split : (ops3 : List (HloOp τ sig (Elt F))) = ops3_0 ++ (ops3_1 ++ (ops3_2)) := rfl

/-- The buffers that stretch 0 writes. -/
abbrev ops3_0_W : List (Ref sig .tc) := [main_v162, main_v163, main_v164, main_v165, main_cst_16, main_v166, main_v167, main_cst_17, main_v168, main_v169, main_v170, main_v171, main_cst_18, main_v172, main_v173, main_v174, main_v175, main_v176, main_v177, main_v178, main_v179, main_v180, main_v181, main_v182, main_v183, main_v184, main_v185, main_v186, main_v187, main_c_19, main_v188, main_v189, main_c_20, main_v190, main_v191, main_v192, main_v193, main_v194]
set_option maxRecDepth 8192 in
set_option maxHeartbeats 2000000 in
theorem ops3_0_writes : (ops3_0 : List (HloOp τ sig (Elt F))).Forall fun op => op.writes ⊆ (ops3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops3_0_keep (W : Valuation τ sig (Elt F)) (r : Ref sig .tc) (h : r ∉ ops3_0_W) :
    after ops3_0 W (Proc.devRef .tc r) = W (Proc.devRef .tc r) :=
  after_of_writes_sub ops3_0 _ ops3_0_writes h

/-- The buffers that stretch 1 writes. -/
abbrev ops3_1_W : List (Ref sig .tc) := [main_v195, main_cst_21, main_v196, main_v197, main_v198]
set_option maxRecDepth 8192 in
set_option maxHeartbeats 2000000 in
theorem ops3_1_writes : (ops3_1 : List (HloOp τ sig (Elt F))).Forall fun op => op.writes ⊆ (ops3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops3_1_keep (W : Valuation τ sig (Elt F)) (r : Ref sig .tc) (h : r ∉ ops3_1_W) :
    after ops3_1 W (Proc.devRef .tc r) = W (Proc.devRef .tc r) :=
  after_of_writes_sub ops3_1 _ ops3_1_writes h

/-- The buffers that stretch 2 writes. -/
abbrev ops3_2_W : List (Ref sig .tc) := [main_v199, main_v200, main_v201, main_v202, main_v203, main_v204, main_v205, main_v206, main_v207, main_v208, main_v209, main_v210, main_v211, main_v212, main_v213, main_v214, main_v215]
set_option maxRecDepth 8192 in
set_option maxHeartbeats 2000000 in
theorem ops3_2_writes : (ops3_2 : List (HloOp τ sig (Elt F))).Forall fun op => op.writes ⊆ (ops3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops3_2_keep (W : Valuation τ sig (Elt F)) (r : Ref sig .tc) (h : r ∉ ops3_2_W) :
    after ops3_2 W (Proc.devRef .tc r) = W (Proc.devRef .tc r) :=
  after_of_writes_sub ops3_2 _ ops3_2_writes h

set_option maxRecDepth 8192 in
set_option maxHeartbeats 2000000 in
theorem sub3_0_main_v187 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v121 : W (no_index (Proc.devRef .tc main_v121)) = val_main_v121 (F := F) x9)
    (h_main_v119 : W (no_index (Proc.devRef .tc main_v119)) = val_main_v119 (F := F) x8)
    (h_main_v117 : W (no_index (Proc.devRef .tc main_v117)) = val_main_v117 (F := F) x7)
    (h_main_v115 : W (no_index (Proc.devRef .tc main_v115)) = val_main_v115 (F := F) x6)
    (h_main_v161 : W (no_index (Proc.devRef .tc main_v161)) = val_main_v161 (F := F))
    (h_main_v160 : W (no_index (Proc.devRef .tc main_v160)) = val_main_v160 (F := F) x0 x1 x4 x5)
    (h_main_v158 : W (no_index (Proc.devRef .tc main_v158)) = val_main_v158 (F := F) x0 x1 x4 x5) :
    after ops3_0 W (Proc.devRef .tc main_v187) = val_main_v187 (F := F) x0 x1 x4 x5 x6 x7 x8 x9 := by
  simp only [ops3_0]
  after_results_simp
  rw [h_main_v121, h_main_v119, h_main_v117, h_main_v115, h_main_v161, h_main_v160, h_main_v158] <;> rfl

set_option maxRecDepth 8192 in
set_option maxHeartbeats 2000000 in
theorem sub3_0_main_v194 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v129 : W (no_index (Proc.devRef .tc main_v129)) = val_main_v129 (F := F) x1)
    (h_main_v152 : W (no_index (Proc.devRef .tc main_v152)) = val_main_v152 (F := F) x0 x2 x3) :
    after ops3_0 W (Proc.devRef .tc main_v194) = val_main_v194 (F := F) x0 x1 x2 x3 := by
  simp only [ops3_0]
  after_results_simp
  rw [h_main_v129, h_main_v152] <;> rfl

set_option maxRecDepth 8192 in
set_option maxHeartbeats 2000000 in
theorem sub3_1_main_v198 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v187 : W (no_index (Proc.devRef .tc main_v187)) = val_main_v187 (F := F) x0 x1 x4 x5 x6 x7 x8 x9)
    (h_main_v194 : W (no_index (Proc.devRef .tc main_v194)) = val_main_v194 (F := F) x0 x1 x2 x3)
    (h_main_v131 : W (no_index (Proc.devRef .tc main_v131)) = val_main_v131 (F := F) x1) :
    after ops3_1 W (Proc.devRef .tc main_v198) = val_main_v198 (F := F) x0 x1 x2 x3 x4 x5 x6 x7 x8 x9 := by
  simp only [ops3_1]
  after_results_simp
  rw [h_main_v187, h_main_v194, h_main_v131] <;> rfl

set_option maxRecDepth 8192 in
set_option maxHeartbeats 2000000 in
theorem sub3_2_main_v207 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v127 : W (no_index (Proc.devRef .tc main_v127)) = val_main_v127 (F := F) x12)
    (h_main_v125 : W (no_index (Proc.devRef .tc main_v125)) = val_main_v125 (F := F) x11)
    (h_main_v123 : W (no_index (Proc.devRef .tc main_v123)) = val_main_v123 (F := F) x10)
    (h_main_v198 : W (no_index (Proc.devRef .tc main_v198)) = val_main_v198 (F := F) x0 x1 x2 x3 x4 x5 x6 x7 x8 x9)
    (h_main_v152 : W (no_index (Proc.devRef .tc main_v152)) = val_main_v152 (F := F) x0 x2 x3) :
    after ops3_2 W (Proc.devRef .tc main_v207) = val_main_v207 (F := F) x0 x1 x2 x3 x4 x5 x6 x7 x8 x9 x10 x11 x12 := by
  simp only [ops3_2]
  after_results_simp
  rw [h_main_v127, h_main_v125, h_main_v123, h_main_v198, h_main_v152] <;> rfl

set_option maxRecDepth 8192 in
set_option maxHeartbeats 2000000 in
theorem sub3_2_main_v209 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg1 : W (no_index (Proc.devRef .tc main_arg1)) = x1) :
    after ops3_2 W (Proc.devRef .tc main_v209) = val_main_v209 (F := F) x1 := by
  simp only [ops3_2]
  after_results_simp
  rw [h_main_arg1] <;> rfl

set_option maxRecDepth 8192 in
set_option maxHeartbeats 2000000 in
theorem sub3_2_main_v211 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg2 : W (no_index (Proc.devRef .tc main_arg2)) = x2) :
    after ops3_2 W (Proc.devRef .tc main_v211) = val_main_v211 (F := F) x2 := by
  simp only [ops3_2]
  after_results_simp
  rw [h_main_arg2] <;> rfl

set_option maxRecDepth 8192 in
set_option maxHeartbeats 2000000 in
theorem sub3_2_main_v213 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg3 : W (no_index (Proc.devRef .tc main_arg3)) = x3) :
    after ops3_2 W (Proc.devRef .tc main_v213) = val_main_v213 (F := F) x3 := by
  simp only [ops3_2]
  after_results_simp
  rw [h_main_arg3] <;> rfl

set_option maxRecDepth 8192 in
set_option maxHeartbeats 2000000 in
theorem sub3_2_main_v215 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg4 : W (no_index (Proc.devRef .tc main_arg4)) = x4) :
    after ops3_2 W (Proc.devRef .tc main_v215) = val_main_v215 (F := F) x4 := by
  simp only [ops3_2]
  after_results_simp
  rw [h_main_arg4] <;> rfl
theorem w3_1_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg0) = x0 :=
  (ops3_0_keep W main_arg0 (by decide)).trans h_main_arg0
theorem w3_1_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg1) = x1 :=
  (ops3_0_keep W main_arg1 (by decide)).trans h_main_arg1
theorem w3_1_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg2) = x2 :=
  (ops3_0_keep W main_arg2 (by decide)).trans h_main_arg2
theorem w3_1_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg3) = x3 :=
  (ops3_0_keep W main_arg3 (by decide)).trans h_main_arg3
theorem w3_1_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg4) = x4 :=
  (ops3_0_keep W main_arg4 (by decide)).trans h_main_arg4
theorem w3_1_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg5) = x5 :=
  (ops3_0_keep W main_arg5 (by decide)).trans h_main_arg5
theorem w3_1_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg6) = x6 :=
  (ops3_0_keep W main_arg6 (by decide)).trans h_main_arg6
theorem w3_1_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg7) = x7 :=
  (ops3_0_keep W main_arg7 (by decide)).trans h_main_arg7
theorem w3_1_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg8) = x8 :=
  (ops3_0_keep W main_arg8 (by decide)).trans h_main_arg8
theorem w3_1_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg9) = x9 :=
  (ops3_0_keep W main_arg9 (by decide)).trans h_main_arg9
theorem w3_1_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg10) = x10 :=
  (ops3_0_keep W main_arg10 (by decide)).trans h_main_arg10
theorem w3_1_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg11) = x11 :=
  (ops3_0_keep W main_arg11 (by decide)).trans h_main_arg11
theorem w3_1_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_arg12) = x12 :=
  (ops3_0_keep W main_arg12 (by decide)).trans h_main_arg12
theorem w3_1_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_v103) = val_main_v103 (F := F) x0 x1 x2 x3 x4 x5 x6 x7 x8 x9 x10 x11 x12 :=
  (ops3_0_keep W main_v103 (by decide)).trans h_main_v103
theorem w3_1_main_v123 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_v123) = val_main_v123 (F := F) x10 :=
  (ops3_0_keep W main_v123 (by decide)).trans h_main_v123
theorem w3_1_main_v125 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_v125) = val_main_v125 (F := F) x11 :=
  (ops3_0_keep W main_v125 (by decide)).trans h_main_v125
theorem w3_1_main_v127 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_v127) = val_main_v127 (F := F) x12 :=
  (ops3_0_keep W main_v127 (by decide)).trans h_main_v127
theorem w3_1_main_v131 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_v131) = val_main_v131 (F := F) x1 :=
  (ops3_0_keep W main_v131 (by decide)).trans h_main_v131
theorem w3_1_main_v152 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_v152) = val_main_v152 (F := F) x0 x2 x3 :=
  (ops3_0_keep W main_v152 (by decide)).trans h_main_v152
theorem w3_1_main_v187 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_v187) = val_main_v187 (F := F) x0 x1 x4 x5 x6 x7 x8 x9 :=
  sub3_0_main_v187 W x0 x1 x2 x3 x4 x5 x6 x7 x8 x9 x10 x11 x12 h_main_v121 h_main_v119 h_main_v117 h_main_v115 h_main_v161 h_main_v160 h_main_v158
theorem w3_1_main_v194 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_0 W) (Proc.devRef .tc main_v194) = val_main_v194 (F := F) x0 x1 x2 x3 :=
  sub3_0_main_v194 W x0 x1 x2 x3 x4 x5 x6 x7 x8 x9 x10 x11 x12 h_main_v129 h_main_v152
theorem w3_2_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg0) = x0 :=
  (ops3_1_keep (after ops3_0 W) main_arg0 (by decide)).trans (w3_1_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg1) = x1 :=
  (ops3_1_keep (after ops3_0 W) main_arg1 (by decide)).trans (w3_1_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg2) = x2 :=
  (ops3_1_keep (after ops3_0 W) main_arg2 (by decide)).trans (w3_1_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg3) = x3 :=
  (ops3_1_keep (after ops3_0 W) main_arg3 (by decide)).trans (w3_1_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg4) = x4 :=
  (ops3_1_keep (after ops3_0 W) main_arg4 (by decide)).trans (w3_1_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg5) = x5 :=
  (ops3_1_keep (after ops3_0 W) main_arg5 (by decide)).trans (w3_1_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg6) = x6 :=
  (ops3_1_keep (after ops3_0 W) main_arg6 (by decide)).trans (w3_1_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg7) = x7 :=
  (ops3_1_keep (after ops3_0 W) main_arg7 (by decide)).trans (w3_1_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg8) = x8 :=
  (ops3_1_keep (after ops3_0 W) main_arg8 (by decide)).trans (w3_1_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg9) = x9 :=
  (ops3_1_keep (after ops3_0 W) main_arg9 (by decide)).trans (w3_1_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg10) = x10 :=
  (ops3_1_keep (after ops3_0 W) main_arg10 (by decide)).trans (w3_1_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg11) = x11 :=
  (ops3_1_keep (after ops3_0 W) main_arg11 (by decide)).trans (w3_1_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_arg12) = x12 :=
  (ops3_1_keep (after ops3_0 W) main_arg12 (by decide)).trans (w3_1_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_v103) = val_main_v103 (F := F) x0 x1 x2 x3 x4 x5 x6 x7 x8 x9 x10 x11 x12 :=
  (ops3_1_keep (after ops3_0 W) main_v103 (by decide)).trans (w3_1_main_v103 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_v123 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_v123) = val_main_v123 (F := F) x10 :=
  (ops3_1_keep (after ops3_0 W) main_v123 (by decide)).trans (w3_1_main_v123 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_v125 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_v125) = val_main_v125 (F := F) x11 :=
  (ops3_1_keep (after ops3_0 W) main_v125 (by decide)).trans (w3_1_main_v125 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_v127 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_v127) = val_main_v127 (F := F) x12 :=
  (ops3_1_keep (after ops3_0 W) main_v127 (by decide)).trans (w3_1_main_v127 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_v152 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_v152) = val_main_v152 (F := F) x0 x2 x3 :=
  (ops3_1_keep (after ops3_0 W) main_v152 (by decide)).trans (w3_1_main_v152 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_2_main_v198 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_1 (after ops3_0 W)) (Proc.devRef .tc main_v198) = val_main_v198 (F := F) x0 x1 x2 x3 x4 x5 x6 x7 x8 x9 :=
  sub3_1_main_v198 (after ops3_0 W) x0 x1 x2 x3 x4 x5 x6 x7 x8 x9 x10 x11 x12 (w3_1_main_v187 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161) (w3_1_main_v194 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161) (w3_1_main_v131 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg0) = x0 :=
  (ops3_2_keep (after ops3_1 (after ops3_0 W)) main_arg0 (by decide)).trans (w3_2_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg1) = x1 :=
  (ops3_2_keep (after ops3_1 (after ops3_0 W)) main_arg1 (by decide)).trans (w3_2_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg2) = x2 :=
  (ops3_2_keep (after ops3_1 (after ops3_0 W)) main_arg2 (by decide)).trans (w3_2_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg3) = x3 :=
  (ops3_2_keep (after ops3_1 (after ops3_0 W)) main_arg3 (by decide)).trans (w3_2_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg4) = x4 :=
  (ops3_2_keep (after ops3_1 (after ops3_0 W)) main_arg4 (by decide)).trans (w3_2_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg5) = x5 :=
  (ops3_2_keep (after ops3_1 (after ops3_0 W)) main_arg5 (by decide)).trans (w3_2_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg6) = x6 :=
  (ops3_2_keep (after ops3_1 (after ops3_0 W)) main_arg6 (by decide)).trans (w3_2_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg7) = x7 :=
  (ops3_2_keep (after ops3_1 (after ops3_0 W)) main_arg7 (by decide)).trans (w3_2_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg8) = x8 :=
  (ops3_2_keep (after ops3_1 (after ops3_0 W)) main_arg8 (by decide)).trans (w3_2_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg9) = x9 :=
  (ops3_2_keep (after ops3_1 (after ops3_0 W)) main_arg9 (by decide)).trans (w3_2_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg10) = x10 :=
  (ops3_2_keep (after ops3_1 (after ops3_0 W)) main_arg10 (by decide)).trans (w3_2_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg11) = x11 :=
  (ops3_2_keep (after ops3_1 (after ops3_0 W)) main_arg11 (by decide)).trans (w3_2_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_arg12) = x12 :=
  (ops3_2_keep (after ops3_1 (after ops3_0 W)) main_arg12 (by decide)).trans (w3_2_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_v103) = val_main_v103 (F := F) x0 x1 x2 x3 x4 x5 x6 x7 x8 x9 x10 x11 x12 :=
  (ops3_2_keep (after ops3_1 (after ops3_0 W)) main_v103 (by decide)).trans (w3_2_main_v103 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_v207 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_v207) = val_main_v207 (F := F) x0 x1 x2 x3 x4 x5 x6 x7 x8 x9 x10 x11 x12 :=
  sub3_2_main_v207 (after ops3_1 (after ops3_0 W)) x0 x1 x2 x3 x4 x5 x6 x7 x8 x9 x10 x11 x12 (w3_2_main_v127 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161) (w3_2_main_v125 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161) (w3_2_main_v123 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161) (w3_2_main_v198 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161) (w3_2_main_v152 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_v209 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_v209) = val_main_v209 (F := F) x1 :=
  sub3_2_main_v209 (after ops3_1 (after ops3_0 W)) x0 x1 x2 x3 x4 x5 x6 x7 x8 x9 x10 x11 x12 (w3_2_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_v211 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_v211) = val_main_v211 (F := F) x2 :=
  sub3_2_main_v211 (after ops3_1 (after ops3_0 W)) x0 x1 x2 x3 x4 x5 x6 x7 x8 x9 x10 x11 x12 (w3_2_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_v213 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_v213) = val_main_v213 (F := F) x3 :=
  sub3_2_main_v213 (after ops3_1 (after ops3_0 W)) x0 x1 x2 x3 x4 x5 x6 x7 x8 x9 x10 x11 x12 (w3_2_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)
theorem w3_3_main_v215 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    (after ops3_2 (after ops3_1 (after ops3_0 W))) (Proc.devRef .tc main_v215) = val_main_v215 (F := F) x4 :=
  sub3_2_main_v215 (after ops3_1 (after ops3_0 W)) x0 x1 x2 x3 x4 x5 x6 x7 x8 x9 x10 x11 x12 (w3_2_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161)

theorem win3_main_v207 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    after ops3 W (Proc.devRef .tc main_v207) = val_main_v207 (F := F) x0 x1 x2 x3 x4 x5 x6 x7 x8 x9 x10 x11 x12 := by
  rw [ops3_split]
  simp only [after_append]
  exact w3_3_main_v207 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161

theorem win3_main_v209 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    after ops3 W (Proc.devRef .tc main_v209) = val_main_v209 (F := F) x1 := by
  rw [ops3_split]
  simp only [after_append]
  exact w3_3_main_v209 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161

theorem win3_main_v211 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    after ops3 W (Proc.devRef .tc main_v211) = val_main_v211 (F := F) x2 := by
  rw [ops3_split]
  simp only [after_append]
  exact w3_3_main_v211 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161

theorem win3_main_v213 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    after ops3 W (Proc.devRef .tc main_v213) = val_main_v213 (F := F) x3 := by
  rw [ops3_split]
  simp only [after_append]
  exact w3_3_main_v213 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161

theorem win3_main_v215 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v115 : W (no_index (Proc.devRef .tc main_v115)) = val_main_v115 (F := F) x6)
    (h_main_v117 : W (no_index (Proc.devRef .tc main_v117)) = val_main_v117 (F := F) x7)
    (h_main_v119 : W (no_index (Proc.devRef .tc main_v119)) = val_main_v119 (F := F) x8)
    (h_main_v121 : W (no_index (Proc.devRef .tc main_v121)) = val_main_v121 (F := F) x9)
    (h_main_v123 : W (no_index (Proc.devRef .tc main_v123)) = val_main_v123 (F := F) x10)
    (h_main_v125 : W (no_index (Proc.devRef .tc main_v125)) = val_main_v125 (F := F) x11)
    (h_main_v127 : W (no_index (Proc.devRef .tc main_v127)) = val_main_v127 (F := F) x12)
    (h_main_v129 : W (no_index (Proc.devRef .tc main_v129)) = val_main_v129 (F := F) x1)
    (h_main_v131 : W (no_index (Proc.devRef .tc main_v131)) = val_main_v131 (F := F) x1)
    (h_main_v152 : W (no_index (Proc.devRef .tc main_v152)) = val_main_v152 (F := F) x0 x2 x3)
    (h_main_v158 : W (no_index (Proc.devRef .tc main_v158)) = val_main_v158 (F := F) x0 x1 x4 x5)
    (h_main_v160 : W (no_index (Proc.devRef .tc main_v160)) = val_main_v160 (F := F) x0 x1 x4 x5)
    (h_main_v161 : W (no_index (Proc.devRef .tc main_v161)) = val_main_v161 (F := F)) :
    after ops3 W (Proc.devRef .tc main_v215) = val_main_v215 (F := F) x4 := by
  rw [ops3_split]
  simp only [after_append]
  exact w3_3_main_v215 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v115 h_main_v117 h_main_v119 h_main_v121 h_main_v123 h_main_v125 h_main_v127 h_main_v129 h_main_v131 h_main_v152 h_main_v158 h_main_v160 h_main_v161

end Cert.ReferenceIdeal.RefRun

end
-- ==== Proof.RefWin4.lean ====
/- Window 4 of the reference program, read through: from any contents in which the buffers the window reads hold the
  stage values of the program's arguments, each buffer that later windows read holds its stage value after the window.
-/
import proofs.«410647_j53395033423884_2_alg».proof.Proof.RefStages
import proofs.«410647_j53395033423884_2_alg».proof.Proof.RefOps

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 2000000 in
theorem win4_main_v219 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v219) = val_main_v219 (F := F) x6 := by
  simp only [ops4]
  after_results_simp
  rw [h_main_arg6] <;> rfl

set_option maxRecDepth 8192 in
set_option maxHeartbeats 2000000 in
theorem win4_main_v221 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v221) = val_main_v221 (F := F) x7 := by
  simp only [ops4]
  after_results_simp
  rw [h_main_arg7] <;> rfl

set_option maxRecDepth 8192 in
set_option maxHeartbeats 2000000 in
theorem win4_main_v223 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v223) = val_main_v223 (F := F) x8 := by
  simp only [ops4]
  after_results_simp
  rw [h_main_arg8] <;> rfl

set_option maxRecDepth 8192 in
set_option maxHeartbeats 2000000 in
theorem win4_main_v225 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v225) = val_main_v225 (F := F) x9 := by
  simp only [ops4]
  after_results_simp
  rw [h_main_arg9] <;> rfl

set_option maxRecDepth 8192 in
set_option maxHeartbeats 2000000 in
theorem win4_main_v227 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v227) = val_main_v227 (F := F) x10 := by
  simp only [ops4]
  after_results_simp
  rw [h_main_arg10] <;> rfl

set_option maxRecDepth 8192 in
set_option maxHeartbeats 2000000 in
theorem win4_main_v229 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v229) = val_main_v229 (F := F) x11 := by
  simp only [ops4]
  after_results_simp
  rw [h_main_arg11] <;> rfl

set_option maxRecDepth 8192 in
set_option maxHeartbeats 2000000 in
theorem win4_main_v231 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v231) = val_main_v231 (F := F) x12 := by
  simp only [ops4]
  after_results_simp
  rw [h_main_arg12] <;> rfl

set_option maxRecDepth 8192 in
set_option maxHeartbeats 2000000 in
theorem win4_main_v233 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v233) = val_main_v233 (F := F) x1 := by
  simp only [ops4]
  after_results_simp
  rw [h_main_v209] <;> rfl

set_option maxRecDepth 8192 in
set_option maxHeartbeats 2000000 in
theorem win4_main_v235 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v235) = val_main_v235 (F := F) x1 := by
  simp only [ops4]
  after_results_simp
  rw [h_main_v209] <;> rfl

set_option maxRecDepth 8192 in
set_option maxHeartbeats 2000000 in
theorem win4_main_v256 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v256) = val_main_v256 (F := F) x0 x2 x3 := by
  simp only [ops4]
  after_results_simp
  rw [h_main_v213, h_main_v211, h_main_arg0] <;> rfl

set_option maxRecDepth 8192 in
set_option maxHeartbeats 2000000 in
theorem win4_main_v262 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v262) = val_main_v262 (F := F) x0 x1 x4 x5 := by
  simp only [ops4]
  after_results_simp
  rw [h_main_arg5, h_main_v215, h_main_v209, h_main_arg0] <;> rfl

set_option maxRecDepth 8192 in
set_option maxHeartbeats 2000000 in
theorem win4_main_v266 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v266) = val_main_v266 (F := F) x0 x1 x4 x5 := by
  simp only [ops4]
  after_results_simp
  rw [h_main_arg5, h_main_v215, h_main_v209, h_main_arg0] <;> rfl

set_option maxRecDepth 8192 in
set_option maxHeartbeats 2000000 in
theorem win4_main_v269 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v209 : W (no_index (Proc.devRef .tc main_v209)) = val_main_v209 (F := F) x1)
    (h_main_v211 : W (no_index (Proc.devRef .tc main_v211)) = val_main_v211 (F := F) x2)
    (h_main_v213 : W (no_index (Proc.devRef .tc main_v213)) = val_main_v213 (F := F) x3)
    (h_main_v215 : W (no_index (Proc.devRef .tc main_v215)) = val_main_v215 (F := F) x4) :
    after ops4 W (Proc.devRef .tc main_v269) = val_main_v269 (F := F) x0 x1 x4 x5 := by
  simp only [ops4]
  after_results_simp
  rw [h_main_arg5, h_main_v215, h_main_v209, h_main_arg0] <;> rfl

end Cert.ReferenceIdeal.RefRun

end
-- ==== Proof.RefWin5.lean ====
/- Window 5 of the reference program, read through: from any contents in which the buffers the window reads hold the
  stage values of the program's arguments, each buffer that later windows read holds its stage value after the window.
-/
import proofs.«410647_j53395033423884_2_alg».proof.Proof.RefStages
import proofs.«410647_j53395033423884_2_alg».proof.Proof.RefOps

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Stretch 0 of window 5: a stretch ends before each concatenation. -/
abbrev ops5_0 : List (HloOp τ sig (Elt F)) :=
  [ nullary main_cst_28 (constant S_ .f32 0x00000000#32),
    binary main_v269 main_cst_28 main_v270 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v270 main_v271 (broadcastInDim S500000x1 ![0] bcast_S500000_S500000x1_0 : (⟨S500000, .f32⟩ : BufTy).Contents (Elt F) → (⟨S500000x1, .f32⟩ : BufTy).Contents (Elt F)),
    nullary main_cst_29 (constant S_ .f32 0x42800000#32),
    unary main_cst_29 main_v272 (broadcastInDim S500000x1 ![] bcast_S_S500000x1 : (⟨S_, .f32⟩ : BufTy).Contents (Elt F) → (⟨S500000x1, .f32⟩ : BufTy).Contents (Elt F)),
    binary main_v271 main_v272 main_v273 (Host.divf : (⟨S500000x1, .f32⟩ : BufTy).Contents (Elt F) → (⟨S500000x1, .f32⟩ : BufTy).Contents (Elt F) → (⟨S500000x1, .f32⟩ : BufTy).Contents (Elt F)),
    unary main_v266 main_v274 (broadcastInDim S500000x64 ![0, 1] bcast_S500000x1_S500000x64_0_1 : (⟨S500000x1, .f32⟩ : BufTy).Contents (Elt F) → (⟨S500000x64, .f32⟩ : BufTy).Contents (Elt F)),
    binary main_v262 main_v274 main_v275 (subf : (⟨S500000x64, .f32⟩ : BufTy).Contents (Elt F) → (⟨S500000x64, .f32⟩ : BufTy).Contents (Elt F) → (⟨S500000x64, .f32⟩ : BufTy).Contents (Elt F)),
    nullary main_cst_30 (constant S_ .f32 0x3727C5AC#32),
    unary main_cst_30 main_v276 (broadcastInDim S500000x1 ![] bcast_S_S500000x1 : (⟨S_, .f32⟩ : BufTy).Contents (Elt F) → (⟨S500000x1, .f32⟩ : BufTy).Contents (Elt F)),
    binary main_v273 main_v276 main_v277 (addf : (⟨S500000x1, .f32⟩ : BufTy).Contents (Elt F) → (⟨S500000x1, .f32⟩ : BufTy).Contents (Elt F) → (⟨S500000x1, .f32⟩ : BufTy).Contents (Elt F)),
    unary main_v277 main_v278 (Host.rsqrt : (⟨S500000x1, .f32⟩ : BufTy).Contents (Elt F) → (⟨S500000x1, .f32⟩ : BufTy).Contents (Elt F)),
    unary main_v278 main_v279 (broadcastInDim S500000x64 ![0, 1] bcast_S500000x1_S500000x64_0_1 : (⟨S500000x1, .f32⟩ : BufTy).Contents (Elt F) → (⟨S500000x64, .f32⟩ : BufTy).Contents (Elt F)),
    binary main_v275 main_v279 main_v280 (mulf : (⟨S500000x64, .f32⟩ : BufTy).Contents (Elt F) → (⟨S500000x64, .f32⟩ : BufTy).Contents (Elt F) → (⟨S500000x64, .f32⟩ : BufTy).Contents (Elt F)),
    unary main_v219 main_v281 (broadcastInDim S1x64 ![1] bcast_S64_S1x64_1 : (⟨S64, .f32⟩ : BufTy).Contents (Elt F) → (⟨S1x64, .f32⟩ : BufTy).Contents (Elt F)),
    unary main_v281 main_v282 (broadcastInDim S500000x64 ![0, 1] bcast_S1x64_S500000x64_0_1 : (⟨S1x64, .f32⟩ : BufTy).Contents (Elt F) → (⟨S500000x64, .f32⟩ : BufTy).Contents (Elt F)),
    binary main_v280 main_v282 main_v283 (mulf : (⟨S500000x64, .f32⟩ : BufTy).Contents (Elt F) → (⟨S500000x64, .f32⟩ : BufTy).Contents (Elt F) → (⟨S500000x64, .f32⟩ : BufTy).Contents (Elt F)),
    unary main_v221 main_v284 (broadcastInDim S1x64 ![1] bcast_S64_S1x64_1 : (⟨S64, .f32⟩ : BufTy).Contents (Elt F) → (⟨S1x64, .f32⟩ : BufTy).Contents (Elt F)),
    unary main_v284 main_v285 (broadcastInDim S500000x64 ![0, 1] bcast_S1x64_S500000x64_0_1 : (⟨S1x64, .f32⟩ : BufTy).Contents (Elt F) → (⟨S500000x64, .f32⟩ : BufTy).Contents (Elt F)),
    binary main_v283 main_v285 main_v286 (addf : (⟨S500000x64, .f32⟩ : BufTy).Contents (Elt F) → (⟨S500000x64, .f32⟩ : BufTy).Contents (Elt F) → (⟨S500000x64, .f32⟩ : BufTy).Contents (Elt F)),
    unary main_v223 main_v287 ((transpose S64x64 [1, 0] · transposes_S64x64_S64x64_1_0) : (⟨S64x64, .f32⟩ : BufTy).Contents (Elt F) → (⟨S64x64, .f32⟩ : BufTy).Contents (Elt F)),
    binary main_v286 main_v287 main_v288 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v225 main_v289 (broadcastInDim S1x64 ![1] bcast_S64_S1x64_1 : (⟨S64, .f32⟩ : BufTy).Contents (Elt F) → (⟨S1x64, .f32⟩ : BufTy).Contents (Elt F)),
    unary main_v289 main_v290 (broadcastInDim S500000x64 ![0, 1] bcast_S1x64_S500000x64_0_1 : (⟨S1x64, .f32⟩ : BufTy).Contents (Elt F) → (⟨S500000x64, .f32⟩ : BufTy).Contents (Elt F)),
    binary main_v288 main_v290 main_v291 (addf : (⟨S500000x64, .f32⟩ : BufTy).Contents (Elt F) → (⟨S500000x64, .f32⟩ : BufTy).Contents (Elt F) → (⟨S500000x64, .f32⟩ : BufTy).Contents (Elt F)),
    nullary main_c_31 (constantI S_ 32 0#32),
    unary main_c_31 main_v292 (broadcastInDim S500000 ![] bcast_S_S500000 : (⟨S_, .i32⟩ : BufTy).Contents (Elt F) → (⟨S500000, .i32⟩ : BufTy).Contents (Elt F)),
    binary main_v233 main_v292 main_v293 (cmpi .slt : (⟨S500000, .i32⟩ : BufTy).Contents (Elt F) → (⟨S500000, .i32⟩ : BufTy).Contents (Elt F) → (⟨S500000, .i1⟩ : BufTy).Contents (Elt F)),
    nullary main_c_32 (constantI S_ 32 100000#32),
    unary main_c_32 main_v294 (broadcastInDim S500000 ![] bcast_S_S500000 : (⟨S_, .i32⟩ : BufTy).Contents (Elt F) → (⟨S500000, .i32⟩ : BufTy).Contents (Elt F)),
    binary main_v233 main_v294 main_v295 (addi : (⟨S500000, .i32⟩ : BufTy).Contents (Elt F) → (⟨S500000, .i32⟩ : BufTy).Contents (Elt F) → (⟨S500000, .i32⟩ : BufTy).Contents (Elt F)),
    ternary main_v293 main_v295 main_v233 main_v296 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v296 main_v297 (broadcastInDim S500000x1 ![0] bcast_S500000_S500000x1_0 : (⟨S500000, .i32⟩ : BufTy).Contents (Elt F) → (⟨S500000x1, .i32⟩ : BufTy).Contents (Elt F)),
    binary main_v256 main_v297 main_v298 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)) ]

/-- Stretch 1 of window 5: a stretch ends before each concatenation. -/
abbrev ops5_1 : List (HloOp τ sig (Elt F)) :=
  [ binary main_v298 main_v291 main_v299 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst_33 (constant S_ .f32 0x00000000#32),
    unary main_cst_33 main_v300 (broadcastInDim S100000x128 ![] bcast_S_S100000x128 : (⟨S_, .f32⟩ : BufTy).Contents (Elt F) → (⟨S100000x128, .f32⟩ : BufTy).Contents (Elt F)),
    unary main_v235 main_v301 (broadcastInDim S500000x1 ![0] bcast_S500000_S500000x1_0 : (⟨S500000, .i32⟩ : BufTy).Contents (Elt F) → (⟨S500000x1, .i32⟩ : BufTy).Contents (Elt F)),
    ternary main_v300 main_v301 main_v299 main_v302 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)) ]

/-- Stretch 2 of window 5: a stretch ends before each concatenation. -/
abbrev ops5_2 : List (HloOp τ sig (Elt F)) :=
  [ binary main_v256 main_v302 main_v303 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    unary main_v227 main_v304 ((transpose S192x64 [1, 0] · transposes_S64x192_S192x64_1_0) : (⟨S64x192, .f32⟩ : BufTy).Contents (Elt F) → (⟨S192x64, .f32⟩ : BufTy).Contents (Elt F)),
    binary main_v303 main_v304 main_v305 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_v229 main_v306 (broadcastInDim S1x64 ![1] bcast_S64_S1x64_1 : (⟨S64, .f32⟩ : BufTy).Contents (Elt F) → (⟨S1x64, .f32⟩ : BufTy).Contents (Elt F)),
    unary main_v306 main_v307 (broadcastInDim S100000x64 ![0, 1] bcast_S1x64_S100000x64_0_1 : (⟨S1x64, .f32⟩ : BufTy).Contents (Elt F) → (⟨S100000x64, .f32⟩ : BufTy).Contents (Elt F)),
    binary main_v305 main_v307 main_v308 (addf : (⟨S100000x64, .f32⟩ : BufTy).Contents (Elt F) → (⟨S100000x64, .f32⟩ : BufTy).Contents (Elt F) → (⟨S100000x64, .f32⟩ : BufTy).Contents (Elt F)),
    unary main_v231 main_v309 (broadcastInDim S1x64 ![1] bcast_S64_S1x64_1 : (⟨S64, .f32⟩ : BufTy).Contents (Elt F) → (⟨S1x64, .f32⟩ : BufTy).Contents (Elt F)),
    unary main_v309 main_v310 (broadcastInDim S100000x64 ![0, 1] bcast_S1x64_S100000x64_0_1 : (⟨S1x64, .f32⟩ : BufTy).Contents (Elt F) → (⟨S100000x64, .f32⟩ : BufTy).Contents (Elt F)),
    binary main_v308 main_v310 main_v311 (addf : (⟨S100000x64, .f32⟩ : BufTy).Contents (Elt F) → (⟨S100000x64, .f32⟩ : BufTy).Contents (Elt F) → (⟨S100000x64, .f32⟩ : BufTy).Contents (Elt F)),
    unary main_arg1 main_v312 ((extractStridedSlice S1x2x500000 ![3, 0, 0] · slices_S4x2x500000_S1x2x500000_3_0_0) : (⟨S4x2x500000, .i32⟩ : BufTy).Contents (Elt F) → (⟨S1x2x500000, .i32⟩ : BufTy).Contents (Elt F)),
    reshape main_v312 main_v313 rfl shapeCasts_S1x2x500000_S2x500000,
    unary main_arg2 main_v314 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v314 main_v315 rfl shapeCasts_S1x64x64_S64x64,
    unary main_arg3 main_v316 ((extractStridedSlice S1x64 ![3, 0] · slices_S4x64_S1x64_3_0) : (⟨S4x64, .f32⟩ : BufTy).Contents (Elt F) → (⟨S1x64, .f32⟩ : BufTy).Contents (Elt F)),
    reshape main_v316 main_v317 rfl shapeCasts_S1x64_S64,
    unary main_arg4 main_v318 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v318 main_v319 rfl shapeCasts_S1x64x64_S64x64,
    unary main_arg5 main_v320 ((extractStridedSlice S1x64 ![3, 0] · slices_S4x64_S1x64_3_0) : (⟨S4x64, .f32⟩ : BufTy).Contents (Elt F) → (⟨S1x64, .f32⟩ : BufTy).Contents (Elt F)),
    reshape main_v320 main_v321 rfl shapeCasts_S1x64_S64,
    unary main_arg6 main_v322 ((extractStridedSlice S1x64 ![3, 0] · slices_S4x64_S1x64_3_0) : (⟨S4x64, .f32⟩ : BufTy).Contents (Elt F) → (⟨S1x64, .f32⟩ : BufTy).Contents (Elt F)),
    reshape main_v322 main_v323 rfl shapeCasts_S1x64_S64 ]

set_option maxRecDepth 8192 in
theorem ops5_split : (ops5 : List (HloOp τ sig (Elt F))) = ops5_0 ++ (ops5_1 ++ (ops5_2)) := rfl

/-- The buffers that stretch 0 writes. -/
abbrev ops5_0_W : List (Ref sig .tc) := [main_cst_28, main_v270, main_v271, main_cst_29, main_v272, main_v273, main_v274, main_v275, main_cst_30, main_v276, main_v277, main_v278, main_v279, main_v280, main_v281, main_v282, main_v283, main_v284, main_v285, main_v286, main_v287, main_v288, main_v289, main_v290, main_v291, main_c_31, main_v292, main_v293, main_c_32, main_v294, main_v295, main_v296, main_v297, main_v298]
set_option maxRecDepth 8192 in
set_option maxHeartbeats 2000000 in
theorem ops5_0_writes : (ops5_0 : List (HloOp τ sig (Elt F))).Forall fun op => op.writes ⊆ (ops5_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops5_0_keep (W : Valuation τ sig (Elt F)) (r : Ref sig .tc) (h : r ∉ ops5_0_W) :
    after ops5_0 W (Proc.devRef .tc r) = W (Proc.devRef .tc r) :=
  after_of_writes_sub ops5_0 _ ops5_0_writes h

/-- The buffers that stretch 1 writes. -/
abbrev ops5_1_W : List (Ref sig .tc) := [main_v299, main_cst_33, main_v300, main_v301, main_v302]
set_option maxRecDepth 8192 in
set_option maxHeartbeats 2000000 in
theorem ops5_1_writes : (ops5_1 : List (HloOp τ sig (Elt F))).Forall fun op => op.writes ⊆ (ops5_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops5_1_keep (W : Valuation τ sig (Elt F)) (r : Ref sig .tc) (h : r ∉ ops5_1_W) :
    after ops5_1 W (Proc.devRef .tc r) = W (Proc.devRef .tc r) :=
  after_of_writes_sub ops5_1 _ ops5_1_writes h

/-- The buffers that stretch 2 writes. -/
abbrev ops5_2_W : List (Ref sig .tc) := [main_v303, main_v304, main_v305, main_v306, main_v307, main_v308, main_v309, main_v310, main_v311, main_v312, main_v313, main_v314, main_v315, main_v316, main_v317, main_v318, main_v319, main_v320, main_v321, main_v322, main_v323]
set_option maxRecDepth 8192 in
set_option maxHeartbeats 2000000 in
theorem ops5_2_writes : (ops5_2 : List (HloOp τ sig (Elt F))).Forall fun op => op.writes ⊆ (ops5_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops5_2_keep (W : Valuation τ sig (Elt F)) (r : Ref sig .tc) (h : r ∉ ops5_2_W) :
    after ops5_2 W (Proc.devRef .tc r) = W (Proc.devRef .tc r) :=
  after_of_writes_sub ops5_2 _ ops5_2_writes h

set_option maxRecDepth 8192 in
set_option maxHeartbeats 2000000 in
theorem sub5_0_main_v291 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v225 : W (no_index (Proc.devRef .tc main_v225)) = val_main_v225 (F := F) x9)
    (h_main_v223 : W (no_index (Proc.devRef .tc main_v223)) = val_main_v223 (F := F) x8)
    (h_main_v221 : W (no_index (Proc.devRef .tc main_v221)) = val_main_v221 (F := F) x7)
    (h_main_v219 : W (no_index (Proc.devRef .tc main_v219)) = val_main_v219 (F := F) x6)
    (h_main_v269 : W (no_index (Proc.devRef .tc main_v269)) = val_main_v269 (F := F) x0 x1 x4 x5)
    (h_main_v266 : W (no_index (Proc.devRef .tc main_v266)) = val_main_v266 (F := F) x0 x1 x4 x5)
    (h_main_v262 : W (no_index (Proc.devRef .tc main_v262)) = val_main_v262 (F := F) x0 x1 x4 x5) :
    after ops5_0 W (Proc.devRef .tc main_v291) = val_main_v291 (F := F) x0 x1 x4 x5 x6 x7 x8 x9 := by
  simp only [ops5_0]
  after_results_simp
  rw [h_main_v225, h_main_v223, h_main_v221, h_main_v219, h_main_v269, h_main_v266, h_main_v262] <;> rfl

set_option maxRecDepth 8192 in
set_option maxHeartbeats 2000000 in
theorem sub5_0_main_v298 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v233 : W (no_index (Proc.devRef .tc main_v233)) = val_main_v233 (F := F) x1)
    (h_main_v256 : W (no_index (Proc.devRef .tc main_v256)) = val_main_v256 (F := F) x0 x2 x3) :
    after ops5_0 W (Proc.devRef .tc main_v298) = val_main_v298 (F := F) x0 x1 x2 x3 := by
  simp only [ops5_0]
  after_results_simp
  rw [h_main_v233, h_main_v256] <;> rfl

set_option maxRecDepth 8192 in
set_option maxHeartbeats 2000000 in
theorem sub5_1_main_v302 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v291 : W (no_index (Proc.devRef .tc main_v291)) = val_main_v291 (F := F) x0 x1 x4 x5 x6 x7 x8 x9)
    (h_main_v298 : W (no_index (Proc.devRef .tc main_v298)) = val_main_v298 (F := F) x0 x1 x2 x3)
    (h_main_v235 : W (no_index (Proc.devRef .tc main_v235)) = val_main_v235 (F := F) x1) :
    after ops5_1 W (Proc.devRef .tc main_v302) = val_main_v302 (F := F) x0 x1 x2 x3 x4 x5 x6 x7 x8 x9 := by
  simp only [ops5_1]
  after_results_simp
  rw [h_main_v291, h_main_v298, h_main_v235] <;> rfl

set_option maxRecDepth 8192 in
set_option maxHeartbeats 2000000 in
theorem sub5_2_main_v311 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v231 : W (no_index (Proc.devRef .tc main_v231)) = val_main_v231 (F := F) x12)
    (h_main_v229 : W (no_index (Proc.devRef .tc main_v229)) = val_main_v229 (F := F) x11)
    (h_main_v227 : W (no_index (Proc.devRef .tc main_v227)) = val_main_v227 (F := F) x10)
    (h_main_v302 : W (no_index (Proc.devRef .tc main_v302)) = val_main_v302 (F := F) x0 x1 x2 x3 x4 x5 x6 x7 x8 x9)
    (h_main_v256 : W (no_index (Proc.devRef .tc main_v256)) = val_main_v256 (F := F) x0 x2 x3) :
    after ops5_2 W (Proc.devRef .tc main_v311) = val_main_v311 (F := F) x0 x1 x2 x3 x4 x5 x6 x7 x8 x9 x10 x11 x12 := by
  simp only [ops5_2]
  after_results_simp
  rw [h_main_v231, h_main_v229, h_main_v227, h_main_v302, h_main_v256] <;> rfl

set_option maxRecDepth 8192 in
set_option maxHeartbeats 2000000 in
theorem sub5_2_main_v313 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg1 : W (no_index (Proc.devRef .tc main_arg1)) = x1) :
    after ops5_2 W (Proc.devRef .tc main_v313) = val_main_v313 (F := F) x1 := by
  simp only [ops5_2]
  after_results_simp
  rw [h_main_arg1] <;> rfl

set_option maxRecDepth 8192 in
set_option maxHeartbeats 2000000 in
theorem sub5_2_main_v315 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg2 : W (no_index (Proc.devRef .tc main_arg2)) = x2) :
    after ops5_2 W (Proc.devRef .tc main_v315) = val_main_v315 (F := F) x2 := by
  simp only [ops5_2]
  after_results_simp
  rw [h_main_arg2] <;> rfl

set_option maxRecDepth 8192 in
set_option maxHeartbeats 2000000 in
theorem sub5_2_main_v317 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg3 : W (no_index (Proc.devRef .tc main_arg3)) = x3) :
    after ops5_2 W (Proc.devRef .tc main_v317) = val_main_v317 (F := F) x3 := by
  simp only [ops5_2]
  after_results_simp
  rw [h_main_arg3] <;> rfl

set_option maxRecDepth 8192 in
set_option maxHeartbeats 2000000 in
theorem sub5_2_main_v319 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg4 : W (no_index (Proc.devRef .tc main_arg4)) = x4) :
    after ops5_2 W (Proc.devRef .tc main_v319) = val_main_v319 (F := F) x4 := by
  simp only [ops5_2]
  after_results_simp
  rw [h_main_arg4] <;> rfl

set_option maxRecDepth 8192 in
set_option maxHeartbeats 2000000 in
theorem sub5_2_main_v321 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg5 : W (no_index (Proc.devRef .tc main_arg5)) = x5) :
    after ops5_2 W (Proc.devRef .tc main_v321) = val_main_v321 (F := F) x5 := by
  simp only [ops5_2]
  after_results_simp
  rw [h_main_arg5] <;> rfl

set_option maxRecDepth 8192 in
set_option maxHeartbeats 2000000 in
theorem sub5_2_main_v323 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg6 : W (no_index (Proc.devRef .tc main_arg6)) = x6) :
    after ops5_2 W (Proc.devRef .tc main_v323) = val_main_v323 (F := F) x6 := by
  simp only [ops5_2]
  after_results_simp
  rw [h_main_arg6] <;> rfl
theorem w5_1_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg0) = x0 :=
  (ops5_0_keep W main_arg0 (by decide)).trans h_main_arg0
theorem w5_1_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg1) = x1 :=
  (ops5_0_keep W main_arg1 (by decide)).trans h_main_arg1
theorem w5_1_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg2) = x2 :=
  (ops5_0_keep W main_arg2 (by decide)).trans h_main_arg2
theorem w5_1_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg3) = x3 :=
  (ops5_0_keep W main_arg3 (by decide)).trans h_main_arg3
theorem w5_1_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg4) = x4 :=
  (ops5_0_keep W main_arg4 (by decide)).trans h_main_arg4
theorem w5_1_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg5) = x5 :=
  (ops5_0_keep W main_arg5 (by decide)).trans h_main_arg5
theorem w5_1_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg6) = x6 :=
  (ops5_0_keep W main_arg6 (by decide)).trans h_main_arg6
theorem w5_1_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg7) = x7 :=
  (ops5_0_keep W main_arg7 (by decide)).trans h_main_arg7
theorem w5_1_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg8) = x8 :=
  (ops5_0_keep W main_arg8 (by decide)).trans h_main_arg8
theorem w5_1_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg9) = x9 :=
  (ops5_0_keep W main_arg9 (by decide)).trans h_main_arg9
theorem w5_1_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg10) = x10 :=
  (ops5_0_keep W main_arg10 (by decide)).trans h_main_arg10
theorem w5_1_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg11) = x11 :=
  (ops5_0_keep W main_arg11 (by decide)).trans h_main_arg11
theorem w5_1_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_arg12) = x12 :=
  (ops5_0_keep W main_arg12 (by decide)).trans h_main_arg12
theorem w5_1_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v103) = val_main_v103 (F := F) x0 x1 x2 x3 x4 x5 x6 x7 x8 x9 x10 x11 x12 :=
  (ops5_0_keep W main_v103 (by decide)).trans h_main_v103
theorem w5_1_main_v207 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v207) = val_main_v207 (F := F) x0 x1 x2 x3 x4 x5 x6 x7 x8 x9 x10 x11 x12 :=
  (ops5_0_keep W main_v207 (by decide)).trans h_main_v207
theorem w5_1_main_v227 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v227) = val_main_v227 (F := F) x10 :=
  (ops5_0_keep W main_v227 (by decide)).trans h_main_v227
theorem w5_1_main_v229 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v229) = val_main_v229 (F := F) x11 :=
  (ops5_0_keep W main_v229 (by decide)).trans h_main_v229
theorem w5_1_main_v231 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v231) = val_main_v231 (F := F) x12 :=
  (ops5_0_keep W main_v231 (by decide)).trans h_main_v231
theorem w5_1_main_v235 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v235) = val_main_v235 (F := F) x1 :=
  (ops5_0_keep W main_v235 (by decide)).trans h_main_v235
theorem w5_1_main_v256 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v256) = val_main_v256 (F := F) x0 x2 x3 :=
  (ops5_0_keep W main_v256 (by decide)).trans h_main_v256
theorem w5_1_main_v291 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v291) = val_main_v291 (F := F) x0 x1 x4 x5 x6 x7 x8 x9 :=
  sub5_0_main_v291 W x0 x1 x2 x3 x4 x5 x6 x7 x8 x9 x10 x11 x12 h_main_v225 h_main_v223 h_main_v221 h_main_v219 h_main_v269 h_main_v266 h_main_v262
theorem w5_1_main_v298 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_0 W) (Proc.devRef .tc main_v298) = val_main_v298 (F := F) x0 x1 x2 x3 :=
  sub5_0_main_v298 W x0 x1 x2 x3 x4 x5 x6 x7 x8 x9 x10 x11 x12 h_main_v233 h_main_v256
theorem w5_2_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg0) = x0 :=
  (ops5_1_keep (after ops5_0 W) main_arg0 (by decide)).trans (w5_1_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg1) = x1 :=
  (ops5_1_keep (after ops5_0 W) main_arg1 (by decide)).trans (w5_1_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg2) = x2 :=
  (ops5_1_keep (after ops5_0 W) main_arg2 (by decide)).trans (w5_1_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg3) = x3 :=
  (ops5_1_keep (after ops5_0 W) main_arg3 (by decide)).trans (w5_1_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg4) = x4 :=
  (ops5_1_keep (after ops5_0 W) main_arg4 (by decide)).trans (w5_1_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg5) = x5 :=
  (ops5_1_keep (after ops5_0 W) main_arg5 (by decide)).trans (w5_1_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg6) = x6 :=
  (ops5_1_keep (after ops5_0 W) main_arg6 (by decide)).trans (w5_1_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg7) = x7 :=
  (ops5_1_keep (after ops5_0 W) main_arg7 (by decide)).trans (w5_1_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg8) = x8 :=
  (ops5_1_keep (after ops5_0 W) main_arg8 (by decide)).trans (w5_1_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg9) = x9 :=
  (ops5_1_keep (after ops5_0 W) main_arg9 (by decide)).trans (w5_1_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg10) = x10 :=
  (ops5_1_keep (after ops5_0 W) main_arg10 (by decide)).trans (w5_1_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg11) = x11 :=
  (ops5_1_keep (after ops5_0 W) main_arg11 (by decide)).trans (w5_1_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_arg12) = x12 :=
  (ops5_1_keep (after ops5_0 W) main_arg12 (by decide)).trans (w5_1_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_v103) = val_main_v103 (F := F) x0 x1 x2 x3 x4 x5 x6 x7 x8 x9 x10 x11 x12 :=
  (ops5_1_keep (after ops5_0 W) main_v103 (by decide)).trans (w5_1_main_v103 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_v207 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_v207) = val_main_v207 (F := F) x0 x1 x2 x3 x4 x5 x6 x7 x8 x9 x10 x11 x12 :=
  (ops5_1_keep (after ops5_0 W) main_v207 (by decide)).trans (w5_1_main_v207 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_v227 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_v227) = val_main_v227 (F := F) x10 :=
  (ops5_1_keep (after ops5_0 W) main_v227 (by decide)).trans (w5_1_main_v227 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_v229 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_v229) = val_main_v229 (F := F) x11 :=
  (ops5_1_keep (after ops5_0 W) main_v229 (by decide)).trans (w5_1_main_v229 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_v231 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_v231) = val_main_v231 (F := F) x12 :=
  (ops5_1_keep (after ops5_0 W) main_v231 (by decide)).trans (w5_1_main_v231 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_v256 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_v256) = val_main_v256 (F := F) x0 x2 x3 :=
  (ops5_1_keep (after ops5_0 W) main_v256 (by decide)).trans (w5_1_main_v256 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_2_main_v302 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_1 (after ops5_0 W)) (Proc.devRef .tc main_v302) = val_main_v302 (F := F) x0 x1 x2 x3 x4 x5 x6 x7 x8 x9 :=
  sub5_1_main_v302 (after ops5_0 W) x0 x1 x2 x3 x4 x5 x6 x7 x8 x9 x10 x11 x12 (w5_1_main_v291 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269) (w5_1_main_v298 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269) (w5_1_main_v235 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg0) = x0 :=
  (ops5_2_keep (after ops5_1 (after ops5_0 W)) main_arg0 (by decide)).trans (w5_2_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg1) = x1 :=
  (ops5_2_keep (after ops5_1 (after ops5_0 W)) main_arg1 (by decide)).trans (w5_2_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg2) = x2 :=
  (ops5_2_keep (after ops5_1 (after ops5_0 W)) main_arg2 (by decide)).trans (w5_2_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg3) = x3 :=
  (ops5_2_keep (after ops5_1 (after ops5_0 W)) main_arg3 (by decide)).trans (w5_2_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg4) = x4 :=
  (ops5_2_keep (after ops5_1 (after ops5_0 W)) main_arg4 (by decide)).trans (w5_2_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg5) = x5 :=
  (ops5_2_keep (after ops5_1 (after ops5_0 W)) main_arg5 (by decide)).trans (w5_2_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg6) = x6 :=
  (ops5_2_keep (after ops5_1 (after ops5_0 W)) main_arg6 (by decide)).trans (w5_2_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg7) = x7 :=
  (ops5_2_keep (after ops5_1 (after ops5_0 W)) main_arg7 (by decide)).trans (w5_2_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg8) = x8 :=
  (ops5_2_keep (after ops5_1 (after ops5_0 W)) main_arg8 (by decide)).trans (w5_2_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg9) = x9 :=
  (ops5_2_keep (after ops5_1 (after ops5_0 W)) main_arg9 (by decide)).trans (w5_2_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg10) = x10 :=
  (ops5_2_keep (after ops5_1 (after ops5_0 W)) main_arg10 (by decide)).trans (w5_2_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg11) = x11 :=
  (ops5_2_keep (after ops5_1 (after ops5_0 W)) main_arg11 (by decide)).trans (w5_2_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_arg12) = x12 :=
  (ops5_2_keep (after ops5_1 (after ops5_0 W)) main_arg12 (by decide)).trans (w5_2_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v103) = val_main_v103 (F := F) x0 x1 x2 x3 x4 x5 x6 x7 x8 x9 x10 x11 x12 :=
  (ops5_2_keep (after ops5_1 (after ops5_0 W)) main_v103 (by decide)).trans (w5_2_main_v103 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v207 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v207) = val_main_v207 (F := F) x0 x1 x2 x3 x4 x5 x6 x7 x8 x9 x10 x11 x12 :=
  (ops5_2_keep (after ops5_1 (after ops5_0 W)) main_v207 (by decide)).trans (w5_2_main_v207 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v311 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v311) = val_main_v311 (F := F) x0 x1 x2 x3 x4 x5 x6 x7 x8 x9 x10 x11 x12 :=
  sub5_2_main_v311 (after ops5_1 (after ops5_0 W)) x0 x1 x2 x3 x4 x5 x6 x7 x8 x9 x10 x11 x12 (w5_2_main_v231 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269) (w5_2_main_v229 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269) (w5_2_main_v227 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269) (w5_2_main_v302 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269) (w5_2_main_v256 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v313 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v313) = val_main_v313 (F := F) x1 :=
  sub5_2_main_v313 (after ops5_1 (after ops5_0 W)) x0 x1 x2 x3 x4 x5 x6 x7 x8 x9 x10 x11 x12 (w5_2_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v315 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v315) = val_main_v315 (F := F) x2 :=
  sub5_2_main_v315 (after ops5_1 (after ops5_0 W)) x0 x1 x2 x3 x4 x5 x6 x7 x8 x9 x10 x11 x12 (w5_2_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v317 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v317) = val_main_v317 (F := F) x3 :=
  sub5_2_main_v317 (after ops5_1 (after ops5_0 W)) x0 x1 x2 x3 x4 x5 x6 x7 x8 x9 x10 x11 x12 (w5_2_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v319 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v319) = val_main_v319 (F := F) x4 :=
  sub5_2_main_v319 (after ops5_1 (after ops5_0 W)) x0 x1 x2 x3 x4 x5 x6 x7 x8 x9 x10 x11 x12 (w5_2_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v321 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v321) = val_main_v321 (F := F) x5 :=
  sub5_2_main_v321 (after ops5_1 (after ops5_0 W)) x0 x1 x2 x3 x4 x5 x6 x7 x8 x9 x10 x11 x12 (w5_2_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)
theorem w5_3_main_v323 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    (after ops5_2 (after ops5_1 (after ops5_0 W))) (Proc.devRef .tc main_v323) = val_main_v323 (F := F) x6 :=
  sub5_2_main_v323 (after ops5_1 (after ops5_0 W)) x0 x1 x2 x3 x4 x5 x6 x7 x8 x9 x10 x11 x12 (w5_2_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269)

theorem win5_main_v311 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    after ops5 W (Proc.devRef .tc main_v311) = val_main_v311 (F := F) x0 x1 x2 x3 x4 x5 x6 x7 x8 x9 x10 x11 x12 := by
  rw [ops5_split]
  simp only [after_append]
  exact w5_3_main_v311 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269

theorem win5_main_v313 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    after ops5 W (Proc.devRef .tc main_v313) = val_main_v313 (F := F) x1 := by
  rw [ops5_split]
  simp only [after_append]
  exact w5_3_main_v313 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269

theorem win5_main_v315 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    after ops5 W (Proc.devRef .tc main_v315) = val_main_v315 (F := F) x2 := by
  rw [ops5_split]
  simp only [after_append]
  exact w5_3_main_v315 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269

theorem win5_main_v317 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    after ops5 W (Proc.devRef .tc main_v317) = val_main_v317 (F := F) x3 := by
  rw [ops5_split]
  simp only [after_append]
  exact w5_3_main_v317 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269

theorem win5_main_v319 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    after ops5 W (Proc.devRef .tc main_v319) = val_main_v319 (F := F) x4 := by
  rw [ops5_split]
  simp only [after_append]
  exact w5_3_main_v319 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269

theorem win5_main_v321 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    after ops5 W (Proc.devRef .tc main_v321) = val_main_v321 (F := F) x5 := by
  rw [ops5_split]
  simp only [after_append]
  exact w5_3_main_v321 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269

theorem win5_main_v323 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v219 : W (no_index (Proc.devRef .tc main_v219)) = val_main_v219 (F := F) x6)
    (h_main_v221 : W (no_index (Proc.devRef .tc main_v221)) = val_main_v221 (F := F) x7)
    (h_main_v223 : W (no_index (Proc.devRef .tc main_v223)) = val_main_v223 (F := F) x8)
    (h_main_v225 : W (no_index (Proc.devRef .tc main_v225)) = val_main_v225 (F := F) x9)
    (h_main_v227 : W (no_index (Proc.devRef .tc main_v227)) = val_main_v227 (F := F) x10)
    (h_main_v229 : W (no_index (Proc.devRef .tc main_v229)) = val_main_v229 (F := F) x11)
    (h_main_v231 : W (no_index (Proc.devRef .tc main_v231)) = val_main_v231 (F := F) x12)
    (h_main_v233 : W (no_index (Proc.devRef .tc main_v233)) = val_main_v233 (F := F) x1)
    (h_main_v235 : W (no_index (Proc.devRef .tc main_v235)) = val_main_v235 (F := F) x1)
    (h_main_v256 : W (no_index (Proc.devRef .tc main_v256)) = val_main_v256 (F := F) x0 x2 x3)
    (h_main_v262 : W (no_index (Proc.devRef .tc main_v262)) = val_main_v262 (F := F) x0 x1 x4 x5)
    (h_main_v266 : W (no_index (Proc.devRef .tc main_v266)) = val_main_v266 (F := F) x0 x1 x4 x5)
    (h_main_v269 : W (no_index (Proc.devRef .tc main_v269)) = val_main_v269 (F := F) x0 x1 x4 x5) :
    after ops5 W (Proc.devRef .tc main_v323) = val_main_v323 (F := F) x6 := by
  rw [ops5_split]
  simp only [after_append]
  exact w5_3_main_v323 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v219 h_main_v221 h_main_v223 h_main_v225 h_main_v227 h_main_v229 h_main_v231 h_main_v233 h_main_v235 h_main_v256 h_main_v262 h_main_v266 h_main_v269

end Cert.ReferenceIdeal.RefRun

end
-- ==== Proof.RefWin6.lean ====
/- Window 6 of the reference program, read through: from any contents in which the buffers the window reads hold the
  stage values of the program's arguments, each buffer that later windows read holds its stage value after the window.
-/
import proofs.«410647_j53395033423884_2_alg».proof.Proof.RefStages
import proofs.«410647_j53395033423884_2_alg».proof.Proof.RefOps

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 2000000 in
theorem win6_main_v325 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v325) = val_main_v325 (F := F) x7 := by
  simp only [ops6]
  after_results_simp
  rw [h_main_arg7] <;> rfl

set_option maxRecDepth 8192 in
set_option maxHeartbeats 2000000 in
theorem win6_main_v327 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v327) = val_main_v327 (F := F) x8 := by
  simp only [ops6]
  after_results_simp
  rw [h_main_arg8] <;> rfl

set_option maxRecDepth 8192 in
set_option maxHeartbeats 2000000 in
theorem win6_main_v329 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v329) = val_main_v329 (F := F) x9 := by
  simp only [ops6]
  after_results_simp
  rw [h_main_arg9] <;> rfl

set_option maxRecDepth 8192 in
set_option maxHeartbeats 2000000 in
theorem win6_main_v331 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v331) = val_main_v331 (F := F) x10 := by
  simp only [ops6]
  after_results_simp
  rw [h_main_arg10] <;> rfl

set_option maxRecDepth 8192 in
set_option maxHeartbeats 2000000 in
theorem win6_main_v333 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v333) = val_main_v333 (F := F) x11 := by
  simp only [ops6]
  after_results_simp
  rw [h_main_arg11] <;> rfl

set_option maxRecDepth 8192 in
set_option maxHeartbeats 2000000 in
theorem win6_main_v335 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v335) = val_main_v335 (F := F) x12 := by
  simp only [ops6]
  after_results_simp
  rw [h_main_arg12] <;> rfl

set_option maxRecDepth 8192 in
set_option maxHeartbeats 2000000 in
theorem win6_main_v337 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v337) = val_main_v337 (F := F) x1 := by
  simp only [ops6]
  after_results_simp
  rw [h_main_v313] <;> rfl

set_option maxRecDepth 8192 in
set_option maxHeartbeats 2000000 in
theorem win6_main_v339 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v339) = val_main_v339 (F := F) x1 := by
  simp only [ops6]
  after_results_simp
  rw [h_main_v313] <;> rfl

set_option maxRecDepth 8192 in
set_option maxHeartbeats 2000000 in
theorem win6_main_v360 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v360) = val_main_v360 (F := F) x0 x2 x3 := by
  simp only [ops6]
  after_results_simp
  rw [h_main_v317, h_main_v315, h_main_arg0] <;> rfl

set_option maxRecDepth 8192 in
set_option maxHeartbeats 2000000 in
theorem win6_main_v366 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v366) = val_main_v366 (F := F) x0 x1 x4 x5 := by
  simp only [ops6]
  after_results_simp
  rw [h_main_v321, h_main_v319, h_main_v313, h_main_arg0] <;> rfl

set_option maxRecDepth 8192 in
set_option maxHeartbeats 2000000 in
theorem win6_main_v370 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v370) = val_main_v370 (F := F) x0 x1 x4 x5 := by
  simp only [ops6]
  after_results_simp
  rw [h_main_v321, h_main_v319, h_main_v313, h_main_arg0] <;> rfl

set_option maxRecDepth 8192 in
set_option maxHeartbeats 2000000 in
theorem win6_main_v375 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_v375) = val_main_v375 (F := F) x0 x1 x4 x5 := by
  simp only [ops6]
  after_results_simp
  rw [h_main_v321, h_main_v319, h_main_v313, h_main_arg0] <;> rfl

set_option maxRecDepth 8192 in
set_option maxHeartbeats 2000000 in
theorem win6_main_cst_41 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v313 : W (no_index (Proc.devRef .tc main_v313)) = val_main_v313 (F := F) x1)
    (h_main_v315 : W (no_index (Proc.devRef .tc main_v315)) = val_main_v315 (F := F) x2)
    (h_main_v317 : W (no_index (Proc.devRef .tc main_v317)) = val_main_v317 (F := F) x3)
    (h_main_v319 : W (no_index (Proc.devRef .tc main_v319)) = val_main_v319 (F := F) x4)
    (h_main_v321 : W (no_index (Proc.devRef .tc main_v321)) = val_main_v321 (F := F) x5)
    (h_main_v323 : W (no_index (Proc.devRef .tc main_v323)) = val_main_v323 (F := F) x6) :
    after ops6 W (Proc.devRef .tc main_cst_41) = val_main_cst_41 (F := F) := by
  simp only [ops6]
  after_results_simp
  all_goals rfl

end Cert.ReferenceIdeal.RefRun

end
-- ==== Proof.RefWin7.lean ====
/- Window 7 of the reference program, read through: from any contents in which the buffers the window reads hold the
  stage values of the program's arguments, each buffer that later windows read holds its stage value after the window.
-/
import proofs.«410647_j53395033423884_2_alg».proof.Proof.RefStages
import proofs.«410647_j53395033423884_2_alg».proof.Proof.RefOps

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Stretch 0 of window 7: a stretch ends before each concatenation. -/
abbrev ops7_0 : List (HloOp τ sig (Elt F)) :=
  [ unary main_cst_41 main_v376 (broadcastInDim S500000x1 ![] bcast_S_S500000x1 : (⟨S_, .f32⟩ : BufTy).Contents (Elt F) → (⟨S500000x1, .f32⟩ : BufTy).Contents (Elt F)),
    binary main_v375 main_v376 main_v377 (Host.divf : (⟨S500000x1, .f32⟩ : BufTy).Contents (Elt F) → (⟨S500000x1, .f32⟩ : BufTy).Contents (Elt F) → (⟨S500000x1, .f32⟩ : BufTy).Contents (Elt F)),
    unary main_v370 main_v378 (broadcastInDim S500000x64 ![0, 1] bcast_S500000x1_S500000x64_0_1 : (⟨S500000x1, .f32⟩ : BufTy).Contents (Elt F) → (⟨S500000x64, .f32⟩ : BufTy).Contents (Elt F)),
    binary main_v366 main_v378 main_v379 (subf : (⟨S500000x64, .f32⟩ : BufTy).Contents (Elt F) → (⟨S500000x64, .f32⟩ : BufTy).Contents (Elt F) → (⟨S500000x64, .f32⟩ : BufTy).Contents (Elt F)),
    nullary main_cst_42 (constant S_ .f32 0x3727C5AC#32),
    unary main_cst_42 main_v380 (broadcastInDim S500000x1 ![] bcast_S_S500000x1 : (⟨S_, .f32⟩ : BufTy).Contents (Elt F) → (⟨S500000x1, .f32⟩ : BufTy).Contents (Elt F)),
    binary main_v377 main_v380 main_v381 (addf : (⟨S500000x1, .f32⟩ : BufTy).Contents (Elt F) → (⟨S500000x1, .f32⟩ : BufTy).Contents (Elt F) → (⟨S500000x1, .f32⟩ : BufTy).Contents (Elt F)),
    unary main_v381 main_v382 (Host.rsqrt : (⟨S500000x1, .f32⟩ : BufTy).Contents (Elt F) → (⟨S500000x1, .f32⟩ : BufTy).Contents (Elt F)),
    unary main_v382 main_v383 (broadcastInDim S500000x64 ![0, 1] bcast_S500000x1_S500000x64_0_1 : (⟨S500000x1, .f32⟩ : BufTy).Contents (Elt F) → (⟨S500000x64, .f32⟩ : BufTy).Contents (Elt F)),
    binary main_v379 main_v383 main_v384 (mulf : (⟨S500000x64, .f32⟩ : BufTy).Contents (Elt F) → (⟨S500000x64, .f32⟩ : BufTy).Contents (Elt F) → (⟨S500000x64, .f32⟩ : BufTy).Contents (Elt F)),
    unary main_v323 main_v385 (broadcastInDim S1x64 ![1] bcast_S64_S1x64_1 : (⟨S64, .f32⟩ : BufTy).Contents (Elt F) → (⟨S1x64, .f32⟩ : BufTy).Contents (Elt F)),
    unary main_v385 main_v386 (broadcastInDim S500000x64 ![0, 1] bcast_S1x64_S500000x64_0_1 : (⟨S1x64, .f32⟩ : BufTy).Contents (Elt F) → (⟨S500000x64, .f32⟩ : BufTy).Contents (Elt F)),
    binary main_v384 main_v386 main_v387 (mulf : (⟨S500000x64, .f32⟩ : BufTy).Contents (Elt F) → (⟨S500000x64, .f32⟩ : BufTy).Contents (Elt F) → (⟨S500000x64, .f32⟩ : BufTy).Contents (Elt F)),
    unary main_v325 main_v388 (broadcastInDim S1x64 ![1] bcast_S64_S1x64_1 : (⟨S64, .f32⟩ : BufTy).Contents (Elt F) → (⟨S1x64, .f32⟩ : BufTy).Contents (Elt F)),
    unary main_v388 main_v389 (broadcastInDim S500000x64 ![0, 1] bcast_S1x64_S500000x64_0_1 : (⟨S1x64, .f32⟩ : BufTy).Contents (Elt F) → (⟨S500000x64, .f32⟩ : BufTy).Contents (Elt F)),
    binary main_v387 main_v389 main_v390 (addf : (⟨S500000x64, .f32⟩ : BufTy).Contents (Elt F) → (⟨S500000x64, .f32⟩ : BufTy).Contents (Elt F) → (⟨S500000x64, .f32⟩ : BufTy).Contents (Elt F)),
    unary main_v327 main_v391 ((transpose S64x64 [1, 0] · transposes_S64x64_S64x64_1_0) : (⟨S64x64, .f32⟩ : BufTy).Contents (Elt F) → (⟨S64x64, .f32⟩ : BufTy).Contents (Elt F)),
    binary main_v390 main_v391 main_v392 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_v329 main_v393 (broadcastInDim S1x64 ![1] bcast_S64_S1x64_1 : (⟨S64, .f32⟩ : BufTy).Contents (Elt F) → (⟨S1x64, .f32⟩ : BufTy).Contents (Elt F)),
    unary main_v393 main_v394 (broadcastInDim S500000x64 ![0, 1] bcast_S1x64_S500000x64_0_1 : (⟨S1x64, .f32⟩ : BufTy).Contents (Elt F) → (⟨S500000x64, .f32⟩ : BufTy).Contents (Elt F)),
    binary main_v392 main_v394 main_v395 (addf : (⟨S500000x64, .f32⟩ : BufTy).Contents (Elt F) → (⟨S500000x64, .f32⟩ : BufTy).Contents (Elt F) → (⟨S500000x64, .f32⟩ : BufTy).Contents (Elt F)),
    nullary main_c_43 (constantI S_ 32 0#32),
    unary main_c_43 main_v396 (broadcastInDim S500000 ![] bcast_S_S500000 : (⟨S_, .i32⟩ : BufTy).Contents (Elt F) → (⟨S500000, .i32⟩ : BufTy).Contents (Elt F)),
    binary main_v337 main_v396 main_v397 (cmpi .slt : (⟨S500000, .i32⟩ : BufTy).Contents (Elt F) → (⟨S500000, .i32⟩ : BufTy).Contents (Elt F) → (⟨S500000, .i1⟩ : BufTy).Contents (Elt F)),
    nullary main_c_44 (constantI S_ 32 100000#32),
    unary main_c_44 main_v398 (broadcastInDim S500000 ![] bcast_S_S500000 : (⟨S_, .i32⟩ : BufTy).Contents (Elt F) → (⟨S500000, .i32⟩ : BufTy).Contents (Elt F)),
    binary main_v337 main_v398 main_v399 (addi : (⟨S500000, .i32⟩ : BufTy).Contents (Elt F) → (⟨S500000, .i32⟩ : BufTy).Contents (Elt F) → (⟨S500000, .i32⟩ : BufTy).Contents (Elt F)),
    ternary main_v397 main_v399 main_v337 main_v400 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v400 main_v401 (broadcastInDim S500000x1 ![0] bcast_S500000_S500000x1_0 : (⟨S500000, .i32⟩ : BufTy).Contents (Elt F) → (⟨S500000x1, .i32⟩ : BufTy).Contents (Elt F)),
    binary main_v360 main_v401 main_v402 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)) ]

/-- Stretch 1 of window 7: a stretch ends before each concatenation. -/
abbrev ops7_1 : List (HloOp τ sig (Elt F)) :=
  [ binary main_v402 main_v395 main_v403 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst_45 (constant S_ .f32 0x00000000#32),
    unary main_cst_45 main_v404 (broadcastInDim S100000x128 ![] bcast_S_S100000x128 : (⟨S_, .f32⟩ : BufTy).Contents (Elt F) → (⟨S100000x128, .f32⟩ : BufTy).Contents (Elt F)),
    unary main_v339 main_v405 (broadcastInDim S500000x1 ![0] bcast_S500000_S500000x1_0 : (⟨S500000, .i32⟩ : BufTy).Contents (Elt F) → (⟨S500000x1, .i32⟩ : BufTy).Contents (Elt F)),
    ternary main_v404 main_v405 main_v403 main_v406 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)) ]

/-- Stretch 2 of window 7: a stretch ends before each concatenation. -/
abbrev ops7_2 : List (HloOp τ sig (Elt F)) :=
  [ binary main_v360 main_v406 main_v407 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    unary main_v331 main_v408 ((transpose S192x64 [1, 0] · transposes_S64x192_S192x64_1_0) : (⟨S64x192, .f32⟩ : BufTy).Contents (Elt F) → (⟨S192x64, .f32⟩ : BufTy).Contents (Elt F)),
    binary main_v407 main_v408 main_v409 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_v333 main_v410 (broadcastInDim S1x64 ![1] bcast_S64_S1x64_1 : (⟨S64, .f32⟩ : BufTy).Contents (Elt F) → (⟨S1x64, .f32⟩ : BufTy).Contents (Elt F)),
    unary main_v410 main_v411 (broadcastInDim S100000x64 ![0, 1] bcast_S1x64_S100000x64_0_1 : (⟨S1x64, .f32⟩ : BufTy).Contents (Elt F) → (⟨S100000x64, .f32⟩ : BufTy).Contents (Elt F)),
    binary main_v409 main_v411 main_v412 (addf : (⟨S100000x64, .f32⟩ : BufTy).Contents (Elt F) → (⟨S100000x64, .f32⟩ : BufTy).Contents (Elt F) → (⟨S100000x64, .f32⟩ : BufTy).Contents (Elt F)),
    unary main_v335 main_v413 (broadcastInDim S1x64 ![1] bcast_S64_S1x64_1 : (⟨S64, .f32⟩ : BufTy).Contents (Elt F) → (⟨S1x64, .f32⟩ : BufTy).Contents (Elt F)),
    unary main_v413 main_v414 (broadcastInDim S100000x64 ![0, 1] bcast_S1x64_S100000x64_0_1 : (⟨S1x64, .f32⟩ : BufTy).Contents (Elt F) → (⟨S100000x64, .f32⟩ : BufTy).Contents (Elt F)),
    binary main_v412 main_v414 main_v415 (addf : (⟨S100000x64, .f32⟩ : BufTy).Contents (Elt F) → (⟨S100000x64, .f32⟩ : BufTy).Contents (Elt F) → (⟨S100000x64, .f32⟩ : BufTy).Contents (Elt F)),
    unary main_v103 main_v416 (broadcastInDim S1x100000x64 ![1, 2] bcast_S100000x64_S1x100000x64_1_2 : (⟨S100000x64, .f32⟩ : BufTy).Contents (Elt F) → (⟨S1x100000x64, .f32⟩ : BufTy).Contents (Elt F)),
    unary main_v207 main_v417 (broadcastInDim S1x100000x64 ![1, 2] bcast_S100000x64_S1x100000x64_1_2 : (⟨S100000x64, .f32⟩ : BufTy).Contents (Elt F) → (⟨S1x100000x64, .f32⟩ : BufTy).Contents (Elt F)),
    unary main_v311 main_v418 (broadcastInDim S1x100000x64 ![1, 2] bcast_S100000x64_S1x100000x64_1_2 : (⟨S100000x64, .f32⟩ : BufTy).Contents (Elt F) → (⟨S1x100000x64, .f32⟩ : BufTy).Contents (Elt F)),
    unary main_v415 main_v419 (broadcastInDim S1x100000x64 ![1, 2] bcast_S100000x64_S1x100000x64_1_2 : (⟨S100000x64, .f32⟩ : BufTy).Contents (Elt F) → (⟨S1x100000x64, .f32⟩ : BufTy).Contents (Elt F)) ]

/-- Stretch 3 of window 7: a stretch ends before each concatenation. -/
abbrev ops7_3 : List (HloOp τ sig (Elt F)) :=
  [ nary ![main_v416, main_v417, main_v418, main_v419] main_v420 (fun u => concatenate S4x100000x64 0 [⟨S1x100000x64, u 0⟩, ⟨S1x100000x64, u 1⟩, ⟨S1x100000x64, u 2⟩, ⟨S1x100000x64, u 3⟩] concatenates_S1x100000x64_S1x100000x64_S1x100000x64_S1x100000x64_S4x100000x64_d0),
    nullary main_cst_46 (constant S_ .f32 0x00000000#32),
    binary main_v420 main_cst_46 main_v421 ((fun x v => Host.reduceAdd x v reducesTo_S4x100000x64_S100000x64_d0 h_S_) : (⟨S4x100000x64, .f32⟩ : BufTy).Contents (Elt F) → (⟨S_, .f32⟩ : BufTy).Contents (Elt F) → (⟨S100000x64, .f32⟩ : BufTy).Contents (Elt F)),
    nullary main_cst_47 (constant S_ .f32 0x40800000#32),
    unary main_cst_47 main_v422 (broadcastInDim S100000x64 ![] bcast_S_S100000x64 : (⟨S_, .f32⟩ : BufTy).Contents (Elt F) → (⟨S100000x64, .f32⟩ : BufTy).Contents (Elt F)),
    binary main_v421 main_v422 main_v423 (Host.divf : (⟨S100000x64, .f32⟩ : BufTy).Contents (Elt F) → (⟨S100000x64, .f32⟩ : BufTy).Contents (Elt F) → (⟨S100000x64, .f32⟩ : BufTy).Contents (Elt F)) ]

set_option maxRecDepth 8192 in
theorem ops7_split : (ops7 : List (HloOp τ sig (Elt F))) = ops7_0 ++ (ops7_1 ++ (ops7_2 ++ (ops7_3))) := rfl

/-- The buffers that stretch 0 writes. -/
abbrev ops7_0_W : List (Ref sig .tc) := [main_v376, main_v377, main_v378, main_v379, main_cst_42, main_v380, main_v381, main_v382, main_v383, main_v384, main_v385, main_v386, main_v387, main_v388, main_v389, main_v390, main_v391, main_v392, main_v393, main_v394, main_v395, main_c_43, main_v396, main_v397, main_c_44, main_v398, main_v399, main_v400, main_v401, main_v402]
set_option maxRecDepth 8192 in
set_option maxHeartbeats 2000000 in
theorem ops7_0_writes : (ops7_0 : List (HloOp τ sig (Elt F))).Forall fun op => op.writes ⊆ (ops7_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops7_0_keep (W : Valuation τ sig (Elt F)) (r : Ref sig .tc) (h : r ∉ ops7_0_W) :
    after ops7_0 W (Proc.devRef .tc r) = W (Proc.devRef .tc r) :=
  after_of_writes_sub ops7_0 _ ops7_0_writes h

/-- The buffers that stretch 1 writes. -/
abbrev ops7_1_W : List (Ref sig .tc) := [main_v403, main_cst_45, main_v404, main_v405, main_v406]
set_option maxRecDepth 8192 in
set_option maxHeartbeats 2000000 in
theorem ops7_1_writes : (ops7_1 : List (HloOp τ sig (Elt F))).Forall fun op => op.writes ⊆ (ops7_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops7_1_keep (W : Valuation τ sig (Elt F)) (r : Ref sig .tc) (h : r ∉ ops7_1_W) :
    after ops7_1 W (Proc.devRef .tc r) = W (Proc.devRef .tc r) :=
  after_of_writes_sub ops7_1 _ ops7_1_writes h

/-- The buffers that stretch 2 writes. -/
abbrev ops7_2_W : List (Ref sig .tc) := [main_v407, main_v408, main_v409, main_v410, main_v411, main_v412, main_v413, main_v414, main_v415, main_v416, main_v417, main_v418, main_v419]
set_option maxRecDepth 8192 in
set_option maxHeartbeats 2000000 in
theorem ops7_2_writes : (ops7_2 : List (HloOp τ sig (Elt F))).Forall fun op => op.writes ⊆ (ops7_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops7_2_keep (W : Valuation τ sig (Elt F)) (r : Ref sig .tc) (h : r ∉ ops7_2_W) :
    after ops7_2 W (Proc.devRef .tc r) = W (Proc.devRef .tc r) :=
  after_of_writes_sub ops7_2 _ ops7_2_writes h

/-- The buffers that stretch 3 writes. -/
abbrev ops7_3_W : List (Ref sig .tc) := [main_v420, main_cst_46, main_v421, main_cst_47, main_v422, main_v423]
set_option maxRecDepth 8192 in
set_option maxHeartbeats 2000000 in
theorem ops7_3_writes : (ops7_3 : List (HloOp τ sig (Elt F))).Forall fun op => op.writes ⊆ (ops7_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops7_3_keep (W : Valuation τ sig (Elt F)) (r : Ref sig .tc) (h : r ∉ ops7_3_W) :
    after ops7_3 W (Proc.devRef .tc r) = W (Proc.devRef .tc r) :=
  after_of_writes_sub ops7_3 _ ops7_3_writes h

set_option maxRecDepth 8192 in
set_option maxHeartbeats 2000000 in
theorem sub7_0_main_v395 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v329 : W (no_index (Proc.devRef .tc main_v329)) = val_main_v329 (F := F) x9)
    (h_main_v327 : W (no_index (Proc.devRef .tc main_v327)) = val_main_v327 (F := F) x8)
    (h_main_v325 : W (no_index (Proc.devRef .tc main_v325)) = val_main_v325 (F := F) x7)
    (h_main_v323 : W (no_index (Proc.devRef .tc main_v323)) = val_main_v323 (F := F) x6)
    (h_main_cst_41 : W (no_index (Proc.devRef .tc main_cst_41)) = val_main_cst_41 (F := F))
    (h_main_v375 : W (no_index (Proc.devRef .tc main_v375)) = val_main_v375 (F := F) x0 x1 x4 x5)
    (h_main_v370 : W (no_index (Proc.devRef .tc main_v370)) = val_main_v370 (F := F) x0 x1 x4 x5)
    (h_main_v366 : W (no_index (Proc.devRef .tc main_v366)) = val_main_v366 (F := F) x0 x1 x4 x5) :
    after ops7_0 W (Proc.devRef .tc main_v395) = val_main_v395 (F := F) x0 x1 x4 x5 x6 x7 x8 x9 := by
  simp only [ops7_0]
  after_results_simp
  rw [h_main_v329, h_main_v327, h_main_v325, h_main_v323, h_main_cst_41, h_main_v375, h_main_v370, h_main_v366] <;> rfl

set_option maxRecDepth 8192 in
set_option maxHeartbeats 2000000 in
theorem sub7_0_main_v402 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v337 : W (no_index (Proc.devRef .tc main_v337)) = val_main_v337 (F := F) x1)
    (h_main_v360 : W (no_index (Proc.devRef .tc main_v360)) = val_main_v360 (F := F) x0 x2 x3) :
    after ops7_0 W (Proc.devRef .tc main_v402) = val_main_v402 (F := F) x0 x1 x2 x3 := by
  simp only [ops7_0]
  after_results_simp
  rw [h_main_v337, h_main_v360] <;> rfl

set_option maxRecDepth 8192 in
set_option maxHeartbeats 2000000 in
theorem sub7_1_main_v406 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v395 : W (no_index (Proc.devRef .tc main_v395)) = val_main_v395 (F := F) x0 x1 x4 x5 x6 x7 x8 x9)
    (h_main_v402 : W (no_index (Proc.devRef .tc main_v402)) = val_main_v402 (F := F) x0 x1 x2 x3)
    (h_main_v339 : W (no_index (Proc.devRef .tc main_v339)) = val_main_v339 (F := F) x1) :
    after ops7_1 W (Proc.devRef .tc main_v406) = val_main_v406 (F := F) x0 x1 x2 x3 x4 x5 x6 x7 x8 x9 := by
  simp only [ops7_1]
  after_results_simp
  rw [h_main_v395, h_main_v402, h_main_v339] <;> rfl

set_option maxRecDepth 8192 in
set_option maxHeartbeats 2000000 in
theorem sub7_2_main_v416 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v103 : W (no_index (Proc.devRef .tc main_v103)) = val_main_v103 (F := F) x0 x1 x2 x3 x4 x5 x6 x7 x8 x9 x10 x11 x12) :
    after ops7_2 W (Proc.devRef .tc main_v416) = val_main_v416 (F := F) x0 x1 x2 x3 x4 x5 x6 x7 x8 x9 x10 x11 x12 := by
  simp only [ops7_2]
  after_results_simp
  rw [h_main_v103] <;> rfl

set_option maxRecDepth 8192 in
set_option maxHeartbeats 2000000 in
theorem sub7_2_main_v417 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v207 : W (no_index (Proc.devRef .tc main_v207)) = val_main_v207 (F := F) x0 x1 x2 x3 x4 x5 x6 x7 x8 x9 x10 x11 x12) :
    after ops7_2 W (Proc.devRef .tc main_v417) = val_main_v417 (F := F) x0 x1 x2 x3 x4 x5 x6 x7 x8 x9 x10 x11 x12 := by
  simp only [ops7_2]
  after_results_simp
  rw [h_main_v207] <;> rfl

set_option maxRecDepth 8192 in
set_option maxHeartbeats 2000000 in
theorem sub7_2_main_v418 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v311 : W (no_index (Proc.devRef .tc main_v311)) = val_main_v311 (F := F) x0 x1 x2 x3 x4 x5 x6 x7 x8 x9 x10 x11 x12) :
    after ops7_2 W (Proc.devRef .tc main_v418) = val_main_v418 (F := F) x0 x1 x2 x3 x4 x5 x6 x7 x8 x9 x10 x11 x12 := by
  simp only [ops7_2]
  after_results_simp
  rw [h_main_v311] <;> rfl

set_option maxRecDepth 8192 in
set_option maxHeartbeats 2000000 in
theorem sub7_2_main_v419 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v335 : W (no_index (Proc.devRef .tc main_v335)) = val_main_v335 (F := F) x12)
    (h_main_v333 : W (no_index (Proc.devRef .tc main_v333)) = val_main_v333 (F := F) x11)
    (h_main_v331 : W (no_index (Proc.devRef .tc main_v331)) = val_main_v331 (F := F) x10)
    (h_main_v406 : W (no_index (Proc.devRef .tc main_v406)) = val_main_v406 (F := F) x0 x1 x2 x3 x4 x5 x6 x7 x8 x9)
    (h_main_v360 : W (no_index (Proc.devRef .tc main_v360)) = val_main_v360 (F := F) x0 x2 x3) :
    after ops7_2 W (Proc.devRef .tc main_v419) = val_main_v419 (F := F) x0 x1 x2 x3 x4 x5 x6 x7 x8 x9 x10 x11 x12 := by
  simp only [ops7_2]
  after_results_simp
  rw [h_main_v335, h_main_v333, h_main_v331, h_main_v406, h_main_v360] <;> rfl

set_option maxRecDepth 8192 in
set_option maxHeartbeats 2000000 in
theorem sub7_3_main_v423 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_v419 : W (no_index (Proc.devRef .tc main_v419)) = val_main_v419 (F := F) x0 x1 x2 x3 x4 x5 x6 x7 x8 x9 x10 x11 x12)
    (h_main_v418 : W (no_index (Proc.devRef .tc main_v418)) = val_main_v418 (F := F) x0 x1 x2 x3 x4 x5 x6 x7 x8 x9 x10 x11 x12)
    (h_main_v417 : W (no_index (Proc.devRef .tc main_v417)) = val_main_v417 (F := F) x0 x1 x2 x3 x4 x5 x6 x7 x8 x9 x10 x11 x12)
    (h_main_v416 : W (no_index (Proc.devRef .tc main_v416)) = val_main_v416 (F := F) x0 x1 x2 x3 x4 x5 x6 x7 x8 x9 x10 x11 x12) :
    after ops7_3 W (Proc.devRef .tc main_v423) = val_main_v423 (F := F) x0 x1 x2 x3 x4 x5 x6 x7 x8 x9 x10 x11 x12 := by
  simp only [ops7_3]
  after_results_simp
  try dsimp only [Matrix.cons_val]
  rw [h_main_v419, h_main_v418, h_main_v417, h_main_v416] <;> rfl
theorem w7_1_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg0) = x0 :=
  (ops7_0_keep W main_arg0 (by decide)).trans h_main_arg0
theorem w7_1_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg1) = x1 :=
  (ops7_0_keep W main_arg1 (by decide)).trans h_main_arg1
theorem w7_1_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg2) = x2 :=
  (ops7_0_keep W main_arg2 (by decide)).trans h_main_arg2
theorem w7_1_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg3) = x3 :=
  (ops7_0_keep W main_arg3 (by decide)).trans h_main_arg3
theorem w7_1_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg4) = x4 :=
  (ops7_0_keep W main_arg4 (by decide)).trans h_main_arg4
theorem w7_1_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg5) = x5 :=
  (ops7_0_keep W main_arg5 (by decide)).trans h_main_arg5
theorem w7_1_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg6) = x6 :=
  (ops7_0_keep W main_arg6 (by decide)).trans h_main_arg6
theorem w7_1_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg7) = x7 :=
  (ops7_0_keep W main_arg7 (by decide)).trans h_main_arg7
theorem w7_1_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg8) = x8 :=
  (ops7_0_keep W main_arg8 (by decide)).trans h_main_arg8
theorem w7_1_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg9) = x9 :=
  (ops7_0_keep W main_arg9 (by decide)).trans h_main_arg9
theorem w7_1_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg10) = x10 :=
  (ops7_0_keep W main_arg10 (by decide)).trans h_main_arg10
theorem w7_1_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg11) = x11 :=
  (ops7_0_keep W main_arg11 (by decide)).trans h_main_arg11
theorem w7_1_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_arg12) = x12 :=
  (ops7_0_keep W main_arg12 (by decide)).trans h_main_arg12
theorem w7_1_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v103) = val_main_v103 (F := F) x0 x1 x2 x3 x4 x5 x6 x7 x8 x9 x10 x11 x12 :=
  (ops7_0_keep W main_v103 (by decide)).trans h_main_v103
theorem w7_1_main_v207 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v207) = val_main_v207 (F := F) x0 x1 x2 x3 x4 x5 x6 x7 x8 x9 x10 x11 x12 :=
  (ops7_0_keep W main_v207 (by decide)).trans h_main_v207
theorem w7_1_main_v311 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v311) = val_main_v311 (F := F) x0 x1 x2 x3 x4 x5 x6 x7 x8 x9 x10 x11 x12 :=
  (ops7_0_keep W main_v311 (by decide)).trans h_main_v311
theorem w7_1_main_v331 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v331) = val_main_v331 (F := F) x10 :=
  (ops7_0_keep W main_v331 (by decide)).trans h_main_v331
theorem w7_1_main_v333 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v333) = val_main_v333 (F := F) x11 :=
  (ops7_0_keep W main_v333 (by decide)).trans h_main_v333
theorem w7_1_main_v335 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v335) = val_main_v335 (F := F) x12 :=
  (ops7_0_keep W main_v335 (by decide)).trans h_main_v335
theorem w7_1_main_v339 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v339) = val_main_v339 (F := F) x1 :=
  (ops7_0_keep W main_v339 (by decide)).trans h_main_v339
theorem w7_1_main_v360 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v360) = val_main_v360 (F := F) x0 x2 x3 :=
  (ops7_0_keep W main_v360 (by decide)).trans h_main_v360
theorem w7_1_main_v395 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v395) = val_main_v395 (F := F) x0 x1 x4 x5 x6 x7 x8 x9 :=
  sub7_0_main_v395 W x0 x1 x2 x3 x4 x5 x6 x7 x8 x9 x10 x11 x12 h_main_v329 h_main_v327 h_main_v325 h_main_v323 h_main_cst_41 h_main_v375 h_main_v370 h_main_v366
theorem w7_1_main_v402 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_0 W) (Proc.devRef .tc main_v402) = val_main_v402 (F := F) x0 x1 x2 x3 :=
  sub7_0_main_v402 W x0 x1 x2 x3 x4 x5 x6 x7 x8 x9 x10 x11 x12 h_main_v337 h_main_v360
theorem w7_2_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg0) = x0 :=
  (ops7_1_keep (after ops7_0 W) main_arg0 (by decide)).trans (w7_1_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg1) = x1 :=
  (ops7_1_keep (after ops7_0 W) main_arg1 (by decide)).trans (w7_1_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg2) = x2 :=
  (ops7_1_keep (after ops7_0 W) main_arg2 (by decide)).trans (w7_1_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg3) = x3 :=
  (ops7_1_keep (after ops7_0 W) main_arg3 (by decide)).trans (w7_1_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg4) = x4 :=
  (ops7_1_keep (after ops7_0 W) main_arg4 (by decide)).trans (w7_1_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg5) = x5 :=
  (ops7_1_keep (after ops7_0 W) main_arg5 (by decide)).trans (w7_1_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg6) = x6 :=
  (ops7_1_keep (after ops7_0 W) main_arg6 (by decide)).trans (w7_1_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg7) = x7 :=
  (ops7_1_keep (after ops7_0 W) main_arg7 (by decide)).trans (w7_1_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg8) = x8 :=
  (ops7_1_keep (after ops7_0 W) main_arg8 (by decide)).trans (w7_1_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg9) = x9 :=
  (ops7_1_keep (after ops7_0 W) main_arg9 (by decide)).trans (w7_1_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg10) = x10 :=
  (ops7_1_keep (after ops7_0 W) main_arg10 (by decide)).trans (w7_1_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg11) = x11 :=
  (ops7_1_keep (after ops7_0 W) main_arg11 (by decide)).trans (w7_1_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_arg12) = x12 :=
  (ops7_1_keep (after ops7_0 W) main_arg12 (by decide)).trans (w7_1_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_v103 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_v103) = val_main_v103 (F := F) x0 x1 x2 x3 x4 x5 x6 x7 x8 x9 x10 x11 x12 :=
  (ops7_1_keep (after ops7_0 W) main_v103 (by decide)).trans (w7_1_main_v103 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_v207 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_v207) = val_main_v207 (F := F) x0 x1 x2 x3 x4 x5 x6 x7 x8 x9 x10 x11 x12 :=
  (ops7_1_keep (after ops7_0 W) main_v207 (by decide)).trans (w7_1_main_v207 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_v311 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_v311) = val_main_v311 (F := F) x0 x1 x2 x3 x4 x5 x6 x7 x8 x9 x10 x11 x12 :=
  (ops7_1_keep (after ops7_0 W) main_v311 (by decide)).trans (w7_1_main_v311 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_v331 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_v331) = val_main_v331 (F := F) x10 :=
  (ops7_1_keep (after ops7_0 W) main_v331 (by decide)).trans (w7_1_main_v331 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_v333 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_v333) = val_main_v333 (F := F) x11 :=
  (ops7_1_keep (after ops7_0 W) main_v333 (by decide)).trans (w7_1_main_v333 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_v335 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_v335) = val_main_v335 (F := F) x12 :=
  (ops7_1_keep (after ops7_0 W) main_v335 (by decide)).trans (w7_1_main_v335 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_v360 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_v360) = val_main_v360 (F := F) x0 x2 x3 :=
  (ops7_1_keep (after ops7_0 W) main_v360 (by decide)).trans (w7_1_main_v360 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_2_main_v406 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_1 (after ops7_0 W)) (Proc.devRef .tc main_v406) = val_main_v406 (F := F) x0 x1 x2 x3 x4 x5 x6 x7 x8 x9 :=
  sub7_1_main_v406 (after ops7_0 W) x0 x1 x2 x3 x4 x5 x6 x7 x8 x9 x10 x11 x12 (w7_1_main_v395 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_1_main_v402 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_1_main_v339 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg0) = x0 :=
  (ops7_2_keep (after ops7_1 (after ops7_0 W)) main_arg0 (by decide)).trans (w7_2_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg1) = x1 :=
  (ops7_2_keep (after ops7_1 (after ops7_0 W)) main_arg1 (by decide)).trans (w7_2_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg2) = x2 :=
  (ops7_2_keep (after ops7_1 (after ops7_0 W)) main_arg2 (by decide)).trans (w7_2_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg3) = x3 :=
  (ops7_2_keep (after ops7_1 (after ops7_0 W)) main_arg3 (by decide)).trans (w7_2_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg4) = x4 :=
  (ops7_2_keep (after ops7_1 (after ops7_0 W)) main_arg4 (by decide)).trans (w7_2_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg5) = x5 :=
  (ops7_2_keep (after ops7_1 (after ops7_0 W)) main_arg5 (by decide)).trans (w7_2_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg6) = x6 :=
  (ops7_2_keep (after ops7_1 (after ops7_0 W)) main_arg6 (by decide)).trans (w7_2_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg7) = x7 :=
  (ops7_2_keep (after ops7_1 (after ops7_0 W)) main_arg7 (by decide)).trans (w7_2_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg8) = x8 :=
  (ops7_2_keep (after ops7_1 (after ops7_0 W)) main_arg8 (by decide)).trans (w7_2_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg9) = x9 :=
  (ops7_2_keep (after ops7_1 (after ops7_0 W)) main_arg9 (by decide)).trans (w7_2_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg10) = x10 :=
  (ops7_2_keep (after ops7_1 (after ops7_0 W)) main_arg10 (by decide)).trans (w7_2_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg11) = x11 :=
  (ops7_2_keep (after ops7_1 (after ops7_0 W)) main_arg11 (by decide)).trans (w7_2_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_arg12) = x12 :=
  (ops7_2_keep (after ops7_1 (after ops7_0 W)) main_arg12 (by decide)).trans (w7_2_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_v416 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_v416) = val_main_v416 (F := F) x0 x1 x2 x3 x4 x5 x6 x7 x8 x9 x10 x11 x12 :=
  sub7_2_main_v416 (after ops7_1 (after ops7_0 W)) x0 x1 x2 x3 x4 x5 x6 x7 x8 x9 x10 x11 x12 (w7_2_main_v103 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_v417 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_v417) = val_main_v417 (F := F) x0 x1 x2 x3 x4 x5 x6 x7 x8 x9 x10 x11 x12 :=
  sub7_2_main_v417 (after ops7_1 (after ops7_0 W)) x0 x1 x2 x3 x4 x5 x6 x7 x8 x9 x10 x11 x12 (w7_2_main_v207 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_v418 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_v418) = val_main_v418 (F := F) x0 x1 x2 x3 x4 x5 x6 x7 x8 x9 x10 x11 x12 :=
  sub7_2_main_v418 (after ops7_1 (after ops7_0 W)) x0 x1 x2 x3 x4 x5 x6 x7 x8 x9 x10 x11 x12 (w7_2_main_v311 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_3_main_v419 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_2 (after ops7_1 (after ops7_0 W))) (Proc.devRef .tc main_v419) = val_main_v419 (F := F) x0 x1 x2 x3 x4 x5 x6 x7 x8 x9 x10 x11 x12 :=
  sub7_2_main_v419 (after ops7_1 (after ops7_0 W)) x0 x1 x2 x3 x4 x5 x6 x7 x8 x9 x10 x11 x12 (w7_2_main_v335 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_2_main_v333 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_2_main_v331 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_2_main_v406 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_2_main_v360 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg0 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg0) = x0 :=
  (ops7_3_keep (after ops7_2 (after ops7_1 (after ops7_0 W))) main_arg0 (by decide)).trans (w7_3_main_arg0 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg1 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg1) = x1 :=
  (ops7_3_keep (after ops7_2 (after ops7_1 (after ops7_0 W))) main_arg1 (by decide)).trans (w7_3_main_arg1 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg2 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg2) = x2 :=
  (ops7_3_keep (after ops7_2 (after ops7_1 (after ops7_0 W))) main_arg2 (by decide)).trans (w7_3_main_arg2 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg3 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg3) = x3 :=
  (ops7_3_keep (after ops7_2 (after ops7_1 (after ops7_0 W))) main_arg3 (by decide)).trans (w7_3_main_arg3 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg4 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg4) = x4 :=
  (ops7_3_keep (after ops7_2 (after ops7_1 (after ops7_0 W))) main_arg4 (by decide)).trans (w7_3_main_arg4 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg5 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg5) = x5 :=
  (ops7_3_keep (after ops7_2 (after ops7_1 (after ops7_0 W))) main_arg5 (by decide)).trans (w7_3_main_arg5 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg6 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg6) = x6 :=
  (ops7_3_keep (after ops7_2 (after ops7_1 (after ops7_0 W))) main_arg6 (by decide)).trans (w7_3_main_arg6 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg7 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg7) = x7 :=
  (ops7_3_keep (after ops7_2 (after ops7_1 (after ops7_0 W))) main_arg7 (by decide)).trans (w7_3_main_arg7 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg8 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg8) = x8 :=
  (ops7_3_keep (after ops7_2 (after ops7_1 (after ops7_0 W))) main_arg8 (by decide)).trans (w7_3_main_arg8 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg9 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg9) = x9 :=
  (ops7_3_keep (after ops7_2 (after ops7_1 (after ops7_0 W))) main_arg9 (by decide)).trans (w7_3_main_arg9 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg10 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg10) = x10 :=
  (ops7_3_keep (after ops7_2 (after ops7_1 (after ops7_0 W))) main_arg10 (by decide)).trans (w7_3_main_arg10 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg11 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg11) = x11 :=
  (ops7_3_keep (after ops7_2 (after ops7_1 (after ops7_0 W))) main_arg11 (by decide)).trans (w7_3_main_arg11 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_arg12 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_arg12) = x12 :=
  (ops7_3_keep (after ops7_2 (after ops7_1 (after ops7_0 W))) main_arg12 (by decide)).trans (w7_3_main_arg12 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)
theorem w7_4_main_v423 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    (after ops7_3 (after ops7_2 (after ops7_1 (after ops7_0 W)))) (Proc.devRef .tc main_v423) = val_main_v423 (F := F) x0 x1 x2 x3 x4 x5 x6 x7 x8 x9 x10 x11 x12 :=
  sub7_3_main_v423 (after ops7_2 (after ops7_1 (after ops7_0 W))) x0 x1 x2 x3 x4 x5 x6 x7 x8 x9 x10 x11 x12 (w7_3_main_v419 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_3_main_v418 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_3_main_v417 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41) (w7_3_main_v416 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41)

theorem win7_main_v423 (W : Valuation τ sig (Elt F)) (x0 : (⟨S100000x64, .f32⟩ : BufTy).Contents (Elt F)) (x1 : (⟨S4x2x500000, .i32⟩ : BufTy).Contents (Elt F)) (x2 : (⟨S4x64x64, .f32⟩ : BufTy).Contents (Elt F)) (x3 : (⟨S4x64, .f32⟩ : BufTy).Contents (Elt F)) (x4 : (⟨S4x64x64, .f32⟩ : BufTy).Contents (Elt F)) (x5 : (⟨S4x64, .f32⟩ : BufTy).Contents (Elt F)) (x6 : (⟨S4x64, .f32⟩ : BufTy).Contents (Elt F)) (x7 : (⟨S4x64, .f32⟩ : BufTy).Contents (Elt F)) (x8 : (⟨S4x64x64, .f32⟩ : BufTy).Contents (Elt F)) (x9 : (⟨S4x64, .f32⟩ : BufTy).Contents (Elt F)) (x10 : (⟨S4x64x192, .f32⟩ : BufTy).Contents (Elt F)) (x11 : (⟨S4x64, .f32⟩ : BufTy).Contents (Elt F)) (x12 : (⟨S4x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg3 : W (no_index (Proc.devRef .tc main_arg3)) = x3)
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_arg8 : W (no_index (Proc.devRef .tc main_arg8)) = x8)
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v103 : W (no_index (Proc.devRef .tc main_v103)) = val_main_v103 (F := F) x0 x1 x2 x3 x4 x5 x6 x7 x8 x9 x10 x11 x12)
    (h_main_v207 : W (no_index (Proc.devRef .tc main_v207)) = val_main_v207 (F := F) x0 x1 x2 x3 x4 x5 x6 x7 x8 x9 x10 x11 x12)
    (h_main_v311 : W (no_index (Proc.devRef .tc main_v311)) = val_main_v311 (F := F) x0 x1 x2 x3 x4 x5 x6 x7 x8 x9 x10 x11 x12)
    (h_main_v323 : W (no_index (Proc.devRef .tc main_v323)) = val_main_v323 (F := F) x6)
    (h_main_v325 : W (no_index (Proc.devRef .tc main_v325)) = val_main_v325 (F := F) x7)
    (h_main_v327 : W (no_index (Proc.devRef .tc main_v327)) = val_main_v327 (F := F) x8)
    (h_main_v329 : W (no_index (Proc.devRef .tc main_v329)) = val_main_v329 (F := F) x9)
    (h_main_v331 : W (no_index (Proc.devRef .tc main_v331)) = val_main_v331 (F := F) x10)
    (h_main_v333 : W (no_index (Proc.devRef .tc main_v333)) = val_main_v333 (F := F) x11)
    (h_main_v335 : W (no_index (Proc.devRef .tc main_v335)) = val_main_v335 (F := F) x12)
    (h_main_v337 : W (no_index (Proc.devRef .tc main_v337)) = val_main_v337 (F := F) x1)
    (h_main_v339 : W (no_index (Proc.devRef .tc main_v339)) = val_main_v339 (F := F) x1)
    (h_main_v360 : W (no_index (Proc.devRef .tc main_v360)) = val_main_v360 (F := F) x0 x2 x3)
    (h_main_v366 : W (no_index (Proc.devRef .tc main_v366)) = val_main_v366 (F := F) x0 x1 x4 x5)
    (h_main_v370 : W (no_index (Proc.devRef .tc main_v370)) = val_main_v370 (F := F) x0 x1 x4 x5)
    (h_main_v375 : W (no_index (Proc.devRef .tc main_v375)) = val_main_v375 (F := F) x0 x1 x4 x5)
    (h_main_cst_41 : W (no_index (Proc.devRef .tc main_cst_41)) = val_main_cst_41 (F := F)) :
    after ops7 W (Proc.devRef .tc main_v423) = val_main_v423 (F := F) x0 x1 x2 x3 x4 x5 x6 x7 x8 x9 x10 x11 x12 := by
  rw [ops7_split]
  simp only [after_append]
  exact w7_4_main_v423 W x0 x1 x2 x3 x4 x5 x6 x7 x8 x9 x10 x11 x12 h_main_arg0 h_main_arg1 h_main_arg2 h_main_arg3 h_main_arg4 h_main_arg5 h_main_arg6 h_main_arg7 h_main_arg8 h_main_arg9 h_main_arg10 h_main_arg11 h_main_arg12 h_main_v103 h_main_v207 h_main_v311 h_main_v323 h_main_v325 h_main_v327 h_main_v329 h_main_v331 h_main_v333 h_main_v335 h_main_v337 h_main_v339 h_main_v360 h_main_v366 h_main_v370 h_main_v375 h_main_cst_41

end Cert.ReferenceIdeal.RefRun

end
-- ==== Proof.RefRunH.lean ====
/- The reference program's run, read window by window.

  `contK V` is the device's contents after the first K windows from contents `V`. At each boundary every buffer
  that a later window reads holds its stage value of the program's arguments (`atK_<buffer>`): a buffer the window
  writes by the window's reading, a buffer it does not write because it keeps its contents. After the last window
  the result buffer holds the last stage's value and the arguments are unchanged; `run` states this of every
  weakly fair execution from any memory.
-/
import proofs.«410647_j53395033423884_2_alg».proof.Proof.RefStages
import proofs.«410647_j53395033423884_2_alg».proof.Proof.RefOps
import proofs.«410647_j53395033423884_2_alg».proof.Proof.RefWin0
import proofs.«410647_j53395033423884_2_alg».proof.Proof.RefWin1
import proofs.«410647_j53395033423884_2_alg».proof.Proof.RefWin2
import proofs.«410647_j53395033423884_2_alg».proof.Proof.RefWin3
import proofs.«410647_j53395033423884_2_alg».proof.Proof.RefWin4
import proofs.«410647_j53395033423884_2_alg».proof.Proof.RefWin5
import proofs.«410647_j53395033423884_2_alg».proof.Proof.RefWin6
import proofs.«410647_j53395033423884_2_alg».proof.Proof.RefWin7

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The contents before the first window. -/
abbrev cont0 (V : Valuation τ sig (Elt F)) : Valuation τ sig (Elt F) := V
/-- The contents after the first 1 window. -/
abbrev cont1 (V : Valuation τ sig (Elt F)) : Valuation τ sig (Elt F) := after ops0 (cont0 V)
/-- The contents after the first 2 windows. -/
abbrev cont2 (V : Valuation τ sig (Elt F)) : Valuation τ sig (Elt F) := after ops1 (cont1 V)
/-- The contents after the first 3 windows. -/
abbrev cont3 (V : Valuation τ sig (Elt F)) : Valuation τ sig (Elt F) := after ops2 (cont2 V)
/-- The contents after the first 4 windows. -/
abbrev cont4 (V : Valuation τ sig (Elt F)) : Valuation τ sig (Elt F) := after ops3 (cont3 V)
/-- The contents after the first 5 windows. -/
abbrev cont5 (V : Valuation τ sig (Elt F)) : Valuation τ sig (Elt F) := after ops4 (cont4 V)
/-- The contents after the first 6 windows. -/
abbrev cont6 (V : Valuation τ sig (Elt F)) : Valuation τ sig (Elt F) := after ops5 (cont5 V)
/-- The contents after the first 7 windows. -/
abbrev cont7 (V : Valuation τ sig (Elt F)) : Valuation τ sig (Elt F) := after ops6 (cont6 V)
/-- The contents after the first 8 windows. -/
abbrev cont8 (V : Valuation τ sig (Elt F)) : Valuation τ sig (Elt F) := after ops7 (cont7 V)

theorem at0_main_arg0 (V : Valuation τ sig (Elt F)) : cont0 V (Proc.devRef .tc main_arg0) = V (Proc.devRef .tc main_arg0) := rfl
theorem at0_main_arg1 (V : Valuation τ sig (Elt F)) : cont0 V (Proc.devRef .tc main_arg1) = V (Proc.devRef .tc main_arg1) := rfl
theorem at0_main_arg2 (V : Valuation τ sig (Elt F)) : cont0 V (Proc.devRef .tc main_arg2) = V (Proc.devRef .tc main_arg2) := rfl
theorem at0_main_arg3 (V : Valuation τ sig (Elt F)) : cont0 V (Proc.devRef .tc main_arg3) = V (Proc.devRef .tc main_arg3) := rfl
theorem at0_main_arg4 (V : Valuation τ sig (Elt F)) : cont0 V (Proc.devRef .tc main_arg4) = V (Proc.devRef .tc main_arg4) := rfl
theorem at0_main_arg5 (V : Valuation τ sig (Elt F)) : cont0 V (Proc.devRef .tc main_arg5) = V (Proc.devRef .tc main_arg5) := rfl
theorem at0_main_arg6 (V : Valuation τ sig (Elt F)) : cont0 V (Proc.devRef .tc main_arg6) = V (Proc.devRef .tc main_arg6) := rfl
theorem at0_main_arg7 (V : Valuation τ sig (Elt F)) : cont0 V (Proc.devRef .tc main_arg7) = V (Proc.devRef .tc main_arg7) := rfl
theorem at0_main_arg8 (V : Valuation τ sig (Elt F)) : cont0 V (Proc.devRef .tc main_arg8) = V (Proc.devRef .tc main_arg8) := rfl
theorem at0_main_arg9 (V : Valuation τ sig (Elt F)) : cont0 V (Proc.devRef .tc main_arg9) = V (Proc.devRef .tc main_arg9) := rfl
theorem at0_main_arg10 (V : Valuation τ sig (Elt F)) : cont0 V (Proc.devRef .tc main_arg10) = V (Proc.devRef .tc main_arg10) := rfl
theorem at0_main_arg11 (V : Valuation τ sig (Elt F)) : cont0 V (Proc.devRef .tc main_arg11) = V (Proc.devRef .tc main_arg11) := rfl
theorem at0_main_arg12 (V : Valuation τ sig (Elt F)) : cont0 V (Proc.devRef .tc main_arg12) = V (Proc.devRef .tc main_arg12) := rfl

/-! ### After window 0 -/

theorem at1_main_arg0 (V : Valuation τ sig (Elt F)) : cont1 V (Proc.devRef .tc main_arg0) = V (Proc.devRef .tc main_arg0) :=
  (ops0_keep (cont0 V) main_arg0 (by decide)).trans (at0_main_arg0 V)
theorem at1_main_arg1 (V : Valuation τ sig (Elt F)) : cont1 V (Proc.devRef .tc main_arg1) = V (Proc.devRef .tc main_arg1) :=
  (ops0_keep (cont0 V) main_arg1 (by decide)).trans (at0_main_arg1 V)
theorem at1_main_arg2 (V : Valuation τ sig (Elt F)) : cont1 V (Proc.devRef .tc main_arg2) = V (Proc.devRef .tc main_arg2) :=
  (ops0_keep (cont0 V) main_arg2 (by decide)).trans (at0_main_arg2 V)
theorem at1_main_arg3 (V : Valuation τ sig (Elt F)) : cont1 V (Proc.devRef .tc main_arg3) = V (Proc.devRef .tc main_arg3) :=
  (ops0_keep (cont0 V) main_arg3 (by decide)).trans (at0_main_arg3 V)
theorem at1_main_arg4 (V : Valuation τ sig (Elt F)) : cont1 V (Proc.devRef .tc main_arg4) = V (Proc.devRef .tc main_arg4) :=
  (ops0_keep (cont0 V) main_arg4 (by decide)).trans (at0_main_arg4 V)
theorem at1_main_arg5 (V : Valuation τ sig (Elt F)) : cont1 V (Proc.devRef .tc main_arg5) = V (Proc.devRef .tc main_arg5) :=
  (ops0_keep (cont0 V) main_arg5 (by decide)).trans (at0_main_arg5 V)
theorem at1_main_arg6 (V : Valuation τ sig (Elt F)) : cont1 V (Proc.devRef .tc main_arg6) = V (Proc.devRef .tc main_arg6) :=
  (ops0_keep (cont0 V) main_arg6 (by decide)).trans (at0_main_arg6 V)
theorem at1_main_arg7 (V : Valuation τ sig (Elt F)) : cont1 V (Proc.devRef .tc main_arg7) = V (Proc.devRef .tc main_arg7) :=
  (ops0_keep (cont0 V) main_arg7 (by decide)).trans (at0_main_arg7 V)
theorem at1_main_arg8 (V : Valuation τ sig (Elt F)) : cont1 V (Proc.devRef .tc main_arg8) = V (Proc.devRef .tc main_arg8) :=
  (ops0_keep (cont0 V) main_arg8 (by decide)).trans (at0_main_arg8 V)
theorem at1_main_arg9 (V : Valuation τ sig (Elt F)) : cont1 V (Proc.devRef .tc main_arg9) = V (Proc.devRef .tc main_arg9) :=
  (ops0_keep (cont0 V) main_arg9 (by decide)).trans (at0_main_arg9 V)
theorem at1_main_arg10 (V : Valuation τ sig (Elt F)) : cont1 V (Proc.devRef .tc main_arg10) = V (Proc.devRef .tc main_arg10) :=
  (ops0_keep (cont0 V) main_arg10 (by decide)).trans (at0_main_arg10 V)
theorem at1_main_arg11 (V : Valuation τ sig (Elt F)) : cont1 V (Proc.devRef .tc main_arg11) = V (Proc.devRef .tc main_arg11) :=
  (ops0_keep (cont0 V) main_arg11 (by decide)).trans (at0_main_arg11 V)
theorem at1_main_arg12 (V : Valuation τ sig (Elt F)) : cont1 V (Proc.devRef .tc main_arg12) = V (Proc.devRef .tc main_arg12) :=
  (ops0_keep (cont0 V) main_arg12 (by decide)).trans (at0_main_arg12 V)
theorem at1_main_v11 (V : Valuation τ sig (Elt F)) : cont1 V (Proc.devRef .tc main_v11) = val_main_v11 (F := F) (V (Proc.devRef .tc main_arg6)) :=
  win0_main_v11 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v13 (V : Valuation τ sig (Elt F)) : cont1 V (Proc.devRef .tc main_v13) = val_main_v13 (F := F) (V (Proc.devRef .tc main_arg7)) :=
  win0_main_v13 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v15 (V : Valuation τ sig (Elt F)) : cont1 V (Proc.devRef .tc main_v15) = val_main_v15 (F := F) (V (Proc.devRef .tc main_arg8)) :=
  win0_main_v15 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v17 (V : Valuation τ sig (Elt F)) : cont1 V (Proc.devRef .tc main_v17) = val_main_v17 (F := F) (V (Proc.devRef .tc main_arg9)) :=
  win0_main_v17 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v19 (V : Valuation τ sig (Elt F)) : cont1 V (Proc.devRef .tc main_v19) = val_main_v19 (F := F) (V (Proc.devRef .tc main_arg10)) :=
  win0_main_v19 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v21 (V : Valuation τ sig (Elt F)) : cont1 V (Proc.devRef .tc main_v21) = val_main_v21 (F := F) (V (Proc.devRef .tc main_arg11)) :=
  win0_main_v21 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v23 (V : Valuation τ sig (Elt F)) : cont1 V (Proc.devRef .tc main_v23) = val_main_v23 (F := F) (V (Proc.devRef .tc main_arg12)) :=
  win0_main_v23 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v25 (V : Valuation τ sig (Elt F)) : cont1 V (Proc.devRef .tc main_v25) = val_main_v25 (F := F) (V (Proc.devRef .tc main_arg1)) :=
  win0_main_v25 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v27 (V : Valuation τ sig (Elt F)) : cont1 V (Proc.devRef .tc main_v27) = val_main_v27 (F := F) (V (Proc.devRef .tc main_arg1)) :=
  win0_main_v27 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v48 (V : Valuation τ sig (Elt F)) : cont1 V (Proc.devRef .tc main_v48) = val_main_v48 (F := F) (V (Proc.devRef .tc main_arg0)) (V (Proc.devRef .tc main_arg2)) (V (Proc.devRef .tc main_arg3)) :=
  win0_main_v48 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_v54 (V : Valuation τ sig (Elt F)) : cont1 V (Proc.devRef .tc main_v54) = val_main_v54 (F := F) (V (Proc.devRef .tc main_arg0)) (V (Proc.devRef .tc main_arg1)) (V (Proc.devRef .tc main_arg4)) (V (Proc.devRef .tc main_arg5)) :=
  win0_main_v54 (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)
theorem at1_main_cst (V : Valuation τ sig (Elt F)) : cont1 V (Proc.devRef .tc main_cst) = val_main_cst (F := F) :=
  win0_main_cst (cont0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at0_main_arg0 V) (at0_main_arg1 V) (at0_main_arg2 V) (at0_main_arg3 V) (at0_main_arg4 V) (at0_main_arg5 V) (at0_main_arg6 V) (at0_main_arg7 V) (at0_main_arg8 V) (at0_main_arg9 V) (at0_main_arg10 V) (at0_main_arg11 V) (at0_main_arg12 V)

/-! ### After window 1 -/

theorem at2_main_arg0 (V : Valuation τ sig (Elt F)) : cont2 V (Proc.devRef .tc main_arg0) = V (Proc.devRef .tc main_arg0) :=
  (ops1_keep (cont1 V) main_arg0 (by decide)).trans (at1_main_arg0 V)
theorem at2_main_arg1 (V : Valuation τ sig (Elt F)) : cont2 V (Proc.devRef .tc main_arg1) = V (Proc.devRef .tc main_arg1) :=
  (ops1_keep (cont1 V) main_arg1 (by decide)).trans (at1_main_arg1 V)
theorem at2_main_arg2 (V : Valuation τ sig (Elt F)) : cont2 V (Proc.devRef .tc main_arg2) = V (Proc.devRef .tc main_arg2) :=
  (ops1_keep (cont1 V) main_arg2 (by decide)).trans (at1_main_arg2 V)
theorem at2_main_arg3 (V : Valuation τ sig (Elt F)) : cont2 V (Proc.devRef .tc main_arg3) = V (Proc.devRef .tc main_arg3) :=
  (ops1_keep (cont1 V) main_arg3 (by decide)).trans (at1_main_arg3 V)
theorem at2_main_arg4 (V : Valuation τ sig (Elt F)) : cont2 V (Proc.devRef .tc main_arg4) = V (Proc.devRef .tc main_arg4) :=
  (ops1_keep (cont1 V) main_arg4 (by decide)).trans (at1_main_arg4 V)
theorem at2_main_arg5 (V : Valuation τ sig (Elt F)) : cont2 V (Proc.devRef .tc main_arg5) = V (Proc.devRef .tc main_arg5) :=
  (ops1_keep (cont1 V) main_arg5 (by decide)).trans (at1_main_arg5 V)
theorem at2_main_arg6 (V : Valuation τ sig (Elt F)) : cont2 V (Proc.devRef .tc main_arg6) = V (Proc.devRef .tc main_arg6) :=
  (ops1_keep (cont1 V) main_arg6 (by decide)).trans (at1_main_arg6 V)
theorem at2_main_arg7 (V : Valuation τ sig (Elt F)) : cont2 V (Proc.devRef .tc main_arg7) = V (Proc.devRef .tc main_arg7) :=
  (ops1_keep (cont1 V) main_arg7 (by decide)).trans (at1_main_arg7 V)
theorem at2_main_arg8 (V : Valuation τ sig (Elt F)) : cont2 V (Proc.devRef .tc main_arg8) = V (Proc.devRef .tc main_arg8) :=
  (ops1_keep (cont1 V) main_arg8 (by decide)).trans (at1_main_arg8 V)
theorem at2_main_arg9 (V : Valuation τ sig (Elt F)) : cont2 V (Proc.devRef .tc main_arg9) = V (Proc.devRef .tc main_arg9) :=
  (ops1_keep (cont1 V) main_arg9 (by decide)).trans (at1_main_arg9 V)
theorem at2_main_arg10 (V : Valuation τ sig (Elt F)) : cont2 V (Proc.devRef .tc main_arg10) = V (Proc.devRef .tc main_arg10) :=
  (ops1_keep (cont1 V) main_arg10 (by decide)).trans (at1_main_arg10 V)
theorem at2_main_arg11 (V : Valuation τ sig (Elt F)) : cont2 V (Proc.devRef .tc main_arg11) = V (Proc.devRef .tc main_arg11) :=
  (ops1_keep (cont1 V) main_arg11 (by decide)).trans (at1_main_arg11 V)
theorem at2_main_arg12 (V : Valuation τ sig (Elt F)) : cont2 V (Proc.devRef .tc main_arg12) = V (Proc.devRef .tc main_arg12) :=
  (ops1_keep (cont1 V) main_arg12 (by decide)).trans (at1_main_arg12 V)
theorem at2_main_v103 (V : Valuation τ sig (Elt F)) : cont2 V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  win1_main_v103 (cont1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at1_main_arg0 V) (at1_main_arg1 V) (at1_main_arg2 V) (at1_main_arg3 V) (at1_main_arg4 V) (at1_main_arg5 V) (at1_main_arg6 V) (at1_main_arg7 V) (at1_main_arg8 V) (at1_main_arg9 V) (at1_main_arg10 V) (at1_main_arg11 V) (at1_main_arg12 V) (at1_main_v11 V) (at1_main_v13 V) (at1_main_v15 V) (at1_main_v17 V) (at1_main_v19 V) (at1_main_v21 V) (at1_main_v23 V) (at1_main_v25 V) (at1_main_v27 V) (at1_main_v48 V) (at1_main_v54 V) (at1_main_cst V)
theorem at2_main_v105 (V : Valuation τ sig (Elt F)) : cont2 V (Proc.devRef .tc main_v105) = val_main_v105 (F := F) (V (Proc.devRef .tc main_arg1)) :=
  win1_main_v105 (cont1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at1_main_arg0 V) (at1_main_arg1 V) (at1_main_arg2 V) (at1_main_arg3 V) (at1_main_arg4 V) (at1_main_arg5 V) (at1_main_arg6 V) (at1_main_arg7 V) (at1_main_arg8 V) (at1_main_arg9 V) (at1_main_arg10 V) (at1_main_arg11 V) (at1_main_arg12 V) (at1_main_v11 V) (at1_main_v13 V) (at1_main_v15 V) (at1_main_v17 V) (at1_main_v19 V) (at1_main_v21 V) (at1_main_v23 V) (at1_main_v25 V) (at1_main_v27 V) (at1_main_v48 V) (at1_main_v54 V) (at1_main_cst V)
theorem at2_main_v107 (V : Valuation τ sig (Elt F)) : cont2 V (Proc.devRef .tc main_v107) = val_main_v107 (F := F) (V (Proc.devRef .tc main_arg2)) :=
  win1_main_v107 (cont1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at1_main_arg0 V) (at1_main_arg1 V) (at1_main_arg2 V) (at1_main_arg3 V) (at1_main_arg4 V) (at1_main_arg5 V) (at1_main_arg6 V) (at1_main_arg7 V) (at1_main_arg8 V) (at1_main_arg9 V) (at1_main_arg10 V) (at1_main_arg11 V) (at1_main_arg12 V) (at1_main_v11 V) (at1_main_v13 V) (at1_main_v15 V) (at1_main_v17 V) (at1_main_v19 V) (at1_main_v21 V) (at1_main_v23 V) (at1_main_v25 V) (at1_main_v27 V) (at1_main_v48 V) (at1_main_v54 V) (at1_main_cst V)

/-! ### After window 2 -/

theorem at3_main_arg0 (V : Valuation τ sig (Elt F)) : cont3 V (Proc.devRef .tc main_arg0) = V (Proc.devRef .tc main_arg0) :=
  (ops2_keep (cont2 V) main_arg0 (by decide)).trans (at2_main_arg0 V)
theorem at3_main_arg1 (V : Valuation τ sig (Elt F)) : cont3 V (Proc.devRef .tc main_arg1) = V (Proc.devRef .tc main_arg1) :=
  (ops2_keep (cont2 V) main_arg1 (by decide)).trans (at2_main_arg1 V)
theorem at3_main_arg2 (V : Valuation τ sig (Elt F)) : cont3 V (Proc.devRef .tc main_arg2) = V (Proc.devRef .tc main_arg2) :=
  (ops2_keep (cont2 V) main_arg2 (by decide)).trans (at2_main_arg2 V)
theorem at3_main_arg3 (V : Valuation τ sig (Elt F)) : cont3 V (Proc.devRef .tc main_arg3) = V (Proc.devRef .tc main_arg3) :=
  (ops2_keep (cont2 V) main_arg3 (by decide)).trans (at2_main_arg3 V)
theorem at3_main_arg4 (V : Valuation τ sig (Elt F)) : cont3 V (Proc.devRef .tc main_arg4) = V (Proc.devRef .tc main_arg4) :=
  (ops2_keep (cont2 V) main_arg4 (by decide)).trans (at2_main_arg4 V)
theorem at3_main_arg5 (V : Valuation τ sig (Elt F)) : cont3 V (Proc.devRef .tc main_arg5) = V (Proc.devRef .tc main_arg5) :=
  (ops2_keep (cont2 V) main_arg5 (by decide)).trans (at2_main_arg5 V)
theorem at3_main_arg6 (V : Valuation τ sig (Elt F)) : cont3 V (Proc.devRef .tc main_arg6) = V (Proc.devRef .tc main_arg6) :=
  (ops2_keep (cont2 V) main_arg6 (by decide)).trans (at2_main_arg6 V)
theorem at3_main_arg7 (V : Valuation τ sig (Elt F)) : cont3 V (Proc.devRef .tc main_arg7) = V (Proc.devRef .tc main_arg7) :=
  (ops2_keep (cont2 V) main_arg7 (by decide)).trans (at2_main_arg7 V)
theorem at3_main_arg8 (V : Valuation τ sig (Elt F)) : cont3 V (Proc.devRef .tc main_arg8) = V (Proc.devRef .tc main_arg8) :=
  (ops2_keep (cont2 V) main_arg8 (by decide)).trans (at2_main_arg8 V)
theorem at3_main_arg9 (V : Valuation τ sig (Elt F)) : cont3 V (Proc.devRef .tc main_arg9) = V (Proc.devRef .tc main_arg9) :=
  (ops2_keep (cont2 V) main_arg9 (by decide)).trans (at2_main_arg9 V)
theorem at3_main_arg10 (V : Valuation τ sig (Elt F)) : cont3 V (Proc.devRef .tc main_arg10) = V (Proc.devRef .tc main_arg10) :=
  (ops2_keep (cont2 V) main_arg10 (by decide)).trans (at2_main_arg10 V)
theorem at3_main_arg11 (V : Valuation τ sig (Elt F)) : cont3 V (Proc.devRef .tc main_arg11) = V (Proc.devRef .tc main_arg11) :=
  (ops2_keep (cont2 V) main_arg11 (by decide)).trans (at2_main_arg11 V)
theorem at3_main_arg12 (V : Valuation τ sig (Elt F)) : cont3 V (Proc.devRef .tc main_arg12) = V (Proc.devRef .tc main_arg12) :=
  (ops2_keep (cont2 V) main_arg12 (by decide)).trans (at2_main_arg12 V)
theorem at3_main_v103 (V : Valuation τ sig (Elt F)) : cont3 V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops2_keep (cont2 V) main_v103 (by decide)).trans (at2_main_v103 V)
theorem at3_main_v115 (V : Valuation τ sig (Elt F)) : cont3 V (Proc.devRef .tc main_v115) = val_main_v115 (F := F) (V (Proc.devRef .tc main_arg6)) :=
  win2_main_v115 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v117 (V : Valuation τ sig (Elt F)) : cont3 V (Proc.devRef .tc main_v117) = val_main_v117 (F := F) (V (Proc.devRef .tc main_arg7)) :=
  win2_main_v117 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v119 (V : Valuation τ sig (Elt F)) : cont3 V (Proc.devRef .tc main_v119) = val_main_v119 (F := F) (V (Proc.devRef .tc main_arg8)) :=
  win2_main_v119 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v121 (V : Valuation τ sig (Elt F)) : cont3 V (Proc.devRef .tc main_v121) = val_main_v121 (F := F) (V (Proc.devRef .tc main_arg9)) :=
  win2_main_v121 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v123 (V : Valuation τ sig (Elt F)) : cont3 V (Proc.devRef .tc main_v123) = val_main_v123 (F := F) (V (Proc.devRef .tc main_arg10)) :=
  win2_main_v123 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v125 (V : Valuation τ sig (Elt F)) : cont3 V (Proc.devRef .tc main_v125) = val_main_v125 (F := F) (V (Proc.devRef .tc main_arg11)) :=
  win2_main_v125 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v127 (V : Valuation τ sig (Elt F)) : cont3 V (Proc.devRef .tc main_v127) = val_main_v127 (F := F) (V (Proc.devRef .tc main_arg12)) :=
  win2_main_v127 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v129 (V : Valuation τ sig (Elt F)) : cont3 V (Proc.devRef .tc main_v129) = val_main_v129 (F := F) (V (Proc.devRef .tc main_arg1)) :=
  win2_main_v129 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v131 (V : Valuation τ sig (Elt F)) : cont3 V (Proc.devRef .tc main_v131) = val_main_v131 (F := F) (V (Proc.devRef .tc main_arg1)) :=
  win2_main_v131 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v152 (V : Valuation τ sig (Elt F)) : cont3 V (Proc.devRef .tc main_v152) = val_main_v152 (F := F) (V (Proc.devRef .tc main_arg0)) (V (Proc.devRef .tc main_arg2)) (V (Proc.devRef .tc main_arg3)) :=
  win2_main_v152 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v158 (V : Valuation τ sig (Elt F)) : cont3 V (Proc.devRef .tc main_v158) = val_main_v158 (F := F) (V (Proc.devRef .tc main_arg0)) (V (Proc.devRef .tc main_arg1)) (V (Proc.devRef .tc main_arg4)) (V (Proc.devRef .tc main_arg5)) :=
  win2_main_v158 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v160 (V : Valuation τ sig (Elt F)) : cont3 V (Proc.devRef .tc main_v160) = val_main_v160 (F := F) (V (Proc.devRef .tc main_arg0)) (V (Proc.devRef .tc main_arg1)) (V (Proc.devRef .tc main_arg4)) (V (Proc.devRef .tc main_arg5)) :=
  win2_main_v160 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)
theorem at3_main_v161 (V : Valuation τ sig (Elt F)) : cont3 V (Proc.devRef .tc main_v161) = val_main_v161 (F := F) :=
  win2_main_v161 (cont2 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at2_main_arg0 V) (at2_main_arg1 V) (at2_main_arg2 V) (at2_main_arg3 V) (at2_main_arg4 V) (at2_main_arg5 V) (at2_main_arg6 V) (at2_main_arg7 V) (at2_main_arg8 V) (at2_main_arg9 V) (at2_main_arg10 V) (at2_main_arg11 V) (at2_main_arg12 V) (at2_main_v103 V) (at2_main_v105 V) (at2_main_v107 V)

/-! ### After window 3 -/

theorem at4_main_arg0 (V : Valuation τ sig (Elt F)) : cont4 V (Proc.devRef .tc main_arg0) = V (Proc.devRef .tc main_arg0) :=
  (ops3_keep (cont3 V) main_arg0 (by decide)).trans (at3_main_arg0 V)
theorem at4_main_arg1 (V : Valuation τ sig (Elt F)) : cont4 V (Proc.devRef .tc main_arg1) = V (Proc.devRef .tc main_arg1) :=
  (ops3_keep (cont3 V) main_arg1 (by decide)).trans (at3_main_arg1 V)
theorem at4_main_arg2 (V : Valuation τ sig (Elt F)) : cont4 V (Proc.devRef .tc main_arg2) = V (Proc.devRef .tc main_arg2) :=
  (ops3_keep (cont3 V) main_arg2 (by decide)).trans (at3_main_arg2 V)
theorem at4_main_arg3 (V : Valuation τ sig (Elt F)) : cont4 V (Proc.devRef .tc main_arg3) = V (Proc.devRef .tc main_arg3) :=
  (ops3_keep (cont3 V) main_arg3 (by decide)).trans (at3_main_arg3 V)
theorem at4_main_arg4 (V : Valuation τ sig (Elt F)) : cont4 V (Proc.devRef .tc main_arg4) = V (Proc.devRef .tc main_arg4) :=
  (ops3_keep (cont3 V) main_arg4 (by decide)).trans (at3_main_arg4 V)
theorem at4_main_arg5 (V : Valuation τ sig (Elt F)) : cont4 V (Proc.devRef .tc main_arg5) = V (Proc.devRef .tc main_arg5) :=
  (ops3_keep (cont3 V) main_arg5 (by decide)).trans (at3_main_arg5 V)
theorem at4_main_arg6 (V : Valuation τ sig (Elt F)) : cont4 V (Proc.devRef .tc main_arg6) = V (Proc.devRef .tc main_arg6) :=
  (ops3_keep (cont3 V) main_arg6 (by decide)).trans (at3_main_arg6 V)
theorem at4_main_arg7 (V : Valuation τ sig (Elt F)) : cont4 V (Proc.devRef .tc main_arg7) = V (Proc.devRef .tc main_arg7) :=
  (ops3_keep (cont3 V) main_arg7 (by decide)).trans (at3_main_arg7 V)
theorem at4_main_arg8 (V : Valuation τ sig (Elt F)) : cont4 V (Proc.devRef .tc main_arg8) = V (Proc.devRef .tc main_arg8) :=
  (ops3_keep (cont3 V) main_arg8 (by decide)).trans (at3_main_arg8 V)
theorem at4_main_arg9 (V : Valuation τ sig (Elt F)) : cont4 V (Proc.devRef .tc main_arg9) = V (Proc.devRef .tc main_arg9) :=
  (ops3_keep (cont3 V) main_arg9 (by decide)).trans (at3_main_arg9 V)
theorem at4_main_arg10 (V : Valuation τ sig (Elt F)) : cont4 V (Proc.devRef .tc main_arg10) = V (Proc.devRef .tc main_arg10) :=
  (ops3_keep (cont3 V) main_arg10 (by decide)).trans (at3_main_arg10 V)
theorem at4_main_arg11 (V : Valuation τ sig (Elt F)) : cont4 V (Proc.devRef .tc main_arg11) = V (Proc.devRef .tc main_arg11) :=
  (ops3_keep (cont3 V) main_arg11 (by decide)).trans (at3_main_arg11 V)
theorem at4_main_arg12 (V : Valuation τ sig (Elt F)) : cont4 V (Proc.devRef .tc main_arg12) = V (Proc.devRef .tc main_arg12) :=
  (ops3_keep (cont3 V) main_arg12 (by decide)).trans (at3_main_arg12 V)
theorem at4_main_v103 (V : Valuation τ sig (Elt F)) : cont4 V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops3_keep (cont3 V) main_v103 (by decide)).trans (at3_main_v103 V)
theorem at4_main_v207 (V : Valuation τ sig (Elt F)) : cont4 V (Proc.devRef .tc main_v207) = val_main_v207 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  win3_main_v207 (cont3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at3_main_arg0 V) (at3_main_arg1 V) (at3_main_arg2 V) (at3_main_arg3 V) (at3_main_arg4 V) (at3_main_arg5 V) (at3_main_arg6 V) (at3_main_arg7 V) (at3_main_arg8 V) (at3_main_arg9 V) (at3_main_arg10 V) (at3_main_arg11 V) (at3_main_arg12 V) (at3_main_v103 V) (at3_main_v115 V) (at3_main_v117 V) (at3_main_v119 V) (at3_main_v121 V) (at3_main_v123 V) (at3_main_v125 V) (at3_main_v127 V) (at3_main_v129 V) (at3_main_v131 V) (at3_main_v152 V) (at3_main_v158 V) (at3_main_v160 V) (at3_main_v161 V)
theorem at4_main_v209 (V : Valuation τ sig (Elt F)) : cont4 V (Proc.devRef .tc main_v209) = val_main_v209 (F := F) (V (Proc.devRef .tc main_arg1)) :=
  win3_main_v209 (cont3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at3_main_arg0 V) (at3_main_arg1 V) (at3_main_arg2 V) (at3_main_arg3 V) (at3_main_arg4 V) (at3_main_arg5 V) (at3_main_arg6 V) (at3_main_arg7 V) (at3_main_arg8 V) (at3_main_arg9 V) (at3_main_arg10 V) (at3_main_arg11 V) (at3_main_arg12 V) (at3_main_v103 V) (at3_main_v115 V) (at3_main_v117 V) (at3_main_v119 V) (at3_main_v121 V) (at3_main_v123 V) (at3_main_v125 V) (at3_main_v127 V) (at3_main_v129 V) (at3_main_v131 V) (at3_main_v152 V) (at3_main_v158 V) (at3_main_v160 V) (at3_main_v161 V)
theorem at4_main_v211 (V : Valuation τ sig (Elt F)) : cont4 V (Proc.devRef .tc main_v211) = val_main_v211 (F := F) (V (Proc.devRef .tc main_arg2)) :=
  win3_main_v211 (cont3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at3_main_arg0 V) (at3_main_arg1 V) (at3_main_arg2 V) (at3_main_arg3 V) (at3_main_arg4 V) (at3_main_arg5 V) (at3_main_arg6 V) (at3_main_arg7 V) (at3_main_arg8 V) (at3_main_arg9 V) (at3_main_arg10 V) (at3_main_arg11 V) (at3_main_arg12 V) (at3_main_v103 V) (at3_main_v115 V) (at3_main_v117 V) (at3_main_v119 V) (at3_main_v121 V) (at3_main_v123 V) (at3_main_v125 V) (at3_main_v127 V) (at3_main_v129 V) (at3_main_v131 V) (at3_main_v152 V) (at3_main_v158 V) (at3_main_v160 V) (at3_main_v161 V)
theorem at4_main_v213 (V : Valuation τ sig (Elt F)) : cont4 V (Proc.devRef .tc main_v213) = val_main_v213 (F := F) (V (Proc.devRef .tc main_arg3)) :=
  win3_main_v213 (cont3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at3_main_arg0 V) (at3_main_arg1 V) (at3_main_arg2 V) (at3_main_arg3 V) (at3_main_arg4 V) (at3_main_arg5 V) (at3_main_arg6 V) (at3_main_arg7 V) (at3_main_arg8 V) (at3_main_arg9 V) (at3_main_arg10 V) (at3_main_arg11 V) (at3_main_arg12 V) (at3_main_v103 V) (at3_main_v115 V) (at3_main_v117 V) (at3_main_v119 V) (at3_main_v121 V) (at3_main_v123 V) (at3_main_v125 V) (at3_main_v127 V) (at3_main_v129 V) (at3_main_v131 V) (at3_main_v152 V) (at3_main_v158 V) (at3_main_v160 V) (at3_main_v161 V)
theorem at4_main_v215 (V : Valuation τ sig (Elt F)) : cont4 V (Proc.devRef .tc main_v215) = val_main_v215 (F := F) (V (Proc.devRef .tc main_arg4)) :=
  win3_main_v215 (cont3 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at3_main_arg0 V) (at3_main_arg1 V) (at3_main_arg2 V) (at3_main_arg3 V) (at3_main_arg4 V) (at3_main_arg5 V) (at3_main_arg6 V) (at3_main_arg7 V) (at3_main_arg8 V) (at3_main_arg9 V) (at3_main_arg10 V) (at3_main_arg11 V) (at3_main_arg12 V) (at3_main_v103 V) (at3_main_v115 V) (at3_main_v117 V) (at3_main_v119 V) (at3_main_v121 V) (at3_main_v123 V) (at3_main_v125 V) (at3_main_v127 V) (at3_main_v129 V) (at3_main_v131 V) (at3_main_v152 V) (at3_main_v158 V) (at3_main_v160 V) (at3_main_v161 V)

/-! ### After window 4 -/

theorem at5_main_arg0 (V : Valuation τ sig (Elt F)) : cont5 V (Proc.devRef .tc main_arg0) = V (Proc.devRef .tc main_arg0) :=
  (ops4_keep (cont4 V) main_arg0 (by decide)).trans (at4_main_arg0 V)
theorem at5_main_arg1 (V : Valuation τ sig (Elt F)) : cont5 V (Proc.devRef .tc main_arg1) = V (Proc.devRef .tc main_arg1) :=
  (ops4_keep (cont4 V) main_arg1 (by decide)).trans (at4_main_arg1 V)
theorem at5_main_arg2 (V : Valuation τ sig (Elt F)) : cont5 V (Proc.devRef .tc main_arg2) = V (Proc.devRef .tc main_arg2) :=
  (ops4_keep (cont4 V) main_arg2 (by decide)).trans (at4_main_arg2 V)
theorem at5_main_arg3 (V : Valuation τ sig (Elt F)) : cont5 V (Proc.devRef .tc main_arg3) = V (Proc.devRef .tc main_arg3) :=
  (ops4_keep (cont4 V) main_arg3 (by decide)).trans (at4_main_arg3 V)
theorem at5_main_arg4 (V : Valuation τ sig (Elt F)) : cont5 V (Proc.devRef .tc main_arg4) = V (Proc.devRef .tc main_arg4) :=
  (ops4_keep (cont4 V) main_arg4 (by decide)).trans (at4_main_arg4 V)
theorem at5_main_arg5 (V : Valuation τ sig (Elt F)) : cont5 V (Proc.devRef .tc main_arg5) = V (Proc.devRef .tc main_arg5) :=
  (ops4_keep (cont4 V) main_arg5 (by decide)).trans (at4_main_arg5 V)
theorem at5_main_arg6 (V : Valuation τ sig (Elt F)) : cont5 V (Proc.devRef .tc main_arg6) = V (Proc.devRef .tc main_arg6) :=
  (ops4_keep (cont4 V) main_arg6 (by decide)).trans (at4_main_arg6 V)
theorem at5_main_arg7 (V : Valuation τ sig (Elt F)) : cont5 V (Proc.devRef .tc main_arg7) = V (Proc.devRef .tc main_arg7) :=
  (ops4_keep (cont4 V) main_arg7 (by decide)).trans (at4_main_arg7 V)
theorem at5_main_arg8 (V : Valuation τ sig (Elt F)) : cont5 V (Proc.devRef .tc main_arg8) = V (Proc.devRef .tc main_arg8) :=
  (ops4_keep (cont4 V) main_arg8 (by decide)).trans (at4_main_arg8 V)
theorem at5_main_arg9 (V : Valuation τ sig (Elt F)) : cont5 V (Proc.devRef .tc main_arg9) = V (Proc.devRef .tc main_arg9) :=
  (ops4_keep (cont4 V) main_arg9 (by decide)).trans (at4_main_arg9 V)
theorem at5_main_arg10 (V : Valuation τ sig (Elt F)) : cont5 V (Proc.devRef .tc main_arg10) = V (Proc.devRef .tc main_arg10) :=
  (ops4_keep (cont4 V) main_arg10 (by decide)).trans (at4_main_arg10 V)
theorem at5_main_arg11 (V : Valuation τ sig (Elt F)) : cont5 V (Proc.devRef .tc main_arg11) = V (Proc.devRef .tc main_arg11) :=
  (ops4_keep (cont4 V) main_arg11 (by decide)).trans (at4_main_arg11 V)
theorem at5_main_arg12 (V : Valuation τ sig (Elt F)) : cont5 V (Proc.devRef .tc main_arg12) = V (Proc.devRef .tc main_arg12) :=
  (ops4_keep (cont4 V) main_arg12 (by decide)).trans (at4_main_arg12 V)
theorem at5_main_v103 (V : Valuation τ sig (Elt F)) : cont5 V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops4_keep (cont4 V) main_v103 (by decide)).trans (at4_main_v103 V)
theorem at5_main_v207 (V : Valuation τ sig (Elt F)) : cont5 V (Proc.devRef .tc main_v207) = val_main_v207 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops4_keep (cont4 V) main_v207 (by decide)).trans (at4_main_v207 V)
theorem at5_main_v219 (V : Valuation τ sig (Elt F)) : cont5 V (Proc.devRef .tc main_v219) = val_main_v219 (F := F) (V (Proc.devRef .tc main_arg6)) :=
  win4_main_v219 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v221 (V : Valuation τ sig (Elt F)) : cont5 V (Proc.devRef .tc main_v221) = val_main_v221 (F := F) (V (Proc.devRef .tc main_arg7)) :=
  win4_main_v221 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v223 (V : Valuation τ sig (Elt F)) : cont5 V (Proc.devRef .tc main_v223) = val_main_v223 (F := F) (V (Proc.devRef .tc main_arg8)) :=
  win4_main_v223 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v225 (V : Valuation τ sig (Elt F)) : cont5 V (Proc.devRef .tc main_v225) = val_main_v225 (F := F) (V (Proc.devRef .tc main_arg9)) :=
  win4_main_v225 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v227 (V : Valuation τ sig (Elt F)) : cont5 V (Proc.devRef .tc main_v227) = val_main_v227 (F := F) (V (Proc.devRef .tc main_arg10)) :=
  win4_main_v227 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v229 (V : Valuation τ sig (Elt F)) : cont5 V (Proc.devRef .tc main_v229) = val_main_v229 (F := F) (V (Proc.devRef .tc main_arg11)) :=
  win4_main_v229 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v231 (V : Valuation τ sig (Elt F)) : cont5 V (Proc.devRef .tc main_v231) = val_main_v231 (F := F) (V (Proc.devRef .tc main_arg12)) :=
  win4_main_v231 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v233 (V : Valuation τ sig (Elt F)) : cont5 V (Proc.devRef .tc main_v233) = val_main_v233 (F := F) (V (Proc.devRef .tc main_arg1)) :=
  win4_main_v233 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v235 (V : Valuation τ sig (Elt F)) : cont5 V (Proc.devRef .tc main_v235) = val_main_v235 (F := F) (V (Proc.devRef .tc main_arg1)) :=
  win4_main_v235 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v256 (V : Valuation τ sig (Elt F)) : cont5 V (Proc.devRef .tc main_v256) = val_main_v256 (F := F) (V (Proc.devRef .tc main_arg0)) (V (Proc.devRef .tc main_arg2)) (V (Proc.devRef .tc main_arg3)) :=
  win4_main_v256 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v262 (V : Valuation τ sig (Elt F)) : cont5 V (Proc.devRef .tc main_v262) = val_main_v262 (F := F) (V (Proc.devRef .tc main_arg0)) (V (Proc.devRef .tc main_arg1)) (V (Proc.devRef .tc main_arg4)) (V (Proc.devRef .tc main_arg5)) :=
  win4_main_v262 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v266 (V : Valuation τ sig (Elt F)) : cont5 V (Proc.devRef .tc main_v266) = val_main_v266 (F := F) (V (Proc.devRef .tc main_arg0)) (V (Proc.devRef .tc main_arg1)) (V (Proc.devRef .tc main_arg4)) (V (Proc.devRef .tc main_arg5)) :=
  win4_main_v266 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)
theorem at5_main_v269 (V : Valuation τ sig (Elt F)) : cont5 V (Proc.devRef .tc main_v269) = val_main_v269 (F := F) (V (Proc.devRef .tc main_arg0)) (V (Proc.devRef .tc main_arg1)) (V (Proc.devRef .tc main_arg4)) (V (Proc.devRef .tc main_arg5)) :=
  win4_main_v269 (cont4 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at4_main_arg0 V) (at4_main_arg1 V) (at4_main_arg2 V) (at4_main_arg3 V) (at4_main_arg4 V) (at4_main_arg5 V) (at4_main_arg6 V) (at4_main_arg7 V) (at4_main_arg8 V) (at4_main_arg9 V) (at4_main_arg10 V) (at4_main_arg11 V) (at4_main_arg12 V) (at4_main_v103 V) (at4_main_v207 V) (at4_main_v209 V) (at4_main_v211 V) (at4_main_v213 V) (at4_main_v215 V)

/-! ### After window 5 -/

theorem at6_main_arg0 (V : Valuation τ sig (Elt F)) : cont6 V (Proc.devRef .tc main_arg0) = V (Proc.devRef .tc main_arg0) :=
  (ops5_keep (cont5 V) main_arg0 (by decide)).trans (at5_main_arg0 V)
theorem at6_main_arg1 (V : Valuation τ sig (Elt F)) : cont6 V (Proc.devRef .tc main_arg1) = V (Proc.devRef .tc main_arg1) :=
  (ops5_keep (cont5 V) main_arg1 (by decide)).trans (at5_main_arg1 V)
theorem at6_main_arg2 (V : Valuation τ sig (Elt F)) : cont6 V (Proc.devRef .tc main_arg2) = V (Proc.devRef .tc main_arg2) :=
  (ops5_keep (cont5 V) main_arg2 (by decide)).trans (at5_main_arg2 V)
theorem at6_main_arg3 (V : Valuation τ sig (Elt F)) : cont6 V (Proc.devRef .tc main_arg3) = V (Proc.devRef .tc main_arg3) :=
  (ops5_keep (cont5 V) main_arg3 (by decide)).trans (at5_main_arg3 V)
theorem at6_main_arg4 (V : Valuation τ sig (Elt F)) : cont6 V (Proc.devRef .tc main_arg4) = V (Proc.devRef .tc main_arg4) :=
  (ops5_keep (cont5 V) main_arg4 (by decide)).trans (at5_main_arg4 V)
theorem at6_main_arg5 (V : Valuation τ sig (Elt F)) : cont6 V (Proc.devRef .tc main_arg5) = V (Proc.devRef .tc main_arg5) :=
  (ops5_keep (cont5 V) main_arg5 (by decide)).trans (at5_main_arg5 V)
theorem at6_main_arg6 (V : Valuation τ sig (Elt F)) : cont6 V (Proc.devRef .tc main_arg6) = V (Proc.devRef .tc main_arg6) :=
  (ops5_keep (cont5 V) main_arg6 (by decide)).trans (at5_main_arg6 V)
theorem at6_main_arg7 (V : Valuation τ sig (Elt F)) : cont6 V (Proc.devRef .tc main_arg7) = V (Proc.devRef .tc main_arg7) :=
  (ops5_keep (cont5 V) main_arg7 (by decide)).trans (at5_main_arg7 V)
theorem at6_main_arg8 (V : Valuation τ sig (Elt F)) : cont6 V (Proc.devRef .tc main_arg8) = V (Proc.devRef .tc main_arg8) :=
  (ops5_keep (cont5 V) main_arg8 (by decide)).trans (at5_main_arg8 V)
theorem at6_main_arg9 (V : Valuation τ sig (Elt F)) : cont6 V (Proc.devRef .tc main_arg9) = V (Proc.devRef .tc main_arg9) :=
  (ops5_keep (cont5 V) main_arg9 (by decide)).trans (at5_main_arg9 V)
theorem at6_main_arg10 (V : Valuation τ sig (Elt F)) : cont6 V (Proc.devRef .tc main_arg10) = V (Proc.devRef .tc main_arg10) :=
  (ops5_keep (cont5 V) main_arg10 (by decide)).trans (at5_main_arg10 V)
theorem at6_main_arg11 (V : Valuation τ sig (Elt F)) : cont6 V (Proc.devRef .tc main_arg11) = V (Proc.devRef .tc main_arg11) :=
  (ops5_keep (cont5 V) main_arg11 (by decide)).trans (at5_main_arg11 V)
theorem at6_main_arg12 (V : Valuation τ sig (Elt F)) : cont6 V (Proc.devRef .tc main_arg12) = V (Proc.devRef .tc main_arg12) :=
  (ops5_keep (cont5 V) main_arg12 (by decide)).trans (at5_main_arg12 V)
theorem at6_main_v103 (V : Valuation τ sig (Elt F)) : cont6 V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops5_keep (cont5 V) main_v103 (by decide)).trans (at5_main_v103 V)
theorem at6_main_v207 (V : Valuation τ sig (Elt F)) : cont6 V (Proc.devRef .tc main_v207) = val_main_v207 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops5_keep (cont5 V) main_v207 (by decide)).trans (at5_main_v207 V)
theorem at6_main_v311 (V : Valuation τ sig (Elt F)) : cont6 V (Proc.devRef .tc main_v311) = val_main_v311 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  win5_main_v311 (cont5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at5_main_arg0 V) (at5_main_arg1 V) (at5_main_arg2 V) (at5_main_arg3 V) (at5_main_arg4 V) (at5_main_arg5 V) (at5_main_arg6 V) (at5_main_arg7 V) (at5_main_arg8 V) (at5_main_arg9 V) (at5_main_arg10 V) (at5_main_arg11 V) (at5_main_arg12 V) (at5_main_v103 V) (at5_main_v207 V) (at5_main_v219 V) (at5_main_v221 V) (at5_main_v223 V) (at5_main_v225 V) (at5_main_v227 V) (at5_main_v229 V) (at5_main_v231 V) (at5_main_v233 V) (at5_main_v235 V) (at5_main_v256 V) (at5_main_v262 V) (at5_main_v266 V) (at5_main_v269 V)
theorem at6_main_v313 (V : Valuation τ sig (Elt F)) : cont6 V (Proc.devRef .tc main_v313) = val_main_v313 (F := F) (V (Proc.devRef .tc main_arg1)) :=
  win5_main_v313 (cont5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at5_main_arg0 V) (at5_main_arg1 V) (at5_main_arg2 V) (at5_main_arg3 V) (at5_main_arg4 V) (at5_main_arg5 V) (at5_main_arg6 V) (at5_main_arg7 V) (at5_main_arg8 V) (at5_main_arg9 V) (at5_main_arg10 V) (at5_main_arg11 V) (at5_main_arg12 V) (at5_main_v103 V) (at5_main_v207 V) (at5_main_v219 V) (at5_main_v221 V) (at5_main_v223 V) (at5_main_v225 V) (at5_main_v227 V) (at5_main_v229 V) (at5_main_v231 V) (at5_main_v233 V) (at5_main_v235 V) (at5_main_v256 V) (at5_main_v262 V) (at5_main_v266 V) (at5_main_v269 V)
theorem at6_main_v315 (V : Valuation τ sig (Elt F)) : cont6 V (Proc.devRef .tc main_v315) = val_main_v315 (F := F) (V (Proc.devRef .tc main_arg2)) :=
  win5_main_v315 (cont5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at5_main_arg0 V) (at5_main_arg1 V) (at5_main_arg2 V) (at5_main_arg3 V) (at5_main_arg4 V) (at5_main_arg5 V) (at5_main_arg6 V) (at5_main_arg7 V) (at5_main_arg8 V) (at5_main_arg9 V) (at5_main_arg10 V) (at5_main_arg11 V) (at5_main_arg12 V) (at5_main_v103 V) (at5_main_v207 V) (at5_main_v219 V) (at5_main_v221 V) (at5_main_v223 V) (at5_main_v225 V) (at5_main_v227 V) (at5_main_v229 V) (at5_main_v231 V) (at5_main_v233 V) (at5_main_v235 V) (at5_main_v256 V) (at5_main_v262 V) (at5_main_v266 V) (at5_main_v269 V)
theorem at6_main_v317 (V : Valuation τ sig (Elt F)) : cont6 V (Proc.devRef .tc main_v317) = val_main_v317 (F := F) (V (Proc.devRef .tc main_arg3)) :=
  win5_main_v317 (cont5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at5_main_arg0 V) (at5_main_arg1 V) (at5_main_arg2 V) (at5_main_arg3 V) (at5_main_arg4 V) (at5_main_arg5 V) (at5_main_arg6 V) (at5_main_arg7 V) (at5_main_arg8 V) (at5_main_arg9 V) (at5_main_arg10 V) (at5_main_arg11 V) (at5_main_arg12 V) (at5_main_v103 V) (at5_main_v207 V) (at5_main_v219 V) (at5_main_v221 V) (at5_main_v223 V) (at5_main_v225 V) (at5_main_v227 V) (at5_main_v229 V) (at5_main_v231 V) (at5_main_v233 V) (at5_main_v235 V) (at5_main_v256 V) (at5_main_v262 V) (at5_main_v266 V) (at5_main_v269 V)
theorem at6_main_v319 (V : Valuation τ sig (Elt F)) : cont6 V (Proc.devRef .tc main_v319) = val_main_v319 (F := F) (V (Proc.devRef .tc main_arg4)) :=
  win5_main_v319 (cont5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at5_main_arg0 V) (at5_main_arg1 V) (at5_main_arg2 V) (at5_main_arg3 V) (at5_main_arg4 V) (at5_main_arg5 V) (at5_main_arg6 V) (at5_main_arg7 V) (at5_main_arg8 V) (at5_main_arg9 V) (at5_main_arg10 V) (at5_main_arg11 V) (at5_main_arg12 V) (at5_main_v103 V) (at5_main_v207 V) (at5_main_v219 V) (at5_main_v221 V) (at5_main_v223 V) (at5_main_v225 V) (at5_main_v227 V) (at5_main_v229 V) (at5_main_v231 V) (at5_main_v233 V) (at5_main_v235 V) (at5_main_v256 V) (at5_main_v262 V) (at5_main_v266 V) (at5_main_v269 V)
theorem at6_main_v321 (V : Valuation τ sig (Elt F)) : cont6 V (Proc.devRef .tc main_v321) = val_main_v321 (F := F) (V (Proc.devRef .tc main_arg5)) :=
  win5_main_v321 (cont5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at5_main_arg0 V) (at5_main_arg1 V) (at5_main_arg2 V) (at5_main_arg3 V) (at5_main_arg4 V) (at5_main_arg5 V) (at5_main_arg6 V) (at5_main_arg7 V) (at5_main_arg8 V) (at5_main_arg9 V) (at5_main_arg10 V) (at5_main_arg11 V) (at5_main_arg12 V) (at5_main_v103 V) (at5_main_v207 V) (at5_main_v219 V) (at5_main_v221 V) (at5_main_v223 V) (at5_main_v225 V) (at5_main_v227 V) (at5_main_v229 V) (at5_main_v231 V) (at5_main_v233 V) (at5_main_v235 V) (at5_main_v256 V) (at5_main_v262 V) (at5_main_v266 V) (at5_main_v269 V)
theorem at6_main_v323 (V : Valuation τ sig (Elt F)) : cont6 V (Proc.devRef .tc main_v323) = val_main_v323 (F := F) (V (Proc.devRef .tc main_arg6)) :=
  win5_main_v323 (cont5 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at5_main_arg0 V) (at5_main_arg1 V) (at5_main_arg2 V) (at5_main_arg3 V) (at5_main_arg4 V) (at5_main_arg5 V) (at5_main_arg6 V) (at5_main_arg7 V) (at5_main_arg8 V) (at5_main_arg9 V) (at5_main_arg10 V) (at5_main_arg11 V) (at5_main_arg12 V) (at5_main_v103 V) (at5_main_v207 V) (at5_main_v219 V) (at5_main_v221 V) (at5_main_v223 V) (at5_main_v225 V) (at5_main_v227 V) (at5_main_v229 V) (at5_main_v231 V) (at5_main_v233 V) (at5_main_v235 V) (at5_main_v256 V) (at5_main_v262 V) (at5_main_v266 V) (at5_main_v269 V)

/-! ### After window 6 -/

theorem at7_main_arg0 (V : Valuation τ sig (Elt F)) : cont7 V (Proc.devRef .tc main_arg0) = V (Proc.devRef .tc main_arg0) :=
  (ops6_keep (cont6 V) main_arg0 (by decide)).trans (at6_main_arg0 V)
theorem at7_main_arg1 (V : Valuation τ sig (Elt F)) : cont7 V (Proc.devRef .tc main_arg1) = V (Proc.devRef .tc main_arg1) :=
  (ops6_keep (cont6 V) main_arg1 (by decide)).trans (at6_main_arg1 V)
theorem at7_main_arg2 (V : Valuation τ sig (Elt F)) : cont7 V (Proc.devRef .tc main_arg2) = V (Proc.devRef .tc main_arg2) :=
  (ops6_keep (cont6 V) main_arg2 (by decide)).trans (at6_main_arg2 V)
theorem at7_main_arg3 (V : Valuation τ sig (Elt F)) : cont7 V (Proc.devRef .tc main_arg3) = V (Proc.devRef .tc main_arg3) :=
  (ops6_keep (cont6 V) main_arg3 (by decide)).trans (at6_main_arg3 V)
theorem at7_main_arg4 (V : Valuation τ sig (Elt F)) : cont7 V (Proc.devRef .tc main_arg4) = V (Proc.devRef .tc main_arg4) :=
  (ops6_keep (cont6 V) main_arg4 (by decide)).trans (at6_main_arg4 V)
theorem at7_main_arg5 (V : Valuation τ sig (Elt F)) : cont7 V (Proc.devRef .tc main_arg5) = V (Proc.devRef .tc main_arg5) :=
  (ops6_keep (cont6 V) main_arg5 (by decide)).trans (at6_main_arg5 V)
theorem at7_main_arg6 (V : Valuation τ sig (Elt F)) : cont7 V (Proc.devRef .tc main_arg6) = V (Proc.devRef .tc main_arg6) :=
  (ops6_keep (cont6 V) main_arg6 (by decide)).trans (at6_main_arg6 V)
theorem at7_main_arg7 (V : Valuation τ sig (Elt F)) : cont7 V (Proc.devRef .tc main_arg7) = V (Proc.devRef .tc main_arg7) :=
  (ops6_keep (cont6 V) main_arg7 (by decide)).trans (at6_main_arg7 V)
theorem at7_main_arg8 (V : Valuation τ sig (Elt F)) : cont7 V (Proc.devRef .tc main_arg8) = V (Proc.devRef .tc main_arg8) :=
  (ops6_keep (cont6 V) main_arg8 (by decide)).trans (at6_main_arg8 V)
theorem at7_main_arg9 (V : Valuation τ sig (Elt F)) : cont7 V (Proc.devRef .tc main_arg9) = V (Proc.devRef .tc main_arg9) :=
  (ops6_keep (cont6 V) main_arg9 (by decide)).trans (at6_main_arg9 V)
theorem at7_main_arg10 (V : Valuation τ sig (Elt F)) : cont7 V (Proc.devRef .tc main_arg10) = V (Proc.devRef .tc main_arg10) :=
  (ops6_keep (cont6 V) main_arg10 (by decide)).trans (at6_main_arg10 V)
theorem at7_main_arg11 (V : Valuation τ sig (Elt F)) : cont7 V (Proc.devRef .tc main_arg11) = V (Proc.devRef .tc main_arg11) :=
  (ops6_keep (cont6 V) main_arg11 (by decide)).trans (at6_main_arg11 V)
theorem at7_main_arg12 (V : Valuation τ sig (Elt F)) : cont7 V (Proc.devRef .tc main_arg12) = V (Proc.devRef .tc main_arg12) :=
  (ops6_keep (cont6 V) main_arg12 (by decide)).trans (at6_main_arg12 V)
theorem at7_main_v103 (V : Valuation τ sig (Elt F)) : cont7 V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops6_keep (cont6 V) main_v103 (by decide)).trans (at6_main_v103 V)
theorem at7_main_v207 (V : Valuation τ sig (Elt F)) : cont7 V (Proc.devRef .tc main_v207) = val_main_v207 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops6_keep (cont6 V) main_v207 (by decide)).trans (at6_main_v207 V)
theorem at7_main_v311 (V : Valuation τ sig (Elt F)) : cont7 V (Proc.devRef .tc main_v311) = val_main_v311 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  (ops6_keep (cont6 V) main_v311 (by decide)).trans (at6_main_v311 V)
theorem at7_main_v323 (V : Valuation τ sig (Elt F)) : cont7 V (Proc.devRef .tc main_v323) = val_main_v323 (F := F) (V (Proc.devRef .tc main_arg6)) :=
  (ops6_keep (cont6 V) main_v323 (by decide)).trans (at6_main_v323 V)
theorem at7_main_v325 (V : Valuation τ sig (Elt F)) : cont7 V (Proc.devRef .tc main_v325) = val_main_v325 (F := F) (V (Proc.devRef .tc main_arg7)) :=
  win6_main_v325 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v327 (V : Valuation τ sig (Elt F)) : cont7 V (Proc.devRef .tc main_v327) = val_main_v327 (F := F) (V (Proc.devRef .tc main_arg8)) :=
  win6_main_v327 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v329 (V : Valuation τ sig (Elt F)) : cont7 V (Proc.devRef .tc main_v329) = val_main_v329 (F := F) (V (Proc.devRef .tc main_arg9)) :=
  win6_main_v329 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v331 (V : Valuation τ sig (Elt F)) : cont7 V (Proc.devRef .tc main_v331) = val_main_v331 (F := F) (V (Proc.devRef .tc main_arg10)) :=
  win6_main_v331 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v333 (V : Valuation τ sig (Elt F)) : cont7 V (Proc.devRef .tc main_v333) = val_main_v333 (F := F) (V (Proc.devRef .tc main_arg11)) :=
  win6_main_v333 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v335 (V : Valuation τ sig (Elt F)) : cont7 V (Proc.devRef .tc main_v335) = val_main_v335 (F := F) (V (Proc.devRef .tc main_arg12)) :=
  win6_main_v335 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v337 (V : Valuation τ sig (Elt F)) : cont7 V (Proc.devRef .tc main_v337) = val_main_v337 (F := F) (V (Proc.devRef .tc main_arg1)) :=
  win6_main_v337 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v339 (V : Valuation τ sig (Elt F)) : cont7 V (Proc.devRef .tc main_v339) = val_main_v339 (F := F) (V (Proc.devRef .tc main_arg1)) :=
  win6_main_v339 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v360 (V : Valuation τ sig (Elt F)) : cont7 V (Proc.devRef .tc main_v360) = val_main_v360 (F := F) (V (Proc.devRef .tc main_arg0)) (V (Proc.devRef .tc main_arg2)) (V (Proc.devRef .tc main_arg3)) :=
  win6_main_v360 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v366 (V : Valuation τ sig (Elt F)) : cont7 V (Proc.devRef .tc main_v366) = val_main_v366 (F := F) (V (Proc.devRef .tc main_arg0)) (V (Proc.devRef .tc main_arg1)) (V (Proc.devRef .tc main_arg4)) (V (Proc.devRef .tc main_arg5)) :=
  win6_main_v366 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v370 (V : Valuation τ sig (Elt F)) : cont7 V (Proc.devRef .tc main_v370) = val_main_v370 (F := F) (V (Proc.devRef .tc main_arg0)) (V (Proc.devRef .tc main_arg1)) (V (Proc.devRef .tc main_arg4)) (V (Proc.devRef .tc main_arg5)) :=
  win6_main_v370 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_v375 (V : Valuation τ sig (Elt F)) : cont7 V (Proc.devRef .tc main_v375) = val_main_v375 (F := F) (V (Proc.devRef .tc main_arg0)) (V (Proc.devRef .tc main_arg1)) (V (Proc.devRef .tc main_arg4)) (V (Proc.devRef .tc main_arg5)) :=
  win6_main_v375 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)
theorem at7_main_cst_41 (V : Valuation τ sig (Elt F)) : cont7 V (Proc.devRef .tc main_cst_41) = val_main_cst_41 (F := F) :=
  win6_main_cst_41 (cont6 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at6_main_arg0 V) (at6_main_arg1 V) (at6_main_arg2 V) (at6_main_arg3 V) (at6_main_arg4 V) (at6_main_arg5 V) (at6_main_arg6 V) (at6_main_arg7 V) (at6_main_arg8 V) (at6_main_arg9 V) (at6_main_arg10 V) (at6_main_arg11 V) (at6_main_arg12 V) (at6_main_v103 V) (at6_main_v207 V) (at6_main_v311 V) (at6_main_v313 V) (at6_main_v315 V) (at6_main_v317 V) (at6_main_v319 V) (at6_main_v321 V) (at6_main_v323 V)

/-! ### After window 7 -/

theorem at8_main_arg0 (V : Valuation τ sig (Elt F)) : cont8 V (Proc.devRef .tc main_arg0) = V (Proc.devRef .tc main_arg0) :=
  (ops7_keep (cont7 V) main_arg0 (by decide)).trans (at7_main_arg0 V)
theorem at8_main_arg1 (V : Valuation τ sig (Elt F)) : cont8 V (Proc.devRef .tc main_arg1) = V (Proc.devRef .tc main_arg1) :=
  (ops7_keep (cont7 V) main_arg1 (by decide)).trans (at7_main_arg1 V)
theorem at8_main_arg2 (V : Valuation τ sig (Elt F)) : cont8 V (Proc.devRef .tc main_arg2) = V (Proc.devRef .tc main_arg2) :=
  (ops7_keep (cont7 V) main_arg2 (by decide)).trans (at7_main_arg2 V)
theorem at8_main_arg3 (V : Valuation τ sig (Elt F)) : cont8 V (Proc.devRef .tc main_arg3) = V (Proc.devRef .tc main_arg3) :=
  (ops7_keep (cont7 V) main_arg3 (by decide)).trans (at7_main_arg3 V)
theorem at8_main_arg4 (V : Valuation τ sig (Elt F)) : cont8 V (Proc.devRef .tc main_arg4) = V (Proc.devRef .tc main_arg4) :=
  (ops7_keep (cont7 V) main_arg4 (by decide)).trans (at7_main_arg4 V)
theorem at8_main_arg5 (V : Valuation τ sig (Elt F)) : cont8 V (Proc.devRef .tc main_arg5) = V (Proc.devRef .tc main_arg5) :=
  (ops7_keep (cont7 V) main_arg5 (by decide)).trans (at7_main_arg5 V)
theorem at8_main_arg6 (V : Valuation τ sig (Elt F)) : cont8 V (Proc.devRef .tc main_arg6) = V (Proc.devRef .tc main_arg6) :=
  (ops7_keep (cont7 V) main_arg6 (by decide)).trans (at7_main_arg6 V)
theorem at8_main_arg7 (V : Valuation τ sig (Elt F)) : cont8 V (Proc.devRef .tc main_arg7) = V (Proc.devRef .tc main_arg7) :=
  (ops7_keep (cont7 V) main_arg7 (by decide)).trans (at7_main_arg7 V)
theorem at8_main_arg8 (V : Valuation τ sig (Elt F)) : cont8 V (Proc.devRef .tc main_arg8) = V (Proc.devRef .tc main_arg8) :=
  (ops7_keep (cont7 V) main_arg8 (by decide)).trans (at7_main_arg8 V)
theorem at8_main_arg9 (V : Valuation τ sig (Elt F)) : cont8 V (Proc.devRef .tc main_arg9) = V (Proc.devRef .tc main_arg9) :=
  (ops7_keep (cont7 V) main_arg9 (by decide)).trans (at7_main_arg9 V)
theorem at8_main_arg10 (V : Valuation τ sig (Elt F)) : cont8 V (Proc.devRef .tc main_arg10) = V (Proc.devRef .tc main_arg10) :=
  (ops7_keep (cont7 V) main_arg10 (by decide)).trans (at7_main_arg10 V)
theorem at8_main_arg11 (V : Valuation τ sig (Elt F)) : cont8 V (Proc.devRef .tc main_arg11) = V (Proc.devRef .tc main_arg11) :=
  (ops7_keep (cont7 V) main_arg11 (by decide)).trans (at7_main_arg11 V)
theorem at8_main_arg12 (V : Valuation τ sig (Elt F)) : cont8 V (Proc.devRef .tc main_arg12) = V (Proc.devRef .tc main_arg12) :=
  (ops7_keep (cont7 V) main_arg12 (by decide)).trans (at7_main_arg12 V)
theorem at8_main_v423 (V : Valuation τ sig (Elt F)) : cont8 V (Proc.devRef .tc main_v423) = val_main_v423 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  win7_main_v423 (cont7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (at7_main_arg0 V) (at7_main_arg1 V) (at7_main_arg2 V) (at7_main_arg3 V) (at7_main_arg4 V) (at7_main_arg5 V) (at7_main_arg6 V) (at7_main_arg7 V) (at7_main_arg8 V) (at7_main_arg9 V) (at7_main_arg10 V) (at7_main_arg11 V) (at7_main_arg12 V) (at7_main_v103 V) (at7_main_v207 V) (at7_main_v311 V) (at7_main_v323 V) (at7_main_v325 V) (at7_main_v327 V) (at7_main_v329 V) (at7_main_v331 V) (at7_main_v333 V) (at7_main_v335 V) (at7_main_v337 V) (at7_main_v339 V) (at7_main_v360 V) (at7_main_v366 V) (at7_main_v370 V) (at7_main_v375 V) (at7_main_cst_41 V)

/-- On every device, for any float values, from any memory with zero counters: every weakly fair execution of the
    program terminates with the result buffer at the last stage's value of the arguments' launch contents, and
    the arguments unchanged. -/
theorem runF (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v423) = val_main_v423 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v423).trans (by rw [after_ops]; exact at8_main_v423 (launchContents m c)),
      (h c main_arg0).trans (by rw [after_ops]; exact at8_main_arg0 (launchContents m c)),
      (h c main_arg1).trans (by rw [after_ops]; exact at8_main_arg1 (launchContents m c)),
      (h c main_arg2).trans (by rw [after_ops]; exact at8_main_arg2 (launchContents m c)),
      (h c main_arg3).trans (by rw [after_ops]; exact at8_main_arg3 (launchContents m c)),
      (h c main_arg4).trans (by rw [after_ops]; exact at8_main_arg4 (launchContents m c)),
      (h c main_arg5).trans (by rw [after_ops]; exact at8_main_arg5 (launchContents m c)),
      (h c main_arg6).trans (by rw [after_ops]; exact at8_main_arg6 (launchContents m c)),
      (h c main_arg7).trans (by rw [after_ops]; exact at8_main_arg7 (launchContents m c)),
      (h c main_arg8).trans (by rw [after_ops]; exact at8_main_arg8 (launchContents m c)),
      (h c main_arg9).trans (by rw [after_ops]; exact at8_main_arg9 (launchContents m c)),
      (h c main_arg10).trans (by rw [after_ops]; exact at8_main_arg10 (launchContents m c)),
      (h c main_arg11).trans (by rw [after_ops]; exact at8_main_arg11 (launchContents m c)),
      (h c main_arg12).trans (by rw [after_ops]; exact at8_main_arg12 (launchContents m c))⟩)
    (run_seq scopedRefs_eq scopedSems_eq defs main (fun _ => ops) main_eq (fun _ => ops_sub) m ρ (fun _ => ops_fresh))

end Cert.ReferenceIdeal.RefRun

namespace Cert.ReferenceIdeal.RunH

open Cert.ReferenceIdeal Cert.ReferenceIdeal.Gen Cert.ReferenceIdeal.Read Idealize.ShloMosaic Idealize.ShloMosaic.TcCoe Idealize.SL.Sem Idealize.ShloMosaic.StableHlo

/-- The run on the extended reals. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v423) = val_main_v423 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  Cert.ReferenceIdeal.RefRun.runF (F := Ideal) m ρ

end Cert.ReferenceIdeal.RunH

end
-- ==== Proof.AlgRun.lean ====
/-
  The algebraic claim: from memories that agree on the arguments both idealized programs run, and they end with
  the same result array — the kernel's run names its result buffer's contents, the reference's run ends at its
  stages' composed value, and the two values are one (`value_eq`).
-/
import proofs.«410647_j53395033423884_2_alg».proof.Proof.AlgVal
import proofs.«410647_j53395033423884_2_alg».proof.Proof.KRun
import proofs.«410647_j53395033423884_2_alg».proof.Proof.RefRunH

set_option maxRecDepth 16384

noncomputable section

namespace Cert.Proof.Alg

open Idealize.ShloMosaic Idealize.ShloMosaic.TcCoe Idealize.SL.Sem
open Cert.KernelIdeal Cert.KernelIdeal.Gen

theorem algebraic : Cert.algebraic_KernelIdeal_ReferenceIdeal := by
  intro m ρ m' ρ' hpre hagree
  refine ⟨fun c => W41 m ρ c (Proc.devRef .tc main_v206), Cert.KernelIdeal.Run.run_result m ρ, ?_⟩
  refine (θ_run Cert.ReferenceIdeal.defs _ _).mono (fun _ h c => ⟨(h c).1.trans ?_, (h c).2⟩)
    (Cert.ReferenceIdeal.RunH.run m' ρ')
  obtain ⟨h0, h1, h2, h3, h4, h5, h6, h7, h8, h9, h10, h11, h12⟩ := hagree c
  exact value_eq m ρ m' hpre c h0 h1 h2 h3 h4 h5 h6 h7 h8 h9 h10 h11 h12

/-- The reference's frame: its run with the result dropped. -/
theorem frame_ri : Cert.frame_ReferenceIdeal := fun m ρ _ =>
  (θ_run Cert.ReferenceIdeal.defs _ _).mono (fun _ h c => (h c).2) (Cert.ReferenceIdeal.RunH.run m ρ)

end Cert.Proof.Alg

end
-- ==== Proof.lean ====
/-
  The certificate of the heterogeneous message-passing layer: four edge types, each an edge network over
  |x[src] − x[dst]|, a node-linear map, a sum of the messages [xl[src] | e] into their destination nodes and a
  projection of [xl | h]; the result is the mean of the four.

  The kernel runs three tiled bodies per type (edge network, node-linear map, projection) with the row reads
  and the scatter-add on the host; the reference is the same computation in array operations. On the extended
  reals the two agree index by index:
  * a tiled body acts on each row by itself, so the array a region leaves is the row function applied to every
    row, whatever the tiling (`Proof/KReg*.lean` over `Proof/KPay.lean`), and the reference's chains are the same
    row functions (`Proof/RefRows.lean`);
  * the projection's one product over 192 entries is the sum of its products over the first 64 and the last 128
    (`Proof/Spec.lean`, `projRow_split`);
  * the kernel reads rows through an index test that replaces an out-of-range row; under the precondition every
    index is in range, the test passes everywhere and the read is the reference's plain row read
    (`Proof/PreIdx.lean`, `Proof/TakeMask.lean`);
  * a sum of four from zero scaled by a quarter is that sum divided by four, on every extended real
    (`Proof/Spec.lean`, `mean4`).
  The frames of the two kernel programs are the generated ones; the reference's run is read window by window
  (`Proof/RefWin*.lean`, `Proof/RefRunH.lean`) and its frame is that run with the result dropped. The idealization rewrote nothing, so nothing is owed for it.
-/
import proofs.«410647_j53395033423884_2_alg».proof.Defs
import proofs.«410647_j53395033423884_2_alg».proof.Proof.Gen.Kernel
import proofs.«410647_j53395033423884_2_alg».proof.Proof.Gen.Kernel.Frame
import proofs.«410647_j53395033423884_2_alg».proof.Proof.Gen.KernelIdeal
import proofs.«410647_j53395033423884_2_alg».proof.Proof.Gen.KernelIdeal.Frame
import proofs.«410647_j53395033423884_2_alg».proof.Proof.Gen.ReferenceIdeal
import proofs.«410647_j53395033423884_2_alg».proof.Proof.Gen.Pre_finite_inputs
import proofs.«410647_j53395033423884_2_alg».proof.Proof.AlgRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

theorem claim : Cert.Claim := ⟨Cert.Kernel.Gen.facts, Cert.KernelIdeal.Gen.facts, Cert.ReferenceIdeal.Gen.facts, Cert.Pre_finite_inputs.Gen.facts,
  frame_k, frame_ki, Cert.Proof.Alg.frame_ri, trivial, Cert.Proof.Alg.algebraic⟩

end Cert.Proof

end
